-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)) →
    ∃ (v0 : (c : Dev Cert.KernelIdeal.nD) → Buf (Elt Ideal) ((c.tc : Thread Cert.KernelIdeal.nD Cert.KernelIdeal.τ).loc Cert.KernelIdeal.main_v265)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v265) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v399) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S100000 : Shape := ⟨1, ![100000]⟩
abbrev S5 : Shape := ⟨1, ![5]⟩
abbrev S128x64 : Shape := ⟨2, ![128, 64]⟩
abbrev S64 : Shape := ⟨1, ![64]⟩
abbrev S4x64x64 : Shape := ⟨3, ![4, 64, 64]⟩
abbrev S4x64 : Shape := ⟨2, ![4, 64]⟩
abbrev S5x64 : Shape := ⟨2, ![5, 64]⟩
abbrev S5x64x64 : Shape := ⟨3, ![5, 64, 64]⟩
abbrev S320x16 : Shape := ⟨2, ![320, 16]⟩
abbrev S16 : Shape := ⟨1, ![16]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S5 : S_.BroadcastsInDim S5 (![] : Fin 0 → Fin S5.rank)
  reducesTo_S5_S_d0 : S5.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S4x64x64 : S_.BroadcastsInDim S4x64x64 (![] : Fin 0 → Fin S4x64x64.rank)
  reducesTo_S4x64x64_S_d0_1_2 : S4x64x64.ReducesTo [0, 1, 2] S_
  bcast_S_S4x64 : S_.BroadcastsInDim S4x64 (![] : Fin 0 → Fin S4x64.rank)
  reducesTo_S4x64_S_d0_1 : S4x64.ReducesTo [0, 1] S_
  bcast_S_S5x64 : S_.BroadcastsInDim S5x64 (![] : Fin 0 → Fin S5x64.rank)
  reducesTo_S5x64_S_d0_1 : S5x64.ReducesTo [0, 1] S_
  bcast_S_S5x64x64 : S_.BroadcastsInDim S5x64x64 (![] : Fin 0 → Fin S5x64x64.rank)
  reducesTo_S5x64x64_S_d0_1_2 : S5x64x64.ReducesTo [0, 1, 2] S_
  bcast_S_S320x16 : S_.BroadcastsInDim S320x16 (![] : Fin 0 → Fin S320x16.rank)
  reducesTo_S320x16_S_d0_1 : S320x16.ReducesTo [0, 1] S_
  bcast_S_S16 : S_.BroadcastsInDim S16 (![] : Fin 0 → Fin S16.rank)
  reducesTo_S16_S_d0 : S16.ReducesTo [0] S_

variable [Facts]

def fn_part5 {F : FTy → Type} [FloatOps F] (main_v83 : IVec S_ 1) (main_v84 : FVec F S16 .f32) (main_cst_32 : FVec F S_ .f32) : IVec S_ 1 :=
  let main_v85 : FVec F S16 .f32 := broadcastInDim S16 ![] bcast_S_S16 main_cst_32
  let main_v86 : IVec S16 1 := cmpf .olt main_v84 main_v85
  let main_c_33 : IVec S_ 1 := constantI S_ 1 1#1
  let main_v87 : IVec S_ 1 := (fun x v => Host.reduce IntOp.andi x v reducesTo_S16_S_d0 h_S_) main_v86 main_c_33
  let main_v88 : IVec S_ 1 := andi main_v83 main_v87
  main_v88

def fn_part4 {F : FTy → Type} [FloatOps F] (main_arg16 : FVec F S5x64 .f32) (main_arg17 : FVec F S5x64 .f32) (main_arg18 : FVec F S320x16 .f32) (main_arg19 : FVec F S16 .f32) (main_v63 : IVec S_ 1) (main_v67 : IVec S_ 1) : IVec S_ 1 :=
  let main_v68 : IVec S_ 1 := andi main_v63 main_v67
  let main_v69 : FVec F S5x64 .f32 := Host.absf main_arg16
  let main_cst_26 : FVec F S_ .f32 := constant S_ .f32 0x7F800000#32
  let main_v70 : FVec F S5x64 .f32 := broadcastInDim S5x64 ![] bcast_S_S5x64 main_cst_26
  let main_v71 : IVec S5x64 1 := cmpf .olt main_v69 main_v70
  let main_c_27 : IVec S_ 1 := constantI S_ 1 1#1
  let main_v72 : IVec S_ 1 := (fun x v => Host.reduce IntOp.andi x v reducesTo_S5x64_S_d0_1 h_S_) main_v71 main_c_27
  let main_v73 : IVec S_ 1 := andi main_v68 main_v72
  let main_v74 : FVec F S5x64 .f32 := Host.absf main_arg17
  let main_cst_28 : FVec F S_ .f32 := constant S_ .f32 0x7F800000#32
  let main_v75 : FVec F S5x64 .f32 := broadcastInDim S5x64 ![] bcast_S_S5x64 main_cst_28
  let main_v76 : IVec S5x64 1 := cmpf .olt main_v74 main_v75
  let main_c_29 : IVec S_ 1 := constantI S_ 1 1#1
  let main_v77 : IVec S_ 1 := (fun x v => Host.reduce IntOp.andi x v reducesTo_S5x64_S_d0_1 h_S_) main_v76 main_c_29
  let main_v78 : IVec S_ 1 := andi main_v73 main_v77
  let main_v79 : FVec F S320x16 .f32 := Host.absf main_arg18
  let main_cst_30 : FVec F S_ .f32 := constant S_ .f32 0x7F800000#32
  let main_v80 : FVec F S320x16 .f32 := broadcastInDim S320x16 ![] bcast_S_S320x16 main_cst_30
  let main_v81 : IVec S320x16 1 := cmpf .olt main_v79 main_v80
  let main_c_31 : IVec S_ 1 := constantI S_ 1 1#1
  let main_v82 : IVec S_ 1 := (fun x v => Host.reduce IntOp.andi x v reducesTo_S320x16_S_d0_1 h_S_) main_v81 main_c_31
  let main_v83 : IVec S_ 1 := andi main_v78 main_v82
  let main_v84 : FVec F S16 .f32 := Host.absf main_arg19
  let main_cst_32 : FVec F S_ .f32 := constant S_ .f32 0x7F800000#32
  fn_part5 (F := F) main_v83 main_v84 main_cst_32

def fn_part3 {F : FTy → Type} [FloatOps F] (main_arg13 : FVec F S5x64 .f32) (main_arg14 : FVec F S5x64 .f32) (main_arg15 : FVec F S5x64 .f32) (main_arg16 : FVec F S5x64 .f32) (main_arg17 : FVec F S5x64 .f32) (main_arg18 : FVec F S320x16 .f32) (main_arg19 : FVec F S16 .f32) (main_v48 : IVec S_ 1) (main_v49 : FVec F S5x64x64 .f32) (main_v50 : FVec F S5x64x64 .f32) : IVec S_ 1 :=
  let main_v51 : IVec S5x64x64 1 := cmpf .olt main_v49 main_v50
  let main_c_19 : IVec S_ 1 := constantI S_ 1 1#1
  let main_v52 : IVec S_ 1 := (fun x v => Host.reduce IntOp.andi x v reducesTo_S5x64x64_S_d0_1_2 h_S_) main_v51 main_c_19
  let main_v53 : IVec S_ 1 := andi main_v48 main_v52
  let main_v54 : FVec F S5x64 .f32 := Host.absf main_arg13
  let main_cst_20 : FVec F S_ .f32 := constant S_ .f32 0x7F800000#32
  let main_v55 : FVec F S5x64 .f32 := broadcastInDim S5x64 ![] bcast_S_S5x64 main_cst_20
  let main_v56 : IVec S5x64 1 := cmpf .olt main_v54 main_v55
  let main_c_21 : IVec S_ 1 := constantI S_ 1 1#1
  let main_v57 : IVec S_ 1 := (fun x v => Host.reduce IntOp.andi x v reducesTo_S5x64_S_d0_1 h_S_) main_v56 main_c_21
  let main_v58 : IVec S_ 1 := andi main_v53 main_v57
  let main_v59 : FVec F S5x64 .f32 := Host.absf main_arg14
  let main_cst_22 : FVec F S_ .f32 := constant S_ .f32 0x7F800000#32
  let main_v60 : FVec F S5x64 .f32 := broadcastInDim S5x64 ![] bcast_S_S5x64 main_cst_22
  let main_v61 : IVec S5x64 1 := cmpf .olt main_v59 main_v60
  let main_c_23 : IVec S_ 1 := constantI S_ 1 1#1
  let main_v62 : IVec S_ 1 := (fun x v => Host.reduce IntOp.andi x v reducesTo_S5x64_S_d0_1 h_S_) main_v61 main_c_23
  let main_v63 : IVec S_ 1 := andi main_v58 main_v62
  let main_v64 : FVec F S5x64 .f32 := Host.absf main_arg15
  let main_cst_24 : FVec F S_ .f32 := constant S_ .f32 0x7F800000#32
  let main_v65 : FVec F S5x64 .f32 := broadcastInDim S5x64 ![] bcast_S_S5x64 main_cst_24
  let main_v66 : IVec S5x64 1 := cmpf .olt main_v64 main_v65
  let main_c_25 : IVec S_ 1 := constantI S_ 1 1#1
  let main_v67 : IVec S_ 1 := (fun x v => Host.reduce IntOp.andi x v reducesTo_S5x64_S_d0_1 h_S_) main_v66 main_c_25
  fn_part4 (F := F) main_arg16 main_arg17 main_arg18 main_arg19 main_v63 main_v67

def fn_part2 {F : FTy → Type} [FloatOps F] (main_arg9 : FVec F S5x64 .f32) (main_arg10 : FVec F S5x64 .f32) (main_arg11 : FVec F S5x64 .f32) (main_arg12 : FVec F S5x64x64 .f32) (main_arg13 : FVec F S5x64 .f32) (main_arg14 : FVec F S5x64 .f32) (main_arg15 : FVec F S5x64 .f32) (main_arg16 : FVec F S5x64 .f32) (main_arg17 : FVec F S5x64 .f32) (main_arg18 : FVec F S320x16 .f32) (main_arg19 : FVec F S16 .f32) (main_v33 : IVec S_ 1) : IVec S_ 1 :=
  let main_v34 : FVec F S5x64 .f32 := Host.absf main_arg9
  let main_cst_12 : FVec F S_ .f32 := constant S_ .f32 0x7F800000#32
  let main_v35 : FVec F S5x64 .f32 := broadcastInDim S5x64 ![] bcast_S_S5x64 main_cst_12
  let main_v36 : IVec S5x64 1 := cmpf .olt main_v34 main_v35
  let main_c_13 : IVec S_ 1 := constantI S_ 1 1#1
  let main_v37 : IVec S_ 1 := (fun x v => Host.reduce IntOp.andi x v reducesTo_S5x64_S_d0_1 h_S_) main_v36 main_c_13
  let main_v38 : IVec S_ 1 := andi main_v33 main_v37
  let main_v39 : FVec F S5x64 .f32 := Host.absf main_arg10
  let main_cst_14 : FVec F S_ .f32 := constant S_ .f32 0x7F800000#32
  let main_v40 : FVec F S5x64 .f32 := broadcastInDim S5x64 ![] bcast_S_S5x64 main_cst_14
  let main_v41 : IVec S5x64 1 := cmpf .olt main_v39 main_v40
  let main_c_15 : IVec S_ 1 := constantI S_ 1 1#1
  let main_v42 : IVec S_ 1 := (fun x v => Host.reduce IntOp.andi x v reducesTo_S5x64_S_d0_1 h_S_) main_v41 main_c_15
  let main_v43 : IVec S_ 1 := andi main_v38 main_v42
  let main_v44 : FVec F S5x64 .f32 := Host.absf main_arg11
  let main_cst_16 : FVec F S_ .f32 := constant S_ .f32 0x7F800000#32
  let main_v45 : FVec F S5x64 .f32 := broadcastInDim S5x64 ![] bcast_S_S5x64 main_cst_16
  let main_v46 : IVec S5x64 1 := cmpf .olt main_v44 main_v45
  let main_c_17 : IVec S_ 1 := constantI S_ 1 1#1
  let main_v47 : IVec S_ 1 := (fun x v => Host.reduce IntOp.andi x v reducesTo_S5x64_S_d0_1 h_S_) main_v46 main_c_17
  let main_v48 : IVec S_ 1 := andi main_v43 main_v47
  let main_v49 : FVec F S5x64x64 .f32 := Host.absf main_arg12
  let main_cst_18 : FVec F S_ .f32 := constant S_ .f32 0x7F800000#32
  let main_v50 : FVec F S5x64x64 .f32 := broadcastInDim S5x64x64 ![] bcast_S_S5x64x64 main_cst_18
  fn_part3 (F := F) main_arg13 main_arg14 main_arg15 main_arg16 main_arg17 main_arg18 main_arg19 main_v48 main_v49 main_v50

def fn_part1 {F : FTy → Type} [FloatOps F] (main_arg6 : FVec F S4x64x64 .f32) (main_arg7 : FVec F S4x64 .f32) (main_arg8 : FVec F S5x64 .f32) (main_arg9 : FVec F S5x64 .f32) (main_arg10 : FVec F S5x64 .f32) (main_arg11 : FVec F S5x64 .f32) (main_arg12 : FVec F S5x64x64 .f32) (main_arg13 : FVec F S5x64 .f32) (main_arg14 : FVec F S5x64 .f32) (main_arg15 : FVec F S5x64 .f32) (main_arg16 : FVec F S5x64 .f32) (main_arg17 : FVec F S5x64 .f32) (main_arg18 : FVec F S320x16 .f32) (main_arg19 : FVec F S16 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S4x64x64 .f32 := Host.absf main_arg6
  let main_cst_6 : FVec F S_ .f32 := constant S_ .f32 0x7F800000#32
  let main_v20 : FVec F S4x64x64 .f32 := broadcastInDim S4x64x64 ![] bcast_S_S4x64x64 main_cst_6
  let main_v21 : IVec S4x64x64 1 := cmpf .olt main_v19 main_v20
  let main_c_7 : IVec S_ 1 := constantI S_ 1 1#1
  let main_v22 : IVec S_ 1 := (fun x v => Host.reduce IntOp.andi x v reducesTo_S4x64x64_S_d0_1_2 h_S_) main_v21 main_c_7
  let main_v23 : IVec S_ 1 := andi main_v18 main_v22
  let main_v24 : FVec F S4x64 .f32 := Host.absf main_arg7
  let main_cst_8 : FVec F S_ .f32 := constant S_ .f32 0x7F800000#32
  let main_v25 : FVec F S4x64 .f32 := broadcastInDim S4x64 ![] bcast_S_S4x64 main_cst_8
  let main_v26 : IVec S4x64 1 := cmpf .olt main_v24 main_v25
  let main_c_9 : IVec S_ 1 := constantI S_ 1 1#1
  let main_v27 : IVec S_ 1 := (fun x v => Host.reduce IntOp.andi x v reducesTo_S4x64_S_d0_1 h_S_) main_v26 main_c_9
  let main_v28 : IVec S_ 1 := andi main_v23 main_v27
  let main_v29 : FVec F S5x64 .f32 := Host.absf main_arg8
  let main_cst_10 : FVec F S_ .f32 := constant S_ .f32 0x7F800000#32
  let main_v30 : FVec F S5x64 .f32 := broadcastInDim S5x64 ![] bcast_S_S5x64 main_cst_10
  let main_v31 : IVec S5x64 1 := cmpf .olt main_v29 main_v30
  let main_c_11 : IVec S_ 1 := constantI S_ 1 1#1
  let main_v32 : IVec S_ 1 := (fun x v => Host.reduce IntOp.andi x v reducesTo_S5x64_S_d0_1 h_S_) main_v31 main_c_11
  let main_v33 : IVec S_ 1 := andi main_v28 main_v32
  fn_part2 (F := F) main_arg9 main_arg10 main_arg11 main_arg12 main_arg13 main_arg14 main_arg15 main_arg16 main_arg17 main_arg18 main_arg19 main_v33

def fn {F : FTy → Type} [FloatOps F] (main_arg0 : FVec F S100000x128 .f32) (main_arg1 : IVec S2x1600000 32) (main_arg2 : IVec S100000 32) (main_arg3 : FVec F S5 .f32) (main_arg4 : FVec F S128x64 .f32) (main_arg5 : FVec F S64 .f32) (main_arg6 : FVec F S4x64x64 .f32) (main_arg7 : FVec F S4x64 .f32) (main_arg8 : FVec F S5x64 .f32) (main_arg9 : FVec F S5x64 .f32) (main_arg10 : FVec F S5x64 .f32) (main_arg11 : FVec F S5x64 .f32) (main_arg12 : FVec F S5x64x64 .f32) (main_arg13 : FVec F S5x64 .f32) (main_arg14 : FVec F S5x64 .f32) (main_arg15 : FVec F S5x64 .f32) (main_arg16 : FVec F S5x64 .f32) (main_arg17 : FVec F S5x64 .f32) (main_arg18 : FVec F S320x16 .f32) (main_arg19 : FVec F S16 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S5 .f32 := Host.absf main_arg3
  let main_cst_0 : FVec F S_ .f32 := constant S_ .f32 0x7F800000#32
  let main_v5 : FVec F S5 .f32 := broadcastInDim S5 ![] bcast_S_S5 main_cst_0
  let main_v6 : IVec S5 1 := cmpf .olt main_v4 main_v5
  let main_c_1 : IVec S_ 1 := constantI S_ 1 1#1
  let main_v7 : IVec S_ 1 := (fun x v => Host.reduce IntOp.andi x v reducesTo_S5_S_d0 h_S_) main_v6 main_c_1
  let main_v8 : IVec S_ 1 := andi main_v3 main_v7
  let main_v9 : FVec F S128x64 .f32 := Host.absf main_arg4
  let main_cst_2 : FVec F S_ .f32 := constant S_ .f32 0x7F800000#32
  let main_v10 : FVec F S128x64 .f32 := broadcastInDim S128x64 ![] bcast_S_S128x64 main_cst_2
  let main_v11 : IVec S128x64 1 := cmpf .olt main_v9 main_v10
  let main_c_3 : IVec S_ 1 := constantI S_ 1 1#1
  let main_v12 : IVec S_ 1 := (fun x v => Host.reduce IntOp.andi x v reducesTo_S128x64_S_d0_1 h_S_) main_v11 main_c_3
  let main_v13 : IVec S_ 1 := andi main_v8 main_v12
  let main_v14 : FVec F S64 .f32 := Host.absf main_arg5
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg6 main_arg7 main_arg8 main_arg9 main_arg10 main_arg11 main_arg12 main_arg13 main_arg14 main_arg15 main_arg16 main_arg17 main_arg18 main_arg19 main_v13 main_v16
-- ==== Kernel.lean ====
abbrev S100000x128 : Shape := ⟨2, ![100000, 128]⟩
abbrev S2x1600000 : Shape := ⟨2, ![2, 1600000]⟩
abbrev S100000 : Shape := ⟨1, ![100000]⟩
abbrev S5 : Shape := ⟨1, ![5]⟩
abbrev S128x64 : Shape := ⟨2, ![128, 64]⟩
abbrev S64 : Shape := ⟨1, ![64]⟩
abbrev S4x64x64 : Shape := ⟨3, ![4, 64, 64]⟩
abbrev S4x64 : Shape := ⟨2, ![4, 64]⟩
abbrev S5x64 : Shape := ⟨2, ![5, 64]⟩
abbrev S5x64x64 : Shape := ⟨3, ![5, 64, 64]⟩
abbrev S320x16 : Shape := ⟨2, ![320, 16]⟩
abbrev S16 : Shape := ⟨1, ![16]⟩
abbrev S1x1600000 : Shape := ⟨2, ![1, 1600000]⟩
abbrev S1600000 : Shape := ⟨1, ![1600000]⟩
abbrev S100000x1 : Shape := ⟨2, ![100000, 1]⟩
abbrev S_ : Shape := ⟨0, ![]⟩
abbrev S1600000x1 : Shape := ⟨2, ![1600000, 1]⟩
abbrev S1600000x128 : Shape := ⟨2, ![1600000, 128]⟩
abbrev S1 : Shape := ⟨1, ![1]⟩
abbrev S1x64 : Shape := ⟨2, ![1, 64]⟩
abbrev S1x64x64 : Shape := ⟨3, ![1, 64, 64]⟩
abbrev S64x64 : Shape := ⟨2, ![64, 64]⟩
abbrev S100000x64 : Shape := ⟨2, ![100000, 64]⟩
abbrev S2x512x64 : Shape := ⟨3, ![2, 512, 64]⟩
abbrev S5000x128 : Shape := ⟨2, ![5000, 128]⟩
abbrev S5000x1 : Shape := ⟨2, ![5000, 1]⟩
abbrev S5000x64 : Shape := ⟨2, ![5000, 64]⟩
abbrev S1x512x64 : Shape := ⟨3, ![1, 512, 64]⟩
abbrev S512x64 : Shape := ⟨2, ![512, 64]⟩
abbrev S5000x512 : Shape := ⟨2, ![5000, 512]⟩
abbrev S1600000x64 : Shape := ⟨2, ![1600000, 64]⟩
abbrev S512x320 : Shape := ⟨2, ![512, 320]⟩
abbrev S512x16 : Shape := ⟨2, ![512, 16]⟩
abbrev S1x16 : Shape := ⟨2, ![1, 16]⟩

abbrev nBuf : Space → Nat
  | .hbm => 316
  | .vmem => 100
  | .smem => 0
  | _ => 0

abbrev hbmTy0_0 (i : Nat) : BufTy := match i % 128 with
  | 0 => ⟨S100000x128, .f32⟩
  | 1 => ⟨S2x1600000, .i32⟩
  | 2 => ⟨S100000, .i32⟩
  | 3 => ⟨S5, .f32⟩
  | 4 => ⟨S128x64, .f32⟩
  | 5 => ⟨S64, .f32⟩
  | 6 => ⟨S4x64x64, .f32⟩
  | 7 => ⟨S4x64, .f32⟩
  | 8 => ⟨S5x64, .f32⟩
  | 9 => ⟨S5x64, .f32⟩
  | 10 => ⟨S5x64, .f32⟩
  | 11 => ⟨S5x64, .f32⟩
  | 12 => ⟨S5x64x64, .f32⟩
  | 13 => ⟨S5x64, .f32⟩
  | 14 => ⟨S5x64, .f32⟩
  | 15 => ⟨S5x64, .f32⟩
  | 16 => ⟨S5x64, .f32⟩
  | 17 => ⟨S5x64, .f32⟩
  | 18 => ⟨S320x16, .f32⟩
  | 19 => ⟨S16, .f32⟩
  | 20 => ⟨S1x1600000, .i32⟩
  | 21 => ⟨S1600000, .i32⟩
  | 22 => ⟨S1x1600000, .i32⟩
  | 23 => ⟨S1600000, .i32⟩
  | 24 => ⟨S100000x1, .i32⟩
  | 25 => ⟨S_, .i32⟩
  | 26 => ⟨S1600000, .i32⟩
  | 27 => ⟨S1600000, .i1⟩
  | 28 => ⟨S_, .i32⟩
  | 29 => ⟨S1600000, .i32⟩
  | 30 => ⟨S1600000, .i32⟩
  | 31 => ⟨S1600000, .i32⟩
  | 32 => ⟨S1600000x1, .i32⟩
  | 33 => ⟨S1600000x128, .f32⟩
  | 34 => ⟨S_, .f32⟩
  | 35 => ⟨S100000x128, .f32⟩
  | 36 => ⟨S1600000x1, .i32⟩
  | 37 => ⟨S100000x128, .f32⟩
  | 38 => ⟨S1, .f32⟩
  | 39 => ⟨S_, .f32⟩
  | 40 => ⟨S_, .f32⟩
  | 41 => ⟨S_, .f32⟩
  | 42 => ⟨S100000x128, .f32⟩
  | 43 => ⟨S100000x128, .f32⟩
  | 44 => ⟨S100000x128, .f32⟩
  | 45 => ⟨S1x64, .f32⟩
  | 46 => ⟨S1x64, .f32⟩
  | 47 => ⟨S64, .f32⟩
  | 48 => ⟨S1x64, .f32⟩
  | 49 => ⟨S1x64, .f32⟩
  | 50 => ⟨S64, .f32⟩
  | 51 => ⟨S1x64, .f32⟩
  | 52 => ⟨S1x64, .f32⟩
  | 53 => ⟨S64, .f32⟩
  | 54 => ⟨S1x64, .f32⟩
  | 55 => ⟨S1x64, .f32⟩
  | 56 => ⟨S64, .f32⟩
  | 57 => ⟨S1x64, .f32⟩
  | 58 => ⟨S1x64x64, .f32⟩
  | 59 => ⟨S64x64, .f32⟩
  | 60 => ⟨S1x64, .f32⟩
  | 61 => ⟨S64, .f32⟩
  | 62 => ⟨S1x64, .f32⟩
  | 63 => ⟨S1x64, .f32⟩
  | 64 => ⟨S64, .f32⟩
  | 65 => ⟨S1x64, .f32⟩
  | 66 => ⟨S1x64, .f32⟩
  | 67 => ⟨S64, .f32⟩
  | 68 => ⟨S1x64, .f32⟩
  | 69 => ⟨S1x64, .f32⟩
  | 70 => ⟨S64, .f32⟩
  | 71 => ⟨S1x64, .f32⟩
  | 72 => ⟨S1x64, .f32⟩
  | 73 => ⟨S64, .f32⟩
  | 74 => ⟨S1x64, .f32⟩
  | 75 => ⟨S100000x64, .f32⟩
  | 76 => ⟨S2x512x64, .f32⟩
  | 77 => ⟨S_, .f32⟩
  | 78 => ⟨S512x64, .f32⟩
  | 79 => ⟨S_, .i32⟩
  | 80 => ⟨S1600000, .i32⟩
  | 81 => ⟨S1600000, .i1⟩
  | 82 => ⟨S_, .i32⟩
  | 83 => ⟨S1600000, .i32⟩
  | 84 => ⟨S1600000, .i32⟩
  | 85 => ⟨S1600000, .i32⟩
  | 86 => ⟨S1600000x1, .i32⟩
  | 87 => ⟨S1600000x64, .f32⟩
  | 88 => ⟨S_, .f32⟩
  | 89 => ⟨S100000x64, .f32⟩
  | 90 => ⟨S1600000x1, .i32⟩
  | 91 => ⟨S100000x64, .f32⟩
  | 92 => ⟨S1, .f32⟩
  | 93 => ⟨S_, .f32⟩
  | 94 => ⟨S_, .f32⟩
  | 95 => ⟨S_, .f32⟩
  | 96 => ⟨S100000x64, .f32⟩
  | 97 => ⟨S100000x64, .f32⟩
  | 98 => ⟨S100000x64, .f32⟩
  | 99 => ⟨S1x64x64, .f32⟩
  | 100 => ⟨S64x64, .f32⟩
  | 101 => ⟨S1x64, .f32⟩
  | 102 => ⟨S64, .f32⟩
  | 103 => ⟨S1x64, .f32⟩
  | 104 => ⟨S1x64, .f32⟩
  | 105 => ⟨S64, .f32⟩
  | 106 => ⟨S1x64, .f32⟩
  | 107 => ⟨S1x64, .f32⟩
  | 108 => ⟨S64, .f32⟩
  | 109 => ⟨S1x64, .f32⟩
  | 110 => ⟨S1x64, .f32⟩
  | 111 => ⟨S64, .f32⟩
  | 112 => ⟨S1x64, .f32⟩
  | 113 => ⟨S1x64, .f32⟩
  | 114 => ⟨S64, .f32⟩
  | 115 => ⟨S1x64, .f32⟩
  | 116 => ⟨S1x64x64, .f32⟩
  | 117 => ⟨S64x64, .f32⟩
  | 118 => ⟨S1x64, .f32⟩
  | 119 => ⟨S64, .f32⟩
  | 120 => ⟨S1x64, .f32⟩
  | 121 => ⟨S1x64, .f32⟩
  | 122 => ⟨S64, .f32⟩
  | 123 => ⟨S1x64, .f32⟩
  | 124 => ⟨S1x64, .f32⟩
  | 125 => ⟨S64, .f32⟩
  | 126 => ⟨S1x64, .f32⟩
  | 127 => ⟨S1x64, .f32⟩
  | _ => ⟨S100000x128, .f32⟩

abbrev hbmTy0_1 (i : Nat) : BufTy := match i % 128 with
  | 0 => ⟨S64, .f32⟩
  | 1 => ⟨S1x64, .f32⟩
  | 2 => ⟨S1x64, .f32⟩
  | 3 => ⟨S64, .f32⟩
  | 4 => ⟨S1x64, .f32⟩
  | 5 => ⟨S100000x64, .f32⟩
  | 6 => ⟨S2x512x64, .f32⟩
  | 7 => ⟨S_, .f32⟩
  | 8 => ⟨S512x64, .f32⟩
  | 9 => ⟨S_, .i32⟩
  | 10 => ⟨S1600000, .i32⟩
  | 11 => ⟨S1600000, .i1⟩
  | 12 => ⟨S_, .i32⟩
  | 13 => ⟨S1600000, .i32⟩
  | 14 => ⟨S1600000, .i32⟩
  | 15 => ⟨S1600000, .i32⟩
  | 16 => ⟨S1600000x1, .i32⟩
  | 17 => ⟨S1600000x64, .f32⟩
  | 18 => ⟨S_, .f32⟩
  | 19 => ⟨S100000x64, .f32⟩
  | 20 => ⟨S1600000x1, .i32⟩
  | 21 => ⟨S100000x64, .f32⟩
  | 22 => ⟨S1, .f32⟩
  | 23 => ⟨S_, .f32⟩
  | 24 => ⟨S_, .f32⟩
  | 25 => ⟨S_, .f32⟩
  | 26 => ⟨S100000x64, .f32⟩
  | 27 => ⟨S100000x64, .f32⟩
  | 28 => ⟨S100000x64, .f32⟩
  | 29 => ⟨S1x64x64, .f32⟩
  | 30 => ⟨S64x64, .f32⟩
  | 31 => ⟨S1x64, .f32⟩
  | 32 => ⟨S64, .f32⟩
  | 33 => ⟨S1x64, .f32⟩
  | 34 => ⟨S1x64, .f32⟩
  | 35 => ⟨S64, .f32⟩
  | 36 => ⟨S1x64, .f32⟩
  | 37 => ⟨S1x64, .f32⟩
  | 38 => ⟨S64, .f32⟩
  | 39 => ⟨S1x64, .f32⟩
  | 40 => ⟨S1x64, .f32⟩
  | 41 => ⟨S64, .f32⟩
  | 42 => ⟨S1x64, .f32⟩
  | 43 => ⟨S1x64, .f32⟩
  | 44 => ⟨S64, .f32⟩
  | 45 => ⟨S1x64, .f32⟩
  | 46 => ⟨S1x64x64, .f32⟩
  | 47 => ⟨S64x64, .f32⟩
  | 48 => ⟨S1x64, .f32⟩
  | 49 => ⟨S64, .f32⟩
  | 50 => ⟨S1x64, .f32⟩
  | 51 => ⟨S1x64, .f32⟩
  | 52 => ⟨S64, .f32⟩
  | 53 => ⟨S1x64, .f32⟩
  | 54 => ⟨S1x64, .f32⟩
  | 55 => ⟨S64, .f32⟩
  | 56 => ⟨S1x64, .f32⟩
  | 57 => ⟨S1x64, .f32⟩
  | 58 => ⟨S64, .f32⟩
  | 59 => ⟨S1x64, .f32⟩
  | 60 => ⟨S1x64, .f32⟩
  | 61 => ⟨S64, .f32⟩
  | 62 => ⟨S1x64, .f32⟩
  | 63 => ⟨S100000x64, .f32⟩
  | 64 => ⟨S2x512x64, .f32⟩
  | 65 => ⟨S_, .f32⟩
  | 66 => ⟨S512x64, .f32⟩
  | 67 => ⟨S_, .i32⟩
  | 68 => ⟨S1600000, .i32⟩
  | 69 => ⟨S1600000, .i1⟩
  | 70 => ⟨S_, .i32⟩
  | 71 => ⟨S1600000, .i32⟩
  | 72 => ⟨S1600000, .i32⟩
  | 73 => ⟨S1600000, .i32⟩
  | 74 => ⟨S1600000x1, .i32⟩
  | 75 => ⟨S1600000x64, .f32⟩
  | 76 => ⟨S_, .f32⟩
  | 77 => ⟨S100000x64, .f32⟩
  | 78 => ⟨S1600000x1, .i32⟩
  | 79 => ⟨S100000x64, .f32⟩
  | 80 => ⟨S1, .f32⟩
  | 81 => ⟨S_, .f32⟩
  | 82 => ⟨S_, .f32⟩
  | 83 => ⟨S_, .f32⟩
  | 84 => ⟨S100000x64, .f32⟩
  | 85 => ⟨S100000x64, .f32⟩
  | 86 => ⟨S100000x64, .f32⟩
  | 87 => ⟨S1x64x64, .f32⟩
  | 88 => ⟨S64x64, .f32⟩
  | 89 => ⟨S1x64, .f32⟩
  | 90 => ⟨S64, .f32⟩
  | 91 => ⟨S1x64, .f32⟩
  | 92 => ⟨S1x64, .f32⟩
  | 93 => ⟨S64, .f32⟩
  | 94 => ⟨S1x64, .f32⟩
  | 95 => ⟨S1x64, .f32⟩
  | 96 => ⟨S64, .f32⟩
  | 97 => ⟨S1x64, .f32⟩
  | 98 => ⟨S1x64, .f32⟩
  | 99 => ⟨S64, .f32⟩
  | 100 => ⟨S1x64, .f32⟩
  | 101 => ⟨S1x64, .f32⟩
  | 102 => ⟨S64, .f32⟩
  | 103 => ⟨S1x64, .f32⟩
  | 104 => ⟨S1x64x64, .f32⟩
  | 105 => ⟨S64x64, .f32⟩
  | 106 => ⟨S1x64, .f32⟩
  | 107 => ⟨S64, .f32⟩
  | 108 => ⟨S1x64, .f32⟩
  | 109 => ⟨S1x64, .f32⟩
  | 110 => ⟨S64, .f32⟩
  | 111 => ⟨S1x64, .f32⟩
  | 112 => ⟨S1x64, .f32⟩
  | 113 => ⟨S64, .f32⟩
  | 114 => ⟨S1x64, .f32⟩
  | 115 => ⟨S1x64, .f32⟩
  | 116 => ⟨S64, .f32⟩
  | 117 => ⟨S1x64, .f32⟩
  | 118 => ⟨S1x64, .f32⟩
  | 119 => ⟨S64, .f32⟩
  | 120 => ⟨S1x64, .f32⟩
  | 121 => ⟨S100000x64, .f32⟩
  | 122 => ⟨S2x512x64, .f32⟩
  | 123 => ⟨S_, .f32⟩
  | 124 => ⟨S512x64, .f32⟩
  | 125 => ⟨S_, .i32⟩
  | 126 => ⟨S1600000, .i32⟩
  | 127 => ⟨S1600000, .i1⟩
  | _ => ⟨S100000x128, .f32⟩

abbrev hbmTy0_2 (i : Nat) : BufTy := match i % 128 with
  | 0 => ⟨S_, .i32⟩
  | 1 => ⟨S1600000, .i32⟩
  | 2 => ⟨S1600000, .i32⟩
  | 3 => ⟨S1600000, .i32⟩
  | 4 => ⟨S1600000x1, .i32⟩
  | 5 => ⟨S1600000x64, .f32⟩
  | 6 => ⟨S_, .f32⟩
  | 7 => ⟨S100000x64, .f32⟩
  | 8 => ⟨S1600000x1, .i32⟩
  | 9 => ⟨S100000x64, .f32⟩
  | 10 => ⟨S1, .f32⟩
  | 11 => ⟨S_, .f32⟩
  | 12 => ⟨S_, .f32⟩
  | 13 => ⟨S_, .f32⟩
  | 14 => ⟨S100000x64, .f32⟩
  | 15 => ⟨S100000x64, .f32⟩
  | 16 => ⟨S100000x64, .f32⟩
  | 17 => ⟨S1x64x64, .f32⟩
  | 18 => ⟨S64x64, .f32⟩
  | 19 => ⟨S1x64, .f32⟩
  | 20 => ⟨S64, .f32⟩
  | 21 => ⟨S1x64, .f32⟩
  | 22 => ⟨S1x64, .f32⟩
  | 23 => ⟨S64, .f32⟩
  | 24 => ⟨S1x64, .f32⟩
  | 25 => ⟨S1x64, .f32⟩
  | 26 => ⟨S64, .f32⟩
  | 27 => ⟨S1x64, .f32⟩
  | 28 => ⟨S1x64, .f32⟩
  | 29 => ⟨S64, .f32⟩
  | 30 => ⟨S1x64, .f32⟩
  | 31 => ⟨S1x64, .f32⟩
  | 32 => ⟨S64, .f32⟩
  | 33 => ⟨S1x64, .f32⟩
  | 34 => ⟨S1x64x64, .f32⟩
  | 35 => ⟨S64x64, .f32⟩
  | 36 => ⟨S1x64, .f32⟩
  | 37 => ⟨S64, .f32⟩
  | 38 => ⟨S1x64, .f32⟩
  | 39 => ⟨S1x64, .f32⟩
  | 40 => ⟨S64, .f32⟩
  | 41 => ⟨S1x64, .f32⟩
  | 42 => ⟨S1x64, .f32⟩
  | 43 => ⟨S64, .f32⟩
  | 44 => ⟨S1x64, .f32⟩
  | 45 => ⟨S1x64, .f32⟩
  | 46 => ⟨S64, .f32⟩
  | 47 => ⟨S1x64, .f32⟩
  | 48 => ⟨S1x64, .f32⟩
  | 49 => ⟨S64, .f32⟩
  | 50 => ⟨S1x64, .f32⟩
  | 51 => ⟨S100000x64, .f32⟩
  | 52 => ⟨S2x512x64, .f32⟩
  | 53 => ⟨S_, .f32⟩
  | 54 => ⟨S512x64, .f32⟩
  | 55 => ⟨S512x320, .f32⟩
  | 56 => ⟨S512x16, .f32⟩
  | 57 => ⟨S1x16, .f32⟩
  | 58 => ⟨S512x16, .f32⟩
  | 59 => ⟨S512x16, .f32⟩
  | _ => ⟨S100000x128, .f32⟩

abbrev hbmTy (i : Nat) : BufTy := match i / 128 with
  | 0 => hbmTy0_0 i
  | 1 => hbmTy0_1 i
  | 2 => hbmTy0_2 i
  | _ => ⟨S100000x128, .f32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S5000x1, .i32⟩
  | .local _ .vmem, ⟨3, _⟩ => ⟨S5000x1, .i32⟩
  | .local _ .vmem, ⟨4, _⟩ => ⟨S128x64, .f32⟩
  | .local _ .vmem, ⟨5, _⟩ => ⟨S1x64, .f32⟩
  | .local _ .vmem, ⟨6, _⟩ => ⟨S1x64, .f32⟩
  | .local _ .vmem, ⟨7, _⟩ => ⟨S1x64, .f32⟩
  | .local _ .vmem, ⟨8, _⟩ => ⟨S1x64, .f32⟩
  | .local _ .vmem, ⟨9, _⟩ => ⟨S1x64, .f32⟩
  | .local _ .vmem, ⟨10, _⟩ => ⟨S64x64, .f32⟩
  | .local _ .vmem, ⟨11, _⟩ => ⟨S1x64, .f32⟩
  | .local _ .vmem, ⟨12, _⟩ => ⟨S1x64, .f32⟩
  | .local _ .vmem, ⟨13, _⟩ => ⟨S1x64, .f32⟩
  | .local _ .vmem, ⟨14, _⟩ => ⟨S1x64, .f32⟩
  | .local _ .vmem, ⟨15, _⟩ => ⟨S1x64, .f32⟩
  | .local _ .vmem, ⟨16, _⟩ => ⟨S5000x64, .f32⟩
  | .local _ .vmem, ⟨17, _⟩ => ⟨S5000x64, .f32⟩
  | .local _ .vmem, ⟨18, _⟩ => ⟨S1x512x64, .f32⟩
  | .local _ .vmem, ⟨19, _⟩ => ⟨S1x512x64, .f32⟩
  | .local _ .vmem, ⟨20, _⟩ => ⟨S5000x64, .f32⟩
  | .local _ .vmem, ⟨21, _⟩ => ⟨S5000x64, .f32⟩
  | .local _ .vmem, ⟨22, _⟩ => ⟨S5000x1, .i32⟩
  | .local _ .vmem, ⟨23, _⟩ => ⟨S5000x1, .i32⟩
  | .local _ .vmem, ⟨24, _⟩ => ⟨S64x64, .f32⟩
  | .local _ .vmem, ⟨25, _⟩ => ⟨S1x64, .f32⟩
  | .local _ .vmem, ⟨26, _⟩ => ⟨S1x64, .f32⟩
  | .local _ .vmem, ⟨27, _⟩ => ⟨S1x64, .f32⟩
  | .local _ .vmem, ⟨28, _⟩ => ⟨S1x64, .f32⟩
  | .local _ .vmem, ⟨29, _⟩ => ⟨S1x64, .f32⟩
  | .local _ .vmem, ⟨30, _⟩ => ⟨S64x64, .f32⟩
  | .local _ .vmem, ⟨31, _⟩ => ⟨S1x64, .f32⟩
  | .local _ .vmem, ⟨32, _⟩ => ⟨S1x64, .f32⟩
  | .local _ .vmem, ⟨33, _⟩ => ⟨S1x64, .f32⟩
  | .local _ .vmem, ⟨34, _⟩ => ⟨S1x64, .f32⟩
  | .local _ .vmem, ⟨35, _⟩ => ⟨S1x64, .f32⟩
  | .local _ .vmem, ⟨36, _⟩ => ⟨S5000x64, .f32⟩
  | .local _ .vmem, ⟨37, _⟩ => ⟨S5000x64, .f32⟩
  | .local _ .vmem, ⟨38, _⟩ => ⟨S1x512x64, .f32⟩
  | .local _ .vmem, ⟨39, _⟩ => ⟨S1x512x64, .f32⟩
  | .local _ .vmem, ⟨40, _⟩ => ⟨S5000x64, .f32⟩
  | .local _ .vmem, ⟨41, _⟩ => ⟨S5000x64, .f32⟩
  | .local _ .vmem, ⟨42, _⟩ => ⟨S5000x1, .i32⟩
  | .local _ .vmem, ⟨43, _⟩ => ⟨S5000x1, .i32⟩
  | .local _ .vmem, ⟨44, _⟩ => ⟨S64x64, .f32⟩
  | .local _ .vmem, ⟨45, _⟩ => ⟨S1x64, .f32⟩
  | .local _ .vmem, ⟨46, _⟩ => ⟨S1x64, .f32⟩
  | .local _ .vmem, ⟨47, _⟩ => ⟨S1x64, .f32⟩
  | .local _ .vmem, ⟨48, _⟩ => ⟨S1x64, .f32⟩
  | .local _ .vmem, ⟨49, _⟩ => ⟨S1x64, .f32⟩
  | .local _ .vmem, ⟨50, _⟩ => ⟨S64x64, .f32⟩
  | .local _ .vmem, ⟨51, _⟩ => ⟨S1x64, .f32⟩
  | .local _ .vmem, ⟨52, _⟩ => ⟨S1x64, .f32⟩
  | .local _ .vmem, ⟨53, _⟩ => ⟨S1x64, .f32⟩
  | .local _ .vmem, ⟨54, _⟩ => ⟨S1x64, .f32⟩
  | .local _ .vmem, ⟨55, _⟩ => ⟨S1x64, .f32⟩
  | .local _ .vmem, ⟨56, _⟩ => ⟨S5000x64, .f32⟩
  | .local _ .vmem, ⟨57, _⟩ => ⟨S5000x64, .f32⟩
  | .local _ .vmem, ⟨58, _⟩ => ⟨S1x512x64, .f32⟩
  | .local _ .vmem, ⟨59, _⟩ => ⟨S1x512x64, .f32⟩
  | .local _ .vmem, ⟨60, _⟩ => ⟨S5000x64, .f32⟩
  | .local _ .vmem, ⟨61, _⟩ => ⟨S5000x64, .f32⟩
  | .local _ .vmem, ⟨62, _⟩ => ⟨S5000x1, .i32⟩
  | .local _ .vmem, ⟨63, _⟩ => ⟨S5000x1, .i32⟩
  | .local _ .vmem, ⟨64, _⟩ => ⟨S64x64, .f32⟩
  | .local _ .vmem, ⟨65, _⟩ => ⟨S1x64, .f32⟩
  | .local _ .vmem, ⟨66, _⟩ => ⟨S1x64, .f32⟩
  | .local _ .vmem, ⟨67, _⟩ => ⟨S1x64, .f32⟩
  | .local _ .vmem, ⟨68, _⟩ => ⟨S1x64, .f32⟩
  | .local _ .vmem, ⟨69, _⟩ => ⟨S1x64, .f32⟩
  | .local _ .vmem, ⟨70, _⟩ => ⟨S64x64, .f32⟩
  | .local _ .vmem, ⟨71, _⟩ => ⟨S1x64, .f32⟩
  | .local _ .vmem, ⟨72, _⟩ => ⟨S1x64, .f32⟩
  | .local _ .vmem, ⟨73, _⟩ => ⟨S1x64, .f32⟩
  | .local _ .vmem, ⟨74, _⟩ => ⟨S1x64, .f32⟩
  | .local _ .vmem, ⟨75, _⟩ => ⟨S1x64, .f32⟩
  | .local _ .vmem, ⟨76, _⟩ => ⟨S5000x64, .f32⟩
  | .local _ .vmem, ⟨77, _⟩ => ⟨S5000x64, .f32⟩
  | .local _ .vmem, ⟨78, _⟩ => ⟨S1x512x64, .f32⟩
  | .local _ .vmem, ⟨79, _⟩ => ⟨S1x512x64, .f32⟩
  | .local _ .vmem, ⟨80, _⟩ => ⟨S5000x64, .f32⟩
  | .local _ .vmem, ⟨81, _⟩ => ⟨S5000x64, .f32⟩
  | .local _ .vmem, ⟨82, _⟩ => ⟨S5000x1, .i32⟩
  | .local _ .vmem, ⟨83, _⟩ => ⟨S5000x1, .i32⟩
  | .local _ .vmem, ⟨84, _⟩ => ⟨S64x64, .f32⟩
  | .local _ .vmem, ⟨85, _⟩ => ⟨S1x64, .f32⟩
  | .local _ .vmem, ⟨86, _⟩ => ⟨S1x64, .f32⟩
  | .local _ .vmem, ⟨87, _⟩ => ⟨S1x64, .f32⟩
  | .local _ .vmem, ⟨88, _⟩ => ⟨S1x64, .f32⟩
  | .local _ .vmem, ⟨89, _⟩ => ⟨S1x64, .f32⟩
  | .local _ .vmem, ⟨90, _⟩ => ⟨S64x64, .f32⟩
  | .local _ .vmem, ⟨91, _⟩ => ⟨S1x64, .f32⟩
  | .local _ .vmem, ⟨92, _⟩ => ⟨S1x64, .f32⟩
  | .local _ .vmem, ⟨93, _⟩ => ⟨S1x64, .f32⟩
  | .local _ .vmem, ⟨94, _⟩ => ⟨S1x64, .f32⟩
  | .local _ .vmem, ⟨95, _⟩ => ⟨S1x64, .f32⟩
  | .local _ .vmem, ⟨96, _⟩ => ⟨S5000x64, .f32⟩
  | .local _ .vmem, ⟨97, _⟩ => ⟨S5000x64, .f32⟩
  | .local _ .vmem, ⟨98, _⟩ => ⟨S1x512x64, .f32⟩
  | .local _ .vmem, ⟨99, _⟩ => ⟨S1x512x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | .vmem, ⟨82, _⟩ => true
  | .vmem, ⟨83, _⟩ => true
  | .vmem, ⟨84, _⟩ => true
  | .vmem, ⟨85, _⟩ => true
  | .vmem, ⟨86, _⟩ => true
  | .vmem, ⟨87, _⟩ => true
  | .vmem, ⟨88, _⟩ => true
  | .vmem, ⟨89, _⟩ => true
  | .vmem, ⟨90, _⟩ => true
  | .vmem, ⟨91, _⟩ => true
  | .vmem, ⟨92, _⟩ => true
  | .vmem, ⟨93, _⟩ => true
  | .vmem, ⟨94, _⟩ => true
  | .vmem, ⟨95, _⟩ => true
  | .vmem, ⟨96, _⟩ => true
  | .vmem, ⟨97, _⟩ => true
  | .vmem, ⟨98, _⟩ => true
  | .vmem, ⟨99, _⟩ => true
  | _, _ => false

abbrev semScoped : Fin 0 → Bool
  | ⟨_, h⟩ => absurd h (Nat.not_lt_zero _)

abbrev dmaSemScoped : Fin 100 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | ⟨94, _⟩ => true
  | ⟨95, _⟩ => true
  | ⟨96, _⟩ => true
  | ⟨97, _⟩ => true
  | ⟨98, _⟩ => true
  | ⟨99, _⟩ => true
  | _ => false

abbrev sig : RefSig :=
  ofTc nBuf bufTy 0 100 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_v0 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_v4 : Ref sig .tc := ⟨.hbm, 24, rfl⟩
abbrev main_c : Ref sig .tc := ⟨.hbm, 25, rfl⟩
abbrev main_v5 : Ref sig .tc := ⟨.hbm, 26, rfl⟩
abbrev main_v6 : Ref sig .tc := ⟨.hbm, 27, rfl⟩
abbrev main_c_0 : Ref sig .tc := ⟨.hbm, 28, rfl⟩
abbrev main_v7 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev main_cst : Ref sig .tc := ⟨.hbm, 34, rfl⟩
abbrev main_v12 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_cst_1 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51_0 : Ref sig .tc := ⟨.hbm, 75, rfl⟩
abbrev main_v51_1 : Ref sig .tc := ⟨.hbm, 76, rfl⟩
abbrev main_cst_2 : Ref sig .tc := ⟨.hbm, 77, rfl⟩
abbrev main_v52 : Ref sig .tc := ⟨.hbm, 78, rfl⟩
abbrev main_c_3 : Ref sig .tc := ⟨.hbm, 79, rfl⟩
abbrev main_v53 : Ref sig .tc := ⟨.hbm, 80, rfl⟩
abbrev main_v54 : Ref sig .tc := ⟨.hbm, 81, rfl⟩
abbrev main_c_4 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_cst_5 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_cst_6 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩
abbrev main_v92 : Ref sig .tc := ⟨.hbm, 122, rfl⟩
abbrev main_v93 : Ref sig .tc := ⟨.hbm, 123, rfl⟩
abbrev main_v94 : Ref sig .tc := ⟨.hbm, 124, rfl⟩
abbrev main_v95 : Ref sig .tc := ⟨.hbm, 125, rfl⟩
abbrev main_v96 : Ref sig .tc := ⟨.hbm, 126, rfl⟩
abbrev main_v97 : Ref sig .tc := ⟨.hbm, 127, rfl⟩
abbrev main_v98 : Ref sig .tc := ⟨.hbm, 128, rfl⟩
abbrev main_v99 : Ref sig .tc := ⟨.hbm, 129, rfl⟩
abbrev main_v100 : Ref sig .tc := ⟨.hbm, 130, rfl⟩
abbrev main_v101 : Ref sig .tc := ⟨.hbm, 131, rfl⟩
abbrev main_v102 : Ref sig .tc := ⟨.hbm, 132, rfl⟩
abbrev main_v103_0 : Ref sig .tc := ⟨.hbm, 133, rfl⟩
abbrev main_v103_1 : Ref sig .tc := ⟨.hbm, 134, rfl⟩
abbrev main_cst_7 : Ref sig .tc := ⟨.hbm, 135, rfl⟩
abbrev main_v104 : Ref sig .tc := ⟨.hbm, 136, rfl⟩
abbrev main_c_8 : Ref sig .tc := ⟨.hbm, 137, rfl⟩
abbrev main_v105 : Ref sig .tc := ⟨.hbm, 138, rfl⟩
abbrev main_v106 : Ref sig .tc := ⟨.hbm, 139, rfl⟩
abbrev main_c_9 : Ref sig .tc := ⟨.hbm, 140, rfl⟩
abbrev main_v107 : Ref sig .tc := ⟨.hbm, 141, rfl⟩
abbrev main_v108 : Ref sig .tc := ⟨.hbm, 142, rfl⟩
abbrev main_v109 : Ref sig .tc := ⟨.hbm, 143, rfl⟩
abbrev main_v110 : Ref sig .tc := ⟨.hbm, 144, rfl⟩
abbrev main_v111 : Ref sig .tc := ⟨.hbm, 145, rfl⟩
abbrev main_cst_10 : Ref sig .tc := ⟨.hbm, 146, rfl⟩
abbrev main_v112 : Ref sig .tc := ⟨.hbm, 147, rfl⟩
abbrev main_v113 : Ref sig .tc := ⟨.hbm, 148, rfl⟩
abbrev main_v114 : Ref sig .tc := ⟨.hbm, 149, rfl⟩
abbrev main_v115 : Ref sig .tc := ⟨.hbm, 150, rfl⟩
abbrev main_v116 : Ref sig .tc := ⟨.hbm, 151, rfl⟩
abbrev main_cst_11 : Ref sig .tc := ⟨.hbm, 152, rfl⟩
abbrev main_v117 : Ref sig .tc := ⟨.hbm, 153, rfl⟩
abbrev main_v118 : Ref sig .tc := ⟨.hbm, 154, rfl⟩
abbrev main_v119 : Ref sig .tc := ⟨.hbm, 155, rfl⟩
abbrev main_v120 : Ref sig .tc := ⟨.hbm, 156, rfl⟩
abbrev main_v121 : Ref sig .tc := ⟨.hbm, 157, rfl⟩
abbrev main_v122 : Ref sig .tc := ⟨.hbm, 158, rfl⟩
abbrev main_v123 : Ref sig .tc := ⟨.hbm, 159, rfl⟩
abbrev main_v124 : Ref sig .tc := ⟨.hbm, 160, rfl⟩
abbrev main_v125 : Ref sig .tc := ⟨.hbm, 161, rfl⟩
abbrev main_v126 : Ref sig .tc := ⟨.hbm, 162, rfl⟩
abbrev main_v127 : Ref sig .tc := ⟨.hbm, 163, rfl⟩
abbrev main_v128 : Ref sig .tc := ⟨.hbm, 164, rfl⟩
abbrev main_v129 : Ref sig .tc := ⟨.hbm, 165, rfl⟩
abbrev main_v130 : Ref sig .tc := ⟨.hbm, 166, rfl⟩
abbrev main_v131 : Ref sig .tc := ⟨.hbm, 167, rfl⟩
abbrev main_v132 : Ref sig .tc := ⟨.hbm, 168, rfl⟩
abbrev main_v133 : Ref sig .tc := ⟨.hbm, 169, rfl⟩
abbrev main_v134 : Ref sig .tc := ⟨.hbm, 170, rfl⟩
abbrev main_v135 : Ref sig .tc := ⟨.hbm, 171, rfl⟩
abbrev main_v136 : Ref sig .tc := ⟨.hbm, 172, rfl⟩
abbrev main_v137 : Ref sig .tc := ⟨.hbm, 173, rfl⟩
abbrev main_v138 : Ref sig .tc := ⟨.hbm, 174, rfl⟩
abbrev main_v139 : Ref sig .tc := ⟨.hbm, 175, rfl⟩
abbrev main_v140 : Ref sig .tc := ⟨.hbm, 176, rfl⟩
abbrev main_v141 : Ref sig .tc := ⟨.hbm, 177, rfl⟩
abbrev main_v142 : Ref sig .tc := ⟨.hbm, 178, rfl⟩
abbrev main_v143 : Ref sig .tc := ⟨.hbm, 179, rfl⟩
abbrev main_v144 : Ref sig .tc := ⟨.hbm, 180, rfl⟩
abbrev main_v145 : Ref sig .tc := ⟨.hbm, 181, rfl⟩
abbrev main_v146 : Ref sig .tc := ⟨.hbm, 182, rfl⟩
abbrev main_v147 : Ref sig .tc := ⟨.hbm, 183, rfl⟩
abbrev main_v148 : Ref sig .tc := ⟨.hbm, 184, rfl⟩
abbrev main_v149 : Ref sig .tc := ⟨.hbm, 185, rfl⟩
abbrev main_v150 : Ref sig .tc := ⟨.hbm, 186, rfl⟩
abbrev main_v151 : Ref sig .tc := ⟨.hbm, 187, rfl⟩
abbrev main_v152 : Ref sig .tc := ⟨.hbm, 188, rfl⟩
abbrev main_v153 : Ref sig .tc := ⟨.hbm, 189, rfl⟩
abbrev main_v154 : Ref sig .tc := ⟨.hbm, 190, rfl⟩
abbrev main_v155_0 : Ref sig .tc := ⟨.hbm, 191, rfl⟩
abbrev main_v155_1 : Ref sig .tc := ⟨.hbm, 192, rfl⟩
abbrev main_cst_12 : Ref sig .tc := ⟨.hbm, 193, rfl⟩
abbrev main_v156 : Ref sig .tc := ⟨.hbm, 194, rfl⟩
abbrev main_c_13 : Ref sig .tc := ⟨.hbm, 195, rfl⟩
abbrev main_v157 : Ref sig .tc := ⟨.hbm, 196, rfl⟩
abbrev main_v158 : Ref sig .tc := ⟨.hbm, 197, rfl⟩
abbrev main_c_14 : Ref sig .tc := ⟨.hbm, 198, rfl⟩
abbrev main_v159 : Ref sig .tc := ⟨.hbm, 199, rfl⟩
abbrev main_v160 : Ref sig .tc := ⟨.hbm, 200, rfl⟩
abbrev main_v161 : Ref sig .tc := ⟨.hbm, 201, rfl⟩
abbrev main_v162 : Ref sig .tc := ⟨.hbm, 202, rfl⟩
abbrev main_v163 : Ref sig .tc := ⟨.hbm, 203, rfl⟩
abbrev main_cst_15 : Ref sig .tc := ⟨.hbm, 204, rfl⟩
abbrev main_v164 : Ref sig .tc := ⟨.hbm, 205, rfl⟩
abbrev main_v165 : Ref sig .tc := ⟨.hbm, 206, rfl⟩
abbrev main_v166 : Ref sig .tc := ⟨.hbm, 207, rfl⟩
abbrev main_v167 : Ref sig .tc := ⟨.hbm, 208, rfl⟩
abbrev main_v168 : Ref sig .tc := ⟨.hbm, 209, rfl⟩
abbrev main_cst_16 : Ref sig .tc := ⟨.hbm, 210, rfl⟩
abbrev main_v169 : Ref sig .tc := ⟨.hbm, 211, rfl⟩
abbrev main_v170 : Ref sig .tc := ⟨.hbm, 212, rfl⟩
abbrev main_v171 : Ref sig .tc := ⟨.hbm, 213, rfl⟩
abbrev main_v172 : Ref sig .tc := ⟨.hbm, 214, rfl⟩
abbrev main_v173 : Ref sig .tc := ⟨.hbm, 215, rfl⟩
abbrev main_v174 : Ref sig .tc := ⟨.hbm, 216, rfl⟩
abbrev main_v175 : Ref sig .tc := ⟨.hbm, 217, rfl⟩
abbrev main_v176 : Ref sig .tc := ⟨.hbm, 218, rfl⟩
abbrev main_v177 : Ref sig .tc := ⟨.hbm, 219, rfl⟩
abbrev main_v178 : Ref sig .tc := ⟨.hbm, 220, rfl⟩
abbrev main_v179 : Ref sig .tc := ⟨.hbm, 221, rfl⟩
abbrev main_v180 : Ref sig .tc := ⟨.hbm, 222, rfl⟩
abbrev main_v181 : Ref sig .tc := ⟨.hbm, 223, rfl⟩
abbrev main_v182 : Ref sig .tc := ⟨.hbm, 224, rfl⟩
abbrev main_v183 : Ref sig .tc := ⟨.hbm, 225, rfl⟩
abbrev main_v184 : Ref sig .tc := ⟨.hbm, 226, rfl⟩
abbrev main_v185 : Ref sig .tc := ⟨.hbm, 227, rfl⟩
abbrev main_v186 : Ref sig .tc := ⟨.hbm, 228, rfl⟩
abbrev main_v187 : Ref sig .tc := ⟨.hbm, 229, rfl⟩
abbrev main_v188 : Ref sig .tc := ⟨.hbm, 230, rfl⟩
abbrev main_v189 : Ref sig .tc := ⟨.hbm, 231, rfl⟩
abbrev main_v190 : Ref sig .tc := ⟨.hbm, 232, rfl⟩
abbrev main_v191 : Ref sig .tc := ⟨.hbm, 233, rfl⟩
abbrev main_v192 : Ref sig .tc := ⟨.hbm, 234, rfl⟩
abbrev main_v193 : Ref sig .tc := ⟨.hbm, 235, rfl⟩
abbrev main_v194 : Ref sig .tc := ⟨.hbm, 236, rfl⟩
abbrev main_v195 : Ref sig .tc := ⟨.hbm, 237, rfl⟩
abbrev main_v196 : Ref sig .tc := ⟨.hbm, 238, rfl⟩
abbrev main_v197 : Ref sig .tc := ⟨.hbm, 239, rfl⟩
abbrev main_v198 : Ref sig .tc := ⟨.hbm, 240, rfl⟩
abbrev main_v199 : Ref sig .tc := ⟨.hbm, 241, rfl⟩
abbrev main_v200 : Ref sig .tc := ⟨.hbm, 242, rfl⟩
abbrev main_v201 : Ref sig .tc := ⟨.hbm, 243, rfl⟩
abbrev main_v202 : Ref sig .tc := ⟨.hbm, 244, rfl⟩
abbrev main_v203 : Ref sig .tc := ⟨.hbm, 245, rfl⟩
abbrev main_v204 : Ref sig .tc := ⟨.hbm, 246, rfl⟩
abbrev main_v205 : Ref sig .tc := ⟨.hbm, 247, rfl⟩
abbrev main_v206 : Ref sig .tc := ⟨.hbm, 248, rfl⟩
abbrev main_v207_0 : Ref sig .tc := ⟨.hbm, 249, rfl⟩
abbrev main_v207_1 : Ref sig .tc := ⟨.hbm, 250, rfl⟩
abbrev main_cst_17 : Ref sig .tc := ⟨.hbm, 251, rfl⟩
abbrev main_v208 : Ref sig .tc := ⟨.hbm, 252, rfl⟩
abbrev main_c_18 : Ref sig .tc := ⟨.hbm, 253, rfl⟩
abbrev main_v209 : Ref sig .tc := ⟨.hbm, 254, rfl⟩
abbrev main_v210 : Ref sig .tc := ⟨.hbm, 255, rfl⟩
abbrev main_c_19 : Ref sig .tc := ⟨.hbm, 256, rfl⟩
abbrev main_v211 : Ref sig .tc := ⟨.hbm, 257, rfl⟩
abbrev main_v212 : Ref sig .tc := ⟨.hbm, 258, rfl⟩
abbrev main_v213 : Ref sig .tc := ⟨.hbm, 259, rfl⟩
abbrev main_v214 : Ref sig .tc := ⟨.hbm, 260, rfl⟩
abbrev main_v215 : Ref sig .tc := ⟨.hbm, 261, rfl⟩
abbrev main_cst_20 : Ref sig .tc := ⟨.hbm, 262, rfl⟩
abbrev main_v216 : Ref sig .tc := ⟨.hbm, 263, rfl⟩
abbrev main_v217 : Ref sig .tc := ⟨.hbm, 264, rfl⟩
abbrev main_v218 : Ref sig .tc := ⟨.hbm, 265, rfl⟩
abbrev main_v219 : Ref sig .tc := ⟨.hbm, 266, rfl⟩
abbrev main_v220 : Ref sig .tc := ⟨.hbm, 267, rfl⟩
abbrev main_cst_21 : Ref sig .tc := ⟨.hbm, 268, rfl⟩
abbrev main_v221 : Ref sig .tc := ⟨.hbm, 269, rfl⟩
abbrev main_v222 : Ref sig .tc := ⟨.hbm, 270, rfl⟩
abbrev main_v223 : Ref sig .tc := ⟨.hbm, 271, rfl⟩
abbrev main_v224 : Ref sig .tc := ⟨.hbm, 272, rfl⟩
abbrev main_v225 : Ref sig .tc := ⟨.hbm, 273, rfl⟩
abbrev main_v226 : Ref sig .tc := ⟨.hbm, 274, rfl⟩
abbrev main_v227 : Ref sig .tc := ⟨.hbm, 275, rfl⟩
abbrev main_v228 : Ref sig .tc := ⟨.hbm, 276, rfl⟩
abbrev main_v229 : Ref sig .tc := ⟨.hbm, 277, rfl⟩
abbrev main_v230 : Ref sig .tc := ⟨.hbm, 278, rfl⟩
abbrev main_v231 : Ref sig .tc := ⟨.hbm, 279, rfl⟩
abbrev main_v232 : Ref sig .tc := ⟨.hbm, 280, rfl⟩
abbrev main_v233 : Ref sig .tc := ⟨.hbm, 281, rfl⟩
abbrev main_v234 : Ref sig .tc := ⟨.hbm, 282, rfl⟩
abbrev main_v235 : Ref sig .tc := ⟨.hbm, 283, rfl⟩
abbrev main_v236 : Ref sig .tc := ⟨.hbm, 284, rfl⟩
abbrev main_v237 : Ref sig .tc := ⟨.hbm, 285, rfl⟩
abbrev main_v238 : Ref sig .tc := ⟨.hbm, 286, rfl⟩
abbrev main_v239 : Ref sig .tc := ⟨.hbm, 287, rfl⟩
abbrev main_v240 : Ref sig .tc := ⟨.hbm, 288, rfl⟩
abbrev main_v241 : Ref sig .tc := ⟨.hbm, 289, rfl⟩
abbrev main_v242 : Ref sig .tc := ⟨.hbm, 290, rfl⟩
abbrev main_v243 : Ref sig .tc := ⟨.hbm, 291, rfl⟩
abbrev main_v244 : Ref sig .tc := ⟨.hbm, 292, rfl⟩
abbrev main_v245 : Ref sig .tc := ⟨.hbm, 293, rfl⟩
abbrev main_v246 : Ref sig .tc := ⟨.hbm, 294, rfl⟩
abbrev main_v247 : Ref sig .tc := ⟨.hbm, 295, rfl⟩
abbrev main_v248 : Ref sig .tc := ⟨.hbm, 296, rfl⟩
abbrev main_v249 : Ref sig .tc := ⟨.hbm, 297, rfl⟩
abbrev main_v250 : Ref sig .tc := ⟨.hbm, 298, rfl⟩
abbrev main_v251 : Ref sig .tc := ⟨.hbm, 299, rfl⟩
abbrev main_v252 : Ref sig .tc := ⟨.hbm, 300, rfl⟩
abbrev main_v253 : Ref sig .tc := ⟨.hbm, 301, rfl⟩
abbrev main_v254 : Ref sig .tc := ⟨.hbm, 302, rfl⟩
abbrev main_v255 : Ref sig .tc := ⟨.hbm, 303, rfl⟩
abbrev main_v256 : Ref sig .tc := ⟨.hbm, 304, rfl⟩
abbrev main_v257 : Ref sig .tc := ⟨.hbm, 305, rfl⟩
abbrev main_v258 : Ref sig .tc := ⟨.hbm, 306, rfl⟩
abbrev main_v259_0 : Ref sig .tc := ⟨.hbm, 307, rfl⟩
abbrev main_v259_1 : Ref sig .tc := ⟨.hbm, 308, rfl⟩
abbrev main_cst_22 : Ref sig .tc := ⟨.hbm, 309, rfl⟩
abbrev main_v260 : Ref sig .tc := ⟨.hbm, 310, rfl⟩
abbrev main_v261 : Ref sig .tc := ⟨.hbm, 311, rfl⟩
abbrev main_v262 : Ref sig .tc := ⟨.hbm, 312, rfl⟩
abbrev main_v263 : Ref sig .tc := ⟨.hbm, 313, rfl⟩
abbrev main_v264 : Ref sig .tc := ⟨.hbm, 314, rfl⟩
abbrev main_v265 : Ref sig .tc := ⟨.hbm, 315, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg13_0 : Ref sig .tc := ⟨.vmem, 15, rfl⟩
abbrev cc0_stg14_0 : Ref sig .tc := ⟨.vmem, 16, rfl⟩
abbrev cc0_stg14_1 : Ref sig .tc := ⟨.vmem, 17, rfl⟩
abbrev cc0_stg15_0 : Ref sig .tc := ⟨.vmem, 18, rfl⟩
abbrev cc0_stg15_1 : Ref sig .tc := ⟨.vmem, 19, rfl⟩
abbrev cc1_stg0_0 : Ref sig .tc := ⟨.vmem, 20, rfl⟩
abbrev cc1_stg0_1 : Ref sig .tc := ⟨.vmem, 21, rfl⟩
abbrev cc1_stg1_0 : Ref sig .tc := ⟨.vmem, 22, rfl⟩
abbrev cc1_stg1_1 : Ref sig .tc := ⟨.vmem, 23, rfl⟩
abbrev cc1_stg2_0 : Ref sig .tc := ⟨.vmem, 24, rfl⟩
abbrev cc1_stg3_0 : Ref sig .tc := ⟨.vmem, 25, rfl⟩
abbrev cc1_stg4_0 : Ref sig .tc := ⟨.vmem, 26, rfl⟩
abbrev cc1_stg5_0 : Ref sig .tc := ⟨.vmem, 27, rfl⟩
abbrev cc1_stg6_0 : Ref sig .tc := ⟨.vmem, 28, rfl⟩
abbrev cc1_stg7_0 : Ref sig .tc := ⟨.vmem, 29, rfl⟩
abbrev cc1_stg8_0 : Ref sig .tc := ⟨.vmem, 30, rfl⟩
abbrev cc1_stg9_0 : Ref sig .tc := ⟨.vmem, 31, rfl⟩
abbrev cc1_stg10_0 : Ref sig .tc := ⟨.vmem, 32, rfl⟩
abbrev cc1_stg11_0 : Ref sig .tc := ⟨.vmem, 33, rfl⟩
abbrev cc1_stg12_0 : Ref sig .tc := ⟨.vmem, 34, rfl⟩
abbrev cc1_stg13_0 : Ref sig .tc := ⟨.vmem, 35, rfl⟩
abbrev cc1_stg14_0 : Ref sig .tc := ⟨.vmem, 36, rfl⟩
abbrev cc1_stg14_1 : Ref sig .tc := ⟨.vmem, 37, rfl⟩
abbrev cc1_stg15_0 : Ref sig .tc := ⟨.vmem, 38, rfl⟩
abbrev cc1_stg15_1 : Ref sig .tc := ⟨.vmem, 39, rfl⟩
abbrev cc2_stg0_0 : Ref sig .tc := ⟨.vmem, 40, rfl⟩
abbrev cc2_stg0_1 : Ref sig .tc := ⟨.vmem, 41, rfl⟩
abbrev cc2_stg1_0 : Ref sig .tc := ⟨.vmem, 42, rfl⟩
abbrev cc2_stg1_1 : Ref sig .tc := ⟨.vmem, 43, rfl⟩
abbrev cc2_stg2_0 : Ref sig .tc := ⟨.vmem, 44, rfl⟩
abbrev cc2_stg3_0 : Ref sig .tc := ⟨.vmem, 45, rfl⟩
abbrev cc2_stg4_0 : Ref sig .tc := ⟨.vmem, 46, rfl⟩
abbrev cc2_stg5_0 : Ref sig .tc := ⟨.vmem, 47, rfl⟩
abbrev cc2_stg6_0 : Ref sig .tc := ⟨.vmem, 48, rfl⟩
abbrev cc2_stg7_0 : Ref sig .tc := ⟨.vmem, 49, rfl⟩
abbrev cc2_stg8_0 : Ref sig .tc := ⟨.vmem, 50, rfl⟩
abbrev cc2_stg9_0 : Ref sig .tc := ⟨.vmem, 51, rfl⟩
abbrev cc2_stg10_0 : Ref sig .tc := ⟨.vmem, 52, rfl⟩
abbrev cc2_stg11_0 : Ref sig .tc := ⟨.vmem, 53, rfl⟩
abbrev cc2_stg12_0 : Ref sig .tc := ⟨.vmem, 54, rfl⟩
abbrev cc2_stg13_0 : Ref sig .tc := ⟨.vmem, 55, rfl⟩
abbrev cc2_stg14_0 : Ref sig .tc := ⟨.vmem, 56, rfl⟩
abbrev cc2_stg14_1 : Ref sig .tc := ⟨.vmem, 57, rfl⟩
abbrev cc2_stg15_0 : Ref sig .tc := ⟨.vmem, 58, rfl⟩
abbrev cc2_stg15_1 : Ref sig .tc := ⟨.vmem, 59, rfl⟩
abbrev cc3_stg0_0 : Ref sig .tc := ⟨.vmem, 60, rfl⟩
abbrev cc3_stg0_1 : Ref sig .tc := ⟨.vmem, 61, rfl⟩
abbrev cc3_stg1_0 : Ref sig .tc := ⟨.vmem, 62, rfl⟩
abbrev cc3_stg1_1 : Ref sig .tc := ⟨.vmem, 63, rfl⟩
abbrev cc3_stg2_0 : Ref sig .tc := ⟨.vmem, 64, rfl⟩
abbrev cc3_stg3_0 : Ref sig .tc := ⟨.vmem, 65, rfl⟩
abbrev cc3_stg4_0 : Ref sig .tc := ⟨.vmem, 66, rfl⟩
abbrev cc3_stg5_0 : Ref sig .tc := ⟨.vmem, 67, rfl⟩
abbrev cc3_stg6_0 : Ref sig .tc := ⟨.vmem, 68, rfl⟩
abbrev cc3_stg7_0 : Ref sig .tc := ⟨.vmem, 69, rfl⟩
abbrev cc3_stg8_0 : Ref sig .tc := ⟨.vmem, 70, rfl⟩
abbrev cc3_stg9_0 : Ref sig .tc := ⟨.vmem, 71, rfl⟩
abbrev cc3_stg10_0 : Ref sig .tc := ⟨.vmem, 72, rfl⟩
abbrev cc3_stg11_0 : Ref sig .tc := ⟨.vmem, 73, rfl⟩
abbrev cc3_stg12_0 : Ref sig .tc := ⟨.vmem, 74, rfl⟩
abbrev cc3_stg13_0 : Ref sig .tc := ⟨.vmem, 75, rfl⟩
abbrev cc3_stg14_0 : Ref sig .tc := ⟨.vmem, 76, rfl⟩
abbrev cc3_stg14_1 : Ref sig .tc := ⟨.vmem, 77, rfl⟩
abbrev cc3_stg15_0 : Ref sig .tc := ⟨.vmem, 78, rfl⟩
abbrev cc3_stg15_1 : Ref sig .tc := ⟨.vmem, 79, rfl⟩
abbrev cc4_stg0_0 : Ref sig .tc := ⟨.vmem, 80, rfl⟩
abbrev cc4_stg0_1 : Ref sig .tc := ⟨.vmem, 81, rfl⟩
abbrev cc4_stg1_0 : Ref sig .tc := ⟨.vmem, 82, rfl⟩
abbrev cc4_stg1_1 : Ref sig .tc := ⟨.vmem, 83, rfl⟩
abbrev cc4_stg2_0 : Ref sig .tc := ⟨.vmem, 84, rfl⟩
abbrev cc4_stg3_0 : Ref sig .tc := ⟨.vmem, 85, rfl⟩
abbrev cc4_stg4_0 : Ref sig .tc := ⟨.vmem, 86, rfl⟩
abbrev cc4_stg5_0 : Ref sig .tc := ⟨.vmem, 87, rfl⟩
abbrev cc4_stg6_0 : Ref sig .tc := ⟨.vmem, 88, rfl⟩
abbrev cc4_stg7_0 : Ref sig .tc := ⟨.vmem, 89, rfl⟩
abbrev cc4_stg8_0 : Ref sig .tc := ⟨.vmem, 90, rfl⟩
abbrev cc4_stg9_0 : Ref sig .tc := ⟨.vmem, 91, rfl⟩
abbrev cc4_stg10_0 : Ref sig .tc := ⟨.vmem, 92, rfl⟩
abbrev cc4_stg11_0 : Ref sig .tc := ⟨.vmem, 93, rfl⟩
abbrev cc4_stg12_0 : Ref sig .tc := ⟨.vmem, 94, rfl⟩
abbrev cc4_stg13_0 : Ref sig .tc := ⟨.vmem, 95, rfl⟩
abbrev cc4_stg14_0 : Ref sig .tc := ⟨.vmem, 96, rfl⟩
abbrev cc4_stg14_1 : Ref sig .tc := ⟨.vmem, 97, rfl⟩
abbrev cc4_stg15_0 : Ref sig .tc := ⟨.vmem, 98, rfl⟩
abbrev cc4_stg15_1 : Ref sig .tc := ⟨.vmem, 99, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem13_0 : DmaSem sig := 15
abbrev cc0_sem14_0 : DmaSem sig := 16
abbrev cc0_sem14_1 : DmaSem sig := 17
abbrev cc0_sem15_0 : DmaSem sig := 18
abbrev cc0_sem15_1 : DmaSem sig := 19
abbrev cc1_sem0_0 : DmaSem sig := 20
abbrev cc1_sem0_1 : DmaSem sig := 21
abbrev cc1_sem1_0 : DmaSem sig := 22
abbrev cc1_sem1_1 : DmaSem sig := 23
abbrev cc1_sem2_0 : DmaSem sig := 24
abbrev cc1_sem3_0 : DmaSem sig := 25
abbrev cc1_sem4_0 : DmaSem sig := 26
abbrev cc1_sem5_0 : DmaSem sig := 27
abbrev cc1_sem6_0 : DmaSem sig := 28
abbrev cc1_sem7_0 : DmaSem sig := 29
abbrev cc1_sem8_0 : DmaSem sig := 30
abbrev cc1_sem9_0 : DmaSem sig := 31
abbrev cc1_sem10_0 : DmaSem sig := 32
abbrev cc1_sem11_0 : DmaSem sig := 33
abbrev cc1_sem12_0 : DmaSem sig := 34
abbrev cc1_sem13_0 : DmaSem sig := 35
abbrev cc1_sem14_0 : DmaSem sig := 36
abbrev cc1_sem14_1 : DmaSem sig := 37
abbrev cc1_sem15_0 : DmaSem sig := 38
abbrev cc1_sem15_1 : DmaSem sig := 39
abbrev cc2_sem0_0 : DmaSem sig := 40
abbrev cc2_sem0_1 : DmaSem sig := 41
abbrev cc2_sem1_0 : DmaSem sig := 42
abbrev cc2_sem1_1 : DmaSem sig := 43
abbrev cc2_sem2_0 : DmaSem sig := 44
abbrev cc2_sem3_0 : DmaSem sig := 45
abbrev cc2_sem4_0 : DmaSem sig := 46
abbrev cc2_sem5_0 : DmaSem sig := 47
abbrev cc2_sem6_0 : DmaSem sig := 48
abbrev cc2_sem7_0 : DmaSem sig := 49
abbrev cc2_sem8_0 : DmaSem sig := 50
abbrev cc2_sem9_0 : DmaSem sig := 51
abbrev cc2_sem10_0 : DmaSem sig := 52
abbrev cc2_sem11_0 : DmaSem sig := 53
abbrev cc2_sem12_0 : DmaSem sig := 54
abbrev cc2_sem13_0 : DmaSem sig := 55
abbrev cc2_sem14_0 : DmaSem sig := 56
abbrev cc2_sem14_1 : DmaSem sig := 57
abbrev cc2_sem15_0 : DmaSem sig := 58
abbrev cc2_sem15_1 : DmaSem sig := 59
abbrev cc3_sem0_0 : DmaSem sig := 60
abbrev cc3_sem0_1 : DmaSem sig := 61
abbrev cc3_sem1_0 : DmaSem sig := 62
abbrev cc3_sem1_1 : DmaSem sig := 63
abbrev cc3_sem2_0 : DmaSem sig := 64
abbrev cc3_sem3_0 : DmaSem sig := 65
abbrev cc3_sem4_0 : DmaSem sig := 66
abbrev cc3_sem5_0 : DmaSem sig := 67
abbrev cc3_sem6_0 : DmaSem sig := 68
abbrev cc3_sem7_0 : DmaSem sig := 69
abbrev cc3_sem8_0 : DmaSem sig := 70
abbrev cc3_sem9_0 : DmaSem sig := 71
abbrev cc3_sem10_0 : DmaSem sig := 72
abbrev cc3_sem11_0 : DmaSem sig := 73
abbrev cc3_sem12_0 : DmaSem sig := 74
abbrev cc3_sem13_0 : DmaSem sig := 75
abbrev cc3_sem14_0 : DmaSem sig := 76
abbrev cc3_sem14_1 : DmaSem sig := 77
abbrev cc3_sem15_0 : DmaSem sig := 78
abbrev cc3_sem15_1 : DmaSem sig := 79
abbrev cc4_sem0_0 : DmaSem sig := 80
abbrev cc4_sem0_1 : DmaSem sig := 81
abbrev cc4_sem1_0 : DmaSem sig := 82
abbrev cc4_sem1_1 : DmaSem sig := 83
abbrev cc4_sem2_0 : DmaSem sig := 84
abbrev cc4_sem3_0 : DmaSem sig := 85
abbrev cc4_sem4_0 : DmaSem sig := 86
abbrev cc4_sem5_0 : DmaSem sig := 87
abbrev cc4_sem6_0 : DmaSem sig := 88
abbrev cc4_sem7_0 : DmaSem sig := 89
abbrev cc4_sem8_0 : DmaSem sig := 90
abbrev cc4_sem9_0 : DmaSem sig := 91
abbrev cc4_sem10_0 : DmaSem sig := 92
abbrev cc4_sem11_0 : DmaSem sig := 93
abbrev cc4_sem12_0 : DmaSem sig := 94
abbrev cc4_sem13_0 : DmaSem sig := 95
abbrev cc4_sem14_0 : DmaSem sig := 96
abbrev cc4_sem14_1 : DmaSem sig := 97
abbrev cc4_sem15_0 : DmaSem sig := 98
abbrev cc4_sem15_1 : DmaSem sig := 99

abbrev nD : Nat := 1
abbrev τ : Topo := Topo.v7x

variable {F : FTy → Type} [FloatOps F]

abbrev grid0 : Pipeline.Grid := ⟨2, ![2, 10], ![false, false]⟩

def cc0_transform_0 (i : grid0.Coords) : Fin 2 → Nat :=
  let arg0 : BitVec 32 := BitVec.ofNat 32 (i 0).val
  let arg1 : BitVec 32 := BitVec.ofNat 32 (i 1).val
  let c10_i32 : BitVec 32 := 10#32
  let v0 : BitVec 32 := Scalar.muli arg0 c10_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c10_i32 : BitVec 32 := 10#32
  let v0 : BitVec 32 := Scalar.muli arg0 c10_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c10_i32 : BitVec 32 := 10#32
  let v0 : BitVec 32 := Scalar.muli arg0 c10_i32
  let v1 : BitVec 32 := Scalar.addi v0 arg1
  let c0_i32 : BitVec 32 := 0#32
  let c0_i32_0 : BitVec 32 := 0#32
  ![v1.toNat, c0_i32.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S5000x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S128x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S64x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x64 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x64 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x64 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1x64 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S1x64 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 2 → Memref sig .tc .vmem S5000x64 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x512x64 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, false]

abbrev grid1 : Pipeline.Grid := ⟨2, ![2, 10], ![false, false]⟩

def cc1_transform_0 (i : grid1.Coords) : Fin 2 → Nat :=
  let arg0 : BitVec 32 := BitVec.ofNat 32 (i 0).val
  let arg1 : BitVec 32 := BitVec.ofNat 32 (i 1).val
  let c10_i32 : BitVec 32 := 10#32
  let v0 : BitVec 32 := Scalar.muli arg0 c10_i32
  let v1 : BitVec 32 := Scalar.addi v0 arg1
  let c0_i32 : BitVec 32 := 0#32
  let c0_i32_0 : BitVec 32 := 0#32
  ![v1.toNat, c0_i32.toNat]

def cc1_transform_1 (i : grid1.Coords) : Fin 2 → Nat :=
  let arg0 : BitVec 32 := BitVec.ofNat 32 (i 0).val
  let arg1 : BitVec 32 := BitVec.ofNat 32 (i 1).val
  let c10_i32 : BitVec 32 := 10#32
  let v0 : BitVec 32 := Scalar.muli arg0 c10_i32
  let v1 : BitVec 32 := Scalar.addi v0 arg1
  let c0_i32 : BitVec 32 := 0#32
  let c0_i32_0 : BitVec 32 := 0#32
  ![v1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_11 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_12 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_13 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_14 (i : grid1.Coords) : Fin 2 → Nat :=
  let arg0 : BitVec 32 := BitVec.ofNat 32 (i 0).val
  let arg1 : BitVec 32 := BitVec.ofNat 32 (i 1).val
  let c10_i32 : BitVec 32 := 10#32
  let v0 : BitVec 32 := Scalar.muli arg0 c10_i32
  let v1 : BitVec 32 := Scalar.addi v0 arg1
  let c0_i32 : BitVec 32 := 0#32
  let c0_i32_0 : BitVec 32 := 0#32
  ![v1.toNat, c0_i32.toNat]

def cc1_transform_15 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S5000x1 .i32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 1 → Memref sig .tc .vmem S1x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, false]

abbrev stage1_6 : Fin 1 → Memref sig .tc .vmem S1x64 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false, false]

abbrev stage1_7 : Fin 1 → Memref sig .tc .vmem S1x64 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false, false]

abbrev stage1_8 : Fin 1 → Memref sig .tc .vmem S64x64 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false, false]

abbrev stage1_9 : Fin 1 → Memref sig .tc .vmem S1x64 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false, false]

abbrev stage1_10 : Fin 1 → Memref sig .tc .vmem S1x64 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false, false]

abbrev stage1_11 : Fin 1 → Memref sig .tc .vmem S1x64 .f32 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))
abbrev reads1_11 : Fin grid1.rank → Bool := ![false, false]

abbrev stage1_12 : Fin 1 → Memref sig .tc .vmem S1x64 .f32 := fun | 0 => Memref.whole cc1_stg12_0 | ⟨_ + 1, h⟩ => absurd h (Nat.not_lt.2 (Nat.le_add_left _ _))
abbrev sem1_12 : Fin 1 → DmaSem sig := fun | 0 => cc1_sem12_0 | ⟨_ + 1, h⟩ => absurd h (Nat.not_lt.2 (Nat.le_add_left _ _))
abbrev reads1_12 : Fin grid1.rank → Bool := ![false, false]

abbrev stage1_13 : Fin 1 → Memref sig .tc .vmem S1x64 .f32 := fun | 0 => Memref.whole cc1_stg13_0 | ⟨_ + 1, h⟩ => absurd h (Nat.not_lt.2 (Nat.le_add_left _ _))
abbrev sem1_13 : Fin 1 → DmaSem sig := fun | 0 => cc1_sem13_0 | ⟨_ + 1, h⟩ => absurd h (Nat.not_lt.2 (Nat.le_add_left _ _))
abbrev reads1_13 : Fin grid1.rank → Bool := ![false, false]

abbrev stage1_14 : Fin 2 → Memref sig .tc .vmem S5000x64 .f32 := fun | 0 => Memref.whole cc1_stg14_0 | 1 => Memref.whole cc1_stg14_1 | ⟨_ + 2, h⟩ => absurd h (Nat.not_lt.2 (Nat.le_add_left _ _))
abbrev sem1_14 : Fin 2 → DmaSem sig := fun | 0 => cc1_sem14_0 | 1 => cc1_sem14_1 | ⟨_ + 2, h⟩ => absurd h (Nat.not_lt.2 (Nat.le_add_left _ _))
abbrev reads1_14 : Fin grid1.rank → Bool := ![true, true]

abbrev stage1_15 : Fin 2 → Memref sig .tc .vmem S1x512x64 .f32 := fun | 0 => Memref.whole cc1_stg15_0 | 1 => Memref.whole cc1_stg15_1 | ⟨_ + 2, h⟩ => absurd h (Nat.not_lt.2 (Nat.le_add_left _ _))
abbrev sem1_15 : Fin 2 → DmaSem sig := fun | 0 => cc1_sem15_0 | 1 => cc1_sem15_1 | ⟨_ + 2, h⟩ => absurd h (Nat.not_lt.2 (Nat.le_add_left _ _))
abbrev reads1_15 : Fin grid1.rank → Bool := ![true, false]

abbrev grid2 : Pipeline.Grid := ⟨2, ![2, 10], ![false, false]⟩

def cc2_transform_0 (i : grid2.Coords) : Fin 2 → Nat :=
  let arg0 : BitVec 32 := BitVec.ofNat 32 (i 0).val
  let arg1 : BitVec 32 := BitVec.ofNat 32 (i 1).val
  let c10_i32 : BitVec 32 := 10#32
  let v0 : BitVec 32 := Scalar.muli arg0 c10_i32
  let v1 : BitVec 32 := Scalar.addi v0 arg1
  let c0_i32 : BitVec 32 := 0#32
  let c0_i32_0 : BitVec 32 := 0#32
  ![v1.toNat, c0_i32.toNat]

def cc2_transform_1 (i : grid2.Coords) : Fin 2 → Nat :=
  let arg0 : BitVec 32 := BitVec.ofNat 32 (i 0).val
  let arg1 : BitVec 32 := BitVec.ofNat 32 (i 1).val
  let c10_i32 : BitVec 32 := 10#32
  let v0 : BitVec 32 := Scalar.muli arg0 c10_i32
  let v1 : BitVec 32 := Scalar.addi v0 arg1
  let c0_i32 : BitVec 32 := 0#32
  let c0_i32_0 : BitVec 32 := 0#32
  ![v1.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_10 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_11 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_12 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_13 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_14 (i : grid2.Coords) : Fin 2 → Nat :=
  let arg0 : BitVec 32 := BitVec.ofNat 32 (i 0).val
  let arg1 : BitVec 32 := BitVec.ofNat 32 (i 1).val
  let c10_i32 : BitVec 32 := 10#32
  let v0 : BitVec 32 := Scalar.muli arg0 c10_i32
  let v1 : BitVec 32 := Scalar.addi v0 arg1
  let c0_i32 : BitVec 32 := 0#32
  let c0_i32_0 : BitVec 32 := 0#32
  ![v1.toNat, c0_i32.toNat]

def cc2_transform_15 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S5000x1 .i32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, true]

abbrev stage2_2 : Fin 1 → Memref sig .tc .vmem S64x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false, false]

abbrev stage2_3 : Fin 1 → Memref sig .tc .vmem S1x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false, false]

abbrev stage2_4 : Fin 1 → Memref sig .tc .vmem S1x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false, false]

abbrev stage2_5 : Fin 1 → Memref sig .tc .vmem S1x64 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false, false]

abbrev stage2_6 : Fin 1 → Memref sig .tc .vmem S1x64 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false, false]

abbrev stage2_7 : Fin 1 → Memref sig .tc .vmem S1x64 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false, false]

abbrev stage2_8 : Fin 1 → Memref sig .tc .vmem S64x64 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false, false]

abbrev stage2_9 : Fin 1 → Memref sig .tc .vmem S1x64 .f32 := fun | 0 => Memref.whole cc2_stg9_0 | ⟨_ + 1, h⟩ => absurd h (Nat.not_lt.2 (Nat.le_add_left _ _))
abbrev sem2_9 : Fin 1 → DmaSem sig := fun | 0 => cc2_sem9_0 | ⟨_ + 1, h⟩ => absurd h (Nat.not_lt.2 (Nat.le_add_left _ _))
abbrev reads2_9 : Fin grid2.rank → Bool := ![false, false]

abbrev stage2_10 : Fin 1 → Memref sig .tc .vmem S1x64 .f32 := fun | 0 => Memref.whole cc2_stg10_0 | ⟨_ + 1, h⟩ => absurd h (Nat.not_lt.2 (Nat.le_add_left _ _))
abbrev sem2_10 : Fin 1 → DmaSem sig := fun | 0 => cc2_sem10_0 | ⟨_ + 1, h⟩ => absurd h (Nat.not_lt.2 (Nat.le_add_left _ _))
abbrev reads2_10 : Fin grid2.rank → Bool := ![false, false]

abbrev stage2_11 : Fin 1 → Memref sig .tc .vmem S1x64 .f32 := fun | 0 => Memref.whole cc2_stg11_0 | ⟨_ + 1, h⟩ => absurd h (Nat.not_lt.2 (Nat.le_add_left _ _))
abbrev sem2_11 : Fin 1 → DmaSem sig := fun | 0 => cc2_sem11_0 | ⟨_ + 1, h⟩ => absurd h (Nat.not_lt.2 (Nat.le_add_left _ _))
abbrev reads2_11 : Fin grid2.rank → Bool := ![false, false]

abbrev stage2_12 : Fin 1 → Memref sig .tc .vmem S1x64 .f32 := fun | 0 => Memref.whole cc2_stg12_0 | ⟨_ + 1, h⟩ => absurd h (Nat.not_lt.2 (Nat.le_add_left _ _))
abbrev sem2_12 : Fin 1 → DmaSem sig := fun | 0 => cc2_sem12_0 | ⟨_ + 1, h⟩ => absurd h (Nat.not_lt.2 (Nat.le_add_left _ _))
abbrev reads2_12 : Fin grid2.rank → Bool := ![false, false]

abbrev stage2_13 : Fin 1 → Memref sig .tc .vmem S1x64 .f32 := fun | 0 => Memref.whole cc2_stg13_0 | ⟨_ + 1, h⟩ => absurd h (Nat.not_lt.2 (Nat.le_add_left _ _))
abbrev sem2_13 : Fin 1 → DmaSem sig := fun | 0 => cc2_sem13_0 | ⟨_ + 1, h⟩ => absurd h (Nat.not_lt.2 (Nat.le_add_left _ _))
abbrev reads2_13 : Fin grid2.rank → Bool := ![false, false]

abbrev stage2_14 : Fin 2 → Memref sig .tc .vmem S5000x64 .f32 := fun | 0 => Memref.whole cc2_stg14_0 | 1 => Memref.whole cc2_stg14_1 | ⟨_ + 2, h⟩ => absurd h (Nat.not_lt.2 (Nat.le_add_left _ _))
abbrev sem2_14 : Fin 2 → DmaSem sig := fun | 0 => cc2_sem14_0 | 1 => cc2_sem14_1 | ⟨_ + 2, h⟩ => absurd h (Nat.not_lt.2 (Nat.le_add_left _ _))
abbrev reads2_14 : Fin grid2.rank → Bool := ![true, true]

abbrev stage2_15 : Fin 2 → Memref sig .tc .vmem S1x512x64 .f32 := fun | 0 => Memref.whole cc2_stg15_0 | 1 => Memref.whole cc2_stg15_1 | ⟨_ + 2, h⟩ => absurd h (Nat.not_lt.2 (Nat.le_add_left _ _))
abbrev sem2_15 : Fin 2 → DmaSem sig := fun | 0 => cc2_sem15_0 | 1 => cc2_sem15_1 | ⟨_ + 2, h⟩ => absurd h (Nat.not_lt.2 (Nat.le_add_left _ _))
abbrev reads2_15 : Fin grid2.rank → Bool := ![true, false]

abbrev grid3 : Pipeline.Grid := ⟨2, ![2, 10], ![false, false]⟩

def cc3_transform_0 (i : grid3.Coords) : Fin 2 → Nat :=
  let arg0 : BitVec 32 := BitVec.ofNat 32 (i 0).val
  let arg1 : BitVec 32 := BitVec.ofNat 32 (i 1).val
  let c10_i32 : BitVec 32 := 10#32
  let v0 : BitVec 32 := Scalar.muli arg0 c10_i32
  let v1 : BitVec 32 := Scalar.addi v0 arg1
  let c0_i32 : BitVec 32 := 0#32
  let c0_i32_0 : BitVec 32 := 0#32
  ![v1.toNat, c0_i32.toNat]

def cc3_transform_1 (i : grid3.Coords) : Fin 2 → Nat :=
  let arg0 : BitVec 32 := BitVec.ofNat 32 (i 0).val
  let arg1 : BitVec 32 := BitVec.ofNat 32 (i 1).val
  let c10_i32 : BitVec 32 := 10#32
  let v0 : BitVec 32 := Scalar.muli arg0 c10_i32
  let v1 : BitVec 32 := Scalar.addi v0 arg1
  let c0_i32 : BitVec 32 := 0#32
  let c0_i32_0 : BitVec 32 := 0#32
  ![v1.toNat, c0_i32.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_8 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_9 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_10 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_11 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_12 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_13 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_14 (i : grid3.Coords) : Fin 2 → Nat :=
  let arg0 : BitVec 32 := BitVec.ofNat 32 (i 0).val
  let arg1 : BitVec 32 := BitVec.ofNat 32 (i 1).val
  let c10_i32 : BitVec 32 := 10#32
  let v0 : BitVec 32 := Scalar.muli arg0 c10_i32
  let v1 : BitVec 32 := Scalar.addi v0 arg1
  let c0_i32 : BitVec 32 := 0#32
  let c0_i32_0 : BitVec 32 := 0#32
  ![v1.toNat, c0_i32.toNat]

def cc3_transform_15 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, true]

abbrev stage3_1 : Fin 2 → Memref sig .tc .vmem S5000x1 .i32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true, true]

abbrev stage3_2 : Fin 1 → Memref sig .tc .vmem S64x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false, false]

abbrev stage3_3 : Fin 1 → Memref sig .tc .vmem S1x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false, false]

abbrev stage3_4 : Fin 1 → Memref sig .tc .vmem S1x64 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false, false]

abbrev stage3_5 : Fin 1 → Memref sig .tc .vmem S1x64 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false, false]

abbrev stage3_6 : Fin 1 → Memref sig .tc .vmem S1x64 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false, false]

abbrev stage3_7 : Fin 1 → Memref sig .tc .vmem S1x64 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false, false]

abbrev stage3_8 : Fin 1 → Memref sig .tc .vmem S64x64 .f32 := fun | 0 => Memref.whole cc3_stg8_0 | ⟨_ + 1, h⟩ => absurd h (Nat.not_lt.2 (Nat.le_add_left _ _))
abbrev sem3_8 : Fin 1 → DmaSem sig := fun | 0 => cc3_sem8_0 | ⟨_ + 1, h⟩ => absurd h (Nat.not_lt.2 (Nat.le_add_left _ _))
abbrev reads3_8 : Fin grid3.rank → Bool := ![false, false]

abbrev stage3_9 : Fin 1 → Memref sig .tc .vmem S1x64 .f32 := fun | 0 => Memref.whole cc3_stg9_0 | ⟨_ + 1, h⟩ => absurd h (Nat.not_lt.2 (Nat.le_add_left _ _))
abbrev sem3_9 : Fin 1 → DmaSem sig := fun | 0 => cc3_sem9_0 | ⟨_ + 1, h⟩ => absurd h (Nat.not_lt.2 (Nat.le_add_left _ _))
abbrev reads3_9 : Fin grid3.rank → Bool := ![false, false]

abbrev stage3_10 : Fin 1 → Memref sig .tc .vmem S1x64 .f32 := fun | 0 => Memref.whole cc3_stg10_0 | ⟨_ + 1, h⟩ => absurd h (Nat.not_lt.2 (Nat.le_add_left _ _))
abbrev sem3_10 : Fin 1 → DmaSem sig := fun | 0 => cc3_sem10_0 | ⟨_ + 1, h⟩ => absurd h (Nat.not_lt.2 (Nat.le_add_left _ _))
abbrev reads3_10 : Fin grid3.rank → Bool := ![false, false]

abbrev stage3_11 : Fin 1 → Memref sig .tc .vmem S1x64 .f32 := fun | 0 => Memref.whole cc3_stg11_0 | ⟨_ + 1, h⟩ => absurd h (Nat.not_lt.2 (Nat.le_add_left _ _))
abbrev sem3_11 : Fin 1 → DmaSem sig := fun | 0 => cc3_sem11_0 | ⟨_ + 1, h⟩ => absurd h (Nat.not_lt.2 (Nat.le_add_left _ _))
abbrev reads3_11 : Fin grid3.rank → Bool := ![false, false]

abbrev stage3_12 : Fin 1 → Memref sig .tc .vmem S1x64 .f32 := fun | 0 => Memref.whole cc3_stg12_0 | ⟨_ + 1, h⟩ => absurd h (Nat.not_lt.2 (Nat.le_add_left _ _))
abbrev sem3_12 : Fin 1 → DmaSem sig := fun | 0 => cc3_sem12_0 | ⟨_ + 1, h⟩ => absurd h (Nat.not_lt.2 (Nat.le_add_left _ _))
abbrev reads3_12 : Fin grid3.rank → Bool := ![false, false]

abbrev stage3_13 : Fin 1 → Memref sig .tc .vmem S1x64 .f32 := fun | 0 => Memref.whole cc3_stg13_0 | ⟨_ + 1, h⟩ => absurd h (Nat.not_lt.2 (Nat.le_add_left _ _))
abbrev sem3_13 : Fin 1 → DmaSem sig := fun | 0 => cc3_sem13_0 | ⟨_ + 1, h⟩ => absurd h (Nat.not_lt.2 (Nat.le_add_left _ _))
abbrev reads3_13 : Fin grid3.rank → Bool := ![false, false]

abbrev stage3_14 : Fin 2 → Memref sig .tc .vmem S5000x64 .f32 := fun | 0 => Memref.whole cc3_stg14_0 | 1 => Memref.whole cc3_stg14_1 | ⟨_ + 2, h⟩ => absurd h (Nat.not_lt.2 (Nat.le_add_left _ _))
abbrev sem3_14 : Fin 2 → DmaSem sig := fun | 0 => cc3_sem14_0 | 1 => cc3_sem14_1 | ⟨_ + 2, h⟩ => absurd h (Nat.not_lt.2 (Nat.le_add_left _ _))
abbrev reads3_14 : Fin grid3.rank → Bool := ![true, true]

abbrev stage3_15 : Fin 2 → Memref sig .tc .vmem S1x512x64 .f32 := fun | 0 => Memref.whole cc3_stg15_0 | 1 => Memref.whole cc3_stg15_1 | ⟨_ + 2, h⟩ => absurd h (Nat.not_lt.2 (Nat.le_add_left _ _))
abbrev sem3_15 : Fin 2 → DmaSem sig := fun | 0 => cc3_sem15_0 | 1 => cc3_sem15_1 | ⟨_ + 2, h⟩ => absurd h (Nat.not_lt.2 (Nat.le_add_left _ _))
abbrev reads3_15 : Fin grid3.rank → Bool := ![true, false]

abbrev grid4 : Pipeline.Grid := ⟨2, ![2, 10], ![false, false]⟩

def cc4_transform_0 (i : grid4.Coords) : Fin 2 → Nat :=
  let arg0 : BitVec 32 := BitVec.ofNat 32 (i 0).val
  let arg1 : BitVec 32 := BitVec.ofNat 32 (i 1).val
  let c10_i32 : BitVec 32 := 10#32
  let v0 : BitVec 32 := Scalar.muli arg0 c10_i32
  let v1 : BitVec 32 := Scalar.addi v0 arg1
  let c0_i32 : BitVec 32 := 0#32
  let c0_i32_0 : BitVec 32 := 0#32
  ![v1.toNat, c0_i32.toNat]

def cc4_transform_1 (i : grid4.Coords) : Fin 2 → Nat :=
  let arg0 : BitVec 32 := BitVec.ofNat 32 (i 0).val
  let arg1 : BitVec 32 := BitVec.ofNat 32 (i 1).val
  let c10_i32 : BitVec 32 := 10#32
  let v0 : BitVec 32 := Scalar.muli arg0 c10_i32
  let v1 : BitVec 32 := Scalar.addi v0 arg1
  let c0_i32 : BitVec 32 := 0#32
  let c0_i32_0 : BitVec 32 := 0#32
  ![v1.toNat, c0_i32.toNat]

def cc4_transform_2 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc4_transform_7 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc4_transform_8 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc4_transform_9 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc4_transform_10 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc4_transform_11 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc4_transform_12 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc4_transform_13 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc4_transform_14 (i : grid4.Coords) : Fin 2 → Nat :=
  let arg0 : BitVec 32 := BitVec.ofNat 32 (i 0).val
  let arg1 : BitVec 32 := BitVec.ofNat 32 (i 1).val
  let c10_i32 : BitVec 32 := 10#32
  let v0 : BitVec 32 := Scalar.muli arg0 c10_i32
  let v1 : BitVec 32 := Scalar.addi v0 arg1
  let c0_i32 : BitVec 32 := 0#32
  let c0_i32_0 : BitVec 32 := 0#32
  ![v1.toNat, c0_i32.toNat]

def cc4_transform_15 (i : grid4.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage4_0 : Fin 2 → Memref sig .tc .vmem S5000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, true]

abbrev stage4_1 : Fin 2 → Memref sig .tc .vmem S5000x1 .i32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true, true]

abbrev stage4_2 : Fin 1 → Memref sig .tc .vmem S64x64 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false, false]

abbrev stage4_3 : Fin 1 → Memref sig .tc .vmem S1x64 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false, false]

abbrev stage4_4 : Fin 1 → Memref sig .tc .vmem S1x64 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false, false]

abbrev stage4_5 : Fin 1 → Memref sig .tc .vmem S1x64 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false, false]

abbrev stage4_6 : Fin 1 → Memref sig .tc .vmem S1x64 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![false, false]

abbrev stage4_7 : Fin 1 → Memref sig .tc .vmem S1x64 .f32 := fun | 0 => Memref.whole cc4_stg7_0 | ⟨_ + 1, h⟩ => absurd h (Nat.not_lt.2 (Nat.le_add_left _ _))
abbrev sem4_7 : Fin 1 → DmaSem sig := fun | 0 => cc4_sem7_0 | ⟨_ + 1, h⟩ => absurd h (Nat.not_lt.2 (Nat.le_add_left _ _))
abbrev reads4_7 : Fin grid4.rank → Bool := ![false, false]

abbrev stage4_8 : Fin 1 → Memref sig .tc .vmem S64x64 .f32 := fun | 0 => Memref.whole cc4_stg8_0 | ⟨_ + 1, h⟩ => absurd h (Nat.not_lt.2 (Nat.le_add_left _ _))
abbrev sem4_8 : Fin 1 → DmaSem sig := fun | 0 => cc4_sem8_0 | ⟨_ + 1, h⟩ => absurd h (Nat.not_lt.2 (Nat.le_add_left _ _))
abbrev reads4_8 : Fin grid4.rank → Bool := ![false, false]

abbrev stage4_9 : Fin 1 → Memref sig .tc .vmem S1x64 .f32 := fun | 0 => Memref.whole cc4_stg9_0 | ⟨_ + 1, h⟩ => absurd h (Nat.not_lt.2 (Nat.le_add_left _ _))
abbrev sem4_9 : Fin 1 → DmaSem sig := fun | 0 => cc4_sem9_0 | ⟨_ + 1, h⟩ => absurd h (Nat.not_lt.2 (Nat.le_add_left _ _))
abbrev reads4_9 : Fin grid4.rank → Bool := ![false, false]

abbrev stage4_10 : Fin 1 → Memref sig .tc .vmem S1x64 .f32 := fun | 0 => Memref.whole cc4_stg10_0 | ⟨_ + 1, h⟩ => absurd h (Nat.not_lt.2 (Nat.le_add_left _ _))
abbrev sem4_10 : Fin 1 → DmaSem sig := fun | 0 => cc4_sem10_0 | ⟨_ + 1, h⟩ => absurd h (Nat.not_lt.2 (Nat.le_add_left _ _))
abbrev reads4_10 : Fin grid4.rank → Bool := ![false, false]

abbrev stage4_11 : Fin 1 → Memref sig .tc .vmem S1x64 .f32 := fun | 0 => Memref.whole cc4_stg11_0 | ⟨_ + 1, h⟩ => absurd h (Nat.not_lt.2 (Nat.le_add_left _ _))
abbrev sem4_11 : Fin 1 → DmaSem sig := fun | 0 => cc4_sem11_0 | ⟨_ + 1, h⟩ => absurd h (Nat.not_lt.2 (Nat.le_add_left _ _))
abbrev reads4_11 : Fin grid4.rank → Bool := ![false, false]

abbrev stage4_12 : Fin 1 → Memref sig .tc .vmem S1x64 .f32 := fun | 0 => Memref.whole cc4_stg12_0 | ⟨_ + 1, h⟩ => absurd h (Nat.not_lt.2 (Nat.le_add_left _ _))
abbrev sem4_12 : Fin 1 → DmaSem sig := fun | 0 => cc4_sem12_0 | ⟨_ + 1, h⟩ => absurd h (Nat.not_lt.2 (Nat.le_add_left _ _))
abbrev reads4_12 : Fin grid4.rank → Bool := ![false, false]

abbrev stage4_13 : Fin 1 → Memref sig .tc .vmem S1x64 .f32 := fun | 0 => Memref.whole cc4_stg13_0 | ⟨_ + 1, h⟩ => absurd h (Nat.not_lt.2 (Nat.le_add_left _ _))
abbrev sem4_13 : Fin 1 → DmaSem sig := fun | 0 => cc4_sem13_0 | ⟨_ + 1, h⟩ => absurd h (Nat.not_lt.2 (Nat.le_add_left _ _))
abbrev reads4_13 : Fin grid4.rank → Bool := ![false, false]

abbrev stage4_14 : Fin 2 → Memref sig .tc .vmem S5000x64 .f32 := fun | 0 => Memref.whole cc4_stg14_0 | 1 => Memref.whole cc4_stg14_1 | ⟨_ + 2, h⟩ => absurd h (Nat.not_lt.2 (Nat.le_add_left _ _))
abbrev sem4_14 : Fin 2 → DmaSem sig := fun | 0 => cc4_sem14_0 | 1 => cc4_sem14_1 | ⟨_ + 2, h⟩ => absurd h (Nat.not_lt.2 (Nat.le_add_left _ _))
abbrev reads4_14 : Fin grid4.rank → Bool := ![true, true]

abbrev stage4_15 : Fin 2 → Memref sig .tc .vmem S1x512x64 .f32 := fun | 0 => Memref.whole cc4_stg15_0 | 1 => Memref.whole cc4_stg15_1 | ⟨_ + 2, h⟩ => absurd h (Nat.not_lt.2 (Nat.le_add_left _ _))
abbrev sem4_15 : Fin 2 → DmaSem sig := fun | 0 => cc4_sem15_0 | 1 => cc4_sem15_1 | ⟨_ + 2, h⟩ => absurd h (Nat.not_lt.2 (Nat.le_add_left _ _))
abbrev reads4_15 : Fin grid4.rank → Bool := ![true, false]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  shapeCasts_S100000_S100000x1 : S100000.ShapeCasts S100000x1
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  slices_S5_S1_0 : S5.Slices ![0] S1
  shapeCasts_S1_S_ : S1.ShapeCasts S_
  shapeCasts_S64_S1x64 : S64.ShapeCasts S1x64
  slices_S5x64_S1x64_0_0 : S5x64.Slices ![0, 0] S1x64
  shapeCasts_S1x64_S64 : S1x64.ShapeCasts S64
  slices_S5x64x64_S1x64x64_0_0_0 : S5x64x64.Slices ![0, 0, 0] S1x64x64
  shapeCasts_S1x64x64_S64x64 : S1x64x64.ShapeCasts S64x64
  inb_S1x512x64_S1x512x64_0_0_0 : ∀ a, (![0, 0, 0] : Fin 3 → Nat) a + S1x512x64.size a ≤ S1x512x64.size a
  h_S1x512x64 : 0 < S1x512x64.numel
  shapeCasts_S1x512x64_S512x64 : S1x512x64.ShapeCasts S512x64
  shapeCasts_S512x64_S1x512x64 : S512x64.ShapeCasts S1x512x64
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S128x64_S128x64_0_0 : ∀ a, (![0, 0] : Fin 2 → Nat) a + S128x64.size a ≤ S128x64.size a
  h_S128x64 : 0 < S128x64.numel
  bitsLt_bf16_f32 : FTy.bits .bf16 < FTy.bits .f32
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S5000x64_S5000x64_0_0 : ∀ a, (![0, 0] : Fin 2 → Nat) a + S5000x64.size a ≤ S5000x64.size a
  h_S5000x64 : 0 < S5000x64.numel
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  iota_S5000x512_d1_w32 : S5000x512.Iotas .tc 32 [1]
  broadcasts_S5000x1_S5000x512 : S5000x1.Broadcasts S5000x512
  natLt_1_32 : 1 < 32
  reducesTo_S2x512x64_S512x64_d0 : S2x512x64.ReducesTo [0] S512x64
  h_S_ : 0 < S_.numel
  bcast_S_S100000x64 : S_.BroadcastsInDim S100000x64 (![] : Fin 0 → Fin S100000x64.rank)
  slices_S5_S1_1 : S5.Slices ![1] S1
  slices_S4x64x64_S1x64x64_0_0_0 : S4x64x64.Slices ![0, 0, 0] S1x64x64
  slices_S4x64_S1x64_0_0 : S4x64.Slices ![0, 0] S1x64
  slices_S5x64_S1x64_1_0 : S5x64.Slices ![1, 0] S1x64
  slices_S5x64x64_S1x64x64_1_0_0 : S5x64x64.Slices ![1, 0, 0] S1x64x64
  shapeCasts_S5000x64_S5000x64 : S5000x64.ShapeCasts S5000x64
  slices_S5_S1_2 : S5.Slices ![2] S1
  slices_S4x64x64_S1x64x64_1_0_0 : S4x64x64.Slices ![1, 0, 0] S1x64x64
  slices_S4x64_S1x64_1_0 : S4x64.Slices ![1, 0] S1x64
  slices_S5x64_S1x64_2_0 : S5x64.Slices ![2, 0] S1x64
  slices_S5x64x64_S1x64x64_2_0_0 : S5x64x64.Slices ![2, 0, 0] S1x64x64
  slices_S5_S1_3 : S5.Slices ![3] S1
  slices_S4x64x64_S1x64x64_2_0_0 : S4x64x64.Slices ![2, 0, 0] S1x64x64
  slices_S4x64_S1x64_2_0 : S4x64.Slices ![2, 0] S1x64
  slices_S5x64_S1x64_3_0 : S5x64.Slices ![3, 0] S1x64
  slices_S5x64x64_S1x64x64_3_0_0 : S5x64x64.Slices ![3, 0, 0] S1x64x64
  slices_S5_S1_4 : S5.Slices ![4] S1
  slices_S4x64x64_S1x64x64_3_0_0 : S4x64x64.Slices ![3, 0, 0] S1x64x64
  slices_S4x64_S1x64_3_0 : S4x64.Slices ![3, 0] S1x64
  slices_S5x64_S1x64_4_0 : S5x64.Slices ![4, 0] S1x64
  slices_S5x64x64_S1x64x64_4_0_0 : S5x64x64.Slices ![4, 0, 0] S1x64x64
  concatenates_S512x64_S512x64_S512x64_S512x64_S512x64_S512x320_d1 : Shape.Concatenates [S512x64, S512x64, S512x64, S512x64, S512x64] S512x320 1
  bcast_S16_S1x16_1 : S16.BroadcastsInDim S1x16 (![1] : Fin 1 → Fin S1x16.rank)
  bcast_S1x16_S512x16_0_1 : S1x16.BroadcastsInDim S512x16 (![0, 1] : Fin 2 → Fin S512x16.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x64_S5000x64_1_0_0_1_n_n_wf : DotDims.WF S5000x128 S128x64 S5000x64 [1] [0] [0] [1] [] []
  dot_S5000x64_S64x64_S5000x64_1_0_0_1_n_n_wf : DotDims.WF S5000x64 S64x64 S5000x64 [1] [0] [0] [1] [] []
  dot_S5000x512_S5000x64_S512x64_0_0_1_1_n_n_wf : DotDims.WF S5000x512 S5000x64 S512x64 [0] [0] [1] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S512x320_S320x16_S512x16_1_0_0_1_n_n_wf : DotDims.WF S512x320 S320x16 S512x16 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x1.size a ≤ S100000x1.size a
  hwx0_1 : ∀ i : grid0.Coords, EltTy.bits .i32 = 32 ∨ (Rect.block (s := S100000x1) S5000x1.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x64.size a ≤ S128x64.size a
  hwx0_2 : ∀ i : grid0.Coords, EltTy.bits .f32 = 32 ∨ (Rect.block (s := S128x64) S128x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x64.size a ≤ S1x64.size a
  hwx0_5 : ∀ i : grid0.Coords, EltTy.bits .f32 = 32 ∨ (Rect.block (s := S1x64) S1x64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x64.size a ≤ S1x64.size a
  hwx0_6 : ∀ i : grid0.Coords, EltTy.bits .f32 = 32 ∨ (Rect.block (s := S1x64) S1x64.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x64.size a ≤ S1x64.size a
  hwx0_7 : ∀ i : grid0.Coords, EltTy.bits .f32 = 32 ∨ (Rect.block (s := S1x64) S1x64.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S64x64.size a ≤ S64x64.size a
  hwx0_8 : ∀ i : grid0.Coords, EltTy.bits .f32 = 32 ∨ (Rect.block (s := S64x64) S64x64.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x64.size a ≤ S1x64.size a
  hwx0_9 : ∀ i : grid0.Coords, EltTy.bits .f32 = 32 ∨ (Rect.block (s := S1x64) S1x64.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x64.size a ≤ S1x64.size a
  hwx0_10 : ∀ i : grid0.Coords, EltTy.bits .f32 = 32 ∨ (Rect.block (s := S1x64) S1x64.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S1x64.size a ≤ S1x64.size a
  hwx0_11 : ∀ i : grid0.Coords, EltTy.bits .f32 = 32 ∨ (Rect.block (s := S1x64) S1x64.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S1x64.size a ≤ S1x64.size a
  hwx0_12 : ∀ i : grid0.Coords, EltTy.bits .f32 = 32 ∨ (Rect.block (s := S1x64) S1x64.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S1x64.size a ≤ S1x64.size a
  hwx0_13 : ∀ i : grid0.Coords, EltTy.bits .f32 = 32 ∨ (Rect.block (s := S1x64) S1x64.size (cc0_transform_13 i) (hinb0_13 i)).WholeWords (EltTy.packing .f32)
  hstage0_14 : ∀ j, (stage0_14 j).IsWhole
  nbuf0_14 : grid0.bufCount reads0_14 false = 2
  hreads0_14 : ∀ i i' : grid0.Coords, (∀ a, reads0_14 a = true → i a = i' a) → cc0_transform_14 i = cc0_transform_14 i'
  hinb0_14 : ∀ (i : grid0.Coords) a, (cc0_transform_14 i a + 1) * S5000x64.size a ≤ S100000x64.size a
  hwx0_14 : ∀ i : grid0.Coords, EltTy.bits .f32 = 32 ∨ (Rect.block (s := S100000x64) S5000x64.size (cc0_transform_14 i) (hinb0_14 i)).WholeWords (EltTy.packing .f32)
  hstage0_15 : ∀ j, (stage0_15 j).IsWhole
  nbuf0_15 : grid0.bufCount reads0_15 false = 2
  hreads0_15 : ∀ i i' : grid0.Coords, (∀ a, reads0_15 a = true → i a = i' a) → cc0_transform_15 i = cc0_transform_15 i'
  hinb0_15 : ∀ (i : grid0.Coords) a, (cc0_transform_15 i a + 1) * S1x512x64.size a ≤ S2x512x64.size a
  hwx0_15 : ∀ i : grid0.Coords, EltTy.bits .f32 = 32 ∨ (Rect.block (s := S2x512x64) S1x512x64.size (cc0_transform_15 i) (hinb0_15 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S100000x1.size a
  hwx1_1 : ∀ i : grid1.Coords, EltTy.bits .i32 = 32 ∨ (Rect.block (s := S100000x1) S5000x1.size (cc1_transform_1 i) (hinb1_1 i)).WholeWords (EltTy.packing .i32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .f32 = 32 ∨ (Rect.block (s := S64x64) S64x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x64.size a ≤ S1x64.size a
  hwx1_5 : ∀ i : grid1.Coords, EltTy.bits .f32 = 32 ∨ (Rect.block (s := S1x64) S1x64.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x64.size a ≤ S1x64.size a
  hwx1_6 : ∀ i : grid1.Coords, EltTy.bits .f32 = 32 ∨ (Rect.block (s := S1x64) S1x64.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x64.size a ≤ S1x64.size a
  hwx1_7 : ∀ i : grid1.Coords, EltTy.bits .f32 = 32 ∨ (Rect.block (s := S1x64) S1x64.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S64x64.size a ≤ S64x64.size a
  hwx1_8 : ∀ i : grid1.Coords, EltTy.bits .f32 = 32 ∨ (Rect.block (s := S64x64) S64x64.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S1x64.size a ≤ S1x64.size a
  hwx1_9 : ∀ i : grid1.Coords, EltTy.bits .f32 = 32 ∨ (Rect.block (s := S1x64) S1x64.size (cc1_transform_9 i) (hinb1_9 i)).WholeWords (EltTy.packing .f32)
  hstage1_10 : ∀ j, (stage1_10 j).IsWhole
  nbuf1_10 : grid1.bufCount reads1_10 true = 1
  hreads1_10 : ∀ i i' : grid1.Coords, (∀ a, reads1_10 a = true → i a = i' a) → cc1_transform_10 i = cc1_transform_10 i'
  hinb1_10 : ∀ (i : grid1.Coords) a, (cc1_transform_10 i a + 1) * S1x64.size a ≤ S1x64.size a
  hwx1_10 : ∀ i : grid1.Coords, EltTy.bits .f32 = 32 ∨ (Rect.block (s := S1x64) S1x64.size (cc1_transform_10 i) (hinb1_10 i)).WholeWords (EltTy.packing .f32)
  hstage1_11 : ∀ j, (stage1_11 j).IsWhole
  nbuf1_11 : grid1.bufCount reads1_11 true = 1
  hreads1_11 : ∀ i i' : grid1.Coords, (∀ a, reads1_11 a = true → i a = i' a) → cc1_transform_11 i = cc1_transform_11 i'
  hinb1_11 : ∀ (i : grid1.Coords) a, (cc1_transform_11 i a + 1) * S1x64.size a ≤ S1x64.size a
  hwx1_11 : ∀ i : grid1.Coords, EltTy.bits .f32 = 32 ∨ (Rect.block (s := S1x64) S1x64.size (cc1_transform_11 i) (hinb1_11 i)).WholeWords (EltTy.packing .f32)
  hstage1_12 : ∀ j, (stage1_12 j).IsWhole
  nbuf1_12 : grid1.bufCount reads1_12 true = 1
  hreads1_12 : ∀ i i' : grid1.Coords, (∀ a, reads1_12 a = true → i a = i' a) → cc1_transform_12 i = cc1_transform_12 i'
  hinb1_12 : ∀ (i : grid1.Coords) a, (cc1_transform_12 i a + 1) * S1x64.size a ≤ S1x64.size a
  hwx1_12 : ∀ i : grid1.Coords, EltTy.bits .f32 = 32 ∨ (Rect.block (s := S1x64) S1x64.size (cc1_transform_12 i) (hinb1_12 i)).WholeWords (EltTy.packing .f32)
  hstage1_13 : ∀ j, (stage1_13 j).IsWhole
  nbuf1_13 : grid1.bufCount reads1_13 true = 1
  hreads1_13 : ∀ i i' : grid1.Coords, (∀ a, reads1_13 a = true → i a = i' a) → cc1_transform_13 i = cc1_transform_13 i'
  hinb1_13 : ∀ (i : grid1.Coords) a, (cc1_transform_13 i a + 1) * S1x64.size a ≤ S1x64.size a
  hwx1_13 : ∀ i : grid1.Coords, EltTy.bits .f32 = 32 ∨ (Rect.block (s := S1x64) S1x64.size (cc1_transform_13 i) (hinb1_13 i)).WholeWords (EltTy.packing .f32)
  hstage1_14 : ∀ j, (stage1_14 j).IsWhole
  nbuf1_14 : grid1.bufCount reads1_14 false = 2
  hreads1_14 : ∀ i i' : grid1.Coords, (∀ a, reads1_14 a = true → i a = i' a) → cc1_transform_14 i = cc1_transform_14 i'
  hinb1_14 : ∀ (i : grid1.Coords) a, (cc1_transform_14 i a + 1) * S5000x64.size a ≤ S100000x64.size a
  hwx1_14 : ∀ i : grid1.Coords, EltTy.bits .f32 = 32 ∨ (Rect.block (s := S100000x64) S5000x64.size (cc1_transform_14 i) (hinb1_14 i)).WholeWords (EltTy.packing .f32)
  hstage1_15 : ∀ j, (stage1_15 j).IsWhole
  nbuf1_15 : grid1.bufCount reads1_15 false = 2
  hreads1_15 : ∀ i i' : grid1.Coords, (∀ a, reads1_15 a = true → i a = i' a) → cc1_transform_15 i = cc1_transform_15 i'
  hinb1_15 : ∀ (i : grid1.Coords) a, (cc1_transform_15 i a + 1) * S1x512x64.size a ≤ S2x512x64.size a
  hwx1_15 : ∀ i : grid1.Coords, EltTy.bits .f32 = 32 ∨ (Rect.block (s := S2x512x64) S1x512x64.size (cc1_transform_15 i) (hinb1_15 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S100000x64.size a
  hwx2_0 : ∀ i : grid2.Coords, EltTy.bits .f32 = 32 ∨ (Rect.block (s := S100000x64) S5000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x1.size a ≤ S100000x1.size a
  hwx2_1 : ∀ i : grid2.Coords, EltTy.bits .i32 = 32 ∨ (Rect.block (s := S100000x1) S5000x1.size (cc2_transform_1 i) (hinb2_1 i)).WholeWords (EltTy.packing .i32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64x64.size a ≤ S64x64.size a
  hwx2_2 : ∀ i : grid2.Coords, EltTy.bits .f32 = 32 ∨ (Rect.block (s := S64x64) S64x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x64.size a ≤ S1x64.size a
  hwx2_3 : ∀ i : grid2.Coords, EltTy.bits .f32 = 32 ∨ (Rect.block (s := S1x64) S1x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x64.size a ≤ S1x64.size a
  hwx2_4 : ∀ i : grid2.Coords, EltTy.bits .f32 = 32 ∨ (Rect.block (s := S1x64) S1x64.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x64.size a ≤ S1x64.size a
  hwx2_5 : ∀ i : grid2.Coords, EltTy.bits .f32 = 32 ∨ (Rect.block (s := S1x64) S1x64.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x64.size a ≤ S1x64.size a
  hwx2_6 : ∀ i : grid2.Coords, EltTy.bits .f32 = 32 ∨ (Rect.block (s := S1x64) S1x64.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S1x64.size a ≤ S1x64.size a
  hwx2_7 : ∀ i : grid2.Coords, EltTy.bits .f32 = 32 ∨ (Rect.block (s := S1x64) S1x64.size (cc2_transform_7 i) (hinb2_7 i)).WholeWords (EltTy.packing .f32)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S64x64.size a ≤ S64x64.size a
  hwx2_8 : ∀ i : grid2.Coords, EltTy.bits .f32 = 32 ∨ (Rect.block (s := S64x64) S64x64.size (cc2_transform_8 i) (hinb2_8 i)).WholeWords (EltTy.packing .f32)
  hstage2_9 : ∀ j, (stage2_9 j).IsWhole
  nbuf2_9 : grid2.bufCount reads2_9 true = 1
  hreads2_9 : ∀ i i' : grid2.Coords, (∀ a, reads2_9 a = true → i a = i' a) → cc2_transform_9 i = cc2_transform_9 i'
  hinb2_9 : ∀ (i : grid2.Coords) a, (cc2_transform_9 i a + 1) * S1x64.size a ≤ S1x64.size a
  hwx2_9 : ∀ i : grid2.Coords, EltTy.bits .f32 = 32 ∨ (Rect.block (s := S1x64) S1x64.size (cc2_transform_9 i) (hinb2_9 i)).WholeWords (EltTy.packing .f32)
  hstage2_10 : ∀ j, (stage2_10 j).IsWhole
  nbuf2_10 : grid2.bufCount reads2_10 true = 1
  hreads2_10 : ∀ i i' : grid2.Coords, (∀ a, reads2_10 a = true → i a = i' a) → cc2_transform_10 i = cc2_transform_10 i'
  hinb2_10 : ∀ (i : grid2.Coords) a, (cc2_transform_10 i a + 1) * S1x64.size a ≤ S1x64.size a
  hwx2_10 : ∀ i : grid2.Coords, EltTy.bits .f32 = 32 ∨ (Rect.block (s := S1x64) S1x64.size (cc2_transform_10 i) (hinb2_10 i)).WholeWords (EltTy.packing .f32)
  hstage2_11 : ∀ j, (stage2_11 j).IsWhole
  nbuf2_11 : grid2.bufCount reads2_11 true = 1
  hreads2_11 : ∀ i i' : grid2.Coords, (∀ a, reads2_11 a = true → i a = i' a) → cc2_transform_11 i = cc2_transform_11 i'
  hinb2_11 : ∀ (i : grid2.Coords) a, (cc2_transform_11 i a + 1) * S1x64.size a ≤ S1x64.size a
  hwx2_11 : ∀ i : grid2.Coords, EltTy.bits .f32 = 32 ∨ (Rect.block (s := S1x64) S1x64.size (cc2_transform_11 i) (hinb2_11 i)).WholeWords (EltTy.packing .f32)
  hstage2_12 : ∀ j, (stage2_12 j).IsWhole
  nbuf2_12 : grid2.bufCount reads2_12 true = 1
  hreads2_12 : ∀ i i' : grid2.Coords, (∀ a, reads2_12 a = true → i a = i' a) → cc2_transform_12 i = cc2_transform_12 i'
  hinb2_12 : ∀ (i : grid2.Coords) a, (cc2_transform_12 i a + 1) * S1x64.size a ≤ S1x64.size a
  hwx2_12 : ∀ i : grid2.Coords, EltTy.bits .f32 = 32 ∨ (Rect.block (s := S1x64) S1x64.size (cc2_transform_12 i) (hinb2_12 i)).WholeWords (EltTy.packing .f32)
  hstage2_13 : ∀ j, (stage2_13 j).IsWhole
  nbuf2_13 : grid2.bufCount reads2_13 true = 1
  hreads2_13 : ∀ i i' : grid2.Coords, (∀ a, reads2_13 a = true → i a = i' a) → cc2_transform_13 i = cc2_transform_13 i'
  hinb2_13 : ∀ (i : grid2.Coords) a, (cc2_transform_13 i a + 1) * S1x64.size a ≤ S1x64.size a
  hwx2_13 : ∀ i : grid2.Coords, EltTy.bits .f32 = 32 ∨ (Rect.block (s := S1x64) S1x64.size (cc2_transform_13 i) (hinb2_13 i)).WholeWords (EltTy.packing .f32)
  hstage2_14 : ∀ j, (stage2_14 j).IsWhole
  nbuf2_14 : grid2.bufCount reads2_14 false = 2
  hreads2_14 : ∀ i i' : grid2.Coords, (∀ a, reads2_14 a = true → i a = i' a) → cc2_transform_14 i = cc2_transform_14 i'
  hinb2_14 : ∀ (i : grid2.Coords) a, (cc2_transform_14 i a + 1) * S5000x64.size a ≤ S100000x64.size a
  hwx2_14 : ∀ i : grid2.Coords, EltTy.bits .f32 = 32 ∨ (Rect.block (s := S100000x64) S5000x64.size (cc2_transform_14 i) (hinb2_14 i)).WholeWords (EltTy.packing .f32)
  hstage2_15 : ∀ j, (stage2_15 j).IsWhole
  nbuf2_15 : grid2.bufCount reads2_15 false = 2
  hreads2_15 : ∀ i i' : grid2.Coords, (∀ a, reads2_15 a = true → i a = i' a) → cc2_transform_15 i = cc2_transform_15 i'
  hinb2_15 : ∀ (i : grid2.Coords) a, (cc2_transform_15 i a + 1) * S1x512x64.size a ≤ S2x512x64.size a
  hwx2_15 : ∀ i : grid2.Coords, EltTy.bits .f32 = 32 ∨ (Rect.block (s := S2x512x64) S1x512x64.size (cc2_transform_15 i) (hinb2_15 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S100000x64.size a
  hwx3_0 : ∀ i : grid3.Coords, EltTy.bits .f32 = 32 ∨ (Rect.block (s := S100000x64) S5000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x1.size a ≤ S100000x1.size a
  hwx3_1 : ∀ i : grid3.Coords, EltTy.bits .i32 = 32 ∨ (Rect.block (s := S100000x1) S5000x1.size (cc3_transform_1 i) (hinb3_1 i)).WholeWords (EltTy.packing .i32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S64x64.size a ≤ S64x64.size a
  hwx3_2 : ∀ i : grid3.Coords, EltTy.bits .f32 = 32 ∨ (Rect.block (s := S64x64) S64x64.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x64.size a ≤ S1x64.size a
  hwx3_3 : ∀ i : grid3.Coords, EltTy.bits .f32 = 32 ∨ (Rect.block (s := S1x64) S1x64.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x64.size a ≤ S1x64.size a
  hwx3_4 : ∀ i : grid3.Coords, EltTy.bits .f32 = 32 ∨ (Rect.block (s := S1x64) S1x64.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x64.size a ≤ S1x64.size a
  hwx3_5 : ∀ i : grid3.Coords, EltTy.bits .f32 = 32 ∨ (Rect.block (s := S1x64) S1x64.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S1x64.size a ≤ S1x64.size a
  hwx3_6 : ∀ i : grid3.Coords, EltTy.bits .f32 = 32 ∨ (Rect.block (s := S1x64) S1x64.size (cc3_transform_6 i) (hinb3_6 i)).WholeWords (EltTy.packing .f32)
  hstage3_7 : ∀ j, (stage3_7 j).IsWhole
  nbuf3_7 : grid3.bufCount reads3_7 true = 1
  hreads3_7 : ∀ i i' : grid3.Coords, (∀ a, reads3_7 a = true → i a = i' a) → cc3_transform_7 i = cc3_transform_7 i'
  hinb3_7 : ∀ (i : grid3.Coords) a, (cc3_transform_7 i a + 1) * S1x64.size a ≤ S1x64.size a
  hwx3_7 : ∀ i : grid3.Coords, EltTy.bits .f32 = 32 ∨ (Rect.block (s := S1x64) S1x64.size (cc3_transform_7 i) (hinb3_7 i)).WholeWords (EltTy.packing .f32)
  hstage3_8 : ∀ j, (stage3_8 j).IsWhole
  nbuf3_8 : grid3.bufCount reads3_8 true = 1
  hreads3_8 : ∀ i i' : grid3.Coords, (∀ a, reads3_8 a = true → i a = i' a) → cc3_transform_8 i = cc3_transform_8 i'
  hinb3_8 : ∀ (i : grid3.Coords) a, (cc3_transform_8 i a + 1) * S64x64.size a ≤ S64x64.size a
  hwx3_8 : ∀ i : grid3.Coords, EltTy.bits .f32 = 32 ∨ (Rect.block (s := S64x64) S64x64.size (cc3_transform_8 i) (hinb3_8 i)).WholeWords (EltTy.packing .f32)
  hstage3_9 : ∀ j, (stage3_9 j).IsWhole
  nbuf3_9 : grid3.bufCount reads3_9 true = 1
  hreads3_9 : ∀ i i' : grid3.Coords, (∀ a, reads3_9 a = true → i a = i' a) → cc3_transform_9 i = cc3_transform_9 i'
  hinb3_9 : ∀ (i : grid3.Coords) a, (cc3_transform_9 i a + 1) * S1x64.size a ≤ S1x64.size a
  hwx3_9 : ∀ i : grid3.Coords, EltTy.bits .f32 = 32 ∨ (Rect.block (s := S1x64) S1x64.size (cc3_transform_9 i) (hinb3_9 i)).WholeWords (EltTy.packing .f32)
  hstage3_10 : ∀ j, (stage3_10 j).IsWhole
  nbuf3_10 : grid3.bufCount reads3_10 true = 1
  hreads3_10 : ∀ i i' : grid3.Coords, (∀ a, reads3_10 a = true → i a = i' a) → cc3_transform_10 i = cc3_transform_10 i'
  hinb3_10 : ∀ (i : grid3.Coords) a, (cc3_transform_10 i a + 1) * S1x64.size a ≤ S1x64.size a
  hwx3_10 : ∀ i : grid3.Coords, EltTy.bits .f32 = 32 ∨ (Rect.block (s := S1x64) S1x64.size (cc3_transform_10 i) (hinb3_10 i)).WholeWords (EltTy.packing .f32)
  hstage3_11 : ∀ j, (stage3_11 j).IsWhole
  nbuf3_11 : grid3.bufCount reads3_11 true = 1
  hreads3_11 : ∀ i i' : grid3.Coords, (∀ a, reads3_11 a = true → i a = i' a) → cc3_transform_11 i = cc3_transform_11 i'
  hinb3_11 : ∀ (i : grid3.Coords) a, (cc3_transform_11 i a + 1) * S1x64.size a ≤ S1x64.size a
  hwx3_11 : ∀ i : grid3.Coords, EltTy.bits .f32 = 32 ∨ (Rect.block (s := S1x64) S1x64.size (cc3_transform_11 i) (hinb3_11 i)).WholeWords (EltTy.packing .f32)
  hstage3_12 : ∀ j, (stage3_12 j).IsWhole
  nbuf3_12 : grid3.bufCount reads3_12 true = 1
  hreads3_12 : ∀ i i' : grid3.Coords, (∀ a, reads3_12 a = true → i a = i' a) → cc3_transform_12 i = cc3_transform_12 i'
  hinb3_12 : ∀ (i : grid3.Coords) a, (cc3_transform_12 i a + 1) * S1x64.size a ≤ S1x64.size a
  hwx3_12 : ∀ i : grid3.Coords, EltTy.bits .f32 = 32 ∨ (Rect.block (s := S1x64) S1x64.size (cc3_transform_12 i) (hinb3_12 i)).WholeWords (EltTy.packing .f32)
  hstage3_13 : ∀ j, (stage3_13 j).IsWhole
  nbuf3_13 : grid3.bufCount reads3_13 true = 1
  hreads3_13 : ∀ i i' : grid3.Coords, (∀ a, reads3_13 a = true → i a = i' a) → cc3_transform_13 i = cc3_transform_13 i'
  hinb3_13 : ∀ (i : grid3.Coords) a, (cc3_transform_13 i a + 1) * S1x64.size a ≤ S1x64.size a
  hwx3_13 : ∀ i : grid3.Coords, EltTy.bits .f32 = 32 ∨ (Rect.block (s := S1x64) S1x64.size (cc3_transform_13 i) (hinb3_13 i)).WholeWords (EltTy.packing .f32)
  hstage3_14 : ∀ j, (stage3_14 j).IsWhole
  nbuf3_14 : grid3.bufCount reads3_14 false = 2
  hreads3_14 : ∀ i i' : grid3.Coords, (∀ a, reads3_14 a = true → i a = i' a) → cc3_transform_14 i = cc3_transform_14 i'
  hinb3_14 : ∀ (i : grid3.Coords) a, (cc3_transform_14 i a + 1) * S5000x64.size a ≤ S100000x64.size a
  hwx3_14 : ∀ i : grid3.Coords, EltTy.bits .f32 = 32 ∨ (Rect.block (s := S100000x64) S5000x64.size (cc3_transform_14 i) (hinb3_14 i)).WholeWords (EltTy.packing .f32)
  hstage3_15 : ∀ j, (stage3_15 j).IsWhole
  nbuf3_15 : grid3.bufCount reads3_15 false = 2
  hreads3_15 : ∀ i i' : grid3.Coords, (∀ a, reads3_15 a = true → i a = i' a) → cc3_transform_15 i = cc3_transform_15 i'
  hinb3_15 : ∀ (i : grid3.Coords) a, (cc3_transform_15 i a + 1) * S1x512x64.size a ≤ S2x512x64.size a
  hwx3_15 : ∀ i : grid3.Coords, EltTy.bits .f32 = 32 ∨ (Rect.block (s := S2x512x64) S1x512x64.size (cc3_transform_15 i) (hinb3_15 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x64.size a ≤ S100000x64.size a
  hwx4_0 : ∀ i : grid4.Coords, EltTy.bits .f32 = 32 ∨ (Rect.block (s := S100000x64) S5000x64.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S5000x1.size a ≤ S100000x1.size a
  hwx4_1 : ∀ i : grid4.Coords, EltTy.bits .i32 = 32 ∨ (Rect.block (s := S100000x1) S5000x1.size (cc4_transform_1 i) (hinb4_1 i)).WholeWords (EltTy.packing .i32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S64x64.size a ≤ S64x64.size a
  hwx4_2 : ∀ i : grid4.Coords, EltTy.bits .f32 = 32 ∨ (Rect.block (s := S64x64) S64x64.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x64.size a ≤ S1x64.size a
  hwx4_3 : ∀ i : grid4.Coords, EltTy.bits .f32 = 32 ∨ (Rect.block (s := S1x64) S1x64.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x64.size a ≤ S1x64.size a
  hwx4_4 : ∀ i : grid4.Coords, EltTy.bits .f32 = 32 ∨ (Rect.block (s := S1x64) S1x64.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S1x64.size a ≤ S1x64.size a
  hwx4_5 : ∀ i : grid4.Coords, EltTy.bits .f32 = 32 ∨ (Rect.block (s := S1x64) S1x64.size (cc4_transform_5 i) (hinb4_5 i)).WholeWords (EltTy.packing .f32)
  hstage4_6 : ∀ j, (stage4_6 j).IsWhole
  nbuf4_6 : grid4.bufCount reads4_6 true = 1
  hreads4_6 : ∀ i i' : grid4.Coords, (∀ a, reads4_6 a = true → i a = i' a) → cc4_transform_6 i = cc4_transform_6 i'
  hinb4_6 : ∀ (i : grid4.Coords) a, (cc4_transform_6 i a + 1) * S1x64.size a ≤ S1x64.size a
  hwx4_6 : ∀ i : grid4.Coords, EltTy.bits .f32 = 32 ∨ (Rect.block (s := S1x64) S1x64.size (cc4_transform_6 i) (hinb4_6 i)).WholeWords (EltTy.packing .f32)
  hstage4_7 : ∀ j, (stage4_7 j).IsWhole
  nbuf4_7 : grid4.bufCount reads4_7 true = 1
  hreads4_7 : ∀ i i' : grid4.Coords, (∀ a, reads4_7 a = true → i a = i' a) → cc4_transform_7 i = cc4_transform_7 i'
  hinb4_7 : ∀ (i : grid4.Coords) a, (cc4_transform_7 i a + 1) * S1x64.size a ≤ S1x64.size a
  hwx4_7 : ∀ i : grid4.Coords, EltTy.bits .f32 = 32 ∨ (Rect.block (s := S1x64) S1x64.size (cc4_transform_7 i) (hinb4_7 i)).WholeWords (EltTy.packing .f32)
  hstage4_8 : ∀ j, (stage4_8 j).IsWhole
  nbuf4_8 : grid4.bufCount reads4_8 true = 1
  hreads4_8 : ∀ i i' : grid4.Coords, (∀ a, reads4_8 a = true → i a = i' a) → cc4_transform_8 i = cc4_transform_8 i'
  hinb4_8 : ∀ (i : grid4.Coords) a, (cc4_transform_8 i a + 1) * S64x64.size a ≤ S64x64.size a
  hwx4_8 : ∀ i : grid4.Coords, EltTy.bits .f32 = 32 ∨ (Rect.block (s := S64x64) S64x64.size (cc4_transform_8 i) (hinb4_8 i)).WholeWords (EltTy.packing .f32)
  hstage4_9 : ∀ j, (stage4_9 j).IsWhole
  nbuf4_9 : grid4.bufCount reads4_9 true = 1
  hreads4_9 : ∀ i i' : grid4.Coords, (∀ a, reads4_9 a = true → i a = i' a) → cc4_transform_9 i = cc4_transform_9 i'
  hinb4_9 : ∀ (i : grid4.Coords) a, (cc4_transform_9 i a + 1) * S1x64.size a ≤ S1x64.size a
  hwx4_9 : ∀ i : grid4.Coords, EltTy.bits .f32 = 32 ∨ (Rect.block (s := S1x64) S1x64.size (cc4_transform_9 i) (hinb4_9 i)).WholeWords (EltTy.packing .f32)
  hstage4_10 : ∀ j, (stage4_10 j).IsWhole
  nbuf4_10 : grid4.bufCount reads4_10 true = 1
  hreads4_10 : ∀ i i' : grid4.Coords, (∀ a, reads4_10 a = true → i a = i' a) → cc4_transform_10 i = cc4_transform_10 i'
  hinb4_10 : ∀ (i : grid4.Coords) a, (cc4_transform_10 i a + 1) * S1x64.size a ≤ S1x64.size a
  hwx4_10 : ∀ i : grid4.Coords, EltTy.bits .f32 = 32 ∨ (Rect.block (s := S1x64) S1x64.size (cc4_transform_10 i) (hinb4_10 i)).WholeWords (EltTy.packing .f32)
  hstage4_11 : ∀ j, (stage4_11 j).IsWhole
  nbuf4_11 : grid4.bufCount reads4_11 true = 1
  hreads4_11 : ∀ i i' : grid4.Coords, (∀ a, reads4_11 a = true → i a = i' a) → cc4_transform_11 i = cc4_transform_11 i'
  hinb4_11 : ∀ (i : grid4.Coords) a, (cc4_transform_11 i a + 1) * S1x64.size a ≤ S1x64.size a
  hwx4_11 : ∀ i : grid4.Coords, EltTy.bits .f32 = 32 ∨ (Rect.block (s := S1x64) S1x64.size (cc4_transform_11 i) (hinb4_11 i)).WholeWords (EltTy.packing .f32)
  hstage4_12 : ∀ j, (stage4_12 j).IsWhole
  nbuf4_12 : grid4.bufCount reads4_12 true = 1
  hreads4_12 : ∀ i i' : grid4.Coords, (∀ a, reads4_12 a = true → i a = i' a) → cc4_transform_12 i = cc4_transform_12 i'
  hinb4_12 : ∀ (i : grid4.Coords) a, (cc4_transform_12 i a + 1) * S1x64.size a ≤ S1x64.size a
  hwx4_12 : ∀ i : grid4.Coords, EltTy.bits .f32 = 32 ∨ (Rect.block (s := S1x64) S1x64.size (cc4_transform_12 i) (hinb4_12 i)).WholeWords (EltTy.packing .f32)
  hstage4_13 : ∀ j, (stage4_13 j).IsWhole
  nbuf4_13 : grid4.bufCount reads4_13 true = 1
  hreads4_13 : ∀ i i' : grid4.Coords, (∀ a, reads4_13 a = true → i a = i' a) → cc4_transform_13 i = cc4_transform_13 i'
  hinb4_13 : ∀ (i : grid4.Coords) a, (cc4_transform_13 i a + 1) * S1x64.size a ≤ S1x64.size a
  hwx4_13 : ∀ i : grid4.Coords, EltTy.bits .f32 = 32 ∨ (Rect.block (s := S1x64) S1x64.size (cc4_transform_13 i) (hinb4_13 i)).WholeWords (EltTy.packing .f32)
  hstage4_14 : ∀ j, (stage4_14 j).IsWhole
  nbuf4_14 : grid4.bufCount reads4_14 false = 2
  hreads4_14 : ∀ i i' : grid4.Coords, (∀ a, reads4_14 a = true → i a = i' a) → cc4_transform_14 i = cc4_transform_14 i'
  hinb4_14 : ∀ (i : grid4.Coords) a, (cc4_transform_14 i a + 1) * S5000x64.size a ≤ S100000x64.size a
  hwx4_14 : ∀ i : grid4.Coords, EltTy.bits .f32 = 32 ∨ (Rect.block (s := S100000x64) S5000x64.size (cc4_transform_14 i) (hinb4_14 i)).WholeWords (EltTy.packing .f32)
  hstage4_15 : ∀ j, (stage4_15 j).IsWhole
  nbuf4_15 : grid4.bufCount reads4_15 false = 2
  hreads4_15 : ∀ i i' : grid4.Coords, (∀ a, reads4_15 a = true → i a = i' a) → cc4_transform_15 i = cc4_transform_15 i'
  hinb4_15 : ∀ (i : grid4.Coords) a, (cc4_transform_15 i a + 1) * S1x512x64.size a ≤ S2x512x64.size a
  hwx4_15 : ∀ i : grid4.Coords, EltTy.bits .f32 = 32 ∨ (Rect.block (s := S2x512x64) S1x512x64.size (cc4_transform_15 i) (hinb4_15 i)).WholeWords (EltTy.packing .f32)

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def dot_S5000x512_S5000x64_S512x64_0_0_1_1_n_n : DotDims S5000x512 S5000x64 S512x64 where
  lhsContracting := [0]
  rhsContracting := [0]
  lhsNonContracting := [1]
  rhsNonContracting := [1]
  lhsBatch := []
  rhsBatch := []
  wf := dot_S5000x512_S5000x64_S512x64_0_0_1_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S512x320_S320x16_S512x16_1_0_0_1_n_n : DotDims S512x320 S320x16 S512x16 where
  lhsContracting := [1]
  rhsContracting := [0]
  lhsNonContracting := [0]
  rhsNonContracting := [1]
  lhsBatch := []
  rhsBatch := []
  wf := dot_S512x320_S320x16_S512x16_1_0_0_1_n_n_wf

abbrev win0_0 : Pipeline.Window sig grid0 :=
  Pipeline.Window.ofSpec (Memref.whole main_v20) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S5000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S128x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v21) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v24) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v27) S1x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v30) S1x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v33) S1x64.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v35) S64x64.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v38) S1x64.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v41) S1x64.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v44) S1x64.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v47) S1x64.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v50) S1x64.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_v51_0) S5000x64.size cc0_transform_14 reads0_14 true false 2 stage0_14 sem0_14
    hrank0 hreads0_14 hinb0_14 nbuf0_14 (Memref.isWhole_whole _) hwx0_14 hstage0_14

abbrev win0_15 : Pipeline.Window sig grid0 :=
  Pipeline.Window.ofSpec (Memref.whole main_v51_1) S1x512x64.size cc0_transform_15 reads0_15 true false 2 stage0_15 sem0_15
    hrank0 hreads0_15 hinb0_15 nbuf0_15 (Memref.isWhole_whole _) hwx0_15 hstage0_15

abbrev win0 : Fin 16 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | ⟨_ + 16, h⟩ => absurd h (Nat.not_lt.2 (Nat.le_add_left _ _))
abbrev spec0 : Fin 16 → Pipeline.WinSpec sig grid0.rank := fun w => (win0 w).toWinSpec

abbrev win1_0 : Pipeline.Window sig grid1 :=
  Pipeline.Window.ofSpec (Memref.whole main_v68) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v4) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v70) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v73) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v76) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v79) S1x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v82) S1x64.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v85) S1x64.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v87) S64x64.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v90) S1x64.size cc1_transform_9 reads1_9 false true 1 stage1_9 sem1_9
    hrank1 hreads1_9 hinb1_9 nbuf1_9 (Memref.isWhole_whole _) hwx1_9 hstage1_9

abbrev win1_10 : Pipeline.Window sig grid1 :=
  Pipeline.Window.ofSpec (Memref.whole main_v93) S1x64.size cc1_transform_10 reads1_10 false true 1 stage1_10 sem1_10
    hrank1 hreads1_10 hinb1_10 nbuf1_10 (Memref.isWhole_whole _) hwx1_10 hstage1_10

abbrev win1_11 : Pipeline.Window sig grid1 :=
  Pipeline.Window.ofSpec (Memref.whole main_v96) S1x64.size cc1_transform_11 reads1_11 false true 1 stage1_11 sem1_11
    hrank1 hreads1_11 hinb1_11 nbuf1_11 (Memref.isWhole_whole _) hwx1_11 hstage1_11

abbrev win1_12 : Pipeline.Window sig grid1 :=
  Pipeline.Window.ofSpec (Memref.whole main_v99) S1x64.size cc1_transform_12 reads1_12 false true 1 stage1_12 sem1_12
    hrank1 hreads1_12 hinb1_12 nbuf1_12 (Memref.isWhole_whole _) hwx1_12 hstage1_12

abbrev win1_13 : Pipeline.Window sig grid1 :=
  Pipeline.Window.ofSpec (Memref.whole main_v102) S1x64.size cc1_transform_13 reads1_13 false true 1 stage1_13 sem1_13
    hrank1 hreads1_13 hinb1_13 nbuf1_13 (Memref.isWhole_whole _) hwx1_13 hstage1_13

abbrev win1_14 : Pipeline.Window sig grid1 :=
  Pipeline.Window.ofSpec (Memref.whole main_v103_0) S5000x64.size cc1_transform_14 reads1_14 true false 2 stage1_14 sem1_14
    hrank1 hreads1_14 hinb1_14 nbuf1_14 (Memref.isWhole_whole _) hwx1_14 hstage1_14

abbrev win1_15 : Pipeline.Window sig grid1 :=
  Pipeline.Window.ofSpec (Memref.whole main_v103_1) S1x512x64.size cc1_transform_15 reads1_15 true false 2 stage1_15 sem1_15
    hrank1 hreads1_15 hinb1_15 nbuf1_15 (Memref.isWhole_whole _) hwx1_15 hstage1_15

abbrev win1 : Fin 16 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | 11 => win1_11 | 12 => win1_12 | 13 => win1_13 | 14 => win1_14 | 15 => win1_15 | ⟨_ + 16, h⟩ => absurd h (Nat.not_lt.2 (Nat.le_add_left _ _))
abbrev spec1 : Fin 16 → Pipeline.WinSpec sig grid1.rank := fun w => (win1 w).toWinSpec

abbrev win2_0 : Pipeline.Window sig grid2 :=
  Pipeline.Window.ofSpec (Memref.whole main_v120) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v4) S5000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v122) S64x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v125) S1x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v128) S1x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v131) S1x64.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v134) S1x64.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v137) S1x64.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_v139) S64x64.size cc2_transform_8 reads2_8 false true 1 stage2_8 sem2_8
    hrank2 hreads2_8 hinb2_8 nbuf2_8 (Memref.isWhole_whole _) hwx2_8 hstage2_8

abbrev win2_9 : Pipeline.Window sig grid2 :=
  Pipeline.Window.ofSpec (Memref.whole main_v142) S1x64.size cc2_transform_9 reads2_9 false true 1 stage2_9 sem2_9
    hrank2 hreads2_9 hinb2_9 nbuf2_9 (Memref.isWhole_whole _) hwx2_9 hstage2_9

abbrev win2_10 : Pipeline.Window sig grid2 :=
  Pipeline.Window.ofSpec (Memref.whole main_v145) S1x64.size cc2_transform_10 reads2_10 false true 1 stage2_10 sem2_10
    hrank2 hreads2_10 hinb2_10 nbuf2_10 (Memref.isWhole_whole _) hwx2_10 hstage2_10

abbrev win2_11 : Pipeline.Window sig grid2 :=
  Pipeline.Window.ofSpec (Memref.whole main_v148) S1x64.size cc2_transform_11 reads2_11 false true 1 stage2_11 sem2_11
    hrank2 hreads2_11 hinb2_11 nbuf2_11 (Memref.isWhole_whole _) hwx2_11 hstage2_11

abbrev win2_12 : Pipeline.Window sig grid2 :=
  Pipeline.Window.ofSpec (Memref.whole main_v151) S1x64.size cc2_transform_12 reads2_12 false true 1 stage2_12 sem2_12
    hrank2 hreads2_12 hinb2_12 nbuf2_12 (Memref.isWhole_whole _) hwx2_12 hstage2_12

abbrev win2_13 : Pipeline.Window sig grid2 :=
  Pipeline.Window.ofSpec (Memref.whole main_v154) S1x64.size cc2_transform_13 reads2_13 false true 1 stage2_13 sem2_13
    hrank2 hreads2_13 hinb2_13 nbuf2_13 (Memref.isWhole_whole _) hwx2_13 hstage2_13

abbrev win2_14 : Pipeline.Window sig grid2 :=
  Pipeline.Window.ofSpec (Memref.whole main_v155_0) S5000x64.size cc2_transform_14 reads2_14 true false 2 stage2_14 sem2_14
    hrank2 hreads2_14 hinb2_14 nbuf2_14 (Memref.isWhole_whole _) hwx2_14 hstage2_14

abbrev win2_15 : Pipeline.Window sig grid2 :=
  Pipeline.Window.ofSpec (Memref.whole main_v155_1) S1x512x64.size cc2_transform_15 reads2_15 true false 2 stage2_15 sem2_15
    hrank2 hreads2_15 hinb2_15 nbuf2_15 (Memref.isWhole_whole _) hwx2_15 hstage2_15

abbrev win2 : Fin 16 → Pipeline.Window sig grid2 := fun | 0 => win2_0 | 1 => win2_1 | 2 => win2_2 | 3 => win2_3 | 4 => win2_4 | 5 => win2_5 | 6 => win2_6 | 7 => win2_7 | 8 => win2_8 | 9 => win2_9 | 10 => win2_10 | 11 => win2_11 | 12 => win2_12 | 13 => win2_13 | 14 => win2_14 | 15 => win2_15 | ⟨_ + 16, h⟩ => absurd h (Nat.not_lt.2 (Nat.le_add_left _ _))
abbrev spec2 : Fin 16 → Pipeline.WinSpec sig grid2.rank := fun w => (win2 w).toWinSpec

abbrev win3_0 : Pipeline.Window sig grid3 :=
  Pipeline.Window.ofSpec (Memref.whole main_v172) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v4) S5000x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v174) S64x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v177) S1x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v180) S1x64.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v183) S1x64.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v186) S1x64.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_v189) S1x64.size cc3_transform_7 reads3_7 false true 1 stage3_7 sem3_7
    hrank3 hreads3_7 hinb3_7 nbuf3_7 (Memref.isWhole_whole _) hwx3_7 hstage3_7

abbrev win3_8 : Pipeline.Window sig grid3 :=
  Pipeline.Window.ofSpec (Memref.whole main_v191) S64x64.size cc3_transform_8 reads3_8 false true 1 stage3_8 sem3_8
    hrank3 hreads3_8 hinb3_8 nbuf3_8 (Memref.isWhole_whole _) hwx3_8 hstage3_8

abbrev win3_9 : Pipeline.Window sig grid3 :=
  Pipeline.Window.ofSpec (Memref.whole main_v194) S1x64.size cc3_transform_9 reads3_9 false true 1 stage3_9 sem3_9
    hrank3 hreads3_9 hinb3_9 nbuf3_9 (Memref.isWhole_whole _) hwx3_9 hstage3_9

abbrev win3_10 : Pipeline.Window sig grid3 :=
  Pipeline.Window.ofSpec (Memref.whole main_v197) S1x64.size cc3_transform_10 reads3_10 false true 1 stage3_10 sem3_10
    hrank3 hreads3_10 hinb3_10 nbuf3_10 (Memref.isWhole_whole _) hwx3_10 hstage3_10

abbrev win3_11 : Pipeline.Window sig grid3 :=
  Pipeline.Window.ofSpec (Memref.whole main_v200) S1x64.size cc3_transform_11 reads3_11 false true 1 stage3_11 sem3_11
    hrank3 hreads3_11 hinb3_11 nbuf3_11 (Memref.isWhole_whole _) hwx3_11 hstage3_11

abbrev win3_12 : Pipeline.Window sig grid3 :=
  Pipeline.Window.ofSpec (Memref.whole main_v203) S1x64.size cc3_transform_12 reads3_12 false true 1 stage3_12 sem3_12
    hrank3 hreads3_12 hinb3_12 nbuf3_12 (Memref.isWhole_whole _) hwx3_12 hstage3_12

abbrev win3_13 : Pipeline.Window sig grid3 :=
  Pipeline.Window.ofSpec (Memref.whole main_v206) S1x64.size cc3_transform_13 reads3_13 false true 1 stage3_13 sem3_13
    hrank3 hreads3_13 hinb3_13 nbuf3_13 (Memref.isWhole_whole _) hwx3_13 hstage3_13

abbrev win3_14 : Pipeline.Window sig grid3 :=
  Pipeline.Window.ofSpec (Memref.whole main_v207_0) S5000x64.size cc3_transform_14 reads3_14 true false 2 stage3_14 sem3_14
    hrank3 hreads3_14 hinb3_14 nbuf3_14 (Memref.isWhole_whole _) hwx3_14 hstage3_14

abbrev win3_15 : Pipeline.Window sig grid3 :=
  Pipeline.Window.ofSpec (Memref.whole main_v207_1) S1x512x64.size cc3_transform_15 reads3_15 true false 2 stage3_15 sem3_15
    hrank3 hreads3_15 hinb3_15 nbuf3_15 (Memref.isWhole_whole _) hwx3_15 hstage3_15

abbrev win3 : Fin 16 → Pipeline.Window sig grid3 := fun | 0 => win3_0 | 1 => win3_1 | 2 => win3_2 | 3 => win3_3 | 4 => win3_4 | 5 => win3_5 | 6 => win3_6 | 7 => win3_7 | 8 => win3_8 | 9 => win3_9 | 10 => win3_10 | 11 => win3_11 | 12 => win3_12 | 13 => win3_13 | 14 => win3_14 | 15 => win3_15 | ⟨_ + 16, h⟩ => absurd h (Nat.not_lt.2 (Nat.le_add_left _ _))
abbrev spec3 : Fin 16 → Pipeline.WinSpec sig grid3.rank := fun w => (win3 w).toWinSpec

abbrev win4_0 : Pipeline.Window sig grid4 :=
  Pipeline.Window.ofSpec (Memref.whole main_v224) S5000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v4) S5000x1.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v226) S64x64.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v229) S1x64.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v232) S1x64.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v235) S1x64.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v238) S1x64.size cc4_transform_6 reads4_6 false true 1 stage4_6 sem4_6
    hrank4 hreads4_6 hinb4_6 nbuf4_6 (Memref.isWhole_whole _) hwx4_6 hstage4_6

abbrev win4_7 : Pipeline.Window sig grid4 :=
  Pipeline.Window.ofSpec (Memref.whole main_v241) S1x64.size cc4_transform_7 reads4_7 false true 1 stage4_7 sem4_7
    hrank4 hreads4_7 hinb4_7 nbuf4_7 (Memref.isWhole_whole _) hwx4_7 hstage4_7

abbrev win4_8 : Pipeline.Window sig grid4 :=
  Pipeline.Window.ofSpec (Memref.whole main_v243) S64x64.size cc4_transform_8 reads4_8 false true 1 stage4_8 sem4_8
    hrank4 hreads4_8 hinb4_8 nbuf4_8 (Memref.isWhole_whole _) hwx4_8 hstage4_8

abbrev win4_9 : Pipeline.Window sig grid4 :=
  Pipeline.Window.ofSpec (Memref.whole main_v246) S1x64.size cc4_transform_9 reads4_9 false true 1 stage4_9 sem4_9
    hrank4 hreads4_9 hinb4_9 nbuf4_9 (Memref.isWhole_whole _) hwx4_9 hstage4_9

abbrev win4_10 : Pipeline.Window sig grid4 :=
  Pipeline.Window.ofSpec (Memref.whole main_v249) S1x64.size cc4_transform_10 reads4_10 false true 1 stage4_10 sem4_10
    hrank4 hreads4_10 hinb4_10 nbuf4_10 (Memref.isWhole_whole _) hwx4_10 hstage4_10

abbrev win4_11 : Pipeline.Window sig grid4 :=
  Pipeline.Window.ofSpec (Memref.whole main_v252) S1x64.size cc4_transform_11 reads4_11 false true 1 stage4_11 sem4_11
    hrank4 hreads4_11 hinb4_11 nbuf4_11 (Memref.isWhole_whole _) hwx4_11 hstage4_11

abbrev win4_12 : Pipeline.Window sig grid4 :=
  Pipeline.Window.ofSpec (Memref.whole main_v255) S1x64.size cc4_transform_12 reads4_12 false true 1 stage4_12 sem4_12
    hrank4 hreads4_12 hinb4_12 nbuf4_12 (Memref.isWhole_whole _) hwx4_12 hstage4_12

abbrev win4_13 : Pipeline.Window sig grid4 :=
  Pipeline.Window.ofSpec (Memref.whole main_v258) S1x64.size cc4_transform_13 reads4_13 false true 1 stage4_13 sem4_13
    hrank4 hreads4_13 hinb4_13 nbuf4_13 (Memref.isWhole_whole _) hwx4_13 hstage4_13

abbrev win4_14 : Pipeline.Window sig grid4 :=
  Pipeline.Window.ofSpec (Memref.whole main_v259_0) S5000x64.size cc4_transform_14 reads4_14 true false 2 stage4_14 sem4_14
    hrank4 hreads4_14 hinb4_14 nbuf4_14 (Memref.isWhole_whole _) hwx4_14 hstage4_14

abbrev win4_15 : Pipeline.Window sig grid4 :=
  Pipeline.Window.ofSpec (Memref.whole main_v259_1) S1x512x64.size cc4_transform_15 reads4_15 true false 2 stage4_15 sem4_15
    hrank4 hreads4_15 hinb4_15 nbuf4_15 (Memref.isWhole_whole _) hwx4_15 hstage4_15

abbrev win4 : Fin 16 → Pipeline.Window sig grid4 := fun | 0 => win4_0 | 1 => win4_1 | 2 => win4_2 | 3 => win4_3 | 4 => win4_4 | 5 => win4_5 | 6 => win4_6 | 7 => win4_7 | 8 => win4_8 | 9 => win4_9 | 10 => win4_10 | 11 => win4_11 | 12 => win4_12 | 13 => win4_13 | 14 => win4_14 | 15 => win4_15 | ⟨_ + 16, h⟩ => absurd h (Nat.not_lt.2 (Nat.le_add_left _ _))
abbrev spec4 : Fin 16 → Pipeline.WinSpec sig grid4.rank := fun w => (win4 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S100000 : Shape := ⟨1, ![100000]⟩
abbrev S5 : Shape := ⟨1, ![5]⟩
abbrev S128x64 : Shape := ⟨2, ![128, 64]⟩
abbrev S64 : Shape := ⟨1, ![64]⟩
abbrev S4x64x64 : Shape := ⟨3, ![4, 64, 64]⟩
abbrev S4x64 : Shape := ⟨2, ![4, 64]⟩
abbrev S5x64 : Shape := ⟨2, ![5, 64]⟩
abbrev S5x64x64 : Shape := ⟨3, ![5, 64, 64]⟩
abbrev S320x16 : Shape := ⟨2, ![320, 16]⟩
abbrev S16 : Shape := ⟨1, ![16]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S1 : Shape := ⟨1, ![1]⟩
abbrev S100000x64 : Shape := ⟨2, ![100000, 64]⟩
abbrev S1x64 : Shape := ⟨2, ![1, 64]⟩
abbrev S1x64x64 : Shape := ⟨3, ![1, 64, 64]⟩
abbrev S64x64 : Shape := ⟨2, ![64, 64]⟩
abbrev S512x64 : Shape := ⟨2, ![512, 64]⟩
abbrev S100000x1 : Shape := ⟨2, ![100000, 1]⟩
abbrev S1600000x64 : Shape := ⟨2, ![1600000, 64]⟩
abbrev S512x320 : Shape := ⟨2, ![512, 320]⟩
abbrev S512x16 : Shape := ⟨2, ![512, 16]⟩
abbrev S1x16 : Shape := ⟨2, ![1, 16]⟩

abbrev nBuf : Space → Nat
  | .hbm => 475
  | .vmem => 0
  | .smem => 0
  | _ => 0

abbrev hbmTy0_0 (i : Nat) : BufTy := match i % 128 with
  | 0 => ⟨S100000x128, .f32⟩
  | 1 => ⟨S2x1600000, .i32⟩
  | 2 => ⟨S100000, .i32⟩
  | 3 => ⟨S5, .f32⟩
  | 4 => ⟨S128x64, .f32⟩
  | 5 => ⟨S64, .f32⟩
  | 6 => ⟨S4x64x64, .f32⟩
  | 7 => ⟨S4x64, .f32⟩
  | 8 => ⟨S5x64, .f32⟩
  | 9 => ⟨S5x64, .f32⟩
  | 10 => ⟨S5x64, .f32⟩
  | 11 => ⟨S5x64, .f32⟩
  | 12 => ⟨S5x64x64, .f32⟩
  | 13 => ⟨S5x64, .f32⟩
  | 14 => ⟨S5x64, .f32⟩
  | 15 => ⟨S5x64, .f32⟩
  | 16 => ⟨S5x64, .f32⟩
  | 17 => ⟨S5x64, .f32⟩
  | 18 => ⟨S320x16, .f32⟩
  | 19 => ⟨S16, .f32⟩
  | 20 => ⟨S1x1600000, .i32⟩
  | 21 => ⟨S1600000, .i32⟩
  | 22 => ⟨S1x1600000, .i32⟩
  | 23 => ⟨S1600000, .i32⟩
  | 24 => ⟨S_, .i32⟩
  | 25 => ⟨S1600000, .i32⟩
  | 26 => ⟨S1600000, .i1⟩
  | 27 => ⟨S_, .i32⟩
  | 28 => ⟨S1600000, .i32⟩
  | 29 => ⟨S1600000, .i32⟩
  | 30 => ⟨S1600000, .i32⟩
  | 31 => ⟨S1600000x1, .i32⟩
  | 32 => ⟨S1600000x128, .f32⟩
  | 33 => ⟨S_, .f32⟩
  | 34 => ⟨S100000x128, .f32⟩
  | 35 => ⟨S1600000x1, .i32⟩
  | 36 => ⟨S100000x128, .f32⟩
  | 37 => ⟨S1, .f32⟩
  | 38 => ⟨S_, .f32⟩
  | 39 => ⟨S_, .f32⟩
  | 40 => ⟨S_, .f32⟩
  | 41 => ⟨S100000x128, .f32⟩
  | 42 => ⟨S100000x128, .f32⟩
  | 43 => ⟨S100000x128, .f32⟩
  | 44 => ⟨S100000x64, .f32⟩
  | 45 => ⟨S1x64, .f32⟩
  | 46 => ⟨S100000x64, .f32⟩
  | 47 => ⟨S100000x64, .f32⟩
  | 48 => ⟨S1x64, .f32⟩
  | 49 => ⟨S64, .f32⟩
  | 50 => ⟨S1x64, .f32⟩
  | 51 => ⟨S64, .f32⟩
  | 52 => ⟨S1x64, .f32⟩
  | 53 => ⟨S64, .f32⟩
  | 54 => ⟨S1x64, .f32⟩
  | 55 => ⟨S64, .f32⟩
  | 56 => ⟨S1x64, .f32⟩
  | 57 => ⟨S100000x64, .f32⟩
  | 58 => ⟨S100000x64, .f32⟩
  | 59 => ⟨S_, .f32⟩
  | 60 => ⟨S64, .f32⟩
  | 61 => ⟨S64, .f32⟩
  | 62 => ⟨S64, .f32⟩
  | 63 => ⟨S64, .f32⟩
  | 64 => ⟨S1x64, .f32⟩
  | 65 => ⟨S100000x64, .f32⟩
  | 66 => ⟨S100000x64, .f32⟩
  | 67 => ⟨S1x64, .f32⟩
  | 68 => ⟨S100000x64, .f32⟩
  | 69 => ⟨S100000x64, .f32⟩
  | 70 => ⟨S_, .f32⟩
  | 71 => ⟨S100000x64, .f32⟩
  | 72 => ⟨S100000x64, .f32⟩
  | 73 => ⟨S1x64x64, .f32⟩
  | 74 => ⟨S64x64, .f32⟩
  | 75 => ⟨S100000x64, .f32⟩
  | 76 => ⟨S1x64, .f32⟩
  | 77 => ⟨S64, .f32⟩
  | 78 => ⟨S1x64, .f32⟩
  | 79 => ⟨S100000x64, .f32⟩
  | 80 => ⟨S100000x64, .f32⟩
  | 81 => ⟨S1x64, .f32⟩
  | 82 => ⟨S64, .f32⟩
  | 83 => ⟨S1x64, .f32⟩
  | 84 => ⟨S64, .f32⟩
  | 85 => ⟨S1x64, .f32⟩
  | 86 => ⟨S64, .f32⟩
  | 87 => ⟨S1x64, .f32⟩
  | 88 => ⟨S64, .f32⟩
  | 89 => ⟨S1x64, .f32⟩
  | 90 => ⟨S100000x64, .f32⟩
  | 91 => ⟨S100000x64, .f32⟩
  | 92 => ⟨S_, .f32⟩
  | 93 => ⟨S64, .f32⟩
  | 94 => ⟨S64, .f32⟩
  | 95 => ⟨S64, .f32⟩
  | 96 => ⟨S64, .f32⟩
  | 97 => ⟨S1x64, .f32⟩
  | 98 => ⟨S100000x64, .f32⟩
  | 99 => ⟨S100000x64, .f32⟩
  | 100 => ⟨S1x64, .f32⟩
  | 101 => ⟨S100000x64, .f32⟩
  | 102 => ⟨S100000x64, .f32⟩
  | 103 => ⟨S_, .f32⟩
  | 104 => ⟨S100000x64, .f32⟩
  | 105 => ⟨S100000x64, .f32⟩
  | 106 => ⟨S_, .f32⟩
  | 107 => ⟨S512x64, .f32⟩
  | 108 => ⟨S100000x1, .i32⟩
  | 109 => ⟨S512x64, .f32⟩
  | 110 => ⟨S_, .i32⟩
  | 111 => ⟨S1600000, .i32⟩
  | 112 => ⟨S1600000, .i1⟩
  | 113 => ⟨S_, .i32⟩
  | 114 => ⟨S1600000, .i32⟩
  | 115 => ⟨S1600000, .i32⟩
  | 116 => ⟨S1600000, .i32⟩
  | 117 => ⟨S1600000x1, .i32⟩
  | 118 => ⟨S1600000x64, .f32⟩
  | 119 => ⟨S_, .f32⟩
  | 120 => ⟨S100000x64, .f32⟩
  | 121 => ⟨S1600000x1, .i32⟩
  | 122 => ⟨S100000x64, .f32⟩
  | 123 => ⟨S1, .f32⟩
  | 124 => ⟨S_, .f32⟩
  | 125 => ⟨S_, .f32⟩
  | 126 => ⟨S_, .f32⟩
  | 127 => ⟨S100000x64, .f32⟩
  | _ => ⟨S100000x128, .f32⟩

abbrev hbmTy0_1 (i : Nat) : BufTy := match i % 128 with
  | 0 => ⟨S100000x64, .f32⟩
  | 1 => ⟨S100000x64, .f32⟩
  | 2 => ⟨S1x64x64, .f32⟩
  | 3 => ⟨S64x64, .f32⟩
  | 4 => ⟨S1x64, .f32⟩
  | 5 => ⟨S64, .f32⟩
  | 6 => ⟨S100000x64, .f32⟩
  | 7 => ⟨S1x64, .f32⟩
  | 8 => ⟨S100000x64, .f32⟩
  | 9 => ⟨S100000x64, .f32⟩
  | 10 => ⟨S1x64, .f32⟩
  | 11 => ⟨S64, .f32⟩
  | 12 => ⟨S1x64, .f32⟩
  | 13 => ⟨S64, .f32⟩
  | 14 => ⟨S1x64, .f32⟩
  | 15 => ⟨S64, .f32⟩
  | 16 => ⟨S1x64, .f32⟩
  | 17 => ⟨S64, .f32⟩
  | 18 => ⟨S1x64, .f32⟩
  | 19 => ⟨S100000x64, .f32⟩
  | 20 => ⟨S100000x64, .f32⟩
  | 21 => ⟨S_, .f32⟩
  | 22 => ⟨S64, .f32⟩
  | 23 => ⟨S64, .f32⟩
  | 24 => ⟨S64, .f32⟩
  | 25 => ⟨S64, .f32⟩
  | 26 => ⟨S1x64, .f32⟩
  | 27 => ⟨S100000x64, .f32⟩
  | 28 => ⟨S100000x64, .f32⟩
  | 29 => ⟨S1x64, .f32⟩
  | 30 => ⟨S100000x64, .f32⟩
  | 31 => ⟨S100000x64, .f32⟩
  | 32 => ⟨S_, .f32⟩
  | 33 => ⟨S100000x64, .f32⟩
  | 34 => ⟨S100000x64, .f32⟩
  | 35 => ⟨S1x64x64, .f32⟩
  | 36 => ⟨S64x64, .f32⟩
  | 37 => ⟨S100000x64, .f32⟩
  | 38 => ⟨S1x64, .f32⟩
  | 39 => ⟨S64, .f32⟩
  | 40 => ⟨S1x64, .f32⟩
  | 41 => ⟨S100000x64, .f32⟩
  | 42 => ⟨S100000x64, .f32⟩
  | 43 => ⟨S1x64, .f32⟩
  | 44 => ⟨S64, .f32⟩
  | 45 => ⟨S1x64, .f32⟩
  | 46 => ⟨S64, .f32⟩
  | 47 => ⟨S1x64, .f32⟩
  | 48 => ⟨S64, .f32⟩
  | 49 => ⟨S1x64, .f32⟩
  | 50 => ⟨S64, .f32⟩
  | 51 => ⟨S1x64, .f32⟩
  | 52 => ⟨S100000x64, .f32⟩
  | 53 => ⟨S100000x64, .f32⟩
  | 54 => ⟨S_, .f32⟩
  | 55 => ⟨S64, .f32⟩
  | 56 => ⟨S64, .f32⟩
  | 57 => ⟨S64, .f32⟩
  | 58 => ⟨S64, .f32⟩
  | 59 => ⟨S1x64, .f32⟩
  | 60 => ⟨S100000x64, .f32⟩
  | 61 => ⟨S100000x64, .f32⟩
  | 62 => ⟨S1x64, .f32⟩
  | 63 => ⟨S100000x64, .f32⟩
  | 64 => ⟨S100000x64, .f32⟩
  | 65 => ⟨S_, .f32⟩
  | 66 => ⟨S100000x64, .f32⟩
  | 67 => ⟨S100000x64, .f32⟩
  | 68 => ⟨S_, .f32⟩
  | 69 => ⟨S512x64, .f32⟩
  | 70 => ⟨S100000x1, .i32⟩
  | 71 => ⟨S512x64, .f32⟩
  | 72 => ⟨S_, .i32⟩
  | 73 => ⟨S1600000, .i32⟩
  | 74 => ⟨S1600000, .i1⟩
  | 75 => ⟨S_, .i32⟩
  | 76 => ⟨S1600000, .i32⟩
  | 77 => ⟨S1600000, .i32⟩
  | 78 => ⟨S1600000, .i32⟩
  | 79 => ⟨S1600000x1, .i32⟩
  | 80 => ⟨S1600000x64, .f32⟩
  | 81 => ⟨S_, .f32⟩
  | 82 => ⟨S100000x64, .f32⟩
  | 83 => ⟨S1600000x1, .i32⟩
  | 84 => ⟨S100000x64, .f32⟩
  | 85 => ⟨S1, .f32⟩
  | 86 => ⟨S_, .f32⟩
  | 87 => ⟨S_, .f32⟩
  | 88 => ⟨S_, .f32⟩
  | 89 => ⟨S100000x64, .f32⟩
  | 90 => ⟨S100000x64, .f32⟩
  | 91 => ⟨S100000x64, .f32⟩
  | 92 => ⟨S1x64x64, .f32⟩
  | 93 => ⟨S64x64, .f32⟩
  | 94 => ⟨S1x64, .f32⟩
  | 95 => ⟨S64, .f32⟩
  | 96 => ⟨S100000x64, .f32⟩
  | 97 => ⟨S1x64, .f32⟩
  | 98 => ⟨S100000x64, .f32⟩
  | 99 => ⟨S100000x64, .f32⟩
  | 100 => ⟨S1x64, .f32⟩
  | 101 => ⟨S64, .f32⟩
  | 102 => ⟨S1x64, .f32⟩
  | 103 => ⟨S64, .f32⟩
  | 104 => ⟨S1x64, .f32⟩
  | 105 => ⟨S64, .f32⟩
  | 106 => ⟨S1x64, .f32⟩
  | 107 => ⟨S64, .f32⟩
  | 108 => ⟨S1x64, .f32⟩
  | 109 => ⟨S100000x64, .f32⟩
  | 110 => ⟨S100000x64, .f32⟩
  | 111 => ⟨S_, .f32⟩
  | 112 => ⟨S64, .f32⟩
  | 113 => ⟨S64, .f32⟩
  | 114 => ⟨S64, .f32⟩
  | 115 => ⟨S64, .f32⟩
  | 116 => ⟨S1x64, .f32⟩
  | 117 => ⟨S100000x64, .f32⟩
  | 118 => ⟨S100000x64, .f32⟩
  | 119 => ⟨S1x64, .f32⟩
  | 120 => ⟨S100000x64, .f32⟩
  | 121 => ⟨S100000x64, .f32⟩
  | 122 => ⟨S_, .f32⟩
  | 123 => ⟨S100000x64, .f32⟩
  | 124 => ⟨S100000x64, .f32⟩
  | 125 => ⟨S1x64x64, .f32⟩
  | 126 => ⟨S64x64, .f32⟩
  | 127 => ⟨S100000x64, .f32⟩
  | _ => ⟨S100000x128, .f32⟩

abbrev hbmTy0_2 (i : Nat) : BufTy := match i % 128 with
  | 0 => ⟨S1x64, .f32⟩
  | 1 => ⟨S64, .f32⟩
  | 2 => ⟨S1x64, .f32⟩
  | 3 => ⟨S100000x64, .f32⟩
  | 4 => ⟨S100000x64, .f32⟩
  | 5 => ⟨S1x64, .f32⟩
  | 6 => ⟨S64, .f32⟩
  | 7 => ⟨S1x64, .f32⟩
  | 8 => ⟨S64, .f32⟩
  | 9 => ⟨S1x64, .f32⟩
  | 10 => ⟨S64, .f32⟩
  | 11 => ⟨S1x64, .f32⟩
  | 12 => ⟨S64, .f32⟩
  | 13 => ⟨S1x64, .f32⟩
  | 14 => ⟨S100000x64, .f32⟩
  | 15 => ⟨S100000x64, .f32⟩
  | 16 => ⟨S_, .f32⟩
  | 17 => ⟨S64, .f32⟩
  | 18 => ⟨S64, .f32⟩
  | 19 => ⟨S64, .f32⟩
  | 20 => ⟨S64, .f32⟩
  | 21 => ⟨S1x64, .f32⟩
  | 22 => ⟨S100000x64, .f32⟩
  | 23 => ⟨S100000x64, .f32⟩
  | 24 => ⟨S1x64, .f32⟩
  | 25 => ⟨S100000x64, .f32⟩
  | 26 => ⟨S100000x64, .f32⟩
  | 27 => ⟨S_, .f32⟩
  | 28 => ⟨S100000x64, .f32⟩
  | 29 => ⟨S100000x64, .f32⟩
  | 30 => ⟨S_, .f32⟩
  | 31 => ⟨S512x64, .f32⟩
  | 32 => ⟨S100000x1, .i32⟩
  | 33 => ⟨S512x64, .f32⟩
  | 34 => ⟨S_, .i32⟩
  | 35 => ⟨S1600000, .i32⟩
  | 36 => ⟨S1600000, .i1⟩
  | 37 => ⟨S_, .i32⟩
  | 38 => ⟨S1600000, .i32⟩
  | 39 => ⟨S1600000, .i32⟩
  | 40 => ⟨S1600000, .i32⟩
  | 41 => ⟨S1600000x1, .i32⟩
  | 42 => ⟨S1600000x64, .f32⟩
  | 43 => ⟨S_, .f32⟩
  | 44 => ⟨S100000x64, .f32⟩
  | 45 => ⟨S1600000x1, .i32⟩
  | 46 => ⟨S100000x64, .f32⟩
  | 47 => ⟨S1, .f32⟩
  | 48 => ⟨S_, .f32⟩
  | 49 => ⟨S_, .f32⟩
  | 50 => ⟨S_, .f32⟩
  | 51 => ⟨S100000x64, .f32⟩
  | 52 => ⟨S100000x64, .f32⟩
  | 53 => ⟨S100000x64, .f32⟩
  | 54 => ⟨S1x64x64, .f32⟩
  | 55 => ⟨S64x64, .f32⟩
  | 56 => ⟨S1x64, .f32⟩
  | 57 => ⟨S64, .f32⟩
  | 58 => ⟨S100000x64, .f32⟩
  | 59 => ⟨S1x64, .f32⟩
  | 60 => ⟨S100000x64, .f32⟩
  | 61 => ⟨S100000x64, .f32⟩
  | 62 => ⟨S1x64, .f32⟩
  | 63 => ⟨S64, .f32⟩
  | 64 => ⟨S1x64, .f32⟩
  | 65 => ⟨S64, .f32⟩
  | 66 => ⟨S1x64, .f32⟩
  | 67 => ⟨S64, .f32⟩
  | 68 => ⟨S1x64, .f32⟩
  | 69 => ⟨S64, .f32⟩
  | 70 => ⟨S1x64, .f32⟩
  | 71 => ⟨S100000x64, .f32⟩
  | 72 => ⟨S100000x64, .f32⟩
  | 73 => ⟨S_, .f32⟩
  | 74 => ⟨S64, .f32⟩
  | 75 => ⟨S64, .f32⟩
  | 76 => ⟨S64, .f32⟩
  | 77 => ⟨S64, .f32⟩
  | 78 => ⟨S1x64, .f32⟩
  | 79 => ⟨S100000x64, .f32⟩
  | 80 => ⟨S100000x64, .f32⟩
  | 81 => ⟨S1x64, .f32⟩
  | 82 => ⟨S100000x64, .f32⟩
  | 83 => ⟨S100000x64, .f32⟩
  | 84 => ⟨S_, .f32⟩
  | 85 => ⟨S100000x64, .f32⟩
  | 86 => ⟨S100000x64, .f32⟩
  | 87 => ⟨S1x64x64, .f32⟩
  | 88 => ⟨S64x64, .f32⟩
  | 89 => ⟨S100000x64, .f32⟩
  | 90 => ⟨S1x64, .f32⟩
  | 91 => ⟨S64, .f32⟩
  | 92 => ⟨S1x64, .f32⟩
  | 93 => ⟨S100000x64, .f32⟩
  | 94 => ⟨S100000x64, .f32⟩
  | 95 => ⟨S1x64, .f32⟩
  | 96 => ⟨S64, .f32⟩
  | 97 => ⟨S1x64, .f32⟩
  | 98 => ⟨S64, .f32⟩
  | 99 => ⟨S1x64, .f32⟩
  | 100 => ⟨S64, .f32⟩
  | 101 => ⟨S1x64, .f32⟩
  | 102 => ⟨S64, .f32⟩
  | 103 => ⟨S1x64, .f32⟩
  | 104 => ⟨S100000x64, .f32⟩
  | 105 => ⟨S100000x64, .f32⟩
  | 106 => ⟨S_, .f32⟩
  | 107 => ⟨S64, .f32⟩
  | 108 => ⟨S64, .f32⟩
  | 109 => ⟨S64, .f32⟩
  | 110 => ⟨S64, .f32⟩
  | 111 => ⟨S1x64, .f32⟩
  | 112 => ⟨S100000x64, .f32⟩
  | 113 => ⟨S100000x64, .f32⟩
  | 114 => ⟨S1x64, .f32⟩
  | 115 => ⟨S100000x64, .f32⟩
  | 116 => ⟨S100000x64, .f32⟩
  | 117 => ⟨S_, .f32⟩
  | 118 => ⟨S100000x64, .f32⟩
  | 119 => ⟨S100000x64, .f32⟩
  | 120 => ⟨S_, .f32⟩
  | 121 => ⟨S512x64, .f32⟩
  | 122 => ⟨S100000x1, .i32⟩
  | 123 => ⟨S512x64, .f32⟩
  | 124 => ⟨S_, .i32⟩
  | 125 => ⟨S1600000, .i32⟩
  | 126 => ⟨S1600000, .i1⟩
  | 127 => ⟨S_, .i32⟩
  | _ => ⟨S100000x128, .f32⟩

abbrev hbmTy0_3 (i : Nat) : BufTy := match i % 128 with
  | 0 => ⟨S1600000, .i32⟩
  | 1 => ⟨S1600000, .i32⟩
  | 2 => ⟨S1600000, .i32⟩
  | 3 => ⟨S1600000x1, .i32⟩
  | 4 => ⟨S1600000x64, .f32⟩
  | 5 => ⟨S_, .f32⟩
  | 6 => ⟨S100000x64, .f32⟩
  | 7 => ⟨S1600000x1, .i32⟩
  | 8 => ⟨S100000x64, .f32⟩
  | 9 => ⟨S1, .f32⟩
  | 10 => ⟨S_, .f32⟩
  | 11 => ⟨S_, .f32⟩
  | 12 => ⟨S_, .f32⟩
  | 13 => ⟨S100000x64, .f32⟩
  | 14 => ⟨S100000x64, .f32⟩
  | 15 => ⟨S100000x64, .f32⟩
  | 16 => ⟨S1x64x64, .f32⟩
  | 17 => ⟨S64x64, .f32⟩
  | 18 => ⟨S1x64, .f32⟩
  | 19 => ⟨S64, .f32⟩
  | 20 => ⟨S100000x64, .f32⟩
  | 21 => ⟨S1x64, .f32⟩
  | 22 => ⟨S100000x64, .f32⟩
  | 23 => ⟨S100000x64, .f32⟩
  | 24 => ⟨S1x64, .f32⟩
  | 25 => ⟨S64, .f32⟩
  | 26 => ⟨S1x64, .f32⟩
  | 27 => ⟨S64, .f32⟩
  | 28 => ⟨S1x64, .f32⟩
  | 29 => ⟨S64, .f32⟩
  | 30 => ⟨S1x64, .f32⟩
  | 31 => ⟨S64, .f32⟩
  | 32 => ⟨S1x64, .f32⟩
  | 33 => ⟨S100000x64, .f32⟩
  | 34 => ⟨S100000x64, .f32⟩
  | 35 => ⟨S_, .f32⟩
  | 36 => ⟨S64, .f32⟩
  | 37 => ⟨S64, .f32⟩
  | 38 => ⟨S64, .f32⟩
  | 39 => ⟨S64, .f32⟩
  | 40 => ⟨S1x64, .f32⟩
  | 41 => ⟨S100000x64, .f32⟩
  | 42 => ⟨S100000x64, .f32⟩
  | 43 => ⟨S1x64, .f32⟩
  | 44 => ⟨S100000x64, .f32⟩
  | 45 => ⟨S100000x64, .f32⟩
  | 46 => ⟨S_, .f32⟩
  | 47 => ⟨S100000x64, .f32⟩
  | 48 => ⟨S100000x64, .f32⟩
  | 49 => ⟨S1x64x64, .f32⟩
  | 50 => ⟨S64x64, .f32⟩
  | 51 => ⟨S100000x64, .f32⟩
  | 52 => ⟨S1x64, .f32⟩
  | 53 => ⟨S64, .f32⟩
  | 54 => ⟨S1x64, .f32⟩
  | 55 => ⟨S100000x64, .f32⟩
  | 56 => ⟨S100000x64, .f32⟩
  | 57 => ⟨S1x64, .f32⟩
  | 58 => ⟨S64, .f32⟩
  | 59 => ⟨S1x64, .f32⟩
  | 60 => ⟨S64, .f32⟩
  | 61 => ⟨S1x64, .f32⟩
  | 62 => ⟨S64, .f32⟩
  | 63 => ⟨S1x64, .f32⟩
  | 64 => ⟨S64, .f32⟩
  | 65 => ⟨S1x64, .f32⟩
  | 66 => ⟨S100000x64, .f32⟩
  | 67 => ⟨S100000x64, .f32⟩
  | 68 => ⟨S_, .f32⟩
  | 69 => ⟨S64, .f32⟩
  | 70 => ⟨S64, .f32⟩
  | 71 => ⟨S64, .f32⟩
  | 72 => ⟨S64, .f32⟩
  | 73 => ⟨S1x64, .f32⟩
  | 74 => ⟨S100000x64, .f32⟩
  | 75 => ⟨S100000x64, .f32⟩
  | 76 => ⟨S1x64, .f32⟩
  | 77 => ⟨S100000x64, .f32⟩
  | 78 => ⟨S100000x64, .f32⟩
  | 79 => ⟨S_, .f32⟩
  | 80 => ⟨S100000x64, .f32⟩
  | 81 => ⟨S100000x64, .f32⟩
  | 82 => ⟨S_, .f32⟩
  | 83 => ⟨S512x64, .f32⟩
  | 84 => ⟨S100000x1, .i32⟩
  | 85 => ⟨S512x64, .f32⟩
  | 86 => ⟨S512x320, .f32⟩
  | 87 => ⟨S512x16, .f32⟩
  | 88 => ⟨S1x16, .f32⟩
  | 89 => ⟨S512x16, .f32⟩
  | 90 => ⟨S512x16, .f32⟩
  | _ => ⟨S100000x128, .f32⟩

abbrev hbmTy (i : Nat) : BufTy := match i / 128 with
  | 0 => hbmTy0_0 i
  | 1 => hbmTy0_1 i
  | 2 => hbmTy0_2 i
  | 3 => hbmTy0_3 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_v0 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_c : Ref sig .tc := ⟨.hbm, 24, rfl⟩
abbrev main_v4 : Ref sig .tc := ⟨.hbm, 25, rfl⟩
abbrev main_v5 : Ref sig .tc := ⟨.hbm, 26, rfl⟩
abbrev main_c_0 : Ref sig .tc := ⟨.hbm, 27, rfl⟩
abbrev main_v6 : Ref sig .tc := ⟨.hbm, 28, rfl⟩
abbrev main_v7 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_cst : Ref sig .tc := ⟨.hbm, 33, rfl⟩
abbrev main_v11 : Ref sig .tc := ⟨.hbm, 34, rfl⟩
abbrev main_v12 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_cst_1 : Ref sig .tc := ⟨.hbm, 39, rfl⟩
abbrev main_v16 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_cst_2 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_call0_cst : Ref sig .tc := ⟨.hbm, 70, rfl⟩
abbrev main_call0_v0 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_cst_3 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_call1_cst : Ref sig .tc := ⟨.hbm, 103, rfl⟩
abbrev main_call1_v0 : Ref sig .tc := ⟨.hbm, 104, rfl⟩
abbrev main_v75 : Ref sig .tc := ⟨.hbm, 105, rfl⟩
abbrev main_cst_4 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_c_5 : Ref sig .tc := ⟨.hbm, 110, rfl⟩
abbrev main_v79 : Ref sig .tc := ⟨.hbm, 111, rfl⟩
abbrev main_v80 : Ref sig .tc := ⟨.hbm, 112, rfl⟩
abbrev main_c_6 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_cst_7 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_cst_8 : Ref sig .tc := ⟨.hbm, 125, rfl⟩
abbrev main_v91 : Ref sig .tc := ⟨.hbm, 126, rfl⟩
abbrev main_v92 : Ref sig .tc := ⟨.hbm, 127, rfl⟩
abbrev main_v93 : Ref sig .tc := ⟨.hbm, 128, rfl⟩
abbrev main_v94 : Ref sig .tc := ⟨.hbm, 129, rfl⟩
abbrev main_v95 : Ref sig .tc := ⟨.hbm, 130, rfl⟩
abbrev main_v96 : Ref sig .tc := ⟨.hbm, 131, rfl⟩
abbrev main_v97 : Ref sig .tc := ⟨.hbm, 132, rfl⟩
abbrev main_v98 : Ref sig .tc := ⟨.hbm, 133, rfl⟩
abbrev main_v99 : Ref sig .tc := ⟨.hbm, 134, rfl⟩
abbrev main_v100 : Ref sig .tc := ⟨.hbm, 135, rfl⟩
abbrev main_v101 : Ref sig .tc := ⟨.hbm, 136, rfl⟩
abbrev main_v102 : Ref sig .tc := ⟨.hbm, 137, rfl⟩
abbrev main_v103 : Ref sig .tc := ⟨.hbm, 138, rfl⟩
abbrev main_v104 : Ref sig .tc := ⟨.hbm, 139, rfl⟩
abbrev main_v105 : Ref sig .tc := ⟨.hbm, 140, rfl⟩
abbrev main_v106 : Ref sig .tc := ⟨.hbm, 141, rfl⟩
abbrev main_v107 : Ref sig .tc := ⟨.hbm, 142, rfl⟩
abbrev main_v108 : Ref sig .tc := ⟨.hbm, 143, rfl⟩
abbrev main_v109 : Ref sig .tc := ⟨.hbm, 144, rfl⟩
abbrev main_v110 : Ref sig .tc := ⟨.hbm, 145, rfl⟩
abbrev main_v111 : Ref sig .tc := ⟨.hbm, 146, rfl⟩
abbrev main_v112 : Ref sig .tc := ⟨.hbm, 147, rfl⟩
abbrev main_v113 : Ref sig .tc := ⟨.hbm, 148, rfl⟩
abbrev main_cst_9 : Ref sig .tc := ⟨.hbm, 149, rfl⟩
abbrev main_v114 : Ref sig .tc := ⟨.hbm, 150, rfl⟩
abbrev main_v115 : Ref sig .tc := ⟨.hbm, 151, rfl⟩
abbrev main_v116 : Ref sig .tc := ⟨.hbm, 152, rfl⟩
abbrev main_v117 : Ref sig .tc := ⟨.hbm, 153, rfl⟩
abbrev main_v118 : Ref sig .tc := ⟨.hbm, 154, rfl⟩
abbrev main_v119 : Ref sig .tc := ⟨.hbm, 155, rfl⟩
abbrev main_v120 : Ref sig .tc := ⟨.hbm, 156, rfl⟩
abbrev main_v121 : Ref sig .tc := ⟨.hbm, 157, rfl⟩
abbrev main_v122 : Ref sig .tc := ⟨.hbm, 158, rfl⟩
abbrev main_v123 : Ref sig .tc := ⟨.hbm, 159, rfl⟩
abbrev main_call2_cst : Ref sig .tc := ⟨.hbm, 160, rfl⟩
abbrev main_call2_v0 : Ref sig .tc := ⟨.hbm, 161, rfl⟩
abbrev main_v124 : Ref sig .tc := ⟨.hbm, 162, rfl⟩
abbrev main_v125 : Ref sig .tc := ⟨.hbm, 163, rfl⟩
abbrev main_v126 : Ref sig .tc := ⟨.hbm, 164, rfl⟩
abbrev main_v127 : Ref sig .tc := ⟨.hbm, 165, rfl⟩
abbrev main_v128 : Ref sig .tc := ⟨.hbm, 166, rfl⟩
abbrev main_v129 : Ref sig .tc := ⟨.hbm, 167, rfl⟩
abbrev main_v130 : Ref sig .tc := ⟨.hbm, 168, rfl⟩
abbrev main_v131 : Ref sig .tc := ⟨.hbm, 169, rfl⟩
abbrev main_v132 : Ref sig .tc := ⟨.hbm, 170, rfl⟩
abbrev main_v133 : Ref sig .tc := ⟨.hbm, 171, rfl⟩
abbrev main_v134 : Ref sig .tc := ⟨.hbm, 172, rfl⟩
abbrev main_v135 : Ref sig .tc := ⟨.hbm, 173, rfl⟩
abbrev main_v136 : Ref sig .tc := ⟨.hbm, 174, rfl⟩
abbrev main_v137 : Ref sig .tc := ⟨.hbm, 175, rfl⟩
abbrev main_v138 : Ref sig .tc := ⟨.hbm, 176, rfl⟩
abbrev main_v139 : Ref sig .tc := ⟨.hbm, 177, rfl⟩
abbrev main_v140 : Ref sig .tc := ⟨.hbm, 178, rfl⟩
abbrev main_v141 : Ref sig .tc := ⟨.hbm, 179, rfl⟩
abbrev main_v142 : Ref sig .tc := ⟨.hbm, 180, rfl⟩
abbrev main_v143 : Ref sig .tc := ⟨.hbm, 181, rfl⟩
abbrev main_cst_10 : Ref sig .tc := ⟨.hbm, 182, rfl⟩
abbrev main_v144 : Ref sig .tc := ⟨.hbm, 183, rfl⟩
abbrev main_v145 : Ref sig .tc := ⟨.hbm, 184, rfl⟩
abbrev main_v146 : Ref sig .tc := ⟨.hbm, 185, rfl⟩
abbrev main_v147 : Ref sig .tc := ⟨.hbm, 186, rfl⟩
abbrev main_v148 : Ref sig .tc := ⟨.hbm, 187, rfl⟩
abbrev main_v149 : Ref sig .tc := ⟨.hbm, 188, rfl⟩
abbrev main_v150 : Ref sig .tc := ⟨.hbm, 189, rfl⟩
abbrev main_v151 : Ref sig .tc := ⟨.hbm, 190, rfl⟩
abbrev main_v152 : Ref sig .tc := ⟨.hbm, 191, rfl⟩
abbrev main_v153 : Ref sig .tc := ⟨.hbm, 192, rfl⟩
abbrev main_call3_cst : Ref sig .tc := ⟨.hbm, 193, rfl⟩
abbrev main_call3_v0 : Ref sig .tc := ⟨.hbm, 194, rfl⟩
abbrev main_v154 : Ref sig .tc := ⟨.hbm, 195, rfl⟩
abbrev main_cst_11 : Ref sig .tc := ⟨.hbm, 196, rfl⟩
abbrev main_v155 : Ref sig .tc := ⟨.hbm, 197, rfl⟩
abbrev main_v156 : Ref sig .tc := ⟨.hbm, 198, rfl⟩
abbrev main_v157 : Ref sig .tc := ⟨.hbm, 199, rfl⟩
abbrev main_c_12 : Ref sig .tc := ⟨.hbm, 200, rfl⟩
abbrev main_v158 : Ref sig .tc := ⟨.hbm, 201, rfl⟩
abbrev main_v159 : Ref sig .tc := ⟨.hbm, 202, rfl⟩
abbrev main_c_13 : Ref sig .tc := ⟨.hbm, 203, rfl⟩
abbrev main_v160 : Ref sig .tc := ⟨.hbm, 204, rfl⟩
abbrev main_v161 : Ref sig .tc := ⟨.hbm, 205, rfl⟩
abbrev main_v162 : Ref sig .tc := ⟨.hbm, 206, rfl⟩
abbrev main_v163 : Ref sig .tc := ⟨.hbm, 207, rfl⟩
abbrev main_v164 : Ref sig .tc := ⟨.hbm, 208, rfl⟩
abbrev main_cst_14 : Ref sig .tc := ⟨.hbm, 209, rfl⟩
abbrev main_v165 : Ref sig .tc := ⟨.hbm, 210, rfl⟩
abbrev main_v166 : Ref sig .tc := ⟨.hbm, 211, rfl⟩
abbrev main_v167 : Ref sig .tc := ⟨.hbm, 212, rfl⟩
abbrev main_v168 : Ref sig .tc := ⟨.hbm, 213, rfl⟩
abbrev main_v169 : Ref sig .tc := ⟨.hbm, 214, rfl⟩
abbrev main_cst_15 : Ref sig .tc := ⟨.hbm, 215, rfl⟩
abbrev main_v170 : Ref sig .tc := ⟨.hbm, 216, rfl⟩
abbrev main_v171 : Ref sig .tc := ⟨.hbm, 217, rfl⟩
abbrev main_v172 : Ref sig .tc := ⟨.hbm, 218, rfl⟩
abbrev main_v173 : Ref sig .tc := ⟨.hbm, 219, rfl⟩
abbrev main_v174 : Ref sig .tc := ⟨.hbm, 220, rfl⟩
abbrev main_v175 : Ref sig .tc := ⟨.hbm, 221, rfl⟩
abbrev main_v176 : Ref sig .tc := ⟨.hbm, 222, rfl⟩
abbrev main_v177 : Ref sig .tc := ⟨.hbm, 223, rfl⟩
abbrev main_v178 : Ref sig .tc := ⟨.hbm, 224, rfl⟩
abbrev main_v179 : Ref sig .tc := ⟨.hbm, 225, rfl⟩
abbrev main_v180 : Ref sig .tc := ⟨.hbm, 226, rfl⟩
abbrev main_v181 : Ref sig .tc := ⟨.hbm, 227, rfl⟩
abbrev main_v182 : Ref sig .tc := ⟨.hbm, 228, rfl⟩
abbrev main_v183 : Ref sig .tc := ⟨.hbm, 229, rfl⟩
abbrev main_v184 : Ref sig .tc := ⟨.hbm, 230, rfl⟩
abbrev main_v185 : Ref sig .tc := ⟨.hbm, 231, rfl⟩
abbrev main_v186 : Ref sig .tc := ⟨.hbm, 232, rfl⟩
abbrev main_v187 : Ref sig .tc := ⟨.hbm, 233, rfl⟩
abbrev main_v188 : Ref sig .tc := ⟨.hbm, 234, rfl⟩
abbrev main_v189 : Ref sig .tc := ⟨.hbm, 235, rfl⟩
abbrev main_v190 : Ref sig .tc := ⟨.hbm, 236, rfl⟩
abbrev main_v191 : Ref sig .tc := ⟨.hbm, 237, rfl⟩
abbrev main_v192 : Ref sig .tc := ⟨.hbm, 238, rfl⟩
abbrev main_cst_16 : Ref sig .tc := ⟨.hbm, 239, rfl⟩
abbrev main_v193 : Ref sig .tc := ⟨.hbm, 240, rfl⟩
abbrev main_v194 : Ref sig .tc := ⟨.hbm, 241, rfl⟩
abbrev main_v195 : Ref sig .tc := ⟨.hbm, 242, rfl⟩
abbrev main_v196 : Ref sig .tc := ⟨.hbm, 243, rfl⟩
abbrev main_v197 : Ref sig .tc := ⟨.hbm, 244, rfl⟩
abbrev main_v198 : Ref sig .tc := ⟨.hbm, 245, rfl⟩
abbrev main_v199 : Ref sig .tc := ⟨.hbm, 246, rfl⟩
abbrev main_v200 : Ref sig .tc := ⟨.hbm, 247, rfl⟩
abbrev main_v201 : Ref sig .tc := ⟨.hbm, 248, rfl⟩
abbrev main_v202 : Ref sig .tc := ⟨.hbm, 249, rfl⟩
abbrev main_call4_cst : Ref sig .tc := ⟨.hbm, 250, rfl⟩
abbrev main_call4_v0 : Ref sig .tc := ⟨.hbm, 251, rfl⟩
abbrev main_v203 : Ref sig .tc := ⟨.hbm, 252, rfl⟩
abbrev main_v204 : Ref sig .tc := ⟨.hbm, 253, rfl⟩
abbrev main_v205 : Ref sig .tc := ⟨.hbm, 254, rfl⟩
abbrev main_v206 : Ref sig .tc := ⟨.hbm, 255, rfl⟩
abbrev main_v207 : Ref sig .tc := ⟨.hbm, 256, rfl⟩
abbrev main_v208 : Ref sig .tc := ⟨.hbm, 257, rfl⟩
abbrev main_v209 : Ref sig .tc := ⟨.hbm, 258, rfl⟩
abbrev main_v210 : Ref sig .tc := ⟨.hbm, 259, rfl⟩
abbrev main_v211 : Ref sig .tc := ⟨.hbm, 260, rfl⟩
abbrev main_v212 : Ref sig .tc := ⟨.hbm, 261, rfl⟩
abbrev main_v213 : Ref sig .tc := ⟨.hbm, 262, rfl⟩
abbrev main_v214 : Ref sig .tc := ⟨.hbm, 263, rfl⟩
abbrev main_v215 : Ref sig .tc := ⟨.hbm, 264, rfl⟩
abbrev main_v216 : Ref sig .tc := ⟨.hbm, 265, rfl⟩
abbrev main_v217 : Ref sig .tc := ⟨.hbm, 266, rfl⟩
abbrev main_v218 : Ref sig .tc := ⟨.hbm, 267, rfl⟩
abbrev main_v219 : Ref sig .tc := ⟨.hbm, 268, rfl⟩
abbrev main_v220 : Ref sig .tc := ⟨.hbm, 269, rfl⟩
abbrev main_v221 : Ref sig .tc := ⟨.hbm, 270, rfl⟩
abbrev main_v222 : Ref sig .tc := ⟨.hbm, 271, rfl⟩
abbrev main_cst_17 : Ref sig .tc := ⟨.hbm, 272, rfl⟩
abbrev main_v223 : Ref sig .tc := ⟨.hbm, 273, rfl⟩
abbrev main_v224 : Ref sig .tc := ⟨.hbm, 274, rfl⟩
abbrev main_v225 : Ref sig .tc := ⟨.hbm, 275, rfl⟩
abbrev main_v226 : Ref sig .tc := ⟨.hbm, 276, rfl⟩
abbrev main_v227 : Ref sig .tc := ⟨.hbm, 277, rfl⟩
abbrev main_v228 : Ref sig .tc := ⟨.hbm, 278, rfl⟩
abbrev main_v229 : Ref sig .tc := ⟨.hbm, 279, rfl⟩
abbrev main_v230 : Ref sig .tc := ⟨.hbm, 280, rfl⟩
abbrev main_v231 : Ref sig .tc := ⟨.hbm, 281, rfl⟩
abbrev main_v232 : Ref sig .tc := ⟨.hbm, 282, rfl⟩
abbrev main_call5_cst : Ref sig .tc := ⟨.hbm, 283, rfl⟩
abbrev main_call5_v0 : Ref sig .tc := ⟨.hbm, 284, rfl⟩
abbrev main_v233 : Ref sig .tc := ⟨.hbm, 285, rfl⟩
abbrev main_cst_18 : Ref sig .tc := ⟨.hbm, 286, rfl⟩
abbrev main_v234 : Ref sig .tc := ⟨.hbm, 287, rfl⟩
abbrev main_v235 : Ref sig .tc := ⟨.hbm, 288, rfl⟩
abbrev main_v236 : Ref sig .tc := ⟨.hbm, 289, rfl⟩
abbrev main_c_19 : Ref sig .tc := ⟨.hbm, 290, rfl⟩
abbrev main_v237 : Ref sig .tc := ⟨.hbm, 291, rfl⟩
abbrev main_v238 : Ref sig .tc := ⟨.hbm, 292, rfl⟩
abbrev main_c_20 : Ref sig .tc := ⟨.hbm, 293, rfl⟩
abbrev main_v239 : Ref sig .tc := ⟨.hbm, 294, rfl⟩
abbrev main_v240 : Ref sig .tc := ⟨.hbm, 295, rfl⟩
abbrev main_v241 : Ref sig .tc := ⟨.hbm, 296, rfl⟩
abbrev main_v242 : Ref sig .tc := ⟨.hbm, 297, rfl⟩
abbrev main_v243 : Ref sig .tc := ⟨.hbm, 298, rfl⟩
abbrev main_cst_21 : Ref sig .tc := ⟨.hbm, 299, rfl⟩
abbrev main_v244 : Ref sig .tc := ⟨.hbm, 300, rfl⟩
abbrev main_v245 : Ref sig .tc := ⟨.hbm, 301, rfl⟩
abbrev main_v246 : Ref sig .tc := ⟨.hbm, 302, rfl⟩
abbrev main_v247 : Ref sig .tc := ⟨.hbm, 303, rfl⟩
abbrev main_v248 : Ref sig .tc := ⟨.hbm, 304, rfl⟩
abbrev main_cst_22 : Ref sig .tc := ⟨.hbm, 305, rfl⟩
abbrev main_v249 : Ref sig .tc := ⟨.hbm, 306, rfl⟩
abbrev main_v250 : Ref sig .tc := ⟨.hbm, 307, rfl⟩
abbrev main_v251 : Ref sig .tc := ⟨.hbm, 308, rfl⟩
abbrev main_v252 : Ref sig .tc := ⟨.hbm, 309, rfl⟩
abbrev main_v253 : Ref sig .tc := ⟨.hbm, 310, rfl⟩
abbrev main_v254 : Ref sig .tc := ⟨.hbm, 311, rfl⟩
abbrev main_v255 : Ref sig .tc := ⟨.hbm, 312, rfl⟩
abbrev main_v256 : Ref sig .tc := ⟨.hbm, 313, rfl⟩
abbrev main_v257 : Ref sig .tc := ⟨.hbm, 314, rfl⟩
abbrev main_v258 : Ref sig .tc := ⟨.hbm, 315, rfl⟩
abbrev main_v259 : Ref sig .tc := ⟨.hbm, 316, rfl⟩
abbrev main_v260 : Ref sig .tc := ⟨.hbm, 317, rfl⟩
abbrev main_v261 : Ref sig .tc := ⟨.hbm, 318, rfl⟩
abbrev main_v262 : Ref sig .tc := ⟨.hbm, 319, rfl⟩
abbrev main_v263 : Ref sig .tc := ⟨.hbm, 320, rfl⟩
abbrev main_v264 : Ref sig .tc := ⟨.hbm, 321, rfl⟩
abbrev main_v265 : Ref sig .tc := ⟨.hbm, 322, rfl⟩
abbrev main_v266 : Ref sig .tc := ⟨.hbm, 323, rfl⟩
abbrev main_v267 : Ref sig .tc := ⟨.hbm, 324, rfl⟩
abbrev main_v268 : Ref sig .tc := ⟨.hbm, 325, rfl⟩
abbrev main_v269 : Ref sig .tc := ⟨.hbm, 326, rfl⟩
abbrev main_v270 : Ref sig .tc := ⟨.hbm, 327, rfl⟩
abbrev main_v271 : Ref sig .tc := ⟨.hbm, 328, rfl⟩
abbrev main_cst_23 : Ref sig .tc := ⟨.hbm, 329, rfl⟩
abbrev main_v272 : Ref sig .tc := ⟨.hbm, 330, rfl⟩
abbrev main_v273 : Ref sig .tc := ⟨.hbm, 331, rfl⟩
abbrev main_v274 : Ref sig .tc := ⟨.hbm, 332, rfl⟩
abbrev main_v275 : Ref sig .tc := ⟨.hbm, 333, rfl⟩
abbrev main_v276 : Ref sig .tc := ⟨.hbm, 334, rfl⟩
abbrev main_v277 : Ref sig .tc := ⟨.hbm, 335, rfl⟩
abbrev main_v278 : Ref sig .tc := ⟨.hbm, 336, rfl⟩
abbrev main_v279 : Ref sig .tc := ⟨.hbm, 337, rfl⟩
abbrev main_v280 : Ref sig .tc := ⟨.hbm, 338, rfl⟩
abbrev main_v281 : Ref sig .tc := ⟨.hbm, 339, rfl⟩
abbrev main_call6_cst : Ref sig .tc := ⟨.hbm, 340, rfl⟩
abbrev main_call6_v0 : Ref sig .tc := ⟨.hbm, 341, rfl⟩
abbrev main_v282 : Ref sig .tc := ⟨.hbm, 342, rfl⟩
abbrev main_v283 : Ref sig .tc := ⟨.hbm, 343, rfl⟩
abbrev main_v284 : Ref sig .tc := ⟨.hbm, 344, rfl⟩
abbrev main_v285 : Ref sig .tc := ⟨.hbm, 345, rfl⟩
abbrev main_v286 : Ref sig .tc := ⟨.hbm, 346, rfl⟩
abbrev main_v287 : Ref sig .tc := ⟨.hbm, 347, rfl⟩
abbrev main_v288 : Ref sig .tc := ⟨.hbm, 348, rfl⟩
abbrev main_v289 : Ref sig .tc := ⟨.hbm, 349, rfl⟩
abbrev main_v290 : Ref sig .tc := ⟨.hbm, 350, rfl⟩
abbrev main_v291 : Ref sig .tc := ⟨.hbm, 351, rfl⟩
abbrev main_v292 : Ref sig .tc := ⟨.hbm, 352, rfl⟩
abbrev main_v293 : Ref sig .tc := ⟨.hbm, 353, rfl⟩
abbrev main_v294 : Ref sig .tc := ⟨.hbm, 354, rfl⟩
abbrev main_v295 : Ref sig .tc := ⟨.hbm, 355, rfl⟩
abbrev main_v296 : Ref sig .tc := ⟨.hbm, 356, rfl⟩
abbrev main_v297 : Ref sig .tc := ⟨.hbm, 357, rfl⟩
abbrev main_v298 : Ref sig .tc := ⟨.hbm, 358, rfl⟩
abbrev main_v299 : Ref sig .tc := ⟨.hbm, 359, rfl⟩
abbrev main_v300 : Ref sig .tc := ⟨.hbm, 360, rfl⟩
abbrev main_v301 : Ref sig .tc := ⟨.hbm, 361, rfl⟩
abbrev main_cst_24 : Ref sig .tc := ⟨.hbm, 362, rfl⟩
abbrev main_v302 : Ref sig .tc := ⟨.hbm, 363, rfl⟩
abbrev main_v303 : Ref sig .tc := ⟨.hbm, 364, rfl⟩
abbrev main_v304 : Ref sig .tc := ⟨.hbm, 365, rfl⟩
abbrev main_v305 : Ref sig .tc := ⟨.hbm, 366, rfl⟩
abbrev main_v306 : Ref sig .tc := ⟨.hbm, 367, rfl⟩
abbrev main_v307 : Ref sig .tc := ⟨.hbm, 368, rfl⟩
abbrev main_v308 : Ref sig .tc := ⟨.hbm, 369, rfl⟩
abbrev main_v309 : Ref sig .tc := ⟨.hbm, 370, rfl⟩
abbrev main_v310 : Ref sig .tc := ⟨.hbm, 371, rfl⟩
abbrev main_v311 : Ref sig .tc := ⟨.hbm, 372, rfl⟩
abbrev main_call7_cst : Ref sig .tc := ⟨.hbm, 373, rfl⟩
abbrev main_call7_v0 : Ref sig .tc := ⟨.hbm, 374, rfl⟩
abbrev main_v312 : Ref sig .tc := ⟨.hbm, 375, rfl⟩
abbrev main_cst_25 : Ref sig .tc := ⟨.hbm, 376, rfl⟩
abbrev main_v313 : Ref sig .tc := ⟨.hbm, 377, rfl⟩
abbrev main_v314 : Ref sig .tc := ⟨.hbm, 378, rfl⟩
abbrev main_v315 : Ref sig .tc := ⟨.hbm, 379, rfl⟩
abbrev main_c_26 : Ref sig .tc := ⟨.hbm, 380, rfl⟩
abbrev main_v316 : Ref sig .tc := ⟨.hbm, 381, rfl⟩
abbrev main_v317 : Ref sig .tc := ⟨.hbm, 382, rfl⟩
abbrev main_c_27 : Ref sig .tc := ⟨.hbm, 383, rfl⟩
abbrev main_v318 : Ref sig .tc := ⟨.hbm, 384, rfl⟩
abbrev main_v319 : Ref sig .tc := ⟨.hbm, 385, rfl⟩
abbrev main_v320 : Ref sig .tc := ⟨.hbm, 386, rfl⟩
abbrev main_v321 : Ref sig .tc := ⟨.hbm, 387, rfl⟩
abbrev main_v322 : Ref sig .tc := ⟨.hbm, 388, rfl⟩
abbrev main_cst_28 : Ref sig .tc := ⟨.hbm, 389, rfl⟩
abbrev main_v323 : Ref sig .tc := ⟨.hbm, 390, rfl⟩
abbrev main_v324 : Ref sig .tc := ⟨.hbm, 391, rfl⟩
abbrev main_v325 : Ref sig .tc := ⟨.hbm, 392, rfl⟩
abbrev main_v326 : Ref sig .tc := ⟨.hbm, 393, rfl⟩
abbrev main_v327 : Ref sig .tc := ⟨.hbm, 394, rfl⟩
abbrev main_cst_29 : Ref sig .tc := ⟨.hbm, 395, rfl⟩
abbrev main_v328 : Ref sig .tc := ⟨.hbm, 396, rfl⟩
abbrev main_v329 : Ref sig .tc := ⟨.hbm, 397, rfl⟩
abbrev main_v330 : Ref sig .tc := ⟨.hbm, 398, rfl⟩
abbrev main_v331 : Ref sig .tc := ⟨.hbm, 399, rfl⟩
abbrev main_v332 : Ref sig .tc := ⟨.hbm, 400, rfl⟩
abbrev main_v333 : Ref sig .tc := ⟨.hbm, 401, rfl⟩
abbrev main_v334 : Ref sig .tc := ⟨.hbm, 402, rfl⟩
abbrev main_v335 : Ref sig .tc := ⟨.hbm, 403, rfl⟩
abbrev main_v336 : Ref sig .tc := ⟨.hbm, 404, rfl⟩
abbrev main_v337 : Ref sig .tc := ⟨.hbm, 405, rfl⟩
abbrev main_v338 : Ref sig .tc := ⟨.hbm, 406, rfl⟩
abbrev main_v339 : Ref sig .tc := ⟨.hbm, 407, rfl⟩
abbrev main_v340 : Ref sig .tc := ⟨.hbm, 408, rfl⟩
abbrev main_v341 : Ref sig .tc := ⟨.hbm, 409, rfl⟩
abbrev main_v342 : Ref sig .tc := ⟨.hbm, 410, rfl⟩
abbrev main_v343 : Ref sig .tc := ⟨.hbm, 411, rfl⟩
abbrev main_v344 : Ref sig .tc := ⟨.hbm, 412, rfl⟩
abbrev main_v345 : Ref sig .tc := ⟨.hbm, 413, rfl⟩
abbrev main_v346 : Ref sig .tc := ⟨.hbm, 414, rfl⟩
abbrev main_v347 : Ref sig .tc := ⟨.hbm, 415, rfl⟩
abbrev main_v348 : Ref sig .tc := ⟨.hbm, 416, rfl⟩
abbrev main_v349 : Ref sig .tc := ⟨.hbm, 417, rfl⟩
abbrev main_v350 : Ref sig .tc := ⟨.hbm, 418, rfl⟩
abbrev main_cst_30 : Ref sig .tc := ⟨.hbm, 419, rfl⟩
abbrev main_v351 : Ref sig .tc := ⟨.hbm, 420, rfl⟩
abbrev main_v352 : Ref sig .tc := ⟨.hbm, 421, rfl⟩
abbrev main_v353 : Ref sig .tc := ⟨.hbm, 422, rfl⟩
abbrev main_v354 : Ref sig .tc := ⟨.hbm, 423, rfl⟩
abbrev main_v355 : Ref sig .tc := ⟨.hbm, 424, rfl⟩
abbrev main_v356 : Ref sig .tc := ⟨.hbm, 425, rfl⟩
abbrev main_v357 : Ref sig .tc := ⟨.hbm, 426, rfl⟩
abbrev main_v358 : Ref sig .tc := ⟨.hbm, 427, rfl⟩
abbrev main_v359 : Ref sig .tc := ⟨.hbm, 428, rfl⟩
abbrev main_v360 : Ref sig .tc := ⟨.hbm, 429, rfl⟩
abbrev main_call8_cst : Ref sig .tc := ⟨.hbm, 430, rfl⟩
abbrev main_call8_v0 : Ref sig .tc := ⟨.hbm, 431, rfl⟩
abbrev main_v361 : Ref sig .tc := ⟨.hbm, 432, rfl⟩
abbrev main_v362 : Ref sig .tc := ⟨.hbm, 433, rfl⟩
abbrev main_v363 : Ref sig .tc := ⟨.hbm, 434, rfl⟩
abbrev main_v364 : Ref sig .tc := ⟨.hbm, 435, rfl⟩
abbrev main_v365 : Ref sig .tc := ⟨.hbm, 436, rfl⟩
abbrev main_v366 : Ref sig .tc := ⟨.hbm, 437, rfl⟩
abbrev main_v367 : Ref sig .tc := ⟨.hbm, 438, rfl⟩
abbrev main_v368 : Ref sig .tc := ⟨.hbm, 439, rfl⟩
abbrev main_v369 : Ref sig .tc := ⟨.hbm, 440, rfl⟩
abbrev main_v370 : Ref sig .tc := ⟨.hbm, 441, rfl⟩
abbrev main_v371 : Ref sig .tc := ⟨.hbm, 442, rfl⟩
abbrev main_v372 : Ref sig .tc := ⟨.hbm, 443, rfl⟩
abbrev main_v373 : Ref sig .tc := ⟨.hbm, 444, rfl⟩
abbrev main_v374 : Ref sig .tc := ⟨.hbm, 445, rfl⟩
abbrev main_v375 : Ref sig .tc := ⟨.hbm, 446, rfl⟩
abbrev main_v376 : Ref sig .tc := ⟨.hbm, 447, rfl⟩
abbrev main_v377 : Ref sig .tc := ⟨.hbm, 448, rfl⟩
abbrev main_v378 : Ref sig .tc := ⟨.hbm, 449, rfl⟩
abbrev main_v379 : Ref sig .tc := ⟨.hbm, 450, rfl⟩
abbrev main_v380 : Ref sig .tc := ⟨.hbm, 451, rfl⟩
abbrev main_cst_31 : Ref sig .tc := ⟨.hbm, 452, rfl⟩
abbrev main_v381 : Ref sig .tc := ⟨.hbm, 453, rfl⟩
abbrev main_v382 : Ref sig .tc := ⟨.hbm, 454, rfl⟩
abbrev main_v383 : Ref sig .tc := ⟨.hbm, 455, rfl⟩
abbrev main_v384 : Ref sig .tc := ⟨.hbm, 456, rfl⟩
abbrev main_v385 : Ref sig .tc := ⟨.hbm, 457, rfl⟩
abbrev main_v386 : Ref sig .tc := ⟨.hbm, 458, rfl⟩
abbrev main_v387 : Ref sig .tc := ⟨.hbm, 459, rfl⟩
abbrev main_v388 : Ref sig .tc := ⟨.hbm, 460, rfl⟩
abbrev main_v389 : Ref sig .tc := ⟨.hbm, 461, rfl⟩
abbrev main_v390 : Ref sig .tc := ⟨.hbm, 462, rfl⟩
abbrev main_call9_cst : Ref sig .tc := ⟨.hbm, 463, rfl⟩
abbrev main_call9_v0 : Ref sig .tc := ⟨.hbm, 464, rfl⟩
abbrev main_v391 : Ref sig .tc := ⟨.hbm, 465, rfl⟩
abbrev main_cst_32 : Ref sig .tc := ⟨.hbm, 466, rfl⟩
abbrev main_v392 : Ref sig .tc := ⟨.hbm, 467, rfl⟩
abbrev main_v393 : Ref sig .tc := ⟨.hbm, 468, rfl⟩
abbrev main_v394 : Ref sig .tc := ⟨.hbm, 469, rfl⟩
abbrev main_v395 : Ref sig .tc := ⟨.hbm, 470, rfl⟩
abbrev main_v396 : Ref sig .tc := ⟨.hbm, 471, rfl⟩
abbrev main_v397 : Ref sig .tc := ⟨.hbm, 472, rfl⟩
abbrev main_v398 : Ref sig .tc := ⟨.hbm, 473, rfl⟩
abbrev main_v399 : Ref sig .tc := ⟨.hbm, 474, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  slices_S5_S1_0 : S5.Slices ![0] S1
  shapeCasts_S1_S_ : S1.ShapeCasts S_
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  slices_S5x64_S1x64_0_0 : S5x64.Slices ![0, 0] S1x64
  shapeCasts_S1x64_S64 : S1x64.ShapeCasts S64
  bcast_S_S64 : S_.BroadcastsInDim S64 (![] : Fin 0 → Fin S64.rank)
  bcast_S_S100000x64 : S_.BroadcastsInDim S100000x64 (![] : Fin 0 → Fin S100000x64.rank)
  slices_S5x64x64_S1x64x64_0_0_0 : S5x64x64.Slices ![0, 0, 0] S1x64x64
  shapeCasts_S1x64x64_S64x64 : S1x64x64.ShapeCasts S64x64
  bcast_S_S512x64 : S_.BroadcastsInDim S512x64 (![] : Fin 0 → Fin S512x64.rank)
  bcast_S100000_S100000x1_0 : S100000.BroadcastsInDim S100000x1 (![0] : Fin 1 → Fin S100000x1.rank)
  slices_S5_S1_1 : S5.Slices ![1] S1
  slices_S4x64x64_S1x64x64_0_0_0 : S4x64x64.Slices ![0, 0, 0] S1x64x64
  slices_S4x64_S1x64_0_0 : S4x64.Slices ![0, 0] S1x64
  slices_S5x64_S1x64_1_0 : S5x64.Slices ![1, 0] S1x64
  slices_S5x64x64_S1x64x64_1_0_0 : S5x64x64.Slices ![1, 0, 0] S1x64x64
  slices_S5_S1_2 : S5.Slices ![2] S1
  slices_S4x64x64_S1x64x64_1_0_0 : S4x64x64.Slices ![1, 0, 0] S1x64x64
  slices_S4x64_S1x64_1_0 : S4x64.Slices ![1, 0] S1x64
  slices_S5x64_S1x64_2_0 : S5x64.Slices ![2, 0] S1x64
  slices_S5x64x64_S1x64x64_2_0_0 : S5x64x64.Slices ![2, 0, 0] S1x64x64
  slices_S5_S1_3 : S5.Slices ![3] S1
  slices_S4x64x64_S1x64x64_2_0_0 : S4x64x64.Slices ![2, 0, 0] S1x64x64
  slices_S4x64_S1x64_2_0 : S4x64.Slices ![2, 0] S1x64
  slices_S5x64_S1x64_3_0 : S5x64.Slices ![3, 0] S1x64
  slices_S5x64x64_S1x64x64_3_0_0 : S5x64x64.Slices ![3, 0, 0] S1x64x64
  slices_S5_S1_4 : S5.Slices ![4] S1
  slices_S4x64x64_S1x64x64_3_0_0 : S4x64x64.Slices ![3, 0, 0] S1x64x64
  slices_S4x64_S1x64_3_0 : S4x64.Slices ![3, 0] S1x64
  slices_S5x64_S1x64_4_0 : S5x64.Slices ![4, 0] S1x64
  slices_S5x64x64_S1x64x64_4_0_0 : S5x64x64.Slices ![4, 0, 0] S1x64x64
  concatenates_S512x64_S512x64_S512x64_S512x64_S512x64_S512x320_d1 : Shape.Concatenates [S512x64, S512x64, S512x64, S512x64, S512x64] S512x320 1
  bcast_S16_S1x16_1 : S16.BroadcastsInDim S1x16 (![1] : Fin 1 → Fin S1x16.rank)
  bcast_S1x16_S512x16_0_1 : S1x16.BroadcastsInDim S512x16 (![0, 1] : Fin 2 → Fin S512x16.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x64_S100000x64_1_0_0_1_n_n_wf : DotDims.WF S100000x128 S128x64 S100000x64 [1] [0] [0] [1] [] []
  dot_S100000x64_S64x64_S100000x64_1_0_0_1_n_n_wf : DotDims.WF S100000x64 S64x64 S100000x64 [1] [0] [0] [1] [] []
  scatter_S512x64_S100000x1_S100000x64_1_0_0_1_wf : ScatterDims.WF S512x64 S100000x1 S100000x64 [1] [0] [0] 1
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S512x320_S320x16_S512x16_1_0_0_1_n_n_wf : DotDims.WF S512x320 S320x16 S512x16 [1] [0] [0] [1] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def scatter_S512x64_S100000x1_S100000x64_1_0_0_1 : ScatterDims S512x64 S100000x1 S100000x64 where
  updateWindowDims := [1]
  insertedWindowDims := [0]
  scatterDimsToOperandDims := [0]
  indexVectorDim := 1
  wf := scatter_S512x64_S100000x1_S100000x64_1_0_0_1_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S512x320_S320x16_S512x16_1_0_0_1_n_n : DotDims S512x320 S320x16 S512x16 where
  lhsContracting := [1]
  rhsContracting := [0]
  lhsNonContracting := [0]
  rhsNonContracting := [1]
  lhsBatch := []
  rhsBatch := []
  wf := dot_S512x320_S320x16_S512x16_1_0_0_1_n_n_wf

class Facts : Prop extends Facts₀ where

variable [Facts]
-- ==== Proof.RefMain.lean ====
import proofs.«402532_j352187319172_1_alg».proof.Proof.RefOps

noncomputable section

namespace Cert.ReferenceIdeal.RunParts

open Cert.ReferenceIdeal Cert.ReferenceIdeal.Gen Idealize.ShloMosaic Idealize.ShloMosaic.TcCoe Idealize.SL.Sem Idealize.ShloMosaic.StableHlo

variable {F : FTy → Type} [FloatOps F]

/-! # The reference program's run, over the chunked operation list

@main of the reference program is a straight line of 455 host operations. As ONE list literal the list does not
elaborate within the limits; cut into sixteen chunks (`ops1` … `ops16`, their concatenation `opsAll`) it does, and
the straight-line run theorem of the library applies to the concatenation: its side conditions (every operation's
buffers are TensorCore buffers; no operation allocates) hold chunk by chunk and pass to the concatenation. -/

/-- The signature scopes no buffer -/
theorem scopedRefs_eq : (Finset.univ.filter fun b : Ref sig .tc => b.isScoped) = ∅ := by decide
/-- and no semaphore. -/
theorem scopedSems_eq : (Finset.univ.filter fun sm : SemLoc sig => sm.isScoped .tc) = ∅ := by decide

-- the unfolding walks the 455 operations' binds one inside the other
set_option maxRecDepth 131072 in
set_option maxHeartbeats 4000000 in
/-- @main is the straight line of its 455 operations, the chunks in order: by definitional unfolding (a called
    function's operations stand in its call's place). -/
theorem main_eq (c : Dev nD) : main (F := F) c = seq opsAll := rfl

/-- On every device, for any float values, from any memory with zero counters: every weakly fair execution of
    @main terminates, and every final state has each TensorCore buffer at the fold of the operations' results over
    its launch contents. -/
theorem run_raw (m : (ℓ : Loc nD τ sig) → Buf (Elt F) ℓ) (ρ : Dev nD → PrngReg) :
    θ_run defs (onTc (τ := τ) (main (F := F))) ⟨m, fun _ => 0, ρ⟩ fun r =>
      ∀ (d : Dev nD) (b : Ref sig .tc), r.2.mem ((d.tc : Thread nD τ).loc b) = StableHlo.after opsAll (launchContents m d) (Proc.devRef .tc b) :=
  run_seq scopedRefs_eq scopedSems_eq defs main (fun _ => opsAll) main_eq (fun _ => opsAll_sub) m ρ (hfresh := fun _ => opsAll_fresh)

end Cert.ReferenceIdeal.RunParts

end
-- ==== Proof.RefOut.lean ====
import proofs.«402532_j352187319172_1_alg».proof.Proof.RefRead
import proofs.«402532_j352187319172_1_alg».proof.Proof.RefOps
import Idealize.ShloMosaic.Lib.StableHlo.Run
import Idealize.ShloMosaic.Lib.Pipeline.Frame

/-!
# The reference's operation list, read chunk by chunk

The reference program is a straight line of 455 host operations, cut into sixteen chunks at the layer boundaries. From
ANY contents `W` of the device's buffers, each chunk leaves the few buffers later chunks read at the stage functions of
the arguments' contents, provided the buffers it reads held theirs; no chunk writes an argument. Chained, the whole list
leaves the result buffer at the last stage of the arguments' contents and every argument as it was.
-/

set_option maxRecDepth 16384

noncomputable section
namespace Cert.ReferenceIdeal.RefValue
open Cert.ReferenceIdeal Cert.ReferenceIdeal.Gen Cert.ReferenceIdeal.RunParts Idealize.ShloMosaic Idealize.ShloMosaic.TcCoe Idealize.SL.Sem Idealize.ShloMosaic.StableHlo
variable {F : FTy → Type} [FloatOps F]

/-- Each operation of a literal list writes one reference, and that reference is in the given list. -/
local macro "writes_sub" : tactic =>
  `(tactic| (simp only [List.Forall]
             repeat' apply And.intro
             all_goals
               (simp only [StableHlo.nullary_writes, StableHlo.unary_writes, StableHlo.binary_writes, StableHlo.ternary_writes,
                  StableHlo.quaternary_writes, StableHlo.reshape_writes, StableHlo.nary_writes, Finset.singleton_subset_iff, List.mem_toFinset]
                exact List.mem_map_of_mem (by decide))))

/-! ## What each chunk writes, and what it leaves alone -/

/-- The references chunk 1's operations write. -/
abbrev ops1_W : List (Ref sig .tc) := [main_v0, main_v1, main_v2, main_v3, main_c, main_v4, main_v5, main_c_0, main_v6, main_v7, main_v8, main_v9, main_v10, main_cst, main_v11, main_v12, main_v13, main_v14, main_v15, main_cst_1, main_v16, main_v17, main_v18, main_v19]
theorem ops1_writes : (ops1 : List (HloOp τ sig (Elt F))).Forall fun op => op.writes ⊆ (ops1_W.map (Proc.devRef (τ := τ) .tc)).toFinset := by
  writes_sub
/-- A reference chunk 1 does not write keeps its contents. -/
theorem keep1 (W : Valuation τ sig (Elt F)) (r : Ref sig .tc) (h : r ∉ ops1_W) :
    StableHlo.after (ops1 (F := F)) W (Proc.devRef .tc r) = W (Proc.devRef .tc r) :=
  StableHlo.after_of_writes_sub ops1 W ops1_writes h

/-- The references chunk 2's operations write. -/
abbrev ops2_W : List (Ref sig .tc) := [main_v20, main_v21, main_v22, main_v23, main_v24, main_v25, main_v26, main_v27, main_v28, main_v29, main_v30, main_v31, main_v32, main_v33, main_v34, main_cst_2, main_v35, main_v36, main_v37, main_v38, main_v39, main_v40, main_v41, main_v42, main_v43, main_v44, main_call0_cst, main_call0_v0, main_v45]
theorem ops2_writes : (ops2 : List (HloOp τ sig (Elt F))).Forall fun op => op.writes ⊆ (ops2_W.map (Proc.devRef (τ := τ) .tc)).toFinset := by
  writes_sub
/-- A reference chunk 2 does not write keeps its contents. -/
theorem keep2 (W : Valuation τ sig (Elt F)) (r : Ref sig .tc) (h : r ∉ ops2_W) :
    StableHlo.after (ops2 (F := F)) W (Proc.devRef .tc r) = W (Proc.devRef .tc r) :=
  StableHlo.after_of_writes_sub ops2 W ops2_writes h

/-- The references chunk 3's operations write. -/
abbrev ops3_W : List (Ref sig .tc) := [main_v46, main_v47, main_v48, main_v49, main_v50, main_v51, main_v52, main_v53, main_v54, main_v55, main_v56, main_v57, main_v58, main_v59, main_v60, main_v61, main_v62, main_v63, main_v64, main_cst_3, main_v65, main_v66, main_v67, main_v68, main_v69, main_v70, main_v71, main_v72, main_v73, main_v74, main_call1_cst, main_call1_v0, main_v75, main_cst_4, main_v76, main_v77, main_v78]
theorem ops3_writes : (ops3 : List (HloOp τ sig (Elt F))).Forall fun op => op.writes ⊆ (ops3_W.map (Proc.devRef (τ := τ) .tc)).toFinset := by
  writes_sub
/-- A reference chunk 3 does not write keeps its contents. -/
theorem keep3 (W : Valuation τ sig (Elt F)) (r : Ref sig .tc) (h : r ∉ ops3_W) :
    StableHlo.after (ops3 (F := F)) W (Proc.devRef .tc r) = W (Proc.devRef .tc r) :=
  StableHlo.after_of_writes_sub ops3 W ops3_writes h

/-- The references chunk 4's operations write. -/
abbrev ops4_W : List (Ref sig .tc) := [main_c_5, main_v79, main_v80, main_c_6, main_v81, main_v82, main_v83, main_v84, main_v85, main_cst_7, main_v86, main_v87, main_v88, main_v89, main_v90, main_cst_8, main_v91, main_v92, main_v93, main_v94]
theorem ops4_writes : (ops4 : List (HloOp τ sig (Elt F))).Forall fun op => op.writes ⊆ (ops4_W.map (Proc.devRef (τ := τ) .tc)).toFinset := by
  writes_sub
/-- A reference chunk 4 does not write keeps its contents. -/
theorem keep4 (W : Valuation τ sig (Elt F)) (r : Ref sig .tc) (h : r ∉ ops4_W) :
    StableHlo.after (ops4 (F := F)) W (Proc.devRef .tc r) = W (Proc.devRef .tc r) :=
  StableHlo.after_of_writes_sub ops4 W ops4_writes h

/-- The references chunk 5's operations write. -/
abbrev ops5_W : List (Ref sig .tc) := [main_v95, main_v96, main_v97, main_v98, main_v99, main_v100, main_v101, main_v102, main_v103, main_v104, main_v105, main_v106, main_v107, main_v108, main_v109, main_v110, main_v111, main_v112, main_v113, main_cst_9, main_v114, main_v115, main_v116, main_v117, main_v118, main_v119, main_v120, main_v121, main_v122, main_v123, main_call2_cst, main_call2_v0, main_v124]
theorem ops5_writes : (ops5 : List (HloOp τ sig (Elt F))).Forall fun op => op.writes ⊆ (ops5_W.map (Proc.devRef (τ := τ) .tc)).toFinset := by
  writes_sub
/-- A reference chunk 5 does not write keeps its contents. -/
theorem keep5 (W : Valuation τ sig (Elt F)) (r : Ref sig .tc) (h : r ∉ ops5_W) :
    StableHlo.after (ops5 (F := F)) W (Proc.devRef .tc r) = W (Proc.devRef .tc r) :=
  StableHlo.after_of_writes_sub ops5 W ops5_writes h

/-- The references chunk 6's operations write. -/
abbrev ops6_W : List (Ref sig .tc) := [main_v125, main_v126, main_v127, main_v128, main_v129, main_v130, main_v131, main_v132, main_v133, main_v134, main_v135, main_v136, main_v137, main_v138, main_v139, main_v140, main_v141, main_v142, main_v143, main_cst_10, main_v144, main_v145, main_v146, main_v147, main_v148, main_v149, main_v150, main_v151, main_v152, main_v153, main_call3_cst, main_call3_v0, main_v154, main_cst_11, main_v155, main_v156, main_v157]
theorem ops6_writes : (ops6 : List (HloOp τ sig (Elt F))).Forall fun op => op.writes ⊆ (ops6_W.map (Proc.devRef (τ := τ) .tc)).toFinset := by
  writes_sub
/-- A reference chunk 6 does not write keeps its contents. -/
theorem keep6 (W : Valuation τ sig (Elt F)) (r : Ref sig .tc) (h : r ∉ ops6_W) :
    StableHlo.after (ops6 (F := F)) W (Proc.devRef .tc r) = W (Proc.devRef .tc r) :=
  StableHlo.after_of_writes_sub ops6 W ops6_writes h

/-- The references chunk 7's operations write. -/
abbrev ops7_W : List (Ref sig .tc) := [main_c_12, main_v158, main_v159, main_c_13, main_v160, main_v161, main_v162, main_v163, main_v164, main_cst_14, main_v165, main_v166, main_v167, main_v168, main_v169, main_cst_15, main_v170, main_v171, main_v172, main_v173]
theorem ops7_writes : (ops7 : List (HloOp τ sig (Elt F))).Forall fun op => op.writes ⊆ (ops7_W.map (Proc.devRef (τ := τ) .tc)).toFinset := by
  writes_sub
/-- A reference chunk 7 does not write keeps its contents. -/
theorem keep7 (W : Valuation τ sig (Elt F)) (r : Ref sig .tc) (h : r ∉ ops7_W) :
    StableHlo.after (ops7 (F := F)) W (Proc.devRef .tc r) = W (Proc.devRef .tc r) :=
  StableHlo.after_of_writes_sub ops7 W ops7_writes h

/-- The references chunk 8's operations write. -/
abbrev ops8_W : List (Ref sig .tc) := [main_v174, main_v175, main_v176, main_v177, main_v178, main_v179, main_v180, main_v181, main_v182, main_v183, main_v184, main_v185, main_v186, main_v187, main_v188, main_v189, main_v190, main_v191, main_v192, main_cst_16, main_v193, main_v194, main_v195, main_v196, main_v197, main_v198, main_v199, main_v200, main_v201, main_v202, main_call4_cst, main_call4_v0, main_v203]
theorem ops8_writes : (ops8 : List (HloOp τ sig (Elt F))).Forall fun op => op.writes ⊆ (ops8_W.map (Proc.devRef (τ := τ) .tc)).toFinset := by
  writes_sub
/-- A reference chunk 8 does not write keeps its contents. -/
theorem keep8 (W : Valuation τ sig (Elt F)) (r : Ref sig .tc) (h : r ∉ ops8_W) :
    StableHlo.after (ops8 (F := F)) W (Proc.devRef .tc r) = W (Proc.devRef .tc r) :=
  StableHlo.after_of_writes_sub ops8 W ops8_writes h

/-- The references chunk 9's operations write. -/
abbrev ops9_W : List (Ref sig .tc) := [main_v204, main_v205, main_v206, main_v207, main_v208, main_v209, main_v210, main_v211, main_v212, main_v213, main_v214, main_v215, main_v216, main_v217, main_v218, main_v219, main_v220, main_v221, main_v222, main_cst_17, main_v223, main_v224, main_v225, main_v226, main_v227, main_v228, main_v229, main_v230, main_v231, main_v232, main_call5_cst, main_call5_v0, main_v233, main_cst_18, main_v234, main_v235, main_v236]
theorem ops9_writes : (ops9 : List (HloOp τ sig (Elt F))).Forall fun op => op.writes ⊆ (ops9_W.map (Proc.devRef (τ := τ) .tc)).toFinset := by
  writes_sub
/-- A reference chunk 9 does not write keeps its contents. -/
theorem keep9 (W : Valuation τ sig (Elt F)) (r : Ref sig .tc) (h : r ∉ ops9_W) :
    StableHlo.after (ops9 (F := F)) W (Proc.devRef .tc r) = W (Proc.devRef .tc r) :=
  StableHlo.after_of_writes_sub ops9 W ops9_writes h

/-- The references chunk 10's operations write. -/
abbrev ops10_W : List (Ref sig .tc) := [main_c_19, main_v237, main_v238, main_c_20, main_v239, main_v240, main_v241, main_v242, main_v243, main_cst_21, main_v244, main_v245, main_v246, main_v247, main_v248, main_cst_22, main_v249, main_v250, main_v251, main_v252]
theorem ops10_writes : (ops10 : List (HloOp τ sig (Elt F))).Forall fun op => op.writes ⊆ (ops10_W.map (Proc.devRef (τ := τ) .tc)).toFinset := by
  writes_sub
/-- A reference chunk 10 does not write keeps its contents. -/
theorem keep10 (W : Valuation τ sig (Elt F)) (r : Ref sig .tc) (h : r ∉ ops10_W) :
    StableHlo.after (ops10 (F := F)) W (Proc.devRef .tc r) = W (Proc.devRef .tc r) :=
  StableHlo.after_of_writes_sub ops10 W ops10_writes h

/-- The references chunk 11's operations write. -/
abbrev ops11_W : List (Ref sig .tc) := [main_v253, main_v254, main_v255, main_v256, main_v257, main_v258, main_v259, main_v260, main_v261, main_v262, main_v263, main_v264, main_v265, main_v266, main_v267, main_v268, main_v269, main_v270, main_v271, main_cst_23, main_v272, main_v273, main_v274, main_v275, main_v276, main_v277, main_v278, main_v279, main_v280, main_v281, main_call6_cst, main_call6_v0, main_v282]
theorem ops11_writes : (ops11 : List (HloOp τ sig (Elt F))).Forall fun op => op.writes ⊆ (ops11_W.map (Proc.devRef (τ := τ) .tc)).toFinset := by
  writes_sub
/-- A reference chunk 11 does not write keeps its contents. -/
theorem keep11 (W : Valuation τ sig (Elt F)) (r : Ref sig .tc) (h : r ∉ ops11_W) :
    StableHlo.after (ops11 (F := F)) W (Proc.devRef .tc r) = W (Proc.devRef .tc r) :=
  StableHlo.after_of_writes_sub ops11 W ops11_writes h

/-- The references chunk 12's operations write. -/
abbrev ops12_W : List (Ref sig .tc) := [main_v283, main_v284, main_v285, main_v286, main_v287, main_v288, main_v289, main_v290, main_v291, main_v292, main_v293, main_v294, main_v295, main_v296, main_v297, main_v298, main_v299, main_v300, main_v301, main_cst_24, main_v302, main_v303, main_v304, main_v305, main_v306, main_v307, main_v308, main_v309, main_v310, main_v311, main_call7_cst, main_call7_v0, main_v312, main_cst_25, main_v313, main_v314, main_v315]
theorem ops12_writes : (ops12 : List (HloOp τ sig (Elt F))).Forall fun op => op.writes ⊆ (ops12_W.map (Proc.devRef (τ := τ) .tc)).toFinset := by
  writes_sub
/-- A reference chunk 12 does not write keeps its contents. -/
theorem keep12 (W : Valuation τ sig (Elt F)) (r : Ref sig .tc) (h : r ∉ ops12_W) :
    StableHlo.after (ops12 (F := F)) W (Proc.devRef .tc r) = W (Proc.devRef .tc r) :=
  StableHlo.after_of_writes_sub ops12 W ops12_writes h

/-- The references chunk 13's operations write. -/
abbrev ops13_W : List (Ref sig .tc) := [main_c_26, main_v316, main_v317, main_c_27, main_v318, main_v319, main_v320, main_v321, main_v322, main_cst_28, main_v323, main_v324, main_v325, main_v326, main_v327, main_cst_29, main_v328, main_v329, main_v330, main_v331]
theorem ops13_writes : (ops13 : List (HloOp τ sig (Elt F))).Forall fun op => op.writes ⊆ (ops13_W.map (Proc.devRef (τ := τ) .tc)).toFinset := by
  writes_sub
/-- A reference chunk 13 does not write keeps its contents. -/
theorem keep13 (W : Valuation τ sig (Elt F)) (r : Ref sig .tc) (h : r ∉ ops13_W) :
    StableHlo.after (ops13 (F := F)) W (Proc.devRef .tc r) = W (Proc.devRef .tc r) :=
  StableHlo.after_of_writes_sub ops13 W ops13_writes h

/-- The references chunk 14's operations write. -/
abbrev ops14_W : List (Ref sig .tc) := [main_v332, main_v333, main_v334, main_v335, main_v336, main_v337, main_v338, main_v339, main_v340, main_v341, main_v342, main_v343, main_v344, main_v345, main_v346, main_v347, main_v348, main_v349, main_v350, main_cst_30, main_v351, main_v352, main_v353, main_v354, main_v355, main_v356, main_v357, main_v358, main_v359, main_v360, main_call8_cst, main_call8_v0, main_v361]
theorem ops14_writes : (ops14 : List (HloOp τ sig (Elt F))).Forall fun op => op.writes ⊆ (ops14_W.map (Proc.devRef (τ := τ) .tc)).toFinset := by
  writes_sub
/-- A reference chunk 14 does not write keeps its contents. -/
theorem keep14 (W : Valuation τ sig (Elt F)) (r : Ref sig .tc) (h : r ∉ ops14_W) :
    StableHlo.after (ops14 (F := F)) W (Proc.devRef .tc r) = W (Proc.devRef .tc r) :=
  StableHlo.after_of_writes_sub ops14 W ops14_writes h

/-- The references chunk 15's operations write. -/
abbrev ops15_W : List (Ref sig .tc) := [main_v362, main_v363, main_v364, main_v365, main_v366, main_v367, main_v368, main_v369, main_v370, main_v371, main_v372, main_v373, main_v374, main_v375, main_v376, main_v377, main_v378, main_v379, main_v380, main_cst_31, main_v381, main_v382, main_v383, main_v384, main_v385, main_v386, main_v387, main_v388, main_v389, main_v390, main_call9_cst, main_call9_v0, main_v391, main_cst_32, main_v392, main_v393, main_v394]
theorem ops15_writes : (ops15 : List (HloOp τ sig (Elt F))).Forall fun op => op.writes ⊆ (ops15_W.map (Proc.devRef (τ := τ) .tc)).toFinset := by
  writes_sub
/-- A reference chunk 15 does not write keeps its contents. -/
theorem keep15 (W : Valuation τ sig (Elt F)) (r : Ref sig .tc) (h : r ∉ ops15_W) :
    StableHlo.after (ops15 (F := F)) W (Proc.devRef .tc r) = W (Proc.devRef .tc r) :=
  StableHlo.after_of_writes_sub ops15 W ops15_writes h

/-- The references chunk 16's operations write. -/
abbrev ops16_W : List (Ref sig .tc) := [main_v395, main_v396, main_v397, main_v398, main_v399]
theorem ops16_writes : (ops16 : List (HloOp τ sig (Elt F))).Forall fun op => op.writes ⊆ (ops16_W.map (Proc.devRef (τ := τ) .tc)).toFinset := by
  writes_sub
/-- A reference chunk 16 does not write keeps its contents. -/
theorem keep16 (W : Valuation τ sig (Elt F)) (r : Ref sig .tc) (h : r ∉ ops16_W) :
    StableHlo.after (ops16 (F := F)) W (Proc.devRef .tc r) = W (Proc.devRef .tc r) :=
  StableHlo.after_of_writes_sub ops16 W ops16_writes h

/-! ## Each chunk, from contents that hold the stages it reads -/

set_option maxHeartbeats 2000000 in
/-- Chunk 1 leaves main_v1 at its stage, from contents that hold the stages it reads. -/
theorem chunk1_v1 (W : Valuation τ sig (Elt F)) {x0 : (⟨S100000x128, .f32⟩ : BufTy).Contents (Elt F)} {x1 : (⟨S2x1600000, .i32⟩ : BufTy).Contents (Elt F)} {x3 : (⟨S5, .f32⟩ : BufTy).Contents (Elt F)}
    (ha1 : W (Proc.devRef .tc main_arg1) = x1)
    (ha0 : W (Proc.devRef .tc main_arg0) = x0)
    (ha3 : W (Proc.devRef .tc main_arg3) = x3) :
    StableHlo.after (ops1 (F := F)) W (Proc.devRef .tc main_v1) = Read.val_main_v1 (F := F) x1 := by
  after_results_simp
  simp only [ha1, ha0, ha3]
  rfl

set_option maxHeartbeats 2000000 in
/-- Chunk 1 leaves main_v3 at its stage, from contents that hold the stages it reads. -/
theorem chunk1_v3 (W : Valuation τ sig (Elt F)) {x0 : (⟨S100000x128, .f32⟩ : BufTy).Contents (Elt F)} {x1 : (⟨S2x1600000, .i32⟩ : BufTy).Contents (Elt F)} {x3 : (⟨S5, .f32⟩ : BufTy).Contents (Elt F)}
    (ha1 : W (Proc.devRef .tc main_arg1) = x1)
    (ha0 : W (Proc.devRef .tc main_arg0) = x0)
    (ha3 : W (Proc.devRef .tc main_arg3) = x3) :
    StableHlo.after (ops1 (F := F)) W (Proc.devRef .tc main_v3) = Read.val_main_v3 (F := F) x1 := by
  after_results_simp
  simp only [ha1, ha0, ha3]
  rfl

set_option maxHeartbeats 2000000 in
/-- Chunk 1 leaves main_v19 at its stage, from contents that hold the stages it reads. -/
theorem chunk1_v19 (W : Valuation τ sig (Elt F)) {x0 : (⟨S100000x128, .f32⟩ : BufTy).Contents (Elt F)} {x1 : (⟨S2x1600000, .i32⟩ : BufTy).Contents (Elt F)} {x3 : (⟨S5, .f32⟩ : BufTy).Contents (Elt F)}
    (ha1 : W (Proc.devRef .tc main_arg1) = x1)
    (ha0 : W (Proc.devRef .tc main_arg0) = x0)
    (ha3 : W (Proc.devRef .tc main_arg3) = x3) :
    StableHlo.after (ops1 (F := F)) W (Proc.devRef .tc main_v19) = Read.val_main_v19 (F := F) x0 x1 x3 := by
  after_results_simp
  simp only [ha1, ha0, ha3]
  rfl

set_option maxHeartbeats 2000000 in
/-- Chunk 2 leaves main_v45 at its stage, from contents that hold the stages it reads. -/
theorem chunk2_v45 (W : Valuation τ sig (Elt F)) {x0 : (⟨S100000x128, .f32⟩ : BufTy).Contents (Elt F)} {x1 : (⟨S2x1600000, .i32⟩ : BufTy).Contents (Elt F)} {x3 : (⟨S5, .f32⟩ : BufTy).Contents (Elt F)} {x4 : (⟨S128x64, .f32⟩ : BufTy).Contents (Elt F)} {x5 : (⟨S64, .f32⟩ : BufTy).Contents (Elt F)} {x8 : (⟨S5x64, .f32⟩ : BufTy).Contents (Elt F)} {x9 : (⟨S5x64, .f32⟩ : BufTy).Contents (Elt F)} {x10 : (⟨S5x64, .f32⟩ : BufTy).Contents (Elt F)} {x11 : (⟨S5x64, .f32⟩ : BufTy).Contents (Elt F)}
    (hv19 : W (Proc.devRef .tc main_v19) = Read.val_main_v19 (F := F) x0 x1 x3)
    (ha4 : W (Proc.devRef .tc main_arg4) = x4)
    (ha5 : W (Proc.devRef .tc main_arg5) = x5)
    (ha8 : W (Proc.devRef .tc main_arg8) = x8)
    (ha9 : W (Proc.devRef .tc main_arg9) = x9)
    (ha10 : W (Proc.devRef .tc main_arg10) = x10)
    (ha11 : W (Proc.devRef .tc main_arg11) = x11) :
    StableHlo.after (ops2 (F := F)) W (Proc.devRef .tc main_v45) = Read.val_main_v45 (F := F) x0 x1 x3 x4 x5 x8 x9 x10 x11 := by
  after_results_simp
  simp only [hv19, ha4, ha5, ha8, ha9, ha10, ha11]
  rfl

set_option maxHeartbeats 2000000 in
/-- Chunk 3 leaves main_v75 at its stage, from contents that hold the stages it reads. -/
theorem chunk3_v75 (W : Valuation τ sig (Elt F)) {x0 : (⟨S100000x128, .f32⟩ : BufTy).Contents (Elt F)} {x1 : (⟨S2x1600000, .i32⟩ : BufTy).Contents (Elt F)} {x2 : (⟨S100000, .i32⟩ : BufTy).Contents (Elt F)} {x3 : (⟨S5, .f32⟩ : BufTy).Contents (Elt F)} {x4 : (⟨S128x64, .f32⟩ : BufTy).Contents (Elt F)} {x5 : (⟨S64, .f32⟩ : BufTy).Contents (Elt F)} {x8 : (⟨S5x64, .f32⟩ : BufTy).Contents (Elt F)} {x9 : (⟨S5x64, .f32⟩ : BufTy).Contents (Elt F)} {x10 : (⟨S5x64, .f32⟩ : BufTy).Contents (Elt F)} {x11 : (⟨S5x64, .f32⟩ : BufTy).Contents (Elt F)} {x12 : (⟨S5x64x64, .f32⟩ : BufTy).Contents (Elt F)} {x13 : (⟨S5x64, .f32⟩ : BufTy).Contents (Elt F)} {x14 : (⟨S5x64, .f32⟩ : BufTy).Contents (Elt F)} {x15 : (⟨S5x64, .f32⟩ : BufTy).Contents (Elt F)} {x16 : (⟨S5x64, .f32⟩ : BufTy).Contents (Elt F)} {x17 : (⟨S5x64, .f32⟩ : BufTy).Contents (Elt F)}
    (ha12 : W (Proc.devRef .tc main_arg12) = x12)
    (hv45 : W (Proc.devRef .tc main_v45) = Read.val_main_v45 (F := F) x0 x1 x3 x4 x5 x8 x9 x10 x11)
    (ha13 : W (Proc.devRef .tc main_arg13) = x13)
    (ha14 : W (Proc.devRef .tc main_arg14) = x14)
    (ha15 : W (Proc.devRef .tc main_arg15) = x15)
    (ha16 : W (Proc.devRef .tc main_arg16) = x16)
    (ha17 : W (Proc.devRef .tc main_arg17) = x17)
    (ha2 : W (Proc.devRef .tc main_arg2) = x2) :
    StableHlo.after (ops3 (F := F)) W (Proc.devRef .tc main_v75) = Read.val_main_v75 (F := F) x0 x1 x3 x4 x5 x8 x9 x10 x11 x12 x13 x14 x15 x16 x17 := by
  after_results_simp
  simp only [ha12, hv45, ha13, ha14, ha15, ha16, ha17, ha2]
  rfl

set_option maxHeartbeats 2000000 in
/-- Chunk 3 leaves main_v78 at its stage, from contents that hold the stages it reads. -/
theorem chunk3_v78 (W : Valuation τ sig (Elt F)) {x0 : (⟨S100000x128, .f32⟩ : BufTy).Contents (Elt F)} {x1 : (⟨S2x1600000, .i32⟩ : BufTy).Contents (Elt F)} {x2 : (⟨S100000, .i32⟩ : BufTy).Contents (Elt F)} {x3 : (⟨S5, .f32⟩ : BufTy).Contents (Elt F)} {x4 : (⟨S128x64, .f32⟩ : BufTy).Contents (Elt F)} {x5 : (⟨S64, .f32⟩ : BufTy).Contents (Elt F)} {x8 : (⟨S5x64, .f32⟩ : BufTy).Contents (Elt F)} {x9 : (⟨S5x64, .f32⟩ : BufTy).Contents (Elt F)} {x10 : (⟨S5x64, .f32⟩ : BufTy).Contents (Elt F)} {x11 : (⟨S5x64, .f32⟩ : BufTy).Contents (Elt F)} {x12 : (⟨S5x64x64, .f32⟩ : BufTy).Contents (Elt F)} {x13 : (⟨S5x64, .f32⟩ : BufTy).Contents (Elt F)} {x14 : (⟨S5x64, .f32⟩ : BufTy).Contents (Elt F)} {x15 : (⟨S5x64, .f32⟩ : BufTy).Contents (Elt F)} {x16 : (⟨S5x64, .f32⟩ : BufTy).Contents (Elt F)} {x17 : (⟨S5x64, .f32⟩ : BufTy).Contents (Elt F)}
    (ha12 : W (Proc.devRef .tc main_arg12) = x12)
    (hv45 : W (Proc.devRef .tc main_v45) = Read.val_main_v45 (F := F) x0 x1 x3 x4 x5 x8 x9 x10 x11)
    (ha13 : W (Proc.devRef .tc main_arg13) = x13)
    (ha14 : W (Proc.devRef .tc main_arg14) = x14)
    (ha15 : W (Proc.devRef .tc main_arg15) = x15)
    (ha16 : W (Proc.devRef .tc main_arg16) = x16)
    (ha17 : W (Proc.devRef .tc main_arg17) = x17)
    (ha2 : W (Proc.devRef .tc main_arg2) = x2) :
    StableHlo.after (ops3 (F := F)) W (Proc.devRef .tc main_v78) = Read.val_main_v78 (F := F) x0 x1 x2 x3 x4 x5 x8 x9 x10 x11 x12 x13 x14 x15 x16 x17 := by
  after_results_simp
  simp only [ha12, hv45, ha13, ha14, ha15, ha16, ha17, ha2]
  rfl

set_option maxHeartbeats 2000000 in
/-- Chunk 4 leaves main_v94 at its stage, from contents that hold the stages it reads. -/
theorem chunk4_v94 (W : Valuation τ sig (Elt F)) {x0 : (⟨S100000x128, .f32⟩ : BufTy).Contents (Elt F)} {x1 : (⟨S2x1600000, .i32⟩ : BufTy).Contents (Elt F)} {x3 : (⟨S5, .f32⟩ : BufTy).Contents (Elt F)} {x4 : (⟨S128x64, .f32⟩ : BufTy).Contents (Elt F)} {x5 : (⟨S64, .f32⟩ : BufTy).Contents (Elt F)} {x8 : (⟨S5x64, .f32⟩ : BufTy).Contents (Elt F)} {x9 : (⟨S5x64, .f32⟩ : BufTy).Contents (Elt F)} {x10 : (⟨S5x64, .f32⟩ : BufTy).Contents (Elt F)} {x11 : (⟨S5x64, .f32⟩ : BufTy).Contents (Elt F)} {x12 : (⟨S5x64x64, .f32⟩ : BufTy).Contents (Elt F)} {x13 : (⟨S5x64, .f32⟩ : BufTy).Contents (Elt F)} {x14 : (⟨S5x64, .f32⟩ : BufTy).Contents (Elt F)} {x15 : (⟨S5x64, .f32⟩ : BufTy).Contents (Elt F)} {x16 : (⟨S5x64, .f32⟩ : BufTy).Contents (Elt F)} {x17 : (⟨S5x64, .f32⟩ : BufTy).Contents (Elt F)}
    (hv1 : W (Proc.devRef .tc main_v1) = Read.val_main_v1 (F := F) x1)
    (hv75 : W (Proc.devRef .tc main_v75) = Read.val_main_v75 (F := F) x0 x1 x3 x4 x5 x8 x9 x10 x11 x12 x13 x14 x15 x16 x17)
    (hv3 : W (Proc.devRef .tc main_v3) = Read.val_main_v3 (F := F) x1)
    (ha3 : W (Proc.devRef .tc main_arg3) = x3) :
    StableHlo.after (ops4 (F := F)) W (Proc.devRef .tc main_v94) = Read.val_main_v94 (F := F) x0 x1 x3 x4 x5 x8 x9 x10 x11 x12 x13 x14 x15 x16 x17 := by
  after_results_simp
  simp only [hv1, hv75, hv3, ha3]
  rfl

set_option maxHeartbeats 2000000 in
/-- Chunk 5 leaves main_v124 at its stage, from contents that hold the stages it reads. -/
theorem chunk5_v124 (W : Valuation τ sig (Elt F)) {x0 : (⟨S100000x128, .f32⟩ : BufTy).Contents (Elt F)} {x1 : (⟨S2x1600000, .i32⟩ : BufTy).Contents (Elt F)} {x3 : (⟨S5, .f32⟩ : BufTy).Contents (Elt F)} {x4 : (⟨S128x64, .f32⟩ : BufTy).Contents (Elt F)} {x5 : (⟨S64, .f32⟩ : BufTy).Contents (Elt F)} {x6 : (⟨S4x64x64, .f32⟩ : BufTy).Contents (Elt F)} {x7 : (⟨S4x64, .f32⟩ : BufTy).Contents (Elt F)} {x8 : (⟨S5x64, .f32⟩ : BufTy).Contents (Elt F)} {x9 : (⟨S5x64, .f32⟩ : BufTy).Contents (Elt F)} {x10 : (⟨S5x64, .f32⟩ : BufTy).Contents (Elt F)} {x11 : (⟨S5x64, .f32⟩ : BufTy).Contents (Elt F)} {x12 : (⟨S5x64x64, .f32⟩ : BufTy).Contents (Elt F)} {x13 : (⟨S5x64, .f32⟩ : BufTy).Contents (Elt F)} {x14 : (⟨S5x64, .f32⟩ : BufTy).Contents (Elt F)} {x15 : (⟨S5x64, .f32⟩ : BufTy).Contents (Elt F)} {x16 : (⟨S5x64, .f32⟩ : BufTy).Contents (Elt F)} {x17 : (⟨S5x64, .f32⟩ : BufTy).Contents (Elt F)}
    (ha6 : W (Proc.devRef .tc main_arg6) = x6)
    (ha7 : W (Proc.devRef .tc main_arg7) = x7)
    (hv94 : W (Proc.devRef .tc main_v94) = Read.val_main_v94 (F := F) x0 x1 x3 x4 x5 x8 x9 x10 x11 x12 x13 x14 x15 x16 x17)
    (ha8 : W (Proc.devRef .tc main_arg8) = x8)
    (ha9 : W (Proc.devRef .tc main_arg9) = x9)
    (ha10 : W (Proc.devRef .tc main_arg10) = x10)
    (ha11 : W (Proc.devRef .tc main_arg11) = x11) :
    StableHlo.after (ops5 (F := F)) W (Proc.devRef .tc main_v124) = Read.val_main_v124 (F := F) x0 x1 x3 x4 x5 x6 x7 x8 x9 x10 x11 x12 x13 x14 x15 x16 x17 := by
  after_results_simp
  simp only [ha6, ha7, hv94, ha8, ha9, ha10, ha11]
  rfl

set_option maxHeartbeats 2000000 in
/-- Chunk 6 leaves main_v154 at its stage, from contents that hold the stages it reads. -/
theorem chunk6_v154 (W : Valuation τ sig (Elt F)) {x0 : (⟨S100000x128, .f32⟩ : BufTy).Contents (Elt F)} {x1 : (⟨S2x1600000, .i32⟩ : BufTy).Contents (Elt F)} {x2 : (⟨S100000, .i32⟩ : BufTy).Contents (Elt F)} {x3 : (⟨S5, .f32⟩ : BufTy).Contents (Elt F)} {x4 : (⟨S128x64, .f32⟩ : BufTy).Contents (Elt F)} {x5 : (⟨S64, .f32⟩ : BufTy).Contents (Elt F)} {x6 : (⟨S4x64x64, .f32⟩ : BufTy).Contents (Elt F)} {x7 : (⟨S4x64, .f32⟩ : BufTy).Contents (Elt F)} {x8 : (⟨S5x64, .f32⟩ : BufTy).Contents (Elt F)} {x9 : (⟨S5x64, .f32⟩ : BufTy).Contents (Elt F)} {x10 : (⟨S5x64, .f32⟩ : BufTy).Contents (Elt F)} {x11 : (⟨S5x64, .f32⟩ : BufTy).Contents (Elt F)} {x12 : (⟨S5x64x64, .f32⟩ : BufTy).Contents (Elt F)} {x13 : (⟨S5x64, .f32⟩ : BufTy).Contents (Elt F)} {x14 : (⟨S5x64, .f32⟩ : BufTy).Contents (Elt F)} {x15 : (⟨S5x64, .f32⟩ : BufTy).Contents (Elt F)} {x16 : (⟨S5x64, .f32⟩ : BufTy).Contents (Elt F)} {x17 : (⟨S5x64, .f32⟩ : BufTy).Contents (Elt F)}
    (ha12 : W (Proc.devRef .tc main_arg12) = x12)
    (hv124 : W (Proc.devRef .tc main_v124) = Read.val_main_v124 (F := F) x0 x1 x3 x4 x5 x6 x7 x8 x9 x10 x11 x12 x13 x14 x15 x16 x17)
    (ha13 : W (Proc.devRef .tc main_arg13) = x13)
    (ha14 : W (Proc.devRef .tc main_arg14) = x14)
    (ha15 : W (Proc.devRef .tc main_arg15) = x15)
    (ha16 : W (Proc.devRef .tc main_arg16) = x16)
    (ha17 : W (Proc.devRef .tc main_arg17) = x17)
    (ha2 : W (Proc.devRef .tc main_arg2) = x2) :
    StableHlo.after (ops6 (F := F)) W (Proc.devRef .tc main_v154) = Read.val_main_v154 (F := F) x0 x1 x3 x4 x5 x6 x7 x8 x9 x10 x11 x12 x13 x14 x15 x16 x17 := by
  after_results_simp
  simp only [ha12, hv124, ha13, ha14, ha15, ha16, ha17, ha2]
  rfl

set_option maxHeartbeats 2000000 in
/-- Chunk 6 leaves main_v157 at its stage, from contents that hold the stages it reads. -/
theorem chunk6_v157 (W : Valuation τ sig (Elt F)) {x0 : (⟨S100000x128, .f32⟩ : BufTy).Contents (Elt F)} {x1 : (⟨S2x1600000, .i32⟩ : BufTy).Contents (Elt F)} {x2 : (⟨S100000, .i32⟩ : BufTy).Contents (Elt F)} {x3 : (⟨S5, .f32⟩ : BufTy).Contents (Elt F)} {x4 : (⟨S128x64, .f32⟩ : BufTy).Contents (Elt F)} {x5 : (⟨S64, .f32⟩ : BufTy).Contents (Elt F)} {x6 : (⟨S4x64x64, .f32⟩ : BufTy).Contents (Elt F)} {x7 : (⟨S4x64, .f32⟩ : BufTy).Contents (Elt F)} {x8 : (⟨S5x64, .f32⟩ : BufTy).Contents (Elt F)} {x9 : (⟨S5x64, .f32⟩ : BufTy).Contents (Elt F)} {x10 : (⟨S5x64, .f32⟩ : BufTy).Contents (Elt F)} {x11 : (⟨S5x64, .f32⟩ : BufTy).Contents (Elt F)} {x12 : (⟨S5x64x64, .f32⟩ : BufTy).Contents (Elt F)} {x13 : (⟨S5x64, .f32⟩ : BufTy).Contents (Elt F)} {x14 : (⟨S5x64, .f32⟩ : BufTy).Contents (Elt F)} {x15 : (⟨S5x64, .f32⟩ : BufTy).Contents (Elt F)} {x16 : (⟨S5x64, .f32⟩ : BufTy).Contents (Elt F)} {x17 : (⟨S5x64, .f32⟩ : BufTy).Contents (Elt F)}
    (ha12 : W (Proc.devRef .tc main_arg12) = x12)
    (hv124 : W (Proc.devRef .tc main_v124) = Read.val_main_v124 (F := F) x0 x1 x3 x4 x5 x6 x7 x8 x9 x10 x11 x12 x13 x14 x15 x16 x17)
    (ha13 : W (Proc.devRef .tc main_arg13) = x13)
    (ha14 : W (Proc.devRef .tc main_arg14) = x14)
    (ha15 : W (Proc.devRef .tc main_arg15) = x15)
    (ha16 : W (Proc.devRef .tc main_arg16) = x16)
    (ha17 : W (Proc.devRef .tc main_arg17) = x17)
    (ha2 : W (Proc.devRef .tc main_arg2) = x2) :
    StableHlo.after (ops6 (F := F)) W (Proc.devRef .tc main_v157) = Read.val_main_v157 (F := F) x0 x1 x2 x3 x4 x5 x6 x7 x8 x9 x10 x11 x12 x13 x14 x15 x16 x17 := by
  after_results_simp
  simp only [ha12, hv124, ha13, ha14, ha15, ha16, ha17, ha2]
  rfl

set_option maxHeartbeats 2000000 in
/-- Chunk 7 leaves main_v173 at its stage, from contents that hold the stages it reads. -/
theorem chunk7_v173 (W : Valuation τ sig (Elt F)) {x0 : (⟨S100000x128, .f32⟩ : BufTy).Contents (Elt F)} {x1 : (⟨S2x1600000, .i32⟩ : BufTy).Contents (Elt F)} {x3 : (⟨S5, .f32⟩ : BufTy).Contents (Elt F)} {x4 : (⟨S128x64, .f32⟩ : BufTy).Contents (Elt F)} {x5 : (⟨S64, .f32⟩ : BufTy).Contents (Elt F)} {x6 : (⟨S4x64x64, .f32⟩ : BufTy).Contents (Elt F)} {x7 : (⟨S4x64, .f32⟩ : BufTy).Contents (Elt F)} {x8 : (⟨S5x64, .f32⟩ : BufTy).Contents (Elt F)} {x9 : (⟨S5x64, .f32⟩ : BufTy).Contents (Elt F)} {x10 : (⟨S5x64, .f32⟩ : BufTy).Contents (Elt F)} {x11 : (⟨S5x64, .f32⟩ : BufTy).Contents (Elt F)} {x12 : (⟨S5x64x64, .f32⟩ : BufTy).Contents (Elt F)} {x13 : (⟨S5x64, .f32⟩ : BufTy).Contents (Elt F)} {x14 : (⟨S5x64, .f32⟩ : BufTy).Contents (Elt F)} {x15 : (⟨S5x64, .f32⟩ : BufTy).Contents (Elt F)} {x16 : (⟨S5x64, .f32⟩ : BufTy).Contents (Elt F)} {x17 : (⟨S5x64, .f32⟩ : BufTy).Contents (Elt F)}
    (hv1 : W (Proc.devRef .tc main_v1) = Read.val_main_v1 (F := F) x1)
    (hv154 : W (Proc.devRef .tc main_v154) = Read.val_main_v154 (F := F) x0 x1 x3 x4 x5 x6 x7 x8 x9 x10 x11 x12 x13 x14 x15 x16 x17)
    (hv3 : W (Proc.devRef .tc main_v3) = Read.val_main_v3 (F := F) x1)
    (ha3 : W (Proc.devRef .tc main_arg3) = x3) :
    StableHlo.after (ops7 (F := F)) W (Proc.devRef .tc main_v173) = Read.val_main_v173 (F := F) x0 x1 x3 x4 x5 x6 x7 x8 x9 x10 x11 x12 x13 x14 x15 x16 x17 := by
  after_results_simp
  simp only [hv1, hv154, hv3, ha3]
  rfl

set_option maxHeartbeats 2000000 in
/-- Chunk 8 leaves main_v203 at its stage, from contents that hold the stages it reads. -/
theorem chunk8_v203 (W : Valuation τ sig (Elt F)) {x0 : (⟨S100000x128, .f32⟩ : BufTy).Contents (Elt F)} {x1 : (⟨S2x1600000, .i32⟩ : BufTy).Contents (Elt F)} {x3 : (⟨S5, .f32⟩ : BufTy).Contents (Elt F)} {x4 : (⟨S128x64, .f32⟩ : BufTy).Contents (Elt F)} {x5 : (⟨S64, .f32⟩ : BufTy).Contents (Elt F)} {x6 : (⟨S4x64x64, .f32⟩ : BufTy).Contents (Elt F)} {x7 : (⟨S4x64, .f32⟩ : BufTy).Contents (Elt F)} {x8 : (⟨S5x64, .f32⟩ : BufTy).Contents (Elt F)} {x9 : (⟨S5x64, .f32⟩ : BufTy).Contents (Elt F)} {x10 : (⟨S5x64, .f32⟩ : BufTy).Contents (Elt F)} {x11 : (⟨S5x64, .f32⟩ : BufTy).Contents (Elt F)} {x12 : (⟨S5x64x64, .f32⟩ : BufTy).Contents (Elt F)} {x13 : (⟨S5x64, .f32⟩ : BufTy).Contents (Elt F)} {x14 : (⟨S5x64, .f32⟩ : BufTy).Contents (Elt F)} {x15 : (⟨S5x64, .f32⟩ : BufTy).Contents (Elt F)} {x16 : (⟨S5x64, .f32⟩ : BufTy).Contents (Elt F)} {x17 : (⟨S5x64, .f32⟩ : BufTy).Contents (Elt F)}
    (ha6 : W (Proc.devRef .tc main_arg6) = x6)
    (ha7 : W (Proc.devRef .tc main_arg7) = x7)
    (hv173 : W (Proc.devRef .tc main_v173) = Read.val_main_v173 (F := F) x0 x1 x3 x4 x5 x6 x7 x8 x9 x10 x11 x12 x13 x14 x15 x16 x17)
    (ha8 : W (Proc.devRef .tc main_arg8) = x8)
    (ha9 : W (Proc.devRef .tc main_arg9) = x9)
    (ha10 : W (Proc.devRef .tc main_arg10) = x10)
    (ha11 : W (Proc.devRef .tc main_arg11) = x11) :
    StableHlo.after (ops8 (F := F)) W (Proc.devRef .tc main_v203) = Read.val_main_v203 (F := F) x0 x1 x3 x4 x5 x6 x7 x8 x9 x10 x11 x12 x13 x14 x15 x16 x17 := by
  after_results_simp
  simp only [ha6, ha7, hv173, ha8, ha9, ha10, ha11]
  rfl

set_option maxHeartbeats 2000000 in
/-- Chunk 9 leaves main_v233 at its stage, from contents that hold the stages it reads. -/
theorem chunk9_v233 (W : Valuation τ sig (Elt F)) {x0 : (⟨S100000x128, .f32⟩ : BufTy).Contents (Elt F)} {x1 : (⟨S2x1600000, .i32⟩ : BufTy).Contents (Elt F)} {x2 : (⟨S100000, .i32⟩ : BufTy).Contents (Elt F)} {x3 : (⟨S5, .f32⟩ : BufTy).Contents (Elt F)} {x4 : (⟨S128x64, .f32⟩ : BufTy).Contents (Elt F)} {x5 : (⟨S64, .f32⟩ : BufTy).Contents (Elt F)} {x6 : (⟨S4x64x64, .f32⟩ : BufTy).Contents (Elt F)} {x7 : (⟨S4x64, .f32⟩ : BufTy).Contents (Elt F)} {x8 : (⟨S5x64, .f32⟩ : BufTy).Contents (Elt F)} {x9 : (⟨S5x64, .f32⟩ : BufTy).Contents (Elt F)} {x10 : (⟨S5x64, .f32⟩ : BufTy).Contents (Elt F)} {x11 : (⟨S5x64, .f32⟩ : BufTy).Contents (Elt F)} {x12 : (⟨S5x64x64, .f32⟩ : BufTy).Contents (Elt F)} {x13 : (⟨S5x64, .f32⟩ : BufTy).Contents (Elt F)} {x14 : (⟨S5x64, .f32⟩ : BufTy).Contents (Elt F)} {x15 : (⟨S5x64, .f32⟩ : BufTy).Contents (Elt F)} {x16 : (⟨S5x64, .f32⟩ : BufTy).Contents (Elt F)} {x17 : (⟨S5x64, .f32⟩ : BufTy).Contents (Elt F)}
    (ha12 : W (Proc.devRef .tc main_arg12) = x12)
    (hv203 : W (Proc.devRef .tc main_v203) = Read.val_main_v203 (F := F) x0 x1 x3 x4 x5 x6 x7 x8 x9 x10 x11 x12 x13 x14 x15 x16 x17)
    (ha13 : W (Proc.devRef .tc main_arg13) = x13)
    (ha14 : W (Proc.devRef .tc main_arg14) = x14)
    (ha15 : W (Proc.devRef .tc main_arg15) = x15)
    (ha16 : W (Proc.devRef .tc main_arg16) = x16)
    (ha17 : W (Proc.devRef .tc main_arg17) = x17)
    (ha2 : W (Proc.devRef .tc main_arg2) = x2) :
    StableHlo.after (ops9 (F := F)) W (Proc.devRef .tc main_v233) = Read.val_main_v233 (F := F) x0 x1 x3 x4 x5 x6 x7 x8 x9 x10 x11 x12 x13 x14 x15 x16 x17 := by
  after_results_simp
  simp only [ha12, hv203, ha13, ha14, ha15, ha16, ha17, ha2]
  rfl

set_option maxHeartbeats 2000000 in
/-- Chunk 9 leaves main_v236 at its stage, from contents that hold the stages it reads. -/
theorem chunk9_v236 (W : Valuation τ sig (Elt F)) {x0 : (⟨S100000x128, .f32⟩ : BufTy).Contents (Elt F)} {x1 : (⟨S2x1600000, .i32⟩ : BufTy).Contents (Elt F)} {x2 : (⟨S100000, .i32⟩ : BufTy).Contents (Elt F)} {x3 : (⟨S5, .f32⟩ : BufTy).Contents (Elt F)} {x4 : (⟨S128x64, .f32⟩ : BufTy).Contents (Elt F)} {x5 : (⟨S64, .f32⟩ : BufTy).Contents (Elt F)} {x6 : (⟨S4x64x64, .f32⟩ : BufTy).Contents (Elt F)} {x7 : (⟨S4x64, .f32⟩ : BufTy).Contents (Elt F)} {x8 : (⟨S5x64, .f32⟩ : BufTy).Contents (Elt F)} {x9 : (⟨S5x64, .f32⟩ : BufTy).Contents (Elt F)} {x10 : (⟨S5x64, .f32⟩ : BufTy).Contents (Elt F)} {x11 : (⟨S5x64, .f32⟩ : BufTy).Contents (Elt F)} {x12 : (⟨S5x64x64, .f32⟩ : BufTy).Contents (Elt F)} {x13 : (⟨S5x64, .f32⟩ : BufTy).Contents (Elt F)} {x14 : (⟨S5x64, .f32⟩ : BufTy).Contents (Elt F)} {x15 : (⟨S5x64, .f32⟩ : BufTy).Contents (Elt F)} {x16 : (⟨S5x64, .f32⟩ : BufTy).Contents (Elt F)} {x17 : (⟨S5x64, .f32⟩ : BufTy).Contents (Elt F)}
    (ha12 : W (Proc.devRef .tc main_arg12) = x12)
    (hv203 : W (Proc.devRef .tc main_v203) = Read.val_main_v203 (F := F) x0 x1 x3 x4 x5 x6 x7 x8 x9 x10 x11 x12 x13 x14 x15 x16 x17)
    (ha13 : W (Proc.devRef .tc main_arg13) = x13)
    (ha14 : W (Proc.devRef .tc main_arg14) = x14)
    (ha15 : W (Proc.devRef .tc main_arg15) = x15)
    (ha16 : W (Proc.devRef .tc main_arg16) = x16)
    (ha17 : W (Proc.devRef .tc main_arg17) = x17)
    (ha2 : W (Proc.devRef .tc main_arg2) = x2) :
    StableHlo.after (ops9 (F := F)) W (Proc.devRef .tc main_v236) = Read.val_main_v236 (F := F) x0 x1 x2 x3 x4 x5 x6 x7 x8 x9 x10 x11 x12 x13 x14 x15 x16 x17 := by
  after_results_simp
  simp only [ha12, hv203, ha13, ha14, ha15, ha16, ha17, ha2]
  rfl

set_option maxHeartbeats 2000000 in
/-- Chunk 10 leaves main_v252 at its stage, from contents that hold the stages it reads. -/
theorem chunk10_v252 (W : Valuation τ sig (Elt F)) {x0 : (⟨S100000x128, .f32⟩ : BufTy).Contents (Elt F)} {x1 : (⟨S2x1600000, .i32⟩ : BufTy).Contents (Elt F)} {x3 : (⟨S5, .f32⟩ : BufTy).Contents (Elt F)} {x4 : (⟨S128x64, .f32⟩ : BufTy).Contents (Elt F)} {x5 : (⟨S64, .f32⟩ : BufTy).Contents (Elt F)} {x6 : (⟨S4x64x64, .f32⟩ : BufTy).Contents (Elt F)} {x7 : (⟨S4x64, .f32⟩ : BufTy).Contents (Elt F)} {x8 : (⟨S5x64, .f32⟩ : BufTy).Contents (Elt F)} {x9 : (⟨S5x64, .f32⟩ : BufTy).Contents (Elt F)} {x10 : (⟨S5x64, .f32⟩ : BufTy).Contents (Elt F)} {x11 : (⟨S5x64, .f32⟩ : BufTy).Contents (Elt F)} {x12 : (⟨S5x64x64, .f32⟩ : BufTy).Contents (Elt F)} {x13 : (⟨S5x64, .f32⟩ : BufTy).Contents (Elt F)} {x14 : (⟨S5x64, .f32⟩ : BufTy).Contents (Elt F)} {x15 : (⟨S5x64, .f32⟩ : BufTy).Contents (Elt F)} {x16 : (⟨S5x64, .f32⟩ : BufTy).Contents (Elt F)} {x17 : (⟨S5x64, .f32⟩ : BufTy).Contents (Elt F)}
    (hv1 : W (Proc.devRef .tc main_v1) = Read.val_main_v1 (F := F) x1)
    (hv233 : W (Proc.devRef .tc main_v233) = Read.val_main_v233 (F := F) x0 x1 x3 x4 x5 x6 x7 x8 x9 x10 x11 x12 x13 x14 x15 x16 x17)
    (hv3 : W (Proc.devRef .tc main_v3) = Read.val_main_v3 (F := F) x1)
    (ha3 : W (Proc.devRef .tc main_arg3) = x3) :
    StableHlo.after (ops10 (F := F)) W (Proc.devRef .tc main_v252) = Read.val_main_v252 (F := F) x0 x1 x3 x4 x5 x6 x7 x8 x9 x10 x11 x12 x13 x14 x15 x16 x17 := by
  after_results_simp
  simp only [hv1, hv233, hv3, ha3]
  rfl

set_option maxHeartbeats 2000000 in
/-- Chunk 11 leaves main_v282 at its stage, from contents that hold the stages it reads. -/
theorem chunk11_v282 (W : Valuation τ sig (Elt F)) {x0 : (⟨S100000x128, .f32⟩ : BufTy).Contents (Elt F)} {x1 : (⟨S2x1600000, .i32⟩ : BufTy).Contents (Elt F)} {x3 : (⟨S5, .f32⟩ : BufTy).Contents (Elt F)} {x4 : (⟨S128x64, .f32⟩ : BufTy).Contents (Elt F)} {x5 : (⟨S64, .f32⟩ : BufTy).Contents (Elt F)} {x6 : (⟨S4x64x64, .f32⟩ : BufTy).Contents (Elt F)} {x7 : (⟨S4x64, .f32⟩ : BufTy).Contents (Elt F)} {x8 : (⟨S5x64, .f32⟩ : BufTy).Contents (Elt F)} {x9 : (⟨S5x64, .f32⟩ : BufTy).Contents (Elt F)} {x10 : (⟨S5x64, .f32⟩ : BufTy).Contents (Elt F)} {x11 : (⟨S5x64, .f32⟩ : BufTy).Contents (Elt F)} {x12 : (⟨S5x64x64, .f32⟩ : BufTy).Contents (Elt F)} {x13 : (⟨S5x64, .f32⟩ : BufTy).Contents (Elt F)} {x14 : (⟨S5x64, .f32⟩ : BufTy).Contents (Elt F)} {x15 : (⟨S5x64, .f32⟩ : BufTy).Contents (Elt F)} {x16 : (⟨S5x64, .f32⟩ : BufTy).Contents (Elt F)} {x17 : (⟨S5x64, .f32⟩ : BufTy).Contents (Elt F)}
    (ha6 : W (Proc.devRef .tc main_arg6) = x6)
    (ha7 : W (Proc.devRef .tc main_arg7) = x7)
    (hv252 : W (Proc.devRef .tc main_v252) = Read.val_main_v252 (F := F) x0 x1 x3 x4 x5 x6 x7 x8 x9 x10 x11 x12 x13 x14 x15 x16 x17)
    (ha8 : W (Proc.devRef .tc main_arg8) = x8)
    (ha9 : W (Proc.devRef .tc main_arg9) = x9)
    (ha10 : W (Proc.devRef .tc main_arg10) = x10)
    (ha11 : W (Proc.devRef .tc main_arg11) = x11) :
    StableHlo.after (ops11 (F := F)) W (Proc.devRef .tc main_v282) = Read.val_main_v282 (F := F) x0 x1 x3 x4 x5 x6 x7 x8 x9 x10 x11 x12 x13 x14 x15 x16 x17 := by
  after_results_simp
  simp only [ha6, ha7, hv252, ha8, ha9, ha10, ha11]
  rfl

set_option maxHeartbeats 2000000 in
/-- Chunk 12 leaves main_v312 at its stage, from contents that hold the stages it reads. -/
theorem chunk12_v312 (W : Valuation τ sig (Elt F)) {x0 : (⟨S100000x128, .f32⟩ : BufTy).Contents (Elt F)} {x1 : (⟨S2x1600000, .i32⟩ : BufTy).Contents (Elt F)} {x2 : (⟨S100000, .i32⟩ : BufTy).Contents (Elt F)} {x3 : (⟨S5, .f32⟩ : BufTy).Contents (Elt F)} {x4 : (⟨S128x64, .f32⟩ : BufTy).Contents (Elt F)} {x5 : (⟨S64, .f32⟩ : BufTy).Contents (Elt F)} {x6 : (⟨S4x64x64, .f32⟩ : BufTy).Contents (Elt F)} {x7 : (⟨S4x64, .f32⟩ : BufTy).Contents (Elt F)} {x8 : (⟨S5x64, .f32⟩ : BufTy).Contents (Elt F)} {x9 : (⟨S5x64, .f32⟩ : BufTy).Contents (Elt F)} {x10 : (⟨S5x64, .f32⟩ : BufTy).Contents (Elt F)} {x11 : (⟨S5x64, .f32⟩ : BufTy).Contents (Elt F)} {x12 : (⟨S5x64x64, .f32⟩ : BufTy).Contents (Elt F)} {x13 : (⟨S5x64, .f32⟩ : BufTy).Contents (Elt F)} {x14 : (⟨S5x64, .f32⟩ : BufTy).Contents (Elt F)} {x15 : (⟨S5x64, .f32⟩ : BufTy).Contents (Elt F)} {x16 : (⟨S5x64, .f32⟩ : BufTy).Contents (Elt F)} {x17 : (⟨S5x64, .f32⟩ : BufTy).Contents (Elt F)}
    (ha12 : W (Proc.devRef .tc main_arg12) = x12)
    (hv282 : W (Proc.devRef .tc main_v282) = Read.val_main_v282 (F := F) x0 x1 x3 x4 x5 x6 x7 x8 x9 x10 x11 x12 x13 x14 x15 x16 x17)
    (ha13 : W (Proc.devRef .tc main_arg13) = x13)
    (ha14 : W (Proc.devRef .tc main_arg14) = x14)
    (ha15 : W (Proc.devRef .tc main_arg15) = x15)
    (ha16 : W (Proc.devRef .tc main_arg16) = x16)
    (ha17 : W (Proc.devRef .tc main_arg17) = x17)
    (ha2 : W (Proc.devRef .tc main_arg2) = x2) :
    StableHlo.after (ops12 (F := F)) W (Proc.devRef .tc main_v312) = Read.val_main_v312 (F := F) x0 x1 x3 x4 x5 x6 x7 x8 x9 x10 x11 x12 x13 x14 x15 x16 x17 := by
  after_results_simp
  simp only [ha12, hv282, ha13, ha14, ha15, ha16, ha17, ha2]
  rfl

set_option maxHeartbeats 2000000 in
/-- Chunk 12 leaves main_v315 at its stage, from contents that hold the stages it reads. -/
theorem chunk12_v315 (W : Valuation τ sig (Elt F)) {x0 : (⟨S100000x128, .f32⟩ : BufTy).Contents (Elt F)} {x1 : (⟨S2x1600000, .i32⟩ : BufTy).Contents (Elt F)} {x2 : (⟨S100000, .i32⟩ : BufTy).Contents (Elt F)} {x3 : (⟨S5, .f32⟩ : BufTy).Contents (Elt F)} {x4 : (⟨S128x64, .f32⟩ : BufTy).Contents (Elt F)} {x5 : (⟨S64, .f32⟩ : BufTy).Contents (Elt F)} {x6 : (⟨S4x64x64, .f32⟩ : BufTy).Contents (Elt F)} {x7 : (⟨S4x64, .f32⟩ : BufTy).Contents (Elt F)} {x8 : (⟨S5x64, .f32⟩ : BufTy).Contents (Elt F)} {x9 : (⟨S5x64, .f32⟩ : BufTy).Contents (Elt F)} {x10 : (⟨S5x64, .f32⟩ : BufTy).Contents (Elt F)} {x11 : (⟨S5x64, .f32⟩ : BufTy).Contents (Elt F)} {x12 : (⟨S5x64x64, .f32⟩ : BufTy).Contents (Elt F)} {x13 : (⟨S5x64, .f32⟩ : BufTy).Contents (Elt F)} {x14 : (⟨S5x64, .f32⟩ : BufTy).Contents (Elt F)} {x15 : (⟨S5x64, .f32⟩ : BufTy).Contents (Elt F)} {x16 : (⟨S5x64, .f32⟩ : BufTy).Contents (Elt F)} {x17 : (⟨S5x64, .f32⟩ : BufTy).Contents (Elt F)}
    (ha12 : W (Proc.devRef .tc main_arg12) = x12)
    (hv282 : W (Proc.devRef .tc main_v282) = Read.val_main_v282 (F := F) x0 x1 x3 x4 x5 x6 x7 x8 x9 x10 x11 x12 x13 x14 x15 x16 x17)
    (ha13 : W (Proc.devRef .tc main_arg13) = x13)
    (ha14 : W (Proc.devRef .tc main_arg14) = x14)
    (ha15 : W (Proc.devRef .tc main_arg15) = x15)
    (ha16 : W (Proc.devRef .tc main_arg16) = x16)
    (ha17 : W (Proc.devRef .tc main_arg17) = x17)
    (ha2 : W (Proc.devRef .tc main_arg2) = x2) :
    StableHlo.after (ops12 (F := F)) W (Proc.devRef .tc main_v315) = Read.val_main_v315 (F := F) x0 x1 x2 x3 x4 x5 x6 x7 x8 x9 x10 x11 x12 x13 x14 x15 x16 x17 := by
  after_results_simp
  simp only [ha12, hv282, ha13, ha14, ha15, ha16, ha17, ha2]
  rfl

set_option maxHeartbeats 2000000 in
/-- Chunk 13 leaves main_v331 at its stage, from contents that hold the stages it reads. -/
theorem chunk13_v331 (W : Valuation τ sig (Elt F)) {x0 : (⟨S100000x128, .f32⟩ : BufTy).Contents (Elt F)} {x1 : (⟨S2x1600000, .i32⟩ : BufTy).Contents (Elt F)} {x3 : (⟨S5, .f32⟩ : BufTy).Contents (Elt F)} {x4 : (⟨S128x64, .f32⟩ : BufTy).Contents (Elt F)} {x5 : (⟨S64, .f32⟩ : BufTy).Contents (Elt F)} {x6 : (⟨S4x64x64, .f32⟩ : BufTy).Contents (Elt F)} {x7 : (⟨S4x64, .f32⟩ : BufTy).Contents (Elt F)} {x8 : (⟨S5x64, .f32⟩ : BufTy).Contents (Elt F)} {x9 : (⟨S5x64, .f32⟩ : BufTy).Contents (Elt F)} {x10 : (⟨S5x64, .f32⟩ : BufTy).Contents (Elt F)} {x11 : (⟨S5x64, .f32⟩ : BufTy).Contents (Elt F)} {x12 : (⟨S5x64x64, .f32⟩ : BufTy).Contents (Elt F)} {x13 : (⟨S5x64, .f32⟩ : BufTy).Contents (Elt F)} {x14 : (⟨S5x64, .f32⟩ : BufTy).Contents (Elt F)} {x15 : (⟨S5x64, .f32⟩ : BufTy).Contents (Elt F)} {x16 : (⟨S5x64, .f32⟩ : BufTy).Contents (Elt F)} {x17 : (⟨S5x64, .f32⟩ : BufTy).Contents (Elt F)}
    (hv1 : W (Proc.devRef .tc main_v1) = Read.val_main_v1 (F := F) x1)
    (hv312 : W (Proc.devRef .tc main_v312) = Read.val_main_v312 (F := F) x0 x1 x3 x4 x5 x6 x7 x8 x9 x10 x11 x12 x13 x14 x15 x16 x17)
    (hv3 : W (Proc.devRef .tc main_v3) = Read.val_main_v3 (F := F) x1)
    (ha3 : W (Proc.devRef .tc main_arg3) = x3) :
    StableHlo.after (ops13 (F := F)) W (Proc.devRef .tc main_v331) = Read.val_main_v331 (F := F) x0 x1 x3 x4 x5 x6 x7 x8 x9 x10 x11 x12 x13 x14 x15 x16 x17 := by
  after_results_simp
  simp only [hv1, hv312, hv3, ha3]
  rfl

set_option maxHeartbeats 2000000 in
/-- Chunk 14 leaves main_v361 at its stage, from contents that hold the stages it reads. -/
theorem chunk14_v361 (W : Valuation τ sig (Elt F)) {x0 : (⟨S100000x128, .f32⟩ : BufTy).Contents (Elt F)} {x1 : (⟨S2x1600000, .i32⟩ : BufTy).Contents (Elt F)} {x3 : (⟨S5, .f32⟩ : BufTy).Contents (Elt F)} {x4 : (⟨S128x64, .f32⟩ : BufTy).Contents (Elt F)} {x5 : (⟨S64, .f32⟩ : BufTy).Contents (Elt F)} {x6 : (⟨S4x64x64, .f32⟩ : BufTy).Contents (Elt F)} {x7 : (⟨S4x64, .f32⟩ : BufTy).Contents (Elt F)} {x8 : (⟨S5x64, .f32⟩ : BufTy).Contents (Elt F)} {x9 : (⟨S5x64, .f32⟩ : BufTy).Contents (Elt F)} {x10 : (⟨S5x64, .f32⟩ : BufTy).Contents (Elt F)} {x11 : (⟨S5x64, .f32⟩ : BufTy).Contents (Elt F)} {x12 : (⟨S5x64x64, .f32⟩ : BufTy).Contents (Elt F)} {x13 : (⟨S5x64, .f32⟩ : BufTy).Contents (Elt F)} {x14 : (⟨S5x64, .f32⟩ : BufTy).Contents (Elt F)} {x15 : (⟨S5x64, .f32⟩ : BufTy).Contents (Elt F)} {x16 : (⟨S5x64, .f32⟩ : BufTy).Contents (Elt F)} {x17 : (⟨S5x64, .f32⟩ : BufTy).Contents (Elt F)}
    (ha6 : W (Proc.devRef .tc main_arg6) = x6)
    (ha7 : W (Proc.devRef .tc main_arg7) = x7)
    (hv331 : W (Proc.devRef .tc main_v331) = Read.val_main_v331 (F := F) x0 x1 x3 x4 x5 x6 x7 x8 x9 x10 x11 x12 x13 x14 x15 x16 x17)
    (ha8 : W (Proc.devRef .tc main_arg8) = x8)
    (ha9 : W (Proc.devRef .tc main_arg9) = x9)
    (ha10 : W (Proc.devRef .tc main_arg10) = x10)
    (ha11 : W (Proc.devRef .tc main_arg11) = x11) :
    StableHlo.after (ops14 (F := F)) W (Proc.devRef .tc main_v361) = Read.val_main_v361 (F := F) x0 x1 x3 x4 x5 x6 x7 x8 x9 x10 x11 x12 x13 x14 x15 x16 x17 := by
  after_results_simp
  simp only [ha6, ha7, hv331, ha8, ha9, ha10, ha11]
  rfl

set_option maxHeartbeats 2000000 in
/-- Chunk 15 leaves main_v394 at its stage, from contents that hold the stages it reads. -/
theorem chunk15_v394 (W : Valuation τ sig (Elt F)) {x0 : (⟨S100000x128, .f32⟩ : BufTy).Contents (Elt F)} {x1 : (⟨S2x1600000, .i32⟩ : BufTy).Contents (Elt F)} {x2 : (⟨S100000, .i32⟩ : BufTy).Contents (Elt F)} {x3 : (⟨S5, .f32⟩ : BufTy).Contents (Elt F)} {x4 : (⟨S128x64, .f32⟩ : BufTy).Contents (Elt F)} {x5 : (⟨S64, .f32⟩ : BufTy).Contents (Elt F)} {x6 : (⟨S4x64x64, .f32⟩ : BufTy).Contents (Elt F)} {x7 : (⟨S4x64, .f32⟩ : BufTy).Contents (Elt F)} {x8 : (⟨S5x64, .f32⟩ : BufTy).Contents (Elt F)} {x9 : (⟨S5x64, .f32⟩ : BufTy).Contents (Elt F)} {x10 : (⟨S5x64, .f32⟩ : BufTy).Contents (Elt F)} {x11 : (⟨S5x64, .f32⟩ : BufTy).Contents (Elt F)} {x12 : (⟨S5x64x64, .f32⟩ : BufTy).Contents (Elt F)} {x13 : (⟨S5x64, .f32⟩ : BufTy).Contents (Elt F)} {x14 : (⟨S5x64, .f32⟩ : BufTy).Contents (Elt F)} {x15 : (⟨S5x64, .f32⟩ : BufTy).Contents (Elt F)} {x16 : (⟨S5x64, .f32⟩ : BufTy).Contents (Elt F)} {x17 : (⟨S5x64, .f32⟩ : BufTy).Contents (Elt F)}
    (ha12 : W (Proc.devRef .tc main_arg12) = x12)
    (hv361 : W (Proc.devRef .tc main_v361) = Read.val_main_v361 (F := F) x0 x1 x3 x4 x5 x6 x7 x8 x9 x10 x11 x12 x13 x14 x15 x16 x17)
    (ha13 : W (Proc.devRef .tc main_arg13) = x13)
    (ha14 : W (Proc.devRef .tc main_arg14) = x14)
    (ha15 : W (Proc.devRef .tc main_arg15) = x15)
    (ha16 : W (Proc.devRef .tc main_arg16) = x16)
    (ha17 : W (Proc.devRef .tc main_arg17) = x17)
    (ha2 : W (Proc.devRef .tc main_arg2) = x2) :
    StableHlo.after (ops15 (F := F)) W (Proc.devRef .tc main_v394) = Read.val_main_v394 (F := F) x0 x1 x2 x3 x4 x5 x6 x7 x8 x9 x10 x11 x12 x13 x14 x15 x16 x17 := by
  after_results_simp
  simp only [ha12, hv361, ha13, ha14, ha15, ha16, ha17, ha2]
  rfl

set_option maxHeartbeats 2000000 in
/-- Chunk 16 leaves main_v399 at its stage, from contents that hold the stages it reads. -/
theorem chunk16_v399 (W : Valuation τ sig (Elt F)) {x0 : (⟨S100000x128, .f32⟩ : BufTy).Contents (Elt F)} {x1 : (⟨S2x1600000, .i32⟩ : BufTy).Contents (Elt F)} {x2 : (⟨S100000, .i32⟩ : BufTy).Contents (Elt F)} {x3 : (⟨S5, .f32⟩ : BufTy).Contents (Elt F)} {x4 : (⟨S128x64, .f32⟩ : BufTy).Contents (Elt F)} {x5 : (⟨S64, .f32⟩ : BufTy).Contents (Elt F)} {x6 : (⟨S4x64x64, .f32⟩ : BufTy).Contents (Elt F)} {x7 : (⟨S4x64, .f32⟩ : BufTy).Contents (Elt F)} {x8 : (⟨S5x64, .f32⟩ : BufTy).Contents (Elt F)} {x9 : (⟨S5x64, .f32⟩ : BufTy).Contents (Elt F)} {x10 : (⟨S5x64, .f32⟩ : BufTy).Contents (Elt F)} {x11 : (⟨S5x64, .f32⟩ : BufTy).Contents (Elt F)} {x12 : (⟨S5x64x64, .f32⟩ : BufTy).Contents (Elt F)} {x13 : (⟨S5x64, .f32⟩ : BufTy).Contents (Elt F)} {x14 : (⟨S5x64, .f32⟩ : BufTy).Contents (Elt F)} {x15 : (⟨S5x64, .f32⟩ : BufTy).Contents (Elt F)} {x16 : (⟨S5x64, .f32⟩ : BufTy).Contents (Elt F)} {x17 : (⟨S5x64, .f32⟩ : BufTy).Contents (Elt F)} {x18 : (⟨S320x16, .f32⟩ : BufTy).Contents (Elt F)} {x19 : (⟨S16, .f32⟩ : BufTy).Contents (Elt F)}
    (hv78 : W (Proc.devRef .tc main_v78) = Read.val_main_v78 (F := F) x0 x1 x2 x3 x4 x5 x8 x9 x10 x11 x12 x13 x14 x15 x16 x17)
    (hv157 : W (Proc.devRef .tc main_v157) = Read.val_main_v157 (F := F) x0 x1 x2 x3 x4 x5 x6 x7 x8 x9 x10 x11 x12 x13 x14 x15 x16 x17)
    (hv236 : W (Proc.devRef .tc main_v236) = Read.val_main_v236 (F := F) x0 x1 x2 x3 x4 x5 x6 x7 x8 x9 x10 x11 x12 x13 x14 x15 x16 x17)
    (hv315 : W (Proc.devRef .tc main_v315) = Read.val_main_v315 (F := F) x0 x1 x2 x3 x4 x5 x6 x7 x8 x9 x10 x11 x12 x13 x14 x15 x16 x17)
    (hv394 : W (Proc.devRef .tc main_v394) = Read.val_main_v394 (F := F) x0 x1 x2 x3 x4 x5 x6 x7 x8 x9 x10 x11 x12 x13 x14 x15 x16 x17)
    (ha18 : W (Proc.devRef .tc main_arg18) = x18)
    (ha19 : W (Proc.devRef .tc main_arg19) = x19) :
    StableHlo.after (ops16 (F := F)) W (Proc.devRef .tc main_v399) = Read.val_main_v399 (F := F) x0 x1 x2 x3 x4 x5 x6 x7 x8 x9 x10 x11 x12 x13 x14 x15 x16 x17 x18 x19 := by
  after_results_simp
  show addf (F := F)
      (Host.dotGeneral (F := F) (φ₁ := .f32) (φ₂ := .f32) dot_S512x320_S320x16_S512x16_1_0_0_1_n_n none
        (concatenate S512x320 1
          [⟨S512x64, W (Proc.devRef .tc main_v78)⟩, ⟨S512x64, W (Proc.devRef .tc main_v157)⟩, ⟨S512x64, W (Proc.devRef .tc main_v236)⟩,
            ⟨S512x64, W (Proc.devRef .tc main_v315)⟩, ⟨S512x64, W (Proc.devRef .tc main_v394)⟩]
          concatenates_S512x64_S512x64_S512x64_S512x64_S512x64_S512x320_d1)
        (W (Proc.devRef .tc main_arg18)))
      (broadcastInDim S512x16 ![0, 1] bcast_S1x16_S512x16_0_1 (broadcastInDim S1x16 ![1] bcast_S16_S1x16_1 (W (Proc.devRef .tc main_arg19)))) = _
  rw [hv78, hv157, hv236, hv315, hv394, ha18, ha19]
  rfl

/-! ## The contents after each chunk -/

/-- The program's twenty arguments. -/
abbrev argRefs : List (Ref sig .tc) := [main_arg0, main_arg1, main_arg2, main_arg3, main_arg4, main_arg5, main_arg6, main_arg7, main_arg8, main_arg9, main_arg10, main_arg11, main_arg12, main_arg13, main_arg14, main_arg15, main_arg16, main_arg17, main_arg18, main_arg19]

/-- The device's contents after the first 1 chunk. -/
def S1 (W : Valuation τ sig (Elt F)) : Valuation τ sig (Elt F) := StableHlo.after ops1 W
/-- No chunk writes an argument. -/
theorem args1 (W : Valuation τ sig (Elt F)) (r : Ref sig .tc) (hr : r ∈ argRefs) : S1 W (Proc.devRef .tc r) = W (Proc.devRef .tc r) :=
  keep1 W r (by revert r hr; decide)
theorem S1_v1 (W : Valuation τ sig (Elt F)) : S1 W (Proc.devRef .tc main_v1) = Read.val_main_v1 (F := F) (W (Proc.devRef .tc main_arg1)) :=
  chunk1_v1 W rfl rfl rfl
theorem S1_v3 (W : Valuation τ sig (Elt F)) : S1 W (Proc.devRef .tc main_v3) = Read.val_main_v3 (F := F) (W (Proc.devRef .tc main_arg1)) :=
  chunk1_v3 W rfl rfl rfl
theorem S1_v19 (W : Valuation τ sig (Elt F)) : S1 W (Proc.devRef .tc main_v19) = Read.val_main_v19 (F := F) (W (Proc.devRef .tc main_arg0)) (W (Proc.devRef .tc main_arg1)) (W (Proc.devRef .tc main_arg3)) :=
  chunk1_v19 W rfl rfl rfl

/-- The device's contents after the first 2 chunks. -/
def S2 (W : Valuation τ sig (Elt F)) : Valuation τ sig (Elt F) := StableHlo.after ops2 (S1 W)
/-- No chunk writes an argument. -/
theorem args2 (W : Valuation τ sig (Elt F)) (r : Ref sig .tc) (hr : r ∈ argRefs) : S2 W (Proc.devRef .tc r) = W (Proc.devRef .tc r) :=
  (keep2 (S1 W) r (by revert r hr; decide)).trans (args1 W r hr)
theorem S2_v1 (W : Valuation τ sig (Elt F)) : S2 W (Proc.devRef .tc main_v1) = Read.val_main_v1 (F := F) (W (Proc.devRef .tc main_arg1)) :=
  (keep2 (S1 W) main_v1 (by decide)).trans (S1_v1 W)
theorem S2_v3 (W : Valuation τ sig (Elt F)) : S2 W (Proc.devRef .tc main_v3) = Read.val_main_v3 (F := F) (W (Proc.devRef .tc main_arg1)) :=
  (keep2 (S1 W) main_v3 (by decide)).trans (S1_v3 W)
theorem S2_v45 (W : Valuation τ sig (Elt F)) : S2 W (Proc.devRef .tc main_v45) = Read.val_main_v45 (F := F) (W (Proc.devRef .tc main_arg0)) (W (Proc.devRef .tc main_arg1)) (W (Proc.devRef .tc main_arg3)) (W (Proc.devRef .tc main_arg4)) (W (Proc.devRef .tc main_arg5)) (W (Proc.devRef .tc main_arg8)) (W (Proc.devRef .tc main_arg9)) (W (Proc.devRef .tc main_arg10)) (W (Proc.devRef .tc main_arg11)) :=
  chunk2_v45 (S1 W) (S1_v19 W) (args1 W main_arg4 (by decide)) (args1 W main_arg5 (by decide)) (args1 W main_arg8 (by decide)) (args1 W main_arg9 (by decide)) (args1 W main_arg10 (by decide)) (args1 W main_arg11 (by decide))

/-- The device's contents after the first 3 chunks. -/
def S3 (W : Valuation τ sig (Elt F)) : Valuation τ sig (Elt F) := StableHlo.after ops3 (S2 W)
/-- No chunk writes an argument. -/
theorem args3 (W : Valuation τ sig (Elt F)) (r : Ref sig .tc) (hr : r ∈ argRefs) : S3 W (Proc.devRef .tc r) = W (Proc.devRef .tc r) :=
  (keep3 (S2 W) r (by revert r hr; decide)).trans (args2 W r hr)
theorem S3_v1 (W : Valuation τ sig (Elt F)) : S3 W (Proc.devRef .tc main_v1) = Read.val_main_v1 (F := F) (W (Proc.devRef .tc main_arg1)) :=
  (keep3 (S2 W) main_v1 (by decide)).trans (S2_v1 W)
theorem S3_v3 (W : Valuation τ sig (Elt F)) : S3 W (Proc.devRef .tc main_v3) = Read.val_main_v3 (F := F) (W (Proc.devRef .tc main_arg1)) :=
  (keep3 (S2 W) main_v3 (by decide)).trans (S2_v3 W)
theorem S3_v75 (W : Valuation τ sig (Elt F)) : S3 W (Proc.devRef .tc main_v75) = Read.val_main_v75 (F := F) (W (Proc.devRef .tc main_arg0)) (W (Proc.devRef .tc main_arg1)) (W (Proc.devRef .tc main_arg3)) (W (Proc.devRef .tc main_arg4)) (W (Proc.devRef .tc main_arg5)) (W (Proc.devRef .tc main_arg8)) (W (Proc.devRef .tc main_arg9)) (W (Proc.devRef .tc main_arg10)) (W (Proc.devRef .tc main_arg11)) (W (Proc.devRef .tc main_arg12)) (W (Proc.devRef .tc main_arg13)) (W (Proc.devRef .tc main_arg14)) (W (Proc.devRef .tc main_arg15)) (W (Proc.devRef .tc main_arg16)) (W (Proc.devRef .tc main_arg17)) :=
  chunk3_v75 (S2 W) (args2 W main_arg12 (by decide)) (S2_v45 W) (args2 W main_arg13 (by decide)) (args2 W main_arg14 (by decide)) (args2 W main_arg15 (by decide)) (args2 W main_arg16 (by decide)) (args2 W main_arg17 (by decide)) (args2 W main_arg2 (by decide))
theorem S3_v78 (W : Valuation τ sig (Elt F)) : S3 W (Proc.devRef .tc main_v78) = Read.val_main_v78 (F := F) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg8)) (W (Proc.devRef .tc main_arg9)) (W (Proc.devRef .tc main_arg10)) (W (Proc.devRef .tc main_arg11)) (W (Proc.devRef .tc main_arg12)) (W (Proc.devRef .tc main_arg13)) (W (Proc.devRef .tc main_arg14)) (W (Proc.devRef .tc main_arg15)) (W (Proc.devRef .tc main_arg16)) (W (Proc.devRef .tc main_arg17)) :=
  chunk3_v78 (S2 W) (args2 W main_arg12 (by decide)) (S2_v45 W) (args2 W main_arg13 (by decide)) (args2 W main_arg14 (by decide)) (args2 W main_arg15 (by decide)) (args2 W main_arg16 (by decide)) (args2 W main_arg17 (by decide)) (args2 W main_arg2 (by decide))

/-- The device's contents after the first 4 chunks. -/
def S4 (W : Valuation τ sig (Elt F)) : Valuation τ sig (Elt F) := StableHlo.after ops4 (S3 W)
/-- No chunk writes an argument. -/
theorem args4 (W : Valuation τ sig (Elt F)) (r : Ref sig .tc) (hr : r ∈ argRefs) : S4 W (Proc.devRef .tc r) = W (Proc.devRef .tc r) :=
  (keep4 (S3 W) r (by revert r hr; decide)).trans (args3 W r hr)
theorem S4_v1 (W : Valuation τ sig (Elt F)) : S4 W (Proc.devRef .tc main_v1) = Read.val_main_v1 (F := F) (W (Proc.devRef .tc main_arg1)) :=
  (keep4 (S3 W) main_v1 (by decide)).trans (S3_v1 W)
theorem S4_v3 (W : Valuation τ sig (Elt F)) : S4 W (Proc.devRef .tc main_v3) = Read.val_main_v3 (F := F) (W (Proc.devRef .tc main_arg1)) :=
  (keep4 (S3 W) main_v3 (by decide)).trans (S3_v3 W)
theorem S4_v78 (W : Valuation τ sig (Elt F)) : S4 W (Proc.devRef .tc main_v78) = Read.val_main_v78 (F := F) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg8)) (W (Proc.devRef .tc main_arg9)) (W (Proc.devRef .tc main_arg10)) (W (Proc.devRef .tc main_arg11)) (W (Proc.devRef .tc main_arg12)) (W (Proc.devRef .tc main_arg13)) (W (Proc.devRef .tc main_arg14)) (W (Proc.devRef .tc main_arg15)) (W (Proc.devRef .tc main_arg16)) (W (Proc.devRef .tc main_arg17)) :=
  (keep4 (S3 W) main_v78 (by decide)).trans (S3_v78 W)
theorem S4_v94 (W : Valuation τ sig (Elt F)) : S4 W (Proc.devRef .tc main_v94) = Read.val_main_v94 (F := F) (W (Proc.devRef .tc main_arg0)) (W (Proc.devRef .tc main_arg1)) (W (Proc.devRef .tc main_arg3)) (W (Proc.devRef .tc main_arg4)) (W (Proc.devRef .tc main_arg5)) (W (Proc.devRef .tc main_arg8)) (W (Proc.devRef .tc main_arg9)) (W (Proc.devRef .tc main_arg10)) (W (Proc.devRef .tc main_arg11)) (W (Proc.devRef .tc main_arg12)) (W (Proc.devRef .tc main_arg13)) (W (Proc.devRef .tc main_arg14)) (W (Proc.devRef .tc main_arg15)) (W (Proc.devRef .tc main_arg16)) (W (Proc.devRef .tc main_arg17)) :=
  chunk4_v94 (S3 W) (S3_v1 W) (S3_v75 W) (S3_v3 W) (args3 W main_arg3 (by decide))

/-- The device's contents after the first 5 chunks. -/
def S5 (W : Valuation τ sig (Elt F)) : Valuation τ sig (Elt F) := StableHlo.after ops5 (S4 W)
/-- No chunk writes an argument. -/
theorem args5 (W : Valuation τ sig (Elt F)) (r : Ref sig .tc) (hr : r ∈ argRefs) : S5 W (Proc.devRef .tc r) = W (Proc.devRef .tc r) :=
  (keep5 (S4 W) r (by revert r hr; decide)).trans (args4 W r hr)
theorem S5_v1 (W : Valuation τ sig (Elt F)) : S5 W (Proc.devRef .tc main_v1) = Read.val_main_v1 (F := F) (W (Proc.devRef .tc main_arg1)) :=
  (keep5 (S4 W) main_v1 (by decide)).trans (S4_v1 W)
theorem S5_v3 (W : Valuation τ sig (Elt F)) : S5 W (Proc.devRef .tc main_v3) = Read.val_main_v3 (F := F) (W (Proc.devRef .tc main_arg1)) :=
  (keep5 (S4 W) main_v3 (by decide)).trans (S4_v3 W)
theorem S5_v78 (W : Valuation τ sig (Elt F)) : S5 W (Proc.devRef .tc main_v78) = Read.val_main_v78 (F := F) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg8)) (W (Proc.devRef .tc main_arg9)) (W (Proc.devRef .tc main_arg10)) (W (Proc.devRef .tc main_arg11)) (W (Proc.devRef .tc main_arg12)) (W (Proc.devRef .tc main_arg13)) (W (Proc.devRef .tc main_arg14)) (W (Proc.devRef .tc main_arg15)) (W (Proc.devRef .tc main_arg16)) (W (Proc.devRef .tc main_arg17)) :=
  (keep5 (S4 W) main_v78 (by decide)).trans (S4_v78 W)
theorem S5_v124 (W : Valuation τ sig (Elt F)) : S5 W (Proc.devRef .tc main_v124) = Read.val_main_v124 (F := F) (W (Proc.devRef .tc main_arg0)) (W (Proc.devRef .tc main_arg1)) (W (Proc.devRef .tc main_arg3)) (W (Proc.devRef .tc main_arg4)) (W (Proc.devRef .tc main_arg5)) (W (Proc.devRef .tc main_arg6)) (W (Proc.devRef .tc main_arg7)) (W (Proc.devRef .tc main_arg8)) (W (Proc.devRef .tc main_arg9)) (W (Proc.devRef .tc main_arg10)) (W (Proc.devRef .tc main_arg11)) (W (Proc.devRef .tc main_arg12)) (W (Proc.devRef .tc main_arg13)) (W (Proc.devRef .tc main_arg14)) (W (Proc.devRef .tc main_arg15)) (W (Proc.devRef .tc main_arg16)) (W (Proc.devRef .tc main_arg17)) :=
  chunk5_v124 (S4 W) (args4 W main_arg6 (by decide)) (args4 W main_arg7 (by decide)) (S4_v94 W) (args4 W main_arg8 (by decide)) (args4 W main_arg9 (by decide)) (args4 W main_arg10 (by decide)) (args4 W main_arg11 (by decide))

/-- The device's contents after the first 6 chunks. -/
def S6 (W : Valuation τ sig (Elt F)) : Valuation τ sig (Elt F) := StableHlo.after ops6 (S5 W)
/-- No chunk writes an argument. -/
theorem args6 (W : Valuation τ sig (Elt F)) (r : Ref sig .tc) (hr : r ∈ argRefs) : S6 W (Proc.devRef .tc r) = W (Proc.devRef .tc r) :=
  (keep6 (S5 W) r (by revert r hr; decide)).trans (args5 W r hr)
theorem S6_v1 (W : Valuation τ sig (Elt F)) : S6 W (Proc.devRef .tc main_v1) = Read.val_main_v1 (F := F) (W (Proc.devRef .tc main_arg1)) :=
  (keep6 (S5 W) main_v1 (by decide)).trans (S5_v1 W)
theorem S6_v3 (W : Valuation τ sig (Elt F)) : S6 W (Proc.devRef .tc main_v3) = Read.val_main_v3 (F := F) (W (Proc.devRef .tc main_arg1)) :=
  (keep6 (S5 W) main_v3 (by decide)).trans (S5_v3 W)
theorem S6_v78 (W : Valuation τ sig (Elt F)) : S6 W (Proc.devRef .tc main_v78) = Read.val_main_v78 (F := F) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg8)) (W (Proc.devRef .tc main_arg9)) (W (Proc.devRef .tc main_arg10)) (W (Proc.devRef .tc main_arg11)) (W (Proc.devRef .tc main_arg12)) (W (Proc.devRef .tc main_arg13)) (W (Proc.devRef .tc main_arg14)) (W (Proc.devRef .tc main_arg15)) (W (Proc.devRef .tc main_arg16)) (W (Proc.devRef .tc main_arg17)) :=
  (keep6 (S5 W) main_v78 (by decide)).trans (S5_v78 W)
theorem S6_v154 (W : Valuation τ sig (Elt F)) : S6 W (Proc.devRef .tc main_v154) = Read.val_main_v154 (F := F) (W (Proc.devRef .tc main_arg0)) (W (Proc.devRef .tc main_arg1)) (W (Proc.devRef .tc main_arg3)) (W (Proc.devRef .tc main_arg4)) (W (Proc.devRef .tc main_arg5)) (W (Proc.devRef .tc main_arg6)) (W (Proc.devRef .tc main_arg7)) (W (Proc.devRef .tc main_arg8)) (W (Proc.devRef .tc main_arg9)) (W (Proc.devRef .tc main_arg10)) (W (Proc.devRef .tc main_arg11)) (W (Proc.devRef .tc main_arg12)) (W (Proc.devRef .tc main_arg13)) (W (Proc.devRef .tc main_arg14)) (W (Proc.devRef .tc main_arg15)) (W (Proc.devRef .tc main_arg16)) (W (Proc.devRef .tc main_arg17)) :=
  chunk6_v154 (S5 W) (args5 W main_arg12 (by decide)) (S5_v124 W) (args5 W main_arg13 (by decide)) (args5 W main_arg14 (by decide)) (args5 W main_arg15 (by decide)) (args5 W main_arg16 (by decide)) (args5 W main_arg17 (by decide)) (args5 W main_arg2 (by decide))
theorem S6_v157 (W : Valuation τ sig (Elt F)) : S6 W (Proc.devRef .tc main_v157) = Read.val_main_v157 (F := F) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8)) (W (Proc.devRef .tc main_arg9)) (W (Proc.devRef .tc main_arg10)) (W (Proc.devRef .tc main_arg11)) (W (Proc.devRef .tc main_arg12)) (W (Proc.devRef .tc main_arg13)) (W (Proc.devRef .tc main_arg14)) (W (Proc.devRef .tc main_arg15)) (W (Proc.devRef .tc main_arg16)) (W (Proc.devRef .tc main_arg17)) :=
  chunk6_v157 (S5 W) (args5 W main_arg12 (by decide)) (S5_v124 W) (args5 W main_arg13 (by decide)) (args5 W main_arg14 (by decide)) (args5 W main_arg15 (by decide)) (args5 W main_arg16 (by decide)) (args5 W main_arg17 (by decide)) (args5 W main_arg2 (by decide))

/-- The device's contents after the first 7 chunks. -/
def S7 (W : Valuation τ sig (Elt F)) : Valuation τ sig (Elt F) := StableHlo.after ops7 (S6 W)
/-- No chunk writes an argument. -/
theorem args7 (W : Valuation τ sig (Elt F)) (r : Ref sig .tc) (hr : r ∈ argRefs) : S7 W (Proc.devRef .tc r) = W (Proc.devRef .tc r) :=
  (keep7 (S6 W) r (by revert r hr; decide)).trans (args6 W r hr)
theorem S7_v1 (W : Valuation τ sig (Elt F)) : S7 W (Proc.devRef .tc main_v1) = Read.val_main_v1 (F := F) (W (Proc.devRef .tc main_arg1)) :=
  (keep7 (S6 W) main_v1 (by decide)).trans (S6_v1 W)
theorem S7_v3 (W : Valuation τ sig (Elt F)) : S7 W (Proc.devRef .tc main_v3) = Read.val_main_v3 (F := F) (W (Proc.devRef .tc main_arg1)) :=
  (keep7 (S6 W) main_v3 (by decide)).trans (S6_v3 W)
theorem S7_v78 (W : Valuation τ sig (Elt F)) : S7 W (Proc.devRef .tc main_v78) = Read.val_main_v78 (F := F) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg8)) (W (Proc.devRef .tc main_arg9)) (W (Proc.devRef .tc main_arg10)) (W (Proc.devRef .tc main_arg11)) (W (Proc.devRef .tc main_arg12)) (W (Proc.devRef .tc main_arg13)) (W (Proc.devRef .tc main_arg14)) (W (Proc.devRef .tc main_arg15)) (W (Proc.devRef .tc main_arg16)) (W (Proc.devRef .tc main_arg17)) :=
  (keep7 (S6 W) main_v78 (by decide)).trans (S6_v78 W)
theorem S7_v157 (W : Valuation τ sig (Elt F)) : S7 W (Proc.devRef .tc main_v157) = Read.val_main_v157 (F := F) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8)) (W (Proc.devRef .tc main_arg9)) (W (Proc.devRef .tc main_arg10)) (W (Proc.devRef .tc main_arg11)) (W (Proc.devRef .tc main_arg12)) (W (Proc.devRef .tc main_arg13)) (W (Proc.devRef .tc main_arg14)) (W (Proc.devRef .tc main_arg15)) (W (Proc.devRef .tc main_arg16)) (W (Proc.devRef .tc main_arg17)) :=
  (keep7 (S6 W) main_v157 (by decide)).trans (S6_v157 W)
theorem S7_v173 (W : Valuation τ sig (Elt F)) : S7 W (Proc.devRef .tc main_v173) = Read.val_main_v173 (F := F) (W (Proc.devRef .tc main_arg0)) (W (Proc.devRef .tc main_arg1)) (W (Proc.devRef .tc main_arg3)) (W (Proc.devRef .tc main_arg4)) (W (Proc.devRef .tc main_arg5)) (W (Proc.devRef .tc main_arg6)) (W (Proc.devRef .tc main_arg7)) (W (Proc.devRef .tc main_arg8)) (W (Proc.devRef .tc main_arg9)) (W (Proc.devRef .tc main_arg10)) (W (Proc.devRef .tc main_arg11)) (W (Proc.devRef .tc main_arg12)) (W (Proc.devRef .tc main_arg13)) (W (Proc.devRef .tc main_arg14)) (W (Proc.devRef .tc main_arg15)) (W (Proc.devRef .tc main_arg16)) (W (Proc.devRef .tc main_arg17)) :=
  chunk7_v173 (S6 W) (S6_v1 W) (S6_v154 W) (S6_v3 W) (args6 W main_arg3 (by decide))

/-- The device's contents after the first 8 chunks. -/
def S8 (W : Valuation τ sig (Elt F)) : Valuation τ sig (Elt F) := StableHlo.after ops8 (S7 W)
/-- No chunk writes an argument. -/
theorem args8 (W : Valuation τ sig (Elt F)) (r : Ref sig .tc) (hr : r ∈ argRefs) : S8 W (Proc.devRef .tc r) = W (Proc.devRef .tc r) :=
  (keep8 (S7 W) r (by revert r hr; decide)).trans (args7 W r hr)
theorem S8_v1 (W : Valuation τ sig (Elt F)) : S8 W (Proc.devRef .tc main_v1) = Read.val_main_v1 (F := F) (W (Proc.devRef .tc main_arg1)) :=
  (keep8 (S7 W) main_v1 (by decide)).trans (S7_v1 W)
theorem S8_v3 (W : Valuation τ sig (Elt F)) : S8 W (Proc.devRef .tc main_v3) = Read.val_main_v3 (F := F) (W (Proc.devRef .tc main_arg1)) :=
  (keep8 (S7 W) main_v3 (by decide)).trans (S7_v3 W)
theorem S8_v78 (W : Valuation τ sig (Elt F)) : S8 W (Proc.devRef .tc main_v78) = Read.val_main_v78 (F := F) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg8)) (W (Proc.devRef .tc main_arg9)) (W (Proc.devRef .tc main_arg10)) (W (Proc.devRef .tc main_arg11)) (W (Proc.devRef .tc main_arg12)) (W (Proc.devRef .tc main_arg13)) (W (Proc.devRef .tc main_arg14)) (W (Proc.devRef .tc main_arg15)) (W (Proc.devRef .tc main_arg16)) (W (Proc.devRef .tc main_arg17)) :=
  (keep8 (S7 W) main_v78 (by decide)).trans (S7_v78 W)
theorem S8_v157 (W : Valuation τ sig (Elt F)) : S8 W (Proc.devRef .tc main_v157) = Read.val_main_v157 (F := F) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8)) (W (Proc.devRef .tc main_arg9)) (W (Proc.devRef .tc main_arg10)) (W (Proc.devRef .tc main_arg11)) (W (Proc.devRef .tc main_arg12)) (W (Proc.devRef .tc main_arg13)) (W (Proc.devRef .tc main_arg14)) (W (Proc.devRef .tc main_arg15)) (W (Proc.devRef .tc main_arg16)) (W (Proc.devRef .tc main_arg17)) :=
  (keep8 (S7 W) main_v157 (by decide)).trans (S7_v157 W)
theorem S8_v203 (W : Valuation τ sig (Elt F)) : S8 W (Proc.devRef .tc main_v203) = Read.val_main_v203 (F := F) (W (Proc.devRef .tc main_arg0)) (W (Proc.devRef .tc main_arg1)) (W (Proc.devRef .tc main_arg3)) (W (Proc.devRef .tc main_arg4)) (W (Proc.devRef .tc main_arg5)) (W (Proc.devRef .tc main_arg6)) (W (Proc.devRef .tc main_arg7)) (W (Proc.devRef .tc main_arg8)) (W (Proc.devRef .tc main_arg9)) (W (Proc.devRef .tc main_arg10)) (W (Proc.devRef .tc main_arg11)) (W (Proc.devRef .tc main_arg12)) (W (Proc.devRef .tc main_arg13)) (W (Proc.devRef .tc main_arg14)) (W (Proc.devRef .tc main_arg15)) (W (Proc.devRef .tc main_arg16)) (W (Proc.devRef .tc main_arg17)) :=
  chunk8_v203 (S7 W) (args7 W main_arg6 (by decide)) (args7 W main_arg7 (by decide)) (S7_v173 W) (args7 W main_arg8 (by decide)) (args7 W main_arg9 (by decide)) (args7 W main_arg10 (by decide)) (args7 W main_arg11 (by decide))

/-- The device's contents after the first 9 chunks. -/
def S9 (W : Valuation τ sig (Elt F)) : Valuation τ sig (Elt F) := StableHlo.after ops9 (S8 W)
/-- No chunk writes an argument. -/
theorem args9 (W : Valuation τ sig (Elt F)) (r : Ref sig .tc) (hr : r ∈ argRefs) : S9 W (Proc.devRef .tc r) = W (Proc.devRef .tc r) :=
  (keep9 (S8 W) r (by revert r hr; decide)).trans (args8 W r hr)
theorem S9_v1 (W : Valuation τ sig (Elt F)) : S9 W (Proc.devRef .tc main_v1) = Read.val_main_v1 (F := F) (W (Proc.devRef .tc main_arg1)) :=
  (keep9 (S8 W) main_v1 (by decide)).trans (S8_v1 W)
theorem S9_v3 (W : Valuation τ sig (Elt F)) : S9 W (Proc.devRef .tc main_v3) = Read.val_main_v3 (F := F) (W (Proc.devRef .tc main_arg1)) :=
  (keep9 (S8 W) main_v3 (by decide)).trans (S8_v3 W)
theorem S9_v78 (W : Valuation τ sig (Elt F)) : S9 W (Proc.devRef .tc main_v78) = Read.val_main_v78 (F := F) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg8)) (W (Proc.devRef .tc main_arg9)) (W (Proc.devRef .tc main_arg10)) (W (Proc.devRef .tc main_arg11)) (W (Proc.devRef .tc main_arg12)) (W (Proc.devRef .tc main_arg13)) (W (Proc.devRef .tc main_arg14)) (W (Proc.devRef .tc main_arg15)) (W (Proc.devRef .tc main_arg16)) (W (Proc.devRef .tc main_arg17)) :=
  (keep9 (S8 W) main_v78 (by decide)).trans (S8_v78 W)
theorem S9_v157 (W : Valuation τ sig (Elt F)) : S9 W (Proc.devRef .tc main_v157) = Read.val_main_v157 (F := F) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8)) (W (Proc.devRef .tc main_arg9)) (W (Proc.devRef .tc main_arg10)) (W (Proc.devRef .tc main_arg11)) (W (Proc.devRef .tc main_arg12)) (W (Proc.devRef .tc main_arg13)) (W (Proc.devRef .tc main_arg14)) (W (Proc.devRef .tc main_arg15)) (W (Proc.devRef .tc main_arg16)) (W (Proc.devRef .tc main_arg17)) :=
  (keep9 (S8 W) main_v157 (by decide)).trans (S8_v157 W)
theorem S9_v233 (W : Valuation τ sig (Elt F)) : S9 W (Proc.devRef .tc main_v233) = Read.val_main_v233 (F := F) (W (Proc.devRef .tc main_arg0)) (W (Proc.devRef .tc main_arg1)) (W (Proc.devRef .tc main_arg3)) (W (Proc.devRef .tc main_arg4)) (W (Proc.devRef .tc main_arg5)) (W (Proc.devRef .tc main_arg6)) (W (Proc.devRef .tc main_arg7)) (W (Proc.devRef .tc main_arg8)) (W (Proc.devRef .tc main_arg9)) (W (Proc.devRef .tc main_arg10)) (W (Proc.devRef .tc main_arg11)) (W (Proc.devRef .tc main_arg12)) (W (Proc.devRef .tc main_arg13)) (W (Proc.devRef .tc main_arg14)) (W (Proc.devRef .tc main_arg15)) (W (Proc.devRef .tc main_arg16)) (W (Proc.devRef .tc main_arg17)) :=
  chunk9_v233 (S8 W) (args8 W main_arg12 (by decide)) (S8_v203 W) (args8 W main_arg13 (by decide)) (args8 W main_arg14 (by decide)) (args8 W main_arg15 (by decide)) (args8 W main_arg16 (by decide)) (args8 W main_arg17 (by decide)) (args8 W main_arg2 (by decide))
theorem S9_v236 (W : Valuation τ sig (Elt F)) : S9 W (Proc.devRef .tc main_v236) = Read.val_main_v236 (F := F) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8)) (W (Proc.devRef .tc main_arg9)) (W (Proc.devRef .tc main_arg10)) (W (Proc.devRef .tc main_arg11)) (W (Proc.devRef .tc main_arg12)) (W (Proc.devRef .tc main_arg13)) (W (Proc.devRef .tc main_arg14)) (W (Proc.devRef .tc main_arg15)) (W (Proc.devRef .tc main_arg16)) (W (Proc.devRef .tc main_arg17)) :=
  chunk9_v236 (S8 W) (args8 W main_arg12 (by decide)) (S8_v203 W) (args8 W main_arg13 (by decide)) (args8 W main_arg14 (by decide)) (args8 W main_arg15 (by decide)) (args8 W main_arg16 (by decide)) (args8 W main_arg17 (by decide)) (args8 W main_arg2 (by decide))

/-- The device's contents after the first 10 chunks. -/
def S10 (W : Valuation τ sig (Elt F)) : Valuation τ sig (Elt F) := StableHlo.after ops10 (S9 W)
/-- No chunk writes an argument. -/
theorem args10 (W : Valuation τ sig (Elt F)) (r : Ref sig .tc) (hr : r ∈ argRefs) : S10 W (Proc.devRef .tc r) = W (Proc.devRef .tc r) :=
  (keep10 (S9 W) r (by revert r hr; decide)).trans (args9 W r hr)
theorem S10_v1 (W : Valuation τ sig (Elt F)) : S10 W (Proc.devRef .tc main_v1) = Read.val_main_v1 (F := F) (W (Proc.devRef .tc main_arg1)) :=
  (keep10 (S9 W) main_v1 (by decide)).trans (S9_v1 W)
theorem S10_v3 (W : Valuation τ sig (Elt F)) : S10 W (Proc.devRef .tc main_v3) = Read.val_main_v3 (F := F) (W (Proc.devRef .tc main_arg1)) :=
  (keep10 (S9 W) main_v3 (by decide)).trans (S9_v3 W)
theorem S10_v78 (W : Valuation τ sig (Elt F)) : S10 W (Proc.devRef .tc main_v78) = Read.val_main_v78 (F := F) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg8)) (W (Proc.devRef .tc main_arg9)) (W (Proc.devRef .tc main_arg10)) (W (Proc.devRef .tc main_arg11)) (W (Proc.devRef .tc main_arg12)) (W (Proc.devRef .tc main_arg13)) (W (Proc.devRef .tc main_arg14)) (W (Proc.devRef .tc main_arg15)) (W (Proc.devRef .tc main_arg16)) (W (Proc.devRef .tc main_arg17)) :=
  (keep10 (S9 W) main_v78 (by decide)).trans (S9_v78 W)
theorem S10_v157 (W : Valuation τ sig (Elt F)) : S10 W (Proc.devRef .tc main_v157) = Read.val_main_v157 (F := F) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8)) (W (Proc.devRef .tc main_arg9)) (W (Proc.devRef .tc main_arg10)) (W (Proc.devRef .tc main_arg11)) (W (Proc.devRef .tc main_arg12)) (W (Proc.devRef .tc main_arg13)) (W (Proc.devRef .tc main_arg14)) (W (Proc.devRef .tc main_arg15)) (W (Proc.devRef .tc main_arg16)) (W (Proc.devRef .tc main_arg17)) :=
  (keep10 (S9 W) main_v157 (by decide)).trans (S9_v157 W)
theorem S10_v236 (W : Valuation τ sig (Elt F)) : S10 W (Proc.devRef .tc main_v236) = Read.val_main_v236 (F := F) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8)) (W (Proc.devRef .tc main_arg9)) (W (Proc.devRef .tc main_arg10)) (W (Proc.devRef .tc main_arg11)) (W (Proc.devRef .tc main_arg12)) (W (Proc.devRef .tc main_arg13)) (W (Proc.devRef .tc main_arg14)) (W (Proc.devRef .tc main_arg15)) (W (Proc.devRef .tc main_arg16)) (W (Proc.devRef .tc main_arg17)) :=
  (keep10 (S9 W) main_v236 (by decide)).trans (S9_v236 W)
theorem S10_v252 (W : Valuation τ sig (Elt F)) : S10 W (Proc.devRef .tc main_v252) = Read.val_main_v252 (F := F) (W (Proc.devRef .tc main_arg0)) (W (Proc.devRef .tc main_arg1)) (W (Proc.devRef .tc main_arg3)) (W (Proc.devRef .tc main_arg4)) (W (Proc.devRef .tc main_arg5)) (W (Proc.devRef .tc main_arg6)) (W (Proc.devRef .tc main_arg7)) (W (Proc.devRef .tc main_arg8)) (W (Proc.devRef .tc main_arg9)) (W (Proc.devRef .tc main_arg10)) (W (Proc.devRef .tc main_arg11)) (W (Proc.devRef .tc main_arg12)) (W (Proc.devRef .tc main_arg13)) (W (Proc.devRef .tc main_arg14)) (W (Proc.devRef .tc main_arg15)) (W (Proc.devRef .tc main_arg16)) (W (Proc.devRef .tc main_arg17)) :=
  chunk10_v252 (S9 W) (S9_v1 W) (S9_v233 W) (S9_v3 W) (args9 W main_arg3 (by decide))

/-- The device's contents after the first 11 chunks. -/
def S11 (W : Valuation τ sig (Elt F)) : Valuation τ sig (Elt F) := StableHlo.after ops11 (S10 W)
/-- No chunk writes an argument. -/
theorem args11 (W : Valuation τ sig (Elt F)) (r : Ref sig .tc) (hr : r ∈ argRefs) : S11 W (Proc.devRef .tc r) = W (Proc.devRef .tc r) :=
  (keep11 (S10 W) r (by revert r hr; decide)).trans (args10 W r hr)
theorem S11_v1 (W : Valuation τ sig (Elt F)) : S11 W (Proc.devRef .tc main_v1) = Read.val_main_v1 (F := F) (W (Proc.devRef .tc main_arg1)) :=
  (keep11 (S10 W) main_v1 (by decide)).trans (S10_v1 W)
theorem S11_v3 (W : Valuation τ sig (Elt F)) : S11 W (Proc.devRef .tc main_v3) = Read.val_main_v3 (F := F) (W (Proc.devRef .tc main_arg1)) :=
  (keep11 (S10 W) main_v3 (by decide)).trans (S10_v3 W)
theorem S11_v78 (W : Valuation τ sig (Elt F)) : S11 W (Proc.devRef .tc main_v78) = Read.val_main_v78 (F := F) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg8)) (W (Proc.devRef .tc main_arg9)) (W (Proc.devRef .tc main_arg10)) (W (Proc.devRef .tc main_arg11)) (W (Proc.devRef .tc main_arg12)) (W (Proc.devRef .tc main_arg13)) (W (Proc.devRef .tc main_arg14)) (W (Proc.devRef .tc main_arg15)) (W (Proc.devRef .tc main_arg16)) (W (Proc.devRef .tc main_arg17)) :=
  (keep11 (S10 W) main_v78 (by decide)).trans (S10_v78 W)
theorem S11_v157 (W : Valuation τ sig (Elt F)) : S11 W (Proc.devRef .tc main_v157) = Read.val_main_v157 (F := F) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8)) (W (Proc.devRef .tc main_arg9)) (W (Proc.devRef .tc main_arg10)) (W (Proc.devRef .tc main_arg11)) (W (Proc.devRef .tc main_arg12)) (W (Proc.devRef .tc main_arg13)) (W (Proc.devRef .tc main_arg14)) (W (Proc.devRef .tc main_arg15)) (W (Proc.devRef .tc main_arg16)) (W (Proc.devRef .tc main_arg17)) :=
  (keep11 (S10 W) main_v157 (by decide)).trans (S10_v157 W)
theorem S11_v236 (W : Valuation τ sig (Elt F)) : S11 W (Proc.devRef .tc main_v236) = Read.val_main_v236 (F := F) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8)) (W (Proc.devRef .tc main_arg9)) (W (Proc.devRef .tc main_arg10)) (W (Proc.devRef .tc main_arg11)) (W (Proc.devRef .tc main_arg12)) (W (Proc.devRef .tc main_arg13)) (W (Proc.devRef .tc main_arg14)) (W (Proc.devRef .tc main_arg15)) (W (Proc.devRef .tc main_arg16)) (W (Proc.devRef .tc main_arg17)) :=
  (keep11 (S10 W) main_v236 (by decide)).trans (S10_v236 W)
theorem S11_v282 (W : Valuation τ sig (Elt F)) : S11 W (Proc.devRef .tc main_v282) = Read.val_main_v282 (F := F) (W (Proc.devRef .tc main_arg0)) (W (Proc.devRef .tc main_arg1)) (W (Proc.devRef .tc main_arg3)) (W (Proc.devRef .tc main_arg4)) (W (Proc.devRef .tc main_arg5)) (W (Proc.devRef .tc main_arg6)) (W (Proc.devRef .tc main_arg7)) (W (Proc.devRef .tc main_arg8)) (W (Proc.devRef .tc main_arg9)) (W (Proc.devRef .tc main_arg10)) (W (Proc.devRef .tc main_arg11)) (W (Proc.devRef .tc main_arg12)) (W (Proc.devRef .tc main_arg13)) (W (Proc.devRef .tc main_arg14)) (W (Proc.devRef .tc main_arg15)) (W (Proc.devRef .tc main_arg16)) (W (Proc.devRef .tc main_arg17)) :=
  chunk11_v282 (S10 W) (args10 W main_arg6 (by decide)) (args10 W main_arg7 (by decide)) (S10_v252 W) (args10 W main_arg8 (by decide)) (args10 W main_arg9 (by decide)) (args10 W main_arg10 (by decide)) (args10 W main_arg11 (by decide))

/-- The device's contents after the first 12 chunks. -/
def S12 (W : Valuation τ sig (Elt F)) : Valuation τ sig (Elt F) := StableHlo.after ops12 (S11 W)
/-- No chunk writes an argument. -/
theorem args12 (W : Valuation τ sig (Elt F)) (r : Ref sig .tc) (hr : r ∈ argRefs) : S12 W (Proc.devRef .tc r) = W (Proc.devRef .tc r) :=
  (keep12 (S11 W) r (by revert r hr; decide)).trans (args11 W r hr)
theorem S12_v1 (W : Valuation τ sig (Elt F)) : S12 W (Proc.devRef .tc main_v1) = Read.val_main_v1 (F := F) (W (Proc.devRef .tc main_arg1)) :=
  (keep12 (S11 W) main_v1 (by decide)).trans (S11_v1 W)
theorem S12_v3 (W : Valuation τ sig (Elt F)) : S12 W (Proc.devRef .tc main_v3) = Read.val_main_v3 (F := F) (W (Proc.devRef .tc main_arg1)) :=
  (keep12 (S11 W) main_v3 (by decide)).trans (S11_v3 W)
theorem S12_v78 (W : Valuation τ sig (Elt F)) : S12 W (Proc.devRef .tc main_v78) = Read.val_main_v78 (F := F) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg8)) (W (Proc.devRef .tc main_arg9)) (W (Proc.devRef .tc main_arg10)) (W (Proc.devRef .tc main_arg11)) (W (Proc.devRef .tc main_arg12)) (W (Proc.devRef .tc main_arg13)) (W (Proc.devRef .tc main_arg14)) (W (Proc.devRef .tc main_arg15)) (W (Proc.devRef .tc main_arg16)) (W (Proc.devRef .tc main_arg17)) :=
  (keep12 (S11 W) main_v78 (by decide)).trans (S11_v78 W)
theorem S12_v157 (W : Valuation τ sig (Elt F)) : S12 W (Proc.devRef .tc main_v157) = Read.val_main_v157 (F := F) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8)) (W (Proc.devRef .tc main_arg9)) (W (Proc.devRef .tc main_arg10)) (W (Proc.devRef .tc main_arg11)) (W (Proc.devRef .tc main_arg12)) (W (Proc.devRef .tc main_arg13)) (W (Proc.devRef .tc main_arg14)) (W (Proc.devRef .tc main_arg15)) (W (Proc.devRef .tc main_arg16)) (W (Proc.devRef .tc main_arg17)) :=
  (keep12 (S11 W) main_v157 (by decide)).trans (S11_v157 W)
theorem S12_v236 (W : Valuation τ sig (Elt F)) : S12 W (Proc.devRef .tc main_v236) = Read.val_main_v236 (F := F) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8)) (W (Proc.devRef .tc main_arg9)) (W (Proc.devRef .tc main_arg10)) (W (Proc.devRef .tc main_arg11)) (W (Proc.devRef .tc main_arg12)) (W (Proc.devRef .tc main_arg13)) (W (Proc.devRef .tc main_arg14)) (W (Proc.devRef .tc main_arg15)) (W (Proc.devRef .tc main_arg16)) (W (Proc.devRef .tc main_arg17)) :=
  (keep12 (S11 W) main_v236 (by decide)).trans (S11_v236 W)
theorem S12_v312 (W : Valuation τ sig (Elt F)) : S12 W (Proc.devRef .tc main_v312) = Read.val_main_v312 (F := F) (W (Proc.devRef .tc main_arg0)) (W (Proc.devRef .tc main_arg1)) (W (Proc.devRef .tc main_arg3)) (W (Proc.devRef .tc main_arg4)) (W (Proc.devRef .tc main_arg5)) (W (Proc.devRef .tc main_arg6)) (W (Proc.devRef .tc main_arg7)) (W (Proc.devRef .tc main_arg8)) (W (Proc.devRef .tc main_arg9)) (W (Proc.devRef .tc main_arg10)) (W (Proc.devRef .tc main_arg11)) (W (Proc.devRef .tc main_arg12)) (W (Proc.devRef .tc main_arg13)) (W (Proc.devRef .tc main_arg14)) (W (Proc.devRef .tc main_arg15)) (W (Proc.devRef .tc main_arg16)) (W (Proc.devRef .tc main_arg17)) :=
  chunk12_v312 (S11 W) (args11 W main_arg12 (by decide)) (S11_v282 W) (args11 W main_arg13 (by decide)) (args11 W main_arg14 (by decide)) (args11 W main_arg15 (by decide)) (args11 W main_arg16 (by decide)) (args11 W main_arg17 (by decide)) (args11 W main_arg2 (by decide))
theorem S12_v315 (W : Valuation τ sig (Elt F)) : S12 W (Proc.devRef .tc main_v315) = Read.val_main_v315 (F := F) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8)) (W (Proc.devRef .tc main_arg9)) (W (Proc.devRef .tc main_arg10)) (W (Proc.devRef .tc main_arg11)) (W (Proc.devRef .tc main_arg12)) (W (Proc.devRef .tc main_arg13)) (W (Proc.devRef .tc main_arg14)) (W (Proc.devRef .tc main_arg15)) (W (Proc.devRef .tc main_arg16)) (W (Proc.devRef .tc main_arg17)) :=
  chunk12_v315 (S11 W) (args11 W main_arg12 (by decide)) (S11_v282 W) (args11 W main_arg13 (by decide)) (args11 W main_arg14 (by decide)) (args11 W main_arg15 (by decide)) (args11 W main_arg16 (by decide)) (args11 W main_arg17 (by decide)) (args11 W main_arg2 (by decide))

/-- The device's contents after the first 13 chunks. -/
def S13 (W : Valuation τ sig (Elt F)) : Valuation τ sig (Elt F) := StableHlo.after ops13 (S12 W)
/-- No chunk writes an argument. -/
theorem args13 (W : Valuation τ sig (Elt F)) (r : Ref sig .tc) (hr : r ∈ argRefs) : S13 W (Proc.devRef .tc r) = W (Proc.devRef .tc r) :=
  (keep13 (S12 W) r (by revert r hr; decide)).trans (args12 W r hr)
theorem S13_v78 (W : Valuation τ sig (Elt F)) : S13 W (Proc.devRef .tc main_v78) = Read.val_main_v78 (F := F) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg8)) (W (Proc.devRef .tc main_arg9)) (W (Proc.devRef .tc main_arg10)) (W (Proc.devRef .tc main_arg11)) (W (Proc.devRef .tc main_arg12)) (W (Proc.devRef .tc main_arg13)) (W (Proc.devRef .tc main_arg14)) (W (Proc.devRef .tc main_arg15)) (W (Proc.devRef .tc main_arg16)) (W (Proc.devRef .tc main_arg17)) :=
  (keep13 (S12 W) main_v78 (by decide)).trans (S12_v78 W)
theorem S13_v157 (W : Valuation τ sig (Elt F)) : S13 W (Proc.devRef .tc main_v157) = Read.val_main_v157 (F := F) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8)) (W (Proc.devRef .tc main_arg9)) (W (Proc.devRef .tc main_arg10)) (W (Proc.devRef .tc main_arg11)) (W (Proc.devRef .tc main_arg12)) (W (Proc.devRef .tc main_arg13)) (W (Proc.devRef .tc main_arg14)) (W (Proc.devRef .tc main_arg15)) (W (Proc.devRef .tc main_arg16)) (W (Proc.devRef .tc main_arg17)) :=
  (keep13 (S12 W) main_v157 (by decide)).trans (S12_v157 W)
theorem S13_v236 (W : Valuation τ sig (Elt F)) : S13 W (Proc.devRef .tc main_v236) = Read.val_main_v236 (F := F) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8)) (W (Proc.devRef .tc main_arg9)) (W (Proc.devRef .tc main_arg10)) (W (Proc.devRef .tc main_arg11)) (W (Proc.devRef .tc main_arg12)) (W (Proc.devRef .tc main_arg13)) (W (Proc.devRef .tc main_arg14)) (W (Proc.devRef .tc main_arg15)) (W (Proc.devRef .tc main_arg16)) (W (Proc.devRef .tc main_arg17)) :=
  (keep13 (S12 W) main_v236 (by decide)).trans (S12_v236 W)
theorem S13_v315 (W : Valuation τ sig (Elt F)) : S13 W (Proc.devRef .tc main_v315) = Read.val_main_v315 (F := F) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8)) (W (Proc.devRef .tc main_arg9)) (W (Proc.devRef .tc main_arg10)) (W (Proc.devRef .tc main_arg11)) (W (Proc.devRef .tc main_arg12)) (W (Proc.devRef .tc main_arg13)) (W (Proc.devRef .tc main_arg14)) (W (Proc.devRef .tc main_arg15)) (W (Proc.devRef .tc main_arg16)) (W (Proc.devRef .tc main_arg17)) :=
  (keep13 (S12 W) main_v315 (by decide)).trans (S12_v315 W)
theorem S13_v331 (W : Valuation τ sig (Elt F)) : S13 W (Proc.devRef .tc main_v331) = Read.val_main_v331 (F := F) (W (Proc.devRef .tc main_arg0)) (W (Proc.devRef .tc main_arg1)) (W (Proc.devRef .tc main_arg3)) (W (Proc.devRef .tc main_arg4)) (W (Proc.devRef .tc main_arg5)) (W (Proc.devRef .tc main_arg6)) (W (Proc.devRef .tc main_arg7)) (W (Proc.devRef .tc main_arg8)) (W (Proc.devRef .tc main_arg9)) (W (Proc.devRef .tc main_arg10)) (W (Proc.devRef .tc main_arg11)) (W (Proc.devRef .tc main_arg12)) (W (Proc.devRef .tc main_arg13)) (W (Proc.devRef .tc main_arg14)) (W (Proc.devRef .tc main_arg15)) (W (Proc.devRef .tc main_arg16)) (W (Proc.devRef .tc main_arg17)) :=
  chunk13_v331 (S12 W) (S12_v1 W) (S12_v312 W) (S12_v3 W) (args12 W main_arg3 (by decide))

/-- The device's contents after the first 14 chunks. -/
def S14 (W : Valuation τ sig (Elt F)) : Valuation τ sig (Elt F) := StableHlo.after ops14 (S13 W)
/-- No chunk writes an argument. -/
theorem args14 (W : Valuation τ sig (Elt F)) (r : Ref sig .tc) (hr : r ∈ argRefs) : S14 W (Proc.devRef .tc r) = W (Proc.devRef .tc r) :=
  (keep14 (S13 W) r (by revert r hr; decide)).trans (args13 W r hr)
theorem S14_v78 (W : Valuation τ sig (Elt F)) : S14 W (Proc.devRef .tc main_v78) = Read.val_main_v78 (F := F) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg8)) (W (Proc.devRef .tc main_arg9)) (W (Proc.devRef .tc main_arg10)) (W (Proc.devRef .tc main_arg11)) (W (Proc.devRef .tc main_arg12)) (W (Proc.devRef .tc main_arg13)) (W (Proc.devRef .tc main_arg14)) (W (Proc.devRef .tc main_arg15)) (W (Proc.devRef .tc main_arg16)) (W (Proc.devRef .tc main_arg17)) :=
  (keep14 (S13 W) main_v78 (by decide)).trans (S13_v78 W)
theorem S14_v157 (W : Valuation τ sig (Elt F)) : S14 W (Proc.devRef .tc main_v157) = Read.val_main_v157 (F := F) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8)) (W (Proc.devRef .tc main_arg9)) (W (Proc.devRef .tc main_arg10)) (W (Proc.devRef .tc main_arg11)) (W (Proc.devRef .tc main_arg12)) (W (Proc.devRef .tc main_arg13)) (W (Proc.devRef .tc main_arg14)) (W (Proc.devRef .tc main_arg15)) (W (Proc.devRef .tc main_arg16)) (W (Proc.devRef .tc main_arg17)) :=
  (keep14 (S13 W) main_v157 (by decide)).trans (S13_v157 W)
theorem S14_v236 (W : Valuation τ sig (Elt F)) : S14 W (Proc.devRef .tc main_v236) = Read.val_main_v236 (F := F) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8)) (W (Proc.devRef .tc main_arg9)) (W (Proc.devRef .tc main_arg10)) (W (Proc.devRef .tc main_arg11)) (W (Proc.devRef .tc main_arg12)) (W (Proc.devRef .tc main_arg13)) (W (Proc.devRef .tc main_arg14)) (W (Proc.devRef .tc main_arg15)) (W (Proc.devRef .tc main_arg16)) (W (Proc.devRef .tc main_arg17)) :=
  (keep14 (S13 W) main_v236 (by decide)).trans (S13_v236 W)
theorem S14_v315 (W : Valuation τ sig (Elt F)) : S14 W (Proc.devRef .tc main_v315) = Read.val_main_v315 (F := F) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8)) (W (Proc.devRef .tc main_arg9)) (W (Proc.devRef .tc main_arg10)) (W (Proc.devRef .tc main_arg11)) (W (Proc.devRef .tc main_arg12)) (W (Proc.devRef .tc main_arg13)) (W (Proc.devRef .tc main_arg14)) (W (Proc.devRef .tc main_arg15)) (W (Proc.devRef .tc main_arg16)) (W (Proc.devRef .tc main_arg17)) :=
  (keep14 (S13 W) main_v315 (by decide)).trans (S13_v315 W)
theorem S14_v361 (W : Valuation τ sig (Elt F)) : S14 W (Proc.devRef .tc main_v361) = Read.val_main_v361 (F := F) (W (Proc.devRef .tc main_arg0)) (W (Proc.devRef .tc main_arg1)) (W (Proc.devRef .tc main_arg3)) (W (Proc.devRef .tc main_arg4)) (W (Proc.devRef .tc main_arg5)) (W (Proc.devRef .tc main_arg6)) (W (Proc.devRef .tc main_arg7)) (W (Proc.devRef .tc main_arg8)) (W (Proc.devRef .tc main_arg9)) (W (Proc.devRef .tc main_arg10)) (W (Proc.devRef .tc main_arg11)) (W (Proc.devRef .tc main_arg12)) (W (Proc.devRef .tc main_arg13)) (W (Proc.devRef .tc main_arg14)) (W (Proc.devRef .tc main_arg15)) (W (Proc.devRef .tc main_arg16)) (W (Proc.devRef .tc main_arg17)) :=
  chunk14_v361 (S13 W) (args13 W main_arg6 (by decide)) (args13 W main_arg7 (by decide)) (S13_v331 W) (args13 W main_arg8 (by decide)) (args13 W main_arg9 (by decide)) (args13 W main_arg10 (by decide)) (args13 W main_arg11 (by decide))

/-- The device's contents after the first 15 chunks. -/
def S15 (W : Valuation τ sig (Elt F)) : Valuation τ sig (Elt F) := StableHlo.after ops15 (S14 W)
/-- No chunk writes an argument. -/
theorem args15 (W : Valuation τ sig (Elt F)) (r : Ref sig .tc) (hr : r ∈ argRefs) : S15 W (Proc.devRef .tc r) = W (Proc.devRef .tc r) :=
  (keep15 (S14 W) r (by revert r hr; decide)).trans (args14 W r hr)
theorem S15_v78 (W : Valuation τ sig (Elt F)) : S15 W (Proc.devRef .tc main_v78) = Read.val_main_v78 (F := F) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg8)) (W (Proc.devRef .tc main_arg9)) (W (Proc.devRef .tc main_arg10)) (W (Proc.devRef .tc main_arg11)) (W (Proc.devRef .tc main_arg12)) (W (Proc.devRef .tc main_arg13)) (W (Proc.devRef .tc main_arg14)) (W (Proc.devRef .tc main_arg15)) (W (Proc.devRef .tc main_arg16)) (W (Proc.devRef .tc main_arg17)) :=
  (keep15 (S14 W) main_v78 (by decide)).trans (S14_v78 W)
theorem S15_v157 (W : Valuation τ sig (Elt F)) : S15 W (Proc.devRef .tc main_v157) = Read.val_main_v157 (F := F) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8)) (W (Proc.devRef .tc main_arg9)) (W (Proc.devRef .tc main_arg10)) (W (Proc.devRef .tc main_arg11)) (W (Proc.devRef .tc main_arg12)) (W (Proc.devRef .tc main_arg13)) (W (Proc.devRef .tc main_arg14)) (W (Proc.devRef .tc main_arg15)) (W (Proc.devRef .tc main_arg16)) (W (Proc.devRef .tc main_arg17)) :=
  (keep15 (S14 W) main_v157 (by decide)).trans (S14_v157 W)
theorem S15_v236 (W : Valuation τ sig (Elt F)) : S15 W (Proc.devRef .tc main_v236) = Read.val_main_v236 (F := F) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8)) (W (Proc.devRef .tc main_arg9)) (W (Proc.devRef .tc main_arg10)) (W (Proc.devRef .tc main_arg11)) (W (Proc.devRef .tc main_arg12)) (W (Proc.devRef .tc main_arg13)) (W (Proc.devRef .tc main_arg14)) (W (Proc.devRef .tc main_arg15)) (W (Proc.devRef .tc main_arg16)) (W (Proc.devRef .tc main_arg17)) :=
  (keep15 (S14 W) main_v236 (by decide)).trans (S14_v236 W)
theorem S15_v315 (W : Valuation τ sig (Elt F)) : S15 W (Proc.devRef .tc main_v315) = Read.val_main_v315 (F := F) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8)) (W (Proc.devRef .tc main_arg9)) (W (Proc.devRef .tc main_arg10)) (W (Proc.devRef .tc main_arg11)) (W (Proc.devRef .tc main_arg12)) (W (Proc.devRef .tc main_arg13)) (W (Proc.devRef .tc main_arg14)) (W (Proc.devRef .tc main_arg15)) (W (Proc.devRef .tc main_arg16)) (W (Proc.devRef .tc main_arg17)) :=
  (keep15 (S14 W) main_v315 (by decide)).trans (S14_v315 W)
theorem S15_v394 (W : Valuation τ sig (Elt F)) : S15 W (Proc.devRef .tc main_v394) = Read.val_main_v394 (F := F) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8)) (W (Proc.devRef .tc main_arg9)) (W (Proc.devRef .tc main_arg10)) (W (Proc.devRef .tc main_arg11)) (W (Proc.devRef .tc main_arg12)) (W (Proc.devRef .tc main_arg13)) (W (Proc.devRef .tc main_arg14)) (W (Proc.devRef .tc main_arg15)) (W (Proc.devRef .tc main_arg16)) (W (Proc.devRef .tc main_arg17)) :=
  chunk15_v394 (S14 W) (args14 W main_arg12 (by decide)) (S14_v361 W) (args14 W main_arg13 (by decide)) (args14 W main_arg14 (by decide)) (args14 W main_arg15 (by decide)) (args14 W main_arg16 (by decide)) (args14 W main_arg17 (by decide)) (args14 W main_arg2 (by decide))

/-- The device's contents after the first 16 chunks. -/
def S16 (W : Valuation τ sig (Elt F)) : Valuation τ sig (Elt F) := StableHlo.after ops16 (S15 W)
/-- No chunk writes an argument. -/
theorem args16 (W : Valuation τ sig (Elt F)) (r : Ref sig .tc) (hr : r ∈ argRefs) : S16 W (Proc.devRef .tc r) = W (Proc.devRef .tc r) :=
  (keep16 (S15 W) r (by revert r hr; decide)).trans (args15 W r hr)
theorem S16_v399 (W : Valuation τ sig (Elt F)) : S16 W (Proc.devRef .tc main_v399) = Read.val_main_v399 (F := F) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8)) (W (Proc.devRef .tc main_arg9)) (W (Proc.devRef .tc main_arg10)) (W (Proc.devRef .tc main_arg11)) (W (Proc.devRef .tc main_arg12)) (W (Proc.devRef .tc main_arg13)) (W (Proc.devRef .tc main_arg14)) (W (Proc.devRef .tc main_arg15)) (W (Proc.devRef .tc main_arg16)) (W (Proc.devRef .tc main_arg17)) (W (Proc.devRef .tc main_arg18)) (W (Proc.devRef .tc main_arg19)) :=
  chunk16_v399 (S15 W) (S15_v78 W) (S15_v157 W) (S15_v236 W) (S15_v315 W) (S15_v394 W) (args15 W main_arg18 (by decide)) (args15 W main_arg19 (by decide))

/-! ## The whole list -/

/-- The sixteen chunks in order are the whole operation list. -/
theorem after_opsAll (W : Valuation τ sig (Elt F)) : StableHlo.after (opsAll (F := F)) W = S16 W := by
  simp only [opsAll, StableHlo.after_append]
  rfl

/-- From ANY contents, the reference's operations leave its result at the last stage of the arguments' contents. -/
theorem after_opsAll_out (W : Valuation τ sig (Elt F)) :
    StableHlo.after (opsAll (F := F)) W (Proc.devRef .tc main_v399) = Read.val_main_v399 (F := F) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8)) (W (Proc.devRef .tc main_arg9)) (W (Proc.devRef .tc main_arg10)) (W (Proc.devRef .tc main_arg11)) (W (Proc.devRef .tc main_arg12)) (W (Proc.devRef .tc main_arg13)) (W (Proc.devRef .tc main_arg14)) (W (Proc.devRef .tc main_arg15)) (W (Proc.devRef .tc main_arg16)) (W (Proc.devRef .tc main_arg17)) (W (Proc.devRef .tc main_arg18)) (W (Proc.devRef .tc main_arg19)) := by
  rw [after_opsAll]
  exact S16_v399 W

/-- … and every argument as it was. -/
theorem after_opsAll_arg (W : Valuation τ sig (Elt F)) (r : Ref sig .tc) (hr : r ∈ argRefs) :
    StableHlo.after (opsAll (F := F)) W (Proc.devRef .tc r) = W (Proc.devRef .tc r) := by
  rw [after_opsAll]
  exact args16 W r hr
theorem after_opsAll_arg_0 (W : Valuation τ sig (Elt F)) : StableHlo.after (opsAll (F := F)) W (Proc.devRef .tc main_arg0) = W (Proc.devRef .tc main_arg0) := after_opsAll_arg W main_arg0 (by decide)
theorem after_opsAll_arg_1 (W : Valuation τ sig (Elt F)) : StableHlo.after (opsAll (F := F)) W (Proc.devRef .tc main_arg1) = W (Proc.devRef .tc main_arg1) := after_opsAll_arg W main_arg1 (by decide)
theorem after_opsAll_arg_2 (W : Valuation τ sig (Elt F)) : StableHlo.after (opsAll (F := F)) W (Proc.devRef .tc main_arg2) = W (Proc.devRef .tc main_arg2) := after_opsAll_arg W main_arg2 (by decide)
theorem after_opsAll_arg_3 (W : Valuation τ sig (Elt F)) : StableHlo.after (opsAll (F := F)) W (Proc.devRef .tc main_arg3) = W (Proc.devRef .tc main_arg3) := after_opsAll_arg W main_arg3 (by decide)
theorem after_opsAll_arg_4 (W : Valuation τ sig (Elt F)) : StableHlo.after (opsAll (F := F)) W (Proc.devRef .tc main_arg4) = W (Proc.devRef .tc main_arg4) := after_opsAll_arg W main_arg4 (by decide)
theorem after_opsAll_arg_5 (W : Valuation τ sig (Elt F)) : StableHlo.after (opsAll (F := F)) W (Proc.devRef .tc main_arg5) = W (Proc.devRef .tc main_arg5) := after_opsAll_arg W main_arg5 (by decide)
theorem after_opsAll_arg_6 (W : Valuation τ sig (Elt F)) : StableHlo.after (opsAll (F := F)) W (Proc.devRef .tc main_arg6) = W (Proc.devRef .tc main_arg6) := after_opsAll_arg W main_arg6 (by decide)
theorem after_opsAll_arg_7 (W : Valuation τ sig (Elt F)) : StableHlo.after (opsAll (F := F)) W (Proc.devRef .tc main_arg7) = W (Proc.devRef .tc main_arg7) := after_opsAll_arg W main_arg7 (by decide)
theorem after_opsAll_arg_8 (W : Valuation τ sig (Elt F)) : StableHlo.after (opsAll (F := F)) W (Proc.devRef .tc main_arg8) = W (Proc.devRef .tc main_arg8) := after_opsAll_arg W main_arg8 (by decide)
theorem after_opsAll_arg_9 (W : Valuation τ sig (Elt F)) : StableHlo.after (opsAll (F := F)) W (Proc.devRef .tc main_arg9) = W (Proc.devRef .tc main_arg9) := after_opsAll_arg W main_arg9 (by decide)
theorem after_opsAll_arg_10 (W : Valuation τ sig (Elt F)) : StableHlo.after (opsAll (F := F)) W (Proc.devRef .tc main_arg10) = W (Proc.devRef .tc main_arg10) := after_opsAll_arg W main_arg10 (by decide)
theorem after_opsAll_arg_11 (W : Valuation τ sig (Elt F)) : StableHlo.after (opsAll (F := F)) W (Proc.devRef .tc main_arg11) = W (Proc.devRef .tc main_arg11) := after_opsAll_arg W main_arg11 (by decide)
theorem after_opsAll_arg_12 (W : Valuation τ sig (Elt F)) : StableHlo.after (opsAll (F := F)) W (Proc.devRef .tc main_arg12) = W (Proc.devRef .tc main_arg12) := after_opsAll_arg W main_arg12 (by decide)
theorem after_opsAll_arg_13 (W : Valuation τ sig (Elt F)) : StableHlo.after (opsAll (F := F)) W (Proc.devRef .tc main_arg13) = W (Proc.devRef .tc main_arg13) := after_opsAll_arg W main_arg13 (by decide)
theorem after_opsAll_arg_14 (W : Valuation τ sig (Elt F)) : StableHlo.after (opsAll (F := F)) W (Proc.devRef .tc main_arg14) = W (Proc.devRef .tc main_arg14) := after_opsAll_arg W main_arg14 (by decide)
theorem after_opsAll_arg_15 (W : Valuation τ sig (Elt F)) : StableHlo.after (opsAll (F := F)) W (Proc.devRef .tc main_arg15) = W (Proc.devRef .tc main_arg15) := after_opsAll_arg W main_arg15 (by decide)
theorem after_opsAll_arg_16 (W : Valuation τ sig (Elt F)) : StableHlo.after (opsAll (F := F)) W (Proc.devRef .tc main_arg16) = W (Proc.devRef .tc main_arg16) := after_opsAll_arg W main_arg16 (by decide)
theorem after_opsAll_arg_17 (W : Valuation τ sig (Elt F)) : StableHlo.after (opsAll (F := F)) W (Proc.devRef .tc main_arg17) = W (Proc.devRef .tc main_arg17) := after_opsAll_arg W main_arg17 (by decide)
theorem after_opsAll_arg_18 (W : Valuation τ sig (Elt F)) : StableHlo.after (opsAll (F := F)) W (Proc.devRef .tc main_arg18) = W (Proc.devRef .tc main_arg18) := after_opsAll_arg W main_arg18 (by decide)
theorem after_opsAll_arg_19 (W : Valuation τ sig (Elt F)) : StableHlo.after (opsAll (F := F)) W (Proc.devRef .tc main_arg19) = W (Proc.devRef .tc main_arg19) := after_opsAll_arg W main_arg19 (by decide)

end Cert.ReferenceIdeal.RefValue
end
-- ==== Proof.RefRunH.lean ====
import proofs.«402532_j352187319172_1_alg».proof.Proof.RefMain
import proofs.«402532_j352187319172_1_alg».proof.Proof.RefRead
import proofs.«402532_j352187319172_1_alg».proof.Proof.RefOut
import Idealize.ShloMosaic.Lib.StableHlo.Run

/-!
# The reference's run, read

Every weakly fair execution of the reference's @main terminates with its result at the composed value of its twenty arguments
as launched, and the arguments unchanged: the run's buffers after the operations, read at the result and at each argument.
-/

noncomputable section

namespace Cert.ReferenceIdeal.RefValue

open Cert.ReferenceIdeal Idealize.ShloMosaic Idealize.ShloMosaic.TcCoe Idealize.SL.Sem Idealize.ShloMosaic.StableHlo
open Cert.ReferenceIdeal.RunParts (opsAll run_raw)

variable {F : FTy → Type} [FloatOps F]

/-- A device's launch contents at a buffer of its TensorCore are the launched memory's there. -/
theorem launchContents_devRef (m : (ℓ : Loc nD τ sig) → Buf (Elt F) ℓ) (c : Dev nD) (b : Ref sig .tc) :
    launchContents m c (Proc.devRef .tc b) = m ((c.tc : Thread nD τ).loc b) := rfl

/-- On every device, for any float values, from any memory with zero counters: every weakly fair execution of @main
    terminates with the result at the composed value of the arguments as launched, and the arguments unchanged. -/
theorem ref_run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v399)
        = Read.val_main_v399 (F := F)
          (m ((c.tc : Thread nD τ).loc main_arg0))
          (m ((c.tc : Thread nD τ).loc main_arg1))
          (m ((c.tc : Thread nD τ).loc main_arg2))
          (m ((c.tc : Thread nD τ).loc main_arg3))
          (m ((c.tc : Thread nD τ).loc main_arg4))
          (m ((c.tc : Thread nD τ).loc main_arg5))
          (m ((c.tc : Thread nD τ).loc main_arg6))
          (m ((c.tc : Thread nD τ).loc main_arg7))
          (m ((c.tc : Thread nD τ).loc main_arg8))
          (m ((c.tc : Thread nD τ).loc main_arg9))
          (m ((c.tc : Thread nD τ).loc main_arg10))
          (m ((c.tc : Thread nD τ).loc main_arg11))
          (m ((c.tc : Thread nD τ).loc main_arg12))
          (m ((c.tc : Thread nD τ).loc main_arg13))
          (m ((c.tc : Thread nD τ).loc main_arg14))
          (m ((c.tc : Thread nD τ).loc main_arg15))
          (m ((c.tc : Thread nD τ).loc main_arg16))
          (m ((c.tc : Thread nD τ).loc main_arg17))
          (m ((c.tc : Thread nD τ).loc main_arg18))
          (m ((c.tc : Thread nD τ).loc main_arg19))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19) :=
  (θ_run defs _ _).mono (fun _ h c => ⟨(h c main_v399).trans (after_opsAll_out (W := launchContents m c)),
      (h c main_arg0).trans (after_opsAll_arg_0 (W := launchContents m c)),
      (h c main_arg1).trans (after_opsAll_arg_1 (W := launchContents m c)),
      (h c main_arg2).trans (after_opsAll_arg_2 (W := launchContents m c)),
      (h c main_arg3).trans (after_opsAll_arg_3 (W := launchContents m c)),
      (h c main_arg4).trans (after_opsAll_arg_4 (W := launchContents m c)),
      (h c main_arg5).trans (after_opsAll_arg_5 (W := launchContents m c)),
      (h c main_arg6).trans (after_opsAll_arg_6 (W := launchContents m c)),
      (h c main_arg7).trans (after_opsAll_arg_7 (W := launchContents m c)),
      (h c main_arg8).trans (after_opsAll_arg_8 (W := launchContents m c)),
      (h c main_arg9).trans (after_opsAll_arg_9 (W := launchContents m c)),
      (h c main_arg10).trans (after_opsAll_arg_10 (W := launchContents m c)),
      (h c main_arg11).trans (after_opsAll_arg_11 (W := launchContents m c)),
      (h c main_arg12).trans (after_opsAll_arg_12 (W := launchContents m c)),
      (h c main_arg13).trans (after_opsAll_arg_13 (W := launchContents m c)),
      (h c main_arg14).trans (after_opsAll_arg_14 (W := launchContents m c)),
      (h c main_arg15).trans (after_opsAll_arg_15 (W := launchContents m c)),
      (h c main_arg16).trans (after_opsAll_arg_16 (W := launchContents m c)),
      (h c main_arg17).trans (after_opsAll_arg_17 (W := launchContents m c)),
      (h c main_arg18).trans (after_opsAll_arg_18 (W := launchContents m c)),
      (h c main_arg19).trans (after_opsAll_arg_19 (W := launchContents m c))⟩)
    (run_raw m ρ)

end Cert.ReferenceIdeal.RefValue

end
-- ==== Proof.KRun.lean ====
/- THE RUN OF @main of `Kernel`, a program of 5 kernel regions among 6 stretches of host operations, with every
   unscoped buffer NAMED at the end: the buffers' contents at each boundary between two items as a fold from the launch
   memory (`Gen.WJ`: a stretch's `StableHlo.after`; a region's arrays at what its write-backs leave, every other buffer
   as entered), every pipeline's proof data at its region's entry contents (`Gen.pdats`), one segment per item over the
   thread state "every unscoped buffer whole at the boundary's contents, the generator register at some state, nothing
   owed", the launch (`Gen.run_all`: every final memory holds each unscoped buffer at `W11`), and the frame claim read
   off it (`Gen.frame`: no stretch writes an argument and no region has one among its output arrays). Stated at any
   float instance `F`. -/
import proofs.«402532_j352187319172_1_alg».proof.Proof.KReg0
import proofs.«402532_j352187319172_1_alg».proof.Proof.KReg1
import proofs.«402532_j352187319172_1_alg».proof.Proof.KReg2
import proofs.«402532_j352187319172_1_alg».proof.Proof.KReg3
import proofs.«402532_j352187319172_1_alg».proof.Proof.KReg4
import proofs.«402532_j352187319172_1_alg».proof.Proof.Gen.Kernel.Regions

-- decided memberships over 416 references and 16 windows recurse past the default depth
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary: a fold through @main -/

/-- Core `c`'s buffers at launch. -/
abbrev W0 (c : Dev nD) : Valuation τ sig (Elt F) := fun b => m (c, b)

/-- After `hostOps0` (region 0's entry). -/
abbrev W1 (c : Dev nD) : Valuation τ sig (Elt F) := StableHlo.after hostOps0 (W0 m c)
/-- The same read at the TensorCore's references (what region 0's proof data take). -/
abbrev Vt1 : (c : Dev nD) → (b : Ref sig .tc) → Buf (Elt F) ((c : Thread nD τ).loc b) := fun c b => W1 m c b
/-- At region 0's exit: its arrays at what the pipeline leaves (the inputs as entered, each output's write-backs
    folded: `Dat.arrAt … N`), every other buffer as entered. -/
def W2 (c : Dev nD) : Valuation τ sig (Elt F) :=
  Pipeline.withArrays spec0 c (W1 m c) fun w => (dat0 (Vt1 m) c).arrAt w cfg0.N
theorem W2_arr (c : Dev nD) (w : Fin cfg0.W) :
    W2 m c (Proc.devRef .tc (Pipeline.arrRef spec0 w)) = (dat0 (Vt1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
/-- The same read at the TensorCore's references (region 0's exit contents). -/
abbrev Vt2 : (c : Dev nD) → (b : Ref sig .tc) → Buf (Elt F) ((c : Thread nD τ).loc b) := fun c b => W2 m c b
/-- At region 0's exit each of its arrays holds what the pipeline leaves (`hF0`) and every other buffer what it held
    at entry (`hrest0`). -/
theorem hF0 (c : Dev nD) (w : Fin cfg0.W) : (dat0 (Vt1 m) c).arrAt w cfg0.N = Vt2 m c (Pipeline.arrRef spec0 w) :=
  (W2_arr m c w).symm
theorem hrest0 (c : Dev nD) : ∀ b, b ∉ Finset.univ.image (Pipeline.arrRef spec0) → Vt2 m c b = Vt1 m c b :=
  fun b hb => W2_of_ne m c b fun w e => hb (Finset.mem_image.mpr ⟨w, Finset.mem_univ _, e⟩)
/-- Region 0's output windows' arrays are `main_v51_0` and `main_v51_1`. -/
theorem outs0 : ∀ w : Fin 16, (cfg0.win w).isOut = true → Pipeline.arrRef spec0 w ∈ ([main_v51_0, main_v51_1] : List (Ref sig .tc)) := by
  decide
/-- A buffer that is no output array of region 0 leaves it as entered: an input window's array is never written
    (`Dat.arrAt_in`), a buffer of no window bypasses the region. -/
theorem W2_of (c : Dev nD) (r : Ref sig .tc) (h : r ∉ ([main_v51_0, main_v51_1] : List (Ref sig .tc))) :
    W2 m c (Proc.devRef .tc r) = W1 m c (Proc.devRef .tc r) := by
  by_cases hr : ∃ w, Pipeline.arrRef spec0 w = r
  · obtain ⟨w, rfl⟩ := hr
    have hin : (cfg0.win w).isOut = false := by
      cases hh : (cfg0.win w).isOut
      · rfl
      · exact absurd (outs0 w hh) h
    exact (W2_arr m c w).trans (((dat0 (Vt1 m) c).arrAt_in w hin _).trans (A_eq0 (Vt1 m) c w))
  · exact W2_of_ne m c r fun w e => hr ⟨w, e⟩
/-- A buffer `hostOps0` does not write keeps its contents through the stretch. -/
theorem W1_of (c : Dev nD) (r : Ref sig .tc) (h : r ∉ hostOps0_W) :
    W1 m c (Proc.devRef .tc r) = W0 m c (Proc.devRef .tc r) :=
  StableHlo.after_of_writes_sub hostOps0 _ hostOps0_writes h

/-- After `hostOps1` (region 1's entry). -/
abbrev W3 (c : Dev nD) : Valuation τ sig (Elt F) := StableHlo.after hostOps1 (W2 m c)
/-- The same read at the TensorCore's references (what region 1's proof data take). -/
abbrev Vt3 : (c : Dev nD) → (b : Ref sig .tc) → Buf (Elt F) ((c : Thread nD τ).loc b) := fun c b => W3 m c b
/-- At region 1's exit: its arrays at what the pipeline leaves (the inputs as entered, each output's write-backs
    folded: `Dat.arrAt … N`), every other buffer as entered. -/
def W4 (c : Dev nD) : Valuation τ sig (Elt F) :=
  Pipeline.withArrays spec1 c (W3 m c) fun w => (dat1 (Vt3 m) c).arrAt w cfg1.N
theorem W4_arr (c : Dev nD) (w : Fin cfg1.W) :
    W4 m c (Proc.devRef .tc (Pipeline.arrRef spec1 w)) = (dat1 (Vt3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
/-- The same read at the TensorCore's references (region 1's exit contents). -/
abbrev Vt4 : (c : Dev nD) → (b : Ref sig .tc) → Buf (Elt F) ((c : Thread nD τ).loc b) := fun c b => W4 m c b
/-- At region 1's exit each of its arrays holds what the pipeline leaves (`hF1`) and every other buffer what it held
    at entry (`hrest1`). -/
theorem hF1 (c : Dev nD) (w : Fin cfg1.W) : (dat1 (Vt3 m) c).arrAt w cfg1.N = Vt4 m c (Pipeline.arrRef spec1 w) :=
  (W4_arr m c w).symm
theorem hrest1 (c : Dev nD) : ∀ b, b ∉ Finset.univ.image (Pipeline.arrRef spec1) → Vt4 m c b = Vt3 m c b :=
  fun b hb => W4_of_ne m c b fun w e => hb (Finset.mem_image.mpr ⟨w, Finset.mem_univ _, e⟩)
/-- Region 1's output windows' arrays are `main_v103_0` and `main_v103_1`. -/
theorem outs1 : ∀ w : Fin 16, (cfg1.win w).isOut = true → Pipeline.arrRef spec1 w ∈ ([main_v103_0, main_v103_1] : List (Ref sig .tc)) := by
  decide
/-- A buffer that is no output array of region 1 leaves it as entered: an input window's array is never written
    (`Dat.arrAt_in`), a buffer of no window bypasses the region. -/
theorem W4_of (c : Dev nD) (r : Ref sig .tc) (h : r ∉ ([main_v103_0, main_v103_1] : List (Ref sig .tc))) :
    W4 m c (Proc.devRef .tc r) = W3 m c (Proc.devRef .tc r) := by
  by_cases hr : ∃ w, Pipeline.arrRef spec1 w = r
  · obtain ⟨w, rfl⟩ := hr
    have hin : (cfg1.win w).isOut = false := by
      cases hh : (cfg1.win w).isOut
      · rfl
      · exact absurd (outs1 w hh) h
    exact (W4_arr m c w).trans (((dat1 (Vt3 m) c).arrAt_in w hin _).trans (A_eq1 (Vt3 m) c w))
  · exact W4_of_ne m c r fun w e => hr ⟨w, e⟩
/-- A buffer `hostOps1` does not write keeps its contents through the stretch. -/
theorem W3_of (c : Dev nD) (r : Ref sig .tc) (h : r ∉ hostOps1_W) :
    W3 m c (Proc.devRef .tc r) = W2 m c (Proc.devRef .tc r) :=
  StableHlo.after_of_writes_sub hostOps1 _ hostOps1_writes h

/-- After `hostOps2` (region 2's entry). -/
abbrev W5 (c : Dev nD) : Valuation τ sig (Elt F) := StableHlo.after hostOps2 (W4 m c)
/-- The same read at the TensorCore's references (what region 2's proof data take). -/
abbrev Vt5 : (c : Dev nD) → (b : Ref sig .tc) → Buf (Elt F) ((c : Thread nD τ).loc b) := fun c b => W5 m c b
/-- At region 2's exit: its arrays at what the pipeline leaves (the inputs as entered, each output's write-backs
    folded: `Dat.arrAt … N`), every other buffer as entered. -/
def W6 (c : Dev nD) : Valuation τ sig (Elt F) :=
  Pipeline.withArrays spec2 c (W5 m c) fun w => (dat2 (Vt5 m) c).arrAt w cfg2.N
theorem W6_arr (c : Dev nD) (w : Fin cfg2.W) :
    W6 m c (Proc.devRef .tc (Pipeline.arrRef spec2 w)) = (dat2 (Vt5 m) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m c (Proc.devRef .tc b) = W5 m c (Proc.devRef .tc b) := by
  unfold W6; exact Pipeline.withArrays_of_ne spec2 c _ _ b hb
/-- The same read at the TensorCore's references (region 2's exit contents). -/
abbrev Vt6 : (c : Dev nD) → (b : Ref sig .tc) → Buf (Elt F) ((c : Thread nD τ).loc b) := fun c b => W6 m c b
/-- At region 2's exit each of its arrays holds what the pipeline leaves (`hF2`) and every other buffer what it held
    at entry (`hrest2`). -/
theorem hF2 (c : Dev nD) (w : Fin cfg2.W) : (dat2 (Vt5 m) c).arrAt w cfg2.N = Vt6 m c (Pipeline.arrRef spec2 w) :=
  (W6_arr m c w).symm
theorem hrest2 (c : Dev nD) : ∀ b, b ∉ Finset.univ.image (Pipeline.arrRef spec2) → Vt6 m c b = Vt5 m c b :=
  fun b hb => W6_of_ne m c b fun w e => hb (Finset.mem_image.mpr ⟨w, Finset.mem_univ _, e⟩)
/-- Region 2's output windows' arrays are `main_v155_0` and `main_v155_1`. -/
theorem outs2 : ∀ w : Fin 16, (cfg2.win w).isOut = true → Pipeline.arrRef spec2 w ∈ ([main_v155_0, main_v155_1] : List (Ref sig .tc)) := by
  decide
/-- A buffer that is no output array of region 2 leaves it as entered: an input window's array is never written
    (`Dat.arrAt_in`), a buffer of no window bypasses the region. -/
theorem W6_of (c : Dev nD) (r : Ref sig .tc) (h : r ∉ ([main_v155_0, main_v155_1] : List (Ref sig .tc))) :
    W6 m c (Proc.devRef .tc r) = W5 m c (Proc.devRef .tc r) := by
  by_cases hr : ∃ w, Pipeline.arrRef spec2 w = r
  · obtain ⟨w, rfl⟩ := hr
    have hin : (cfg2.win w).isOut = false := by
      cases hh : (cfg2.win w).isOut
      · rfl
      · exact absurd (outs2 w hh) h
    exact (W6_arr m c w).trans (((dat2 (Vt5 m) c).arrAt_in w hin _).trans (A_eq2 (Vt5 m) c w))
  · exact W6_of_ne m c r fun w e => hr ⟨w, e⟩
/-- A buffer `hostOps2` does not write keeps its contents through the stretch. -/
theorem W5_of (c : Dev nD) (r : Ref sig .tc) (h : r ∉ hostOps2_W) :
    W5 m c (Proc.devRef .tc r) = W4 m c (Proc.devRef .tc r) :=
  StableHlo.after_of_writes_sub hostOps2 _ hostOps2_writes h

/-- After `hostOps3` (region 3's entry). -/
abbrev W7 (c : Dev nD) : Valuation τ sig (Elt F) := StableHlo.after hostOps3 (W6 m c)
/-- The same read at the TensorCore's references (what region 3's proof data take). -/
abbrev Vt7 : (c : Dev nD) → (b : Ref sig .tc) → Buf (Elt F) ((c : Thread nD τ).loc b) := fun c b => W7 m c b
/-- At region 3's exit: its arrays at what the pipeline leaves (the inputs as entered, each output's write-backs
    folded: `Dat.arrAt … N`), every other buffer as entered. -/
def W8 (c : Dev nD) : Valuation τ sig (Elt F) :=
  Pipeline.withArrays spec3 c (W7 m c) fun w => (dat3 (Vt7 m) c).arrAt w cfg3.N
theorem W8_arr (c : Dev nD) (w : Fin cfg3.W) :
    W8 m c (Proc.devRef .tc (Pipeline.arrRef spec3 w)) = (dat3 (Vt7 m) c).arrAt w cfg3.N := by
  unfold W8; exact Pipeline.withArrays_arr spec3 launch3.win.arr_inj c _ _ w
theorem W8_of_ne (c : Dev nD) (b : Ref sig .tc) (hb : ∀ w, Pipeline.arrRef spec3 w ≠ b) :
    W8 m c (Proc.devRef .tc b) = W7 m c (Proc.devRef .tc b) := by
  unfold W8; exact Pipeline.withArrays_of_ne spec3 c _ _ b hb
/-- The same read at the TensorCore's references (region 3's exit contents). -/
abbrev Vt8 : (c : Dev nD) → (b : Ref sig .tc) → Buf (Elt F) ((c : Thread nD τ).loc b) := fun c b => W8 m c b
/-- At region 3's exit each of its arrays holds what the pipeline leaves (`hF3`) and every other buffer what it held
    at entry (`hrest3`). -/
theorem hF3 (c : Dev nD) (w : Fin cfg3.W) : (dat3 (Vt7 m) c).arrAt w cfg3.N = Vt8 m c (Pipeline.arrRef spec3 w) :=
  (W8_arr m c w).symm
theorem hrest3 (c : Dev nD) : ∀ b, b ∉ Finset.univ.image (Pipeline.arrRef spec3) → Vt8 m c b = Vt7 m c b :=
  fun b hb => W8_of_ne m c b fun w e => hb (Finset.mem_image.mpr ⟨w, Finset.mem_univ _, e⟩)
/-- Region 3's output windows' arrays are `main_v207_0` and `main_v207_1`. -/
theorem outs3 : ∀ w : Fin 16, (cfg3.win w).isOut = true → Pipeline.arrRef spec3 w ∈ ([main_v207_0, main_v207_1] : List (Ref sig .tc)) := by
  decide
/-- A buffer that is no output array of region 3 leaves it as entered: an input window's array is never written
    (`Dat.arrAt_in`), a buffer of no window bypasses the region. -/
theorem W8_of (c : Dev nD) (r : Ref sig .tc) (h : r ∉ ([main_v207_0, main_v207_1] : List (Ref sig .tc))) :
    W8 m c (Proc.devRef .tc r) = W7 m c (Proc.devRef .tc r) := by
  by_cases hr : ∃ w, Pipeline.arrRef spec3 w = r
  · obtain ⟨w, rfl⟩ := hr
    have hin : (cfg3.win w).isOut = false := by
      cases hh : (cfg3.win w).isOut
      · rfl
      · exact absurd (outs3 w hh) h
    exact (W8_arr m c w).trans (((dat3 (Vt7 m) c).arrAt_in w hin _).trans (A_eq3 (Vt7 m) c w))
  · exact W8_of_ne m c r fun w e => hr ⟨w, e⟩
/-- A buffer `hostOps3` does not write keeps its contents through the stretch. -/
theorem W7_of (c : Dev nD) (r : Ref sig .tc) (h : r ∉ hostOps3_W) :
    W7 m c (Proc.devRef .tc r) = W6 m c (Proc.devRef .tc r) :=
  StableHlo.after_of_writes_sub hostOps3 _ hostOps3_writes h

/-- After `hostOps4` (region 4's entry). -/
abbrev W9 (c : Dev nD) : Valuation τ sig (Elt F) := StableHlo.after hostOps4 (W8 m c)
/-- The same read at the TensorCore's references (what region 4's proof data take). -/
abbrev Vt9 : (c : Dev nD) → (b : Ref sig .tc) → Buf (Elt F) ((c : Thread nD τ).loc b) := fun c b => W9 m c b
/-- At region 4's exit: its arrays at what the pipeline leaves (the inputs as entered, each output's write-backs
    folded: `Dat.arrAt … N`), every other buffer as entered. -/
def W10 (c : Dev nD) : Valuation τ sig (Elt F) :=
  Pipeline.withArrays spec4 c (W9 m c) fun w => (dat4 (Vt9 m) c).arrAt w cfg4.N
theorem W10_arr (c : Dev nD) (w : Fin cfg4.W) :
    W10 m c (Proc.devRef .tc (Pipeline.arrRef spec4 w)) = (dat4 (Vt9 m) c).arrAt w cfg4.N := by
  unfold W10; exact Pipeline.withArrays_arr spec4 launch4.win.arr_inj c _ _ w
theorem W10_of_ne (c : Dev nD) (b : Ref sig .tc) (hb : ∀ w, Pipeline.arrRef spec4 w ≠ b) :
    W10 m c (Proc.devRef .tc b) = W9 m c (Proc.devRef .tc b) := by
  unfold W10; exact Pipeline.withArrays_of_ne spec4 c _ _ b hb
/-- The same read at the TensorCore's references (region 4's exit contents). -/
abbrev Vt10 : (c : Dev nD) → (b : Ref sig .tc) → Buf (Elt F) ((c : Thread nD τ).loc b) := fun c b => W10 m c b
/-- At region 4's exit each of its arrays holds what the pipeline leaves (`hF4`) and every other buffer what it held
    at entry (`hrest4`). -/
theorem hF4 (c : Dev nD) (w : Fin cfg4.W) : (dat4 (Vt9 m) c).arrAt w cfg4.N = Vt10 m c (Pipeline.arrRef spec4 w) :=
  (W10_arr m c w).symm
theorem hrest4 (c : Dev nD) : ∀ b, b ∉ Finset.univ.image (Pipeline.arrRef spec4) → Vt10 m c b = Vt9 m c b :=
  fun b hb => W10_of_ne m c b fun w e => hb (Finset.mem_image.mpr ⟨w, Finset.mem_univ _, e⟩)
/-- Region 4's output windows' arrays are `main_v259_0` and `main_v259_1`. -/
theorem outs4 : ∀ w : Fin 16, (cfg4.win w).isOut = true → Pipeline.arrRef spec4 w ∈ ([main_v259_0, main_v259_1] : List (Ref sig .tc)) := by
  decide
/-- A buffer that is no output array of region 4 leaves it as entered: an input window's array is never written
    (`Dat.arrAt_in`), a buffer of no window bypasses the region. -/
theorem W10_of (c : Dev nD) (r : Ref sig .tc) (h : r ∉ ([main_v259_0, main_v259_1] : List (Ref sig .tc))) :
    W10 m c (Proc.devRef .tc r) = W9 m c (Proc.devRef .tc r) := by
  by_cases hr : ∃ w, Pipeline.arrRef spec4 w = r
  · obtain ⟨w, rfl⟩ := hr
    have hin : (cfg4.win w).isOut = false := by
      cases hh : (cfg4.win w).isOut
      · rfl
      · exact absurd (outs4 w hh) h
    exact (W10_arr m c w).trans (((dat4 (Vt9 m) c).arrAt_in w hin _).trans (A_eq4 (Vt9 m) c w))
  · exact W10_of_ne m c r fun w e => hr ⟨w, e⟩
/-- A buffer `hostOps4` does not write keeps its contents through the stretch. -/
theorem W9_of (c : Dev nD) (r : Ref sig .tc) (h : r ∉ hostOps4_W) :
    W9 m c (Proc.devRef .tc r) = W8 m c (Proc.devRef .tc r) :=
  StableHlo.after_of_writes_sub hostOps4 _ hostOps4_writes h

/-- After `hostOps5`, the tail of @main: what the program ends at. -/
abbrev W11 (c : Dev nD) : Valuation τ sig (Elt F) := StableHlo.after hostOps5 (W10 m c)
/-- A buffer `hostOps5` does not write keeps its contents through the stretch. -/
theorem W11_of (c : Dev nD) (r : Ref sig .tc) (h : r ∉ hostOps5_W) :
    W11 m c (Proc.devRef .tc r) = W10 m c (Proc.devRef .tc r) :=
  StableHlo.after_of_writes_sub hostOps5 _ hostOps5_writes h

/-! ### The arguments end as launched: no host operation writes one and none is a region's output array, so the fold
    at an argument's buffer walks back to the launch memory -/

theorem W11_main_arg0 (c : Dev nD) : W11 m c (Proc.devRef .tc main_arg0) = m ((c : Thread nD τ).loc main_arg0) :=
  (W11_of m c main_arg0 (by decide)).trans <| (W10_of m c main_arg0 (by decide)).trans <| (W9_of m c main_arg0 (by decide)).trans <| (W8_of m c main_arg0 (by decide)).trans <| (W7_of m c main_arg0 (by decide)).trans <| (W6_of m c main_arg0 (by decide)).trans <| (W5_of m c main_arg0 (by decide)).trans <| (W4_of m c main_arg0 (by decide)).trans <| (W3_of m c main_arg0 (by decide)).trans <| (W2_of m c main_arg0 (by decide)).trans <| (W1_of m c main_arg0 (by decide)).trans <| rfl
theorem W11_main_arg1 (c : Dev nD) : W11 m c (Proc.devRef .tc main_arg1) = m ((c : Thread nD τ).loc main_arg1) :=
  (W11_of m c main_arg1 (by decide)).trans <| (W10_of m c main_arg1 (by decide)).trans <| (W9_of m c main_arg1 (by decide)).trans <| (W8_of m c main_arg1 (by decide)).trans <| (W7_of m c main_arg1 (by decide)).trans <| (W6_of m c main_arg1 (by decide)).trans <| (W5_of m c main_arg1 (by decide)).trans <| (W4_of m c main_arg1 (by decide)).trans <| (W3_of m c main_arg1 (by decide)).trans <| (W2_of m c main_arg1 (by decide)).trans <| (W1_of m c main_arg1 (by decide)).trans <| rfl
theorem W11_main_arg2 (c : Dev nD) : W11 m c (Proc.devRef .tc main_arg2) = m ((c : Thread nD τ).loc main_arg2) :=
  (W11_of m c main_arg2 (by decide)).trans <| (W10_of m c main_arg2 (by decide)).trans <| (W9_of m c main_arg2 (by decide)).trans <| (W8_of m c main_arg2 (by decide)).trans <| (W7_of m c main_arg2 (by decide)).trans <| (W6_of m c main_arg2 (by decide)).trans <| (W5_of m c main_arg2 (by decide)).trans <| (W4_of m c main_arg2 (by decide)).trans <| (W3_of m c main_arg2 (by decide)).trans <| (W2_of m c main_arg2 (by decide)).trans <| (W1_of m c main_arg2 (by decide)).trans <| rfl
theorem W11_main_arg3 (c : Dev nD) : W11 m c (Proc.devRef .tc main_arg3) = m ((c : Thread nD τ).loc main_arg3) :=
  (W11_of m c main_arg3 (by decide)).trans <| (W10_of m c main_arg3 (by decide)).trans <| (W9_of m c main_arg3 (by decide)).trans <| (W8_of m c main_arg3 (by decide)).trans <| (W7_of m c main_arg3 (by decide)).trans <| (W6_of m c main_arg3 (by decide)).trans <| (W5_of m c main_arg3 (by decide)).trans <| (W4_of m c main_arg3 (by decide)).trans <| (W3_of m c main_arg3 (by decide)).trans <| (W2_of m c main_arg3 (by decide)).trans <| (W1_of m c main_arg3 (by decide)).trans <| rfl
theorem W11_main_arg4 (c : Dev nD) : W11 m c (Proc.devRef .tc main_arg4) = m ((c : Thread nD τ).loc main_arg4) :=
  (W11_of m c main_arg4 (by decide)).trans <| (W10_of m c main_arg4 (by decide)).trans <| (W9_of m c main_arg4 (by decide)).trans <| (W8_of m c main_arg4 (by decide)).trans <| (W7_of m c main_arg4 (by decide)).trans <| (W6_of m c main_arg4 (by decide)).trans <| (W5_of m c main_arg4 (by decide)).trans <| (W4_of m c main_arg4 (by decide)).trans <| (W3_of m c main_arg4 (by decide)).trans <| (W2_of m c main_arg4 (by decide)).trans <| (W1_of m c main_arg4 (by decide)).trans <| rfl
theorem W11_main_arg5 (c : Dev nD) : W11 m c (Proc.devRef .tc main_arg5) = m ((c : Thread nD τ).loc main_arg5) :=
  (W11_of m c main_arg5 (by decide)).trans <| (W10_of m c main_arg5 (by decide)).trans <| (W9_of m c main_arg5 (by decide)).trans <| (W8_of m c main_arg5 (by decide)).trans <| (W7_of m c main_arg5 (by decide)).trans <| (W6_of m c main_arg5 (by decide)).trans <| (W5_of m c main_arg5 (by decide)).trans <| (W4_of m c main_arg5 (by decide)).trans <| (W3_of m c main_arg5 (by decide)).trans <| (W2_of m c main_arg5 (by decide)).trans <| (W1_of m c main_arg5 (by decide)).trans <| rfl
theorem W11_main_arg6 (c : Dev nD) : W11 m c (Proc.devRef .tc main_arg6) = m ((c : Thread nD τ).loc main_arg6) :=
  (W11_of m c main_arg6 (by decide)).trans <| (W10_of m c main_arg6 (by decide)).trans <| (W9_of m c main_arg6 (by decide)).trans <| (W8_of m c main_arg6 (by decide)).trans <| (W7_of m c main_arg6 (by decide)).trans <| (W6_of m c main_arg6 (by decide)).trans <| (W5_of m c main_arg6 (by decide)).trans <| (W4_of m c main_arg6 (by decide)).trans <| (W3_of m c main_arg6 (by decide)).trans <| (W2_of m c main_arg6 (by decide)).trans <| (W1_of m c main_arg6 (by decide)).trans <| rfl
theorem W11_main_arg7 (c : Dev nD) : W11 m c (Proc.devRef .tc main_arg7) = m ((c : Thread nD τ).loc main_arg7) :=
  (W11_of m c main_arg7 (by decide)).trans <| (W10_of m c main_arg7 (by decide)).trans <| (W9_of m c main_arg7 (by decide)).trans <| (W8_of m c main_arg7 (by decide)).trans <| (W7_of m c main_arg7 (by decide)).trans <| (W6_of m c main_arg7 (by decide)).trans <| (W5_of m c main_arg7 (by decide)).trans <| (W4_of m c main_arg7 (by decide)).trans <| (W3_of m c main_arg7 (by decide)).trans <| (W2_of m c main_arg7 (by decide)).trans <| (W1_of m c main_arg7 (by decide)).trans <| rfl
theorem W11_main_arg8 (c : Dev nD) : W11 m c (Proc.devRef .tc main_arg8) = m ((c : Thread nD τ).loc main_arg8) :=
  (W11_of m c main_arg8 (by decide)).trans <| (W10_of m c main_arg8 (by decide)).trans <| (W9_of m c main_arg8 (by decide)).trans <| (W8_of m c main_arg8 (by decide)).trans <| (W7_of m c main_arg8 (by decide)).trans <| (W6_of m c main_arg8 (by decide)).trans <| (W5_of m c main_arg8 (by decide)).trans <| (W4_of m c main_arg8 (by decide)).trans <| (W3_of m c main_arg8 (by decide)).trans <| (W2_of m c main_arg8 (by decide)).trans <| (W1_of m c main_arg8 (by decide)).trans <| rfl
theorem W11_main_arg9 (c : Dev nD) : W11 m c (Proc.devRef .tc main_arg9) = m ((c : Thread nD τ).loc main_arg9) :=
  (W11_of m c main_arg9 (by decide)).trans <| (W10_of m c main_arg9 (by decide)).trans <| (W9_of m c main_arg9 (by decide)).trans <| (W8_of m c main_arg9 (by decide)).trans <| (W7_of m c main_arg9 (by decide)).trans <| (W6_of m c main_arg9 (by decide)).trans <| (W5_of m c main_arg9 (by decide)).trans <| (W4_of m c main_arg9 (by decide)).trans <| (W3_of m c main_arg9 (by decide)).trans <| (W2_of m c main_arg9 (by decide)).trans <| (W1_of m c main_arg9 (by decide)).trans <| rfl
theorem W11_main_arg10 (c : Dev nD) : W11 m c (Proc.devRef .tc main_arg10) = m ((c : Thread nD τ).loc main_arg10) :=
  (W11_of m c main_arg10 (by decide)).trans <| (W10_of m c main_arg10 (by decide)).trans <| (W9_of m c main_arg10 (by decide)).trans <| (W8_of m c main_arg10 (by decide)).trans <| (W7_of m c main_arg10 (by decide)).trans <| (W6_of m c main_arg10 (by decide)).trans <| (W5_of m c main_arg10 (by decide)).trans <| (W4_of m c main_arg10 (by decide)).trans <| (W3_of m c main_arg10 (by decide)).trans <| (W2_of m c main_arg10 (by decide)).trans <| (W1_of m c main_arg10 (by decide)).trans <| rfl
theorem W11_main_arg11 (c : Dev nD) : W11 m c (Proc.devRef .tc main_arg11) = m ((c : Thread nD τ).loc main_arg11) :=
  (W11_of m c main_arg11 (by decide)).trans <| (W10_of m c main_arg11 (by decide)).trans <| (W9_of m c main_arg11 (by decide)).trans <| (W8_of m c main_arg11 (by decide)).trans <| (W7_of m c main_arg11 (by decide)).trans <| (W6_of m c main_arg11 (by decide)).trans <| (W5_of m c main_arg11 (by decide)).trans <| (W4_of m c main_arg11 (by decide)).trans <| (W3_of m c main_arg11 (by decide)).trans <| (W2_of m c main_arg11 (by decide)).trans <| (W1_of m c main_arg11 (by decide)).trans <| rfl
theorem W11_main_arg12 (c : Dev nD) : W11 m c (Proc.devRef .tc main_arg12) = m ((c : Thread nD τ).loc main_arg12) :=
  (W11_of m c main_arg12 (by decide)).trans <| (W10_of m c main_arg12 (by decide)).trans <| (W9_of m c main_arg12 (by decide)).trans <| (W8_of m c main_arg12 (by decide)).trans <| (W7_of m c main_arg12 (by decide)).trans <| (W6_of m c main_arg12 (by decide)).trans <| (W5_of m c main_arg12 (by decide)).trans <| (W4_of m c main_arg12 (by decide)).trans <| (W3_of m c main_arg12 (by decide)).trans <| (W2_of m c main_arg12 (by decide)).trans <| (W1_of m c main_arg12 (by decide)).trans <| rfl
theorem W11_main_arg13 (c : Dev nD) : W11 m c (Proc.devRef .tc main_arg13) = m ((c : Thread nD τ).loc main_arg13) :=
  (W11_of m c main_arg13 (by decide)).trans <| (W10_of m c main_arg13 (by decide)).trans <| (W9_of m c main_arg13 (by decide)).trans <| (W8_of m c main_arg13 (by decide)).trans <| (W7_of m c main_arg13 (by decide)).trans <| (W6_of m c main_arg13 (by decide)).trans <| (W5_of m c main_arg13 (by decide)).trans <| (W4_of m c main_arg13 (by decide)).trans <| (W3_of m c main_arg13 (by decide)).trans <| (W2_of m c main_arg13 (by decide)).trans <| (W1_of m c main_arg13 (by decide)).trans <| rfl
theorem W11_main_arg14 (c : Dev nD) : W11 m c (Proc.devRef .tc main_arg14) = m ((c : Thread nD τ).loc main_arg14) :=
  (W11_of m c main_arg14 (by decide)).trans <| (W10_of m c main_arg14 (by decide)).trans <| (W9_of m c main_arg14 (by decide)).trans <| (W8_of m c main_arg14 (by decide)).trans <| (W7_of m c main_arg14 (by decide)).trans <| (W6_of m c main_arg14 (by decide)).trans <| (W5_of m c main_arg14 (by decide)).trans <| (W4_of m c main_arg14 (by decide)).trans <| (W3_of m c main_arg14 (by decide)).trans <| (W2_of m c main_arg14 (by decide)).trans <| (W1_of m c main_arg14 (by decide)).trans <| rfl
theorem W11_main_arg15 (c : Dev nD) : W11 m c (Proc.devRef .tc main_arg15) = m ((c : Thread nD τ).loc main_arg15) :=
  (W11_of m c main_arg15 (by decide)).trans <| (W10_of m c main_arg15 (by decide)).trans <| (W9_of m c main_arg15 (by decide)).trans <| (W8_of m c main_arg15 (by decide)).trans <| (W7_of m c main_arg15 (by decide)).trans <| (W6_of m c main_arg15 (by decide)).trans <| (W5_of m c main_arg15 (by decide)).trans <| (W4_of m c main_arg15 (by decide)).trans <| (W3_of m c main_arg15 (by decide)).trans <| (W2_of m c main_arg15 (by decide)).trans <| (W1_of m c main_arg15 (by decide)).trans <| rfl
theorem W11_main_arg16 (c : Dev nD) : W11 m c (Proc.devRef .tc main_arg16) = m ((c : Thread nD τ).loc main_arg16) :=
  (W11_of m c main_arg16 (by decide)).trans <| (W10_of m c main_arg16 (by decide)).trans <| (W9_of m c main_arg16 (by decide)).trans <| (W8_of m c main_arg16 (by decide)).trans <| (W7_of m c main_arg16 (by decide)).trans <| (W6_of m c main_arg16 (by decide)).trans <| (W5_of m c main_arg16 (by decide)).trans <| (W4_of m c main_arg16 (by decide)).trans <| (W3_of m c main_arg16 (by decide)).trans <| (W2_of m c main_arg16 (by decide)).trans <| (W1_of m c main_arg16 (by decide)).trans <| rfl
theorem W11_main_arg17 (c : Dev nD) : W11 m c (Proc.devRef .tc main_arg17) = m ((c : Thread nD τ).loc main_arg17) :=
  (W11_of m c main_arg17 (by decide)).trans <| (W10_of m c main_arg17 (by decide)).trans <| (W9_of m c main_arg17 (by decide)).trans <| (W8_of m c main_arg17 (by decide)).trans <| (W7_of m c main_arg17 (by decide)).trans <| (W6_of m c main_arg17 (by decide)).trans <| (W5_of m c main_arg17 (by decide)).trans <| (W4_of m c main_arg17 (by decide)).trans <| (W3_of m c main_arg17 (by decide)).trans <| (W2_of m c main_arg17 (by decide)).trans <| (W1_of m c main_arg17 (by decide)).trans <| rfl
theorem W11_main_arg18 (c : Dev nD) : W11 m c (Proc.devRef .tc main_arg18) = m ((c : Thread nD τ).loc main_arg18) :=
  (W11_of m c main_arg18 (by decide)).trans <| (W10_of m c main_arg18 (by decide)).trans <| (W9_of m c main_arg18 (by decide)).trans <| (W8_of m c main_arg18 (by decide)).trans <| (W7_of m c main_arg18 (by decide)).trans <| (W6_of m c main_arg18 (by decide)).trans <| (W5_of m c main_arg18 (by decide)).trans <| (W4_of m c main_arg18 (by decide)).trans <| (W3_of m c main_arg18 (by decide)).trans <| (W2_of m c main_arg18 (by decide)).trans <| (W1_of m c main_arg18 (by decide)).trans <| rfl
theorem W11_main_arg19 (c : Dev nD) : W11 m c (Proc.devRef .tc main_arg19) = m ((c : Thread nD τ).loc main_arg19) :=
  (W11_of m c main_arg19 (by decide)).trans <| (W10_of m c main_arg19 (by decide)).trans <| (W9_of m c main_arg19 (by decide)).trans <| (W8_of m c main_arg19 (by decide)).trans <| (W7_of m c main_arg19 (by decide)).trans <| (W6_of m c main_arg19 (by decide)).trans <| (W5_of m c main_arg19 (by decide)).trans <| (W4_of m c main_arg19 (by decide)).trans <| (W3_of m c main_arg19 (by decide)).trans <| (W2_of m c main_arg19 (by decide)).trans <| (W1_of m c main_arg19 (by decide)).trans <| rfl

/-! ## The proof data family and the thread state -/

/-- Every pipeline's proof data, each at its region's entry contents: a literal `match`, so that the library's
    several-regions launch theorem's `Pipeline.pin pcfgs adm p` at a numeral reduces to the printed configuration. -/
def pdats : (p : Fin 5) → (c : Dev nD) → Dat τ (Elt F) Unit ℕ (UR sig nD τ) ℕ (Pipeline.pin (pcfgs (F := F)) adm p) c
  | ⟨0, _⟩ => fun c => dat0 (Vt1 m) c
  | ⟨1, _⟩ => fun c => dat1 (Vt3 m) c
  | ⟨2, _⟩ => fun c => dat2 (Vt5 m) c
  | ⟨3, _⟩ => fun c => dat3 (Vt7 m) c
  | ⟨4, _⟩ => fun c => dat4 (Vt9 m) c
/-- No core owes another anything: no level is assigned. -/
abbrev L0 : GSem nD τ sig → Finset Unit := fun _ => ∅
abbrev lv0 : GSem nD τ sig → Unit → ℕ := fun _ _ => 0
/-- What rides beside the buffers through every segment: the core's generator register at some state (a region's
    invariant takes it in and gives it back) and its `owes`, at nothing. -/
abbrev Rst (c : Dev nD) : sProp 𝕄 := iprop((∃ r, prngReg c r) ∗ ∃ W, owes (c : Thread nD τ) (0 : CellTallies nD τ sig Unit) W)
/-- A host stretch as a segment: over the unscoped references from the contents `W`, `Rst` riding along; it runs to
    those references at `StableHlo.after ops (W c)`, the next boundary's contents by name. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ Variants.none L0 lv0 :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rst
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`: every unscoped buffer at the last boundary's contents `W11`, the generator
    register at some state. -/
abbrev Tend (c : Dev nD) : sProp 𝕄 := iprop(StableHlo.held (c : Thread nD τ) (Pipeline.ucRefs τ sig) (W11 m c) ∗ ∃ r, prngReg c r)

/-! ## The regions as segments -/

-- a library lemma stated over `pin pcs a p` unifies with the pinned configuration only when unification may unfold
-- plain definitions in a metavariable's type
set_option backward.isDefEq.respectTransparency.types false in
/-- REGION 0 (custom_call 0) over the thread state: entered from every unscoped buffer at `W1`, left at `W2`. Its
    arrays split out of the unscoped buffers at entry and put back at the exit contents; the generator register into the
    pipeline's invariant and out; nothing owed; no semaphore of the kernel's own. -/
def reg0 : Pipeline.RegionSeg (pcfgs (F := F)) adm (pdats m) () defs₀ Variants.none L0 lv0 0 where
  win := launch0.win.to₀
  block_pos := launch0.block_pos
  stage_whole := launch0.stage_whole
  K := PEmpty
  osem k := k.elim
  ho := Pipeline.OwnSemFacts.none _
  hbody c := (body_obligation0 (Vt1 m) c).loose
  hwaits := Pipeline.hwaits_of_owed_zero _ _ _ _ L0 lv0 0 fun _ _ => rfl
  pre c := iprop(StableHlo.held (c : Thread nD τ) (Pipeline.ucRefs τ sig) (W1 m c) ∗ Rst c)
  post c := iprop(StableHlo.held (c : Thread nD τ) (Pipeline.ucRefs τ sig) (W2 m c) ∗ Rst c)
  X c := iprop(∃ r, prngReg c r)
  Y c := iprop(∃ r, prngReg c r)
  Z c := Pipeline.unscopedRest (Ix := Unit) (Name := ℕ) (U := UR sig nD τ) (Lvl := ℕ) spec0 c (Vt1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (Vt1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (Vt1 m c) (Vt2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over `pin pcs a p` unifies with the pinned configuration only when unification may unfold
-- plain definitions in a metavariable's type
set_option backward.isDefEq.respectTransparency.types false in
/-- REGION 1 (custom_call 1) over the thread state: entered from every unscoped buffer at `W3`, left at `W4`. Its
    arrays split out of the unscoped buffers at entry and put back at the exit contents; the generator register into the
    pipeline's invariant and out; nothing owed; no semaphore of the kernel's own. -/
def reg1 : Pipeline.RegionSeg (pcfgs (F := F)) adm (pdats m) () defs₀ Variants.none L0 lv0 1 where
  win := launch1.win.to₀
  block_pos := launch1.block_pos
  stage_whole := launch1.stage_whole
  K := PEmpty
  osem k := k.elim
  ho := Pipeline.OwnSemFacts.none _
  hbody c := (body_obligation1 (Vt3 m) c).loose
  hwaits := Pipeline.hwaits_of_owed_zero _ _ _ _ L0 lv0 1 fun _ _ => rfl
  pre c := iprop(StableHlo.held (c : Thread nD τ) (Pipeline.ucRefs τ sig) (W3 m c) ∗ Rst c)
  post c := iprop(StableHlo.held (c : Thread nD τ) (Pipeline.ucRefs τ sig) (W4 m c) ∗ Rst c)
  X c := iprop(∃ r, prngReg c r)
  Y c := iprop(∃ r, prngReg c r)
  Z c := Pipeline.unscopedRest (Ix := Unit) (Name := ℕ) (U := UR sig nD τ) (Lvl := ℕ) spec1 c (Vt3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (Vt3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (Vt3 m c) (Vt4 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over `pin pcs a p` unifies with the pinned configuration only when unification may unfold
-- plain definitions in a metavariable's type
set_option backward.isDefEq.respectTransparency.types false in
/-- REGION 2 (custom_call 2) over the thread state: entered from every unscoped buffer at `W5`, left at `W6`. Its
    arrays split out of the unscoped buffers at entry and put back at the exit contents; the generator register into the
    pipeline's invariant and out; nothing owed; no semaphore of the kernel's own. -/
def reg2 : Pipeline.RegionSeg (pcfgs (F := F)) adm (pdats m) () defs₀ Variants.none L0 lv0 2 where
  win := launch2.win.to₀
  block_pos := launch2.block_pos
  stage_whole := launch2.stage_whole
  K := PEmpty
  osem k := k.elim
  ho := Pipeline.OwnSemFacts.none _
  hbody c := (body_obligation2 (Vt5 m) c).loose
  hwaits := Pipeline.hwaits_of_owed_zero _ _ _ _ L0 lv0 2 fun _ _ => rfl
  pre c := iprop(StableHlo.held (c : Thread nD τ) (Pipeline.ucRefs τ sig) (W5 m c) ∗ Rst c)
  post c := iprop(StableHlo.held (c : Thread nD τ) (Pipeline.ucRefs τ sig) (W6 m c) ∗ Rst c)
  X c := iprop(∃ r, prngReg c r)
  Y c := iprop(∃ r, prngReg c r)
  Z c := Pipeline.unscopedRest (Ix := Unit) (Name := ℕ) (U := UR sig nD τ) (Lvl := ℕ) spec2 c (Vt5 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (Vt5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (Vt5 m c) (Vt6 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over `pin pcs a p` unifies with the pinned configuration only when unification may unfold
-- plain definitions in a metavariable's type
set_option backward.isDefEq.respectTransparency.types false in
/-- REGION 3 (custom_call 3) over the thread state: entered from every unscoped buffer at `W7`, left at `W8`. Its
    arrays split out of the unscoped buffers at entry and put back at the exit contents; the generator register into the
    pipeline's invariant and out; nothing owed; no semaphore of the kernel's own. -/
def reg3 : Pipeline.RegionSeg (pcfgs (F := F)) adm (pdats m) () defs₀ Variants.none L0 lv0 3 where
  win := launch3.win.to₀
  block_pos := launch3.block_pos
  stage_whole := launch3.stage_whole
  K := PEmpty
  osem k := k.elim
  ho := Pipeline.OwnSemFacts.none _
  hbody c := (body_obligation3 (Vt7 m) c).loose
  hwaits := Pipeline.hwaits_of_owed_zero _ _ _ _ L0 lv0 3 fun _ _ => rfl
  pre c := iprop(StableHlo.held (c : Thread nD τ) (Pipeline.ucRefs τ sig) (W7 m c) ∗ Rst c)
  post c := iprop(StableHlo.held (c : Thread nD τ) (Pipeline.ucRefs τ sig) (W8 m c) ∗ Rst c)
  X c := iprop(∃ r, prngReg c r)
  Y c := iprop(∃ r, prngReg c r)
  Z c := Pipeline.unscopedRest (Ix := Unit) (Name := ℕ) (U := UR sig nD τ) (Lvl := ℕ) spec3 c (Vt7 m c)
  hentry c := by
    rw [Pipeline.ownSems0_none]
    have hsplit := Pipeline.arrays_of_unscopedBufs (p := 3) (pcfgs (F := F)) adm (pdats m) launch3.win launch3.arr_whole c
      ((pdats m 3 c).share_full fun _ => rfl) (Vt7 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (Vt7 m c) (Vt8 m c) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over `pin pcs a p` unifies with the pinned configuration only when unification may unfold
-- plain definitions in a metavariable's type
set_option backward.isDefEq.respectTransparency.types false in
/-- REGION 4 (custom_call 4) over the thread state: entered from every unscoped buffer at `W9`, left at `W10`. Its
    arrays split out of the unscoped buffers at entry and put back at the exit contents; the generator register into the
    pipeline's invariant and out; nothing owed; no semaphore of the kernel's own. -/
def reg4 : Pipeline.RegionSeg (pcfgs (F := F)) adm (pdats m) () defs₀ Variants.none L0 lv0 4 where
  win := launch4.win.to₀
  block_pos := launch4.block_pos
  stage_whole := launch4.stage_whole
  K := PEmpty
  osem k := k.elim
  ho := Pipeline.OwnSemFacts.none _
  hbody c := (body_obligation4 (Vt9 m) c).loose
  hwaits := Pipeline.hwaits_of_owed_zero _ _ _ _ L0 lv0 4 fun _ _ => rfl
  pre c := iprop(StableHlo.held (c : Thread nD τ) (Pipeline.ucRefs τ sig) (W9 m c) ∗ Rst c)
  post c := iprop(StableHlo.held (c : Thread nD τ) (Pipeline.ucRefs τ sig) (W10 m c) ∗ Rst c)
  X c := iprop(∃ r, prngReg c r)
  Y c := iprop(∃ r, prngReg c r)
  Z c := Pipeline.unscopedRest (Ix := Unit) (Name := ℕ) (U := UR sig nD τ) (Lvl := ℕ) spec4 c (Vt9 m c)
  hentry c := by
    rw [Pipeline.ownSems0_none]
    have hsplit := Pipeline.arrays_of_unscopedBufs (p := 4) (pcfgs (F := F)) adm (pdats m) launch4.win launch4.arr_whole c
      ((pdats m 4 c).share_full fun _ => rfl) (Vt9 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m) ((pdats m 4 c).share_full fun _ => rfl)
      (Vt9 m c) (Vt10 m c) ((pdats m 4 c).arrAt · cfg4.N) (hF4 m c) (hrest4 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's 11 items in order: a host segment per stretch from its boundary's contents, a region per pallas_call. -/
abbrev runSegs : List (Pipeline.Seg (pcfgs (F := F)) adm (pdats m) () defs₀ Variants.none L0 lv0) :=
  [ .host (hseg hostOps0 hostOps0_sub hostOps0_fresh (W0 m)),
    .region (reg0 m),
    .host (hseg hostOps1 hostOps1_sub hostOps1_fresh (W2 m)),
    .region (reg1 m),
    .host (hseg hostOps2 hostOps2_sub hostOps2_fresh (W4 m)),
    .region (reg2 m),
    .host (hseg hostOps3 hostOps3_sub hostOps3_fresh (W6 m)),
    .region (reg3 m),
    .host (hseg hostOps4 hostOps4_sub hostOps4_fresh (W8 m)),
    .region (reg4 m),
    .host (hseg hostOps5 hostOps5_sub hostOps5_fresh (W10 m)) ]
/-- @main IS the run of the segments: @main is the chain of its items (`Gen.main_chain`), the segments' run the chain of
    their fragments (`Seg.run_eq_chain`), and the two lists of fragments are the same list. -/
theorem main_run (c : Dev nD) : main (F := F) c = Pipeline.Seg.run (runSegs m) := by
  rw [main_chain c, Pipeline.Seg.run_eq_chain]
  rfl

-- the library's several-regions launch theorem's implicit arguments are found by unifying its conclusion with this
-- one, which takes unfolding plain definitions in a metavariable's type
set_option backward.isDefEq.respectTransparency.types false in
/-- THE RUN: at the compiled mesh, from any memory with zero counters, every weakly fair execution of @main on the
    TensorCores terminates, nothing faulting, and every final memory holds each unscoped buffer of each core at the
    fold's last contents `W11`: the library's several-regions launch theorem over the segments, the last thread state read
    against the final state. -/
theorem run_all : θ_run defs (onTc (τ := τ) (main (F := F))) ⟨m, fun _ => 0, ρ⟩ (fun r => ∀ c : Dev nD,
      ∀ b ∈ Pipeline.ucRefs τ sig, r.2.mem ((c : Thread nD τ).1, b) = W11 m c b) :=
  Pipeline.θ_run_regions_kit (pcfgs (F := F)) adm (pdats m) () cellOf_inj emb₁ defs₀ Variants.none L0 lv0 m ρ main (runSegs m)
    (fun c Q => by rw [main_run m c])
    (by simp only [runSegs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ Rst c)) (Tₙ := Tend m)
    (hch := ⟨fun _ => .rfl, fun _ => .rfl, fun _ => .rfl, fun _ => .rfl, fun _ => .rfl, fun _ => .rfl, fun _ => .rfl,
      fun _ => .rfl, fun _ => .rfl, fun _ => .rfl, fun _ => .rfl, fun c => by
        show iprop(StableHlo.held (c : Thread nD τ) (Pipeline.ucRefs τ sig) (W11 m c) ∗ Rst c)
          ⊢ iprop(Tend m c ∗ ∃ W, owes (c : Thread nD τ) (0 : CellTallies nD τ sig Unit) W)
        iintro ⟨Hh, Hp, HO⟩
        isplitl [Hh Hp]
        · isplitl [Hh] <;> iassumption
        iexact HO⟩)
    (hinit := by
      refine Pipeline.initEach L0 lv0 fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m c b)
    (hfin := fun c s' => by
      iintro ⟨⟨Hh, -⟩, HSI⟩
      unfold StableHlo.held
      imodintro
      iapply (pointsTo_read_all (Pipeline.ucRefs τ sig) (fun b => (((c : Thread nD τ)).1, b)) (W11 m c) s')
      isplitl [Hh] <;> iassumption)
    (hQ := fun s h => h)

/-- THE FRAME: at the compiled mesh, from any memory with zero counters, every weakly fair execution of @main on the
    TensorCores terminates and every final memory has the argument arrays as launched: each argument is an unscoped
    buffer, read off `run_all` at `W11`, which at an argument is the launch memory (`W11_main_argK`). -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)) :=
  (θ_run defs _ _).mono (fun r h c =>
    ⟨(h c _ (mem_uc main_arg0 (by decide))).trans (W11_main_arg0 m c),
      (h c _ (mem_uc main_arg1 (by decide))).trans (W11_main_arg1 m c),
      (h c _ (mem_uc main_arg2 (by decide))).trans (W11_main_arg2 m c),
      (h c _ (mem_uc main_arg3 (by decide))).trans (W11_main_arg3 m c),
      (h c _ (mem_uc main_arg4 (by decide))).trans (W11_main_arg4 m c),
      (h c _ (mem_uc main_arg5 (by decide))).trans (W11_main_arg5 m c),
      (h c _ (mem_uc main_arg6 (by decide))).trans (W11_main_arg6 m c),
      (h c _ (mem_uc main_arg7 (by decide))).trans (W11_main_arg7 m c),
      (h c _ (mem_uc main_arg8 (by decide))).trans (W11_main_arg8 m c),
      (h c _ (mem_uc main_arg9 (by decide))).trans (W11_main_arg9 m c),
      (h c _ (mem_uc main_arg10 (by decide))).trans (W11_main_arg10 m c),
      (h c _ (mem_uc main_arg11 (by decide))).trans (W11_main_arg11 m c),
      (h c _ (mem_uc main_arg12 (by decide))).trans (W11_main_arg12 m c),
      (h c _ (mem_uc main_arg13 (by decide))).trans (W11_main_arg13 m c),
      (h c _ (mem_uc main_arg14 (by decide))).trans (W11_main_arg14 m c),
      (h c _ (mem_uc main_arg15 (by decide))).trans (W11_main_arg15 m c),
      (h c _ (mem_uc main_arg16 (by decide))).trans (W11_main_arg16 m c),
      (h c _ (mem_uc main_arg17 (by decide))).trans (W11_main_arg17 m c),
      (h c _ (mem_uc main_arg18 (by decide))).trans (W11_main_arg18 m c),
      (h c _ (mem_uc main_arg19 (by decide))).trans (W11_main_arg19 m c)⟩)
    (run_all m ρ)

end Cert.Kernel.Gen

end
-- ==== Proof.KIReg1.lean ====
import proofs.«402532_j352187319172_1_alg».proof.Proof.Gen.KernelIdeal.Launch
import proofs.«402532_j352187319172_1_alg».proof.Proof.Gen.KernelIdeal.Skeleton
import proofs.«402532_j352187319172_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # REGION 1 of @main: custom_call 1, `cc1__gin_layer_kernel` (pipeline 1), at the entry contents `V` -/

/-! ## The windows' blocks -/

/-- Window `w`'s block at point `t`, read off its array at the region-entry contents. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! ## The body's branch condition -/

/-- The condition of the body's one `scf.if`, from the grid coordinates: the second coordinate is zero. -/
abbrev cond1_0 (i : grid1.Coords) : Prop := (Scalar.cmpi .ne (Scalar.extui (Scalar.cmpi .eq (BitVec.ofNat 32 (i 1).val) 0#32)) 0#32) = 1#1

/-- It holds at the first point of each row of the grid — decided over the grid. -/
theorem hcond1_0 : ∀ t : Fin cfg1.N, cond1_0 (grid1.coords t) ↔ t.val % 10 = 0 :=
  (by decide +kernel : ∀ t : Fin grid1.N, cond1_0 (grid1.coords t) ↔ t.val % 10 = 0)

/-! ## Loads and stores of a whole buffer -/

theorem hz1_2 : (![0, 0] : Fin 2 → Nat) = fun _ => 0 := funext fun a => by fin_cases a <;> rfl
theorem hz1_3 : (![0, 0, 0] : Fin 3 → Nat) = fun _ => 0 := funext fun a => by fin_cases a <;> rfl

/-- A store of the whole buffer (the unit rectangle at zero offsets), made LAST, leaves its payload, whatever
    the view, the prior contents and the earlier stores. -/
theorem read_writes_whole1 {sg : RefSig} {κ : Kind} {sp : Space} {S : Shape} {e : EltTy} {Val : EltTy → Type}
    [∀ e, Nonempty (Val e)] (v : View sg κ sp S e) (f : v.ty.Contents Val) {off : Fin S.rank → Nat}
    (h : off = fun _ => 0) (inb : ∀ a, off a + S.size a ≤ S.size a) (w : S.Idx → Val e)
    (L : List (View.Piece Val S e)) :
    v.read Val (v.writes Val f ((⟨Rect.unit off S.size inb, w⟩ : View.Piece Val S e) :: L)) = w :=
  (View.read_writes_eq_canon v f _ (fun y => ⟨_, List.mem_cons_self, View.mem_set_unit_zero h inb y⟩)).trans
    (View.canon_cons_unit_zero h inb w L)

/-- A load of the whole buffer reads its contents. -/
theorem readAt_whole1 {sg : RefSig} {κ : Kind} {sp : Space} {S : Shape} {e : EltTy} {Val : EltTy → Type}
    (v : View sg κ sp S e) (f : v.ty.Contents Val) {off : Fin S.rank → Nat}
    (h : off = fun _ => 0) (inb : ∀ a, off a + S.size a ≤ S.size a) :
    v.readAt Val (Rect.unit off S.size inb).toLoadRect f = v.read Val f :=
  (View.readAt_eq_ld v f _).trans (View.ld_unit_zero h inb _)

/-! ## The body's triple, case by case -/

set_option maxHeartbeats 1000000 in
/-- The kernel body in CASE A (the point is the first of its row, `i 1 = 0`: the accumulator is zeroed first), on whole staging
    memrefs: the fourteen inputs' at contents `x0 … x13`, window 14's at anything, window 15's at anything. It runs
    to the continuation holding the inputs' as they were, window 14's at the layer's output block and window 15's at
    the point's contribution added to zeros: every load and store is of a whole buffer, so each buffer ends at the
    payload of the last store into it, and each load reads the contents (or, after a store, its payload). -/
theorem sound_kernel1_A (c : Dev nD) (E : Set ℕ) (i : grid1.Coords) (arg2 : Memref sig .tc .vmem S5000x64 .f32) (harg2 : arg2.IsWhole) (arg3 : Memref sig .tc .vmem S5000x1 .i32) (harg3 : arg3.IsWhole) (arg4 : Memref sig .tc .vmem S64x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S64x64 .f32) (harg10 : arg10.IsWhole) (arg11 : Memref sig .tc .vmem S1x64 .f32) (harg11 : arg11.IsWhole) (arg12 : Memref sig .tc .vmem S1x64 .f32) (harg12 : arg12.IsWhole) (arg13 : Memref sig .tc .vmem S1x64 .f32) (harg13 : arg13.IsWhole) (arg14 : Memref sig .tc .vmem S1x64 .f32) (harg14 : arg14.IsWhole) (arg15 : Memref sig .tc .vmem S1x64 .f32) (harg15 : arg15.IsWhole) (arg16 : Memref sig .tc .vmem S5000x64 .f32) (harg16 : arg16.IsWhole) (arg17 : Memref sig .tc .vmem S1x512x64 .f32) (harg17 : arg17.IsWhole) (hc0 : cond1_0 i)
    (x0 : Vec F S5000x64 .f32) (x1 : Vec F S5000x1 .i32) (x2 : Vec F S64x64 .f32) (x3 : Vec F S1x64 .f32) (x4 : Vec F S1x64 .f32) (x5 : Vec F S1x64 .f32) (x6 : Vec F S1x64 .f32) (x7 : Vec F S1x64 .f32) (x8 : Vec F S64x64 .f32) (x9 : Vec F S1x64 .f32) (x10 : Vec F S1x64 .f32) (x11 : Vec F S1x64 .f32) (x12 : Vec F S1x64 .f32) (x13 : Vec F S1x64 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ (∃ d, owns (c : Thread nD τ) arg16 fullShare d) ∗ (∃ d, owns (c : Thread nD τ) arg17 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare (k1_pay5 (k1_pay3 x0 x2 x3 x4 x7 x6 x5) (k1_pay4 x8) x9 x10 x13 x12 x11) ∗ owns (c : Thread nD τ) arg17 fullShare (k1_pay1 (k1_pay6 (k1_pay3 x0 x2 x3 x4 x7 x6 x5) (k1_pay4 x8) x9 x10 x13 x12 x11 x1) k1_pay2)) -∗ K ⟨⟩))
      ⊢ wp frame (wpE (defs₀ (F := F)) Variants.none c none) E (cc1__gin_layer_kernel i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
  simp only [cc1__gin_layer_kernel_eq_skeleton]; unfold cc1__gin_layer_kernel_skel
  simp only [k1_part1_eq_skeleton, k1_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%d14, %f14, -, H14⟩, ⟨%d15, %f15, -, H15⟩, Hk⟩
  subst hf0 hf1 hf2 hf3 hf4 hf5 hf6 hf7 hf8 hf9 hf10 hf11 hf12 hf13
  sl_exec (disch := first | exact hc0)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists _; isplitr
    swap; · iexact H14
    ipureintro
    refine (read_writes_whole1 (S := S5000x64) _ _ hz1_2 _ _ _).trans ?_
    sl_unfold_words
    simp only [readAt_whole1 (S := S5000x64) _ _ hz1_2, readAt_whole1 (S := S5000x1) _ _ hz1_2, readAt_whole1 (S := S64x64) _ _ hz1_2, readAt_whole1 (S := S1x64) _ _ hz1_2, readAt_whole1 (S := S1x512x64) _ _ hz1_3]
  iexists _; isplitr
  swap; · iexact H15
  ipureintro
  refine (read_writes_whole1 (S := S1x512x64) _ _ hz1_3 _ _ _).trans ?_
  sl_unfold_words
  simp only [readAt_whole1 (S := S5000x64) _ _ hz1_2, readAt_whole1 (S := S5000x1) _ _ hz1_2, readAt_whole1 (S := S64x64) _ _ hz1_2, readAt_whole1 (S := S1x64) _ _ hz1_2, readAt_whole1 (S := S1x512x64) _ _ hz1_3, View.readCov_unit_zero (S := S1x512x64) _ hz1_3]

set_option maxHeartbeats 1000000 in
/-- The kernel body in CASE B (`i 1 ≠ 0`: the accumulator is read as the point before left it), on whole staging
    memrefs: the fourteen inputs' at contents `x0 … x13`, window 14's at anything, window 15's at `xo`. It runs
    to the continuation holding the inputs' as they were, window 14's at the layer's output block and window 15's at
    the point's contribution added to `xo`: every load and store is of a whole buffer, so each buffer ends at the
    payload of the last store into it, and each load reads the contents (or, after a store, its payload). -/
theorem sound_kernel1_B (c : Dev nD) (E : Set ℕ) (i : grid1.Coords) (arg2 : Memref sig .tc .vmem S5000x64 .f32) (harg2 : arg2.IsWhole) (arg3 : Memref sig .tc .vmem S5000x1 .i32) (harg3 : arg3.IsWhole) (arg4 : Memref sig .tc .vmem S64x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S64x64 .f32) (harg10 : arg10.IsWhole) (arg11 : Memref sig .tc .vmem S1x64 .f32) (harg11 : arg11.IsWhole) (arg12 : Memref sig .tc .vmem S1x64 .f32) (harg12 : arg12.IsWhole) (arg13 : Memref sig .tc .vmem S1x64 .f32) (harg13 : arg13.IsWhole) (arg14 : Memref sig .tc .vmem S1x64 .f32) (harg14 : arg14.IsWhole) (arg15 : Memref sig .tc .vmem S1x64 .f32) (harg15 : arg15.IsWhole) (arg16 : Memref sig .tc .vmem S5000x64 .f32) (harg16 : arg16.IsWhole) (arg17 : Memref sig .tc .vmem S1x512x64 .f32) (harg17 : arg17.IsWhole) (hc0 : ¬cond1_0 i)
    (x0 : Vec F S5000x64 .f32) (x1 : Vec F S5000x1 .i32) (x2 : Vec F S64x64 .f32) (x3 : Vec F S1x64 .f32) (x4 : Vec F S1x64 .f32) (x5 : Vec F S1x64 .f32) (x6 : Vec F S1x64 .f32) (x7 : Vec F S1x64 .f32) (x8 : Vec F S64x64 .f32) (x9 : Vec F S1x64 .f32) (x10 : Vec F S1x64 .f32) (x11 : Vec F S1x64 .f32) (x12 : Vec F S1x64 .f32) (x13 : Vec F S1x64 .f32) (xo : Vec F S1x512x64 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ (∃ d, owns (c : Thread nD τ) arg16 fullShare d) ∗ owns (c : Thread nD τ) arg17 fullShare xo
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare (k1_pay5 (k1_pay3 x0 x2 x3 x4 x7 x6 x5) (k1_pay4 x8) x9 x10 x13 x12 x11) ∗ owns (c : Thread nD τ) arg17 fullShare (k1_pay1 (k1_pay6 (k1_pay3 x0 x2 x3 x4 x7 x6 x5) (k1_pay4 x8) x9 x10 x13 x12 x11 x1) xo)) -∗ K ⟨⟩))
      ⊢ wp frame (wpE (defs₀ (F := F)) Variants.none c none) E (cc1__gin_layer_kernel i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
  simp only [cc1__gin_layer_kernel_eq_skeleton]; unfold cc1__gin_layer_kernel_skel
  simp only [k1_part1_eq_skeleton, k1_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%d14, %f14, -, H14⟩, ⟨%f15, %hf15, H15⟩, Hk⟩
  subst hf0 hf1 hf2 hf3 hf4 hf5 hf6 hf7 hf8 hf9 hf10 hf11 hf12 hf13 hf15
  sl_exec (disch := first | exact hc0)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists _; isplitr
    swap; · iexact H14
    ipureintro
    refine (read_writes_whole1 (S := S5000x64) _ _ hz1_2 _ _ _).trans ?_
    sl_unfold_words
    simp only [readAt_whole1 (S := S5000x64) _ _ hz1_2, readAt_whole1 (S := S5000x1) _ _ hz1_2, readAt_whole1 (S := S64x64) _ _ hz1_2, readAt_whole1 (S := S1x64) _ _ hz1_2, readAt_whole1 (S := S1x512x64) _ _ hz1_3]
  iexists _; isplitr
  swap; · iexact H15
  ipureintro
  refine (read_writes_whole1 (S := S1x512x64) _ _ hz1_3 _ _ _).trans ?_
  sl_unfold_words
  simp only [readAt_whole1 (S := S5000x64) _ _ hz1_2, readAt_whole1 (S := S5000x1) _ _ hz1_2, readAt_whole1 (S := S64x64) _ _ hz1_2, readAt_whole1 (S := S1x64) _ _ hz1_2, readAt_whole1 (S := S1x512x64) _ _ hz1_3]

/-! ## What the body leaves in the output windows' buffers -/

/-- Window 14's buffer after the body at point `t`: the layer's output block, from the input windows' blocks. -/
def hout1 (c : Dev nD) (t : Fin cfg1.N) : Vec F S5000x64 .f32 :=
  k1_pay5 (k1_pay3 (iblk1 V c 0 t) (iblk1 V c 2 t) (iblk1 V c 3 t) (iblk1 V c 4 t) (iblk1 V c 7 t) (iblk1 V c 6 t) (iblk1 V c 5 t)) (k1_pay4 (iblk1 V c 8 t)) (iblk1 V c 9 t) (iblk1 V c 10 t) (iblk1 V c 13 t) (iblk1 V c 12 t) (iblk1 V c 11 t)

/-- What point `t` adds to the accumulator (window 15): the one-hot segment matrix of the batch block, transposed,
    times the layer's output block. -/
def contrib1 (c : Dev nD) (t : Fin cfg1.N) : FVec F S512x64 .f32 :=
  k1_pay6 (k1_pay3 (iblk1 V c 0 t) (iblk1 V c 2 t) (iblk1 V c 3 t) (iblk1 V c 4 t) (iblk1 V c 7 t) (iblk1 V c 6 t) (iblk1 V c 5 t)) (k1_pay4 (iblk1 V c 8 t)) (iblk1 V c 9 t) (iblk1 V c 10 t) (iblk1 V c 13 t) (iblk1 V c 12 t) (iblk1 V c 11 t) (iblk1 V c 1 t)

/-- THE ACCUMULATION. Window 15's buffer after the body at position `n`: at the first point of a row of the grid the
    point's contribution added to zeros, at any other point added to what the point before left (the buffer is not
    written back between them). -/
def outsAt1 (c : Dev nD) : (n : ℕ) → n < cfg1.N → Vec F S1x512x64 .f32
  | 0, hn => k1_pay1 (contrib1 V c ⟨0, hn⟩) k1_pay2
  | n + 1, hn =>
    if (n + 1) % 10 = 0 then k1_pay1 (contrib1 V c ⟨n + 1, hn⟩) k1_pay2
    else k1_pay1 (contrib1 V c ⟨n + 1, hn⟩) (outsAt1 c n (Nat.lt_of_succ_lt hn))

/-- `outsAt1` at the first point of a row: the contribution over zeros. -/
theorem outsAt1_first (c : Dev nD) (t : Fin cfg1.N) (h : t.val % 10 = 0) :
    outsAt1 V c t.val t.isLt = k1_pay1 (contrib1 V c t) k1_pay2 := by
  obtain ⟨n, hn⟩ := t
  cases n with
  | zero => exact rfl
  | succ n => exact (if_pos h).trans rfl

/-- `outsAt1` at any other point: the contribution over what the point before left. -/
theorem outsAt1_next (c : Dev nD) (t : Fin cfg1.N) (h : ¬t.val % 10 = 0) :
    outsAt1 V c t.val t.isLt = k1_pay1 (contrib1 V c t) (outsAt1 V c (t.val - 1) (Nat.lt_of_le_of_lt (Nat.sub_le _ _) t.isLt)) := by
  obtain ⟨n, hn⟩ := t
  cases n with
  | zero => exact (by exfalso; (try dsimp only at h); exact absurd (Nat.zero_mod _) h)
  | succ n => exact (if_neg h).trans rfl

/-! ## The pipeline's proof data -/

/-- The proof data of pipeline 1 on core `c`: the arrays as the region finds them (`V`); after the body at point
    `t` each input's buffer at its block, window 14's at `hout1` and window 15's at `outsAt1`; the invariant the
    scoped rest and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => iblk1 V c 8 t
    | ⟨9, _⟩ => iblk1 V c 9 t
    | ⟨10, _⟩ => iblk1 V c 10 t
    | ⟨11, _⟩ => iblk1 V c 11 t
    | ⟨12, _⟩ => iblk1 V c 12 t
    | ⟨13, _⟩ => iblk1 V c 13 t
    | ⟨14, _⟩ => hout1 V c t
    | ⟨15, _⟩ => outsAt1 V c t.val t.isLt
    | ⟨_ + 16, h⟩ => absurd h (Nat.not_lt.2 (Nat.le_add_left _ _))
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = iblk1 V c 8 t := by dsimp only [dat1]
theorem after1_9 (c : Dev nD) (t : Fin cfg1.N) : (dat1 V c).after 9 t = iblk1 V c 9 t := by dsimp only [dat1]
theorem after1_10 (c : Dev nD) (t : Fin cfg1.N) : (dat1 V c).after 10 t = iblk1 V c 10 t := by dsimp only [dat1]
theorem after1_11 (c : Dev nD) (t : Fin cfg1.N) : (dat1 V c).after 11 t = iblk1 V c 11 t := by dsimp only [dat1]
theorem after1_12 (c : Dev nD) (t : Fin cfg1.N) : (dat1 V c).after 12 t = iblk1 V c 12 t := by dsimp only [dat1]
theorem after1_13 (c : Dev nD) (t : Fin cfg1.N) : (dat1 V c).after 13 t = iblk1 V c 13 t := by dsimp only [dat1]
theorem after1_14 (c : Dev nD) (t : Fin cfg1.N) : (dat1 V c).after 14 t = hout1 V c t := by dsimp only [dat1]
theorem after1_15 (c : Dev nD) (t : Fin cfg1.N) : (dat1 V c).after 15 t = outsAt1 V c t.val t.isLt := by dsimp only [dat1]

/-- Each input's current staging buffer holds its block at every point, fetched there or not: unfetched, the block
    index has not moved (the windows are uncut and never idle). -/
theorem before1_0 (c : Dev nD) (t : Fin cfg1.N) (d) : (dat1 V c).before 0 t d = iblk1 V c 0 t :=
  ((dat1 V c).before_in_eq_fetched 0 rfl (fun _ => rfl) (fun _ _ _ => rfl) (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl) (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl) (fun t => by rw [after1_2]; unfold Dat.blockOf iblk1; rw [A_eq1]; try rfl) t d).trans
    (by unfold Dat.fetched Dat.blockOf iblk1; rw [A_eq1]; try rfl)
theorem before1_3 (c : Dev nD) (t : Fin cfg1.N) (d) : (dat1 V c).before 3 t d = iblk1 V c 3 t :=
  ((dat1 V c).before_in_eq_fetched 3 rfl (fun _ => rfl) (fun _ _ _ => rfl) (fun t => by rw [after1_3]; unfold Dat.blockOf iblk1; rw [A_eq1]; try rfl) t d).trans
    (by unfold Dat.fetched Dat.blockOf iblk1; rw [A_eq1]; try rfl)
theorem before1_4 (c : Dev nD) (t : Fin cfg1.N) (d) : (dat1 V c).before 4 t d = iblk1 V c 4 t :=
  ((dat1 V c).before_in_eq_fetched 4 rfl (fun _ => rfl) (fun _ _ _ => rfl) (fun t => by rw [after1_4]; unfold Dat.blockOf iblk1; rw [A_eq1]; try rfl) t d).trans
    (by unfold Dat.fetched Dat.blockOf iblk1; rw [A_eq1]; try rfl)
theorem before1_5 (c : Dev nD) (t : Fin cfg1.N) (d) : (dat1 V c).before 5 t d = iblk1 V c 5 t :=
  ((dat1 V c).before_in_eq_fetched 5 rfl (fun _ => rfl) (fun _ _ _ => rfl) (fun t => by rw [after1_5]; unfold Dat.blockOf iblk1; rw [A_eq1]; try rfl) t d).trans
    (by unfold Dat.fetched Dat.blockOf iblk1; rw [A_eq1]; try rfl)
theorem before1_6 (c : Dev nD) (t : Fin cfg1.N) (d) : (dat1 V c).before 6 t d = iblk1 V c 6 t :=
  ((dat1 V c).before_in_eq_fetched 6 rfl (fun _ => rfl) (fun _ _ _ => rfl) (fun t => by rw [after1_6]; unfold Dat.blockOf iblk1; rw [A_eq1]; try rfl) t d).trans
    (by unfold Dat.fetched Dat.blockOf iblk1; rw [A_eq1]; try rfl)
theorem before1_7 (c : Dev nD) (t : Fin cfg1.N) (d) : (dat1 V c).before 7 t d = iblk1 V c 7 t :=
  ((dat1 V c).before_in_eq_fetched 7 rfl (fun _ => rfl) (fun _ _ _ => rfl) (fun t => by rw [after1_7]; unfold Dat.blockOf iblk1; rw [A_eq1]; try rfl) t d).trans
    (by unfold Dat.fetched Dat.blockOf iblk1; rw [A_eq1]; try rfl)
theorem before1_8 (c : Dev nD) (t : Fin cfg1.N) (d) : (dat1 V c).before 8 t d = iblk1 V c 8 t :=
  ((dat1 V c).before_in_eq_fetched 8 rfl (fun _ => rfl) (fun _ _ _ => rfl) (fun t => by rw [after1_8]; unfold Dat.blockOf iblk1; rw [A_eq1]; try rfl) t d).trans
    (by unfold Dat.fetched Dat.blockOf iblk1; rw [A_eq1]; try rfl)
theorem before1_9 (c : Dev nD) (t : Fin cfg1.N) (d) : (dat1 V c).before 9 t d = iblk1 V c 9 t :=
  ((dat1 V c).before_in_eq_fetched 9 rfl (fun _ => rfl) (fun _ _ _ => rfl) (fun t => by rw [after1_9]; unfold Dat.blockOf iblk1; rw [A_eq1]; try rfl) t d).trans
    (by unfold Dat.fetched Dat.blockOf iblk1; rw [A_eq1]; try rfl)
theorem before1_10 (c : Dev nD) (t : Fin cfg1.N) (d) : (dat1 V c).before 10 t d = iblk1 V c 10 t :=
  ((dat1 V c).before_in_eq_fetched 10 rfl (fun _ => rfl) (fun _ _ _ => rfl) (fun t => by rw [after1_10]; unfold Dat.blockOf iblk1; rw [A_eq1]; try rfl) t d).trans
    (by unfold Dat.fetched Dat.blockOf iblk1; rw [A_eq1]; try rfl)
theorem before1_11 (c : Dev nD) (t : Fin cfg1.N) (d) : (dat1 V c).before 11 t d = iblk1 V c 11 t :=
  ((dat1 V c).before_in_eq_fetched 11 rfl (fun _ => rfl) (fun _ _ _ => rfl) (fun t => by rw [after1_11]; unfold Dat.blockOf iblk1; rw [A_eq1]; try rfl) t d).trans
    (by unfold Dat.fetched Dat.blockOf iblk1; rw [A_eq1]; try rfl)
theorem before1_12 (c : Dev nD) (t : Fin cfg1.N) (d) : (dat1 V c).before 12 t d = iblk1 V c 12 t :=
  ((dat1 V c).before_in_eq_fetched 12 rfl (fun _ => rfl) (fun _ _ _ => rfl) (fun t => by rw [after1_12]; unfold Dat.blockOf iblk1; rw [A_eq1]; try rfl) t d).trans
    (by unfold Dat.fetched Dat.blockOf iblk1; rw [A_eq1]; try rfl)
theorem before1_13 (c : Dev nD) (t : Fin cfg1.N) (d) : (dat1 V c).before 13 t d = iblk1 V c 13 t :=
  ((dat1 V c).before_in_eq_fetched 13 rfl (fun _ => rfl) (fun _ _ _ => rfl) (fun t => by rw [after1_13]; unfold Dat.blockOf iblk1; rw [A_eq1]; try rfl) t d).trans
    (by unfold Dat.fetched Dat.blockOf iblk1; rw [A_eq1]; try rfl)

/-- At a point that is not the first of its row window 15's current staging buffer holds what the body left at the
    point before: the point is not the first, the buffer was not written back between, the window is live and uncut. -/
theorem before1_15_B (c : Dev nD) (t : Fin cfg1.N) (h0 : ¬t.val % 10 = 0) (d) :
    (dat1 V c).before 15 t d = outsAt1 V c (t.val - 1) (Nat.lt_of_le_of_lt (Nat.sub_le _ _) t.isLt) := by
  have hN : t.val < 20 := lt_of_lt_of_eq t.isLt (show cfg1.N = 20 from N_1)
  rw [Dat.before_out_kept _ 15 rfl t (by omega) (Bool.eq_false_iff.mpr fun h => by have := (flush1_15 _).mp h; dsimp only at this; omega)
    (fun _ => rfl) (fun _ _ => rfl)]
  dsimp only [dat1]

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d))
    ∗ (∃ d, owns (c : Thread nD τ) (st1_9 t) fullShare ((dat1 V c).before 9 t d))
    ∗ (∃ d, owns (c : Thread nD τ) (st1_10 t) fullShare ((dat1 V c).before 10 t d))
    ∗ (∃ d, owns (c : Thread nD τ) (st1_11 t) fullShare ((dat1 V c).before 11 t d))
    ∗ (∃ d, owns (c : Thread nD τ) (st1_12 t) fullShare ((dat1 V c).before 12 t d))
    ∗ (∃ d, owns (c : Thread nD τ) (st1_13 t) fullShare ((dat1 V c).before 13 t d))
    ∗ (∃ d, owns (c : Thread nD τ) (st1_14 t) fullShare ((dat1 V c).before 14 t d))
    ∗ (∃ d, owns (c : Thread nD τ) (st1_15 t) fullShare ((dat1 V c).before 15 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t)
    ∗ owns (c : Thread nD τ) (st1_8 t) fullShare ((dat1 V c).after 8 t)
    ∗ owns (c : Thread nD τ) (st1_9 t) fullShare ((dat1 V c).after 9 t)
    ∗ owns (c : Thread nD τ) (st1_10 t) fullShare ((dat1 V c).after 10 t)
    ∗ owns (c : Thread nD τ) (st1_11 t) fullShare ((dat1 V c).after 11 t)
    ∗ owns (c : Thread nD τ) (st1_12 t) fullShare ((dat1 V c).after 12 t)
    ∗ owns (c : Thread nD τ) (st1_13 t) fullShare ((dat1 V c).after 13 t)
    ∗ owns (c : Thread nD τ) (st1_14 t) fullShare ((dat1 V c).after 14 t)
    ∗ owns (c : Thread nD τ) (st1_15 t) fullShare ((dat1 V c).after 15 t))

set_option maxHeartbeats 1600000 in
/-- The body at any point: the inputs' memrefs hold their blocks; the closed form of the condition says which case
    the point is in; in the second case window 15's memref holds what the point before left; so the case's triple
    applies; the invariant and the core's `owes` pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7, before1_8, before1_9, before1_10, before1_11, before1_12, before1_13]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8, after1_9, after1_10, after1_11, after1_12, after1_13, after1_14, after1_15]
  have hN : t.val < 20 := lt_of_lt_of_eq t.isLt (show cfg1.N = 20 from N_1)
  by_cases h0 : t.val % 10 = 0
  · rw [outsAt1_first V c t h0]
    unfold hout1 contrib1
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
    iapply (sound_kernel1_A c Set.univ (grid1.coords t) _ _ _ _ _ _ _ _ _ _ _ _ _ _ _ _ _ _ _ _ _ _ _ _ _ _ _ _ _ _ _ _ ((hcond1_0 t).mpr h0) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) (iblk1 V c 13 t) _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexists _; iexact H14
    isplitl [H15]; · iexists _; iexact H15
    iintro ⟨H0, H1, H2, H3, H4, H5, H6, H7, H8, H9, H10, H11, H12, H13, H14, H15⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    iexact H15
  · rw [outsAt1_next V c t h0]
    simp only [before1_15_B V c t h0]
    unfold hout1 contrib1
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
    iapply (sound_kernel1_B c Set.univ (grid1.coords t) _ _ _ _ _ _ _ _ _ _ _ _ _ _ _ _ _ _ _ _ _ _ _ _ _ _ _ _ _ _ _ _ (fun h => h0 ((hcond1_0 t).mp h)) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) (iblk1 V c 13 t) _ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexists _; iexact H14
    isplitl [H15]; · iexact H15
    iintro ⟨H0, H1, H2, H3, H4, H5, H6, H7, H8, H9, H10, H11, H12, H13, H14, H15⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    iexact H15

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Gen

end
-- ==== Proof.KIRun.lean ====
/- THE RUN OF @main of `KernelIdeal`, a program of 5 kernel regions among 6 stretches of host operations, with every
   unscoped buffer NAMED at the end: the buffers' contents at each boundary between two items as a fold from the launch
   memory (`Gen.WJ`: a stretch's `StableHlo.after`; a region's arrays at what its write-backs leave, every other buffer
   as entered), every pipeline's proof data at its region's entry contents (`Gen.pdats`), one segment per item over the
   thread state "every unscoped buffer whole at the boundary's contents, the generator register at some state, nothing
   owed", the launch (`Gen.run_all`: every final memory holds each unscoped buffer at `W11`), and the frame claim read
   off it (`Gen.frame`: no stretch writes an argument and no region has one among its output arrays). Stated at any
   float instance `F`. -/
import proofs.«402532_j352187319172_1_alg».proof.Proof.KIReg0
import proofs.«402532_j352187319172_1_alg».proof.Proof.KIReg1
import proofs.«402532_j352187319172_1_alg».proof.Proof.KIReg2
import proofs.«402532_j352187319172_1_alg».proof.Proof.KIReg3
import proofs.«402532_j352187319172_1_alg».proof.Proof.KIReg4
import proofs.«402532_j352187319172_1_alg».proof.Proof.Gen.KernelIdeal.Regions

-- decided memberships over 416 references and 16 windows recurse past the default depth
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary: a fold through @main -/

/-- Core `c`'s buffers at launch. -/
abbrev W0 (c : Dev nD) : Valuation τ sig (Elt F) := fun b => m (c, b)

/-- After `hostOps0` (region 0's entry). -/
abbrev W1 (c : Dev nD) : Valuation τ sig (Elt F) := StableHlo.after hostOps0 (W0 m c)
/-- The same read at the TensorCore's references (what region 0's proof data take). -/
abbrev Vt1 : (c : Dev nD) → (b : Ref sig .tc) → Buf (Elt F) ((c : Thread nD τ).loc b) := fun c b => W1 m c b
/-- At region 0's exit: its arrays at what the pipeline leaves (the inputs as entered, each output's write-backs
    folded: `Dat.arrAt … N`), every other buffer as entered. -/
def W2 (c : Dev nD) : Valuation τ sig (Elt F) :=
  Pipeline.withArrays spec0 c (W1 m c) fun w => (dat0 (Vt1 m) c).arrAt w cfg0.N
theorem W2_arr (c : Dev nD) (w : Fin cfg0.W) :
    W2 m c (Proc.devRef .tc (Pipeline.arrRef spec0 w)) = (dat0 (Vt1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
/-- The same read at the TensorCore's references (region 0's exit contents). -/
abbrev Vt2 : (c : Dev nD) → (b : Ref sig .tc) → Buf (Elt F) ((c : Thread nD τ).loc b) := fun c b => W2 m c b
/-- At region 0's exit each of its arrays holds what the pipeline leaves (`hF0`) and every other buffer what it held
    at entry (`hrest0`). -/
theorem hF0 (c : Dev nD) (w : Fin cfg0.W) : (dat0 (Vt1 m) c).arrAt w cfg0.N = Vt2 m c (Pipeline.arrRef spec0 w) :=
  (W2_arr m c w).symm
theorem hrest0 (c : Dev nD) : ∀ b, b ∉ Finset.univ.image (Pipeline.arrRef spec0) → Vt2 m c b = Vt1 m c b :=
  fun b hb => W2_of_ne m c b fun w e => hb (Finset.mem_image.mpr ⟨w, Finset.mem_univ _, e⟩)
/-- Region 0's output windows' arrays are `main_v51_0` and `main_v51_1`. -/
theorem outs0 : ∀ w : Fin 16, (cfg0.win w).isOut = true → Pipeline.arrRef spec0 w ∈ ([main_v51_0, main_v51_1] : List (Ref sig .tc)) := by
  decide
/-- A buffer that is no output array of region 0 leaves it as entered: an input window's array is never written
    (`Dat.arrAt_in`), a buffer of no window bypasses the region. -/
theorem W2_of (c : Dev nD) (r : Ref sig .tc) (h : r ∉ ([main_v51_0, main_v51_1] : List (Ref sig .tc))) :
    W2 m c (Proc.devRef .tc r) = W1 m c (Proc.devRef .tc r) := by
  by_cases hr : ∃ w, Pipeline.arrRef spec0 w = r
  · obtain ⟨w, rfl⟩ := hr
    have hin : (cfg0.win w).isOut = false := by
      cases hh : (cfg0.win w).isOut
      · rfl
      · exact absurd (outs0 w hh) h
    exact (W2_arr m c w).trans (((dat0 (Vt1 m) c).arrAt_in w hin _).trans (A_eq0 (Vt1 m) c w))
  · exact W2_of_ne m c r fun w e => hr ⟨w, e⟩
/-- A buffer `hostOps0` does not write keeps its contents through the stretch. -/
theorem W1_of (c : Dev nD) (r : Ref sig .tc) (h : r ∉ hostOps0_W) :
    W1 m c (Proc.devRef .tc r) = W0 m c (Proc.devRef .tc r) :=
  StableHlo.after_of_writes_sub hostOps0 _ hostOps0_writes h

/-- After `hostOps1` (region 1's entry). -/
abbrev W3 (c : Dev nD) : Valuation τ sig (Elt F) := StableHlo.after hostOps1 (W2 m c)
/-- The same read at the TensorCore's references (what region 1's proof data take). -/
abbrev Vt3 : (c : Dev nD) → (b : Ref sig .tc) → Buf (Elt F) ((c : Thread nD τ).loc b) := fun c b => W3 m c b
/-- At region 1's exit: its arrays at what the pipeline leaves (the inputs as entered, each output's write-backs
    folded: `Dat.arrAt … N`), every other buffer as entered. -/
def W4 (c : Dev nD) : Valuation τ sig (Elt F) :=
  Pipeline.withArrays spec1 c (W3 m c) fun w => (dat1 (Vt3 m) c).arrAt w cfg1.N
theorem W4_arr (c : Dev nD) (w : Fin cfg1.W) :
    W4 m c (Proc.devRef .tc (Pipeline.arrRef spec1 w)) = (dat1 (Vt3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
/-- The same read at the TensorCore's references (region 1's exit contents). -/
abbrev Vt4 : (c : Dev nD) → (b : Ref sig .tc) → Buf (Elt F) ((c : Thread nD τ).loc b) := fun c b => W4 m c b
/-- At region 1's exit each of its arrays holds what the pipeline leaves (`hF1`) and every other buffer what it held
    at entry (`hrest1`). -/
theorem hF1 (c : Dev nD) (w : Fin cfg1.W) : (dat1 (Vt3 m) c).arrAt w cfg1.N = Vt4 m c (Pipeline.arrRef spec1 w) :=
  (W4_arr m c w).symm
theorem hrest1 (c : Dev nD) : ∀ b, b ∉ Finset.univ.image (Pipeline.arrRef spec1) → Vt4 m c b = Vt3 m c b :=
  fun b hb => W4_of_ne m c b fun w e => hb (Finset.mem_image.mpr ⟨w, Finset.mem_univ _, e⟩)
/-- Region 1's output windows' arrays are `main_v103_0` and `main_v103_1`. -/
theorem outs1 : ∀ w : Fin 16, (cfg1.win w).isOut = true → Pipeline.arrRef spec1 w ∈ ([main_v103_0, main_v103_1] : List (Ref sig .tc)) := by
  decide
/-- A buffer that is no output array of region 1 leaves it as entered: an input window's array is never written
    (`Dat.arrAt_in`), a buffer of no window bypasses the region. -/
theorem W4_of (c : Dev nD) (r : Ref sig .tc) (h : r ∉ ([main_v103_0, main_v103_1] : List (Ref sig .tc))) :
    W4 m c (Proc.devRef .tc r) = W3 m c (Proc.devRef .tc r) := by
  by_cases hr : ∃ w, Pipeline.arrRef spec1 w = r
  · obtain ⟨w, rfl⟩ := hr
    have hin : (cfg1.win w).isOut = false := by
      cases hh : (cfg1.win w).isOut
      · rfl
      · exact absurd (outs1 w hh) h
    exact (W4_arr m c w).trans (((dat1 (Vt3 m) c).arrAt_in w hin _).trans (A_eq1 (Vt3 m) c w))
  · exact W4_of_ne m c r fun w e => hr ⟨w, e⟩
/-- A buffer `hostOps1` does not write keeps its contents through the stretch. -/
theorem W3_of (c : Dev nD) (r : Ref sig .tc) (h : r ∉ hostOps1_W) :
    W3 m c (Proc.devRef .tc r) = W2 m c (Proc.devRef .tc r) :=
  StableHlo.after_of_writes_sub hostOps1 _ hostOps1_writes h

/-- After `hostOps2` (region 2's entry). -/
abbrev W5 (c : Dev nD) : Valuation τ sig (Elt F) := StableHlo.after hostOps2 (W4 m c)
/-- The same read at the TensorCore's references (what region 2's proof data take). -/
abbrev Vt5 : (c : Dev nD) → (b : Ref sig .tc) → Buf (Elt F) ((c : Thread nD τ).loc b) := fun c b => W5 m c b
/-- At region 2's exit: its arrays at what the pipeline leaves (the inputs as entered, each output's write-backs
    folded: `Dat.arrAt … N`), every other buffer as entered. -/
def W6 (c : Dev nD) : Valuation τ sig (Elt F) :=
  Pipeline.withArrays spec2 c (W5 m c) fun w => (dat2 (Vt5 m) c).arrAt w cfg2.N
theorem W6_arr (c : Dev nD) (w : Fin cfg2.W) :
    W6 m c (Proc.devRef .tc (Pipeline.arrRef spec2 w)) = (dat2 (Vt5 m) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m c (Proc.devRef .tc b) = W5 m c (Proc.devRef .tc b) := by
  unfold W6; exact Pipeline.withArrays_of_ne spec2 c _ _ b hb
/-- The same read at the TensorCore's references (region 2's exit contents). -/
abbrev Vt6 : (c : Dev nD) → (b : Ref sig .tc) → Buf (Elt F) ((c : Thread nD τ).loc b) := fun c b => W6 m c b
/-- At region 2's exit each of its arrays holds what the pipeline leaves (`hF2`) and every other buffer what it held
    at entry (`hrest2`). -/
theorem hF2 (c : Dev nD) (w : Fin cfg2.W) : (dat2 (Vt5 m) c).arrAt w cfg2.N = Vt6 m c (Pipeline.arrRef spec2 w) :=
  (W6_arr m c w).symm
theorem hrest2 (c : Dev nD) : ∀ b, b ∉ Finset.univ.image (Pipeline.arrRef spec2) → Vt6 m c b = Vt5 m c b :=
  fun b hb => W6_of_ne m c b fun w e => hb (Finset.mem_image.mpr ⟨w, Finset.mem_univ _, e⟩)
/-- Region 2's output windows' arrays are `main_v155_0` and `main_v155_1`. -/
theorem outs2 : ∀ w : Fin 16, (cfg2.win w).isOut = true → Pipeline.arrRef spec2 w ∈ ([main_v155_0, main_v155_1] : List (Ref sig .tc)) := by
  decide
/-- A buffer that is no output array of region 2 leaves it as entered: an input window's array is never written
    (`Dat.arrAt_in`), a buffer of no window bypasses the region. -/
theorem W6_of (c : Dev nD) (r : Ref sig .tc) (h : r ∉ ([main_v155_0, main_v155_1] : List (Ref sig .tc))) :
    W6 m c (Proc.devRef .tc r) = W5 m c (Proc.devRef .tc r) := by
  by_cases hr : ∃ w, Pipeline.arrRef spec2 w = r
  · obtain ⟨w, rfl⟩ := hr
    have hin : (cfg2.win w).isOut = false := by
      cases hh : (cfg2.win w).isOut
      · rfl
      · exact absurd (outs2 w hh) h
    exact (W6_arr m c w).trans (((dat2 (Vt5 m) c).arrAt_in w hin _).trans (A_eq2 (Vt5 m) c w))
  · exact W6_of_ne m c r fun w e => hr ⟨w, e⟩
/-- A buffer `hostOps2` does not write keeps its contents through the stretch. -/
theorem W5_of (c : Dev nD) (r : Ref sig .tc) (h : r ∉ hostOps2_W) :
    W5 m c (Proc.devRef .tc r) = W4 m c (Proc.devRef .tc r) :=
  StableHlo.after_of_writes_sub hostOps2 _ hostOps2_writes h

/-- After `hostOps3` (region 3's entry). -/
abbrev W7 (c : Dev nD) : Valuation τ sig (Elt F) := StableHlo.after hostOps3 (W6 m c)
/-- The same read at the TensorCore's references (what region 3's proof data take). -/
abbrev Vt7 : (c : Dev nD) → (b : Ref sig .tc) → Buf (Elt F) ((c : Thread nD τ).loc b) := fun c b => W7 m c b
/-- At region 3's exit: its arrays at what the pipeline leaves (the inputs as entered, each output's write-backs
    folded: `Dat.arrAt … N`), every other buffer as entered. -/
def W8 (c : Dev nD) : Valuation τ sig (Elt F) :=
  Pipeline.withArrays spec3 c (W7 m c) fun w => (dat3 (Vt7 m) c).arrAt w cfg3.N
theorem W8_arr (c : Dev nD) (w : Fin cfg3.W) :
    W8 m c (Proc.devRef .tc (Pipeline.arrRef spec3 w)) = (dat3 (Vt7 m) c).arrAt w cfg3.N := by
  unfold W8; exact Pipeline.withArrays_arr spec3 launch3.win.arr_inj c _ _ w
theorem W8_of_ne (c : Dev nD) (b : Ref sig .tc) (hb : ∀ w, Pipeline.arrRef spec3 w ≠ b) :
    W8 m c (Proc.devRef .tc b) = W7 m c (Proc.devRef .tc b) := by
  unfold W8; exact Pipeline.withArrays_of_ne spec3 c _ _ b hb
/-- The same read at the TensorCore's references (region 3's exit contents). -/
abbrev Vt8 : (c : Dev nD) → (b : Ref sig .tc) → Buf (Elt F) ((c : Thread nD τ).loc b) := fun c b => W8 m c b
/-- At region 3's exit each of its arrays holds what the pipeline leaves (`hF3`) and every other buffer what it held
    at entry (`hrest3`). -/
theorem hF3 (c : Dev nD) (w : Fin cfg3.W) : (dat3 (Vt7 m) c).arrAt w cfg3.N = Vt8 m c (Pipeline.arrRef spec3 w) :=
  (W8_arr m c w).symm
theorem hrest3 (c : Dev nD) : ∀ b, b ∉ Finset.univ.image (Pipeline.arrRef spec3) → Vt8 m c b = Vt7 m c b :=
  fun b hb => W8_of_ne m c b fun w e => hb (Finset.mem_image.mpr ⟨w, Finset.mem_univ _, e⟩)
/-- Region 3's output windows' arrays are `main_v207_0` and `main_v207_1`. -/
theorem outs3 : ∀ w : Fin 16, (cfg3.win w).isOut = true → Pipeline.arrRef spec3 w ∈ ([main_v207_0, main_v207_1] : List (Ref sig .tc)) := by
  decide
/-- A buffer that is no output array of region 3 leaves it as entered: an input window's array is never written
    (`Dat.arrAt_in`), a buffer of no window bypasses the region. -/
theorem W8_of (c : Dev nD) (r : Ref sig .tc) (h : r ∉ ([main_v207_0, main_v207_1] : List (Ref sig .tc))) :
    W8 m c (Proc.devRef .tc r) = W7 m c (Proc.devRef .tc r) := by
  by_cases hr : ∃ w, Pipeline.arrRef spec3 w = r
  · obtain ⟨w, rfl⟩ := hr
    have hin : (cfg3.win w).isOut = false := by
      cases hh : (cfg3.win w).isOut
      · rfl
      · exact absurd (outs3 w hh) h
    exact (W8_arr m c w).trans (((dat3 (Vt7 m) c).arrAt_in w hin _).trans (A_eq3 (Vt7 m) c w))
  · exact W8_of_ne m c r fun w e => hr ⟨w, e⟩
/-- A buffer `hostOps3` does not write keeps its contents through the stretch. -/
theorem W7_of (c : Dev nD) (r : Ref sig .tc) (h : r ∉ hostOps3_W) :
    W7 m c (Proc.devRef .tc r) = W6 m c (Proc.devRef .tc r) :=
  StableHlo.after_of_writes_sub hostOps3 _ hostOps3_writes h

/-- After `hostOps4` (region 4's entry). -/
abbrev W9 (c : Dev nD) : Valuation τ sig (Elt F) := StableHlo.after hostOps4 (W8 m c)
/-- The same read at the TensorCore's references (what region 4's proof data take). -/
abbrev Vt9 : (c : Dev nD) → (b : Ref sig .tc) → Buf (Elt F) ((c : Thread nD τ).loc b) := fun c b => W9 m c b
/-- At region 4's exit: its arrays at what the pipeline leaves (the inputs as entered, each output's write-backs
    folded: `Dat.arrAt … N`), every other buffer as entered. -/
def W10 (c : Dev nD) : Valuation τ sig (Elt F) :=
  Pipeline.withArrays spec4 c (W9 m c) fun w => (dat4 (Vt9 m) c).arrAt w cfg4.N
theorem W10_arr (c : Dev nD) (w : Fin cfg4.W) :
    W10 m c (Proc.devRef .tc (Pipeline.arrRef spec4 w)) = (dat4 (Vt9 m) c).arrAt w cfg4.N := by
  unfold W10; exact Pipeline.withArrays_arr spec4 launch4.win.arr_inj c _ _ w
theorem W10_of_ne (c : Dev nD) (b : Ref sig .tc) (hb : ∀ w, Pipeline.arrRef spec4 w ≠ b) :
    W10 m c (Proc.devRef .tc b) = W9 m c (Proc.devRef .tc b) := by
  unfold W10; exact Pipeline.withArrays_of_ne spec4 c _ _ b hb
/-- The same read at the TensorCore's references (region 4's exit contents). -/
abbrev Vt10 : (c : Dev nD) → (b : Ref sig .tc) → Buf (Elt F) ((c : Thread nD τ).loc b) := fun c b => W10 m c b
/-- At region 4's exit each of its arrays holds what the pipeline leaves (`hF4`) and every other buffer what it held
    at entry (`hrest4`). -/
theorem hF4 (c : Dev nD) (w : Fin cfg4.W) : (dat4 (Vt9 m) c).arrAt w cfg4.N = Vt10 m c (Pipeline.arrRef spec4 w) :=
  (W10_arr m c w).symm
theorem hrest4 (c : Dev nD) : ∀ b, b ∉ Finset.univ.image (Pipeline.arrRef spec4) → Vt10 m c b = Vt9 m c b :=
  fun b hb => W10_of_ne m c b fun w e => hb (Finset.mem_image.mpr ⟨w, Finset.mem_univ _, e⟩)
/-- Region 4's output windows' arrays are `main_v259_0` and `main_v259_1`. -/
theorem outs4 : ∀ w : Fin 16, (cfg4.win w).isOut = true → Pipeline.arrRef spec4 w ∈ ([main_v259_0, main_v259_1] : List (Ref sig .tc)) := by
  decide
/-- A buffer that is no output array of region 4 leaves it as entered: an input window's array is never written
    (`Dat.arrAt_in`), a buffer of no window bypasses the region. -/
theorem W10_of (c : Dev nD) (r : Ref sig .tc) (h : r ∉ ([main_v259_0, main_v259_1] : List (Ref sig .tc))) :
    W10 m c (Proc.devRef .tc r) = W9 m c (Proc.devRef .tc r) := by
  by_cases hr : ∃ w, Pipeline.arrRef spec4 w = r
  · obtain ⟨w, rfl⟩ := hr
    have hin : (cfg4.win w).isOut = false := by
      cases hh : (cfg4.win w).isOut
      · rfl
      · exact absurd (outs4 w hh) h
    exact (W10_arr m c w).trans (((dat4 (Vt9 m) c).arrAt_in w hin _).trans (A_eq4 (Vt9 m) c w))
  · exact W10_of_ne m c r fun w e => hr ⟨w, e⟩
/-- A buffer `hostOps4` does not write keeps its contents through the stretch. -/
theorem W9_of (c : Dev nD) (r : Ref sig .tc) (h : r ∉ hostOps4_W) :
    W9 m c (Proc.devRef .tc r) = W8 m c (Proc.devRef .tc r) :=
  StableHlo.after_of_writes_sub hostOps4 _ hostOps4_writes h

/-- After `hostOps5`, the tail of @main: what the program ends at. -/
abbrev W11 (c : Dev nD) : Valuation τ sig (Elt F) := StableHlo.after hostOps5 (W10 m c)
/-- A buffer `hostOps5` does not write keeps its contents through the stretch. -/
theorem W11_of (c : Dev nD) (r : Ref sig .tc) (h : r ∉ hostOps5_W) :
    W11 m c (Proc.devRef .tc r) = W10 m c (Proc.devRef .tc r) :=
  StableHlo.after_of_writes_sub hostOps5 _ hostOps5_writes h

/-! ### The arguments end as launched: no host operation writes one and none is a region's output array, so the fold
    at an argument's buffer walks back to the launch memory -/

theorem W11_main_arg0 (c : Dev nD) : W11 m c (Proc.devRef .tc main_arg0) = m ((c : Thread nD τ).loc main_arg0) :=
  (W11_of m c main_arg0 (by decide)).trans <| (W10_of m c main_arg0 (by decide)).trans <| (W9_of m c main_arg0 (by decide)).trans <| (W8_of m c main_arg0 (by decide)).trans <| (W7_of m c main_arg0 (by decide)).trans <| (W6_of m c main_arg0 (by decide)).trans <| (W5_of m c main_arg0 (by decide)).trans <| (W4_of m c main_arg0 (by decide)).trans <| (W3_of m c main_arg0 (by decide)).trans <| (W2_of m c main_arg0 (by decide)).trans <| (W1_of m c main_arg0 (by decide)).trans <| rfl
theorem W11_main_arg1 (c : Dev nD) : W11 m c (Proc.devRef .tc main_arg1) = m ((c : Thread nD τ).loc main_arg1) :=
  (W11_of m c main_arg1 (by decide)).trans <| (W10_of m c main_arg1 (by decide)).trans <| (W9_of m c main_arg1 (by decide)).trans <| (W8_of m c main_arg1 (by decide)).trans <| (W7_of m c main_arg1 (by decide)).trans <| (W6_of m c main_arg1 (by decide)).trans <| (W5_of m c main_arg1 (by decide)).trans <| (W4_of m c main_arg1 (by decide)).trans <| (W3_of m c main_arg1 (by decide)).trans <| (W2_of m c main_arg1 (by decide)).trans <| (W1_of m c main_arg1 (by decide)).trans <| rfl
theorem W11_main_arg2 (c : Dev nD) : W11 m c (Proc.devRef .tc main_arg2) = m ((c : Thread nD τ).loc main_arg2) :=
  (W11_of m c main_arg2 (by decide)).trans <| (W10_of m c main_arg2 (by decide)).trans <| (W9_of m c main_arg2 (by decide)).trans <| (W8_of m c main_arg2 (by decide)).trans <| (W7_of m c main_arg2 (by decide)).trans <| (W6_of m c main_arg2 (by decide)).trans <| (W5_of m c main_arg2 (by decide)).trans <| (W4_of m c main_arg2 (by decide)).trans <| (W3_of m c main_arg2 (by decide)).trans <| (W2_of m c main_arg2 (by decide)).trans <| (W1_of m c main_arg2 (by decide)).trans <| rfl
theorem W11_main_arg3 (c : Dev nD) : W11 m c (Proc.devRef .tc main_arg3) = m ((c : Thread nD τ).loc main_arg3) :=
  (W11_of m c main_arg3 (by decide)).trans <| (W10_of m c main_arg3 (by decide)).trans <| (W9_of m c main_arg3 (by decide)).trans <| (W8_of m c main_arg3 (by decide)).trans <| (W7_of m c main_arg3 (by decide)).trans <| (W6_of m c main_arg3 (by decide)).trans <| (W5_of m c main_arg3 (by decide)).trans <| (W4_of m c main_arg3 (by decide)).trans <| (W3_of m c main_arg3 (by decide)).trans <| (W2_of m c main_arg3 (by decide)).trans <| (W1_of m c main_arg3 (by decide)).trans <| rfl
theorem W11_main_arg4 (c : Dev nD) : W11 m c (Proc.devRef .tc main_arg4) = m ((c : Thread nD τ).loc main_arg4) :=
  (W11_of m c main_arg4 (by decide)).trans <| (W10_of m c main_arg4 (by decide)).trans <| (W9_of m c main_arg4 (by decide)).trans <| (W8_of m c main_arg4 (by decide)).trans <| (W7_of m c main_arg4 (by decide)).trans <| (W6_of m c main_arg4 (by decide)).trans <| (W5_of m c main_arg4 (by decide)).trans <| (W4_of m c main_arg4 (by decide)).trans <| (W3_of m c main_arg4 (by decide)).trans <| (W2_of m c main_arg4 (by decide)).trans <| (W1_of m c main_arg4 (by decide)).trans <| rfl
theorem W11_main_arg5 (c : Dev nD) : W11 m c (Proc.devRef .tc main_arg5) = m ((c : Thread nD τ).loc main_arg5) :=
  (W11_of m c main_arg5 (by decide)).trans <| (W10_of m c main_arg5 (by decide)).trans <| (W9_of m c main_arg5 (by decide)).trans <| (W8_of m c main_arg5 (by decide)).trans <| (W7_of m c main_arg5 (by decide)).trans <| (W6_of m c main_arg5 (by decide)).trans <| (W5_of m c main_arg5 (by decide)).trans <| (W4_of m c main_arg5 (by decide)).trans <| (W3_of m c main_arg5 (by decide)).trans <| (W2_of m c main_arg5 (by decide)).trans <| (W1_of m c main_arg5 (by decide)).trans <| rfl
theorem W11_main_arg6 (c : Dev nD) : W11 m c (Proc.devRef .tc main_arg6) = m ((c : Thread nD τ).loc main_arg6) :=
  (W11_of m c main_arg6 (by decide)).trans <| (W10_of m c main_arg6 (by decide)).trans <| (W9_of m c main_arg6 (by decide)).trans <| (W8_of m c main_arg6 (by decide)).trans <| (W7_of m c main_arg6 (by decide)).trans <| (W6_of m c main_arg6 (by decide)).trans <| (W5_of m c main_arg6 (by decide)).trans <| (W4_of m c main_arg6 (by decide)).trans <| (W3_of m c main_arg6 (by decide)).trans <| (W2_of m c main_arg6 (by decide)).trans <| (W1_of m c main_arg6 (by decide)).trans <| rfl
theorem W11_main_arg7 (c : Dev nD) : W11 m c (Proc.devRef .tc main_arg7) = m ((c : Thread nD τ).loc main_arg7) :=
  (W11_of m c main_arg7 (by decide)).trans <| (W10_of m c main_arg7 (by decide)).trans <| (W9_of m c main_arg7 (by decide)).trans <| (W8_of m c main_arg7 (by decide)).trans <| (W7_of m c main_arg7 (by decide)).trans <| (W6_of m c main_arg7 (by decide)).trans <| (W5_of m c main_arg7 (by decide)).trans <| (W4_of m c main_arg7 (by decide)).trans <| (W3_of m c main_arg7 (by decide)).trans <| (W2_of m c main_arg7 (by decide)).trans <| (W1_of m c main_arg7 (by decide)).trans <| rfl
theorem W11_main_arg8 (c : Dev nD) : W11 m c (Proc.devRef .tc main_arg8) = m ((c : Thread nD τ).loc main_arg8) :=
  (W11_of m c main_arg8 (by decide)).trans <| (W10_of m c main_arg8 (by decide)).trans <| (W9_of m c main_arg8 (by decide)).trans <| (W8_of m c main_arg8 (by decide)).trans <| (W7_of m c main_arg8 (by decide)).trans <| (W6_of m c main_arg8 (by decide)).trans <| (W5_of m c main_arg8 (by decide)).trans <| (W4_of m c main_arg8 (by decide)).trans <| (W3_of m c main_arg8 (by decide)).trans <| (W2_of m c main_arg8 (by decide)).trans <| (W1_of m c main_arg8 (by decide)).trans <| rfl
theorem W11_main_arg9 (c : Dev nD) : W11 m c (Proc.devRef .tc main_arg9) = m ((c : Thread nD τ).loc main_arg9) :=
  (W11_of m c main_arg9 (by decide)).trans <| (W10_of m c main_arg9 (by decide)).trans <| (W9_of m c main_arg9 (by decide)).trans <| (W8_of m c main_arg9 (by decide)).trans <| (W7_of m c main_arg9 (by decide)).trans <| (W6_of m c main_arg9 (by decide)).trans <| (W5_of m c main_arg9 (by decide)).trans <| (W4_of m c main_arg9 (by decide)).trans <| (W3_of m c main_arg9 (by decide)).trans <| (W2_of m c main_arg9 (by decide)).trans <| (W1_of m c main_arg9 (by decide)).trans <| rfl
theorem W11_main_arg10 (c : Dev nD) : W11 m c (Proc.devRef .tc main_arg10) = m ((c : Thread nD τ).loc main_arg10) :=
  (W11_of m c main_arg10 (by decide)).trans <| (W10_of m c main_arg10 (by decide)).trans <| (W9_of m c main_arg10 (by decide)).trans <| (W8_of m c main_arg10 (by decide)).trans <| (W7_of m c main_arg10 (by decide)).trans <| (W6_of m c main_arg10 (by decide)).trans <| (W5_of m c main_arg10 (by decide)).trans <| (W4_of m c main_arg10 (by decide)).trans <| (W3_of m c main_arg10 (by decide)).trans <| (W2_of m c main_arg10 (by decide)).trans <| (W1_of m c main_arg10 (by decide)).trans <| rfl
theorem W11_main_arg11 (c : Dev nD) : W11 m c (Proc.devRef .tc main_arg11) = m ((c : Thread nD τ).loc main_arg11) :=
  (W11_of m c main_arg11 (by decide)).trans <| (W10_of m c main_arg11 (by decide)).trans <| (W9_of m c main_arg11 (by decide)).trans <| (W8_of m c main_arg11 (by decide)).trans <| (W7_of m c main_arg11 (by decide)).trans <| (W6_of m c main_arg11 (by decide)).trans <| (W5_of m c main_arg11 (by decide)).trans <| (W4_of m c main_arg11 (by decide)).trans <| (W3_of m c main_arg11 (by decide)).trans <| (W2_of m c main_arg11 (by decide)).trans <| (W1_of m c main_arg11 (by decide)).trans <| rfl
theorem W11_main_arg12 (c : Dev nD) : W11 m c (Proc.devRef .tc main_arg12) = m ((c : Thread nD τ).loc main_arg12) :=
  (W11_of m c main_arg12 (by decide)).trans <| (W10_of m c main_arg12 (by decide)).trans <| (W9_of m c main_arg12 (by decide)).trans <| (W8_of m c main_arg12 (by decide)).trans <| (W7_of m c main_arg12 (by decide)).trans <| (W6_of m c main_arg12 (by decide)).trans <| (W5_of m c main_arg12 (by decide)).trans <| (W4_of m c main_arg12 (by decide)).trans <| (W3_of m c main_arg12 (by decide)).trans <| (W2_of m c main_arg12 (by decide)).trans <| (W1_of m c main_arg12 (by decide)).trans <| rfl
theorem W11_main_arg13 (c : Dev nD) : W11 m c (Proc.devRef .tc main_arg13) = m ((c : Thread nD τ).loc main_arg13) :=
  (W11_of m c main_arg13 (by decide)).trans <| (W10_of m c main_arg13 (by decide)).trans <| (W9_of m c main_arg13 (by decide)).trans <| (W8_of m c main_arg13 (by decide)).trans <| (W7_of m c main_arg13 (by decide)).trans <| (W6_of m c main_arg13 (by decide)).trans <| (W5_of m c main_arg13 (by decide)).trans <| (W4_of m c main_arg13 (by decide)).trans <| (W3_of m c main_arg13 (by decide)).trans <| (W2_of m c main_arg13 (by decide)).trans <| (W1_of m c main_arg13 (by decide)).trans <| rfl
theorem W11_main_arg14 (c : Dev nD) : W11 m c (Proc.devRef .tc main_arg14) = m ((c : Thread nD τ).loc main_arg14) :=
  (W11_of m c main_arg14 (by decide)).trans <| (W10_of m c main_arg14 (by decide)).trans <| (W9_of m c main_arg14 (by decide)).trans <| (W8_of m c main_arg14 (by decide)).trans <| (W7_of m c main_arg14 (by decide)).trans <| (W6_of m c main_arg14 (by decide)).trans <| (W5_of m c main_arg14 (by decide)).trans <| (W4_of m c main_arg14 (by decide)).trans <| (W3_of m c main_arg14 (by decide)).trans <| (W2_of m c main_arg14 (by decide)).trans <| (W1_of m c main_arg14 (by decide)).trans <| rfl
theorem W11_main_arg15 (c : Dev nD) : W11 m c (Proc.devRef .tc main_arg15) = m ((c : Thread nD τ).loc main_arg15) :=
  (W11_of m c main_arg15 (by decide)).trans <| (W10_of m c main_arg15 (by decide)).trans <| (W9_of m c main_arg15 (by decide)).trans <| (W8_of m c main_arg15 (by decide)).trans <| (W7_of m c main_arg15 (by decide)).trans <| (W6_of m c main_arg15 (by decide)).trans <| (W5_of m c main_arg15 (by decide)).trans <| (W4_of m c main_arg15 (by decide)).trans <| (W3_of m c main_arg15 (by decide)).trans <| (W2_of m c main_arg15 (by decide)).trans <| (W1_of m c main_arg15 (by decide)).trans <| rfl
theorem W11_main_arg16 (c : Dev nD) : W11 m c (Proc.devRef .tc main_arg16) = m ((c : Thread nD τ).loc main_arg16) :=
  (W11_of m c main_arg16 (by decide)).trans <| (W10_of m c main_arg16 (by decide)).trans <| (W9_of m c main_arg16 (by decide)).trans <| (W8_of m c main_arg16 (by decide)).trans <| (W7_of m c main_arg16 (by decide)).trans <| (W6_of m c main_arg16 (by decide)).trans <| (W5_of m c main_arg16 (by decide)).trans <| (W4_of m c main_arg16 (by decide)).trans <| (W3_of m c main_arg16 (by decide)).trans <| (W2_of m c main_arg16 (by decide)).trans <| (W1_of m c main_arg16 (by decide)).trans <| rfl
theorem W11_main_arg17 (c : Dev nD) : W11 m c (Proc.devRef .tc main_arg17) = m ((c : Thread nD τ).loc main_arg17) :=
  (W11_of m c main_arg17 (by decide)).trans <| (W10_of m c main_arg17 (by decide)).trans <| (W9_of m c main_arg17 (by decide)).trans <| (W8_of m c main_arg17 (by decide)).trans <| (W7_of m c main_arg17 (by decide)).trans <| (W6_of m c main_arg17 (by decide)).trans <| (W5_of m c main_arg17 (by decide)).trans <| (W4_of m c main_arg17 (by decide)).trans <| (W3_of m c main_arg17 (by decide)).trans <| (W2_of m c main_arg17 (by decide)).trans <| (W1_of m c main_arg17 (by decide)).trans <| rfl
theorem W11_main_arg18 (c : Dev nD) : W11 m c (Proc.devRef .tc main_arg18) = m ((c : Thread nD τ).loc main_arg18) :=
  (W11_of m c main_arg18 (by decide)).trans <| (W10_of m c main_arg18 (by decide)).trans <| (W9_of m c main_arg18 (by decide)).trans <| (W8_of m c main_arg18 (by decide)).trans <| (W7_of m c main_arg18 (by decide)).trans <| (W6_of m c main_arg18 (by decide)).trans <| (W5_of m c main_arg18 (by decide)).trans <| (W4_of m c main_arg18 (by decide)).trans <| (W3_of m c main_arg18 (by decide)).trans <| (W2_of m c main_arg18 (by decide)).trans <| (W1_of m c main_arg18 (by decide)).trans <| rfl
theorem W11_main_arg19 (c : Dev nD) : W11 m c (Proc.devRef .tc main_arg19) = m ((c : Thread nD τ).loc main_arg19) :=
  (W11_of m c main_arg19 (by decide)).trans <| (W10_of m c main_arg19 (by decide)).trans <| (W9_of m c main_arg19 (by decide)).trans <| (W8_of m c main_arg19 (by decide)).trans <| (W7_of m c main_arg19 (by decide)).trans <| (W6_of m c main_arg19 (by decide)).trans <| (W5_of m c main_arg19 (by decide)).trans <| (W4_of m c main_arg19 (by decide)).trans <| (W3_of m c main_arg19 (by decide)).trans <| (W2_of m c main_arg19 (by decide)).trans <| (W1_of m c main_arg19 (by decide)).trans <| rfl

/-! ## The proof data family and the thread state -/

/-- Every pipeline's proof data, each at its region's entry contents: a literal `match`, so that the library's
    several-regions launch theorem's `Pipeline.pin pcfgs adm p` at a numeral reduces to the printed configuration. -/
def pdats : (p : Fin 5) → (c : Dev nD) → Dat τ (Elt F) Unit ℕ (UR sig nD τ) ℕ (Pipeline.pin (pcfgs (F := F)) adm p) c
  | ⟨0, _⟩ => fun c => dat0 (Vt1 m) c
  | ⟨1, _⟩ => fun c => dat1 (Vt3 m) c
  | ⟨2, _⟩ => fun c => dat2 (Vt5 m) c
  | ⟨3, _⟩ => fun c => dat3 (Vt7 m) c
  | ⟨4, _⟩ => fun c => dat4 (Vt9 m) c
/-- No core owes another anything: no level is assigned. -/
abbrev L0 : GSem nD τ sig → Finset Unit := fun _ => ∅
abbrev lv0 : GSem nD τ sig → Unit → ℕ := fun _ _ => 0
/-- What rides beside the buffers through every segment: the core's generator register at some state (a region's
    invariant takes it in and gives it back) and its `owes`, at nothing. -/
abbrev Rst (c : Dev nD) : sProp 𝕄 := iprop((∃ r, prngReg c r) ∗ ∃ W, owes (c : Thread nD τ) (0 : CellTallies nD τ sig Unit) W)
/-- A host stretch as a segment: over the unscoped references from the contents `W`, `Rst` riding along; it runs to
    those references at `StableHlo.after ops (W c)`, the next boundary's contents by name. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ Variants.none L0 lv0 :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rst
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`: every unscoped buffer at the last boundary's contents `W11`, the generator
    register at some state. -/
abbrev Tend (c : Dev nD) : sProp 𝕄 := iprop(StableHlo.held (c : Thread nD τ) (Pipeline.ucRefs τ sig) (W11 m c) ∗ ∃ r, prngReg c r)

/-! ## The regions as segments -/

-- a library lemma stated over `pin pcs a p` unifies with the pinned configuration only when unification may unfold
-- plain definitions in a metavariable's type
set_option backward.isDefEq.respectTransparency.types false in
/-- REGION 0 (custom_call 0) over the thread state: entered from every unscoped buffer at `W1`, left at `W2`. Its
    arrays split out of the unscoped buffers at entry and put back at the exit contents; the generator register into the
    pipeline's invariant and out; nothing owed; no semaphore of the kernel's own. -/
def reg0 : Pipeline.RegionSeg (pcfgs (F := F)) adm (pdats m) () defs₀ Variants.none L0 lv0 0 where
  win := launch0.win.to₀
  block_pos := launch0.block_pos
  stage_whole := launch0.stage_whole
  K := PEmpty
  osem k := k.elim
  ho := Pipeline.OwnSemFacts.none _
  hbody c := (body_obligation0 (Vt1 m) c).loose
  hwaits := Pipeline.hwaits_of_owed_zero _ _ _ _ L0 lv0 0 fun _ _ => rfl
  pre c := iprop(StableHlo.held (c : Thread nD τ) (Pipeline.ucRefs τ sig) (W1 m c) ∗ Rst c)
  post c := iprop(StableHlo.held (c : Thread nD τ) (Pipeline.ucRefs τ sig) (W2 m c) ∗ Rst c)
  X c := iprop(∃ r, prngReg c r)
  Y c := iprop(∃ r, prngReg c r)
  Z c := Pipeline.unscopedRest (Ix := Unit) (Name := ℕ) (U := UR sig nD τ) (Lvl := ℕ) spec0 c (Vt1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (Vt1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (Vt1 m c) (Vt2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over `pin pcs a p` unifies with the pinned configuration only when unification may unfold
-- plain definitions in a metavariable's type
set_option backward.isDefEq.respectTransparency.types false in
/-- REGION 1 (custom_call 1) over the thread state: entered from every unscoped buffer at `W3`, left at `W4`. Its
    arrays split out of the unscoped buffers at entry and put back at the exit contents; the generator register into the
    pipeline's invariant and out; nothing owed; no semaphore of the kernel's own. -/
def reg1 : Pipeline.RegionSeg (pcfgs (F := F)) adm (pdats m) () defs₀ Variants.none L0 lv0 1 where
  win := launch1.win.to₀
  block_pos := launch1.block_pos
  stage_whole := launch1.stage_whole
  K := PEmpty
  osem k := k.elim
  ho := Pipeline.OwnSemFacts.none _
  hbody c := (body_obligation1 (Vt3 m) c).loose
  hwaits := Pipeline.hwaits_of_owed_zero _ _ _ _ L0 lv0 1 fun _ _ => rfl
  pre c := iprop(StableHlo.held (c : Thread nD τ) (Pipeline.ucRefs τ sig) (W3 m c) ∗ Rst c)
  post c := iprop(StableHlo.held (c : Thread nD τ) (Pipeline.ucRefs τ sig) (W4 m c) ∗ Rst c)
  X c := iprop(∃ r, prngReg c r)
  Y c := iprop(∃ r, prngReg c r)
  Z c := Pipeline.unscopedRest (Ix := Unit) (Name := ℕ) (U := UR sig nD τ) (Lvl := ℕ) spec1 c (Vt3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (Vt3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (Vt3 m c) (Vt4 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over `pin pcs a p` unifies with the pinned configuration only when unification may unfold
-- plain definitions in a metavariable's type
set_option backward.isDefEq.respectTransparency.types false in
/-- REGION 2 (custom_call 2) over the thread state: entered from every unscoped buffer at `W5`, left at `W6`. Its
    arrays split out of the unscoped buffers at entry and put back at the exit contents; the generator register into the
    pipeline's invariant and out; nothing owed; no semaphore of the kernel's own. -/
def reg2 : Pipeline.RegionSeg (pcfgs (F := F)) adm (pdats m) () defs₀ Variants.none L0 lv0 2 where
  win := launch2.win.to₀
  block_pos := launch2.block_pos
  stage_whole := launch2.stage_whole
  K := PEmpty
  osem k := k.elim
  ho := Pipeline.OwnSemFacts.none _
  hbody c := (body_obligation2 (Vt5 m) c).loose
  hwaits := Pipeline.hwaits_of_owed_zero _ _ _ _ L0 lv0 2 fun _ _ => rfl
  pre c := iprop(StableHlo.held (c : Thread nD τ) (Pipeline.ucRefs τ sig) (W5 m c) ∗ Rst c)
  post c := iprop(StableHlo.held (c : Thread nD τ) (Pipeline.ucRefs τ sig) (W6 m c) ∗ Rst c)
  X c := iprop(∃ r, prngReg c r)
  Y c := iprop(∃ r, prngReg c r)
  Z c := Pipeline.unscopedRest (Ix := Unit) (Name := ℕ) (U := UR sig nD τ) (Lvl := ℕ) spec2 c (Vt5 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (Vt5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (Vt5 m c) (Vt6 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over `pin pcs a p` unifies with the pinned configuration only when unification may unfold
-- plain definitions in a metavariable's type
set_option backward.isDefEq.respectTransparency.types false in
/-- REGION 3 (custom_call 3) over the thread state: entered from every unscoped buffer at `W7`, left at `W8`. Its
    arrays split out of the unscoped buffers at entry and put back at the exit contents; the generator register into the
    pipeline's invariant and out; nothing owed; no semaphore of the kernel's own. -/
def reg3 : Pipeline.RegionSeg (pcfgs (F := F)) adm (pdats m) () defs₀ Variants.none L0 lv0 3 where
  win := launch3.win.to₀
  block_pos := launch3.block_pos
  stage_whole := launch3.stage_whole
  K := PEmpty
  osem k := k.elim
  ho := Pipeline.OwnSemFacts.none _
  hbody c := (body_obligation3 (Vt7 m) c).loose
  hwaits := Pipeline.hwaits_of_owed_zero _ _ _ _ L0 lv0 3 fun _ _ => rfl
  pre c := iprop(StableHlo.held (c : Thread nD τ) (Pipeline.ucRefs τ sig) (W7 m c) ∗ Rst c)
  post c := iprop(StableHlo.held (c : Thread nD τ) (Pipeline.ucRefs τ sig) (W8 m c) ∗ Rst c)
  X c := iprop(∃ r, prngReg c r)
  Y c := iprop(∃ r, prngReg c r)
  Z c := Pipeline.unscopedRest (Ix := Unit) (Name := ℕ) (U := UR sig nD τ) (Lvl := ℕ) spec3 c (Vt7 m c)
  hentry c := by
    rw [Pipeline.ownSems0_none]
    have hsplit := Pipeline.arrays_of_unscopedBufs (p := 3) (pcfgs (F := F)) adm (pdats m) launch3.win launch3.arr_whole c
      ((pdats m 3 c).share_full fun _ => rfl) (Vt7 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (Vt7 m c) (Vt8 m c) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over `pin pcs a p` unifies with the pinned configuration only when unification may unfold
-- plain definitions in a metavariable's type
set_option backward.isDefEq.respectTransparency.types false in
/-- REGION 4 (custom_call 4) over the thread state: entered from every unscoped buffer at `W9`, left at `W10`. Its
    arrays split out of the unscoped buffers at entry and put back at the exit contents; the generator register into the
    pipeline's invariant and out; nothing owed; no semaphore of the kernel's own. -/
def reg4 : Pipeline.RegionSeg (pcfgs (F := F)) adm (pdats m) () defs₀ Variants.none L0 lv0 4 where
  win := launch4.win.to₀
  block_pos := launch4.block_pos
  stage_whole := launch4.stage_whole
  K := PEmpty
  osem k := k.elim
  ho := Pipeline.OwnSemFacts.none _
  hbody c := (body_obligation4 (Vt9 m) c).loose
  hwaits := Pipeline.hwaits_of_owed_zero _ _ _ _ L0 lv0 4 fun _ _ => rfl
  pre c := iprop(StableHlo.held (c : Thread nD τ) (Pipeline.ucRefs τ sig) (W9 m c) ∗ Rst c)
  post c := iprop(StableHlo.held (c : Thread nD τ) (Pipeline.ucRefs τ sig) (W10 m c) ∗ Rst c)
  X c := iprop(∃ r, prngReg c r)
  Y c := iprop(∃ r, prngReg c r)
  Z c := Pipeline.unscopedRest (Ix := Unit) (Name := ℕ) (U := UR sig nD τ) (Lvl := ℕ) spec4 c (Vt9 m c)
  hentry c := by
    rw [Pipeline.ownSems0_none]
    have hsplit := Pipeline.arrays_of_unscopedBufs (p := 4) (pcfgs (F := F)) adm (pdats m) launch4.win launch4.arr_whole c
      ((pdats m 4 c).share_full fun _ => rfl) (Vt9 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m) ((pdats m 4 c).share_full fun _ => rfl)
      (Vt9 m c) (Vt10 m c) ((pdats m 4 c).arrAt · cfg4.N) (hF4 m c) (hrest4 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's 11 items in order: a host segment per stretch from its boundary's contents, a region per pallas_call. -/
abbrev runSegs : List (Pipeline.Seg (pcfgs (F := F)) adm (pdats m) () defs₀ Variants.none L0 lv0) :=
  [ .host (hseg hostOps0 hostOps0_sub hostOps0_fresh (W0 m)),
    .region (reg0 m),
    .host (hseg hostOps1 hostOps1_sub hostOps1_fresh (W2 m)),
    .region (reg1 m),
    .host (hseg hostOps2 hostOps2_sub hostOps2_fresh (W4 m)),
    .region (reg2 m),
    .host (hseg hostOps3 hostOps3_sub hostOps3_fresh (W6 m)),
    .region (reg3 m),
    .host (hseg hostOps4 hostOps4_sub hostOps4_fresh (W8 m)),
    .region (reg4 m),
    .host (hseg hostOps5 hostOps5_sub hostOps5_fresh (W10 m)) ]
/-- @main IS the run of the segments: @main is the chain of its items (`Gen.main_chain`), the segments' run the chain of
    their fragments (`Seg.run_eq_chain`), and the two lists of fragments are the same list. -/
theorem main_run (c : Dev nD) : main (F := F) c = Pipeline.Seg.run (runSegs m) := by
  rw [main_chain c, Pipeline.Seg.run_eq_chain]
  rfl

-- the library's several-regions launch theorem's implicit arguments are found by unifying its conclusion with this
-- one, which takes unfolding plain definitions in a metavariable's type
set_option backward.isDefEq.respectTransparency.types false in
/-- THE RUN: at the compiled mesh, from any memory with zero counters, every weakly fair execution of @main on the
    TensorCores terminates, nothing faulting, and every final memory holds each unscoped buffer of each core at the
    fold's last contents `W11`: the library's several-regions launch theorem over the segments, the last thread state read
    against the final state. -/
theorem run_all : θ_run defs (onTc (τ := τ) (main (F := F))) ⟨m, fun _ => 0, ρ⟩ (fun r => ∀ c : Dev nD,
      ∀ b ∈ Pipeline.ucRefs τ sig, r.2.mem ((c : Thread nD τ).1, b) = W11 m c b) :=
  Pipeline.θ_run_regions_kit (pcfgs (F := F)) adm (pdats m) () cellOf_inj emb₁ defs₀ Variants.none L0 lv0 m ρ main (runSegs m)
    (fun c Q => by rw [main_run m c])
    (by simp only [runSegs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ Rst c)) (Tₙ := Tend m)
    (hch := ⟨fun _ => .rfl, fun _ => .rfl, fun _ => .rfl, fun _ => .rfl, fun _ => .rfl, fun _ => .rfl, fun _ => .rfl,
      fun _ => .rfl, fun _ => .rfl, fun _ => .rfl, fun _ => .rfl, fun c => by
        show iprop(StableHlo.held (c : Thread nD τ) (Pipeline.ucRefs τ sig) (W11 m c) ∗ Rst c)
          ⊢ iprop(Tend m c ∗ ∃ W, owes (c : Thread nD τ) (0 : CellTallies nD τ sig Unit) W)
        iintro ⟨Hh, Hp, HO⟩
        isplitl [Hh Hp]
        · isplitl [Hh] <;> iassumption
        iexact HO⟩)
    (hinit := by
      refine Pipeline.initEach L0 lv0 fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m c b)
    (hfin := fun c s' => by
      iintro ⟨⟨Hh, -⟩, HSI⟩
      unfold StableHlo.held
      imodintro
      iapply (pointsTo_read_all (Pipeline.ucRefs τ sig) (fun b => (((c : Thread nD τ)).1, b)) (W11 m c) s')
      isplitl [Hh] <;> iassumption)
    (hQ := fun s h => h)

/-- THE FRAME: at the compiled mesh, from any memory with zero counters, every weakly fair execution of @main on the
    TensorCores terminates and every final memory has the argument arrays as launched: each argument is an unscoped
    buffer, read off `run_all` at `W11`, which at an argument is the launch memory (`W11_main_argK`). -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)) :=
  (θ_run defs _ _).mono (fun r h c =>
    ⟨(h c _ (mem_uc main_arg0 (by decide))).trans (W11_main_arg0 m c),
      (h c _ (mem_uc main_arg1 (by decide))).trans (W11_main_arg1 m c),
      (h c _ (mem_uc main_arg2 (by decide))).trans (W11_main_arg2 m c),
      (h c _ (mem_uc main_arg3 (by decide))).trans (W11_main_arg3 m c),
      (h c _ (mem_uc main_arg4 (by decide))).trans (W11_main_arg4 m c),
      (h c _ (mem_uc main_arg5 (by decide))).trans (W11_main_arg5 m c),
      (h c _ (mem_uc main_arg6 (by decide))).trans (W11_main_arg6 m c),
      (h c _ (mem_uc main_arg7 (by decide))).trans (W11_main_arg7 m c),
      (h c _ (mem_uc main_arg8 (by decide))).trans (W11_main_arg8 m c),
      (h c _ (mem_uc main_arg9 (by decide))).trans (W11_main_arg9 m c),
      (h c _ (mem_uc main_arg10 (by decide))).trans (W11_main_arg10 m c),
      (h c _ (mem_uc main_arg11 (by decide))).trans (W11_main_arg11 m c),
      (h c _ (mem_uc main_arg12 (by decide))).trans (W11_main_arg12 m c),
      (h c _ (mem_uc main_arg13 (by decide))).trans (W11_main_arg13 m c),
      (h c _ (mem_uc main_arg14 (by decide))).trans (W11_main_arg14 m c),
      (h c _ (mem_uc main_arg15 (by decide))).trans (W11_main_arg15 m c),
      (h c _ (mem_uc main_arg16 (by decide))).trans (W11_main_arg16 m c),
      (h c _ (mem_uc main_arg17 (by decide))).trans (W11_main_arg17 m c),
      (h c _ (mem_uc main_arg18 (by decide))).trans (W11_main_arg18 m c),
      (h c _ (mem_uc main_arg19 (by decide))).trans (W11_main_arg19 m c)⟩)
    (run_all m ρ)

end Cert.KernelIdeal.Gen

end
-- ==== Proof.Spec.lean ====
import Idealize.ShloMosaic.PureOps.Ideal
import Idealize.ShloMosaic.PureOps.Ideal.Laws
import Idealize.ShloMosaic.Lib.ValueIdx

noncomputable section

namespace GinSpec

open Idealize.ShloMosaic

/-- The batch-norm epsilon, as the one f32 word both programs carry. -/
abbrev epsBN : EReal := Ideal.ofBits .f32 0x3727C5AC#32

/-- One entry through inference-mode batch norm, then relu: max ((u - mean) * (gamma * rsqrt (var + eps)) + beta) 0. -/
def bnrelu (u mu g var be : EReal) : EReal := max ((u - mu) * (g * Ideal.rsqrt (var + epsBN)) + be) 0

/-- The hidden activation of one row: entry k of relu (bn_a (z W1 + b1)). -/
def hidden {D : ℕ} (z : Fin D → EReal) (W1 : Fin D → Fin 64 → EReal) (b1 ga bea ma va : Fin 64 → EReal) (k : Fin 64) : EReal :=
  bnrelu ((∑ i : Fin D, z i * W1 i k) + b1 k) (ma k) (ga k) (va k) (bea k)

/-- The layer's MLP on one row: entry j of relu (bn_b (hidden W2 + b2)). -/
def mlp {D : ℕ} (z : Fin D → EReal) (W1 : Fin D → Fin 64 → EReal) (b1 ga bea ma va : Fin 64 → EReal)
    (W2 : Fin 64 → Fin 64 → EReal) (b2 gb beb mb vb : Fin 64 → EReal) (j : Fin 64) : EReal :=
  bnrelu ((∑ k : Fin 64, hidden z W1 b1 ga bea ma va k * W2 k j) + b2 j) (mb j) (gb j) (vb j) (beb j)

/-- Sum pooling of one feature column by graph id: the sum of h n over the nodes n whose (signed) id is g. -/
def pool (h : Fin 100000 → EReal) (batch : Fin 100000 → BitVec 32) (g : Fin 512) : EReal :=
  ∑ n ∈ Finset.univ.filter (fun n => (batch n).toInt = (g.val : ℤ)), h n

end GinSpec

end
-- ==== Proof.KIVal1Pay.lean ====
import proofs.«402532_j352187319172_1_alg».proof.Proof.Gen.KernelIdeal.Skeleton
import proofs.«402532_j352187319172_1_alg».proof.Proof.Spec
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

namespace Cert.KernelIdeal.Val1

open Cert.KernelIdeal Cert.KernelIdeal.Gen Idealize.ShloMosaic Idealize.ShloMosaic.ValueIdx
open scoped BigOperators

/-! ## The two contractions of the layer, read at an index

The feature contraction (rows by a 64 x 64 weight: the left operand's axis 1 against the right operand's axis 0) and the
pooling contraction (the one-hot matrix against the activations: axis 0 of both). -/

/-- Feature contraction: the left operand's row coordinate is the output's row. -/
theorem lhs_feat_0 (i : S5000x64.Idx) (q : dot_S5000x64_S64x64_S5000x64_1_0_0_1_n_n.contr.Idx) :
    (dot_S5000x64_S64x64_S5000x64_1_0_0_1_n_n.lhsIdx i q 0).val = (i 0).val := by
  unfold DotDims.lhsIdx
  rw [dif_neg (show ¬(0 : Fin S5000x64.rank) ∈ dot_S5000x64_S64x64_S5000x64_1_0_0_1_n_n.lhsBatch by decide), dif_pos (show (0 : Fin S5000x64.rank) ∈ dot_S5000x64_S64x64_S5000x64_1_0_0_1_n_n.lhsNonContracting by decide)]
  rfl
/-- Feature contraction: the left operand's column coordinate is the contracted one. -/
theorem lhs_feat_1 (i : S5000x64.Idx) (q : dot_S5000x64_S64x64_S5000x64_1_0_0_1_n_n.contr.Idx) :
    (dot_S5000x64_S64x64_S5000x64_1_0_0_1_n_n.lhsIdx i q 1).val = (q ⟨0, by decide⟩).val :=
  dot_S5000x64_S64x64_S5000x64_1_0_0_1_n_n.lhsIdx_val_of_single rfl i q
/-- Feature contraction: the right operand's row coordinate is the contracted one. -/
theorem rhs_feat_0 (i : S5000x64.Idx) (q : dot_S5000x64_S64x64_S5000x64_1_0_0_1_n_n.contr.Idx) :
    (dot_S5000x64_S64x64_S5000x64_1_0_0_1_n_n.rhsIdx i q 0).val = (q ⟨0, by decide⟩).val :=
  dot_S5000x64_S64x64_S5000x64_1_0_0_1_n_n.rhsIdx_val_of_single rfl i q
/-- Feature contraction: the right operand's column coordinate is the output's column. -/
theorem rhs_feat_1 (i : S5000x64.Idx) (q : dot_S5000x64_S64x64_S5000x64_1_0_0_1_n_n.contr.Idx) :
    (dot_S5000x64_S64x64_S5000x64_1_0_0_1_n_n.rhsIdx i q 1).val = (i 1).val := by
  unfold DotDims.rhsIdx
  rw [dif_neg (show ¬(1 : Fin S64x64.rank) ∈ dot_S5000x64_S64x64_S5000x64_1_0_0_1_n_n.rhsBatch by decide), dif_pos (show (1 : Fin S64x64.rank) ∈ dot_S5000x64_S64x64_S5000x64_1_0_0_1_n_n.rhsNonContracting by decide)]
  rfl

/-- The feature contraction into the zero accumulator, at row r and column k: the sum over the 64 features. -/
theorem matmul_feat_apply (x : FVec Ideal S5000x64 .bf16) (y : FVec Ideal S64x64 .bf16) (r : Fin 5000) (k : Fin 64) :
    matmul dot_S5000x64_S64x64_S5000x64_1_0_0_1_n_n none x y (constant (F := Ideal) S5000x64 .f32 0x00000000#32) (ix2 r k)
      = ∑ d : Fin 64, x (ix2 r d) * y (ix2 d k) := by
  simp only [matmul]
  rw [Ideal.matmul_constant_zero_apply, ← Equiv.sum_comp (contrEquiv1 dot_S5000x64_S64x64_S5000x64_1_0_0_1_n_n 64 rfl rfl).symm]
  refine Finset.sum_congr rfl fun d _ => ?_
  have hk := contrEquiv1_symm_val dot_S5000x64_S64x64_S5000x64_1_0_0_1_n_n 64 rfl rfl d
  have el : dot_S5000x64_S64x64_S5000x64_1_0_0_1_n_n.lhsIdx (ix2 r k) ((contrEquiv1 dot_S5000x64_S64x64_S5000x64_1_0_0_1_n_n 64 rfl rfl).symm d) = ix2 r d := funext fun a => Fin.ext (by
    match a with
    | ⟨0, _⟩ => exact lhs_feat_0 _ _
    | ⟨1, _⟩ => exact (lhs_feat_1 _ _).trans hk)
  have er : dot_S5000x64_S64x64_S5000x64_1_0_0_1_n_n.rhsIdx (ix2 r k) ((contrEquiv1 dot_S5000x64_S64x64_S5000x64_1_0_0_1_n_n 64 rfl rfl).symm d) = ix2 d k := funext fun a => Fin.ext (by
    match a with
    | ⟨0, _⟩ => exact (rhs_feat_0 _ _).trans hk
    | ⟨1, _⟩ => exact rhs_feat_1 _ _)
  rw [el, er]

/-- Pooling contraction: the left operand's row coordinate is the contracted one. -/
theorem lhs_pool_0 (i : S512x64.Idx) (q : dot_S5000x512_S5000x64_S512x64_0_0_1_1_n_n.contr.Idx) :
    (dot_S5000x512_S5000x64_S512x64_0_0_1_1_n_n.lhsIdx i q 0).val = (q ⟨0, by decide⟩).val :=
  dot_S5000x512_S5000x64_S512x64_0_0_1_1_n_n.lhsIdx_val_of_single rfl i q
/-- Pooling contraction: the left operand's column coordinate is the output's row. -/
theorem lhs_pool_1 (i : S512x64.Idx) (q : dot_S5000x512_S5000x64_S512x64_0_0_1_1_n_n.contr.Idx) :
    (dot_S5000x512_S5000x64_S512x64_0_0_1_1_n_n.lhsIdx i q 1).val = (i 0).val := by
  unfold DotDims.lhsIdx
  rw [dif_neg (show ¬(1 : Fin S5000x512.rank) ∈ dot_S5000x512_S5000x64_S512x64_0_0_1_1_n_n.lhsBatch by decide), dif_pos (show (1 : Fin S5000x512.rank) ∈ dot_S5000x512_S5000x64_S512x64_0_0_1_1_n_n.lhsNonContracting by decide)]
  rfl
/-- Pooling contraction: the right operand's row coordinate is the contracted one. -/
theorem rhs_pool_0 (i : S512x64.Idx) (q : dot_S5000x512_S5000x64_S512x64_0_0_1_1_n_n.contr.Idx) :
    (dot_S5000x512_S5000x64_S512x64_0_0_1_1_n_n.rhsIdx i q 0).val = (q ⟨0, by decide⟩).val :=
  dot_S5000x512_S5000x64_S512x64_0_0_1_1_n_n.rhsIdx_val_of_single rfl i q
/-- Pooling contraction: the right operand's column coordinate is the output's column. -/
theorem rhs_pool_1 (i : S512x64.Idx) (q : dot_S5000x512_S5000x64_S512x64_0_0_1_1_n_n.contr.Idx) :
    (dot_S5000x512_S5000x64_S512x64_0_0_1_1_n_n.rhsIdx i q 1).val = (i 1).val := by
  unfold DotDims.rhsIdx
  rw [dif_neg (show ¬(1 : Fin S5000x64.rank) ∈ dot_S5000x512_S5000x64_S512x64_0_0_1_1_n_n.rhsBatch by decide), dif_pos (show (1 : Fin S5000x64.rank) ∈ dot_S5000x512_S5000x64_S512x64_0_0_1_1_n_n.rhsNonContracting by decide)]
  rfl

/-- The pooling contraction into the zero accumulator, at graph g and column j: the sum over the block's 5000 rows. -/
theorem matmul_pool_apply (x : FVec Ideal S5000x512 .bf16) (y : FVec Ideal S5000x64 .bf16) (g : Fin 512) (j : Fin 64) :
    matmul dot_S5000x512_S5000x64_S512x64_0_0_1_1_n_n none x y (constant (F := Ideal) S512x64 .f32 0x00000000#32) (ix2 g j)
      = ∑ r : Fin 5000, x (ix2 r g) * y (ix2 r j) := by
  simp only [matmul]
  rw [Ideal.matmul_constant_zero_apply, ← Equiv.sum_comp (contrEquiv1 dot_S5000x512_S5000x64_S512x64_0_0_1_1_n_n 5000 rfl rfl).symm]
  refine Finset.sum_congr rfl fun d _ => ?_
  have hk := contrEquiv1_symm_val dot_S5000x512_S5000x64_S512x64_0_0_1_1_n_n 5000 rfl rfl d
  have el : dot_S5000x512_S5000x64_S512x64_0_0_1_1_n_n.lhsIdx (ix2 g j) ((contrEquiv1 dot_S5000x512_S5000x64_S512x64_0_0_1_1_n_n 5000 rfl rfl).symm d) = ix2 d g := funext fun a => Fin.ext (by
    match a with
    | ⟨0, _⟩ => exact (lhs_pool_0 _ _).trans hk
    | ⟨1, _⟩ => exact lhs_pool_1 _ _)
  have er : dot_S5000x512_S5000x64_S512x64_0_0_1_1_n_n.rhsIdx (ix2 g j) ((contrEquiv1 dot_S5000x512_S5000x64_S512x64_0_0_1_1_n_n 5000 rfl rfl).symm d) = ix2 d j := funext fun a => Fin.ext (by
    match a with
    | ⟨0, _⟩ => exact (rhs_pool_0 _ _).trans hk
    | ⟨1, _⟩ => exact rhs_pool_1 _ _)
  rw [el, er]

/-! ## Small readings at an index -/

/-- A reciprocal square root at an index is that of the element. -/
theorem rsqrt_apply {s : Shape} {φ : FTy} (a : FVec Ideal s φ) (i : s.Idx) : rsqrt a i = Ideal.rsqrt (a i) := rfl

/-- A scalar constant at the ideal values is the extended real its word encodes. -/
theorem scalar_ofBits_f32 (b : BitVec 32) : (Scalar.ofBits (F := Ideal) .f32 b) = Ideal.ofBits .f32 b := rfl

/-- A column [a, 1] broadcast over b columns reads, at (p, c), the column's entry p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A 32-bit word that encodes a number below 512 reads, signed, that number. -/
theorem toInt_ofNat_lt (g : Fin 512) : (BitVec.ofNat 32 g.val).toInt = (g.val : ℤ) := by
  have hg : g.val < 512 := g.isLt
  rw [BitVec.toInt_eq_toNat_cond, BitVec.toNat_ofNat]
  omega

/-- The one-hot entry: a 32-bit id compared with a column number below 512, the bit widened and converted, is 1 where the
    signed id is the column number and 0 elsewhere. -/
theorem onehot_word (b : BitVec 32) (g : Fin 512) :
    FloatOps.sitofp (F := Ideal) .f32 ((IntOp.cmpi .eq b (BitVec.ofNat 32 g.val)).setWidth 32)
      = if b.toInt = (g.val : ℤ) then (1 : EReal) else 0 := by
  have hG := toInt_ofNat_lt g
  show (((((BitVec.ofBool (b == BitVec.ofNat 32 g.val)).setWidth 32).toInt : ℤ) : ℝ) : EReal) = _
  by_cases h : b = BitVec.ofNat 32 g.val
  · have hb : (b == BitVec.ofNat 32 g.val) = true := by simpa using h
    have h1 : ((BitVec.ofBool true).setWidth 32).toInt = 1 := by decide
    rw [hb, if_pos (h ▸ hG), h1]
    simp
  · have hb : (b == BitVec.ofNat 32 g.val) = false := by simpa using h
    have hne : ¬ b.toInt = (g.val : ℤ) := fun e => h (BitVec.toInt_inj.mp (e.trans hG.symm))
    have h0 : ((BitVec.ofBool false).setWidth 32).toInt = 0 := by decide
    rw [hb, if_neg hne, h0]
    simp

/-! ## The payloads at an index -/

/-- The hidden activation the first half of the body computes, at row r and hidden unit k. -/
theorem pay3_apply (z : Vec Ideal S5000x64 .f32) (W1 : Vec Ideal S64x64 .f32) (b1 ga va ma bea : Vec Ideal S1x64 .f32)
    (r : Fin 5000) (k : Fin 64) :
    k1_pay3 z W1 b1 ga va ma bea (ix2 r k)
      = GinSpec.hidden (fun d => z (ix2 r d)) (fun d k => W1 (ix2 d k)) (fun k => b1 (ix2 0 k)) (fun k => ga (ix2 0 k))
          (fun k => bea (ix2 0 k)) (fun k => ma (ix2 0 k)) (fun k => va (ix2 0 k)) k := by
  unfold k1_pay3
  simp only [maximumf_apply, addf_apply, mulf_apply, subf_apply, broadcast_apply, shapeCast_self, broadcastTo_1b_ab_apply,
    matmul_feat_apply, truncf_apply, rsqrt_apply, scalar_ofBits_f32, Ideal.ofBits_zero_f32]
  rfl

/-- The layer's output block at row r and column j: the MLP of the row. -/
theorem pay5_apply (z : Vec Ideal S5000x64 .f32) (W1 : Vec Ideal S64x64 .f32) (b1 ga va ma bea : Vec Ideal S1x64 .f32)
    (W2 : Vec Ideal S64x64 .f32) (b2 gb vb mb beb : Vec Ideal S1x64 .f32) (r : Fin 5000) (j : Fin 64) :
    k1_pay5 (k1_pay3 z W1 b1 ga va ma bea) (k1_pay4 W2) b2 gb vb mb beb (ix2 r j)
      = GinSpec.mlp (fun d => z (ix2 r d)) (fun d k => W1 (ix2 d k)) (fun k => b1 (ix2 0 k)) (fun k => ga (ix2 0 k))
          (fun k => bea (ix2 0 k)) (fun k => ma (ix2 0 k)) (fun k => va (ix2 0 k)) (fun k j => W2 (ix2 k j))
          (fun j => b2 (ix2 0 j)) (fun j => gb (ix2 0 j)) (fun j => beb (ix2 0 j)) (fun j => mb (ix2 0 j))
          (fun j => vb (ix2 0 j)) j := by
  unfold k1_pay5 k1_pay4
  simp only [maximumf_apply, addf_apply, mulf_apply, subf_apply, broadcast_apply, shapeCast_self, broadcastTo_1b_ab_apply,
    matmul_feat_apply, truncf_apply, rsqrt_apply, scalar_ofBits_f32, Ideal.ofBits_zero_f32, pay3_apply]
  rfl

/-- The block's contribution to the pooled readout at graph g and column j: the sum of the output rows whose graph id is g. -/
theorem pay6_apply (h : FVec Ideal S5000x64 .f32) (W2 : FVec Ideal S64x64 .f32) (b2 gb vb mb beb : Vec Ideal S1x64 .f32)
    (batch : Vec Ideal S5000x1 .i32) (g : Fin 512) (j : Fin 64) :
    k1_pay6 h W2 b2 gb vb mb beb batch (ix2 g j)
      = ∑ r : Fin 5000, (if (batch (ix2 r 0)).toInt = (g.val : ℤ) then (1 : EReal) else 0) * k1_pay5 h W2 b2 gb vb mb beb (ix2 r j) := by
  unfold k1_pay6
  simp only [matmul_pool_apply, truncf_apply]
  refine Finset.sum_congr rfl fun r _ => ?_
  congr 1
  show FloatOps.sitofp (F := Ideal) .f32 ((IntOp.cmpi .eq (broadcastTo S5000x512 (shapeCast S5000x1 batch shapeCasts_S5000x1_S5000x1) broadcasts_S5000x1_S5000x512 (ix2 r g)) (iota .tc S5000x512 32 [1] iota_S5000x512_d1_w32 (ix2 r g))).setWidth 32) = _
  rw [broadcastTo_a1_ab_apply, shapeCast_self, iota_single_apply]
  exact onehot_word _ g

/-- The accumulation step at graph g and column j: what was there plus the block's contribution. -/
theorem pay1_apply (v : FVec Ideal S512x64 .f32) (acc : Vec Ideal S1x512x64 .f32) (g : Fin 512) (j : Fin 64) :
    k1_pay1 v acc (ix3 0 g j) = acc (ix3 0 g j) + v (ix2 g j) := by
  unfold k1_pay1
  simp only [shapeCast_ab_1ab_apply, addf_apply, shapeCast_1ab_ab_apply]

/-- The reset value is zero everywhere. -/
theorem pay2_apply (g : Fin 512) (j : Fin 64) : (k1_pay2 (F := Ideal)) (ix3 0 g j) = 0 := by
  unfold k1_pay2
  simp only [shapeCast_ab_1ab_apply, broadcast_apply, scalar_ofBits_f32, Ideal.ofBits_zero_f32]

end Cert.KernelIdeal.Val1

end
-- ==== Proof.KIVal0Pay.lean ====
import proofs.«402532_j352187319172_1_alg».proof.Proof.KIVal1Pay

/-!
# Region 0: the payloads at an index

The first layer's body is the later layers' with a 128-feature input: its first contraction runs over 128 features, and the
hidden activation leaves the first half of the body already narrowed for the second contraction.
-/

set_option maxRecDepth 16384

noncomputable section

namespace Cert.KernelIdeal.Val0

open Cert.KernelIdeal Cert.KernelIdeal.Gen Idealize.ShloMosaic Idealize.ShloMosaic.ValueIdx
open Cert.KernelIdeal.Val1 (matmul_feat_apply matmul_pool_apply rsqrt_apply scalar_ofBits_f32 broadcastTo_a1_ab_apply onehot_word)
open scoped BigOperators

/-! ## The input contraction (rows by a 128 x 64 weight), read at an index -/

/-- The left operand's row coordinate is the output's row. -/
theorem lhs_in_0 (i : S5000x64.Idx) (q : dot_S5000x128_S128x64_S5000x64_1_0_0_1_n_n.contr.Idx) :
    (dot_S5000x128_S128x64_S5000x64_1_0_0_1_n_n.lhsIdx i q 0).val = (i 0).val := by
  unfold DotDims.lhsIdx
  rw [dif_neg (show ¬(0 : Fin S5000x128.rank) ∈ dot_S5000x128_S128x64_S5000x64_1_0_0_1_n_n.lhsBatch by decide), dif_pos (show (0 : Fin S5000x128.rank) ∈ dot_S5000x128_S128x64_S5000x64_1_0_0_1_n_n.lhsNonContracting by decide)]
  rfl
/-- The left operand's column coordinate is the contracted one. -/
theorem lhs_in_1 (i : S5000x64.Idx) (q : dot_S5000x128_S128x64_S5000x64_1_0_0_1_n_n.contr.Idx) :
    (dot_S5000x128_S128x64_S5000x64_1_0_0_1_n_n.lhsIdx i q 1).val = (q ⟨0, by decide⟩).val :=
  dot_S5000x128_S128x64_S5000x64_1_0_0_1_n_n.lhsIdx_val_of_single rfl i q
/-- The right operand's row coordinate is the contracted one. -/
theorem rhs_in_0 (i : S5000x64.Idx) (q : dot_S5000x128_S128x64_S5000x64_1_0_0_1_n_n.contr.Idx) :
    (dot_S5000x128_S128x64_S5000x64_1_0_0_1_n_n.rhsIdx i q 0).val = (q ⟨0, by decide⟩).val :=
  dot_S5000x128_S128x64_S5000x64_1_0_0_1_n_n.rhsIdx_val_of_single rfl i q
/-- The right operand's column coordinate is the output's column. -/
theorem rhs_in_1 (i : S5000x64.Idx) (q : dot_S5000x128_S128x64_S5000x64_1_0_0_1_n_n.contr.Idx) :
    (dot_S5000x128_S128x64_S5000x64_1_0_0_1_n_n.rhsIdx i q 1).val = (i 1).val := by
  unfold DotDims.rhsIdx
  rw [dif_neg (show ¬(1 : Fin S128x64.rank) ∈ dot_S5000x128_S128x64_S5000x64_1_0_0_1_n_n.rhsBatch by decide), dif_pos (show (1 : Fin S128x64.rank) ∈ dot_S5000x128_S128x64_S5000x64_1_0_0_1_n_n.rhsNonContracting by decide)]
  rfl

/-- The input contraction into the zero accumulator, at row r and column k: the sum over the 128 features. -/
theorem matmul_in_apply (x : FVec Ideal S5000x128 .bf16) (y : FVec Ideal S128x64 .bf16) (r : Fin 5000) (k : Fin 64) :
    matmul dot_S5000x128_S128x64_S5000x64_1_0_0_1_n_n none x y (constant (F := Ideal) S5000x64 .f32 0x00000000#32) (ix2 r k)
      = ∑ d : Fin 128, x (ix2 r d) * y (ix2 d k) := by
  simp only [matmul]
  rw [Ideal.matmul_constant_zero_apply, ← Equiv.sum_comp (contrEquiv1 dot_S5000x128_S128x64_S5000x64_1_0_0_1_n_n 128 rfl rfl).symm]
  refine Finset.sum_congr rfl fun d _ => ?_
  have hk := contrEquiv1_symm_val dot_S5000x128_S128x64_S5000x64_1_0_0_1_n_n 128 rfl rfl d
  have el : dot_S5000x128_S128x64_S5000x64_1_0_0_1_n_n.lhsIdx (ix2 r k) ((contrEquiv1 dot_S5000x128_S128x64_S5000x64_1_0_0_1_n_n 128 rfl rfl).symm d) = ix2 r d := funext fun a => Fin.ext (by
    match a with
    | ⟨0, _⟩ => exact lhs_in_0 _ _
    | ⟨1, _⟩ => exact (lhs_in_1 _ _).trans hk)
  have er : dot_S5000x128_S128x64_S5000x64_1_0_0_1_n_n.rhsIdx (ix2 r k) ((contrEquiv1 dot_S5000x128_S128x64_S5000x64_1_0_0_1_n_n 128 rfl rfl).symm d) = ix2 d k := funext fun a => Fin.ext (by
    match a with
    | ⟨0, _⟩ => exact (rhs_in_0 _ _).trans hk
    | ⟨1, _⟩ => exact rhs_in_1 _ _)
  rw [el, er]

/-! ## The payloads at an index -/

/-- The hidden activation the first half of the body computes, at row r and hidden unit k. -/
theorem pay4_apply (z : Vec Ideal S5000x128 .f32) (W1 : Vec Ideal S128x64 .f32) (b1 ga va ma bea : Vec Ideal S1x64 .f32)
    (r : Fin 5000) (k : Fin 64) :
    k0_pay4 z W1 b1 ga va ma bea (ix2 r k)
      = GinSpec.hidden (fun d => z (ix2 r d)) (fun d k => W1 (ix2 d k)) (fun k => b1 (ix2 0 k)) (fun k => ga (ix2 0 k))
          (fun k => bea (ix2 0 k)) (fun k => ma (ix2 0 k)) (fun k => va (ix2 0 k)) k := by
  unfold k0_pay4
  simp only [maximumf_apply, addf_apply, mulf_apply, subf_apply, broadcast_apply, shapeCast_self, broadcastTo_1b_ab_apply,
    matmul_in_apply, truncf_apply, rsqrt_apply, scalar_ofBits_f32, Ideal.ofBits_zero_f32]
  rfl

/-- The layer's output block at row r and column j: the MLP of the row. -/
theorem pay5_apply (z : Vec Ideal S5000x128 .f32) (W1 : Vec Ideal S128x64 .f32) (b1 ga va ma bea : Vec Ideal S1x64 .f32)
    (W2 : Vec Ideal S64x64 .f32) (b2 gb vb mb beb : Vec Ideal S1x64 .f32) (r : Fin 5000) (j : Fin 64) :
    k0_pay5 (k0_pay3 W2) (k0_pay4 z W1 b1 ga va ma bea) b2 gb vb mb beb (ix2 r j)
      = GinSpec.mlp (fun d => z (ix2 r d)) (fun d k => W1 (ix2 d k)) (fun k => b1 (ix2 0 k)) (fun k => ga (ix2 0 k))
          (fun k => bea (ix2 0 k)) (fun k => ma (ix2 0 k)) (fun k => va (ix2 0 k)) (fun k j => W2 (ix2 k j))
          (fun j => b2 (ix2 0 j)) (fun j => gb (ix2 0 j)) (fun j => beb (ix2 0 j)) (fun j => mb (ix2 0 j))
          (fun j => vb (ix2 0 j)) j := by
  unfold k0_pay5 k0_pay3
  simp only [maximumf_apply, addf_apply, mulf_apply, subf_apply, broadcast_apply, shapeCast_self, broadcastTo_1b_ab_apply,
    matmul_feat_apply, truncf_apply, rsqrt_apply, scalar_ofBits_f32, Ideal.ofBits_zero_f32, pay4_apply]
  rfl

/-- The block's contribution to the pooled readout at graph g and column j: the sum of the output rows whose graph id is g. -/
theorem pay6_apply (W2 : FVec Ideal S64x64 .f32) (h : FVec Ideal S5000x64 .bf16) (b2 gb vb mb beb : Vec Ideal S1x64 .f32)
    (batch : Vec Ideal S5000x1 .i32) (g : Fin 512) (j : Fin 64) :
    k0_pay6 W2 h b2 gb vb mb beb batch (ix2 g j)
      = ∑ r : Fin 5000, (if (batch (ix2 r 0)).toInt = (g.val : ℤ) then (1 : EReal) else 0) * k0_pay5 W2 h b2 gb vb mb beb (ix2 r j) := by
  unfold k0_pay6
  simp only [matmul_pool_apply, truncf_apply]
  refine Finset.sum_congr rfl fun r _ => ?_
  congr 1
  show FloatOps.sitofp (F := Ideal) .f32 ((IntOp.cmpi .eq (broadcastTo S5000x512 (shapeCast S5000x1 batch shapeCasts_S5000x1_S5000x1) broadcasts_S5000x1_S5000x512 (ix2 r g)) (iota .tc S5000x512 32 [1] iota_S5000x512_d1_w32 (ix2 r g))).setWidth 32) = _
  rw [broadcastTo_a1_ab_apply, shapeCast_self, iota_single_apply]
  exact onehot_word _ g

/-- The accumulation step at graph g and column j: what was there plus the block's contribution. -/
theorem pay1_apply (v : FVec Ideal S512x64 .f32) (acc : Vec Ideal S1x512x64 .f32) (g : Fin 512) (j : Fin 64) :
    k0_pay1 v acc (ix3 0 g j) = acc (ix3 0 g j) + v (ix2 g j) := by
  unfold k0_pay1
  simp only [shapeCast_ab_1ab_apply, addf_apply, shapeCast_1ab_ab_apply]

/-- The reset value is zero everywhere. -/
theorem pay2_apply (g : Fin 512) (j : Fin 64) : (k0_pay2 (F := Ideal)) (ix3 0 g j) = 0 := by
  unfold k0_pay2
  simp only [shapeCast_ab_1ab_apply, broadcast_apply, scalar_ofBits_f32, Ideal.ofBits_zero_f32]

end Cert.KernelIdeal.Val0

end
-- ==== Proof.KIVal0H.lean ====
import proofs.«402532_j352187319172_1_alg».proof.Proof.KIVal0Pay
import proofs.«402532_j352187319172_1_alg».proof.Proof.KIReg0
import proofs.«402532_j352187319172_1_alg».proof.Proof.Gen.KernelIdeal.Launch
import proofs.«402532_j352187319172_1_alg».proof.Proof.Gen.KernelIdeal.Points
import Idealize.ShloMosaic.Lib.Pipeline.Value

/-!
# Region 0, window 14: the layer's output array

The region's input blocks read at coordinates, the block a point stores as rows of the layer's output, and the output array
after the region as one function of the region's input arrays, node by node.
-/

set_option maxRecDepth 16384

noncomputable section

namespace Cert.KernelIdeal.Val0

open Cert.KernelIdeal Cert.KernelIdeal.Gen Idealize.ShloMosaic Idealize.ShloMosaic.ValueIdx Idealize.ShloMosaic.TcCoe
open Idealize.SL Idealize.SL.Sem
open Idealize.ShloMosaic.Rounds
open Idealize.ShloMosaic.Pipeline (Dat)
open scoped BigOperators

variable (V : (c : Dev nD) → (b : Ref sig .tc) → Buf (Elt Ideal) ((c : Thread nD τ).loc b))

/-! ## The region's outputs as mathematics -/

/-- The layer's output at node n and column j: the MLP of row n of the region's input, with the region's twelve parameter
    arrays. -/
def hNext0 (c : Dev nD) (n : Fin 100000) (j : Fin 64) : EReal :=
  GinSpec.mlp (fun d => V c (Pipeline.arrRef spec0 0) (ix2 n d)) (fun d k => V c (Pipeline.arrRef spec0 2) (ix2 d k))
    (fun k => V c (Pipeline.arrRef spec0 3) (ix2 0 k)) (fun k => V c (Pipeline.arrRef spec0 4) (ix2 0 k))
    (fun k => V c (Pipeline.arrRef spec0 5) (ix2 0 k)) (fun k => V c (Pipeline.arrRef spec0 6) (ix2 0 k))
    (fun k => V c (Pipeline.arrRef spec0 7) (ix2 0 k)) (fun k j => V c (Pipeline.arrRef spec0 8) (ix2 k j))
    (fun j => V c (Pipeline.arrRef spec0 9) (ix2 0 j)) (fun j => V c (Pipeline.arrRef spec0 10) (ix2 0 j))
    (fun j => V c (Pipeline.arrRef spec0 11) (ix2 0 j)) (fun j => V c (Pipeline.arrRef spec0 12) (ix2 0 j))
    (fun j => V c (Pipeline.arrRef spec0 13) (ix2 0 j)) j

/-- The same as contents of the output array. -/
def hNextArr0 (c : Dev nD) : S100000x64.Idx → EReal := fun i => hNext0 V c (i 0) (i 1)

theorem hNextArr0_apply (c : Dev nD) (n : Fin 100000) (j : Fin 64) : hNextArr0 V c (ix2 n j) = hNext0 V c n j := rfl

/-! ## The index maps, decided once over the grid -/

/-- The moving windows: the row blocks follow the point, the readout block follows the core. -/
theorem idx_facts0 : ∀ t : Fin cfg0.N,
    win0_0.index t (0 : Fin 2) = t.val
    ∧ win0_0.index t (1 : Fin 2) = 0
    ∧ win0_1.index t (0 : Fin 2) = t.val
    ∧ win0_1.index t (1 : Fin 2) = 0
    ∧ win0_14.index t (0 : Fin 2) = t.val
    ∧ win0_14.index t (1 : Fin 2) = 0
    ∧ win0_15.index t (0 : Fin 3) = t.val / 10
    ∧ win0_15.index t (1 : Fin 3) = 0
    ∧ win0_15.index t (2 : Fin 3) = 0 :=
  (by decide +kernel : ∀ t : Fin grid0.N, _)

/-! The parameter windows stay at block zero. -/
theorem idx_zero0_2 : ∀ t : Fin cfg0.N, win0_2.index t (0 : Fin 2) = 0 ∧ win0_2.index t (1 : Fin 2) = 0 :=
  (by decide +kernel : ∀ t : Fin grid0.N, _)
theorem idx_zero0_3 : ∀ t : Fin cfg0.N, win0_3.index t (0 : Fin 2) = 0 ∧ win0_3.index t (1 : Fin 2) = 0 :=
  (by decide +kernel : ∀ t : Fin grid0.N, _)
theorem idx_zero0_4 : ∀ t : Fin cfg0.N, win0_4.index t (0 : Fin 2) = 0 ∧ win0_4.index t (1 : Fin 2) = 0 :=
  (by decide +kernel : ∀ t : Fin grid0.N, _)
theorem idx_zero0_5 : ∀ t : Fin cfg0.N, win0_5.index t (0 : Fin 2) = 0 ∧ win0_5.index t (1 : Fin 2) = 0 :=
  (by decide +kernel : ∀ t : Fin grid0.N, _)
theorem idx_zero0_6 : ∀ t : Fin cfg0.N, win0_6.index t (0 : Fin 2) = 0 ∧ win0_6.index t (1 : Fin 2) = 0 :=
  (by decide +kernel : ∀ t : Fin grid0.N, _)
theorem idx_zero0_7 : ∀ t : Fin cfg0.N, win0_7.index t (0 : Fin 2) = 0 ∧ win0_7.index t (1 : Fin 2) = 0 :=
  (by decide +kernel : ∀ t : Fin grid0.N, _)
theorem idx_zero0_8 : ∀ t : Fin cfg0.N, win0_8.index t (0 : Fin 2) = 0 ∧ win0_8.index t (1 : Fin 2) = 0 :=
  (by decide +kernel : ∀ t : Fin grid0.N, _)
theorem idx_zero0_9 : ∀ t : Fin cfg0.N, win0_9.index t (0 : Fin 2) = 0 ∧ win0_9.index t (1 : Fin 2) = 0 :=
  (by decide +kernel : ∀ t : Fin grid0.N, _)
theorem idx_zero0_10 : ∀ t : Fin cfg0.N, win0_10.index t (0 : Fin 2) = 0 ∧ win0_10.index t (1 : Fin 2) = 0 :=
  (by decide +kernel : ∀ t : Fin grid0.N, _)
theorem idx_zero0_11 : ∀ t : Fin cfg0.N, win0_11.index t (0 : Fin 2) = 0 ∧ win0_11.index t (1 : Fin 2) = 0 :=
  (by decide +kernel : ∀ t : Fin grid0.N, _)
theorem idx_zero0_12 : ∀ t : Fin cfg0.N, win0_12.index t (0 : Fin 2) = 0 ∧ win0_12.index t (1 : Fin 2) = 0 :=
  (by decide +kernel : ∀ t : Fin grid0.N, _)
theorem idx_zero0_13 : ∀ t : Fin cfg0.N, win0_13.index t (0 : Fin 2) = 0 ∧ win0_13.index t (1 : Fin 2) = 0 :=
  (by decide +kernel : ∀ t : Fin grid0.N, _)

/-- A row of tile t is a row of the array. -/
theorem row_lt (t : Fin cfg0.N) (r : Fin 5000) : t.val * 5000 + r.val < 100000 := by
  have hN : cfg0.N = 20 := N_0
  have := t.isLt
  have := r.isLt
  omega

/-! ## The input blocks read at coordinates -/

/-- The input block at point t, row r: row t * 5000 + r of the input array. -/
theorem iblk_z (c : Dev nD) (t : Fin cfg0.N) (r : Fin 5000) (d : Fin 128) :
    iblk0 V c 0 t (ix2 r d) = V c (Pipeline.arrRef spec0 0) (ix2 ⟨t.val * 5000 + r.val, row_lt t r⟩ d) := by
  obtain ⟨e0, e1, -⟩ := idx_facts0 t
  unfold iblk0
  rw [View.read_apply]
  show V c (Pipeline.arrRef spec0 0) (((cfg0.win 0).blk t).view.emb (ix2 r d)) = _
  congr 1
  funext a; apply Fin.ext
  match a with
  | ⟨0, _⟩ => show win0_0.index t (0 : Fin 2) * 5000 + 1 * r.val = t.val * 5000 + r.val; rw [e0]; omega
  | ⟨1, _⟩ => show win0_0.index t (1 : Fin 2) * 128 + 1 * d.val = d.val; rw [e1]; omega

/-- The graph ids' block at point t, row r: the id of node t * 5000 + r. -/
theorem iblk_gid (c : Dev nD) (t : Fin cfg0.N) (r : Fin 5000) :
    iblk0 V c 1 t (ix2 r 0) = V c (Pipeline.arrRef spec0 1) (ix2 ⟨t.val * 5000 + r.val, row_lt t r⟩ 0) := by
  obtain ⟨-, -, e0, e1, -⟩ := idx_facts0 t
  unfold iblk0
  rw [View.read_apply]
  show V c (Pipeline.arrRef spec0 1) (((cfg0.win 1).blk t).view.emb (ix2 r 0)) = _
  congr 1
  funext a; apply Fin.ext
  match a with
  | ⟨0, _⟩ => show win0_1.index t (0 : Fin 2) * 5000 + 1 * r.val = t.val * 5000 + r.val; rw [e0]; omega
  | ⟨1, _⟩ => show win0_1.index t (1 : Fin 2) * 1 + 1 * 0 = 0; rw [e1]

/-- Window 2's block is its whole array at every point. -/
theorem iblk_par_2 (c : Dev nD) (t : Fin cfg0.N) : (iblk0 V c 2 t : S128x64.Idx → EReal) = V c (Pipeline.arrRef spec0 2) := by
  funext y
  obtain ⟨e0, e1⟩ := idx_zero0_2 t
  unfold iblk0
  rw [View.read_apply]
  show V c (Pipeline.arrRef spec0 2) (((cfg0.win 2).blk t).view.emb y) = V c (Pipeline.arrRef spec0 2) y
  congr 1
  funext a; apply Fin.ext
  match a with
  | ⟨0, _⟩ => show win0_2.index t (0 : Fin 2) * 128 + 1 * (y 0).val = (y 0).val; rw [e0]; omega
  | ⟨1, _⟩ => show win0_2.index t (1 : Fin 2) * 64 + 1 * (y 1).val = (y 1).val; rw [e1]; omega

/-- Window 3's block is its whole array at every point. -/
theorem iblk_par_3 (c : Dev nD) (t : Fin cfg0.N) : (iblk0 V c 3 t : S1x64.Idx → EReal) = V c (Pipeline.arrRef spec0 3) := by
  funext y
  obtain ⟨e0, e1⟩ := idx_zero0_3 t
  unfold iblk0
  rw [View.read_apply]
  show V c (Pipeline.arrRef spec0 3) (((cfg0.win 3).blk t).view.emb y) = V c (Pipeline.arrRef spec0 3) y
  congr 1
  funext a; apply Fin.ext
  match a with
  | ⟨0, _⟩ => show win0_3.index t (0 : Fin 2) * 1 + 1 * (y 0).val = (y 0).val; rw [e0]; omega
  | ⟨1, _⟩ => show win0_3.index t (1 : Fin 2) * 64 + 1 * (y 1).val = (y 1).val; rw [e1]; omega

/-- Window 4's block is its whole array at every point. -/
theorem iblk_par_4 (c : Dev nD) (t : Fin cfg0.N) : (iblk0 V c 4 t : S1x64.Idx → EReal) = V c (Pipeline.arrRef spec0 4) := by
  funext y
  obtain ⟨e0, e1⟩ := idx_zero0_4 t
  unfold iblk0
  rw [View.read_apply]
  show V c (Pipeline.arrRef spec0 4) (((cfg0.win 4).blk t).view.emb y) = V c (Pipeline.arrRef spec0 4) y
  congr 1
  funext a; apply Fin.ext
  match a with
  | ⟨0, _⟩ => show win0_4.index t (0 : Fin 2) * 1 + 1 * (y 0).val = (y 0).val; rw [e0]; omega
  | ⟨1, _⟩ => show win0_4.index t (1 : Fin 2) * 64 + 1 * (y 1).val = (y 1).val; rw [e1]; omega

/-- Window 5's block is its whole array at every point. -/
theorem iblk_par_5 (c : Dev nD) (t : Fin cfg0.N) : (iblk0 V c 5 t : S1x64.Idx → EReal) = V c (Pipeline.arrRef spec0 5) := by
  funext y
  obtain ⟨e0, e1⟩ := idx_zero0_5 t
  unfold iblk0
  rw [View.read_apply]
  show V c (Pipeline.arrRef spec0 5) (((cfg0.win 5).blk t).view.emb y) = V c (Pipeline.arrRef spec0 5) y
  congr 1
  funext a; apply Fin.ext
  match a with
  | ⟨0, _⟩ => show win0_5.index t (0 : Fin 2) * 1 + 1 * (y 0).val = (y 0).val; rw [e0]; omega
  | ⟨1, _⟩ => show win0_5.index t (1 : Fin 2) * 64 + 1 * (y 1).val = (y 1).val; rw [e1]; omega

/-- Window 6's block is its whole array at every point. -/
theorem iblk_par_6 (c : Dev nD) (t : Fin cfg0.N) : (iblk0 V c 6 t : S1x64.Idx → EReal) = V c (Pipeline.arrRef spec0 6) := by
  funext y
  obtain ⟨e0, e1⟩ := idx_zero0_6 t
  unfold iblk0
  rw [View.read_apply]
  show V c (Pipeline.arrRef spec0 6) (((cfg0.win 6).blk t).view.emb y) = V c (Pipeline.arrRef spec0 6) y
  congr 1
  funext a; apply Fin.ext
  match a with
  | ⟨0, _⟩ => show win0_6.index t (0 : Fin 2) * 1 + 1 * (y 0).val = (y 0).val; rw [e0]; omega
  | ⟨1, _⟩ => show win0_6.index t (1 : Fin 2) * 64 + 1 * (y 1).val = (y 1).val; rw [e1]; omega

/-- Window 7's block is its whole array at every point. -/
theorem iblk_par_7 (c : Dev nD) (t : Fin cfg0.N) : (iblk0 V c 7 t : S1x64.Idx → EReal) = V c (Pipeline.arrRef spec0 7) := by
  funext y
  obtain ⟨e0, e1⟩ := idx_zero0_7 t
  unfold iblk0
  rw [View.read_apply]
  show V c (Pipeline.arrRef spec0 7) (((cfg0.win 7).blk t).view.emb y) = V c (Pipeline.arrRef spec0 7) y
  congr 1
  funext a; apply Fin.ext
  match a with
  | ⟨0, _⟩ => show win0_7.index t (0 : Fin 2) * 1 + 1 * (y 0).val = (y 0).val; rw [e0]; omega
  | ⟨1, _⟩ => show win0_7.index t (1 : Fin 2) * 64 + 1 * (y 1).val = (y 1).val; rw [e1]; omega

/-- Window 8's block is its whole array at every point. -/
theorem iblk_par_8 (c : Dev nD) (t : Fin cfg0.N) : (iblk0 V c 8 t : S64x64.Idx → EReal) = V c (Pipeline.arrRef spec0 8) := by
  funext y
  obtain ⟨e0, e1⟩ := idx_zero0_8 t
  unfold iblk0
  rw [View.read_apply]
  show V c (Pipeline.arrRef spec0 8) (((cfg0.win 8).blk t).view.emb y) = V c (Pipeline.arrRef spec0 8) y
  congr 1
  funext a; apply Fin.ext
  match a with
  | ⟨0, _⟩ => show win0_8.index t (0 : Fin 2) * 64 + 1 * (y 0).val = (y 0).val; rw [e0]; omega
  | ⟨1, _⟩ => show win0_8.index t (1 : Fin 2) * 64 + 1 * (y 1).val = (y 1).val; rw [e1]; omega

/-- Window 9's block is its whole array at every point. -/
theorem iblk_par_9 (c : Dev nD) (t : Fin cfg0.N) : (iblk0 V c 9 t : S1x64.Idx → EReal) = V c (Pipeline.arrRef spec0 9) := by
  funext y
  obtain ⟨e0, e1⟩ := idx_zero0_9 t
  unfold iblk0
  rw [View.read_apply]
  show V c (Pipeline.arrRef spec0 9) (((cfg0.win 9).blk t).view.emb y) = V c (Pipeline.arrRef spec0 9) y
  congr 1
  funext a; apply Fin.ext
  match a with
  | ⟨0, _⟩ => show win0_9.index t (0 : Fin 2) * 1 + 1 * (y 0).val = (y 0).val; rw [e0]; omega
  | ⟨1, _⟩ => show win0_9.index t (1 : Fin 2) * 64 + 1 * (y 1).val = (y 1).val; rw [e1]; omega

/-- Window 10's block is its whole array at every point. -/
theorem iblk_par_10 (c : Dev nD) (t : Fin cfg0.N) : (iblk0 V c 10 t : S1x64.Idx → EReal) = V c (Pipeline.arrRef spec0 10) := by
  funext y
  obtain ⟨e0, e1⟩ := idx_zero0_10 t
  unfold iblk0
  rw [View.read_apply]
  show V c (Pipeline.arrRef spec0 10) (((cfg0.win 10).blk t).view.emb y) = V c (Pipeline.arrRef spec0 10) y
  congr 1
  funext a; apply Fin.ext
  match a with
  | ⟨0, _⟩ => show win0_10.index t (0 : Fin 2) * 1 + 1 * (y 0).val = (y 0).val; rw [e0]; omega
  | ⟨1, _⟩ => show win0_10.index t (1 : Fin 2) * 64 + 1 * (y 1).val = (y 1).val; rw [e1]; omega

/-- Window 11's block is its whole array at every point. -/
theorem iblk_par_11 (c : Dev nD) (t : Fin cfg0.N) : (iblk0 V c 11 t : S1x64.Idx → EReal) = V c (Pipeline.arrRef spec0 11) := by
  funext y
  obtain ⟨e0, e1⟩ := idx_zero0_11 t
  unfold iblk0
  rw [View.read_apply]
  show V c (Pipeline.arrRef spec0 11) (((cfg0.win 11).blk t).view.emb y) = V c (Pipeline.arrRef spec0 11) y
  congr 1
  funext a; apply Fin.ext
  match a with
  | ⟨0, _⟩ => show win0_11.index t (0 : Fin 2) * 1 + 1 * (y 0).val = (y 0).val; rw [e0]; omega
  | ⟨1, _⟩ => show win0_11.index t (1 : Fin 2) * 64 + 1 * (y 1).val = (y 1).val; rw [e1]; omega

/-- Window 12's block is its whole array at every point. -/
theorem iblk_par_12 (c : Dev nD) (t : Fin cfg0.N) : (iblk0 V c 12 t : S1x64.Idx → EReal) = V c (Pipeline.arrRef spec0 12) := by
  funext y
  obtain ⟨e0, e1⟩ := idx_zero0_12 t
  unfold iblk0
  rw [View.read_apply]
  show V c (Pipeline.arrRef spec0 12) (((cfg0.win 12).blk t).view.emb y) = V c (Pipeline.arrRef spec0 12) y
  congr 1
  funext a; apply Fin.ext
  match a with
  | ⟨0, _⟩ => show win0_12.index t (0 : Fin 2) * 1 + 1 * (y 0).val = (y 0).val; rw [e0]; omega
  | ⟨1, _⟩ => show win0_12.index t (1 : Fin 2) * 64 + 1 * (y 1).val = (y 1).val; rw [e1]; omega

/-- Window 13's block is its whole array at every point. -/
theorem iblk_par_13 (c : Dev nD) (t : Fin cfg0.N) : (iblk0 V c 13 t : S1x64.Idx → EReal) = V c (Pipeline.arrRef spec0 13) := by
  funext y
  obtain ⟨e0, e1⟩ := idx_zero0_13 t
  unfold iblk0
  rw [View.read_apply]
  show V c (Pipeline.arrRef spec0 13) (((cfg0.win 13).blk t).view.emb y) = V c (Pipeline.arrRef spec0 13) y
  congr 1
  funext a; apply Fin.ext
  match a with
  | ⟨0, _⟩ => show win0_13.index t (0 : Fin 2) * 1 + 1 * (y 0).val = (y 0).val; rw [e0]; omega
  | ⟨1, _⟩ => show win0_13.index t (1 : Fin 2) * 64 + 1 * (y 1).val = (y 1).val; rw [e1]; omega

/-! ## Window 14: what a point stores is its rows of the layer's output -/

/-- The stored block at point t, row r, column j. -/
theorem after14_apply (c : Dev nD) (t : Fin cfg0.N) (r : Fin 5000) (j : Fin 64) :
    k0_pay5 (k0_pay3 (iblk0 V c 8 t))
        (k0_pay4 (iblk0 V c 0 t) (iblk0 V c 2 t) (iblk0 V c 3 t) (iblk0 V c 4 t) (iblk0 V c 7 t) (iblk0 V c 6 t) (iblk0 V c 5 t)) (iblk0 V c 9 t) (iblk0 V c 10 t) (iblk0 V c 13 t) (iblk0 V c 12 t) (iblk0 V c 11 t) (ix2 r j)
      = hNext0 V c ⟨t.val * 5000 + r.val, row_lt t r⟩ j := by
  refine (pay5_apply _ _ _ _ _ _ _ _ _ _ _ _ _ r j).trans ?_
  unfold hNext0
  simp only [iblk_z, iblk_par_2, iblk_par_3, iblk_par_4, iblk_par_5, iblk_par_6, iblk_par_7, iblk_par_8, iblk_par_9, iblk_par_10, iblk_par_11, iblk_par_12, iblk_par_13]

/-! ## Window 14: the array after the region -/

section Window14

variable (c : Dev nD) (dat : Dat τ (Elt Ideal) Unit ℕ (UR sig nD τ) ℕ cfg0 c)

/-- What a point stores into window 14's block, as the frame states it: the second half's payload of the first half's, of the
    point's input blocks. -/
abbrev stored14 (c : Dev nD) (t : Fin cfg0.N) : FVec Ideal S5000x64 .f32 :=
  k0_pay5 (k0_pay3 (iblk0 V c 8 t))
    (k0_pay4 (iblk0 V c 0 t) (iblk0 V c 2 t) (iblk0 V c 3 t) (iblk0 V c 4 t) (iblk0 V c 7 t) (iblk0 V c 6 t) (iblk0 V c 5 t)) (iblk0 V c 9 t) (iblk0 V c 10 t) (iblk0 V c 13 t) (iblk0 V c 12 t) (iblk0 V c 11 t)

/-- Where row r, column j of point t's block sits in the array. -/
theorem emb14 (t : Fin cfg0.N) (r : Fin 5000) (j : Fin 64) :
    ((cfg0.win 14).blk t).view.emb (ix2 r j) = ix2 ⟨t.val * 5000 + r.val, row_lt t r⟩ j := by
  obtain ⟨-, -, -, -, e0, e1, -⟩ := idx_facts0 t
  funext a; apply Fin.ext
  match a with
  | ⟨0, _⟩ => show win0_14.index t (0 : Fin 2) * 5000 + 1 * r.val = t.val * 5000 + r.val; rw [e0]; omega
  | ⟨1, _⟩ => show win0_14.index t (1 : Fin 2) * 64 + 1 * j.val = j.val; rw [e1]; omega

/-- WHAT POINT t WRITES BACK is block t of the layer's output. -/
theorem flushed14_eq (h14 : ∀ t, dat.after 14 t = stored14 V c t) (t : Fin cfg0.N) :
    dat.flushed 14 t = ((cfg0.win 14).blk t).view.read (Elt Ideal) (hNextArr0 V c) := by
  show (cfg0.win 14).cut (cfg0.grid.coords t) (dat.after 14 t) = _
  rw [h14]
  funext y
  obtain ⟨r, j, rfl⟩ : ∃ (r : Fin 5000) (j : Fin 64), y = ix2 r j := ⟨y 0, y 1, eq_ix2 y⟩
  rw [View.read_apply]
  show stored14 V c t (ix2 r j) = hNextArr0 V c (((cfg0.win 14).blk t).view.emb (ix2 r j))
  rw [emb14, hNextArr0_apply]
  exact after14_apply V c t r j

/-- An index of the array is in point t's block iff each coordinate is in the block's range on its axis. -/
theorem mem_blk14 (t : Fin cfg0.N) (i : S100000x64.Idx) :
    i ∈ ((cfg0.win 14).blk t).view.set ↔ ∀ a : Fin 2, win0_14.index t a * S5000x64.size a ≤ (i a).val ∧ (i a).val < win0_14.index t a * S5000x64.size a + S5000x64.size a := by
  show i ∈ ((View.whole (Pipeline.arrRef spec0 14)).slice (win0_14.rect t)).set ↔ _
  rw [View.set_slice_whole, Rect.mem_set_unit]
  exact Iff.rfl

/-- Every row is in the block of the point its tile names. -/
theorem cover14 (i : S100000x64.Idx) :
    ∃ t : Fin cfg0.N, (cfg0.win 14).flush t = true ∧ i ∈ ((cfg0.win 14).blk t).view.set := by
  have hN : cfg0.N = 20 := N_0
  have hi0 : (i 0).val < 100000 := (i 0).isLt
  have hi1 : (i 1).val < 64 := (i 1).isLt
  let t : Fin cfg0.N := ⟨(i 0).val / 5000, by omega⟩
  obtain ⟨-, -, -, -, e0, e1, -⟩ := idx_facts0 t
  have ht : t.val = (i 0).val / 5000 := rfl
  refine ⟨t, flush0_14 t, ?_⟩
  rw [mem_blk14]
  intro a
  match a with
  | ⟨0, _⟩ => show win0_14.index t (0 : Fin 2) * 5000 ≤ (i 0).val ∧ (i 0).val < win0_14.index t (0 : Fin 2) * 5000 + 5000; rw [e0, ht]; omega
  | ⟨1, _⟩ => show win0_14.index t (1 : Fin 2) * 64 ≤ (i 1).val ∧ (i 1).val < win0_14.index t (1 : Fin 2) * 64 + 64; rw [e1]; omega

/-- THE ARRAY of window 14 after the region: the layer's output, node by node. -/
theorem arr14 (h14 : ∀ t, dat.after 14 t = stored14 V c t) : dat.arrAt 14 cfg0.N = hNextArr0 V c :=
  dat.arrAt_eq_of_cover 14 (hNextArr0 V c) (fun t _ => flushed14_eq V c dat h14 t) (cover14)

/-- The same at a node and a column. -/
theorem arr14_apply (h14 : ∀ t, dat.after 14 t = stored14 V c t) (n : Fin 100000) (j : Fin 64) :
    dat.arrAt 14 cfg0.N (ix2 n j) = hNext0 V c n j :=
  congrFun (arr14 V c dat h14) (ix2 n j)

end Window14

end Cert.KernelIdeal.Val0

end
-- ==== Proof.SpecSums.lean ====
import proofs.«402532_j352187319172_1_alg».proof.Proof.Spec
import Mathlib.Data.EReal.Basic
import Mathlib.Algebra.BigOperators.Group.Finset.Basic
import Mathlib.Algebra.BigOperators.Fin
import Mathlib.Data.Fintype.BigOperators
import Mathlib.Logic.Equiv.Fin.Basic

/-!
# Sum lemmas joining a tiled one-hot product to a filtered sum

The pooled sum of a feature column over the rows whose graph id is g, rewritten as the
tile-by-tile, core-by-core accumulation of one-hot weighted sums, over the extended reals. Only
commutativity and associativity of the addition and the laws 0 * x = 0, 1 * x = x (true of every
extended real, the infinities included) are used. The last section gives the one-hot entry as it
is made from two 32-bit words.
-/

noncomputable section

namespace GinSpec

open Idealize.ShloMosaic

/-- Row r of tile t, as a global row index: t * 5000 + r. -/
def row (t : Fin 20) (r : Fin 5000) : Fin 100000 :=
  ⟨t.val * 5000 + r.val, by have := t.isLt; have := r.isLt; omega⟩

/-- Tile k of core c, as a global tile index: c * 10 + k. -/
def tile20 (c : Fin 2) (k : Fin 10) : Fin 20 :=
  ⟨c.val * 10 + k.val, by have := c.isLt; have := k.isLt; omega⟩

@[simp] theorem row_val (t : Fin 20) (r : Fin 5000) : (row t r).val = t.val * 5000 + r.val := rfl
@[simp] theorem tile20_val (c : Fin 2) (k : Fin 10) : (tile20 c k).val = c.val * 10 + k.val := rfl

/-! ## One-hot weights select a filtered sum

In the extended reals 1 * x = x and 0 * x = 0 for every x, the infinities included, so a sum of
one-hot weighted terms is the sum of the selected terms with no finiteness side condition. -/

/-- A sum of one-hot weighted terms is the sum over the indices the one-hot selects. -/
theorem sum_ite_mul {ι : Type} [Fintype ι] (p : ι → Prop) [DecidablePred p] (h : ι → EReal) :
    ∑ r, (if p r then (1 : EReal) else 0) * h r = ∑ r ∈ Finset.univ.filter p, h r := by
  rw [Finset.sum_filter]
  refine Finset.sum_congr rfl fun r _ => ?_
  by_cases hp : p r
  · rw [if_pos hp, if_pos hp, one_mul]
  · rw [if_neg hp, if_neg hp, zero_mul]

/-! ## Cutting a sum into consecutive blocks -/

/-- A sum over m * n indices, cut into m blocks of n consecutive indices: index b + n * a is entry b
    of block a. Only commutativity and associativity of the addition are used. -/
theorem sum_blocks {M : Type} [AddCommMonoid M] (m n : ℕ) (f : Fin (m * n) → M) :
    ∑ i, f i = ∑ a : Fin m, ∑ b : Fin n, f (finProdFinEquiv (a, b)) := by
  rw [← Fintype.sum_prod_type' (fun a b => f (finProdFinEquiv (a, b)))]
  exact (Equiv.sum_comp finProdFinEquiv f).symm

/-- The 100000 rows are 20 tiles of 5000 rows. -/
theorem sum_rows (f : Fin 100000 → EReal) :
    ∑ n, f n = ∑ t : Fin 20, ∑ r : Fin 5000, f (row t r) := by
  rw [sum_blocks 20 5000 f]
  refine Finset.sum_congr rfl fun t _ => Finset.sum_congr rfl fun r _ => ?_
  have e : (finProdFinEquiv (t, r) : Fin (20 * 5000)) = row t r := by
    apply Fin.ext
    simp only [finProdFinEquiv_apply_val, row_val]
    omega
  rw [e]

/-- The 20 tiles are 2 cores of 10 tiles. -/
theorem sum_cores (f : Fin 20 → EReal) :
    ∑ t, f t = ∑ c : Fin 2, ∑ k : Fin 10, f (tile20 c k) := by
  rw [sum_blocks 2 10 f]
  refine Finset.sum_congr rfl fun c _ => Finset.sum_congr rfl fun k _ => ?_
  have e : (finProdFinEquiv (c, k) : Fin (2 * 10)) = tile20 c k := by
    apply Fin.ext
    simp only [finProdFinEquiv_apply_val, tile20_val]
    omega
  rw [e]

/-! ## A running accumulator is a partial sum -/

/-- The accumulator after step k, started from zero: acc 0 = 0 + a 0, acc (k + 1) = acc k + a (k + 1). -/
def accUpTo (a : ℕ → EReal) : ℕ → EReal
  | 0 => 0 + a 0
  | (k+1) => accUpTo a k + a (k+1)

/-- The accumulator after step k is the sum of the first k + 1 terms. -/
theorem accUpTo_eq (a : ℕ → EReal) (k : ℕ) : accUpTo a k = ∑ i ∈ Finset.range (k+1), a i := by
  induction k with
  | zero => rw [accUpTo, zero_add, Finset.sum_range_one]
  | succ k ih => rw [accUpTo, ih, Finset.sum_range_succ _ (k+1)]

/-! ## The pooled sum, tile by tile and core by core -/

/-- The pooled sum is the sum over the 20 tiles of each tile's one-hot product. -/
theorem pool_eq_tiles (h : Fin 100000 → EReal) (batch : Fin 100000 → BitVec 32) (g : Fin 512) :
    pool h batch g = ∑ t : Fin 20, ∑ r : Fin 5000,
      (if (batch (row t r)).toInt = (g.val : ℤ) then (1 : EReal) else 0) * h (row t r) := by
  unfold pool
  rw [← sum_ite_mul (fun n => (batch n).toInt = (g.val : ℤ)) h]
  exact sum_rows (fun n => (if (batch n).toInt = (g.val : ℤ) then (1 : EReal) else 0) * h n)

/-- The pooled sum is zero plus the sum over the two cores of each core's accumulator after its
    tenth tile. -/
theorem pool_eq_cores (h : Fin 100000 → EReal) (batch : Fin 100000 → BitVec 32) (g : Fin 512) :
    pool h batch g = 0 + ∑ c : Fin 2, accUpTo (fun k => if hk : k < 10 then
      ∑ r : Fin 5000, (if (batch (row (tile20 c ⟨k, hk⟩) r)).toInt = (g.val : ℤ) then (1 : EReal) else 0)
        * h (row (tile20 c ⟨k, hk⟩) r) else 0) 9 := by
  rw [zero_add, pool_eq_tiles, sum_cores]
  refine Finset.sum_congr rfl fun c _ => ?_
  rw [accUpTo_eq]
  show _ = ∑ i ∈ Finset.range 10, _
  rw [Finset.sum_range]
  refine Finset.sum_congr rfl fun k _ => ?_
  rw [dif_pos k.isLt]

/-! ## The one-hot word

Lane by lane the one-hot entry is made from two 32-bit words x and g: the 1-bit word of the
comparison x = g (`IntOp.cmpi .eq`), zero-extended to 32 bits (`BitVec.setWidth 32`, which
`BitVec.zeroExtend 32` abbreviates), read as a signed integer and taken exactly into the extended
reals (the ideal instance's `FloatOps.sitofp`). -/

/-- The comparison word is 1 where the words agree and 0 elsewhere. -/
theorem cmpi_eq_word {w : ℕ} (x g : BitVec w) : IntOp.cmpi .eq x g = if x = g then 1#1 else 0#1 := by
  show BitVec.ofBool (x == g) = _
  by_cases hx : x = g
  · rw [if_pos hx, beq_iff_eq.mpr hx]; rfl
  · rw [if_neg hx, beq_eq_false_iff_ne.mpr hx]; rfl

/-- The widened comparison word, read as a signed integer and taken into the extended reals, is
    the one-hot entry. -/
theorem onehot_word (x g : BitVec 32) :
    (((BitVec.zeroExtend 32 (if x = g then 1#1 else 0#1)).toInt : ℝ) : EReal) = if x = g then 1 else 0 := by
  by_cases hx : x = g
  · rw [if_pos hx, if_pos hx]
    have e : (BitVec.zeroExtend 32 1#1).toInt = 1 := by decide
    rw [e, Int.cast_one, EReal.coe_one]
  · rw [if_neg hx, if_neg hx]
    have e : (BitVec.zeroExtend 32 0#1).toInt = 0 := by decide
    rw [e, Int.cast_zero, EReal.coe_zero]

/-- The same, over the operations of the kernel's lane: compare, zero-extend, convert. -/
theorem onehot_sitofp (x g : BitVec 32) :
    (FloatOps.sitofp (F := Ideal) .f32 ((IntOp.cmpi .eq x g).setWidth 32) : EReal) = if x = g then 1 else 0 := by
  rw [cmpi_eq_word]
  exact onehot_word x g

/-- A 32-bit word is the word of a graph id below 512 exactly when its signed reading is that id
    (512 is below 2 ^ 31, so the id's word is nonnegative). -/
theorem eq_ofNat_iff_toInt (x : BitVec 32) (g : Fin 512) :
    x = BitVec.ofNat 32 g.val ↔ x.toInt = (g.val : ℤ) := by
  have hg := g.isLt
  have e : (BitVec.ofNat 32 g.val).toInt = (g.val : ℤ) := by
    rw [BitVec.toInt_eq_toNat_cond, BitVec.toNat_ofNat]
    omega
  rw [← e]
  exact BitVec.toInt_inj.symm

/-- The one-hot entry against graph id g, as the reference's test on the signed reading. -/
theorem onehot_sitofp_id (x : BitVec 32) (g : Fin 512) :
    (FloatOps.sitofp (F := Ideal) .f32 ((IntOp.cmpi .eq x (BitVec.ofNat 32 g.val)).setWidth 32) : EReal)
      = if x.toInt = (g.val : ℤ) then 1 else 0 := by
  rw [onehot_sitofp]
  by_cases hx : x.toInt = (g.val : ℤ)
  · rw [if_pos hx, if_pos ((eq_ofNat_iff_toInt x g).mpr hx)]
  · rw [if_neg hx, if_neg (fun h' => hx ((eq_ofNat_iff_toInt x g).mp h'))]

/-- The kernel's one-hot lane at one index of a vector of any shape: the comparison of the two
    integer vectors, zero-extended and converted, is 1 where the lanes agree and 0 elsewhere. -/
theorem onehot_lane {s : Shape} (X Y : IVec s 32) (h32 : 1 < 32) (i : s.Idx) :
    (sitofp .f32 (extui 32 (cmpi .eq X Y) h32) : FVec Ideal s .f32) i
      = if X i = Y i then (1 : EReal) else 0 :=
  onehot_sitofp (X i) (Y i)

end GinSpec

end
-- ==== Proof.KIVal0R.lean ====
import proofs.«402532_j352187319172_1_alg».proof.Proof.KIVal0H
import proofs.«402532_j352187319172_1_alg».proof.Proof.SpecSums

/-!
# Region 0, window 15: the pooled readout

A point's contribution to its core's readout block as a one-hot weighted sum of the tile's output rows, the block carried
from tile to tile as a partial sum, and the readout array after the region: each core's partial sum after its tenth tile.
-/

set_option maxRecDepth 16384

noncomputable section

namespace Cert.KernelIdeal.Val0

open Cert.KernelIdeal Cert.KernelIdeal.Gen Idealize.ShloMosaic Idealize.ShloMosaic.ValueIdx Idealize.ShloMosaic.TcCoe
open Idealize.SL Idealize.SL.Sem
open Idealize.ShloMosaic.Rounds
open Idealize.ShloMosaic.Pipeline (Dat)
open scoped BigOperators

variable (V : (c : Dev nD) → (b : Ref sig .tc) → Buf (Elt Ideal) ((c : Thread nD τ).loc b))

/-! ## Window 15: the pooled readout, accumulated over a core's ten tiles -/

section Window15

variable (c : Dev nD) (dat : Dat τ (Elt Ideal) Unit ℕ (UR sig nD τ) ℕ cfg0 c)

/-- A point's contribution to the readout block, as the frame states it: the pooling payload of the point's input blocks. -/
abbrev contrib0 (c : Dev nD) (t : Fin cfg0.N) : FVec Ideal S512x64 .f32 :=
  k0_pay6 (k0_pay3 (iblk0 V c 8 t))
    (k0_pay4 (iblk0 V c 0 t) (iblk0 V c 2 t) (iblk0 V c 3 t) (iblk0 V c 4 t) (iblk0 V c 7 t) (iblk0 V c 6 t) (iblk0 V c 5 t)) (iblk0 V c 9 t) (iblk0 V c 10 t) (iblk0 V c 13 t) (iblk0 V c 12 t) (iblk0 V c 11 t) (iblk0 V c 1 t)

/-- The contribution at graph g and column j: the sum of the tile's output rows whose graph id is g. -/
theorem contrib0_apply (t : Fin cfg0.N) (g : Fin 512) (j : Fin 64) :
    contrib0 V c t (ix2 g j)
      = ∑ r : Fin 5000, (if (V c (Pipeline.arrRef spec0 1) (ix2 (⟨t.val * 5000 + r.val, row_lt t r⟩ : Fin 100000) 0)).toInt = (g.val : ℤ) then (1 : EReal) else 0)
          * hNext0 V c ⟨t.val * 5000 + r.val, row_lt t r⟩ j := by
  refine (pay6_apply _ _ _ _ _ _ _ _ g j).trans ?_
  refine Finset.sum_congr rfl fun r _ => ?_
  rw [after14_apply, iblk_gid]

/-- Tile k of core cc contributes, at graph g and column j (zero past the core's ten tiles). -/
def poolTile0 (c : Dev nD) (cc : Fin 2) (g : Fin 512) (j : Fin 64) (k : ℕ) : EReal :=
  if hk : k < 10 then ∑ r : Fin 5000, (if (V c (Pipeline.arrRef spec0 1) (ix2 (GinSpec.row (GinSpec.tile20 cc ⟨k, hk⟩) r) 0)).toInt = (g.val : ℤ) then (1 : EReal) else 0) * hNext0 V c (GinSpec.row (GinSpec.tile20 cc ⟨k, hk⟩) r) j else 0

/-- The readout partial sums as contents of the output array: core cc's accumulator after its tenth tile. -/
def readoutArr0 (c : Dev nD) : S2x512x64.Idx → EReal := fun i => GinSpec.accUpTo (poolTile0 V c (i 0) (i 1) (i 2)) 9

theorem readoutArr0_apply (c : Dev nD) (cc : Fin 2) (g : Fin 512) (j : Fin 64) :
    readoutArr0 V c (ix3 cc g j) = GinSpec.accUpTo (poolTile0 V c cc g j) 9 := rfl

/-- The two cores' partial sums add up to the pooled sum of the layer's output over the graph's nodes. -/
theorem readoutArr0_pool (c : Dev nD) (g : Fin 512) (j : Fin 64) :
    (0 : EReal) + ∑ cc : Fin 2, readoutArr0 V c (ix3 cc g j)
      = GinSpec.pool (fun n => hNext0 V c n j) (fun n => V c (Pipeline.arrRef spec0 1) (ix2 n 0)) g := by
  rw [GinSpec.pool_eq_cores]
  rfl

/-- Tile k of core cc is a point of the grid. -/
theorem tile_lt (cc : Fin 2) (k : ℕ) (hk : k < 10) : cc.val * 10 + k < cfg0.N := by
  have hN : cfg0.N = 20 := N_0
  have := cc.isLt
  omega

/-- The contribution of the point that is tile k of core cc is that tile's. -/
theorem contrib0_tile (cc : Fin 2) (k : ℕ) (hk : k < 10) (g : Fin 512) (j : Fin 64) :
    contrib0 V c ⟨cc.val * 10 + k, tile_lt cc k hk⟩ (ix2 g j) = poolTile0 V c cc g j k := by
  rw [contrib0_apply]
  unfold poolTile0
  rw [dif_pos hk]
  rfl

/-- Where graph g, column j of point t's block sits in the array: in the core's slab. -/
theorem emb15 (t : Fin cfg0.N) (g : Fin 512) (j : Fin 64) :
    ((cfg0.win 15).blk t).view.emb (ix3 (0 : Fin 1) g j) = ix3 (⟨t.val / 10, by have hN : cfg0.N = 20 := N_0; have := t.isLt; omega⟩ : Fin 2) g j := by
  obtain ⟨-, -, -, -, -, -, e0, e1, e2⟩ := idx_facts0 t
  funext a; apply Fin.ext
  match a with
  | ⟨0, _⟩ => show win0_15.index t (0 : Fin 3) * 1 + 1 * 0 = t.val / 10; rw [e0]; omega
  | ⟨1, _⟩ => show win0_15.index t (1 : Fin 3) * 512 + 1 * g.val = g.val; rw [e1]; omega
  | ⟨2, _⟩ => show win0_15.index t (2 : Fin 3) * 64 + 1 * j.val = j.val; rw [e2]; omega

/-- An index of the array is in point t's block iff each coordinate is in the block's range on its axis. -/
theorem mem_blk15 (t : Fin cfg0.N) (i : S2x512x64.Idx) :
    i ∈ ((cfg0.win 15).blk t).view.set ↔ ∀ a : Fin 3, win0_15.index t a * S1x512x64.size a ≤ (i a).val ∧ (i a).val < win0_15.index t a * S1x512x64.size a + S1x512x64.size a := by
  show i ∈ ((View.whole (Pipeline.arrRef spec0 15)).slice (win0_15.rect t)).set ↔ _
  rw [View.set_slice_whole, Rect.mem_set_unit]
  exact Iff.rfl

/-- Every index is in the block of its core's last point. -/
theorem cover15 (i : S2x512x64.Idx) :
    ∃ t : Fin cfg0.N, (cfg0.win 15).flush t = true ∧ i ∈ ((cfg0.win 15).blk t).view.set := by
  have hN : cfg0.N = 20 := N_0
  have hi0 : (i 0).val < 2 := (i 0).isLt
  have hi1 : (i 1).val < 512 := (i 1).isLt
  have hi2 : (i 2).val < 64 := (i 2).isLt
  let t : Fin cfg0.N := ⟨(i 0).val * 10 + 9, by omega⟩
  obtain ⟨-, -, -, -, -, -, e0, e1, e2⟩ := idx_facts0 t
  have ht : t.val = (i 0).val * 10 + 9 := rfl
  refine ⟨t, (flush0_15 t).mpr (by rw [ht]; omega), ?_⟩
  rw [mem_blk15]
  intro a
  match a with
  | ⟨0, _⟩ => show win0_15.index t (0 : Fin 3) * 1 ≤ (i 0).val ∧ (i 0).val < win0_15.index t (0 : Fin 3) * 1 + 1; rw [e0, ht]; omega
  | ⟨1, _⟩ => show win0_15.index t (1 : Fin 3) * 512 ≤ (i 1).val ∧ (i 1).val < win0_15.index t (1 : Fin 3) * 512 + 512; rw [e1]; omega
  | ⟨2, _⟩ => show win0_15.index t (2 : Fin 3) * 64 ≤ (i 2).val ∧ (i 2).val < win0_15.index t (2 : Fin 3) * 64 + 64; rw [e2]; omega

variable (h15a : ∀ t : Fin cfg0.N, t.val % 10 = 0 → dat.after 15 t = k0_pay1 (contrib0 V c t) (k0_pay2 (F := Ideal)))
  (h15b : ∀ (t : Fin cfg0.N) (h : ¬ t.val % 10 = 0), dat.after 15 t = k0_pay1 (contrib0 V c t) (dat.after 15 ⟨t.val - 1, Nat.lt_of_le_of_lt (Nat.sub_le _ _) t.isLt⟩))

include h15a h15b

/-- THE ACCUMULATOR after tile k of core cc, at graph g and column j: the partial sum of the core's tiles up to k. -/
theorem after15_tile (cc : Fin 2) (g : Fin 512) (j : Fin 64) :
    ∀ (k : ℕ) (hk : k < 10), dat.after 15 ⟨cc.val * 10 + k, tile_lt cc k hk⟩ (ix3 0 g j) = GinSpec.accUpTo (poolTile0 V c cc g j) k
  | 0, hk => by
    have h0 : (⟨cc.val * 10 + 0, tile_lt cc 0 hk⟩ : Fin cfg0.N).val % 10 = 0 := by show (cc.val * 10 + 0) % 10 = 0; omega
    rw [h15a _ h0, pay1_apply, pay2_apply, contrib0_tile V c cc 0 hk]
    rfl
  | k + 1, hk => by
    have hs : ¬ (⟨cc.val * 10 + (k + 1), tile_lt cc (k + 1) hk⟩ : Fin cfg0.N).val % 10 = 0 := by show ¬ (cc.val * 10 + (k + 1)) % 10 = 0; omega
    rw [h15b _ hs, pay1_apply, contrib0_tile V c cc (k + 1) hk]
    have hp : (⟨(⟨cc.val * 10 + (k + 1), tile_lt cc (k + 1) hk⟩ : Fin cfg0.N).val - 1, Nat.lt_of_le_of_lt (Nat.sub_le _ _) (⟨cc.val * 10 + (k + 1), tile_lt cc (k + 1) hk⟩ : Fin cfg0.N).isLt⟩ : Fin cfg0.N)
        = ⟨cc.val * 10 + k, tile_lt cc k (Nat.lt_of_succ_lt hk)⟩ := Fin.ext (by show cc.val * 10 + (k + 1) - 1 = cc.val * 10 + k; omega)
    rw [hp, after15_tile cc g j k (Nat.lt_of_succ_lt hk)]
    rfl

/-- The same at any point named by its core and tile. -/
theorem after15_point (t : Fin cfg0.N) (cc : Fin 2) (k : ℕ) (hk : k < 10) (ht : t.val = cc.val * 10 + k) (g : Fin 512) (j : Fin 64) :
    dat.after 15 t (ix3 0 g j) = GinSpec.accUpTo (poolTile0 V c cc g j) k := by
  obtain rfl : t = ⟨cc.val * 10 + k, tile_lt cc k hk⟩ := Fin.ext ht
  exact after15_tile V c dat h15a h15b cc g j k hk

/-- WHAT A FLUSHING POINT WRITES BACK (the last tile of its core) is its core's slab of the readout partial sums. -/
theorem flushed15_eq (t : Fin cfg0.N) (hf : (cfg0.win 15).flush t = true) :
    dat.flushed 15 t = ((cfg0.win 15).blk t).view.read (Elt Ideal) (readoutArr0 V c) := by
  have hN : cfg0.N = 20 := N_0
  have h9 : t.val % 10 = 9 := (flush0_15 t).mp hf
  have htl := t.isLt
  funext y
  obtain ⟨u, g, j, rfl⟩ : ∃ (u : Fin 1) (g : Fin 512) (j : Fin 64), y = ix3 u g j := ⟨y 0, y 1, y 2, eq_ix3 y⟩
  obtain rfl : u = 0 := Subsingleton.elim _ _
  refine Eq.trans (b := dat.after 15 t (ix3 0 g j)) rfl ?_
  rw [View.read_apply]
  refine Eq.trans ?_ (b := readoutArr0 V c (((cfg0.win 15).blk t).view.emb (ix3 (0 : Fin 1) g j))) rfl
  rw [emb15, readoutArr0_apply]
  exact after15_point V c dat h15a h15b t ⟨t.val / 10, by omega⟩ 9 (by omega) (by show t.val = t.val / 10 * 10 + 9; omega) g j

/-- THE ARRAY of window 15 after the region: each core's accumulator after its tenth tile. -/
theorem arr15 : dat.arrAt 15 cfg0.N = readoutArr0 V c :=
  dat.arrAt_eq_of_cover 15 (readoutArr0 V c) (fun t hf => flushed15_eq V c dat h15a h15b t hf) (cover15)

/-- The same at a core, a graph and a column, the partial sums written out. -/
theorem arr15_apply (cc : Fin 2) (g : Fin 512) (j : Fin 64) :
    dat.arrAt 15 cfg0.N (ix3 cc g j)
      = GinSpec.accUpTo (fun k => if hk : k < 10 then ∑ r : Fin 5000, (if (V c (Pipeline.arrRef spec0 1) (ix2 (GinSpec.row (GinSpec.tile20 cc ⟨k, hk⟩) r) 0)).toInt = (g.val : ℤ) then (1 : EReal) else 0) * hNext0 V c (GinSpec.row (GinSpec.tile20 cc ⟨k, hk⟩) r) j else 0) 9 :=
  congrFun (arr15 V c dat h15a h15b) (ix3 cc g j)

/-- The two cores' partial sums add up to the pooled sum of the layer's output over the graph's nodes. -/
theorem arr15_pool (g : Fin 512) (j : Fin 64) :
    (0 : EReal) + Finset.sum (M := EReal) (Finset.univ : Finset (Fin 2)) (fun cc => dat.arrAt 15 cfg0.N (ix3 cc g j))
      = GinSpec.pool (fun n => hNext0 V c n j) (fun n => V c (Pipeline.arrRef spec0 1) (ix2 n 0)) g := by
  rw [arr15 V c dat h15a h15b]
  exact readoutArr0_pool V c g j

end Window15

end Cert.KernelIdeal.Val0

end
-- ==== Proof.KIVal0Dat.lean ====
import proofs.«402532_j352187319172_1_alg».proof.Proof.KIVal0R
import proofs.«402532_j352187319172_1_alg».proof.Proof.KIReg0

/-!
# Region 0: its two output arrays, for the region's own proof data

The frame's proof data of region 1 leaves, in window 14's buffer, the layer's output block and, in window 15's, the
accumulation from point to point; so its two output arrays after the region are the layer's output and the cores' pooled
partial sums.
-/

set_option maxRecDepth 16384

noncomputable section

namespace Cert.KernelIdeal.Val0

open Cert.KernelIdeal Cert.KernelIdeal.Gen Idealize.ShloMosaic Idealize.ShloMosaic.ValueIdx Idealize.ShloMosaic.TcCoe
open Idealize.SL Idealize.SL.Sem
open Idealize.ShloMosaic.Rounds
open Idealize.ShloMosaic.Pipeline (Dat)
open scoped BigOperators

variable (V : (c : Dev nD) → (b : Ref sig .tc) → Buf (Elt Ideal) ((c : Thread nD τ).loc b))

/-- The proof data's window 14 buffer after a point is the stored block. -/
theorem dat0_after14 (c : Dev nD) (t : Fin cfg0.N) : (dat0 V c).after 14 t = stored14 V c t :=
  after0_14 V c t

/-- The proof data's window 15 buffer after the first point of a core's run: the contribution over zeros. -/
theorem dat0_after15_first (c : Dev nD) (t : Fin cfg0.N) (h : t.val % 10 = 0) :
    (dat0 V c).after 15 t = k0_pay1 (Val0.contrib0 V c t) (k0_pay2 (F := Ideal)) :=
  (after0_15 V c t).trans (outsAt0_first V c t h)

/-- The proof data's window 15 buffer after any other point: the contribution over what the point before left. -/
theorem dat0_after15_next (c : Dev nD) (t : Fin cfg0.N) (h : ¬ t.val % 10 = 0) :
    (dat0 V c).after 15 t
      = k0_pay1 (Val0.contrib0 V c t) ((dat0 V c).after 15 ⟨t.val - 1, Nat.lt_of_le_of_lt (Nat.sub_le _ _) t.isLt⟩) :=
  (after0_15 V c t).trans ((outsAt0_next V c t h).trans
    (congrArg (k0_pay1 (Val0.contrib0 V c t)) (after0_15 V c ⟨t.val - 1, Nat.lt_of_le_of_lt (Nat.sub_le _ _) t.isLt⟩).symm))

/-- Window 14's array after the region: the layer's output. -/
theorem arr14_dat0 (c : Dev nD) : (dat0 V c).arrAt 14 cfg0.N = hNextArr0 V c :=
  arr14 V c (dat0 V c) (dat0_after14 V c)

/-- The same at a node and a column. -/
theorem arr14_dat0_apply (c : Dev nD) (n : Fin 100000) (j : Fin 64) : (dat0 V c).arrAt 14 cfg0.N (ix2 n j) = hNext0 V c n j :=
  congrFun (arr14_dat0 V c) (ix2 n j)

/-- Window 15's array after the region: each core's pooled partial sum after its tenth tile. -/
theorem arr15_dat0 (c : Dev nD) : (dat0 V c).arrAt 15 cfg0.N = readoutArr0 V c :=
  arr15 V c (dat0 V c) (dat0_after15_first V c) (dat0_after15_next V c)

/-- The same at a core, a graph and a column. -/
theorem arr15_dat0_apply (c : Dev nD) (cc : Fin 2) (g : Fin 512) (j : Fin 64) :
    (dat0 V c).arrAt 15 cfg0.N (ix3 cc g j) = GinSpec.accUpTo (poolTile0 V c cc g j) 9 :=
  congrFun (arr15_dat0 V c) (ix3 cc g j)

/-- The two cores' partial sums add up to the pooled sum of the layer's output over the graph's nodes. -/
theorem arr15_dat0_pool (c : Dev nD) (g : Fin 512) (j : Fin 64) :
    (0 : EReal) + Finset.sum (M := EReal) (Finset.univ : Finset (Fin 2)) (fun cc => (dat0 V c).arrAt 15 cfg0.N (ix3 cc g j))
      = GinSpec.pool (fun n => hNext0 V c n j) (fun n => V c (Pipeline.arrRef spec0 1) (ix2 n 0)) g :=
  arr15_pool V c (dat0 V c) (dat0_after15_first V c) (dat0_after15_next V c) g j

end Cert.KernelIdeal.Val0

end
-- ==== Proof.KIVal1H.lean ====
import proofs.«402532_j352187319172_1_alg».proof.Proof.KIVal1Pay
import proofs.«402532_j352187319172_1_alg».proof.Proof.KIReg1
import proofs.«402532_j352187319172_1_alg».proof.Proof.Gen.KernelIdeal.Launch
import proofs.«402532_j352187319172_1_alg».proof.Proof.Gen.KernelIdeal.Points
import Idealize.ShloMosaic.Lib.Pipeline.Value

/-!
# Region 1, window 14: the layer's output array

The region's input blocks read at coordinates, the block a point stores as rows of the layer's output, and the output array
after the region as one function of the region's input arrays, node by node.
-/

set_option maxRecDepth 16384

noncomputable section

namespace Cert.KernelIdeal.Val1

open Cert.KernelIdeal Cert.KernelIdeal.Gen Idealize.ShloMosaic Idealize.ShloMosaic.ValueIdx Idealize.ShloMosaic.TcCoe
open Idealize.SL Idealize.SL.Sem
open Idealize.ShloMosaic.Rounds
open Idealize.ShloMosaic.Pipeline (Dat)
open scoped BigOperators

variable (V : (c : Dev nD) → (b : Ref sig .tc) → Buf (Elt Ideal) ((c : Thread nD τ).loc b))

/-! ## The region's outputs as mathematics -/

/-- The layer's output at node n and column j: the MLP of row n of the region's input, with the region's twelve parameter
    arrays. -/
def hNext1 (c : Dev nD) (n : Fin 100000) (j : Fin 64) : EReal :=
  GinSpec.mlp (fun d => V c (Pipeline.arrRef spec1 0) (ix2 n d)) (fun d k => V c (Pipeline.arrRef spec1 2) (ix2 d k))
    (fun k => V c (Pipeline.arrRef spec1 3) (ix2 0 k)) (fun k => V c (Pipeline.arrRef spec1 4) (ix2 0 k))
    (fun k => V c (Pipeline.arrRef spec1 5) (ix2 0 k)) (fun k => V c (Pipeline.arrRef spec1 6) (ix2 0 k))
    (fun k => V c (Pipeline.arrRef spec1 7) (ix2 0 k)) (fun k j => V c (Pipeline.arrRef spec1 8) (ix2 k j))
    (fun j => V c (Pipeline.arrRef spec1 9) (ix2 0 j)) (fun j => V c (Pipeline.arrRef spec1 10) (ix2 0 j))
    (fun j => V c (Pipeline.arrRef spec1 11) (ix2 0 j)) (fun j => V c (Pipeline.arrRef spec1 12) (ix2 0 j))
    (fun j => V c (Pipeline.arrRef spec1 13) (ix2 0 j)) j

/-- The same as contents of the output array. -/
def hNextArr1 (c : Dev nD) : S100000x64.Idx → EReal := fun i => hNext1 V c (i 0) (i 1)

theorem hNextArr1_apply (c : Dev nD) (n : Fin 100000) (j : Fin 64) : hNextArr1 V c (ix2 n j) = hNext1 V c n j := rfl

/-! ## The index maps, decided once over the grid -/

/-- The moving windows: the row blocks follow the point, the readout block follows the core. -/
theorem idx_facts1 : ∀ t : Fin cfg1.N,
    win1_0.index t (0 : Fin 2) = t.val
    ∧ win1_0.index t (1 : Fin 2) = 0
    ∧ win1_1.index t (0 : Fin 2) = t.val
    ∧ win1_1.index t (1 : Fin 2) = 0
    ∧ win1_14.index t (0 : Fin 2) = t.val
    ∧ win1_14.index t (1 : Fin 2) = 0
    ∧ win1_15.index t (0 : Fin 3) = t.val / 10
    ∧ win1_15.index t (1 : Fin 3) = 0
    ∧ win1_15.index t (2 : Fin 3) = 0 :=
  (by decide +kernel : ∀ t : Fin grid1.N, _)

/-! The parameter windows stay at block zero. -/
theorem idx_zero1_2 : ∀ t : Fin cfg1.N, win1_2.index t (0 : Fin 2) = 0 ∧ win1_2.index t (1 : Fin 2) = 0 :=
  (by decide +kernel : ∀ t : Fin grid1.N, _)
theorem idx_zero1_3 : ∀ t : Fin cfg1.N, win1_3.index t (0 : Fin 2) = 0 ∧ win1_3.index t (1 : Fin 2) = 0 :=
  (by decide +kernel : ∀ t : Fin grid1.N, _)
theorem idx_zero1_4 : ∀ t : Fin cfg1.N, win1_4.index t (0 : Fin 2) = 0 ∧ win1_4.index t (1 : Fin 2) = 0 :=
  (by decide +kernel : ∀ t : Fin grid1.N, _)
theorem idx_zero1_5 : ∀ t : Fin cfg1.N, win1_5.index t (0 : Fin 2) = 0 ∧ win1_5.index t (1 : Fin 2) = 0 :=
  (by decide +kernel : ∀ t : Fin grid1.N, _)
theorem idx_zero1_6 : ∀ t : Fin cfg1.N, win1_6.index t (0 : Fin 2) = 0 ∧ win1_6.index t (1 : Fin 2) = 0 :=
  (by decide +kernel : ∀ t : Fin grid1.N, _)
theorem idx_zero1_7 : ∀ t : Fin cfg1.N, win1_7.index t (0 : Fin 2) = 0 ∧ win1_7.index t (1 : Fin 2) = 0 :=
  (by decide +kernel : ∀ t : Fin grid1.N, _)
theorem idx_zero1_8 : ∀ t : Fin cfg1.N, win1_8.index t (0 : Fin 2) = 0 ∧ win1_8.index t (1 : Fin 2) = 0 :=
  (by decide +kernel : ∀ t : Fin grid1.N, _)
theorem idx_zero1_9 : ∀ t : Fin cfg1.N, win1_9.index t (0 : Fin 2) = 0 ∧ win1_9.index t (1 : Fin 2) = 0 :=
  (by decide +kernel : ∀ t : Fin grid1.N, _)
theorem idx_zero1_10 : ∀ t : Fin cfg1.N, win1_10.index t (0 : Fin 2) = 0 ∧ win1_10.index t (1 : Fin 2) = 0 :=
  (by decide +kernel : ∀ t : Fin grid1.N, _)
theorem idx_zero1_11 : ∀ t : Fin cfg1.N, win1_11.index t (0 : Fin 2) = 0 ∧ win1_11.index t (1 : Fin 2) = 0 :=
  (by decide +kernel : ∀ t : Fin grid1.N, _)
theorem idx_zero1_12 : ∀ t : Fin cfg1.N, win1_12.index t (0 : Fin 2) = 0 ∧ win1_12.index t (1 : Fin 2) = 0 :=
  (by decide +kernel : ∀ t : Fin grid1.N, _)
theorem idx_zero1_13 : ∀ t : Fin cfg1.N, win1_13.index t (0 : Fin 2) = 0 ∧ win1_13.index t (1 : Fin 2) = 0 :=
  (by decide +kernel : ∀ t : Fin grid1.N, _)

/-- A row of tile t is a row of the array. -/
theorem row_lt (t : Fin cfg1.N) (r : Fin 5000) : t.val * 5000 + r.val < 100000 := by
  have hN : cfg1.N = 20 := N_1
  have := t.isLt
  have := r.isLt
  omega

/-! ## The input blocks read at coordinates -/

/-- The input block at point t, row r: row t * 5000 + r of the input array. -/
theorem iblk_z (c : Dev nD) (t : Fin cfg1.N) (r : Fin 5000) (d : Fin 64) :
    iblk1 V c 0 t (ix2 r d) = V c (Pipeline.arrRef spec1 0) (ix2 ⟨t.val * 5000 + r.val, row_lt t r⟩ d) := by
  obtain ⟨e0, e1, -⟩ := idx_facts1 t
  unfold iblk1
  rw [View.read_apply]
  show V c (Pipeline.arrRef spec1 0) (((cfg1.win 0).blk t).view.emb (ix2 r d)) = _
  congr 1
  funext a; apply Fin.ext
  match a with
  | ⟨0, _⟩ => show win1_0.index t (0 : Fin 2) * 5000 + 1 * r.val = t.val * 5000 + r.val; rw [e0]; omega
  | ⟨1, _⟩ => show win1_0.index t (1 : Fin 2) * 64 + 1 * d.val = d.val; rw [e1]; omega

/-- The graph ids' block at point t, row r: the id of node t * 5000 + r. -/
theorem iblk_gid (c : Dev nD) (t : Fin cfg1.N) (r : Fin 5000) :
    iblk1 V c 1 t (ix2 r 0) = V c (Pipeline.arrRef spec1 1) (ix2 ⟨t.val * 5000 + r.val, row_lt t r⟩ 0) := by
  obtain ⟨-, -, e0, e1, -⟩ := idx_facts1 t
  unfold iblk1
  rw [View.read_apply]
  show V c (Pipeline.arrRef spec1 1) (((cfg1.win 1).blk t).view.emb (ix2 r 0)) = _
  congr 1
  funext a; apply Fin.ext
  match a with
  | ⟨0, _⟩ => show win1_1.index t (0 : Fin 2) * 5000 + 1 * r.val = t.val * 5000 + r.val; rw [e0]; omega
  | ⟨1, _⟩ => show win1_1.index t (1 : Fin 2) * 1 + 1 * 0 = 0; rw [e1]

/-- Window 2's block is its whole array at every point. -/
theorem iblk_par_2 (c : Dev nD) (t : Fin cfg1.N) : (iblk1 V c 2 t : S64x64.Idx → EReal) = V c (Pipeline.arrRef spec1 2) := by
  funext y
  obtain ⟨e0, e1⟩ := idx_zero1_2 t
  unfold iblk1
  rw [View.read_apply]
  show V c (Pipeline.arrRef spec1 2) (((cfg1.win 2).blk t).view.emb y) = V c (Pipeline.arrRef spec1 2) y
  congr 1
  funext a; apply Fin.ext
  match a with
  | ⟨0, _⟩ => show win1_2.index t (0 : Fin 2) * 64 + 1 * (y 0).val = (y 0).val; rw [e0]; omega
  | ⟨1, _⟩ => show win1_2.index t (1 : Fin 2) * 64 + 1 * (y 1).val = (y 1).val; rw [e1]; omega

/-- Window 3's block is its whole array at every point. -/
theorem iblk_par_3 (c : Dev nD) (t : Fin cfg1.N) : (iblk1 V c 3 t : S1x64.Idx → EReal) = V c (Pipeline.arrRef spec1 3) := by
  funext y
  obtain ⟨e0, e1⟩ := idx_zero1_3 t
  unfold iblk1
  rw [View.read_apply]
  show V c (Pipeline.arrRef spec1 3) (((cfg1.win 3).blk t).view.emb y) = V c (Pipeline.arrRef spec1 3) y
  congr 1
  funext a; apply Fin.ext
  match a with
  | ⟨0, _⟩ => show win1_3.index t (0 : Fin 2) * 1 + 1 * (y 0).val = (y 0).val; rw [e0]; omega
  | ⟨1, _⟩ => show win1_3.index t (1 : Fin 2) * 64 + 1 * (y 1).val = (y 1).val; rw [e1]; omega

/-- Window 4's block is its whole array at every point. -/
theorem iblk_par_4 (c : Dev nD) (t : Fin cfg1.N) : (iblk1 V c 4 t : S1x64.Idx → EReal) = V c (Pipeline.arrRef spec1 4) := by
  funext y
  obtain ⟨e0, e1⟩ := idx_zero1_4 t
  unfold iblk1
  rw [View.read_apply]
  show V c (Pipeline.arrRef spec1 4) (((cfg1.win 4).blk t).view.emb y) = V c (Pipeline.arrRef spec1 4) y
  congr 1
  funext a; apply Fin.ext
  match a with
  | ⟨0, _⟩ => show win1_4.index t (0 : Fin 2) * 1 + 1 * (y 0).val = (y 0).val; rw [e0]; omega
  | ⟨1, _⟩ => show win1_4.index t (1 : Fin 2) * 64 + 1 * (y 1).val = (y 1).val; rw [e1]; omega

/-- Window 5's block is its whole array at every point. -/
theorem iblk_par_5 (c : Dev nD) (t : Fin cfg1.N) : (iblk1 V c 5 t : S1x64.Idx → EReal) = V c (Pipeline.arrRef spec1 5) := by
  funext y
  obtain ⟨e0, e1⟩ := idx_zero1_5 t
  unfold iblk1
  rw [View.read_apply]
  show V c (Pipeline.arrRef spec1 5) (((cfg1.win 5).blk t).view.emb y) = V c (Pipeline.arrRef spec1 5) y
  congr 1
  funext a; apply Fin.ext
  match a with
  | ⟨0, _⟩ => show win1_5.index t (0 : Fin 2) * 1 + 1 * (y 0).val = (y 0).val; rw [e0]; omega
  | ⟨1, _⟩ => show win1_5.index t (1 : Fin 2) * 64 + 1 * (y 1).val = (y 1).val; rw [e1]; omega

/-- Window 6's block is its whole array at every point. -/
theorem iblk_par_6 (c : Dev nD) (t : Fin cfg1.N) : (iblk1 V c 6 t : S1x64.Idx → EReal) = V c (Pipeline.arrRef spec1 6) := by
  funext y
  obtain ⟨e0, e1⟩ := idx_zero1_6 t
  unfold iblk1
  rw [View.read_apply]
  show V c (Pipeline.arrRef spec1 6) (((cfg1.win 6).blk t).view.emb y) = V c (Pipeline.arrRef spec1 6) y
  congr 1
  funext a; apply Fin.ext
  match a with
  | ⟨0, _⟩ => show win1_6.index t (0 : Fin 2) * 1 + 1 * (y 0).val = (y 0).val; rw [e0]; omega
  | ⟨1, _⟩ => show win1_6.index t (1 : Fin 2) * 64 + 1 * (y 1).val = (y 1).val; rw [e1]; omega

/-- Window 7's block is its whole array at every point. -/
theorem iblk_par_7 (c : Dev nD) (t : Fin cfg1.N) : (iblk1 V c 7 t : S1x64.Idx → EReal) = V c (Pipeline.arrRef spec1 7) := by
  funext y
  obtain ⟨e0, e1⟩ := idx_zero1_7 t
  unfold iblk1
  rw [View.read_apply]
  show V c (Pipeline.arrRef spec1 7) (((cfg1.win 7).blk t).view.emb y) = V c (Pipeline.arrRef spec1 7) y
  congr 1
  funext a; apply Fin.ext
  match a with
  | ⟨0, _⟩ => show win1_7.index t (0 : Fin 2) * 1 + 1 * (y 0).val = (y 0).val; rw [e0]; omega
  | ⟨1, _⟩ => show win1_7.index t (1 : Fin 2) * 64 + 1 * (y 1).val = (y 1).val; rw [e1]; omega

/-- Window 8's block is its whole array at every point. -/
theorem iblk_par_8 (c : Dev nD) (t : Fin cfg1.N) : (iblk1 V c 8 t : S64x64.Idx → EReal) = V c (Pipeline.arrRef spec1 8) := by
  funext y
  obtain ⟨e0, e1⟩ := idx_zero1_8 t
  unfold iblk1
  rw [View.read_apply]
  show V c (Pipeline.arrRef spec1 8) (((cfg1.win 8).blk t).view.emb y) = V c (Pipeline.arrRef spec1 8) y
  congr 1
  funext a; apply Fin.ext
  match a with
  | ⟨0, _⟩ => show win1_8.index t (0 : Fin 2) * 64 + 1 * (y 0).val = (y 0).val; rw [e0]; omega
  | ⟨1, _⟩ => show win1_8.index t (1 : Fin 2) * 64 + 1 * (y 1).val = (y 1).val; rw [e1]; omega

/-- Window 9's block is its whole array at every point. -/
theorem iblk_par_9 (c : Dev nD) (t : Fin cfg1.N) : (iblk1 V c 9 t : S1x64.Idx → EReal) = V c (Pipeline.arrRef spec1 9) := by
  funext y
  obtain ⟨e0, e1⟩ := idx_zero1_9 t
  unfold iblk1
  rw [View.read_apply]
  show V c (Pipeline.arrRef spec1 9) (((cfg1.win 9).blk t).view.emb y) = V c (Pipeline.arrRef spec1 9) y
  congr 1
  funext a; apply Fin.ext
  match a with
  | ⟨0, _⟩ => show win1_9.index t (0 : Fin 2) * 1 + 1 * (y 0).val = (y 0).val; rw [e0]; omega
  | ⟨1, _⟩ => show win1_9.index t (1 : Fin 2) * 64 + 1 * (y 1).val = (y 1).val; rw [e1]; omega

/-- Window 10's block is its whole array at every point. -/
theorem iblk_par_10 (c : Dev nD) (t : Fin cfg1.N) : (iblk1 V c 10 t : S1x64.Idx → EReal) = V c (Pipeline.arrRef spec1 10) := by
  funext y
  obtain ⟨e0, e1⟩ := idx_zero1_10 t
  unfold iblk1
  rw [View.read_apply]
  show V c (Pipeline.arrRef spec1 10) (((cfg1.win 10).blk t).view.emb y) = V c (Pipeline.arrRef spec1 10) y
  congr 1
  funext a; apply Fin.ext
  match a with
  | ⟨0, _⟩ => show win1_10.index t (0 : Fin 2) * 1 + 1 * (y 0).val = (y 0).val; rw [e0]; omega
  | ⟨1, _⟩ => show win1_10.index t (1 : Fin 2) * 64 + 1 * (y 1).val = (y 1).val; rw [e1]; omega

/-- Window 11's block is its whole array at every point. -/
theorem iblk_par_11 (c : Dev nD) (t : Fin cfg1.N) : (iblk1 V c 11 t : S1x64.Idx → EReal) = V c (Pipeline.arrRef spec1 11) := by
  funext y
  obtain ⟨e0, e1⟩ := idx_zero1_11 t
  unfold iblk1
  rw [View.read_apply]
  show V c (Pipeline.arrRef spec1 11) (((cfg1.win 11).blk t).view.emb y) = V c (Pipeline.arrRef spec1 11) y
  congr 1
  funext a; apply Fin.ext
  match a with
  | ⟨0, _⟩ => show win1_11.index t (0 : Fin 2) * 1 + 1 * (y 0).val = (y 0).val; rw [e0]; omega
  | ⟨1, _⟩ => show win1_11.index t (1 : Fin 2) * 64 + 1 * (y 1).val = (y 1).val; rw [e1]; omega

/-- Window 12's block is its whole array at every point. -/
theorem iblk_par_12 (c : Dev nD) (t : Fin cfg1.N) : (iblk1 V c 12 t : S1x64.Idx → EReal) = V c (Pipeline.arrRef spec1 12) := by
  funext y
  obtain ⟨e0, e1⟩ := idx_zero1_12 t
  unfold iblk1
  rw [View.read_apply]
  show V c (Pipeline.arrRef spec1 12) (((cfg1.win 12).blk t).view.emb y) = V c (Pipeline.arrRef spec1 12) y
  congr 1
  funext a; apply Fin.ext
  match a with
  | ⟨0, _⟩ => show win1_12.index t (0 : Fin 2) * 1 + 1 * (y 0).val = (y 0).val; rw [e0]; omega
  | ⟨1, _⟩ => show win1_12.index t (1 : Fin 2) * 64 + 1 * (y 1).val = (y 1).val; rw [e1]; omega

/-- Window 13's block is its whole array at every point. -/
theorem iblk_par_13 (c : Dev nD) (t : Fin cfg1.N) : (iblk1 V c 13 t : S1x64.Idx → EReal) = V c (Pipeline.arrRef spec1 13) := by
  funext y
  obtain ⟨e0, e1⟩ := idx_zero1_13 t
  unfold iblk1
  rw [View.read_apply]
  show V c (Pipeline.arrRef spec1 13) (((cfg1.win 13).blk t).view.emb y) = V c (Pipeline.arrRef spec1 13) y
  congr 1
  funext a; apply Fin.ext
  match a with
  | ⟨0, _⟩ => show win1_13.index t (0 : Fin 2) * 1 + 1 * (y 0).val = (y 0).val; rw [e0]; omega
  | ⟨1, _⟩ => show win1_13.index t (1 : Fin 2) * 64 + 1 * (y 1).val = (y 1).val; rw [e1]; omega

/-! ## Window 14: what a point stores is its rows of the layer's output -/

/-- The stored block at point t, row r, column j. -/
theorem after14_apply (c : Dev nD) (t : Fin cfg1.N) (r : Fin 5000) (j : Fin 64) :
    k1_pay5 (k1_pay3 (iblk1 V c 0 t) (iblk1 V c 2 t) (iblk1 V c 3 t) (iblk1 V c 4 t) (iblk1 V c 7 t) (iblk1 V c 6 t) (iblk1 V c 5 t))
        (k1_pay4 (iblk1 V c 8 t)) (iblk1 V c 9 t) (iblk1 V c 10 t) (iblk1 V c 13 t) (iblk1 V c 12 t) (iblk1 V c 11 t) (ix2 r j)
      = hNext1 V c ⟨t.val * 5000 + r.val, row_lt t r⟩ j := by
  refine (pay5_apply _ _ _ _ _ _ _ _ _ _ _ _ _ r j).trans ?_
  unfold hNext1
  simp only [iblk_z, iblk_par_2, iblk_par_3, iblk_par_4, iblk_par_5, iblk_par_6, iblk_par_7, iblk_par_8, iblk_par_9, iblk_par_10, iblk_par_11, iblk_par_12, iblk_par_13]

/-! ## Window 14: the array after the region -/

section Window14

variable (c : Dev nD) (dat : Dat τ (Elt Ideal) Unit ℕ (UR sig nD τ) ℕ cfg1 c)

/-- What a point stores into window 14's block, as the frame states it: the second half's payload of the first half's, of the
    point's input blocks. -/
abbrev stored14 (c : Dev nD) (t : Fin cfg1.N) : FVec Ideal S5000x64 .f32 :=
  k1_pay5 (k1_pay3 (iblk1 V c 0 t) (iblk1 V c 2 t) (iblk1 V c 3 t) (iblk1 V c 4 t) (iblk1 V c 7 t) (iblk1 V c 6 t) (iblk1 V c 5 t))
    (k1_pay4 (iblk1 V c 8 t)) (iblk1 V c 9 t) (iblk1 V c 10 t) (iblk1 V c 13 t) (iblk1 V c 12 t) (iblk1 V c 11 t)

/-- Where row r, column j of point t's block sits in the array. -/
theorem emb14 (t : Fin cfg1.N) (r : Fin 5000) (j : Fin 64) :
    ((cfg1.win 14).blk t).view.emb (ix2 r j) = ix2 ⟨t.val * 5000 + r.val, row_lt t r⟩ j := by
  obtain ⟨-, -, -, -, e0, e1, -⟩ := idx_facts1 t
  funext a; apply Fin.ext
  match a with
  | ⟨0, _⟩ => show win1_14.index t (0 : Fin 2) * 5000 + 1 * r.val = t.val * 5000 + r.val; rw [e0]; omega
  | ⟨1, _⟩ => show win1_14.index t (1 : Fin 2) * 64 + 1 * j.val = j.val; rw [e1]; omega

/-- WHAT POINT t WRITES BACK is block t of the layer's output. -/
theorem flushed14_eq (h14 : ∀ t, dat.after 14 t = stored14 V c t) (t : Fin cfg1.N) :
    dat.flushed 14 t = ((cfg1.win 14).blk t).view.read (Elt Ideal) (hNextArr1 V c) := by
  show (cfg1.win 14).cut (cfg1.grid.coords t) (dat.after 14 t) = _
  rw [h14]
  funext y
  obtain ⟨r, j, rfl⟩ : ∃ (r : Fin 5000) (j : Fin 64), y = ix2 r j := ⟨y 0, y 1, eq_ix2 y⟩
  rw [View.read_apply]
  show stored14 V c t (ix2 r j) = hNextArr1 V c (((cfg1.win 14).blk t).view.emb (ix2 r j))
  rw [emb14, hNextArr1_apply]
  exact after14_apply V c t r j

/-- An index of the array is in point t's block iff each coordinate is in the block's range on its axis. -/
theorem mem_blk14 (t : Fin cfg1.N) (i : S100000x64.Idx) :
    i ∈ ((cfg1.win 14).blk t).view.set ↔ ∀ a : Fin 2, win1_14.index t a * S5000x64.size a ≤ (i a).val ∧ (i a).val < win1_14.index t a * S5000x64.size a + S5000x64.size a := by
  show i ∈ ((View.whole (Pipeline.arrRef spec1 14)).slice (win1_14.rect t)).set ↔ _
  rw [View.set_slice_whole, Rect.mem_set_unit]
  exact Iff.rfl

/-- Every row is in the block of the point its tile names. -/
theorem cover14 (i : S100000x64.Idx) :
    ∃ t : Fin cfg1.N, (cfg1.win 14).flush t = true ∧ i ∈ ((cfg1.win 14).blk t).view.set := by
  have hN : cfg1.N = 20 := N_1
  have hi0 : (i 0).val < 100000 := (i 0).isLt
  have hi1 : (i 1).val < 64 := (i 1).isLt
  let t : Fin cfg1.N := ⟨(i 0).val / 5000, by omega⟩
  obtain ⟨-, -, -, -, e0, e1, -⟩ := idx_facts1 t
  have ht : t.val = (i 0).val / 5000 := rfl
  refine ⟨t, flush1_14 t, ?_⟩
  rw [mem_blk14]
  intro a
  match a with
  | ⟨0, _⟩ => show win1_14.index t (0 : Fin 2) * 5000 ≤ (i 0).val ∧ (i 0).val < win1_14.index t (0 : Fin 2) * 5000 + 5000; rw [e0, ht]; omega
  | ⟨1, _⟩ => show win1_14.index t (1 : Fin 2) * 64 ≤ (i 1).val ∧ (i 1).val < win1_14.index t (1 : Fin 2) * 64 + 64; rw [e1]; omega

/-- THE ARRAY of window 14 after the region: the layer's output, node by node. -/
theorem arr14 (h14 : ∀ t, dat.after 14 t = stored14 V c t) : dat.arrAt 14 cfg1.N = hNextArr1 V c :=
  dat.arrAt_eq_of_cover 14 (hNextArr1 V c) (fun t _ => flushed14_eq V c dat h14 t) (cover14)

/-- The same at a node and a column. -/
theorem arr14_apply (h14 : ∀ t, dat.after 14 t = stored14 V c t) (n : Fin 100000) (j : Fin 64) :
    dat.arrAt 14 cfg1.N (ix2 n j) = hNext1 V c n j :=
  congrFun (arr14 V c dat h14) (ix2 n j)

end Window14

end Cert.KernelIdeal.Val1

end
-- ==== Proof.KIVal1R.lean ====
import proofs.«402532_j352187319172_1_alg».proof.Proof.KIVal1H
import proofs.«402532_j352187319172_1_alg».proof.Proof.SpecSums

/-!
# Region 1, window 15: the pooled readout

A point's contribution to its core's readout block as a one-hot weighted sum of the tile's output rows, the block carried
from tile to tile as a partial sum, and the readout array after the region: each core's partial sum after its tenth tile.
-/

set_option maxRecDepth 16384

noncomputable section

namespace Cert.KernelIdeal.Val1

open Cert.KernelIdeal Cert.KernelIdeal.Gen Idealize.ShloMosaic Idealize.ShloMosaic.ValueIdx Idealize.ShloMosaic.TcCoe
open Idealize.SL Idealize.SL.Sem
open Idealize.ShloMosaic.Rounds
open Idealize.ShloMosaic.Pipeline (Dat)
open scoped BigOperators

variable (V : (c : Dev nD) → (b : Ref sig .tc) → Buf (Elt Ideal) ((c : Thread nD τ).loc b))

/-! ## Window 15: the pooled readout, accumulated over a core's ten tiles -/

section Window15

variable (c : Dev nD) (dat : Dat τ (Elt Ideal) Unit ℕ (UR sig nD τ) ℕ cfg1 c)

/-- A point's contribution to the readout block, as the frame states it: the pooling payload of the point's input blocks. -/
abbrev contrib1 (c : Dev nD) (t : Fin cfg1.N) : FVec Ideal S512x64 .f32 :=
  k1_pay6 (k1_pay3 (iblk1 V c 0 t) (iblk1 V c 2 t) (iblk1 V c 3 t) (iblk1 V c 4 t) (iblk1 V c 7 t) (iblk1 V c 6 t) (iblk1 V c 5 t))
    (k1_pay4 (iblk1 V c 8 t)) (iblk1 V c 9 t) (iblk1 V c 10 t) (iblk1 V c 13 t) (iblk1 V c 12 t) (iblk1 V c 11 t) (iblk1 V c 1 t)

/-- The contribution at graph g and column j: the sum of the tile's output rows whose graph id is g. -/
theorem contrib1_apply (t : Fin cfg1.N) (g : Fin 512) (j : Fin 64) :
    contrib1 V c t (ix2 g j)
      = ∑ r : Fin 5000, (if (V c (Pipeline.arrRef spec1 1) (ix2 (⟨t.val * 5000 + r.val, row_lt t r⟩ : Fin 100000) 0)).toInt = (g.val : ℤ) then (1 : EReal) else 0)
          * hNext1 V c ⟨t.val * 5000 + r.val, row_lt t r⟩ j := by
  refine (pay6_apply _ _ _ _ _ _ _ _ g j).trans ?_
  refine Finset.sum_congr rfl fun r _ => ?_
  rw [after14_apply, iblk_gid]

/-- Tile k of core cc contributes, at graph g and column j (zero past the core's ten tiles). -/
def poolTile1 (c : Dev nD) (cc : Fin 2) (g : Fin 512) (j : Fin 64) (k : ℕ) : EReal :=
  if hk : k < 10 then ∑ r : Fin 5000, (if (V c (Pipeline.arrRef spec1 1) (ix2 (GinSpec.row (GinSpec.tile20 cc ⟨k, hk⟩) r) 0)).toInt = (g.val : ℤ) then (1 : EReal) else 0) * hNext1 V c (GinSpec.row (GinSpec.tile20 cc ⟨k, hk⟩) r) j else 0

/-- The readout partial sums as contents of the output array: core cc's accumulator after its tenth tile. -/
def readoutArr1 (c : Dev nD) : S2x512x64.Idx → EReal := fun i => GinSpec.accUpTo (poolTile1 V c (i 0) (i 1) (i 2)) 9

theorem readoutArr1_apply (c : Dev nD) (cc : Fin 2) (g : Fin 512) (j : Fin 64) :
    readoutArr1 V c (ix3 cc g j) = GinSpec.accUpTo (poolTile1 V c cc g j) 9 := rfl

/-- The two cores' partial sums add up to the pooled sum of the layer's output over the graph's nodes. -/
theorem readoutArr1_pool (c : Dev nD) (g : Fin 512) (j : Fin 64) :
    (0 : EReal) + ∑ cc : Fin 2, readoutArr1 V c (ix3 cc g j)
      = GinSpec.pool (fun n => hNext1 V c n j) (fun n => V c (Pipeline.arrRef spec1 1) (ix2 n 0)) g := by
  rw [GinSpec.pool_eq_cores]
  rfl

/-- Tile k of core cc is a point of the grid. -/
theorem tile_lt (cc : Fin 2) (k : ℕ) (hk : k < 10) : cc.val * 10 + k < cfg1.N := by
  have hN : cfg1.N = 20 := N_1
  have := cc.isLt
  omega

/-- The contribution of the point that is tile k of core cc is that tile's. -/
theorem contrib1_tile (cc : Fin 2) (k : ℕ) (hk : k < 10) (g : Fin 512) (j : Fin 64) :
    contrib1 V c ⟨cc.val * 10 + k, tile_lt cc k hk⟩ (ix2 g j) = poolTile1 V c cc g j k := by
  rw [contrib1_apply]
  unfold poolTile1
  rw [dif_pos hk]
  rfl

/-- Where graph g, column j of point t's block sits in the array: in the core's slab. -/
theorem emb15 (t : Fin cfg1.N) (g : Fin 512) (j : Fin 64) :
    ((cfg1.win 15).blk t).view.emb (ix3 (0 : Fin 1) g j) = ix3 (⟨t.val / 10, by have hN : cfg1.N = 20 := N_1; have := t.isLt; omega⟩ : Fin 2) g j := by
  obtain ⟨-, -, -, -, -, -, e0, e1, e2⟩ := idx_facts1 t
  funext a; apply Fin.ext
  match a with
  | ⟨0, _⟩ => show win1_15.index t (0 : Fin 3) * 1 + 1 * 0 = t.val / 10; rw [e0]; omega
  | ⟨1, _⟩ => show win1_15.index t (1 : Fin 3) * 512 + 1 * g.val = g.val; rw [e1]; omega
  | ⟨2, _⟩ => show win1_15.index t (2 : Fin 3) * 64 + 1 * j.val = j.val; rw [e2]; omega

/-- An index of the array is in point t's block iff each coordinate is in the block's range on its axis. -/
theorem mem_blk15 (t : Fin cfg1.N) (i : S2x512x64.Idx) :
    i ∈ ((cfg1.win 15).blk t).view.set ↔ ∀ a : Fin 3, win1_15.index t a * S1x512x64.size a ≤ (i a).val ∧ (i a).val < win1_15.index t a * S1x512x64.size a + S1x512x64.size a := by
  show i ∈ ((View.whole (Pipeline.arrRef spec1 15)).slice (win1_15.rect t)).set ↔ _
  rw [View.set_slice_whole, Rect.mem_set_unit]
  exact Iff.rfl

/-- Every index is in the block of its core's last point. -/
theorem cover15 (i : S2x512x64.Idx) :
    ∃ t : Fin cfg1.N, (cfg1.win 15).flush t = true ∧ i ∈ ((cfg1.win 15).blk t).view.set := by
  have hN : cfg1.N = 20 := N_1
  have hi0 : (i 0).val < 2 := (i 0).isLt
  have hi1 : (i 1).val < 512 := (i 1).isLt
  have hi2 : (i 2).val < 64 := (i 2).isLt
  let t : Fin cfg1.N := ⟨(i 0).val * 10 + 9, by omega⟩
  obtain ⟨-, -, -, -, -, -, e0, e1, e2⟩ := idx_facts1 t
  have ht : t.val = (i 0).val * 10 + 9 := rfl
  refine ⟨t, (flush1_15 t).mpr (by rw [ht]; omega), ?_⟩
  rw [mem_blk15]
  intro a
  match a with
  | ⟨0, _⟩ => show win1_15.index t (0 : Fin 3) * 1 ≤ (i 0).val ∧ (i 0).val < win1_15.index t (0 : Fin 3) * 1 + 1; rw [e0, ht]; omega
  | ⟨1, _⟩ => show win1_15.index t (1 : Fin 3) * 512 ≤ (i 1).val ∧ (i 1).val < win1_15.index t (1 : Fin 3) * 512 + 512; rw [e1]; omega
  | ⟨2, _⟩ => show win1_15.index t (2 : Fin 3) * 64 ≤ (i 2).val ∧ (i 2).val < win1_15.index t (2 : Fin 3) * 64 + 64; rw [e2]; omega

variable (h15a : ∀ t : Fin cfg1.N, t.val % 10 = 0 → dat.after 15 t = k1_pay1 (contrib1 V c t) (k1_pay2 (F := Ideal)))
  (h15b : ∀ (t : Fin cfg1.N) (h : ¬ t.val % 10 = 0), dat.after 15 t = k1_pay1 (contrib1 V c t) (dat.after 15 ⟨t.val - 1, Nat.lt_of_le_of_lt (Nat.sub_le _ _) t.isLt⟩))

include h15a h15b

/-- THE ACCUMULATOR after tile k of core cc, at graph g and column j: the partial sum of the core's tiles up to k. -/
theorem after15_tile (cc : Fin 2) (g : Fin 512) (j : Fin 64) :
    ∀ (k : ℕ) (hk : k < 10), dat.after 15 ⟨cc.val * 10 + k, tile_lt cc k hk⟩ (ix3 0 g j) = GinSpec.accUpTo (poolTile1 V c cc g j) k
  | 0, hk => by
    have h0 : (⟨cc.val * 10 + 0, tile_lt cc 0 hk⟩ : Fin cfg1.N).val % 10 = 0 := by show (cc.val * 10 + 0) % 10 = 0; omega
    rw [h15a _ h0, pay1_apply, pay2_apply, contrib1_tile V c cc 0 hk]
    rfl
  | k + 1, hk => by
    have hs : ¬ (⟨cc.val * 10 + (k + 1), tile_lt cc (k + 1) hk⟩ : Fin cfg1.N).val % 10 = 0 := by show ¬ (cc.val * 10 + (k + 1)) % 10 = 0; omega
    rw [h15b _ hs, pay1_apply, contrib1_tile V c cc (k + 1) hk]
    have hp : (⟨(⟨cc.val * 10 + (k + 1), tile_lt cc (k + 1) hk⟩ : Fin cfg1.N).val - 1, Nat.lt_of_le_of_lt (Nat.sub_le _ _) (⟨cc.val * 10 + (k + 1), tile_lt cc (k + 1) hk⟩ : Fin cfg1.N).isLt⟩ : Fin cfg1.N)
        = ⟨cc.val * 10 + k, tile_lt cc k (Nat.lt_of_succ_lt hk)⟩ := Fin.ext (by show cc.val * 10 + (k + 1) - 1 = cc.val * 10 + k; omega)
    rw [hp, after15_tile cc g j k (Nat.lt_of_succ_lt hk)]
    rfl

/-- The same at any point named by its core and tile. -/
theorem after15_point (t : Fin cfg1.N) (cc : Fin 2) (k : ℕ) (hk : k < 10) (ht : t.val = cc.val * 10 + k) (g : Fin 512) (j : Fin 64) :
    dat.after 15 t (ix3 0 g j) = GinSpec.accUpTo (poolTile1 V c cc g j) k := by
  obtain rfl : t = ⟨cc.val * 10 + k, tile_lt cc k hk⟩ := Fin.ext ht
  exact after15_tile V c dat h15a h15b cc g j k hk

/-- WHAT A FLUSHING POINT WRITES BACK (the last tile of its core) is its core's slab of the readout partial sums. -/
theorem flushed15_eq (t : Fin cfg1.N) (hf : (cfg1.win 15).flush t = true) :
    dat.flushed 15 t = ((cfg1.win 15).blk t).view.read (Elt Ideal) (readoutArr1 V c) := by
  have hN : cfg1.N = 20 := N_1
  have h9 : t.val % 10 = 9 := (flush1_15 t).mp hf
  have htl := t.isLt
  funext y
  obtain ⟨u, g, j, rfl⟩ : ∃ (u : Fin 1) (g : Fin 512) (j : Fin 64), y = ix3 u g j := ⟨y 0, y 1, y 2, eq_ix3 y⟩
  obtain rfl : u = 0 := Subsingleton.elim _ _
  refine Eq.trans (b := dat.after 15 t (ix3 0 g j)) rfl ?_
  rw [View.read_apply]
  refine Eq.trans ?_ (b := readoutArr1 V c (((cfg1.win 15).blk t).view.emb (ix3 (0 : Fin 1) g j))) rfl
  rw [emb15, readoutArr1_apply]
  exact after15_point V c dat h15a h15b t ⟨t.val / 10, by omega⟩ 9 (by omega) (by show t.val = t.val / 10 * 10 + 9; omega) g j

/-- THE ARRAY of window 15 after the region: each core's accumulator after its tenth tile. -/
theorem arr15 : dat.arrAt 15 cfg1.N = readoutArr1 V c :=
  dat.arrAt_eq_of_cover 15 (readoutArr1 V c) (fun t hf => flushed15_eq V c dat h15a h15b t hf) (cover15)

/-- The same at a core, a graph and a column, the partial sums written out. -/
theorem arr15_apply (cc : Fin 2) (g : Fin 512) (j : Fin 64) :
    dat.arrAt 15 cfg1.N (ix3 cc g j)
      = GinSpec.accUpTo (fun k => if hk : k < 10 then ∑ r : Fin 5000, (if (V c (Pipeline.arrRef spec1 1) (ix2 (GinSpec.row (GinSpec.tile20 cc ⟨k, hk⟩) r) 0)).toInt = (g.val : ℤ) then (1 : EReal) else 0) * hNext1 V c (GinSpec.row (GinSpec.tile20 cc ⟨k, hk⟩) r) j else 0) 9 :=
  congrFun (arr15 V c dat h15a h15b) (ix3 cc g j)

/-- The two cores' partial sums add up to the pooled sum of the layer's output over the graph's nodes. -/
theorem arr15_pool (g : Fin 512) (j : Fin 64) :
    (0 : EReal) + Finset.sum (M := EReal) (Finset.univ : Finset (Fin 2)) (fun cc => dat.arrAt 15 cfg1.N (ix3 cc g j))
      = GinSpec.pool (fun n => hNext1 V c n j) (fun n => V c (Pipeline.arrRef spec1 1) (ix2 n 0)) g := by
  rw [arr15 V c dat h15a h15b]
  exact readoutArr1_pool V c g j

end Window15

end Cert.KernelIdeal.Val1

end
-- ==== Proof.KIVal1Dat.lean ====
import proofs.«402532_j352187319172_1_alg».proof.Proof.KIVal1R
import proofs.«402532_j352187319172_1_alg».proof.Proof.KIReg1

/-!
# Region 1: its two output arrays, for the region's own proof data

The frame's proof data of region 1 leaves, in window 14's buffer, the layer's output block and, in window 15's, the
accumulation from point to point; so its two output arrays after the region are the layer's output and the cores' pooled
partial sums.
-/

set_option maxRecDepth 16384

noncomputable section

namespace Cert.KernelIdeal.Val1

open Cert.KernelIdeal Cert.KernelIdeal.Gen Idealize.ShloMosaic Idealize.ShloMosaic.ValueIdx Idealize.ShloMosaic.TcCoe
open Idealize.SL Idealize.SL.Sem
open Idealize.ShloMosaic.Rounds
open Idealize.ShloMosaic.Pipeline (Dat)
open scoped BigOperators

variable (V : (c : Dev nD) → (b : Ref sig .tc) → Buf (Elt Ideal) ((c : Thread nD τ).loc b))

/-- The proof data's window 14 buffer after a point is the stored block. -/
theorem dat1_after14 (c : Dev nD) (t : Fin cfg1.N) : (dat1 V c).after 14 t = stored14 V c t :=
  after1_14 V c t

/-- The proof data's window 15 buffer after the first point of a core's run: the contribution over zeros. -/
theorem dat1_after15_first (c : Dev nD) (t : Fin cfg1.N) (h : t.val % 10 = 0) :
    (dat1 V c).after 15 t = k1_pay1 (Val1.contrib1 V c t) (k1_pay2 (F := Ideal)) :=
  (after1_15 V c t).trans (outsAt1_first V c t h)

/-- The proof data's window 15 buffer after any other point: the contribution over what the point before left. -/
theorem dat1_after15_next (c : Dev nD) (t : Fin cfg1.N) (h : ¬ t.val % 10 = 0) :
    (dat1 V c).after 15 t
      = k1_pay1 (Val1.contrib1 V c t) ((dat1 V c).after 15 ⟨t.val - 1, Nat.lt_of_le_of_lt (Nat.sub_le _ _) t.isLt⟩) :=
  (after1_15 V c t).trans ((outsAt1_next V c t h).trans
    (congrArg (k1_pay1 (Val1.contrib1 V c t)) (after1_15 V c ⟨t.val - 1, Nat.lt_of_le_of_lt (Nat.sub_le _ _) t.isLt⟩).symm))

/-- Window 14's array after the region: the layer's output. -/
theorem arr14_dat1 (c : Dev nD) : (dat1 V c).arrAt 14 cfg1.N = hNextArr1 V c :=
  arr14 V c (dat1 V c) (dat1_after14 V c)

/-- The same at a node and a column. -/
theorem arr14_dat1_apply (c : Dev nD) (n : Fin 100000) (j : Fin 64) : (dat1 V c).arrAt 14 cfg1.N (ix2 n j) = hNext1 V c n j :=
  congrFun (arr14_dat1 V c) (ix2 n j)

/-- Window 15's array after the region: each core's pooled partial sum after its tenth tile. -/
theorem arr15_dat1 (c : Dev nD) : (dat1 V c).arrAt 15 cfg1.N = readoutArr1 V c :=
  arr15 V c (dat1 V c) (dat1_after15_first V c) (dat1_after15_next V c)

/-- The same at a core, a graph and a column. -/
theorem arr15_dat1_apply (c : Dev nD) (cc : Fin 2) (g : Fin 512) (j : Fin 64) :
    (dat1 V c).arrAt 15 cfg1.N (ix3 cc g j) = GinSpec.accUpTo (poolTile1 V c cc g j) 9 :=
  congrFun (arr15_dat1 V c) (ix3 cc g j)

/-- The two cores' partial sums add up to the pooled sum of the layer's output over the graph's nodes. -/
theorem arr15_dat1_pool (c : Dev nD) (g : Fin 512) (j : Fin 64) :
    (0 : EReal) + Finset.sum (M := EReal) (Finset.univ : Finset (Fin 2)) (fun cc => (dat1 V c).arrAt 15 cfg1.N (ix3 cc g j))
      = GinSpec.pool (fun n => hNext1 V c n j) (fun n => V c (Pipeline.arrRef spec1 1) (ix2 n 0)) g :=
  arr15_pool V c (dat1 V c) (dat1_after15_first V c) (dat1_after15_next V c) g j

end Cert.KernelIdeal.Val1

end
-- ==== Proof.KIVal2Pay.lean ====
import proofs.«402532_j352187319172_1_alg».proof.Proof.Gen.KernelIdeal.Skeleton
import proofs.«402532_j352187319172_1_alg».proof.Proof.Spec
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

namespace Cert.KernelIdeal.Val2

open Cert.KernelIdeal Cert.KernelIdeal.Gen Idealize.ShloMosaic Idealize.ShloMosaic.ValueIdx
open scoped BigOperators

/-! ## The two contractions of the layer, read at an index

The feature contraction (rows by a 64 x 64 weight: the left operand's axis 1 against the right operand's axis 0) and the
pooling contraction (the one-hot matrix against the activations: axis 0 of both). -/

/-- Feature contraction: the left operand's row coordinate is the output's row. -/
theorem lhs_feat_0 (i : S5000x64.Idx) (q : dot_S5000x64_S64x64_S5000x64_1_0_0_1_n_n.contr.Idx) :
    (dot_S5000x64_S64x64_S5000x64_1_0_0_1_n_n.lhsIdx i q 0).val = (i 0).val := by
  unfold DotDims.lhsIdx
  rw [dif_neg (show ¬(0 : Fin S5000x64.rank) ∈ dot_S5000x64_S64x64_S5000x64_1_0_0_1_n_n.lhsBatch by decide), dif_pos (show (0 : Fin S5000x64.rank) ∈ dot_S5000x64_S64x64_S5000x64_1_0_0_1_n_n.lhsNonContracting by decide)]
  rfl
/-- Feature contraction: the left operand's column coordinate is the contracted one. -/
theorem lhs_feat_1 (i : S5000x64.Idx) (q : dot_S5000x64_S64x64_S5000x64_1_0_0_1_n_n.contr.Idx) :
    (dot_S5000x64_S64x64_S5000x64_1_0_0_1_n_n.lhsIdx i q 1).val = (q ⟨0, by decide⟩).val :=
  dot_S5000x64_S64x64_S5000x64_1_0_0_1_n_n.lhsIdx_val_of_single rfl i q
/-- Feature contraction: the right operand's row coordinate is the contracted one. -/
theorem rhs_feat_0 (i : S5000x64.Idx) (q : dot_S5000x64_S64x64_S5000x64_1_0_0_1_n_n.contr.Idx) :
    (dot_S5000x64_S64x64_S5000x64_1_0_0_1_n_n.rhsIdx i q 0).val = (q ⟨0, by decide⟩).val :=
  dot_S5000x64_S64x64_S5000x64_1_0_0_1_n_n.rhsIdx_val_of_single rfl i q
/-- Feature contraction: the right operand's column coordinate is the output's column. -/
theorem rhs_feat_1 (i : S5000x64.Idx) (q : dot_S5000x64_S64x64_S5000x64_1_0_0_1_n_n.contr.Idx) :
    (dot_S5000x64_S64x64_S5000x64_1_0_0_1_n_n.rhsIdx i q 1).val = (i 1).val := by
  unfold DotDims.rhsIdx
  rw [dif_neg (show ¬(1 : Fin S64x64.rank) ∈ dot_S5000x64_S64x64_S5000x64_1_0_0_1_n_n.rhsBatch by decide), dif_pos (show (1 : Fin S64x64.rank) ∈ dot_S5000x64_S64x64_S5000x64_1_0_0_1_n_n.rhsNonContracting by decide)]
  rfl

/-- The feature contraction into the zero accumulator, at row r and column k: the sum over the 64 features. -/
theorem matmul_feat_apply (x : FVec Ideal S5000x64 .bf16) (y : FVec Ideal S64x64 .bf16) (r : Fin 5000) (k : Fin 64) :
    matmul dot_S5000x64_S64x64_S5000x64_1_0_0_1_n_n none x y (constant (F := Ideal) S5000x64 .f32 0x00000000#32) (ix2 r k)
      = ∑ d : Fin 64, x (ix2 r d) * y (ix2 d k) := by
  simp only [matmul]
  rw [Ideal.matmul_constant_zero_apply, ← Equiv.sum_comp (contrEquiv1 dot_S5000x64_S64x64_S5000x64_1_0_0_1_n_n 64 rfl rfl).symm]
  refine Finset.sum_congr rfl fun d _ => ?_
  have hk := contrEquiv1_symm_val dot_S5000x64_S64x64_S5000x64_1_0_0_1_n_n 64 rfl rfl d
  have el : dot_S5000x64_S64x64_S5000x64_1_0_0_1_n_n.lhsIdx (ix2 r k) ((contrEquiv1 dot_S5000x64_S64x64_S5000x64_1_0_0_1_n_n 64 rfl rfl).symm d) = ix2 r d := funext fun a => Fin.ext (by
    match a with
    | ⟨0, _⟩ => exact lhs_feat_0 _ _
    | ⟨1, _⟩ => exact (lhs_feat_1 _ _).trans hk)
  have er : dot_S5000x64_S64x64_S5000x64_1_0_0_1_n_n.rhsIdx (ix2 r k) ((contrEquiv1 dot_S5000x64_S64x64_S5000x64_1_0_0_1_n_n 64 rfl rfl).symm d) = ix2 d k := funext fun a => Fin.ext (by
    match a with
    | ⟨0, _⟩ => exact (rhs_feat_0 _ _).trans hk
    | ⟨1, _⟩ => exact rhs_feat_1 _ _)
  rw [el, er]

/-- Pooling contraction: the left operand's row coordinate is the contracted one. -/
theorem lhs_pool_0 (i : S512x64.Idx) (q : dot_S5000x512_S5000x64_S512x64_0_0_1_1_n_n.contr.Idx) :
    (dot_S5000x512_S5000x64_S512x64_0_0_1_1_n_n.lhsIdx i q 0).val = (q ⟨0, by decide⟩).val :=
  dot_S5000x512_S5000x64_S512x64_0_0_1_1_n_n.lhsIdx_val_of_single rfl i q
/-- Pooling contraction: the left operand's column coordinate is the output's row. -/
theorem lhs_pool_1 (i : S512x64.Idx) (q : dot_S5000x512_S5000x64_S512x64_0_0_1_1_n_n.contr.Idx) :
    (dot_S5000x512_S5000x64_S512x64_0_0_1_1_n_n.lhsIdx i q 1).val = (i 0).val := by
  unfold DotDims.lhsIdx
  rw [dif_neg (show ¬(1 : Fin S5000x512.rank) ∈ dot_S5000x512_S5000x64_S512x64_0_0_1_1_n_n.lhsBatch by decide), dif_pos (show (1 : Fin S5000x512.rank) ∈ dot_S5000x512_S5000x64_S512x64_0_0_1_1_n_n.lhsNonContracting by decide)]
  rfl
/-- Pooling contraction: the right operand's row coordinate is the contracted one. -/
theorem rhs_pool_0 (i : S512x64.Idx) (q : dot_S5000x512_S5000x64_S512x64_0_0_1_1_n_n.contr.Idx) :
    (dot_S5000x512_S5000x64_S512x64_0_0_1_1_n_n.rhsIdx i q 0).val = (q ⟨0, by decide⟩).val :=
  dot_S5000x512_S5000x64_S512x64_0_0_1_1_n_n.rhsIdx_val_of_single rfl i q
/-- Pooling contraction: the right operand's column coordinate is the output's column. -/
theorem rhs_pool_1 (i : S512x64.Idx) (q : dot_S5000x512_S5000x64_S512x64_0_0_1_1_n_n.contr.Idx) :
    (dot_S5000x512_S5000x64_S512x64_0_0_1_1_n_n.rhsIdx i q 1).val = (i 1).val := by
  unfold DotDims.rhsIdx
  rw [dif_neg (show ¬(1 : Fin S5000x64.rank) ∈ dot_S5000x512_S5000x64_S512x64_0_0_1_1_n_n.rhsBatch by decide), dif_pos (show (1 : Fin S5000x64.rank) ∈ dot_S5000x512_S5000x64_S512x64_0_0_1_1_n_n.rhsNonContracting by decide)]
  rfl

/-- The pooling contraction into the zero accumulator, at graph g and column j: the sum over the block's 5000 rows. -/
theorem matmul_pool_apply (x : FVec Ideal S5000x512 .bf16) (y : FVec Ideal S5000x64 .bf16) (g : Fin 512) (j : Fin 64) :
    matmul dot_S5000x512_S5000x64_S512x64_0_0_1_1_n_n none x y (constant (F := Ideal) S512x64 .f32 0x00000000#32) (ix2 g j)
      = ∑ r : Fin 5000, x (ix2 r g) * y (ix2 r j) := by
  simp only [matmul]
  rw [Ideal.matmul_constant_zero_apply, ← Equiv.sum_comp (contrEquiv1 dot_S5000x512_S5000x64_S512x64_0_0_1_1_n_n 5000 rfl rfl).symm]
  refine Finset.sum_congr rfl fun d _ => ?_
  have hk := contrEquiv1_symm_val dot_S5000x512_S5000x64_S512x64_0_0_1_1_n_n 5000 rfl rfl d
  have el : dot_S5000x512_S5000x64_S512x64_0_0_1_1_n_n.lhsIdx (ix2 g j) ((contrEquiv1 dot_S5000x512_S5000x64_S512x64_0_0_1_1_n_n 5000 rfl rfl).symm d) = ix2 d g := funext fun a => Fin.ext (by
    match a with
    | ⟨0, _⟩ => exact (lhs_pool_0 _ _).trans hk
    | ⟨1, _⟩ => exact lhs_pool_1 _ _)
  have er : dot_S5000x512_S5000x64_S512x64_0_0_1_1_n_n.rhsIdx (ix2 g j) ((contrEquiv1 dot_S5000x512_S5000x64_S512x64_0_0_1_1_n_n 5000 rfl rfl).symm d) = ix2 d j := funext fun a => Fin.ext (by
    match a with
    | ⟨0, _⟩ => exact (rhs_pool_0 _ _).trans hk
    | ⟨1, _⟩ => exact rhs_pool_1 _ _)
  rw [el, er]

/-! ## Small readings at an index -/

/-- A reciprocal square root at an index is that of the element. -/
theorem rsqrt_apply {s : Shape} {φ : FTy} (a : FVec Ideal s φ) (i : s.Idx) : rsqrt a i = Ideal.rsqrt (a i) := rfl

/-- A scalar constant at the ideal values is the extended real its word encodes. -/
theorem scalar_ofBits_f32 (b : BitVec 32) : (Scalar.ofBits (F := Ideal) .f32 b) = Ideal.ofBits .f32 b := rfl

/-- A column [a, 1] broadcast over b columns reads, at (p, c), the column's entry p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A 32-bit word that encodes a number below 512 reads, signed, that number. -/
theorem toInt_ofNat_lt (g : Fin 512) : (BitVec.ofNat 32 g.val).toInt = (g.val : ℤ) := by
  have hg : g.val < 512 := g.isLt
  rw [BitVec.toInt_eq_toNat_cond, BitVec.toNat_ofNat]
  omega

/-- The one-hot entry: a 32-bit id compared with a column number below 512, the bit widened and converted, is 1 where the
    signed id is the column number and 0 elsewhere. -/
theorem onehot_word (b : BitVec 32) (g : Fin 512) :
    FloatOps.sitofp (F := Ideal) .f32 ((IntOp.cmpi .eq b (BitVec.ofNat 32 g.val)).setWidth 32)
      = if b.toInt = (g.val : ℤ) then (1 : EReal) else 0 := by
  have hG := toInt_ofNat_lt g
  show (((((BitVec.ofBool (b == BitVec.ofNat 32 g.val)).setWidth 32).toInt : ℤ) : ℝ) : EReal) = _
  by_cases h : b = BitVec.ofNat 32 g.val
  · have hb : (b == BitVec.ofNat 32 g.val) = true := by simpa using h
    have h1 : ((BitVec.ofBool true).setWidth 32).toInt = 1 := by decide
    rw [hb, if_pos (h ▸ hG), h1]
    simp
  · have hb : (b == BitVec.ofNat 32 g.val) = false := by simpa using h
    have hne : ¬ b.toInt = (g.val : ℤ) := fun e => h (BitVec.toInt_inj.mp (e.trans hG.symm))
    have h0 : ((BitVec.ofBool false).setWidth 32).toInt = 0 := by decide
    rw [hb, if_neg hne, h0]
    simp

/-! ## The payloads at an index -/

/-- The hidden activation the first half of the body computes, at row r and hidden unit k. -/
theorem pay3_apply (z : Vec Ideal S5000x64 .f32) (W1 : Vec Ideal S64x64 .f32) (b1 ga va ma bea : Vec Ideal S1x64 .f32)
    (r : Fin 5000) (k : Fin 64) :
    k2_pay3 z W1 b1 ga va ma bea (ix2 r k)
      = GinSpec.hidden (fun d => z (ix2 r d)) (fun d k => W1 (ix2 d k)) (fun k => b1 (ix2 0 k)) (fun k => ga (ix2 0 k))
          (fun k => bea (ix2 0 k)) (fun k => ma (ix2 0 k)) (fun k => va (ix2 0 k)) k := by
  unfold k2_pay3
  simp only [maximumf_apply, addf_apply, mulf_apply, subf_apply, broadcast_apply, shapeCast_self, broadcastTo_1b_ab_apply,
    matmul_feat_apply, truncf_apply, rsqrt_apply, scalar_ofBits_f32, Ideal.ofBits_zero_f32]
  rfl

/-- The layer's output block at row r and column j: the MLP of the row. -/
theorem pay5_apply (z : Vec Ideal S5000x64 .f32) (W1 : Vec Ideal S64x64 .f32) (b1 ga va ma bea : Vec Ideal S1x64 .f32)
    (W2 : Vec Ideal S64x64 .f32) (b2 gb vb mb beb : Vec Ideal S1x64 .f32) (r : Fin 5000) (j : Fin 64) :
    k2_pay5 (k2_pay3 z W1 b1 ga va ma bea) (k2_pay4 W2) b2 gb vb mb beb (ix2 r j)
      = GinSpec.mlp (fun d => z (ix2 r d)) (fun d k => W1 (ix2 d k)) (fun k => b1 (ix2 0 k)) (fun k => ga (ix2 0 k))
          (fun k => bea (ix2 0 k)) (fun k => ma (ix2 0 k)) (fun k => va (ix2 0 k)) (fun k j => W2 (ix2 k j))
          (fun j => b2 (ix2 0 j)) (fun j => gb (ix2 0 j)) (fun j => beb (ix2 0 j)) (fun j => mb (ix2 0 j))
          (fun j => vb (ix2 0 j)) j := by
  unfold k2_pay5 k2_pay4
  simp only [maximumf_apply, addf_apply, mulf_apply, subf_apply, broadcast_apply, shapeCast_self, broadcastTo_1b_ab_apply,
    matmul_feat_apply, truncf_apply, rsqrt_apply, scalar_ofBits_f32, Ideal.ofBits_zero_f32, pay3_apply]
  rfl

/-- The block's contribution to the pooled readout at graph g and column j: the sum of the output rows whose graph id is g. -/
theorem pay6_apply (h : FVec Ideal S5000x64 .f32) (W2 : FVec Ideal S64x64 .f32) (b2 gb vb mb beb : Vec Ideal S1x64 .f32)
    (batch : Vec Ideal S5000x1 .i32) (g : Fin 512) (j : Fin 64) :
    k2_pay6 h W2 b2 gb vb mb beb batch (ix2 g j)
      = ∑ r : Fin 5000, (if (batch (ix2 r 0)).toInt = (g.val : ℤ) then (1 : EReal) else 0) * k2_pay5 h W2 b2 gb vb mb beb (ix2 r j) := by
  unfold k2_pay6
  simp only [matmul_pool_apply, truncf_apply]
  refine Finset.sum_congr rfl fun r _ => ?_
  congr 1
  show FloatOps.sitofp (F := Ideal) .f32 ((IntOp.cmpi .eq (broadcastTo S5000x512 (shapeCast S5000x1 batch shapeCasts_S5000x1_S5000x1) broadcasts_S5000x1_S5000x512 (ix2 r g)) (iota .tc S5000x512 32 [1] iota_S5000x512_d1_w32 (ix2 r g))).setWidth 32) = _
  rw [broadcastTo_a1_ab_apply, shapeCast_self, iota_single_apply]
  exact onehot_word _ g

/-- The accumulation step at graph g and column j: what was there plus the block's contribution. -/
theorem pay1_apply (v : FVec Ideal S512x64 .f32) (acc : Vec Ideal S1x512x64 .f32) (g : Fin 512) (j : Fin 64) :
    k2_pay1 v acc (ix3 0 g j) = acc (ix3 0 g j) + v (ix2 g j) := by
  unfold k2_pay1
  simp only [shapeCast_ab_1ab_apply, addf_apply, shapeCast_1ab_ab_apply]

/-- The reset value is zero everywhere. -/
theorem pay2_apply (g : Fin 512) (j : Fin 64) : (k2_pay2 (F := Ideal)) (ix3 0 g j) = 0 := by
  unfold k2_pay2
  simp only [shapeCast_ab_1ab_apply, broadcast_apply, scalar_ofBits_f32, Ideal.ofBits_zero_f32]

end Cert.KernelIdeal.Val2

end
-- ==== Proof.KIVal2H.lean ====
import proofs.«402532_j352187319172_1_alg».proof.Proof.KIVal2Pay
import proofs.«402532_j352187319172_1_alg».proof.Proof.KIReg2
import proofs.«402532_j352187319172_1_alg».proof.Proof.Gen.KernelIdeal.Launch
import proofs.«402532_j352187319172_1_alg».proof.Proof.Gen.KernelIdeal.Points
import Idealize.ShloMosaic.Lib.Pipeline.Value

/-!
# Region 2, window 14: the layer's output array

The region's input blocks read at coordinates, the block a point stores as rows of the layer's output, and the output array
after the region as one function of the region's input arrays, node by node.
-/

set_option maxRecDepth 16384

noncomputable section

namespace Cert.KernelIdeal.Val2

open Cert.KernelIdeal Cert.KernelIdeal.Gen Idealize.ShloMosaic Idealize.ShloMosaic.ValueIdx Idealize.ShloMosaic.TcCoe
open Idealize.SL Idealize.SL.Sem
open Idealize.ShloMosaic.Rounds
open Idealize.ShloMosaic.Pipeline (Dat)
open scoped BigOperators

variable (V : (c : Dev nD) → (b : Ref sig .tc) → Buf (Elt Ideal) ((c : Thread nD τ).loc b))

/-! ## The region's outputs as mathematics -/

/-- The layer's output at node n and column j: the MLP of row n of the region's input, with the region's twelve parameter
    arrays. -/
def hNext2 (c : Dev nD) (n : Fin 100000) (j : Fin 64) : EReal :=
  GinSpec.mlp (fun d => V c (Pipeline.arrRef spec2 0) (ix2 n d)) (fun d k => V c (Pipeline.arrRef spec2 2) (ix2 d k))
    (fun k => V c (Pipeline.arrRef spec2 3) (ix2 0 k)) (fun k => V c (Pipeline.arrRef spec2 4) (ix2 0 k))
    (fun k => V c (Pipeline.arrRef spec2 5) (ix2 0 k)) (fun k => V c (Pipeline.arrRef spec2 6) (ix2 0 k))
    (fun k => V c (Pipeline.arrRef spec2 7) (ix2 0 k)) (fun k j => V c (Pipeline.arrRef spec2 8) (ix2 k j))
    (fun j => V c (Pipeline.arrRef spec2 9) (ix2 0 j)) (fun j => V c (Pipeline.arrRef spec2 10) (ix2 0 j))
    (fun j => V c (Pipeline.arrRef spec2 11) (ix2 0 j)) (fun j => V c (Pipeline.arrRef spec2 12) (ix2 0 j))
    (fun j => V c (Pipeline.arrRef spec2 13) (ix2 0 j)) j

/-- The same as contents of the output array. -/
def hNextArr2 (c : Dev nD) : S100000x64.Idx → EReal := fun i => hNext2 V c (i 0) (i 1)

theorem hNextArr2_apply (c : Dev nD) (n : Fin 100000) (j : Fin 64) : hNextArr2 V c (ix2 n j) = hNext2 V c n j := rfl

/-! ## The index maps, decided once over the grid -/

/-- The moving windows: the row blocks follow the point, the readout block follows the core. -/
theorem idx_facts2 : ∀ t : Fin cfg2.N,
    win2_0.index t (0 : Fin 2) = t.val
    ∧ win2_0.index t (1 : Fin 2) = 0
    ∧ win2_1.index t (0 : Fin 2) = t.val
    ∧ win2_1.index t (1 : Fin 2) = 0
    ∧ win2_14.index t (0 : Fin 2) = t.val
    ∧ win2_14.index t (1 : Fin 2) = 0
    ∧ win2_15.index t (0 : Fin 3) = t.val / 10
    ∧ win2_15.index t (1 : Fin 3) = 0
    ∧ win2_15.index t (2 : Fin 3) = 0 :=
  (by decide +kernel : ∀ t : Fin grid2.N, _)

/-! The parameter windows stay at block zero. -/
theorem idx_zero2_2 : ∀ t : Fin cfg2.N, win2_2.index t (0 : Fin 2) = 0 ∧ win2_2.index t (1 : Fin 2) = 0 :=
  (by decide +kernel : ∀ t : Fin grid2.N, _)
theorem idx_zero2_3 : ∀ t : Fin cfg2.N, win2_3.index t (0 : Fin 2) = 0 ∧ win2_3.index t (1 : Fin 2) = 0 :=
  (by decide +kernel : ∀ t : Fin grid2.N, _)
theorem idx_zero2_4 : ∀ t : Fin cfg2.N, win2_4.index t (0 : Fin 2) = 0 ∧ win2_4.index t (1 : Fin 2) = 0 :=
  (by decide +kernel : ∀ t : Fin grid2.N, _)
theorem idx_zero2_5 : ∀ t : Fin cfg2.N, win2_5.index t (0 : Fin 2) = 0 ∧ win2_5.index t (1 : Fin 2) = 0 :=
  (by decide +kernel : ∀ t : Fin grid2.N, _)
theorem idx_zero2_6 : ∀ t : Fin cfg2.N, win2_6.index t (0 : Fin 2) = 0 ∧ win2_6.index t (1 : Fin 2) = 0 :=
  (by decide +kernel : ∀ t : Fin grid2.N, _)
theorem idx_zero2_7 : ∀ t : Fin cfg2.N, win2_7.index t (0 : Fin 2) = 0 ∧ win2_7.index t (1 : Fin 2) = 0 :=
  (by decide +kernel : ∀ t : Fin grid2.N, _)
theorem idx_zero2_8 : ∀ t : Fin cfg2.N, win2_8.index t (0 : Fin 2) = 0 ∧ win2_8.index t (1 : Fin 2) = 0 :=
  (by decide +kernel : ∀ t : Fin grid2.N, _)
theorem idx_zero2_9 : ∀ t : Fin cfg2.N, win2_9.index t (0 : Fin 2) = 0 ∧ win2_9.index t (1 : Fin 2) = 0 :=
  (by decide +kernel : ∀ t : Fin grid2.N, _)
theorem idx_zero2_10 : ∀ t : Fin cfg2.N, win2_10.index t (0 : Fin 2) = 0 ∧ win2_10.index t (1 : Fin 2) = 0 :=
  (by decide +kernel : ∀ t : Fin grid2.N, _)
theorem idx_zero2_11 : ∀ t : Fin cfg2.N, win2_11.index t (0 : Fin 2) = 0 ∧ win2_11.index t (1 : Fin 2) = 0 :=
  (by decide +kernel : ∀ t : Fin grid2.N, _)
theorem idx_zero2_12 : ∀ t : Fin cfg2.N, win2_12.index t (0 : Fin 2) = 0 ∧ win2_12.index t (1 : Fin 2) = 0 :=
  (by decide +kernel : ∀ t : Fin grid2.N, _)
theorem idx_zero2_13 : ∀ t : Fin cfg2.N, win2_13.index t (0 : Fin 2) = 0 ∧ win2_13.index t (1 : Fin 2) = 0 :=
  (by decide +kernel : ∀ t : Fin grid2.N, _)

/-- A row of tile t is a row of the array. -/
theorem row_lt (t : Fin cfg2.N) (r : Fin 5000) : t.val * 5000 + r.val < 100000 := by
  have hN : cfg2.N = 20 := N_2
  have := t.isLt
  have := r.isLt
  omega

/-! ## The input blocks read at coordinates -/

/-- The input block at point t, row r: row t * 5000 + r of the input array. -/
theorem iblk_z (c : Dev nD) (t : Fin cfg2.N) (r : Fin 5000) (d : Fin 64) :
    iblk2 V c 0 t (ix2 r d) = V c (Pipeline.arrRef spec2 0) (ix2 ⟨t.val * 5000 + r.val, row_lt t r⟩ d) := by
  obtain ⟨e0, e1, -⟩ := idx_facts2 t
  unfold iblk2
  rw [View.read_apply]
  show V c (Pipeline.arrRef spec2 0) (((cfg2.win 0).blk t).view.emb (ix2 r d)) = _
  congr 1
  funext a; apply Fin.ext
  match a with
  | ⟨0, _⟩ => show win2_0.index t (0 : Fin 2) * 5000 + 1 * r.val = t.val * 5000 + r.val; rw [e0]; omega
  | ⟨1, _⟩ => show win2_0.index t (1 : Fin 2) * 64 + 1 * d.val = d.val; rw [e1]; omega

/-- The graph ids' block at point t, row r: the id of node t * 5000 + r. -/
theorem iblk_gid (c : Dev nD) (t : Fin cfg2.N) (r : Fin 5000) :
    iblk2 V c 1 t (ix2 r 0) = V c (Pipeline.arrRef spec2 1) (ix2 ⟨t.val * 5000 + r.val, row_lt t r⟩ 0) := by
  obtain ⟨-, -, e0, e1, -⟩ := idx_facts2 t
  unfold iblk2
  rw [View.read_apply]
  show V c (Pipeline.arrRef spec2 1) (((cfg2.win 1).blk t).view.emb (ix2 r 0)) = _
  congr 1
  funext a; apply Fin.ext
  match a with
  | ⟨0, _⟩ => show win2_1.index t (0 : Fin 2) * 5000 + 1 * r.val = t.val * 5000 + r.val; rw [e0]; omega
  | ⟨1, _⟩ => show win2_1.index t (1 : Fin 2) * 1 + 1 * 0 = 0; rw [e1]

/-- Window 2's block is its whole array at every point. -/
theorem iblk_par_2 (c : Dev nD) (t : Fin cfg2.N) : (iblk2 V c 2 t : S64x64.Idx → EReal) = V c (Pipeline.arrRef spec2 2) := by
  funext y
  obtain ⟨e0, e1⟩ := idx_zero2_2 t
  unfold iblk2
  rw [View.read_apply]
  show V c (Pipeline.arrRef spec2 2) (((cfg2.win 2).blk t).view.emb y) = V c (Pipeline.arrRef spec2 2) y
  congr 1
  funext a; apply Fin.ext
  match a with
  | ⟨0, _⟩ => show win2_2.index t (0 : Fin 2) * 64 + 1 * (y 0).val = (y 0).val; rw [e0]; omega
  | ⟨1, _⟩ => show win2_2.index t (1 : Fin 2) * 64 + 1 * (y 1).val = (y 1).val; rw [e1]; omega

/-- Window 3's block is its whole array at every point. -/
theorem iblk_par_3 (c : Dev nD) (t : Fin cfg2.N) : (iblk2 V c 3 t : S1x64.Idx → EReal) = V c (Pipeline.arrRef spec2 3) := by
  funext y
  obtain ⟨e0, e1⟩ := idx_zero2_3 t
  unfold iblk2
  rw [View.read_apply]
  show V c (Pipeline.arrRef spec2 3) (((cfg2.win 3).blk t).view.emb y) = V c (Pipeline.arrRef spec2 3) y
  congr 1
  funext a; apply Fin.ext
  match a with
  | ⟨0, _⟩ => show win2_3.index t (0 : Fin 2) * 1 + 1 * (y 0).val = (y 0).val; rw [e0]; omega
  | ⟨1, _⟩ => show win2_3.index t (1 : Fin 2) * 64 + 1 * (y 1).val = (y 1).val; rw [e1]; omega

/-- Window 4's block is its whole array at every point. -/
theorem iblk_par_4 (c : Dev nD) (t : Fin cfg2.N) : (iblk2 V c 4 t : S1x64.Idx → EReal) = V c (Pipeline.arrRef spec2 4) := by
  funext y
  obtain ⟨e0, e1⟩ := idx_zero2_4 t
  unfold iblk2
  rw [View.read_apply]
  show V c (Pipeline.arrRef spec2 4) (((cfg2.win 4).blk t).view.emb y) = V c (Pipeline.arrRef spec2 4) y
  congr 1
  funext a; apply Fin.ext
  match a with
  | ⟨0, _⟩ => show win2_4.index t (0 : Fin 2) * 1 + 1 * (y 0).val = (y 0).val; rw [e0]; omega
  | ⟨1, _⟩ => show win2_4.index t (1 : Fin 2) * 64 + 1 * (y 1).val = (y 1).val; rw [e1]; omega

/-- Window 5's block is its whole array at every point. -/
theorem iblk_par_5 (c : Dev nD) (t : Fin cfg2.N) : (iblk2 V c 5 t : S1x64.Idx → EReal) = V c (Pipeline.arrRef spec2 5) := by
  funext y
  obtain ⟨e0, e1⟩ := idx_zero2_5 t
  unfold iblk2
  rw [View.read_apply]
  show V c (Pipeline.arrRef spec2 5) (((cfg2.win 5).blk t).view.emb y) = V c (Pipeline.arrRef spec2 5) y
  congr 1
  funext a; apply Fin.ext
  match a with
  | ⟨0, _⟩ => show win2_5.index t (0 : Fin 2) * 1 + 1 * (y 0).val = (y 0).val; rw [e0]; omega
  | ⟨1, _⟩ => show win2_5.index t (1 : Fin 2) * 64 + 1 * (y 1).val = (y 1).val; rw [e1]; omega

/-- Window 6's block is its whole array at every point. -/
theorem iblk_par_6 (c : Dev nD) (t : Fin cfg2.N) : (iblk2 V c 6 t : S1x64.Idx → EReal) = V c (Pipeline.arrRef spec2 6) := by
  funext y
  obtain ⟨e0, e1⟩ := idx_zero2_6 t
  unfold iblk2
  rw [View.read_apply]
  show V c (Pipeline.arrRef spec2 6) (((cfg2.win 6).blk t).view.emb y) = V c (Pipeline.arrRef spec2 6) y
  congr 1
  funext a; apply Fin.ext
  match a with
  | ⟨0, _⟩ => show win2_6.index t (0 : Fin 2) * 1 + 1 * (y 0).val = (y 0).val; rw [e0]; omega
  | ⟨1, _⟩ => show win2_6.index t (1 : Fin 2) * 64 + 1 * (y 1).val = (y 1).val; rw [e1]; omega

/-- Window 7's block is its whole array at every point. -/
theorem iblk_par_7 (c : Dev nD) (t : Fin cfg2.N) : (iblk2 V c 7 t : S1x64.Idx → EReal) = V c (Pipeline.arrRef spec2 7) := by
  funext y
  obtain ⟨e0, e1⟩ := idx_zero2_7 t
  unfold iblk2
  rw [View.read_apply]
  show V c (Pipeline.arrRef spec2 7) (((cfg2.win 7).blk t).view.emb y) = V c (Pipeline.arrRef spec2 7) y
  congr 1
  funext a; apply Fin.ext
  match a with
  | ⟨0, _⟩ => show win2_7.index t (0 : Fin 2) * 1 + 1 * (y 0).val = (y 0).val; rw [e0]; omega
  | ⟨1, _⟩ => show win2_7.index t (1 : Fin 2) * 64 + 1 * (y 1).val = (y 1).val; rw [e1]; omega

/-- Window 8's block is its whole array at every point. -/
theorem iblk_par_8 (c : Dev nD) (t : Fin cfg2.N) : (iblk2 V c 8 t : S64x64.Idx → EReal) = V c (Pipeline.arrRef spec2 8) := by
  funext y
  obtain ⟨e0, e1⟩ := idx_zero2_8 t
  unfold iblk2
  rw [View.read_apply]
  show V c (Pipeline.arrRef spec2 8) (((cfg2.win 8).blk t).view.emb y) = V c (Pipeline.arrRef spec2 8) y
  congr 1
  funext a; apply Fin.ext
  match a with
  | ⟨0, _⟩ => show win2_8.index t (0 : Fin 2) * 64 + 1 * (y 0).val = (y 0).val; rw [e0]; omega
  | ⟨1, _⟩ => show win2_8.index t (1 : Fin 2) * 64 + 1 * (y 1).val = (y 1).val; rw [e1]; omega

/-- Window 9's block is its whole array at every point. -/
theorem iblk_par_9 (c : Dev nD) (t : Fin cfg2.N) : (iblk2 V c 9 t : S1x64.Idx → EReal) = V c (Pipeline.arrRef spec2 9) := by
  funext y
  obtain ⟨e0, e1⟩ := idx_zero2_9 t
  unfold iblk2
  rw [View.read_apply]
  show V c (Pipeline.arrRef spec2 9) (((cfg2.win 9).blk t).view.emb y) = V c (Pipeline.arrRef spec2 9) y
  congr 1
  funext a; apply Fin.ext
  match a with
  | ⟨0, _⟩ => show win2_9.index t (0 : Fin 2) * 1 + 1 * (y 0).val = (y 0).val; rw [e0]; omega
  | ⟨1, _⟩ => show win2_9.index t (1 : Fin 2) * 64 + 1 * (y 1).val = (y 1).val; rw [e1]; omega

/-- Window 10's block is its whole array at every point. -/
theorem iblk_par_10 (c : Dev nD) (t : Fin cfg2.N) : (iblk2 V c 10 t : S1x64.Idx → EReal) = V c (Pipeline.arrRef spec2 10) := by
  funext y
  obtain ⟨e0, e1⟩ := idx_zero2_10 t
  unfold iblk2
  rw [View.read_apply]
  show V c (Pipeline.arrRef spec2 10) (((cfg2.win 10).blk t).view.emb y) = V c (Pipeline.arrRef spec2 10) y
  congr 1
  funext a; apply Fin.ext
  match a with
  | ⟨0, _⟩ => show win2_10.index t (0 : Fin 2) * 1 + 1 * (y 0).val = (y 0).val; rw [e0]; omega
  | ⟨1, _⟩ => show win2_10.index t (1 : Fin 2) * 64 + 1 * (y 1).val = (y 1).val; rw [e1]; omega

/-- Window 11's block is its whole array at every point. -/
theorem iblk_par_11 (c : Dev nD) (t : Fin cfg2.N) : (iblk2 V c 11 t : S1x64.Idx → EReal) = V c (Pipeline.arrRef spec2 11) := by
  funext y
  obtain ⟨e0, e1⟩ := idx_zero2_11 t
  unfold iblk2
  rw [View.read_apply]
  show V c (Pipeline.arrRef spec2 11) (((cfg2.win 11).blk t).view.emb y) = V c (Pipeline.arrRef spec2 11) y
  congr 1
  funext a; apply Fin.ext
  match a with
  | ⟨0, _⟩ => show win2_11.index t (0 : Fin 2) * 1 + 1 * (y 0).val = (y 0).val; rw [e0]; omega
  | ⟨1, _⟩ => show win2_11.index t (1 : Fin 2) * 64 + 1 * (y 1).val = (y 1).val; rw [e1]; omega

/-- Window 12's block is its whole array at every point. -/
theorem iblk_par_12 (c : Dev nD) (t : Fin cfg2.N) : (iblk2 V c 12 t : S1x64.Idx → EReal) = V c (Pipeline.arrRef spec2 12) := by
  funext y
  obtain ⟨e0, e1⟩ := idx_zero2_12 t
  unfold iblk2
  rw [View.read_apply]
  show V c (Pipeline.arrRef spec2 12) (((cfg2.win 12).blk t).view.emb y) = V c (Pipeline.arrRef spec2 12) y
  congr 1
  funext a; apply Fin.ext
  match a with
  | ⟨0, _⟩ => show win2_12.index t (0 : Fin 2) * 1 + 1 * (y 0).val = (y 0).val; rw [e0]; omega
  | ⟨1, _⟩ => show win2_12.index t (1 : Fin 2) * 64 + 1 * (y 1).val = (y 1).val; rw [e1]; omega

/-- Window 13's block is its whole array at every point. -/
theorem iblk_par_13 (c : Dev nD) (t : Fin cfg2.N) : (iblk2 V c 13 t : S1x64.Idx → EReal) = V c (Pipeline.arrRef spec2 13) := by
  funext y
  obtain ⟨e0, e1⟩ := idx_zero2_13 t
  unfold iblk2
  rw [View.read_apply]
  show V c (Pipeline.arrRef spec2 13) (((cfg2.win 13).blk t).view.emb y) = V c (Pipeline.arrRef spec2 13) y
  congr 1
  funext a; apply Fin.ext
  match a with
  | ⟨0, _⟩ => show win2_13.index t (0 : Fin 2) * 1 + 1 * (y 0).val = (y 0).val; rw [e0]; omega
  | ⟨1, _⟩ => show win2_13.index t (1 : Fin 2) * 64 + 1 * (y 1).val = (y 1).val; rw [e1]; omega

/-! ## Window 14: what a point stores is its rows of the layer's output -/

/-- The stored block at point t, row r, column j. -/
theorem after14_apply (c : Dev nD) (t : Fin cfg2.N) (r : Fin 5000) (j : Fin 64) :
    k2_pay5 (k2_pay3 (iblk2 V c 0 t) (iblk2 V c 2 t) (iblk2 V c 3 t) (iblk2 V c 4 t) (iblk2 V c 7 t) (iblk2 V c 6 t) (iblk2 V c 5 t))
        (k2_pay4 (iblk2 V c 8 t)) (iblk2 V c 9 t) (iblk2 V c 10 t) (iblk2 V c 13 t) (iblk2 V c 12 t) (iblk2 V c 11 t) (ix2 r j)
      = hNext2 V c ⟨t.val * 5000 + r.val, row_lt t r⟩ j := by
  refine (pay5_apply _ _ _ _ _ _ _ _ _ _ _ _ _ r j).trans ?_
  unfold hNext2
  simp only [iblk_z, iblk_par_2, iblk_par_3, iblk_par_4, iblk_par_5, iblk_par_6, iblk_par_7, iblk_par_8, iblk_par_9, iblk_par_10, iblk_par_11, iblk_par_12, iblk_par_13]

/-! ## Window 14: the array after the region -/

section Window14

variable (c : Dev nD) (dat : Dat τ (Elt Ideal) Unit ℕ (UR sig nD τ) ℕ cfg2 c)

/-- What a point stores into window 14's block, as the frame states it: the second half's payload of the first half's, of the
    point's input blocks. -/
abbrev stored14 (c : Dev nD) (t : Fin cfg2.N) : FVec Ideal S5000x64 .f32 :=
  k2_pay5 (k2_pay3 (iblk2 V c 0 t) (iblk2 V c 2 t) (iblk2 V c 3 t) (iblk2 V c 4 t) (iblk2 V c 7 t) (iblk2 V c 6 t) (iblk2 V c 5 t))
    (k2_pay4 (iblk2 V c 8 t)) (iblk2 V c 9 t) (iblk2 V c 10 t) (iblk2 V c 13 t) (iblk2 V c 12 t) (iblk2 V c 11 t)

/-- Where row r, column j of point t's block sits in the array. -/
theorem emb14 (t : Fin cfg2.N) (r : Fin 5000) (j : Fin 64) :
    ((cfg2.win 14).blk t).view.emb (ix2 r j) = ix2 ⟨t.val * 5000 + r.val, row_lt t r⟩ j := by
  obtain ⟨-, -, -, -, e0, e1, -⟩ := idx_facts2 t
  funext a; apply Fin.ext
  match a with
  | ⟨0, _⟩ => show win2_14.index t (0 : Fin 2) * 5000 + 1 * r.val = t.val * 5000 + r.val; rw [e0]; omega
  | ⟨1, _⟩ => show win2_14.index t (1 : Fin 2) * 64 + 1 * j.val = j.val; rw [e1]; omega

/-- WHAT POINT t WRITES BACK is block t of the layer's output. -/
theorem flushed14_eq (h14 : ∀ t, dat.after 14 t = stored14 V c t) (t : Fin cfg2.N) :
    dat.flushed 14 t = ((cfg2.win 14).blk t).view.read (Elt Ideal) (hNextArr2 V c) := by
  show (cfg2.win 14).cut (cfg2.grid.coords t) (dat.after 14 t) = _
  rw [h14]
  funext y
  obtain ⟨r, j, rfl⟩ : ∃ (r : Fin 5000) (j : Fin 64), y = ix2 r j := ⟨y 0, y 1, eq_ix2 y⟩
  rw [View.read_apply]
  show stored14 V c t (ix2 r j) = hNextArr2 V c (((cfg2.win 14).blk t).view.emb (ix2 r j))
  rw [emb14, hNextArr2_apply]
  exact after14_apply V c t r j

/-- An index of the array is in point t's block iff each coordinate is in the block's range on its axis. -/
theorem mem_blk14 (t : Fin cfg2.N) (i : S100000x64.Idx) :
    i ∈ ((cfg2.win 14).blk t).view.set ↔ ∀ a : Fin 2, win2_14.index t a * S5000x64.size a ≤ (i a).val ∧ (i a).val < win2_14.index t a * S5000x64.size a + S5000x64.size a := by
  show i ∈ ((View.whole (Pipeline.arrRef spec2 14)).slice (win2_14.rect t)).set ↔ _
  rw [View.set_slice_whole, Rect.mem_set_unit]
  exact Iff.rfl

/-- Every row is in the block of the point its tile names. -/
theorem cover14 (i : S100000x64.Idx) :
    ∃ t : Fin cfg2.N, (cfg2.win 14).flush t = true ∧ i ∈ ((cfg2.win 14).blk t).view.set := by
  have hN : cfg2.N = 20 := N_2
  have hi0 : (i 0).val < 100000 := (i 0).isLt
  have hi1 : (i 1).val < 64 := (i 1).isLt
  let t : Fin cfg2.N := ⟨(i 0).val / 5000, by omega⟩
  obtain ⟨-, -, -, -, e0, e1, -⟩ := idx_facts2 t
  have ht : t.val = (i 0).val / 5000 := rfl
  refine ⟨t, flush2_14 t, ?_⟩
  rw [mem_blk14]
  intro a
  match a with
  | ⟨0, _⟩ => show win2_14.index t (0 : Fin 2) * 5000 ≤ (i 0).val ∧ (i 0).val < win2_14.index t (0 : Fin 2) * 5000 + 5000; rw [e0, ht]; omega
  | ⟨1, _⟩ => show win2_14.index t (1 : Fin 2) * 64 ≤ (i 1).val ∧ (i 1).val < win2_14.index t (1 : Fin 2) * 64 + 64; rw [e1]; omega

/-- THE ARRAY of window 14 after the region: the layer's output, node by node. -/
theorem arr14 (h14 : ∀ t, dat.after 14 t = stored14 V c t) : dat.arrAt 14 cfg2.N = hNextArr2 V c :=
  dat.arrAt_eq_of_cover 14 (hNextArr2 V c) (fun t _ => flushed14_eq V c dat h14 t) (cover14)

/-- The same at a node and a column. -/
theorem arr14_apply (h14 : ∀ t, dat.after 14 t = stored14 V c t) (n : Fin 100000) (j : Fin 64) :
    dat.arrAt 14 cfg2.N (ix2 n j) = hNext2 V c n j :=
  congrFun (arr14 V c dat h14) (ix2 n j)

end Window14

end Cert.KernelIdeal.Val2

end
-- ==== Proof.KIVal2R.lean ====
import proofs.«402532_j352187319172_1_alg».proof.Proof.KIVal2H
import proofs.«402532_j352187319172_1_alg».proof.Proof.SpecSums

/-!
# Region 2, window 15: the pooled readout

A point's contribution to its core's readout block as a one-hot weighted sum of the tile's output rows, the block carried
from tile to tile as a partial sum, and the readout array after the region: each core's partial sum after its tenth tile.
-/

set_option maxRecDepth 16384

noncomputable section

namespace Cert.KernelIdeal.Val2

open Cert.KernelIdeal Cert.KernelIdeal.Gen Idealize.ShloMosaic Idealize.ShloMosaic.ValueIdx Idealize.ShloMosaic.TcCoe
open Idealize.SL Idealize.SL.Sem
open Idealize.ShloMosaic.Rounds
open Idealize.ShloMosaic.Pipeline (Dat)
open scoped BigOperators

variable (V : (c : Dev nD) → (b : Ref sig .tc) → Buf (Elt Ideal) ((c : Thread nD τ).loc b))

/-! ## Window 15: the pooled readout, accumulated over a core's ten tiles -/

section Window15

variable (c : Dev nD) (dat : Dat τ (Elt Ideal) Unit ℕ (UR sig nD τ) ℕ cfg2 c)

/-- A point's contribution to the readout block, as the frame states it: the pooling payload of the point's input blocks. -/
abbrev contrib2 (c : Dev nD) (t : Fin cfg2.N) : FVec Ideal S512x64 .f32 :=
  k2_pay6 (k2_pay3 (iblk2 V c 0 t) (iblk2 V c 2 t) (iblk2 V c 3 t) (iblk2 V c 4 t) (iblk2 V c 7 t) (iblk2 V c 6 t) (iblk2 V c 5 t))
    (k2_pay4 (iblk2 V c 8 t)) (iblk2 V c 9 t) (iblk2 V c 10 t) (iblk2 V c 13 t) (iblk2 V c 12 t) (iblk2 V c 11 t) (iblk2 V c 1 t)

/-- The contribution at graph g and column j: the sum of the tile's output rows whose graph id is g. -/
theorem contrib2_apply (t : Fin cfg2.N) (g : Fin 512) (j : Fin 64) :
    contrib2 V c t (ix2 g j)
      = ∑ r : Fin 5000, (if (V c (Pipeline.arrRef spec2 1) (ix2 (⟨t.val * 5000 + r.val, row_lt t r⟩ : Fin 100000) 0)).toInt = (g.val : ℤ) then (1 : EReal) else 0)
          * hNext2 V c ⟨t.val * 5000 + r.val, row_lt t r⟩ j := by
  refine (pay6_apply _ _ _ _ _ _ _ _ g j).trans ?_
  refine Finset.sum_congr rfl fun r _ => ?_
  rw [after14_apply, iblk_gid]

/-- Tile k of core cc contributes, at graph g and column j (zero past the core's ten tiles). -/
def poolTile2 (c : Dev nD) (cc : Fin 2) (g : Fin 512) (j : Fin 64) (k : ℕ) : EReal :=
  if hk : k < 10 then ∑ r : Fin 5000, (if (V c (Pipeline.arrRef spec2 1) (ix2 (GinSpec.row (GinSpec.tile20 cc ⟨k, hk⟩) r) 0)).toInt = (g.val : ℤ) then (1 : EReal) else 0) * hNext2 V c (GinSpec.row (GinSpec.tile20 cc ⟨k, hk⟩) r) j else 0

/-- The readout partial sums as contents of the output array: core cc's accumulator after its tenth tile. -/
def readoutArr2 (c : Dev nD) : S2x512x64.Idx → EReal := fun i => GinSpec.accUpTo (poolTile2 V c (i 0) (i 1) (i 2)) 9

theorem readoutArr2_apply (c : Dev nD) (cc : Fin 2) (g : Fin 512) (j : Fin 64) :
    readoutArr2 V c (ix3 cc g j) = GinSpec.accUpTo (poolTile2 V c cc g j) 9 := rfl

/-- The two cores' partial sums add up to the pooled sum of the layer's output over the graph's nodes. -/
theorem readoutArr2_pool (c : Dev nD) (g : Fin 512) (j : Fin 64) :
    (0 : EReal) + ∑ cc : Fin 2, readoutArr2 V c (ix3 cc g j)
      = GinSpec.pool (fun n => hNext2 V c n j) (fun n => V c (Pipeline.arrRef spec2 1) (ix2 n 0)) g := by
  rw [GinSpec.pool_eq_cores]
  rfl

/-- Tile k of core cc is a point of the grid. -/
theorem tile_lt (cc : Fin 2) (k : ℕ) (hk : k < 10) : cc.val * 10 + k < cfg2.N := by
  have hN : cfg2.N = 20 := N_2
  have := cc.isLt
  omega

/-- The contribution of the point that is tile k of core cc is that tile's. -/
theorem contrib2_tile (cc : Fin 2) (k : ℕ) (hk : k < 10) (g : Fin 512) (j : Fin 64) :
    contrib2 V c ⟨cc.val * 10 + k, tile_lt cc k hk⟩ (ix2 g j) = poolTile2 V c cc g j k := by
  rw [contrib2_apply]
  unfold poolTile2
  rw [dif_pos hk]
  rfl

/-- Where graph g, column j of point t's block sits in the array: in the core's slab. -/
theorem emb15 (t : Fin cfg2.N) (g : Fin 512) (j : Fin 64) :
    ((cfg2.win 15).blk t).view.emb (ix3 (0 : Fin 1) g j) = ix3 (⟨t.val / 10, by have hN : cfg2.N = 20 := N_2; have := t.isLt; omega⟩ : Fin 2) g j := by
  obtain ⟨-, -, -, -, -, -, e0, e1, e2⟩ := idx_facts2 t
  funext a; apply Fin.ext
  match a with
  | ⟨0, _⟩ => show win2_15.index t (0 : Fin 3) * 1 + 1 * 0 = t.val / 10; rw [e0]; omega
  | ⟨1, _⟩ => show win2_15.index t (1 : Fin 3) * 512 + 1 * g.val = g.val; rw [e1]; omega
  | ⟨2, _⟩ => show win2_15.index t (2 : Fin 3) * 64 + 1 * j.val = j.val; rw [e2]; omega

/-- An index of the array is in point t's block iff each coordinate is in the block's range on its axis. -/
theorem mem_blk15 (t : Fin cfg2.N) (i : S2x512x64.Idx) :
    i ∈ ((cfg2.win 15).blk t).view.set ↔ ∀ a : Fin 3, win2_15.index t a * S1x512x64.size a ≤ (i a).val ∧ (i a).val < win2_15.index t a * S1x512x64.size a + S1x512x64.size a := by
  show i ∈ ((View.whole (Pipeline.arrRef spec2 15)).slice (win2_15.rect t)).set ↔ _
  rw [View.set_slice_whole, Rect.mem_set_unit]
  exact Iff.rfl

/-- Every index is in the block of its core's last point. -/
theorem cover15 (i : S2x512x64.Idx) :
    ∃ t : Fin cfg2.N, (cfg2.win 15).flush t = true ∧ i ∈ ((cfg2.win 15).blk t).view.set := by
  have hN : cfg2.N = 20 := N_2
  have hi0 : (i 0).val < 2 := (i 0).isLt
  have hi1 : (i 1).val < 512 := (i 1).isLt
  have hi2 : (i 2).val < 64 := (i 2).isLt
  let t : Fin cfg2.N := ⟨(i 0).val * 10 + 9, by omega⟩
  obtain ⟨-, -, -, -, -, -, e0, e1, e2⟩ := idx_facts2 t
  have ht : t.val = (i 0).val * 10 + 9 := rfl
  refine ⟨t, (flush2_15 t).mpr (by rw [ht]; omega), ?_⟩
  rw [mem_blk15]
  intro a
  match a with
  | ⟨0, _⟩ => show win2_15.index t (0 : Fin 3) * 1 ≤ (i 0).val ∧ (i 0).val < win2_15.index t (0 : Fin 3) * 1 + 1; rw [e0, ht]; omega
  | ⟨1, _⟩ => show win2_15.index t (1 : Fin 3) * 512 ≤ (i 1).val ∧ (i 1).val < win2_15.index t (1 : Fin 3) * 512 + 512; rw [e1]; omega
  | ⟨2, _⟩ => show win2_15.index t (2 : Fin 3) * 64 ≤ (i 2).val ∧ (i 2).val < win2_15.index t (2 : Fin 3) * 64 + 64; rw [e2]; omega

variable (h15a : ∀ t : Fin cfg2.N, t.val % 10 = 0 → dat.after 15 t = k2_pay1 (contrib2 V c t) (k2_pay2 (F := Ideal)))
  (h15b : ∀ (t : Fin cfg2.N) (h : ¬ t.val % 10 = 0), dat.after 15 t = k2_pay1 (contrib2 V c t) (dat.after 15 ⟨t.val - 1, Nat.lt_of_le_of_lt (Nat.sub_le _ _) t.isLt⟩))

include h15a h15b

/-- THE ACCUMULATOR after tile k of core cc, at graph g and column j: the partial sum of the core's tiles up to k. -/
theorem after15_tile (cc : Fin 2) (g : Fin 512) (j : Fin 64) :
    ∀ (k : ℕ) (hk : k < 10), dat.after 15 ⟨cc.val * 10 + k, tile_lt cc k hk⟩ (ix3 0 g j) = GinSpec.accUpTo (poolTile2 V c cc g j) k
  | 0, hk => by
    have h0 : (⟨cc.val * 10 + 0, tile_lt cc 0 hk⟩ : Fin cfg2.N).val % 10 = 0 := by show (cc.val * 10 + 0) % 10 = 0; omega
    rw [h15a _ h0, pay1_apply, pay2_apply, contrib2_tile V c cc 0 hk]
    rfl
  | k + 1, hk => by
    have hs : ¬ (⟨cc.val * 10 + (k + 1), tile_lt cc (k + 1) hk⟩ : Fin cfg2.N).val % 10 = 0 := by show ¬ (cc.val * 10 + (k + 1)) % 10 = 0; omega
    rw [h15b _ hs, pay1_apply, contrib2_tile V c cc (k + 1) hk]
    have hp : (⟨(⟨cc.val * 10 + (k + 1), tile_lt cc (k + 1) hk⟩ : Fin cfg2.N).val - 1, Nat.lt_of_le_of_lt (Nat.sub_le _ _) (⟨cc.val * 10 + (k + 1), tile_lt cc (k + 1) hk⟩ : Fin cfg2.N).isLt⟩ : Fin cfg2.N)
        = ⟨cc.val * 10 + k, tile_lt cc k (Nat.lt_of_succ_lt hk)⟩ := Fin.ext (by show cc.val * 10 + (k + 1) - 1 = cc.val * 10 + k; omega)
    rw [hp, after15_tile cc g j k (Nat.lt_of_succ_lt hk)]
    rfl

/-- The same at any point named by its core and tile. -/
theorem after15_point (t : Fin cfg2.N) (cc : Fin 2) (k : ℕ) (hk : k < 10) (ht : t.val = cc.val * 10 + k) (g : Fin 512) (j : Fin 64) :
    dat.after 15 t (ix3 0 g j) = GinSpec.accUpTo (poolTile2 V c cc g j) k := by
  obtain rfl : t = ⟨cc.val * 10 + k, tile_lt cc k hk⟩ := Fin.ext ht
  exact after15_tile V c dat h15a h15b cc g j k hk

/-- WHAT A FLUSHING POINT WRITES BACK (the last tile of its core) is its core's slab of the readout partial sums. -/
theorem flushed15_eq (t : Fin cfg2.N) (hf : (cfg2.win 15).flush t = true) :
    dat.flushed 15 t = ((cfg2.win 15).blk t).view.read (Elt Ideal) (readoutArr2 V c) := by
  have hN : cfg2.N = 20 := N_2
  have h9 : t.val % 10 = 9 := (flush2_15 t).mp hf
  have htl := t.isLt
  funext y
  obtain ⟨u, g, j, rfl⟩ : ∃ (u : Fin 1) (g : Fin 512) (j : Fin 64), y = ix3 u g j := ⟨y 0, y 1, y 2, eq_ix3 y⟩
  obtain rfl : u = 0 := Subsingleton.elim _ _
  refine Eq.trans (b := dat.after 15 t (ix3 0 g j)) rfl ?_
  rw [View.read_apply]
  refine Eq.trans ?_ (b := readoutArr2 V c (((cfg2.win 15).blk t).view.emb (ix3 (0 : Fin 1) g j))) rfl
  rw [emb15, readoutArr2_apply]
  exact after15_point V c dat h15a h15b t ⟨t.val / 10, by omega⟩ 9 (by omega) (by show t.val = t.val / 10 * 10 + 9; omega) g j

/-- THE ARRAY of window 15 after the region: each core's accumulator after its tenth tile. -/
theorem arr15 : dat.arrAt 15 cfg2.N = readoutArr2 V c :=
  dat.arrAt_eq_of_cover 15 (readoutArr2 V c) (fun t hf => flushed15_eq V c dat h15a h15b t hf) (cover15)

/-- The same at a core, a graph and a column, the partial sums written out. -/
theorem arr15_apply (cc : Fin 2) (g : Fin 512) (j : Fin 64) :
    dat.arrAt 15 cfg2.N (ix3 cc g j)
      = GinSpec.accUpTo (fun k => if hk : k < 10 then ∑ r : Fin 5000, (if (V c (Pipeline.arrRef spec2 1) (ix2 (GinSpec.row (GinSpec.tile20 cc ⟨k, hk⟩) r) 0)).toInt = (g.val : ℤ) then (1 : EReal) else 0) * hNext2 V c (GinSpec.row (GinSpec.tile20 cc ⟨k, hk⟩) r) j else 0) 9 :=
  congrFun (arr15 V c dat h15a h15b) (ix3 cc g j)

/-- The two cores' partial sums add up to the pooled sum of the layer's output over the graph's nodes. -/
theorem arr15_pool (g : Fin 512) (j : Fin 64) :
    (0 : EReal) + Finset.sum (M := EReal) (Finset.univ : Finset (Fin 2)) (fun cc => dat.arrAt 15 cfg2.N (ix3 cc g j))
      = GinSpec.pool (fun n => hNext2 V c n j) (fun n => V c (Pipeline.arrRef spec2 1) (ix2 n 0)) g := by
  rw [arr15 V c dat h15a h15b]
  exact readoutArr2_pool V c g j

end Window15

end Cert.KernelIdeal.Val2

end
-- ==== Proof.KIVal2Dat.lean ====
import proofs.«402532_j352187319172_1_alg».proof.Proof.KIVal2R
import proofs.«402532_j352187319172_1_alg».proof.Proof.KIReg2

/-!
# Region 2: its two output arrays, for the region's own proof data

The frame's proof data of region 1 leaves, in window 14's buffer, the layer's output block and, in window 15's, the
accumulation from point to point; so its two output arrays after the region are the layer's output and the cores' pooled
partial sums.
-/

set_option maxRecDepth 16384

noncomputable section

namespace Cert.KernelIdeal.Val2

open Cert.KernelIdeal Cert.KernelIdeal.Gen Idealize.ShloMosaic Idealize.ShloMosaic.ValueIdx Idealize.ShloMosaic.TcCoe
open Idealize.SL Idealize.SL.Sem
open Idealize.ShloMosaic.Rounds
open Idealize.ShloMosaic.Pipeline (Dat)
open scoped BigOperators

variable (V : (c : Dev nD) → (b : Ref sig .tc) → Buf (Elt Ideal) ((c : Thread nD τ).loc b))

/-- The proof data's window 14 buffer after a point is the stored block. -/
theorem dat2_after14 (c : Dev nD) (t : Fin cfg2.N) : (dat2 V c).after 14 t = stored14 V c t :=
  after2_14 V c t

/-- The proof data's window 15 buffer after the first point of a core's run: the contribution over zeros. -/
theorem dat2_after15_first (c : Dev nD) (t : Fin cfg2.N) (h : t.val % 10 = 0) :
    (dat2 V c).after 15 t = k2_pay1 (Val2.contrib2 V c t) (k2_pay2 (F := Ideal)) :=
  (after2_15 V c t).trans (outsAt2_first V c t h)

/-- The proof data's window 15 buffer after any other point: the contribution over what the point before left. -/
theorem dat2_after15_next (c : Dev nD) (t : Fin cfg2.N) (h : ¬ t.val % 10 = 0) :
    (dat2 V c).after 15 t
      = k2_pay1 (Val2.contrib2 V c t) ((dat2 V c).after 15 ⟨t.val - 1, Nat.lt_of_le_of_lt (Nat.sub_le _ _) t.isLt⟩) :=
  (after2_15 V c t).trans ((outsAt2_next V c t h).trans
    (congrArg (k2_pay1 (Val2.contrib2 V c t)) (after2_15 V c ⟨t.val - 1, Nat.lt_of_le_of_lt (Nat.sub_le _ _) t.isLt⟩).symm))

/-- Window 14's array after the region: the layer's output. -/
theorem arr14_dat2 (c : Dev nD) : (dat2 V c).arrAt 14 cfg2.N = hNextArr2 V c :=
  arr14 V c (dat2 V c) (dat2_after14 V c)

/-- The same at a node and a column. -/
theorem arr14_dat2_apply (c : Dev nD) (n : Fin 100000) (j : Fin 64) : (dat2 V c).arrAt 14 cfg2.N (ix2 n j) = hNext2 V c n j :=
  congrFun (arr14_dat2 V c) (ix2 n j)

/-- Window 15's array after the region: each core's pooled partial sum after its tenth tile. -/
theorem arr15_dat2 (c : Dev nD) : (dat2 V c).arrAt 15 cfg2.N = readoutArr2 V c :=
  arr15 V c (dat2 V c) (dat2_after15_first V c) (dat2_after15_next V c)

/-- The same at a core, a graph and a column. -/
theorem arr15_dat2_apply (c : Dev nD) (cc : Fin 2) (g : Fin 512) (j : Fin 64) :
    (dat2 V c).arrAt 15 cfg2.N (ix3 cc g j) = GinSpec.accUpTo (poolTile2 V c cc g j) 9 :=
  congrFun (arr15_dat2 V c) (ix3 cc g j)

/-- The two cores' partial sums add up to the pooled sum of the layer's output over the graph's nodes. -/
theorem arr15_dat2_pool (c : Dev nD) (g : Fin 512) (j : Fin 64) :
    (0 : EReal) + Finset.sum (M := EReal) (Finset.univ : Finset (Fin 2)) (fun cc => (dat2 V c).arrAt 15 cfg2.N (ix3 cc g j))
      = GinSpec.pool (fun n => hNext2 V c n j) (fun n => V c (Pipeline.arrRef spec2 1) (ix2 n 0)) g :=
  arr15_pool V c (dat2 V c) (dat2_after15_first V c) (dat2_after15_next V c) g j

end Cert.KernelIdeal.Val2

end
-- ==== Proof.KIVal3Pay.lean ====
import proofs.«402532_j352187319172_1_alg».proof.Proof.Gen.KernelIdeal.Skeleton
import proofs.«402532_j352187319172_1_alg».proof.Proof.Spec
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

namespace Cert.KernelIdeal.Val3

open Cert.KernelIdeal Cert.KernelIdeal.Gen Idealize.ShloMosaic Idealize.ShloMosaic.ValueIdx
open scoped BigOperators

/-! ## The two contractions of the layer, read at an index

The feature contraction (rows by a 64 x 64 weight: the left operand's axis 1 against the right operand's axis 0) and the
pooling contraction (the one-hot matrix against the activations: axis 0 of both). -/

/-- Feature contraction: the left operand's row coordinate is the output's row. -/
theorem lhs_feat_0 (i : S5000x64.Idx) (q : dot_S5000x64_S64x64_S5000x64_1_0_0_1_n_n.contr.Idx) :
    (dot_S5000x64_S64x64_S5000x64_1_0_0_1_n_n.lhsIdx i q 0).val = (i 0).val := by
  unfold DotDims.lhsIdx
  rw [dif_neg (show ¬(0 : Fin S5000x64.rank) ∈ dot_S5000x64_S64x64_S5000x64_1_0_0_1_n_n.lhsBatch by decide), dif_pos (show (0 : Fin S5000x64.rank) ∈ dot_S5000x64_S64x64_S5000x64_1_0_0_1_n_n.lhsNonContracting by decide)]
  rfl
/-- Feature contraction: the left operand's column coordinate is the contracted one. -/
theorem lhs_feat_1 (i : S5000x64.Idx) (q : dot_S5000x64_S64x64_S5000x64_1_0_0_1_n_n.contr.Idx) :
    (dot_S5000x64_S64x64_S5000x64_1_0_0_1_n_n.lhsIdx i q 1).val = (q ⟨0, by decide⟩).val :=
  dot_S5000x64_S64x64_S5000x64_1_0_0_1_n_n.lhsIdx_val_of_single rfl i q
/-- Feature contraction: the right operand's row coordinate is the contracted one. -/
theorem rhs_feat_0 (i : S5000x64.Idx) (q : dot_S5000x64_S64x64_S5000x64_1_0_0_1_n_n.contr.Idx) :
    (dot_S5000x64_S64x64_S5000x64_1_0_0_1_n_n.rhsIdx i q 0).val = (q ⟨0, by decide⟩).val :=
  dot_S5000x64_S64x64_S5000x64_1_0_0_1_n_n.rhsIdx_val_of_single rfl i q
/-- Feature contraction: the right operand's column coordinate is the output's column. -/
theorem rhs_feat_1 (i : S5000x64.Idx) (q : dot_S5000x64_S64x64_S5000x64_1_0_0_1_n_n.contr.Idx) :
    (dot_S5000x64_S64x64_S5000x64_1_0_0_1_n_n.rhsIdx i q 1).val = (i 1).val := by
  unfold DotDims.rhsIdx
  rw [dif_neg (show ¬(1 : Fin S64x64.rank) ∈ dot_S5000x64_S64x64_S5000x64_1_0_0_1_n_n.rhsBatch by decide), dif_pos (show (1 : Fin S64x64.rank) ∈ dot_S5000x64_S64x64_S5000x64_1_0_0_1_n_n.rhsNonContracting by decide)]
  rfl

/-- The feature contraction into the zero accumulator, at row r and column k: the sum over the 64 features. -/
theorem matmul_feat_apply (x : FVec Ideal S5000x64 .bf16) (y : FVec Ideal S64x64 .bf16) (r : Fin 5000) (k : Fin 64) :
    matmul dot_S5000x64_S64x64_S5000x64_1_0_0_1_n_n none x y (constant (F := Ideal) S5000x64 .f32 0x00000000#32) (ix2 r k)
      = ∑ d : Fin 64, x (ix2 r d) * y (ix2 d k) := by
  simp only [matmul]
  rw [Ideal.matmul_constant_zero_apply, ← Equiv.sum_comp (contrEquiv1 dot_S5000x64_S64x64_S5000x64_1_0_0_1_n_n 64 rfl rfl).symm]
  refine Finset.sum_congr rfl fun d _ => ?_
  have hk := contrEquiv1_symm_val dot_S5000x64_S64x64_S5000x64_1_0_0_1_n_n 64 rfl rfl d
  have el : dot_S5000x64_S64x64_S5000x64_1_0_0_1_n_n.lhsIdx (ix2 r k) ((contrEquiv1 dot_S5000x64_S64x64_S5000x64_1_0_0_1_n_n 64 rfl rfl).symm d) = ix2 r d := funext fun a => Fin.ext (by
    match a with
    | ⟨0, _⟩ => exact lhs_feat_0 _ _
    | ⟨1, _⟩ => exact (lhs_feat_1 _ _).trans hk)
  have er : dot_S5000x64_S64x64_S5000x64_1_0_0_1_n_n.rhsIdx (ix2 r k) ((contrEquiv1 dot_S5000x64_S64x64_S5000x64_1_0_0_1_n_n 64 rfl rfl).symm d) = ix2 d k := funext fun a => Fin.ext (by
    match a with
    | ⟨0, _⟩ => exact (rhs_feat_0 _ _).trans hk
    | ⟨1, _⟩ => exact rhs_feat_1 _ _)
  rw [el, er]

/-- Pooling contraction: the left operand's row coordinate is the contracted one. -/
theorem lhs_pool_0 (i : S512x64.Idx) (q : dot_S5000x512_S5000x64_S512x64_0_0_1_1_n_n.contr.Idx) :
    (dot_S5000x512_S5000x64_S512x64_0_0_1_1_n_n.lhsIdx i q 0).val = (q ⟨0, by decide⟩).val :=
  dot_S5000x512_S5000x64_S512x64_0_0_1_1_n_n.lhsIdx_val_of_single rfl i q
/-- Pooling contraction: the left operand's column coordinate is the output's row. -/
theorem lhs_pool_1 (i : S512x64.Idx) (q : dot_S5000x512_S5000x64_S512x64_0_0_1_1_n_n.contr.Idx) :
    (dot_S5000x512_S5000x64_S512x64_0_0_1_1_n_n.lhsIdx i q 1).val = (i 0).val := by
  unfold DotDims.lhsIdx
  rw [dif_neg (show ¬(1 : Fin S5000x512.rank) ∈ dot_S5000x512_S5000x64_S512x64_0_0_1_1_n_n.lhsBatch by decide), dif_pos (show (1 : Fin S5000x512.rank) ∈ dot_S5000x512_S5000x64_S512x64_0_0_1_1_n_n.lhsNonContracting by decide)]
  rfl
/-- Pooling contraction: the right operand's row coordinate is the contracted one. -/
theorem rhs_pool_0 (i : S512x64.Idx) (q : dot_S5000x512_S5000x64_S512x64_0_0_1_1_n_n.contr.Idx) :
    (dot_S5000x512_S5000x64_S512x64_0_0_1_1_n_n.rhsIdx i q 0).val = (q ⟨0, by decide⟩).val :=
  dot_S5000x512_S5000x64_S512x64_0_0_1_1_n_n.rhsIdx_val_of_single rfl i q
/-- Pooling contraction: the right operand's column coordinate is the output's column. -/
theorem rhs_pool_1 (i : S512x64.Idx) (q : dot_S5000x512_S5000x64_S512x64_0_0_1_1_n_n.contr.Idx) :
    (dot_S5000x512_S5000x64_S512x64_0_0_1_1_n_n.rhsIdx i q 1).val = (i 1).val := by
  unfold DotDims.rhsIdx
  rw [dif_neg (show ¬(1 : Fin S5000x64.rank) ∈ dot_S5000x512_S5000x64_S512x64_0_0_1_1_n_n.rhsBatch by decide), dif_pos (show (1 : Fin S5000x64.rank) ∈ dot_S5000x512_S5000x64_S512x64_0_0_1_1_n_n.rhsNonContracting by decide)]
  rfl

/-- The pooling contraction into the zero accumulator, at graph g and column j: the sum over the block's 5000 rows. -/
theorem matmul_pool_apply (x : FVec Ideal S5000x512 .bf16) (y : FVec Ideal S5000x64 .bf16) (g : Fin 512) (j : Fin 64) :
    matmul dot_S5000x512_S5000x64_S512x64_0_0_1_1_n_n none x y (constant (F := Ideal) S512x64 .f32 0x00000000#32) (ix2 g j)
      = ∑ r : Fin 5000, x (ix2 r g) * y (ix2 r j) := by
  simp only [matmul]
  rw [Ideal.matmul_constant_zero_apply, ← Equiv.sum_comp (contrEquiv1 dot_S5000x512_S5000x64_S512x64_0_0_1_1_n_n 5000 rfl rfl).symm]
  refine Finset.sum_congr rfl fun d _ => ?_
  have hk := contrEquiv1_symm_val dot_S5000x512_S5000x64_S512x64_0_0_1_1_n_n 5000 rfl rfl d
  have el : dot_S5000x512_S5000x64_S512x64_0_0_1_1_n_n.lhsIdx (ix2 g j) ((contrEquiv1 dot_S5000x512_S5000x64_S512x64_0_0_1_1_n_n 5000 rfl rfl).symm d) = ix2 d g := funext fun a => Fin.ext (by
    match a with
    | ⟨0, _⟩ => exact (lhs_pool_0 _ _).trans hk
    | ⟨1, _⟩ => exact lhs_pool_1 _ _)
  have er : dot_S5000x512_S5000x64_S512x64_0_0_1_1_n_n.rhsIdx (ix2 g j) ((contrEquiv1 dot_S5000x512_S5000x64_S512x64_0_0_1_1_n_n 5000 rfl rfl).symm d) = ix2 d j := funext fun a => Fin.ext (by
    match a with
    | ⟨0, _⟩ => exact (rhs_pool_0 _ _).trans hk
    | ⟨1, _⟩ => exact rhs_pool_1 _ _)
  rw [el, er]

/-! ## Small readings at an index -/

/-- A reciprocal square root at an index is that of the element. -/
theorem rsqrt_apply {s : Shape} {φ : FTy} (a : FVec Ideal s φ) (i : s.Idx) : rsqrt a i = Ideal.rsqrt (a i) := rfl

/-- A scalar constant at the ideal values is the extended real its word encodes. -/
theorem scalar_ofBits_f32 (b : BitVec 32) : (Scalar.ofBits (F := Ideal) .f32 b) = Ideal.ofBits .f32 b := rfl

/-- A column [a, 1] broadcast over b columns reads, at (p, c), the column's entry p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A 32-bit word that encodes a number below 512 reads, signed, that number. -/
theorem toInt_ofNat_lt (g : Fin 512) : (BitVec.ofNat 32 g.val).toInt = (g.val : ℤ) := by
  have hg : g.val < 512 := g.isLt
  rw [BitVec.toInt_eq_toNat_cond, BitVec.toNat_ofNat]
  omega

/-- The one-hot entry: a 32-bit id compared with a column number below 512, the bit widened and converted, is 1 where the
    signed id is the column number and 0 elsewhere. -/
theorem onehot_word (b : BitVec 32) (g : Fin 512) :
    FloatOps.sitofp (F := Ideal) .f32 ((IntOp.cmpi .eq b (BitVec.ofNat 32 g.val)).setWidth 32)
      = if b.toInt = (g.val : ℤ) then (1 : EReal) else 0 := by
  have hG := toInt_ofNat_lt g
  show (((((BitVec.ofBool (b == BitVec.ofNat 32 g.val)).setWidth 32).toInt : ℤ) : ℝ) : EReal) = _
  by_cases h : b = BitVec.ofNat 32 g.val
  · have hb : (b == BitVec.ofNat 32 g.val) = true := by simpa using h
    have h1 : ((BitVec.ofBool true).setWidth 32).toInt = 1 := by decide
    rw [hb, if_pos (h ▸ hG), h1]
    simp
  · have hb : (b == BitVec.ofNat 32 g.val) = false := by simpa using h
    have hne : ¬ b.toInt = (g.val : ℤ) := fun e => h (BitVec.toInt_inj.mp (e.trans hG.symm))
    have h0 : ((BitVec.ofBool false).setWidth 32).toInt = 0 := by decide
    rw [hb, if_neg hne, h0]
    simp

/-! ## The payloads at an index -/

/-- The hidden activation the first half of the body computes, at row r and hidden unit k. -/
theorem pay3_apply (z : Vec Ideal S5000x64 .f32) (W1 : Vec Ideal S64x64 .f32) (b1 ga va ma bea : Vec Ideal S1x64 .f32)
    (r : Fin 5000) (k : Fin 64) :
    k3_pay3 z W1 b1 ga va ma bea (ix2 r k)
      = GinSpec.hidden (fun d => z (ix2 r d)) (fun d k => W1 (ix2 d k)) (fun k => b1 (ix2 0 k)) (fun k => ga (ix2 0 k))
          (fun k => bea (ix2 0 k)) (fun k => ma (ix2 0 k)) (fun k => va (ix2 0 k)) k := by
  unfold k3_pay3
  simp only [maximumf_apply, addf_apply, mulf_apply, subf_apply, broadcast_apply, shapeCast_self, broadcastTo_1b_ab_apply,
    matmul_feat_apply, truncf_apply, rsqrt_apply, scalar_ofBits_f32, Ideal.ofBits_zero_f32]
  rfl

/-- The layer's output block at row r and column j: the MLP of the row. -/
theorem pay5_apply (z : Vec Ideal S5000x64 .f32) (W1 : Vec Ideal S64x64 .f32) (b1 ga va ma bea : Vec Ideal S1x64 .f32)
    (W2 : Vec Ideal S64x64 .f32) (b2 gb vb mb beb : Vec Ideal S1x64 .f32) (r : Fin 5000) (j : Fin 64) :
    k3_pay5 (k3_pay3 z W1 b1 ga va ma bea) (k3_pay4 W2) b2 gb vb mb beb (ix2 r j)
      = GinSpec.mlp (fun d => z (ix2 r d)) (fun d k => W1 (ix2 d k)) (fun k => b1 (ix2 0 k)) (fun k => ga (ix2 0 k))
          (fun k => bea (ix2 0 k)) (fun k => ma (ix2 0 k)) (fun k => va (ix2 0 k)) (fun k j => W2 (ix2 k j))
          (fun j => b2 (ix2 0 j)) (fun j => gb (ix2 0 j)) (fun j => beb (ix2 0 j)) (fun j => mb (ix2 0 j))
          (fun j => vb (ix2 0 j)) j := by
  unfold k3_pay5 k3_pay4
  simp only [maximumf_apply, addf_apply, mulf_apply, subf_apply, broadcast_apply, shapeCast_self, broadcastTo_1b_ab_apply,
    matmul_feat_apply, truncf_apply, rsqrt_apply, scalar_ofBits_f32, Ideal.ofBits_zero_f32, pay3_apply]
  rfl

/-- The block's contribution to the pooled readout at graph g and column j: the sum of the output rows whose graph id is g. -/
theorem pay6_apply (h : FVec Ideal S5000x64 .f32) (W2 : FVec Ideal S64x64 .f32) (b2 gb vb mb beb : Vec Ideal S1x64 .f32)
    (batch : Vec Ideal S5000x1 .i32) (g : Fin 512) (j : Fin 64) :
    k3_pay6 h W2 b2 gb vb mb beb batch (ix2 g j)
      = ∑ r : Fin 5000, (if (batch (ix2 r 0)).toInt = (g.val : ℤ) then (1 : EReal) else 0) * k3_pay5 h W2 b2 gb vb mb beb (ix2 r j) := by
  unfold k3_pay6
  simp only [matmul_pool_apply, truncf_apply]
  refine Finset.sum_congr rfl fun r _ => ?_
  congr 1
  show FloatOps.sitofp (F := Ideal) .f32 ((IntOp.cmpi .eq (broadcastTo S5000x512 (shapeCast S5000x1 batch shapeCasts_S5000x1_S5000x1) broadcasts_S5000x1_S5000x512 (ix2 r g)) (iota .tc S5000x512 32 [1] iota_S5000x512_d1_w32 (ix2 r g))).setWidth 32) = _
  rw [broadcastTo_a1_ab_apply, shapeCast_self, iota_single_apply]
  exact onehot_word _ g

/-- The accumulation step at graph g and column j: what was there plus the block's contribution. -/
theorem pay1_apply (v : FVec Ideal S512x64 .f32) (acc : Vec Ideal S1x512x64 .f32) (g : Fin 512) (j : Fin 64) :
    k3_pay1 v acc (ix3 0 g j) = acc (ix3 0 g j) + v (ix2 g j) := by
  unfold k3_pay1
  simp only [shapeCast_ab_1ab_apply, addf_apply, shapeCast_1ab_ab_apply]

/-- The reset value is zero everywhere. -/
theorem pay2_apply (g : Fin 512) (j : Fin 64) : (k3_pay2 (F := Ideal)) (ix3 0 g j) = 0 := by
  unfold k3_pay2
  simp only [shapeCast_ab_1ab_apply, broadcast_apply, scalar_ofBits_f32, Ideal.ofBits_zero_f32]

end Cert.KernelIdeal.Val3

end
-- ==== Proof.KIVal3H.lean ====
import proofs.«402532_j352187319172_1_alg».proof.Proof.KIVal3Pay
import proofs.«402532_j352187319172_1_alg».proof.Proof.KIReg3
import proofs.«402532_j352187319172_1_alg».proof.Proof.Gen.KernelIdeal.Launch
import proofs.«402532_j352187319172_1_alg».proof.Proof.Gen.KernelIdeal.Points
import Idealize.ShloMosaic.Lib.Pipeline.Value

/-!
# Region 3, window 14: the layer's output array

The region's input blocks read at coordinates, the block a point stores as rows of the layer's output, and the output array
after the region as one function of the region's input arrays, node by node.
-/

set_option maxRecDepth 16384

noncomputable section

namespace Cert.KernelIdeal.Val3

open Cert.KernelIdeal Cert.KernelIdeal.Gen Idealize.ShloMosaic Idealize.ShloMosaic.ValueIdx Idealize.ShloMosaic.TcCoe
open Idealize.SL Idealize.SL.Sem
open Idealize.ShloMosaic.Rounds
open Idealize.ShloMosaic.Pipeline (Dat)
open scoped BigOperators

variable (V : (c : Dev nD) → (b : Ref sig .tc) → Buf (Elt Ideal) ((c : Thread nD τ).loc b))

/-! ## The region's outputs as mathematics -/

/-- The layer's output at node n and column j: the MLP of row n of the region's input, with the region's twelve parameter
    arrays. -/
def hNext3 (c : Dev nD) (n : Fin 100000) (j : Fin 64) : EReal :=
  GinSpec.mlp (fun d => V c (Pipeline.arrRef spec3 0) (ix2 n d)) (fun d k => V c (Pipeline.arrRef spec3 2) (ix2 d k))
    (fun k => V c (Pipeline.arrRef spec3 3) (ix2 0 k)) (fun k => V c (Pipeline.arrRef spec3 4) (ix2 0 k))
    (fun k => V c (Pipeline.arrRef spec3 5) (ix2 0 k)) (fun k => V c (Pipeline.arrRef spec3 6) (ix2 0 k))
    (fun k => V c (Pipeline.arrRef spec3 7) (ix2 0 k)) (fun k j => V c (Pipeline.arrRef spec3 8) (ix2 k j))
    (fun j => V c (Pipeline.arrRef spec3 9) (ix2 0 j)) (fun j => V c (Pipeline.arrRef spec3 10) (ix2 0 j))
    (fun j => V c (Pipeline.arrRef spec3 11) (ix2 0 j)) (fun j => V c (Pipeline.arrRef spec3 12) (ix2 0 j))
    (fun j => V c (Pipeline.arrRef spec3 13) (ix2 0 j)) j

/-- The same as contents of the output array. -/
def hNextArr3 (c : Dev nD) : S100000x64.Idx → EReal := fun i => hNext3 V c (i 0) (i 1)

theorem hNextArr3_apply (c : Dev nD) (n : Fin 100000) (j : Fin 64) : hNextArr3 V c (ix2 n j) = hNext3 V c n j := rfl

/-! ## The index maps, decided once over the grid -/

/-- The moving windows: the row blocks follow the point, the readout block follows the core. -/
theorem idx_facts3 : ∀ t : Fin cfg3.N,
    win3_0.index t (0 : Fin 2) = t.val
    ∧ win3_0.index t (1 : Fin 2) = 0
    ∧ win3_1.index t (0 : Fin 2) = t.val
    ∧ win3_1.index t (1 : Fin 2) = 0
    ∧ win3_14.index t (0 : Fin 2) = t.val
    ∧ win3_14.index t (1 : Fin 2) = 0
    ∧ win3_15.index t (0 : Fin 3) = t.val / 10
    ∧ win3_15.index t (1 : Fin 3) = 0
    ∧ win3_15.index t (2 : Fin 3) = 0 :=
  (by decide +kernel : ∀ t : Fin grid3.N, _)

/-! The parameter windows stay at block zero. -/
theorem idx_zero3_2 : ∀ t : Fin cfg3.N, win3_2.index t (0 : Fin 2) = 0 ∧ win3_2.index t (1 : Fin 2) = 0 :=
  (by decide +kernel : ∀ t : Fin grid3.N, _)
theorem idx_zero3_3 : ∀ t : Fin cfg3.N, win3_3.index t (0 : Fin 2) = 0 ∧ win3_3.index t (1 : Fin 2) = 0 :=
  (by decide +kernel : ∀ t : Fin grid3.N, _)
theorem idx_zero3_4 : ∀ t : Fin cfg3.N, win3_4.index t (0 : Fin 2) = 0 ∧ win3_4.index t (1 : Fin 2) = 0 :=
  (by decide +kernel : ∀ t : Fin grid3.N, _)
theorem idx_zero3_5 : ∀ t : Fin cfg3.N, win3_5.index t (0 : Fin 2) = 0 ∧ win3_5.index t (1 : Fin 2) = 0 :=
  (by decide +kernel : ∀ t : Fin grid3.N, _)
theorem idx_zero3_6 : ∀ t : Fin cfg3.N, win3_6.index t (0 : Fin 2) = 0 ∧ win3_6.index t (1 : Fin 2) = 0 :=
  (by decide +kernel : ∀ t : Fin grid3.N, _)
theorem idx_zero3_7 : ∀ t : Fin cfg3.N, win3_7.index t (0 : Fin 2) = 0 ∧ win3_7.index t (1 : Fin 2) = 0 :=
  (by decide +kernel : ∀ t : Fin grid3.N, _)
theorem idx_zero3_8 : ∀ t : Fin cfg3.N, win3_8.index t (0 : Fin 2) = 0 ∧ win3_8.index t (1 : Fin 2) = 0 :=
  (by decide +kernel : ∀ t : Fin grid3.N, _)
theorem idx_zero3_9 : ∀ t : Fin cfg3.N, win3_9.index t (0 : Fin 2) = 0 ∧ win3_9.index t (1 : Fin 2) = 0 :=
  (by decide +kernel : ∀ t : Fin grid3.N, _)
theorem idx_zero3_10 : ∀ t : Fin cfg3.N, win3_10.index t (0 : Fin 2) = 0 ∧ win3_10.index t (1 : Fin 2) = 0 :=
  (by decide +kernel : ∀ t : Fin grid3.N, _)
theorem idx_zero3_11 : ∀ t : Fin cfg3.N, win3_11.index t (0 : Fin 2) = 0 ∧ win3_11.index t (1 : Fin 2) = 0 :=
  (by decide +kernel : ∀ t : Fin grid3.N, _)
theorem idx_zero3_12 : ∀ t : Fin cfg3.N, win3_12.index t (0 : Fin 2) = 0 ∧ win3_12.index t (1 : Fin 2) = 0 :=
  (by decide +kernel : ∀ t : Fin grid3.N, _)
theorem idx_zero3_13 : ∀ t : Fin cfg3.N, win3_13.index t (0 : Fin 2) = 0 ∧ win3_13.index t (1 : Fin 2) = 0 :=
  (by decide +kernel : ∀ t : Fin grid3.N, _)

/-- A row of tile t is a row of the array. -/
theorem row_lt (t : Fin cfg3.N) (r : Fin 5000) : t.val * 5000 + r.val < 100000 := by
  have hN : cfg3.N = 20 := N_3
  have := t.isLt
  have := r.isLt
  omega

/-! ## The input blocks read at coordinates -/

/-- The input block at point t, row r: row t * 5000 + r of the input array. -/
theorem iblk_z (c : Dev nD) (t : Fin cfg3.N) (r : Fin 5000) (d : Fin 64) :
    iblk3 V c 0 t (ix2 r d) = V c (Pipeline.arrRef spec3 0) (ix2 ⟨t.val * 5000 + r.val, row_lt t r⟩ d) := by
  obtain ⟨e0, e1, -⟩ := idx_facts3 t
  unfold iblk3
  rw [View.read_apply]
  show V c (Pipeline.arrRef spec3 0) (((cfg3.win 0).blk t).view.emb (ix2 r d)) = _
  congr 1
  funext a; apply Fin.ext
  match a with
  | ⟨0, _⟩ => show win3_0.index t (0 : Fin 2) * 5000 + 1 * r.val = t.val * 5000 + r.val; rw [e0]; omega
  | ⟨1, _⟩ => show win3_0.index t (1 : Fin 2) * 64 + 1 * d.val = d.val; rw [e1]; omega

/-- The graph ids' block at point t, row r: the id of node t * 5000 + r. -/
theorem iblk_gid (c : Dev nD) (t : Fin cfg3.N) (r : Fin 5000) :
    iblk3 V c 1 t (ix2 r 0) = V c (Pipeline.arrRef spec3 1) (ix2 ⟨t.val * 5000 + r.val, row_lt t r⟩ 0) := by
  obtain ⟨-, -, e0, e1, -⟩ := idx_facts3 t
  unfold iblk3
  rw [View.read_apply]
  show V c (Pipeline.arrRef spec3 1) (((cfg3.win 1).blk t).view.emb (ix2 r 0)) = _
  congr 1
  funext a; apply Fin.ext
  match a with
  | ⟨0, _⟩ => show win3_1.index t (0 : Fin 2) * 5000 + 1 * r.val = t.val * 5000 + r.val; rw [e0]; omega
  | ⟨1, _⟩ => show win3_1.index t (1 : Fin 2) * 1 + 1 * 0 = 0; rw [e1]

/-- Window 2's block is its whole array at every point. -/
theorem iblk_par_2 (c : Dev nD) (t : Fin cfg3.N) : (iblk3 V c 2 t : S64x64.Idx → EReal) = V c (Pipeline.arrRef spec3 2) := by
  funext y
  obtain ⟨e0, e1⟩ := idx_zero3_2 t
  unfold iblk3
  rw [View.read_apply]
  show V c (Pipeline.arrRef spec3 2) (((cfg3.win 2).blk t).view.emb y) = V c (Pipeline.arrRef spec3 2) y
  congr 1
  funext a; apply Fin.ext
  match a with
  | ⟨0, _⟩ => show win3_2.index t (0 : Fin 2) * 64 + 1 * (y 0).val = (y 0).val; rw [e0]; omega
  | ⟨1, _⟩ => show win3_2.index t (1 : Fin 2) * 64 + 1 * (y 1).val = (y 1).val; rw [e1]; omega

/-- Window 3's block is its whole array at every point. -/
theorem iblk_par_3 (c : Dev nD) (t : Fin cfg3.N) : (iblk3 V c 3 t : S1x64.Idx → EReal) = V c (Pipeline.arrRef spec3 3) := by
  funext y
  obtain ⟨e0, e1⟩ := idx_zero3_3 t
  unfold iblk3
  rw [View.read_apply]
  show V c (Pipeline.arrRef spec3 3) (((cfg3.win 3).blk t).view.emb y) = V c (Pipeline.arrRef spec3 3) y
  congr 1
  funext a; apply Fin.ext
  match a with
  | ⟨0, _⟩ => show win3_3.index t (0 : Fin 2) * 1 + 1 * (y 0).val = (y 0).val; rw [e0]; omega
  | ⟨1, _⟩ => show win3_3.index t (1 : Fin 2) * 64 + 1 * (y 1).val = (y 1).val; rw [e1]; omega

/-- Window 4's block is its whole array at every point. -/
theorem iblk_par_4 (c : Dev nD) (t : Fin cfg3.N) : (iblk3 V c 4 t : S1x64.Idx → EReal) = V c (Pipeline.arrRef spec3 4) := by
  funext y
  obtain ⟨e0, e1⟩ := idx_zero3_4 t
  unfold iblk3
  rw [View.read_apply]
  show V c (Pipeline.arrRef spec3 4) (((cfg3.win 4).blk t).view.emb y) = V c (Pipeline.arrRef spec3 4) y
  congr 1
  funext a; apply Fin.ext
  match a with
  | ⟨0, _⟩ => show win3_4.index t (0 : Fin 2) * 1 + 1 * (y 0).val = (y 0).val; rw [e0]; omega
  | ⟨1, _⟩ => show win3_4.index t (1 : Fin 2) * 64 + 1 * (y 1).val = (y 1).val; rw [e1]; omega

/-- Window 5's block is its whole array at every point. -/
theorem iblk_par_5 (c : Dev nD) (t : Fin cfg3.N) : (iblk3 V c 5 t : S1x64.Idx → EReal) = V c (Pipeline.arrRef spec3 5) := by
  funext y
  obtain ⟨e0, e1⟩ := idx_zero3_5 t
  unfold iblk3
  rw [View.read_apply]
  show V c (Pipeline.arrRef spec3 5) (((cfg3.win 5).blk t).view.emb y) = V c (Pipeline.arrRef spec3 5) y
  congr 1
  funext a; apply Fin.ext
  match a with
  | ⟨0, _⟩ => show win3_5.index t (0 : Fin 2) * 1 + 1 * (y 0).val = (y 0).val; rw [e0]; omega
  | ⟨1, _⟩ => show win3_5.index t (1 : Fin 2) * 64 + 1 * (y 1).val = (y 1).val; rw [e1]; omega

/-- Window 6's block is its whole array at every point. -/
theorem iblk_par_6 (c : Dev nD) (t : Fin cfg3.N) : (iblk3 V c 6 t : S1x64.Idx → EReal) = V c (Pipeline.arrRef spec3 6) := by
  funext y
  obtain ⟨e0, e1⟩ := idx_zero3_6 t
  unfold iblk3
  rw [View.read_apply]
  show V c (Pipeline.arrRef spec3 6) (((cfg3.win 6).blk t).view.emb y) = V c (Pipeline.arrRef spec3 6) y
  congr 1
  funext a; apply Fin.ext
  match a with
  | ⟨0, _⟩ => show win3_6.index t (0 : Fin 2) * 1 + 1 * (y 0).val = (y 0).val; rw [e0]; omega
  | ⟨1, _⟩ => show win3_6.index t (1 : Fin 2) * 64 + 1 * (y 1).val = (y 1).val; rw [e1]; omega

/-- Window 7's block is its whole array at every point. -/
theorem iblk_par_7 (c : Dev nD) (t : Fin cfg3.N) : (iblk3 V c 7 t : S1x64.Idx → EReal) = V c (Pipeline.arrRef spec3 7) := by
  funext y
  obtain ⟨e0, e1⟩ := idx_zero3_7 t
  unfold iblk3
  rw [View.read_apply]
  show V c (Pipeline.arrRef spec3 7) (((cfg3.win 7).blk t).view.emb y) = V c (Pipeline.arrRef spec3 7) y
  congr 1
  funext a; apply Fin.ext
  match a with
  | ⟨0, _⟩ => show win3_7.index t (0 : Fin 2) * 1 + 1 * (y 0).val = (y 0).val; rw [e0]; omega
  | ⟨1, _⟩ => show win3_7.index t (1 : Fin 2) * 64 + 1 * (y 1).val = (y 1).val; rw [e1]; omega

/-- Window 8's block is its whole array at every point. -/
theorem iblk_par_8 (c : Dev nD) (t : Fin cfg3.N) : (iblk3 V c 8 t : S64x64.Idx → EReal) = V c (Pipeline.arrRef spec3 8) := by
  funext y
  obtain ⟨e0, e1⟩ := idx_zero3_8 t
  unfold iblk3
  rw [View.read_apply]
  show V c (Pipeline.arrRef spec3 8) (((cfg3.win 8).blk t).view.emb y) = V c (Pipeline.arrRef spec3 8) y
  congr 1
  funext a; apply Fin.ext
  match a with
  | ⟨0, _⟩ => show win3_8.index t (0 : Fin 2) * 64 + 1 * (y 0).val = (y 0).val; rw [e0]; omega
  | ⟨1, _⟩ => show win3_8.index t (1 : Fin 2) * 64 + 1 * (y 1).val = (y 1).val; rw [e1]; omega

/-- Window 9's block is its whole array at every point. -/
theorem iblk_par_9 (c : Dev nD) (t : Fin cfg3.N) : (iblk3 V c 9 t : S1x64.Idx → EReal) = V c (Pipeline.arrRef spec3 9) := by
  funext y
  obtain ⟨e0, e1⟩ := idx_zero3_9 t
  unfold iblk3
  rw [View.read_apply]
  show V c (Pipeline.arrRef spec3 9) (((cfg3.win 9).blk t).view.emb y) = V c (Pipeline.arrRef spec3 9) y
  congr 1
  funext a; apply Fin.ext
  match a with
  | ⟨0, _⟩ => show win3_9.index t (0 : Fin 2) * 1 + 1 * (y 0).val = (y 0).val; rw [e0]; omega
  | ⟨1, _⟩ => show win3_9.index t (1 : Fin 2) * 64 + 1 * (y 1).val = (y 1).val; rw [e1]; omega

/-- Window 10's block is its whole array at every point. -/
theorem iblk_par_10 (c : Dev nD) (t : Fin cfg3.N) : (iblk3 V c 10 t : S1x64.Idx → EReal) = V c (Pipeline.arrRef spec3 10) := by
  funext y
  obtain ⟨e0, e1⟩ := idx_zero3_10 t
  unfold iblk3
  rw [View.read_apply]
  show V c (Pipeline.arrRef spec3 10) (((cfg3.win 10).blk t).view.emb y) = V c (Pipeline.arrRef spec3 10) y
  congr 1
  funext a; apply Fin.ext
  match a with
  | ⟨0, _⟩ => show win3_10.index t (0 : Fin 2) * 1 + 1 * (y 0).val = (y 0).val; rw [e0]; omega
  | ⟨1, _⟩ => show win3_10.index t (1 : Fin 2) * 64 + 1 * (y 1).val = (y 1).val; rw [e1]; omega

/-- Window 11's block is its whole array at every point. -/
theorem iblk_par_11 (c : Dev nD) (t : Fin cfg3.N) : (iblk3 V c 11 t : S1x64.Idx → EReal) = V c (Pipeline.arrRef spec3 11) := by
  funext y
  obtain ⟨e0, e1⟩ := idx_zero3_11 t
  unfold iblk3
  rw [View.read_apply]
  show V c (Pipeline.arrRef spec3 11) (((cfg3.win 11).blk t).view.emb y) = V c (Pipeline.arrRef spec3 11) y
  congr 1
  funext a; apply Fin.ext
  match a with
  | ⟨0, _⟩ => show win3_11.index t (0 : Fin 2) * 1 + 1 * (y 0).val = (y 0).val; rw [e0]; omega
  | ⟨1, _⟩ => show win3_11.index t (1 : Fin 2) * 64 + 1 * (y 1).val = (y 1).val; rw [e1]; omega

/-- Window 12's block is its whole array at every point. -/
theorem iblk_par_12 (c : Dev nD) (t : Fin cfg3.N) : (iblk3 V c 12 t : S1x64.Idx → EReal) = V c (Pipeline.arrRef spec3 12) := by
  funext y
  obtain ⟨e0, e1⟩ := idx_zero3_12 t
  unfold iblk3
  rw [View.read_apply]
  show V c (Pipeline.arrRef spec3 12) (((cfg3.win 12).blk t).view.emb y) = V c (Pipeline.arrRef spec3 12) y
  congr 1
  funext a; apply Fin.ext
  match a with
  | ⟨0, _⟩ => show win3_12.index t (0 : Fin 2) * 1 + 1 * (y 0).val = (y 0).val; rw [e0]; omega
  | ⟨1, _⟩ => show win3_12.index t (1 : Fin 2) * 64 + 1 * (y 1).val = (y 1).val; rw [e1]; omega

/-- Window 13's block is its whole array at every point. -/
theorem iblk_par_13 (c : Dev nD) (t : Fin cfg3.N) : (iblk3 V c 13 t : S1x64.Idx → EReal) = V c (Pipeline.arrRef spec3 13) := by
  funext y
  obtain ⟨e0, e1⟩ := idx_zero3_13 t
  unfold iblk3
  rw [View.read_apply]
  show V c (Pipeline.arrRef spec3 13) (((cfg3.win 13).blk t).view.emb y) = V c (Pipeline.arrRef spec3 13) y
  congr 1
  funext a; apply Fin.ext
  match a with
  | ⟨0, _⟩ => show win3_13.index t (0 : Fin 2) * 1 + 1 * (y 0).val = (y 0).val; rw [e0]; omega
  | ⟨1, _⟩ => show win3_13.index t (1 : Fin 2) * 64 + 1 * (y 1).val = (y 1).val; rw [e1]; omega

/-! ## Window 14: what a point stores is its rows of the layer's output -/

/-- The stored block at point t, row r, column j. -/
theorem after14_apply (c : Dev nD) (t : Fin cfg3.N) (r : Fin 5000) (j : Fin 64) :
    k3_pay5 (k3_pay3 (iblk3 V c 0 t) (iblk3 V c 2 t) (iblk3 V c 3 t) (iblk3 V c 4 t) (iblk3 V c 7 t) (iblk3 V c 6 t) (iblk3 V c 5 t))
        (k3_pay4 (iblk3 V c 8 t)) (iblk3 V c 9 t) (iblk3 V c 10 t) (iblk3 V c 13 t) (iblk3 V c 12 t) (iblk3 V c 11 t) (ix2 r j)
      = hNext3 V c ⟨t.val * 5000 + r.val, row_lt t r⟩ j := by
  refine (pay5_apply _ _ _ _ _ _ _ _ _ _ _ _ _ r j).trans ?_
  unfold hNext3
  simp only [iblk_z, iblk_par_2, iblk_par_3, iblk_par_4, iblk_par_5, iblk_par_6, iblk_par_7, iblk_par_8, iblk_par_9, iblk_par_10, iblk_par_11, iblk_par_12, iblk_par_13]

/-! ## Window 14: the array after the region -/

section Window14

variable (c : Dev nD) (dat : Dat τ (Elt Ideal) Unit ℕ (UR sig nD τ) ℕ cfg3 c)

/-- What a point stores into window 14's block, as the frame states it: the second half's payload of the first half's, of the
    point's input blocks. -/
abbrev stored14 (c : Dev nD) (t : Fin cfg3.N) : FVec Ideal S5000x64 .f32 :=
  k3_pay5 (k3_pay3 (iblk3 V c 0 t) (iblk3 V c 2 t) (iblk3 V c 3 t) (iblk3 V c 4 t) (iblk3 V c 7 t) (iblk3 V c 6 t) (iblk3 V c 5 t))
    (k3_pay4 (iblk3 V c 8 t)) (iblk3 V c 9 t) (iblk3 V c 10 t) (iblk3 V c 13 t) (iblk3 V c 12 t) (iblk3 V c 11 t)

/-- Where row r, column j of point t's block sits in the array. -/
theorem emb14 (t : Fin cfg3.N) (r : Fin 5000) (j : Fin 64) :
    ((cfg3.win 14).blk t).view.emb (ix2 r j) = ix2 ⟨t.val * 5000 + r.val, row_lt t r⟩ j := by
  obtain ⟨-, -, -, -, e0, e1, -⟩ := idx_facts3 t
  funext a; apply Fin.ext
  match a with
  | ⟨0, _⟩ => show win3_14.index t (0 : Fin 2) * 5000 + 1 * r.val = t.val * 5000 + r.val; rw [e0]; omega
  | ⟨1, _⟩ => show win3_14.index t (1 : Fin 2) * 64 + 1 * j.val = j.val; rw [e1]; omega

/-- WHAT POINT t WRITES BACK is block t of the layer's output. -/
theorem flushed14_eq (h14 : ∀ t, dat.after 14 t = stored14 V c t) (t : Fin cfg3.N) :
    dat.flushed 14 t = ((cfg3.win 14).blk t).view.read (Elt Ideal) (hNextArr3 V c) := by
  show (cfg3.win 14).cut (cfg3.grid.coords t) (dat.after 14 t) = _
  rw [h14]
  funext y
  obtain ⟨r, j, rfl⟩ : ∃ (r : Fin 5000) (j : Fin 64), y = ix2 r j := ⟨y 0, y 1, eq_ix2 y⟩
  rw [View.read_apply]
  show stored14 V c t (ix2 r j) = hNextArr3 V c (((cfg3.win 14).blk t).view.emb (ix2 r j))
  rw [emb14, hNextArr3_apply]
  exact after14_apply V c t r j

/-- An index of the array is in point t's block iff each coordinate is in the block's range on its axis. -/
theorem mem_blk14 (t : Fin cfg3.N) (i : S100000x64.Idx) :
    i ∈ ((cfg3.win 14).blk t).view.set ↔ ∀ a : Fin 2, win3_14.index t a * S5000x64.size a ≤ (i a).val ∧ (i a).val < win3_14.index t a * S5000x64.size a + S5000x64.size a := by
  show i ∈ ((View.whole (Pipeline.arrRef spec3 14)).slice (win3_14.rect t)).set ↔ _
  rw [View.set_slice_whole, Rect.mem_set_unit]
  exact Iff.rfl

/-- Every row is in the block of the point its tile names. -/
theorem cover14 (i : S100000x64.Idx) :
    ∃ t : Fin cfg3.N, (cfg3.win 14).flush t = true ∧ i ∈ ((cfg3.win 14).blk t).view.set := by
  have hN : cfg3.N = 20 := N_3
  have hi0 : (i 0).val < 100000 := (i 0).isLt
  have hi1 : (i 1).val < 64 := (i 1).isLt
  let t : Fin cfg3.N := ⟨(i 0).val / 5000, by omega⟩
  obtain ⟨-, -, -, -, e0, e1, -⟩ := idx_facts3 t
  have ht : t.val = (i 0).val / 5000 := rfl
  refine ⟨t, flush3_14 t, ?_⟩
  rw [mem_blk14]
  intro a
  match a with
  | ⟨0, _⟩ => show win3_14.index t (0 : Fin 2) * 5000 ≤ (i 0).val ∧ (i 0).val < win3_14.index t (0 : Fin 2) * 5000 + 5000; rw [e0, ht]; omega
  | ⟨1, _⟩ => show win3_14.index t (1 : Fin 2) * 64 ≤ (i 1).val ∧ (i 1).val < win3_14.index t (1 : Fin 2) * 64 + 64; rw [e1]; omega

/-- THE ARRAY of window 14 after the region: the layer's output, node by node. -/
theorem arr14 (h14 : ∀ t, dat.after 14 t = stored14 V c t) : dat.arrAt 14 cfg3.N = hNextArr3 V c :=
  dat.arrAt_eq_of_cover 14 (hNextArr3 V c) (fun t _ => flushed14_eq V c dat h14 t) (cover14)

/-- The same at a node and a column. -/
theorem arr14_apply (h14 : ∀ t, dat.after 14 t = stored14 V c t) (n : Fin 100000) (j : Fin 64) :
    dat.arrAt 14 cfg3.N (ix2 n j) = hNext3 V c n j :=
  congrFun (arr14 V c dat h14) (ix2 n j)

end Window14

end Cert.KernelIdeal.Val3

end
-- ==== Proof.KIVal3R.lean ====
import proofs.«402532_j352187319172_1_alg».proof.Proof.KIVal3H
import proofs.«402532_j352187319172_1_alg».proof.Proof.SpecSums

/-!
# Region 3, window 15: the pooled readout

A point's contribution to its core's readout block as a one-hot weighted sum of the tile's output rows, the block carried
from tile to tile as a partial sum, and the readout array after the region: each core's partial sum after its tenth tile.
-/

set_option maxRecDepth 16384

noncomputable section

namespace Cert.KernelIdeal.Val3

open Cert.KernelIdeal Cert.KernelIdeal.Gen Idealize.ShloMosaic Idealize.ShloMosaic.ValueIdx Idealize.ShloMosaic.TcCoe
open Idealize.SL Idealize.SL.Sem
open Idealize.ShloMosaic.Rounds
open Idealize.ShloMosaic.Pipeline (Dat)
open scoped BigOperators

variable (V : (c : Dev nD) → (b : Ref sig .tc) → Buf (Elt Ideal) ((c : Thread nD τ).loc b))

/-! ## Window 15: the pooled readout, accumulated over a core's ten tiles -/

section Window15

variable (c : Dev nD) (dat : Dat τ (Elt Ideal) Unit ℕ (UR sig nD τ) ℕ cfg3 c)

/-- A point's contribution to the readout block, as the frame states it: the pooling payload of the point's input blocks. -/
abbrev contrib3 (c : Dev nD) (t : Fin cfg3.N) : FVec Ideal S512x64 .f32 :=
  k3_pay6 (k3_pay3 (iblk3 V c 0 t) (iblk3 V c 2 t) (iblk3 V c 3 t) (iblk3 V c 4 t) (iblk3 V c 7 t) (iblk3 V c 6 t) (iblk3 V c 5 t))
    (k3_pay4 (iblk3 V c 8 t)) (iblk3 V c 9 t) (iblk3 V c 10 t) (iblk3 V c 13 t) (iblk3 V c 12 t) (iblk3 V c 11 t) (iblk3 V c 1 t)

/-- The contribution at graph g and column j: the sum of the tile's output rows whose graph id is g. -/
theorem contrib3_apply (t : Fin cfg3.N) (g : Fin 512) (j : Fin 64) :
    contrib3 V c t (ix2 g j)
      = ∑ r : Fin 5000, (if (V c (Pipeline.arrRef spec3 1) (ix2 (⟨t.val * 5000 + r.val, row_lt t r⟩ : Fin 100000) 0)).toInt = (g.val : ℤ) then (1 : EReal) else 0)
          * hNext3 V c ⟨t.val * 5000 + r.val, row_lt t r⟩ j := by
  refine (pay6_apply _ _ _ _ _ _ _ _ g j).trans ?_
  refine Finset.sum_congr rfl fun r _ => ?_
  rw [after14_apply, iblk_gid]

/-- Tile k of core cc contributes, at graph g and column j (zero past the core's ten tiles). -/
def poolTile3 (c : Dev nD) (cc : Fin 2) (g : Fin 512) (j : Fin 64) (k : ℕ) : EReal :=
  if hk : k < 10 then ∑ r : Fin 5000, (if (V c (Pipeline.arrRef spec3 1) (ix2 (GinSpec.row (GinSpec.tile20 cc ⟨k, hk⟩) r) 0)).toInt = (g.val : ℤ) then (1 : EReal) else 0) * hNext3 V c (GinSpec.row (GinSpec.tile20 cc ⟨k, hk⟩) r) j else 0

/-- The readout partial sums as contents of the output array: core cc's accumulator after its tenth tile. -/
def readoutArr3 (c : Dev nD) : S2x512x64.Idx → EReal := fun i => GinSpec.accUpTo (poolTile3 V c (i 0) (i 1) (i 2)) 9

theorem readoutArr3_apply (c : Dev nD) (cc : Fin 2) (g : Fin 512) (j : Fin 64) :
    readoutArr3 V c (ix3 cc g j) = GinSpec.accUpTo (poolTile3 V c cc g j) 9 := rfl

/-- The two cores' partial sums add up to the pooled sum of the layer's output over the graph's nodes. -/
theorem readoutArr3_pool (c : Dev nD) (g : Fin 512) (j : Fin 64) :
    (0 : EReal) + ∑ cc : Fin 2, readoutArr3 V c (ix3 cc g j)
      = GinSpec.pool (fun n => hNext3 V c n j) (fun n => V c (Pipeline.arrRef spec3 1) (ix2 n 0)) g := by
  rw [GinSpec.pool_eq_cores]
  rfl

/-- Tile k of core cc is a point of the grid. -/
theorem tile_lt (cc : Fin 2) (k : ℕ) (hk : k < 10) : cc.val * 10 + k < cfg3.N := by
  have hN : cfg3.N = 20 := N_3
  have := cc.isLt
  omega

/-- The contribution of the point that is tile k of core cc is that tile's. -/
theorem contrib3_tile (cc : Fin 2) (k : ℕ) (hk : k < 10) (g : Fin 512) (j : Fin 64) :
    contrib3 V c ⟨cc.val * 10 + k, tile_lt cc k hk⟩ (ix2 g j) = poolTile3 V c cc g j k := by
  rw [contrib3_apply]
  unfold poolTile3
  rw [dif_pos hk]
  rfl

/-- Where graph g, column j of point t's block sits in the array: in the core's slab. -/
theorem emb15 (t : Fin cfg3.N) (g : Fin 512) (j : Fin 64) :
    ((cfg3.win 15).blk t).view.emb (ix3 (0 : Fin 1) g j) = ix3 (⟨t.val / 10, by have hN : cfg3.N = 20 := N_3; have := t.isLt; omega⟩ : Fin 2) g j := by
  obtain ⟨-, -, -, -, -, -, e0, e1, e2⟩ := idx_facts3 t
  funext a; apply Fin.ext
  match a with
  | ⟨0, _⟩ => show win3_15.index t (0 : Fin 3) * 1 + 1 * 0 = t.val / 10; rw [e0]; omega
  | ⟨1, _⟩ => show win3_15.index t (1 : Fin 3) * 512 + 1 * g.val = g.val; rw [e1]; omega
  | ⟨2, _⟩ => show win3_15.index t (2 : Fin 3) * 64 + 1 * j.val = j.val; rw [e2]; omega

/-- An index of the array is in point t's block iff each coordinate is in the block's range on its axis. -/
theorem mem_blk15 (t : Fin cfg3.N) (i : S2x512x64.Idx) :
    i ∈ ((cfg3.win 15).blk t).view.set ↔ ∀ a : Fin 3, win3_15.index t a * S1x512x64.size a ≤ (i a).val ∧ (i a).val < win3_15.index t a * S1x512x64.size a + S1x512x64.size a := by
  show i ∈ ((View.whole (Pipeline.arrRef spec3 15)).slice (win3_15.rect t)).set ↔ _
  rw [View.set_slice_whole, Rect.mem_set_unit]
  exact Iff.rfl

/-- Every index is in the block of its core's last point. -/
theorem cover15 (i : S2x512x64.Idx) :
    ∃ t : Fin cfg3.N, (cfg3.win 15).flush t = true ∧ i ∈ ((cfg3.win 15).blk t).view.set := by
  have hN : cfg3.N = 20 := N_3
  have hi0 : (i 0).val < 2 := (i 0).isLt
  have hi1 : (i 1).val < 512 := (i 1).isLt
  have hi2 : (i 2).val < 64 := (i 2).isLt
  let t : Fin cfg3.N := ⟨(i 0).val * 10 + 9, by omega⟩
  obtain ⟨-, -, -, -, -, -, e0, e1, e2⟩ := idx_facts3 t
  have ht : t.val = (i 0).val * 10 + 9 := rfl
  refine ⟨t, (flush3_15 t).mpr (by rw [ht]; omega), ?_⟩
  rw [mem_blk15]
  intro a
  match a with
  | ⟨0, _⟩ => show win3_15.index t (0 : Fin 3) * 1 ≤ (i 0).val ∧ (i 0).val < win3_15.index t (0 : Fin 3) * 1 + 1; rw [e0, ht]; omega
  | ⟨1, _⟩ => show win3_15.index t (1 : Fin 3) * 512 ≤ (i 1).val ∧ (i 1).val < win3_15.index t (1 : Fin 3) * 512 + 512; rw [e1]; omega
  | ⟨2, _⟩ => show win3_15.index t (2 : Fin 3) * 64 ≤ (i 2).val ∧ (i 2).val < win3_15.index t (2 : Fin 3) * 64 + 64; rw [e2]; omega

variable (h15a : ∀ t : Fin cfg3.N, t.val % 10 = 0 → dat.after 15 t = k3_pay1 (contrib3 V c t) (k3_pay2 (F := Ideal)))
  (h15b : ∀ (t : Fin cfg3.N) (h : ¬ t.val % 10 = 0), dat.after 15 t = k3_pay1 (contrib3 V c t) (dat.after 15 ⟨t.val - 1, Nat.lt_of_le_of_lt (Nat.sub_le _ _) t.isLt⟩))

include h15a h15b

/-- THE ACCUMULATOR after tile k of core cc, at graph g and column j: the partial sum of the core's tiles up to k. -/
theorem after15_tile (cc : Fin 2) (g : Fin 512) (j : Fin 64) :
    ∀ (k : ℕ) (hk : k < 10), dat.after 15 ⟨cc.val * 10 + k, tile_lt cc k hk⟩ (ix3 0 g j) = GinSpec.accUpTo (poolTile3 V c cc g j) k
  | 0, hk => by
    have h0 : (⟨cc.val * 10 + 0, tile_lt cc 0 hk⟩ : Fin cfg3.N).val % 10 = 0 := by show (cc.val * 10 + 0) % 10 = 0; omega
    rw [h15a _ h0, pay1_apply, pay2_apply, contrib3_tile V c cc 0 hk]
    rfl
  | k + 1, hk => by
    have hs : ¬ (⟨cc.val * 10 + (k + 1), tile_lt cc (k + 1) hk⟩ : Fin cfg3.N).val % 10 = 0 := by show ¬ (cc.val * 10 + (k + 1)) % 10 = 0; omega
    rw [h15b _ hs, pay1_apply, contrib3_tile V c cc (k + 1) hk]
    have hp : (⟨(⟨cc.val * 10 + (k + 1), tile_lt cc (k + 1) hk⟩ : Fin cfg3.N).val - 1, Nat.lt_of_le_of_lt (Nat.sub_le _ _) (⟨cc.val * 10 + (k + 1), tile_lt cc (k + 1) hk⟩ : Fin cfg3.N).isLt⟩ : Fin cfg3.N)
        = ⟨cc.val * 10 + k, tile_lt cc k (Nat.lt_of_succ_lt hk)⟩ := Fin.ext (by show cc.val * 10 + (k + 1) - 1 = cc.val * 10 + k; omega)
    rw [hp, after15_tile cc g j k (Nat.lt_of_succ_lt hk)]
    rfl

/-- The same at any point named by its core and tile. -/
theorem after15_point (t : Fin cfg3.N) (cc : Fin 2) (k : ℕ) (hk : k < 10) (ht : t.val = cc.val * 10 + k) (g : Fin 512) (j : Fin 64) :
    dat.after 15 t (ix3 0 g j) = GinSpec.accUpTo (poolTile3 V c cc g j) k := by
  obtain rfl : t = ⟨cc.val * 10 + k, tile_lt cc k hk⟩ := Fin.ext ht
  exact after15_tile V c dat h15a h15b cc g j k hk

/-- WHAT A FLUSHING POINT WRITES BACK (the last tile of its core) is its core's slab of the readout partial sums. -/
theorem flushed15_eq (t : Fin cfg3.N) (hf : (cfg3.win 15).flush t = true) :
    dat.flushed 15 t = ((cfg3.win 15).blk t).view.read (Elt Ideal) (readoutArr3 V c) := by
  have hN : cfg3.N = 20 := N_3
  have h9 : t.val % 10 = 9 := (flush3_15 t).mp hf
  have htl := t.isLt
  funext y
  obtain ⟨u, g, j, rfl⟩ : ∃ (u : Fin 1) (g : Fin 512) (j : Fin 64), y = ix3 u g j := ⟨y 0, y 1, y 2, eq_ix3 y⟩
  obtain rfl : u = 0 := Subsingleton.elim _ _
  refine Eq.trans (b := dat.after 15 t (ix3 0 g j)) rfl ?_
  rw [View.read_apply]
  refine Eq.trans ?_ (b := readoutArr3 V c (((cfg3.win 15).blk t).view.emb (ix3 (0 : Fin 1) g j))) rfl
  rw [emb15, readoutArr3_apply]
  exact after15_point V c dat h15a h15b t ⟨t.val / 10, by omega⟩ 9 (by omega) (by show t.val = t.val / 10 * 10 + 9; omega) g j

/-- THE ARRAY of window 15 after the region: each core's accumulator after its tenth tile. -/
theorem arr15 : dat.arrAt 15 cfg3.N = readoutArr3 V c :=
  dat.arrAt_eq_of_cover 15 (readoutArr3 V c) (fun t hf => flushed15_eq V c dat h15a h15b t hf) (cover15)

/-- The same at a core, a graph and a column, the partial sums written out. -/
theorem arr15_apply (cc : Fin 2) (g : Fin 512) (j : Fin 64) :
    dat.arrAt 15 cfg3.N (ix3 cc g j)
      = GinSpec.accUpTo (fun k => if hk : k < 10 then ∑ r : Fin 5000, (if (V c (Pipeline.arrRef spec3 1) (ix2 (GinSpec.row (GinSpec.tile20 cc ⟨k, hk⟩) r) 0)).toInt = (g.val : ℤ) then (1 : EReal) else 0) * hNext3 V c (GinSpec.row (GinSpec.tile20 cc ⟨k, hk⟩) r) j else 0) 9 :=
  congrFun (arr15 V c dat h15a h15b) (ix3 cc g j)

/-- The two cores' partial sums add up to the pooled sum of the layer's output over the graph's nodes. -/
theorem arr15_pool (g : Fin 512) (j : Fin 64) :
    (0 : EReal) + Finset.sum (M := EReal) (Finset.univ : Finset (Fin 2)) (fun cc => dat.arrAt 15 cfg3.N (ix3 cc g j))
      = GinSpec.pool (fun n => hNext3 V c n j) (fun n => V c (Pipeline.arrRef spec3 1) (ix2 n 0)) g := by
  rw [arr15 V c dat h15a h15b]
  exact readoutArr3_pool V c g j

end Window15

end Cert.KernelIdeal.Val3

end
-- ==== Proof.KIVal3Dat.lean ====
import proofs.«402532_j352187319172_1_alg».proof.Proof.KIVal3R
import proofs.«402532_j352187319172_1_alg».proof.Proof.KIReg3

/-!
# Region 3: its two output arrays, for the region's own proof data

The frame's proof data of region 1 leaves, in window 14's buffer, the layer's output block and, in window 15's, the
accumulation from point to point; so its two output arrays after the region are the layer's output and the cores' pooled
partial sums.
-/

set_option maxRecDepth 16384

noncomputable section

namespace Cert.KernelIdeal.Val3

open Cert.KernelIdeal Cert.KernelIdeal.Gen Idealize.ShloMosaic Idealize.ShloMosaic.ValueIdx Idealize.ShloMosaic.TcCoe
open Idealize.SL Idealize.SL.Sem
open Idealize.ShloMosaic.Rounds
open Idealize.ShloMosaic.Pipeline (Dat)
open scoped BigOperators

variable (V : (c : Dev nD) → (b : Ref sig .tc) → Buf (Elt Ideal) ((c : Thread nD τ).loc b))

/-- The proof data's window 14 buffer after a point is the stored block. -/
theorem dat3_after14 (c : Dev nD) (t : Fin cfg3.N) : (dat3 V c).after 14 t = stored14 V c t :=
  after3_14 V c t

/-- The proof data's window 15 buffer after the first point of a core's run: the contribution over zeros. -/
theorem dat3_after15_first (c : Dev nD) (t : Fin cfg3.N) (h : t.val % 10 = 0) :
    (dat3 V c).after 15 t = k3_pay1 (Val3.contrib3 V c t) (k3_pay2 (F := Ideal)) :=
  (after3_15 V c t).trans (outsAt3_first V c t h)

/-- The proof data's window 15 buffer after any other point: the contribution over what the point before left. -/
theorem dat3_after15_next (c : Dev nD) (t : Fin cfg3.N) (h : ¬ t.val % 10 = 0) :
    (dat3 V c).after 15 t
      = k3_pay1 (Val3.contrib3 V c t) ((dat3 V c).after 15 ⟨t.val - 1, Nat.lt_of_le_of_lt (Nat.sub_le _ _) t.isLt⟩) :=
  (after3_15 V c t).trans ((outsAt3_next V c t h).trans
    (congrArg (k3_pay1 (Val3.contrib3 V c t)) (after3_15 V c ⟨t.val - 1, Nat.lt_of_le_of_lt (Nat.sub_le _ _) t.isLt⟩).symm))

/-- Window 14's array after the region: the layer's output. -/
theorem arr14_dat3 (c : Dev nD) : (dat3 V c).arrAt 14 cfg3.N = hNextArr3 V c :=
  arr14 V c (dat3 V c) (dat3_after14 V c)

/-- The same at a node and a column. -/
theorem arr14_dat3_apply (c : Dev nD) (n : Fin 100000) (j : Fin 64) : (dat3 V c).arrAt 14 cfg3.N (ix2 n j) = hNext3 V c n j :=
  congrFun (arr14_dat3 V c) (ix2 n j)

/-- Window 15's array after the region: each core's pooled partial sum after its tenth tile. -/
theorem arr15_dat3 (c : Dev nD) : (dat3 V c).arrAt 15 cfg3.N = readoutArr3 V c :=
  arr15 V c (dat3 V c) (dat3_after15_first V c) (dat3_after15_next V c)

/-- The same at a core, a graph and a column. -/
theorem arr15_dat3_apply (c : Dev nD) (cc : Fin 2) (g : Fin 512) (j : Fin 64) :
    (dat3 V c).arrAt 15 cfg3.N (ix3 cc g j) = GinSpec.accUpTo (poolTile3 V c cc g j) 9 :=
  congrFun (arr15_dat3 V c) (ix3 cc g j)

/-- The two cores' partial sums add up to the pooled sum of the layer's output over the graph's nodes. -/
theorem arr15_dat3_pool (c : Dev nD) (g : Fin 512) (j : Fin 64) :
    (0 : EReal) + Finset.sum (M := EReal) (Finset.univ : Finset (Fin 2)) (fun cc => (dat3 V c).arrAt 15 cfg3.N (ix3 cc g j))
      = GinSpec.pool (fun n => hNext3 V c n j) (fun n => V c (Pipeline.arrRef spec3 1) (ix2 n 0)) g :=
  arr15_pool V c (dat3 V c) (dat3_after15_first V c) (dat3_after15_next V c) g j

end Cert.KernelIdeal.Val3

end
-- ==== Proof.KIVal4Pay.lean ====
import proofs.«402532_j352187319172_1_alg».proof.Proof.Gen.KernelIdeal.Skeleton
import proofs.«402532_j352187319172_1_alg».proof.Proof.Spec
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

namespace Cert.KernelIdeal.Val4

open Cert.KernelIdeal Cert.KernelIdeal.Gen Idealize.ShloMosaic Idealize.ShloMosaic.ValueIdx
open scoped BigOperators

/-! ## The two contractions of the layer, read at an index

The feature contraction (rows by a 64 x 64 weight: the left operand's axis 1 against the right operand's axis 0) and the
pooling contraction (the one-hot matrix against the activations: axis 0 of both). -/

/-- Feature contraction: the left operand's row coordinate is the output's row. -/
theorem lhs_feat_0 (i : S5000x64.Idx) (q : dot_S5000x64_S64x64_S5000x64_1_0_0_1_n_n.contr.Idx) :
    (dot_S5000x64_S64x64_S5000x64_1_0_0_1_n_n.lhsIdx i q 0).val = (i 0).val := by
  unfold DotDims.lhsIdx
  rw [dif_neg (show ¬(0 : Fin S5000x64.rank) ∈ dot_S5000x64_S64x64_S5000x64_1_0_0_1_n_n.lhsBatch by decide), dif_pos (show (0 : Fin S5000x64.rank) ∈ dot_S5000x64_S64x64_S5000x64_1_0_0_1_n_n.lhsNonContracting by decide)]
  rfl
/-- Feature contraction: the left operand's column coordinate is the contracted one. -/
theorem lhs_feat_1 (i : S5000x64.Idx) (q : dot_S5000x64_S64x64_S5000x64_1_0_0_1_n_n.contr.Idx) :
    (dot_S5000x64_S64x64_S5000x64_1_0_0_1_n_n.lhsIdx i q 1).val = (q ⟨0, by decide⟩).val :=
  dot_S5000x64_S64x64_S5000x64_1_0_0_1_n_n.lhsIdx_val_of_single rfl i q
/-- Feature contraction: the right operand's row coordinate is the contracted one. -/
theorem rhs_feat_0 (i : S5000x64.Idx) (q : dot_S5000x64_S64x64_S5000x64_1_0_0_1_n_n.contr.Idx) :
    (dot_S5000x64_S64x64_S5000x64_1_0_0_1_n_n.rhsIdx i q 0).val = (q ⟨0, by decide⟩).val :=
  dot_S5000x64_S64x64_S5000x64_1_0_0_1_n_n.rhsIdx_val_of_single rfl i q
/-- Feature contraction: the right operand's column coordinate is the output's column. -/
theorem rhs_feat_1 (i : S5000x64.Idx) (q : dot_S5000x64_S64x64_S5000x64_1_0_0_1_n_n.contr.Idx) :
    (dot_S5000x64_S64x64_S5000x64_1_0_0_1_n_n.rhsIdx i q 1).val = (i 1).val := by
  unfold DotDims.rhsIdx
  rw [dif_neg (show ¬(1 : Fin S64x64.rank) ∈ dot_S5000x64_S64x64_S5000x64_1_0_0_1_n_n.rhsBatch by decide), dif_pos (show (1 : Fin S64x64.rank) ∈ dot_S5000x64_S64x64_S5000x64_1_0_0_1_n_n.rhsNonContracting by decide)]
  rfl

/-- The feature contraction into the zero accumulator, at row r and column k: the sum over the 64 features. -/
theorem matmul_feat_apply (x : FVec Ideal S5000x64 .bf16) (y : FVec Ideal S64x64 .bf16) (r : Fin 5000) (k : Fin 64) :
    matmul dot_S5000x64_S64x64_S5000x64_1_0_0_1_n_n none x y (constant (F := Ideal) S5000x64 .f32 0x00000000#32) (ix2 r k)
      = ∑ d : Fin 64, x (ix2 r d) * y (ix2 d k) := by
  simp only [matmul]
  rw [Ideal.matmul_constant_zero_apply, ← Equiv.sum_comp (contrEquiv1 dot_S5000x64_S64x64_S5000x64_1_0_0_1_n_n 64 rfl rfl).symm]
  refine Finset.sum_congr rfl fun d _ => ?_
  have hk := contrEquiv1_symm_val dot_S5000x64_S64x64_S5000x64_1_0_0_1_n_n 64 rfl rfl d
  have el : dot_S5000x64_S64x64_S5000x64_1_0_0_1_n_n.lhsIdx (ix2 r k) ((contrEquiv1 dot_S5000x64_S64x64_S5000x64_1_0_0_1_n_n 64 rfl rfl).symm d) = ix2 r d := funext fun a => Fin.ext (by
    match a with
    | ⟨0, _⟩ => exact lhs_feat_0 _ _
    | ⟨1, _⟩ => exact (lhs_feat_1 _ _).trans hk)
  have er : dot_S5000x64_S64x64_S5000x64_1_0_0_1_n_n.rhsIdx (ix2 r k) ((contrEquiv1 dot_S5000x64_S64x64_S5000x64_1_0_0_1_n_n 64 rfl rfl).symm d) = ix2 d k := funext fun a => Fin.ext (by
    match a with
    | ⟨0, _⟩ => exact (rhs_feat_0 _ _).trans hk
    | ⟨1, _⟩ => exact rhs_feat_1 _ _)
  rw [el, er]

/-- Pooling contraction: the left operand's row coordinate is the contracted one. -/
theorem lhs_pool_0 (i : S512x64.Idx) (q : dot_S5000x512_S5000x64_S512x64_0_0_1_1_n_n.contr.Idx) :
    (dot_S5000x512_S5000x64_S512x64_0_0_1_1_n_n.lhsIdx i q 0).val = (q ⟨0, by decide⟩).val :=
  dot_S5000x512_S5000x64_S512x64_0_0_1_1_n_n.lhsIdx_val_of_single rfl i q
/-- Pooling contraction: the left operand's column coordinate is the output's row. -/
theorem lhs_pool_1 (i : S512x64.Idx) (q : dot_S5000x512_S5000x64_S512x64_0_0_1_1_n_n.contr.Idx) :
    (dot_S5000x512_S5000x64_S512x64_0_0_1_1_n_n.lhsIdx i q 1).val = (i 0).val := by
  unfold DotDims.lhsIdx
  rw [dif_neg (show ¬(1 : Fin S5000x512.rank) ∈ dot_S5000x512_S5000x64_S512x64_0_0_1_1_n_n.lhsBatch by decide), dif_pos (show (1 : Fin S5000x512.rank) ∈ dot_S5000x512_S5000x64_S512x64_0_0_1_1_n_n.lhsNonContracting by decide)]
  rfl
/-- Pooling contraction: the right operand's row coordinate is the contracted one. -/
theorem rhs_pool_0 (i : S512x64.Idx) (q : dot_S5000x512_S5000x64_S512x64_0_0_1_1_n_n.contr.Idx) :
    (dot_S5000x512_S5000x64_S512x64_0_0_1_1_n_n.rhsIdx i q 0).val = (q ⟨0, by decide⟩).val :=
  dot_S5000x512_S5000x64_S512x64_0_0_1_1_n_n.rhsIdx_val_of_single rfl i q
/-- Pooling contraction: the right operand's column coordinate is the output's column. -/
theorem rhs_pool_1 (i : S512x64.Idx) (q : dot_S5000x512_S5000x64_S512x64_0_0_1_1_n_n.contr.Idx) :
    (dot_S5000x512_S5000x64_S512x64_0_0_1_1_n_n.rhsIdx i q 1).val = (i 1).val := by
  unfold DotDims.rhsIdx
  rw [dif_neg (show ¬(1 : Fin S5000x64.rank) ∈ dot_S5000x512_S5000x64_S512x64_0_0_1_1_n_n.rhsBatch by decide), dif_pos (show (1 : Fin S5000x64.rank) ∈ dot_S5000x512_S5000x64_S512x64_0_0_1_1_n_n.rhsNonContracting by decide)]
  rfl

/-- The pooling contraction into the zero accumulator, at graph g and column j: the sum over the block's 5000 rows. -/
theorem matmul_pool_apply (x : FVec Ideal S5000x512 .bf16) (y : FVec Ideal S5000x64 .bf16) (g : Fin 512) (j : Fin 64) :
    matmul dot_S5000x512_S5000x64_S512x64_0_0_1_1_n_n none x y (constant (F := Ideal) S512x64 .f32 0x00000000#32) (ix2 g j)
      = ∑ r : Fin 5000, x (ix2 r g) * y (ix2 r j) := by
  simp only [matmul]
  rw [Ideal.matmul_constant_zero_apply, ← Equiv.sum_comp (contrEquiv1 dot_S5000x512_S5000x64_S512x64_0_0_1_1_n_n 5000 rfl rfl).symm]
  refine Finset.sum_congr rfl fun d _ => ?_
  have hk := contrEquiv1_symm_val dot_S5000x512_S5000x64_S512x64_0_0_1_1_n_n 5000 rfl rfl d
  have el : dot_S5000x512_S5000x64_S512x64_0_0_1_1_n_n.lhsIdx (ix2 g j) ((contrEquiv1 dot_S5000x512_S5000x64_S512x64_0_0_1_1_n_n 5000 rfl rfl).symm d) = ix2 d g := funext fun a => Fin.ext (by
    match a with
    | ⟨0, _⟩ => exact (lhs_pool_0 _ _).trans hk
    | ⟨1, _⟩ => exact lhs_pool_1 _ _)
  have er : dot_S5000x512_S5000x64_S512x64_0_0_1_1_n_n.rhsIdx (ix2 g j) ((contrEquiv1 dot_S5000x512_S5000x64_S512x64_0_0_1_1_n_n 5000 rfl rfl).symm d) = ix2 d j := funext fun a => Fin.ext (by
    match a with
    | ⟨0, _⟩ => exact (rhs_pool_0 _ _).trans hk
    | ⟨1, _⟩ => exact rhs_pool_1 _ _)
  rw [el, er]

/-! ## Small readings at an index -/

/-- A reciprocal square root at an index is that of the element. -/
theorem rsqrt_apply {s : Shape} {φ : FTy} (a : FVec Ideal s φ) (i : s.Idx) : rsqrt a i = Ideal.rsqrt (a i) := rfl

/-- A scalar constant at the ideal values is the extended real its word encodes. -/
theorem scalar_ofBits_f32 (b : BitVec 32) : (Scalar.ofBits (F := Ideal) .f32 b) = Ideal.ofBits .f32 b := rfl

/-- A column [a, 1] broadcast over b columns reads, at (p, c), the column's entry p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A 32-bit word that encodes a number below 512 reads, signed, that number. -/
theorem toInt_ofNat_lt (g : Fin 512) : (BitVec.ofNat 32 g.val).toInt = (g.val : ℤ) := by
  have hg : g.val < 512 := g.isLt
  rw [BitVec.toInt_eq_toNat_cond, BitVec.toNat_ofNat]
  omega

/-- The one-hot entry: a 32-bit id compared with a column number below 512, the bit widened and converted, is 1 where the
    signed id is the column number and 0 elsewhere. -/
theorem onehot_word (b : BitVec 32) (g : Fin 512) :
    FloatOps.sitofp (F := Ideal) .f32 ((IntOp.cmpi .eq b (BitVec.ofNat 32 g.val)).setWidth 32)
      = if b.toInt = (g.val : ℤ) then (1 : EReal) else 0 := by
  have hG := toInt_ofNat_lt g
  show (((((BitVec.ofBool (b == BitVec.ofNat 32 g.val)).setWidth 32).toInt : ℤ) : ℝ) : EReal) = _
  by_cases h : b = BitVec.ofNat 32 g.val
  · have hb : (b == BitVec.ofNat 32 g.val) = true := by simpa using h
    have h1 : ((BitVec.ofBool true).setWidth 32).toInt = 1 := by decide
    rw [hb, if_pos (h ▸ hG), h1]
    simp
  · have hb : (b == BitVec.ofNat 32 g.val) = false := by simpa using h
    have hne : ¬ b.toInt = (g.val : ℤ) := fun e => h (BitVec.toInt_inj.mp (e.trans hG.symm))
    have h0 : ((BitVec.ofBool false).setWidth 32).toInt = 0 := by decide
    rw [hb, if_neg hne, h0]
    simp

/-! ## The payloads at an index -/

/-- The hidden activation the first half of the body computes, at row r and hidden unit k. -/
theorem pay3_apply (z : Vec Ideal S5000x64 .f32) (W1 : Vec Ideal S64x64 .f32) (b1 ga va ma bea : Vec Ideal S1x64 .f32)
    (r : Fin 5000) (k : Fin 64) :
    k4_pay3 z W1 b1 ga va ma bea (ix2 r k)
      = GinSpec.hidden (fun d => z (ix2 r d)) (fun d k => W1 (ix2 d k)) (fun k => b1 (ix2 0 k)) (fun k => ga (ix2 0 k))
          (fun k => bea (ix2 0 k)) (fun k => ma (ix2 0 k)) (fun k => va (ix2 0 k)) k := by
  unfold k4_pay3
  simp only [maximumf_apply, addf_apply, mulf_apply, subf_apply, broadcast_apply, shapeCast_self, broadcastTo_1b_ab_apply,
    matmul_feat_apply, truncf_apply, rsqrt_apply, scalar_ofBits_f32, Ideal.ofBits_zero_f32]
  rfl

/-- The layer's output block at row r and column j: the MLP of the row. -/
theorem pay5_apply (z : Vec Ideal S5000x64 .f32) (W1 : Vec Ideal S64x64 .f32) (b1 ga va ma bea : Vec Ideal S1x64 .f32)
    (W2 : Vec Ideal S64x64 .f32) (b2 gb vb mb beb : Vec Ideal S1x64 .f32) (r : Fin 5000) (j : Fin 64) :
    k4_pay5 (k4_pay3 z W1 b1 ga va ma bea) (k4_pay4 W2) b2 gb vb mb beb (ix2 r j)
      = GinSpec.mlp (fun d => z (ix2 r d)) (fun d k => W1 (ix2 d k)) (fun k => b1 (ix2 0 k)) (fun k => ga (ix2 0 k))
          (fun k => bea (ix2 0 k)) (fun k => ma (ix2 0 k)) (fun k => va (ix2 0 k)) (fun k j => W2 (ix2 k j))
          (fun j => b2 (ix2 0 j)) (fun j => gb (ix2 0 j)) (fun j => beb (ix2 0 j)) (fun j => mb (ix2 0 j))
          (fun j => vb (ix2 0 j)) j := by
  unfold k4_pay5 k4_pay4
  simp only [maximumf_apply, addf_apply, mulf_apply, subf_apply, broadcast_apply, shapeCast_self, broadcastTo_1b_ab_apply,
    matmul_feat_apply, truncf_apply, rsqrt_apply, scalar_ofBits_f32, Ideal.ofBits_zero_f32, pay3_apply]
  rfl

/-- The block's contribution to the pooled readout at graph g and column j: the sum of the output rows whose graph id is g. -/
theorem pay6_apply (h : FVec Ideal S5000x64 .f32) (W2 : FVec Ideal S64x64 .f32) (b2 gb vb mb beb : Vec Ideal S1x64 .f32)
    (batch : Vec Ideal S5000x1 .i32) (g : Fin 512) (j : Fin 64) :
    k4_pay6 h W2 b2 gb vb mb beb batch (ix2 g j)
      = ∑ r : Fin 5000, (if (batch (ix2 r 0)).toInt = (g.val : ℤ) then (1 : EReal) else 0) * k4_pay5 h W2 b2 gb vb mb beb (ix2 r j) := by
  unfold k4_pay6
  simp only [matmul_pool_apply, truncf_apply]
  refine Finset.sum_congr rfl fun r _ => ?_
  congr 1
  show FloatOps.sitofp (F := Ideal) .f32 ((IntOp.cmpi .eq (broadcastTo S5000x512 (shapeCast S5000x1 batch shapeCasts_S5000x1_S5000x1) broadcasts_S5000x1_S5000x512 (ix2 r g)) (iota .tc S5000x512 32 [1] iota_S5000x512_d1_w32 (ix2 r g))).setWidth 32) = _
  rw [broadcastTo_a1_ab_apply, shapeCast_self, iota_single_apply]
  exact onehot_word _ g

/-- The accumulation step at graph g and column j: what was there plus the block's contribution. -/
theorem pay1_apply (v : FVec Ideal S512x64 .f32) (acc : Vec Ideal S1x512x64 .f32) (g : Fin 512) (j : Fin 64) :
    k4_pay1 v acc (ix3 0 g j) = acc (ix3 0 g j) + v (ix2 g j) := by
  unfold k4_pay1
  simp only [shapeCast_ab_1ab_apply, addf_apply, shapeCast_1ab_ab_apply]

/-- The reset value is zero everywhere. -/
theorem pay2_apply (g : Fin 512) (j : Fin 64) : (k4_pay2 (F := Ideal)) (ix3 0 g j) = 0 := by
  unfold k4_pay2
  simp only [shapeCast_ab_1ab_apply, broadcast_apply, scalar_ofBits_f32, Ideal.ofBits_zero_f32]

end Cert.KernelIdeal.Val4

end
-- ==== Proof.KIVal4H.lean ====
import proofs.«402532_j352187319172_1_alg».proof.Proof.KIVal4Pay
import proofs.«402532_j352187319172_1_alg».proof.Proof.KIReg4
import proofs.«402532_j352187319172_1_alg».proof.Proof.Gen.KernelIdeal.Launch
import proofs.«402532_j352187319172_1_alg».proof.Proof.Gen.KernelIdeal.Points
import Idealize.ShloMosaic.Lib.Pipeline.Value

/-!
# Region 4, window 14: the layer's output array

The region's input blocks read at coordinates, the block a point stores as rows of the layer's output, and the output array
after the region as one function of the region's input arrays, node by node.
-/

set_option maxRecDepth 16384

noncomputable section

namespace Cert.KernelIdeal.Val4

open Cert.KernelIdeal Cert.KernelIdeal.Gen Idealize.ShloMosaic Idealize.ShloMosaic.ValueIdx Idealize.ShloMosaic.TcCoe
open Idealize.SL Idealize.SL.Sem
open Idealize.ShloMosaic.Rounds
open Idealize.ShloMosaic.Pipeline (Dat)
open scoped BigOperators

variable (V : (c : Dev nD) → (b : Ref sig .tc) → Buf (Elt Ideal) ((c : Thread nD τ).loc b))

/-! ## The region's outputs as mathematics -/

/-- The layer's output at node n and column j: the MLP of row n of the region's input, with the region's twelve parameter
    arrays. -/
def hNext4 (c : Dev nD) (n : Fin 100000) (j : Fin 64) : EReal :=
  GinSpec.mlp (fun d => V c (Pipeline.arrRef spec4 0) (ix2 n d)) (fun d k => V c (Pipeline.arrRef spec4 2) (ix2 d k))
    (fun k => V c (Pipeline.arrRef spec4 3) (ix2 0 k)) (fun k => V c (Pipeline.arrRef spec4 4) (ix2 0 k))
    (fun k => V c (Pipeline.arrRef spec4 5) (ix2 0 k)) (fun k => V c (Pipeline.arrRef spec4 6) (ix2 0 k))
    (fun k => V c (Pipeline.arrRef spec4 7) (ix2 0 k)) (fun k j => V c (Pipeline.arrRef spec4 8) (ix2 k j))
    (fun j => V c (Pipeline.arrRef spec4 9) (ix2 0 j)) (fun j => V c (Pipeline.arrRef spec4 10) (ix2 0 j))
    (fun j => V c (Pipeline.arrRef spec4 11) (ix2 0 j)) (fun j => V c (Pipeline.arrRef spec4 12) (ix2 0 j))
    (fun j => V c (Pipeline.arrRef spec4 13) (ix2 0 j)) j

/-- The same as contents of the output array. -/
def hNextArr4 (c : Dev nD) : S100000x64.Idx → EReal := fun i => hNext4 V c (i 0) (i 1)

theorem hNextArr4_apply (c : Dev nD) (n : Fin 100000) (j : Fin 64) : hNextArr4 V c (ix2 n j) = hNext4 V c n j := rfl

/-! ## The index maps, decided once over the grid -/

/-- The moving windows: the row blocks follow the point, the readout block follows the core. -/
theorem idx_facts4 : ∀ t : Fin cfg4.N,
    win4_0.index t (0 : Fin 2) = t.val
    ∧ win4_0.index t (1 : Fin 2) = 0
    ∧ win4_1.index t (0 : Fin 2) = t.val
    ∧ win4_1.index t (1 : Fin 2) = 0
    ∧ win4_14.index t (0 : Fin 2) = t.val
    ∧ win4_14.index t (1 : Fin 2) = 0
    ∧ win4_15.index t (0 : Fin 3) = t.val / 10
    ∧ win4_15.index t (1 : Fin 3) = 0
    ∧ win4_15.index t (2 : Fin 3) = 0 :=
  (by decide +kernel : ∀ t : Fin grid4.N, _)

/-! The parameter windows stay at block zero. -/
theorem idx_zero4_2 : ∀ t : Fin cfg4.N, win4_2.index t (0 : Fin 2) = 0 ∧ win4_2.index t (1 : Fin 2) = 0 :=
  (by decide +kernel : ∀ t : Fin grid4.N, _)
theorem idx_zero4_3 : ∀ t : Fin cfg4.N, win4_3.index t (0 : Fin 2) = 0 ∧ win4_3.index t (1 : Fin 2) = 0 :=
  (by decide +kernel : ∀ t : Fin grid4.N, _)
theorem idx_zero4_4 : ∀ t : Fin cfg4.N, win4_4.index t (0 : Fin 2) = 0 ∧ win4_4.index t (1 : Fin 2) = 0 :=
  (by decide +kernel : ∀ t : Fin grid4.N, _)
theorem idx_zero4_5 : ∀ t : Fin cfg4.N, win4_5.index t (0 : Fin 2) = 0 ∧ win4_5.index t (1 : Fin 2) = 0 :=
  (by decide +kernel : ∀ t : Fin grid4.N, _)
theorem idx_zero4_6 : ∀ t : Fin cfg4.N, win4_6.index t (0 : Fin 2) = 0 ∧ win4_6.index t (1 : Fin 2) = 0 :=
  (by decide +kernel : ∀ t : Fin grid4.N, _)
theorem idx_zero4_7 : ∀ t : Fin cfg4.N, win4_7.index t (0 : Fin 2) = 0 ∧ win4_7.index t (1 : Fin 2) = 0 :=
  (by decide +kernel : ∀ t : Fin grid4.N, _)
theorem idx_zero4_8 : ∀ t : Fin cfg4.N, win4_8.index t (0 : Fin 2) = 0 ∧ win4_8.index t (1 : Fin 2) = 0 :=
  (by decide +kernel : ∀ t : Fin grid4.N, _)
theorem idx_zero4_9 : ∀ t : Fin cfg4.N, win4_9.index t (0 : Fin 2) = 0 ∧ win4_9.index t (1 : Fin 2) = 0 :=
  (by decide +kernel : ∀ t : Fin grid4.N, _)
theorem idx_zero4_10 : ∀ t : Fin cfg4.N, win4_10.index t (0 : Fin 2) = 0 ∧ win4_10.index t (1 : Fin 2) = 0 :=
  (by decide +kernel : ∀ t : Fin grid4.N, _)
theorem idx_zero4_11 : ∀ t : Fin cfg4.N, win4_11.index t (0 : Fin 2) = 0 ∧ win4_11.index t (1 : Fin 2) = 0 :=
  (by decide +kernel : ∀ t : Fin grid4.N, _)
theorem idx_zero4_12 : ∀ t : Fin cfg4.N, win4_12.index t (0 : Fin 2) = 0 ∧ win4_12.index t (1 : Fin 2) = 0 :=
  (by decide +kernel : ∀ t : Fin grid4.N, _)
theorem idx_zero4_13 : ∀ t : Fin cfg4.N, win4_13.index t (0 : Fin 2) = 0 ∧ win4_13.index t (1 : Fin 2) = 0 :=
  (by decide +kernel : ∀ t : Fin grid4.N, _)

/-- A row of tile t is a row of the array. -/
theorem row_lt (t : Fin cfg4.N) (r : Fin 5000) : t.val * 5000 + r.val < 100000 := by
  have hN : cfg4.N = 20 := N_4
  have := t.isLt
  have := r.isLt
  omega

/-! ## The input blocks read at coordinates -/

/-- The input block at point t, row r: row t * 5000 + r of the input array. -/
theorem iblk_z (c : Dev nD) (t : Fin cfg4.N) (r : Fin 5000) (d : Fin 64) :
    iblk4 V c 0 t (ix2 r d) = V c (Pipeline.arrRef spec4 0) (ix2 ⟨t.val * 5000 + r.val, row_lt t r⟩ d) := by
  obtain ⟨e0, e1, -⟩ := idx_facts4 t
  unfold iblk4
  rw [View.read_apply]
  show V c (Pipeline.arrRef spec4 0) (((cfg4.win 0).blk t).view.emb (ix2 r d)) = _
  congr 1
  funext a; apply Fin.ext
  match a with
  | ⟨0, _⟩ => show win4_0.index t (0 : Fin 2) * 5000 + 1 * r.val = t.val * 5000 + r.val; rw [e0]; omega
  | ⟨1, _⟩ => show win4_0.index t (1 : Fin 2) * 64 + 1 * d.val = d.val; rw [e1]; omega

/-- The graph ids' block at point t, row r: the id of node t * 5000 + r. -/
theorem iblk_gid (c : Dev nD) (t : Fin cfg4.N) (r : Fin 5000) :
    iblk4 V c 1 t (ix2 r 0) = V c (Pipeline.arrRef spec4 1) (ix2 ⟨t.val * 5000 + r.val, row_lt t r⟩ 0) := by
  obtain ⟨-, -, e0, e1, -⟩ := idx_facts4 t
  unfold iblk4
  rw [View.read_apply]
  show V c (Pipeline.arrRef spec4 1) (((cfg4.win 1).blk t).view.emb (ix2 r 0)) = _
  congr 1
  funext a; apply Fin.ext
  match a with
  | ⟨0, _⟩ => show win4_1.index t (0 : Fin 2) * 5000 + 1 * r.val = t.val * 5000 + r.val; rw [e0]; omega
  | ⟨1, _⟩ => show win4_1.index t (1 : Fin 2) * 1 + 1 * 0 = 0; rw [e1]

/-- Window 2's block is its whole array at every point. -/
theorem iblk_par_2 (c : Dev nD) (t : Fin cfg4.N) : (iblk4 V c 2 t : S64x64.Idx → EReal) = V c (Pipeline.arrRef spec4 2) := by
  funext y
  obtain ⟨e0, e1⟩ := idx_zero4_2 t
  unfold iblk4
  rw [View.read_apply]
  show V c (Pipeline.arrRef spec4 2) (((cfg4.win 2).blk t).view.emb y) = V c (Pipeline.arrRef spec4 2) y
  congr 1
  funext a; apply Fin.ext
  match a with
  | ⟨0, _⟩ => show win4_2.index t (0 : Fin 2) * 64 + 1 * (y 0).val = (y 0).val; rw [e0]; omega
  | ⟨1, _⟩ => show win4_2.index t (1 : Fin 2) * 64 + 1 * (y 1).val = (y 1).val; rw [e1]; omega

/-- Window 3's block is its whole array at every point. -/
theorem iblk_par_3 (c : Dev nD) (t : Fin cfg4.N) : (iblk4 V c 3 t : S1x64.Idx → EReal) = V c (Pipeline.arrRef spec4 3) := by
  funext y
  obtain ⟨e0, e1⟩ := idx_zero4_3 t
  unfold iblk4
  rw [View.read_apply]
  show V c (Pipeline.arrRef spec4 3) (((cfg4.win 3).blk t).view.emb y) = V c (Pipeline.arrRef spec4 3) y
  congr 1
  funext a; apply Fin.ext
  match a with
  | ⟨0, _⟩ => show win4_3.index t (0 : Fin 2) * 1 + 1 * (y 0).val = (y 0).val; rw [e0]; omega
  | ⟨1, _⟩ => show win4_3.index t (1 : Fin 2) * 64 + 1 * (y 1).val = (y 1).val; rw [e1]; omega

/-- Window 4's block is its whole array at every point. -/
theorem iblk_par_4 (c : Dev nD) (t : Fin cfg4.N) : (iblk4 V c 4 t : S1x64.Idx → EReal) = V c (Pipeline.arrRef spec4 4) := by
  funext y
  obtain ⟨e0, e1⟩ := idx_zero4_4 t
  unfold iblk4
  rw [View.read_apply]
  show V c (Pipeline.arrRef spec4 4) (((cfg4.win 4).blk t).view.emb y) = V c (Pipeline.arrRef spec4 4) y
  congr 1
  funext a; apply Fin.ext
  match a with
  | ⟨0, _⟩ => show win4_4.index t (0 : Fin 2) * 1 + 1 * (y 0).val = (y 0).val; rw [e0]; omega
  | ⟨1, _⟩ => show win4_4.index t (1 : Fin 2) * 64 + 1 * (y 1).val = (y 1).val; rw [e1]; omega

/-- Window 5's block is its whole array at every point. -/
theorem iblk_par_5 (c : Dev nD) (t : Fin cfg4.N) : (iblk4 V c 5 t : S1x64.Idx → EReal) = V c (Pipeline.arrRef spec4 5) := by
  funext y
  obtain ⟨e0, e1⟩ := idx_zero4_5 t
  unfold iblk4
  rw [View.read_apply]
  show V c (Pipeline.arrRef spec4 5) (((cfg4.win 5).blk t).view.emb y) = V c (Pipeline.arrRef spec4 5) y
  congr 1
  funext a; apply Fin.ext
  match a with
  | ⟨0, _⟩ => show win4_5.index t (0 : Fin 2) * 1 + 1 * (y 0).val = (y 0).val; rw [e0]; omega
  | ⟨1, _⟩ => show win4_5.index t (1 : Fin 2) * 64 + 1 * (y 1).val = (y 1).val; rw [e1]; omega

/-- Window 6's block is its whole array at every point. -/
theorem iblk_par_6 (c : Dev nD) (t : Fin cfg4.N) : (iblk4 V c 6 t : S1x64.Idx → EReal) = V c (Pipeline.arrRef spec4 6) := by
  funext y
  obtain ⟨e0, e1⟩ := idx_zero4_6 t
  unfold iblk4
  rw [View.read_apply]
  show V c (Pipeline.arrRef spec4 6) (((cfg4.win 6).blk t).view.emb y) = V c (Pipeline.arrRef spec4 6) y
  congr 1
  funext a; apply Fin.ext
  match a with
  | ⟨0, _⟩ => show win4_6.index t (0 : Fin 2) * 1 + 1 * (y 0).val = (y 0).val; rw [e0]; omega
  | ⟨1, _⟩ => show win4_6.index t (1 : Fin 2) * 64 + 1 * (y 1).val = (y 1).val; rw [e1]; omega

/-- Window 7's block is its whole array at every point. -/
theorem iblk_par_7 (c : Dev nD) (t : Fin cfg4.N) : (iblk4 V c 7 t : S1x64.Idx → EReal) = V c (Pipeline.arrRef spec4 7) := by
  funext y
  obtain ⟨e0, e1⟩ := idx_zero4_7 t
  unfold iblk4
  rw [View.read_apply]
  show V c (Pipeline.arrRef spec4 7) (((cfg4.win 7).blk t).view.emb y) = V c (Pipeline.arrRef spec4 7) y
  congr 1
  funext a; apply Fin.ext
  match a with
  | ⟨0, _⟩ => show win4_7.index t (0 : Fin 2) * 1 + 1 * (y 0).val = (y 0).val; rw [e0]; omega
  | ⟨1, _⟩ => show win4_7.index t (1 : Fin 2) * 64 + 1 * (y 1).val = (y 1).val; rw [e1]; omega

/-- Window 8's block is its whole array at every point. -/
theorem iblk_par_8 (c : Dev nD) (t : Fin cfg4.N) : (iblk4 V c 8 t : S64x64.Idx → EReal) = V c (Pipeline.arrRef spec4 8) := by
  funext y
  obtain ⟨e0, e1⟩ := idx_zero4_8 t
  unfold iblk4
  rw [View.read_apply]
  show V c (Pipeline.arrRef spec4 8) (((cfg4.win 8).blk t).view.emb y) = V c (Pipeline.arrRef spec4 8) y
  congr 1
  funext a; apply Fin.ext
  match a with
  | ⟨0, _⟩ => show win4_8.index t (0 : Fin 2) * 64 + 1 * (y 0).val = (y 0).val; rw [e0]; omega
  | ⟨1, _⟩ => show win4_8.index t (1 : Fin 2) * 64 + 1 * (y 1).val = (y 1).val; rw [e1]; omega

/-- Window 9's block is its whole array at every point. -/
theorem iblk_par_9 (c : Dev nD) (t : Fin cfg4.N) : (iblk4 V c 9 t : S1x64.Idx → EReal) = V c (Pipeline.arrRef spec4 9) := by
  funext y
  obtain ⟨e0, e1⟩ := idx_zero4_9 t
  unfold iblk4
  rw [View.read_apply]
  show V c (Pipeline.arrRef spec4 9) (((cfg4.win 9).blk t).view.emb y) = V c (Pipeline.arrRef spec4 9) y
  congr 1
  funext a; apply Fin.ext
  match a with
  | ⟨0, _⟩ => show win4_9.index t (0 : Fin 2) * 1 + 1 * (y 0).val = (y 0).val; rw [e0]; omega
  | ⟨1, _⟩ => show win4_9.index t (1 : Fin 2) * 64 + 1 * (y 1).val = (y 1).val; rw [e1]; omega

/-- Window 10's block is its whole array at every point. -/
theorem iblk_par_10 (c : Dev nD) (t : Fin cfg4.N) : (iblk4 V c 10 t : S1x64.Idx → EReal) = V c (Pipeline.arrRef spec4 10) := by
  funext y
  obtain ⟨e0, e1⟩ := idx_zero4_10 t
  unfold iblk4
  rw [View.read_apply]
  show V c (Pipeline.arrRef spec4 10) (((cfg4.win 10).blk t).view.emb y) = V c (Pipeline.arrRef spec4 10) y
  congr 1
  funext a; apply Fin.ext
  match a with
  | ⟨0, _⟩ => show win4_10.index t (0 : Fin 2) * 1 + 1 * (y 0).val = (y 0).val; rw [e0]; omega
  | ⟨1, _⟩ => show win4_10.index t (1 : Fin 2) * 64 + 1 * (y 1).val = (y 1).val; rw [e1]; omega

/-- Window 11's block is its whole array at every point. -/
theorem iblk_par_11 (c : Dev nD) (t : Fin cfg4.N) : (iblk4 V c 11 t : S1x64.Idx → EReal) = V c (Pipeline.arrRef spec4 11) := by
  funext y
  obtain ⟨e0, e1⟩ := idx_zero4_11 t
  unfold iblk4
  rw [View.read_apply]
  show V c (Pipeline.arrRef spec4 11) (((cfg4.win 11).blk t).view.emb y) = V c (Pipeline.arrRef spec4 11) y
  congr 1
  funext a; apply Fin.ext
  match a with
  | ⟨0, _⟩ => show win4_11.index t (0 : Fin 2) * 1 + 1 * (y 0).val = (y 0).val; rw [e0]; omega
  | ⟨1, _⟩ => show win4_11.index t (1 : Fin 2) * 64 + 1 * (y 1).val = (y 1).val; rw [e1]; omega

/-- Window 12's block is its whole array at every point. -/
theorem iblk_par_12 (c : Dev nD) (t : Fin cfg4.N) : (iblk4 V c 12 t : S1x64.Idx → EReal) = V c (Pipeline.arrRef spec4 12) := by
  funext y
  obtain ⟨e0, e1⟩ := idx_zero4_12 t
  unfold iblk4
  rw [View.read_apply]
  show V c (Pipeline.arrRef spec4 12) (((cfg4.win 12).blk t).view.emb y) = V c (Pipeline.arrRef spec4 12) y
  congr 1
  funext a; apply Fin.ext
  match a with
  | ⟨0, _⟩ => show win4_12.index t (0 : Fin 2) * 1 + 1 * (y 0).val = (y 0).val; rw [e0]; omega
  | ⟨1, _⟩ => show win4_12.index t (1 : Fin 2) * 64 + 1 * (y 1).val = (y 1).val; rw [e1]; omega

/-- Window 13's block is its whole array at every point. -/
theorem iblk_par_13 (c : Dev nD) (t : Fin cfg4.N) : (iblk4 V c 13 t : S1x64.Idx → EReal) = V c (Pipeline.arrRef spec4 13) := by
  funext y
  obtain ⟨e0, e1⟩ := idx_zero4_13 t
  unfold iblk4
  rw [View.read_apply]
  show V c (Pipeline.arrRef spec4 13) (((cfg4.win 13).blk t).view.emb y) = V c (Pipeline.arrRef spec4 13) y
  congr 1
  funext a; apply Fin.ext
  match a with
  | ⟨0, _⟩ => show win4_13.index t (0 : Fin 2) * 1 + 1 * (y 0).val = (y 0).val; rw [e0]; omega
  | ⟨1, _⟩ => show win4_13.index t (1 : Fin 2) * 64 + 1 * (y 1).val = (y 1).val; rw [e1]; omega

/-! ## Window 14: what a point stores is its rows of the layer's output -/

/-- The stored block at point t, row r, column j. -/
theorem after14_apply (c : Dev nD) (t : Fin cfg4.N) (r : Fin 5000) (j : Fin 64) :
    k4_pay5 (k4_pay3 (iblk4 V c 0 t) (iblk4 V c 2 t) (iblk4 V c 3 t) (iblk4 V c 4 t) (iblk4 V c 7 t) (iblk4 V c 6 t) (iblk4 V c 5 t))
        (k4_pay4 (iblk4 V c 8 t)) (iblk4 V c 9 t) (iblk4 V c 10 t) (iblk4 V c 13 t) (iblk4 V c 12 t) (iblk4 V c 11 t) (ix2 r j)
      = hNext4 V c ⟨t.val * 5000 + r.val, row_lt t r⟩ j := by
  refine (pay5_apply _ _ _ _ _ _ _ _ _ _ _ _ _ r j).trans ?_
  unfold hNext4
  simp only [iblk_z, iblk_par_2, iblk_par_3, iblk_par_4, iblk_par_5, iblk_par_6, iblk_par_7, iblk_par_8, iblk_par_9, iblk_par_10, iblk_par_11, iblk_par_12, iblk_par_13]

/-! ## Window 14: the array after the region -/

section Window14

variable (c : Dev nD) (dat : Dat τ (Elt Ideal) Unit ℕ (UR sig nD τ) ℕ cfg4 c)

/-- What a point stores into window 14's block, as the frame states it: the second half's payload of the first half's, of the
    point's input blocks. -/
abbrev stored14 (c : Dev nD) (t : Fin cfg4.N) : FVec Ideal S5000x64 .f32 :=
  k4_pay5 (k4_pay3 (iblk4 V c 0 t) (iblk4 V c 2 t) (iblk4 V c 3 t) (iblk4 V c 4 t) (iblk4 V c 7 t) (iblk4 V c 6 t) (iblk4 V c 5 t))
    (k4_pay4 (iblk4 V c 8 t)) (iblk4 V c 9 t) (iblk4 V c 10 t) (iblk4 V c 13 t) (iblk4 V c 12 t) (iblk4 V c 11 t)

/-- Where row r, column j of point t's block sits in the array. -/
theorem emb14 (t : Fin cfg4.N) (r : Fin 5000) (j : Fin 64) :
    ((cfg4.win 14).blk t).view.emb (ix2 r j) = ix2 ⟨t.val * 5000 + r.val, row_lt t r⟩ j := by
  obtain ⟨-, -, -, -, e0, e1, -⟩ := idx_facts4 t
  funext a; apply Fin.ext
  match a with
  | ⟨0, _⟩ => show win4_14.index t (0 : Fin 2) * 5000 + 1 * r.val = t.val * 5000 + r.val; rw [e0]; omega
  | ⟨1, _⟩ => show win4_14.index t (1 : Fin 2) * 64 + 1 * j.val = j.val; rw [e1]; omega

/-- WHAT POINT t WRITES BACK is block t of the layer's output. -/
theorem flushed14_eq (h14 : ∀ t, dat.after 14 t = stored14 V c t) (t : Fin cfg4.N) :
    dat.flushed 14 t = ((cfg4.win 14).blk t).view.read (Elt Ideal) (hNextArr4 V c) := by
  show (cfg4.win 14).cut (cfg4.grid.coords t) (dat.after 14 t) = _
  rw [h14]
  funext y
  obtain ⟨r, j, rfl⟩ : ∃ (r : Fin 5000) (j : Fin 64), y = ix2 r j := ⟨y 0, y 1, eq_ix2 y⟩
  rw [View.read_apply]
  show stored14 V c t (ix2 r j) = hNextArr4 V c (((cfg4.win 14).blk t).view.emb (ix2 r j))
  rw [emb14, hNextArr4_apply]
  exact after14_apply V c t r j

/-- An index of the array is in point t's block iff each coordinate is in the block's range on its axis. -/
theorem mem_blk14 (t : Fin cfg4.N) (i : S100000x64.Idx) :
    i ∈ ((cfg4.win 14).blk t).view.set ↔ ∀ a : Fin 2, win4_14.index t a * S5000x64.size a ≤ (i a).val ∧ (i a).val < win4_14.index t a * S5000x64.size a + S5000x64.size a := by
  show i ∈ ((View.whole (Pipeline.arrRef spec4 14)).slice (win4_14.rect t)).set ↔ _
  rw [View.set_slice_whole, Rect.mem_set_unit]
  exact Iff.rfl

/-- Every row is in the block of the point its tile names. -/
theorem cover14 (i : S100000x64.Idx) :
    ∃ t : Fin cfg4.N, (cfg4.win 14).flush t = true ∧ i ∈ ((cfg4.win 14).blk t).view.set := by
  have hN : cfg4.N = 20 := N_4
  have hi0 : (i 0).val < 100000 := (i 0).isLt
  have hi1 : (i 1).val < 64 := (i 1).isLt
  let t : Fin cfg4.N := ⟨(i 0).val / 5000, by omega⟩
  obtain ⟨-, -, -, -, e0, e1, -⟩ := idx_facts4 t
  have ht : t.val = (i 0).val / 5000 := rfl
  refine ⟨t, flush4_14 t, ?_⟩
  rw [mem_blk14]
  intro a
  match a with
  | ⟨0, _⟩ => show win4_14.index t (0 : Fin 2) * 5000 ≤ (i 0).val ∧ (i 0).val < win4_14.index t (0 : Fin 2) * 5000 + 5000; rw [e0, ht]; omega
  | ⟨1, _⟩ => show win4_14.index t (1 : Fin 2) * 64 ≤ (i 1).val ∧ (i 1).val < win4_14.index t (1 : Fin 2) * 64 + 64; rw [e1]; omega

/-- THE ARRAY of window 14 after the region: the layer's output, node by node. -/
theorem arr14 (h14 : ∀ t, dat.after 14 t = stored14 V c t) : dat.arrAt 14 cfg4.N = hNextArr4 V c :=
  dat.arrAt_eq_of_cover 14 (hNextArr4 V c) (fun t _ => flushed14_eq V c dat h14 t) (cover14)

/-- The same at a node and a column. -/
theorem arr14_apply (h14 : ∀ t, dat.after 14 t = stored14 V c t) (n : Fin 100000) (j : Fin 64) :
    dat.arrAt 14 cfg4.N (ix2 n j) = hNext4 V c n j :=
  congrFun (arr14 V c dat h14) (ix2 n j)

end Window14

end Cert.KernelIdeal.Val4

end
-- ==== Proof.KIVal4R.lean ====
import proofs.«402532_j352187319172_1_alg».proof.Proof.KIVal4H
import proofs.«402532_j352187319172_1_alg».proof.Proof.SpecSums

/-!
# Region 4, window 15: the pooled readout

A point's contribution to its core's readout block as a one-hot weighted sum of the tile's output rows, the block carried
from tile to tile as a partial sum, and the readout array after the region: each core's partial sum after its tenth tile.
-/

set_option maxRecDepth 16384

noncomputable section

namespace Cert.KernelIdeal.Val4

open Cert.KernelIdeal Cert.KernelIdeal.Gen Idealize.ShloMosaic Idealize.ShloMosaic.ValueIdx Idealize.ShloMosaic.TcCoe
open Idealize.SL Idealize.SL.Sem
open Idealize.ShloMosaic.Rounds
open Idealize.ShloMosaic.Pipeline (Dat)
open scoped BigOperators

variable (V : (c : Dev nD) → (b : Ref sig .tc) → Buf (Elt Ideal) ((c : Thread nD τ).loc b))

/-! ## Window 15: the pooled readout, accumulated over a core's ten tiles -/

section Window15

variable (c : Dev nD) (dat : Dat τ (Elt Ideal) Unit ℕ (UR sig nD τ) ℕ cfg4 c)

/-- A point's contribution to the readout block, as the frame states it: the pooling payload of the point's input blocks. -/
abbrev contrib4 (c : Dev nD) (t : Fin cfg4.N) : FVec Ideal S512x64 .f32 :=
  k4_pay6 (k4_pay3 (iblk4 V c 0 t) (iblk4 V c 2 t) (iblk4 V c 3 t) (iblk4 V c 4 t) (iblk4 V c 7 t) (iblk4 V c 6 t) (iblk4 V c 5 t))
    (k4_pay4 (iblk4 V c 8 t)) (iblk4 V c 9 t) (iblk4 V c 10 t) (iblk4 V c 13 t) (iblk4 V c 12 t) (iblk4 V c 11 t) (iblk4 V c 1 t)

/-- The contribution at graph g and column j: the sum of the tile's output rows whose graph id is g. -/
theorem contrib4_apply (t : Fin cfg4.N) (g : Fin 512) (j : Fin 64) :
    contrib4 V c t (ix2 g j)
      = ∑ r : Fin 5000, (if (V c (Pipeline.arrRef spec4 1) (ix2 (⟨t.val * 5000 + r.val, row_lt t r⟩ : Fin 100000) 0)).toInt = (g.val : ℤ) then (1 : EReal) else 0)
          * hNext4 V c ⟨t.val * 5000 + r.val, row_lt t r⟩ j := by
  refine (pay6_apply _ _ _ _ _ _ _ _ g j).trans ?_
  refine Finset.sum_congr rfl fun r _ => ?_
  rw [after14_apply, iblk_gid]

/-- Tile k of core cc contributes, at graph g and column j (zero past the core's ten tiles). -/
def poolTile4 (c : Dev nD) (cc : Fin 2) (g : Fin 512) (j : Fin 64) (k : ℕ) : EReal :=
  if hk : k < 10 then ∑ r : Fin 5000, (if (V c (Pipeline.arrRef spec4 1) (ix2 (GinSpec.row (GinSpec.tile20 cc ⟨k, hk⟩) r) 0)).toInt = (g.val : ℤ) then (1 : EReal) else 0) * hNext4 V c (GinSpec.row (GinSpec.tile20 cc ⟨k, hk⟩) r) j else 0

/-- The readout partial sums as contents of the output array: core cc's accumulator after its tenth tile. -/
def readoutArr4 (c : Dev nD) : S2x512x64.Idx → EReal := fun i => GinSpec.accUpTo (poolTile4 V c (i 0) (i 1) (i 2)) 9

theorem readoutArr4_apply (c : Dev nD) (cc : Fin 2) (g : Fin 512) (j : Fin 64) :
    readoutArr4 V c (ix3 cc g j) = GinSpec.accUpTo (poolTile4 V c cc g j) 9 := rfl

/-- The two cores' partial sums add up to the pooled sum of the layer's output over the graph's nodes. -/
theorem readoutArr4_pool (c : Dev nD) (g : Fin 512) (j : Fin 64) :
    (0 : EReal) + ∑ cc : Fin 2, readoutArr4 V c (ix3 cc g j)
      = GinSpec.pool (fun n => hNext4 V c n j) (fun n => V c (Pipeline.arrRef spec4 1) (ix2 n 0)) g := by
  rw [GinSpec.pool_eq_cores]
  rfl

/-- Tile k of core cc is a point of the grid. -/
theorem tile_lt (cc : Fin 2) (k : ℕ) (hk : k < 10) : cc.val * 10 + k < cfg4.N := by
  have hN : cfg4.N = 20 := N_4
  have := cc.isLt
  omega

/-- The contribution of the point that is tile k of core cc is that tile's. -/
theorem contrib4_tile (cc : Fin 2) (k : ℕ) (hk : k < 10) (g : Fin 512) (j : Fin 64) :
    contrib4 V c ⟨cc.val * 10 + k, tile_lt cc k hk⟩ (ix2 g j) = poolTile4 V c cc g j k := by
  rw [contrib4_apply]
  unfold poolTile4
  rw [dif_pos hk]
  rfl

/-- Where graph g, column j of point t's block sits in the array: in the core's slab. -/
theorem emb15 (t : Fin cfg4.N) (g : Fin 512) (j : Fin 64) :
    ((cfg4.win 15).blk t).view.emb (ix3 (0 : Fin 1) g j) = ix3 (⟨t.val / 10, by have hN : cfg4.N = 20 := N_4; have := t.isLt; omega⟩ : Fin 2) g j := by
  obtain ⟨-, -, -, -, -, -, e0, e1, e2⟩ := idx_facts4 t
  funext a; apply Fin.ext
  match a with
  | ⟨0, _⟩ => show win4_15.index t (0 : Fin 3) * 1 + 1 * 0 = t.val / 10; rw [e0]; omega
  | ⟨1, _⟩ => show win4_15.index t (1 : Fin 3) * 512 + 1 * g.val = g.val; rw [e1]; omega
  | ⟨2, _⟩ => show win4_15.index t (2 : Fin 3) * 64 + 1 * j.val = j.val; rw [e2]; omega

/-- An index of the array is in point t's block iff each coordinate is in the block's range on its axis. -/
theorem mem_blk15 (t : Fin cfg4.N) (i : S2x512x64.Idx) :
    i ∈ ((cfg4.win 15).blk t).view.set ↔ ∀ a : Fin 3, win4_15.index t a * S1x512x64.size a ≤ (i a).val ∧ (i a).val < win4_15.index t a * S1x512x64.size a + S1x512x64.size a := by
  show i ∈ ((View.whole (Pipeline.arrRef spec4 15)).slice (win4_15.rect t)).set ↔ _
  rw [View.set_slice_whole, Rect.mem_set_unit]
  exact Iff.rfl

/-- Every index is in the block of its core's last point. -/
theorem cover15 (i : S2x512x64.Idx) :
    ∃ t : Fin cfg4.N, (cfg4.win 15).flush t = true ∧ i ∈ ((cfg4.win 15).blk t).view.set := by
  have hN : cfg4.N = 20 := N_4
  have hi0 : (i 0).val < 2 := (i 0).isLt
  have hi1 : (i 1).val < 512 := (i 1).isLt
  have hi2 : (i 2).val < 64 := (i 2).isLt
  let t : Fin cfg4.N := ⟨(i 0).val * 10 + 9, by omega⟩
  obtain ⟨-, -, -, -, -, -, e0, e1, e2⟩ := idx_facts4 t
  have ht : t.val = (i 0).val * 10 + 9 := rfl
  refine ⟨t, (flush4_15 t).mpr (by rw [ht]; omega), ?_⟩
  rw [mem_blk15]
  intro a
  match a with
  | ⟨0, _⟩ => show win4_15.index t (0 : Fin 3) * 1 ≤ (i 0).val ∧ (i 0).val < win4_15.index t (0 : Fin 3) * 1 + 1; rw [e0, ht]; omega
  | ⟨1, _⟩ => show win4_15.index t (1 : Fin 3) * 512 ≤ (i 1).val ∧ (i 1).val < win4_15.index t (1 : Fin 3) * 512 + 512; rw [e1]; omega
  | ⟨2, _⟩ => show win4_15.index t (2 : Fin 3) * 64 ≤ (i 2).val ∧ (i 2).val < win4_15.index t (2 : Fin 3) * 64 + 64; rw [e2]; omega

variable (h15a : ∀ t : Fin cfg4.N, t.val % 10 = 0 → dat.after 15 t = k4_pay1 (contrib4 V c t) (k4_pay2 (F := Ideal)))
  (h15b : ∀ (t : Fin cfg4.N) (h : ¬ t.val % 10 = 0), dat.after 15 t = k4_pay1 (contrib4 V c t) (dat.after 15 ⟨t.val - 1, Nat.lt_of_le_of_lt (Nat.sub_le _ _) t.isLt⟩))

include h15a h15b

/-- THE ACCUMULATOR after tile k of core cc, at graph g and column j: the partial sum of the core's tiles up to k. -/
theorem after15_tile (cc : Fin 2) (g : Fin 512) (j : Fin 64) :
    ∀ (k : ℕ) (hk : k < 10), dat.after 15 ⟨cc.val * 10 + k, tile_lt cc k hk⟩ (ix3 0 g j) = GinSpec.accUpTo (poolTile4 V c cc g j) k
  | 0, hk => by
    have h0 : (⟨cc.val * 10 + 0, tile_lt cc 0 hk⟩ : Fin cfg4.N).val % 10 = 0 := by show (cc.val * 10 + 0) % 10 = 0; omega
    rw [h15a _ h0, pay1_apply, pay2_apply, contrib4_tile V c cc 0 hk]
    rfl
  | k + 1, hk => by
    have hs : ¬ (⟨cc.val * 10 + (k + 1), tile_lt cc (k + 1) hk⟩ : Fin cfg4.N).val % 10 = 0 := by show ¬ (cc.val * 10 + (k + 1)) % 10 = 0; omega
    rw [h15b _ hs, pay1_apply, contrib4_tile V c cc (k + 1) hk]
    have hp : (⟨(⟨cc.val * 10 + (k + 1), tile_lt cc (k + 1) hk⟩ : Fin cfg4.N).val - 1, Nat.lt_of_le_of_lt (Nat.sub_le _ _) (⟨cc.val * 10 + (k + 1), tile_lt cc (k + 1) hk⟩ : Fin cfg4.N).isLt⟩ : Fin cfg4.N)
        = ⟨cc.val * 10 + k, tile_lt cc k (Nat.lt_of_succ_lt hk)⟩ := Fin.ext (by show cc.val * 10 + (k + 1) - 1 = cc.val * 10 + k; omega)
    rw [hp, after15_tile cc g j k (Nat.lt_of_succ_lt hk)]
    rfl

/-- The same at any point named by its core and tile. -/
theorem after15_point (t : Fin cfg4.N) (cc : Fin 2) (k : ℕ) (hk : k < 10) (ht : t.val = cc.val * 10 + k) (g : Fin 512) (j : Fin 64) :
    dat.after 15 t (ix3 0 g j) = GinSpec.accUpTo (poolTile4 V c cc g j) k := by
  obtain rfl : t = ⟨cc.val * 10 + k, tile_lt cc k hk⟩ := Fin.ext ht
  exact after15_tile V c dat h15a h15b cc g j k hk

/-- WHAT A FLUSHING POINT WRITES BACK (the last tile of its core) is its core's slab of the readout partial sums. -/
theorem flushed15_eq (t : Fin cfg4.N) (hf : (cfg4.win 15).flush t = true) :
    dat.flushed 15 t = ((cfg4.win 15).blk t).view.read (Elt Ideal) (readoutArr4 V c) := by
  have hN : cfg4.N = 20 := N_4
  have h9 : t.val % 10 = 9 := (flush4_15 t).mp hf
  have htl := t.isLt
  funext y
  obtain ⟨u, g, j, rfl⟩ : ∃ (u : Fin 1) (g : Fin 512) (j : Fin 64), y = ix3 u g j := ⟨y 0, y 1, y 2, eq_ix3 y⟩
  obtain rfl : u = 0 := Subsingleton.elim _ _
  refine Eq.trans (b := dat.after 15 t (ix3 0 g j)) rfl ?_
  rw [View.read_apply]
  refine Eq.trans ?_ (b := readoutArr4 V c (((cfg4.win 15).blk t).view.emb (ix3 (0 : Fin 1) g j))) rfl
  rw [emb15, readoutArr4_apply]
  exact after15_point V c dat h15a h15b t ⟨t.val / 10, by omega⟩ 9 (by omega) (by show t.val = t.val / 10 * 10 + 9; omega) g j

/-- THE ARRAY of window 15 after the region: each core's accumulator after its tenth tile. -/
theorem arr15 : dat.arrAt 15 cfg4.N = readoutArr4 V c :=
  dat.arrAt_eq_of_cover 15 (readoutArr4 V c) (fun t hf => flushed15_eq V c dat h15a h15b t hf) (cover15)

/-- The same at a core, a graph and a column, the partial sums written out. -/
theorem arr15_apply (cc : Fin 2) (g : Fin 512) (j : Fin 64) :
    dat.arrAt 15 cfg4.N (ix3 cc g j)
      = GinSpec.accUpTo (fun k => if hk : k < 10 then ∑ r : Fin 5000, (if (V c (Pipeline.arrRef spec4 1) (ix2 (GinSpec.row (GinSpec.tile20 cc ⟨k, hk⟩) r) 0)).toInt = (g.val : ℤ) then (1 : EReal) else 0) * hNext4 V c (GinSpec.row (GinSpec.tile20 cc ⟨k, hk⟩) r) j else 0) 9 :=
  congrFun (arr15 V c dat h15a h15b) (ix3 cc g j)

/-- The two cores' partial sums add up to the pooled sum of the layer's output over the graph's nodes. -/
theorem arr15_pool (g : Fin 512) (j : Fin 64) :
    (0 : EReal) + Finset.sum (M := EReal) (Finset.univ : Finset (Fin 2)) (fun cc => dat.arrAt 15 cfg4.N (ix3 cc g j))
      = GinSpec.pool (fun n => hNext4 V c n j) (fun n => V c (Pipeline.arrRef spec4 1) (ix2 n 0)) g := by
  rw [arr15 V c dat h15a h15b]
  exact readoutArr4_pool V c g j

end Window15

end Cert.KernelIdeal.Val4

end
-- ==== Proof.KIVal4Dat.lean ====
import proofs.«402532_j352187319172_1_alg».proof.Proof.KIVal4R
import proofs.«402532_j352187319172_1_alg».proof.Proof.KIReg4

/-!
# Region 4: its two output arrays, for the region's own proof data

The frame's proof data of region 1 leaves, in window 14's buffer, the layer's output block and, in window 15's, the
accumulation from point to point; so its two output arrays after the region are the layer's output and the cores' pooled
partial sums.
-/

set_option maxRecDepth 16384

noncomputable section

namespace Cert.KernelIdeal.Val4

open Cert.KernelIdeal Cert.KernelIdeal.Gen Idealize.ShloMosaic Idealize.ShloMosaic.ValueIdx Idealize.ShloMosaic.TcCoe
open Idealize.SL Idealize.SL.Sem
open Idealize.ShloMosaic.Rounds
open Idealize.ShloMosaic.Pipeline (Dat)
open scoped BigOperators

variable (V : (c : Dev nD) → (b : Ref sig .tc) → Buf (Elt Ideal) ((c : Thread nD τ).loc b))

/-- The proof data's window 14 buffer after a point is the stored block. -/
theorem dat4_after14 (c : Dev nD) (t : Fin cfg4.N) : (dat4 V c).after 14 t = stored14 V c t :=
  after4_14 V c t

/-- The proof data's window 15 buffer after the first point of a core's run: the contribution over zeros. -/
theorem dat4_after15_first (c : Dev nD) (t : Fin cfg4.N) (h : t.val % 10 = 0) :
    (dat4 V c).after 15 t = k4_pay1 (Val4.contrib4 V c t) (k4_pay2 (F := Ideal)) :=
  (after4_15 V c t).trans (outsAt4_first V c t h)

/-- The proof data's window 15 buffer after any other point: the contribution over what the point before left. -/
theorem dat4_after15_next (c : Dev nD) (t : Fin cfg4.N) (h : ¬ t.val % 10 = 0) :
    (dat4 V c).after 15 t
      = k4_pay1 (Val4.contrib4 V c t) ((dat4 V c).after 15 ⟨t.val - 1, Nat.lt_of_le_of_lt (Nat.sub_le _ _) t.isLt⟩) :=
  (after4_15 V c t).trans ((outsAt4_next V c t h).trans
    (congrArg (k4_pay1 (Val4.contrib4 V c t)) (after4_15 V c ⟨t.val - 1, Nat.lt_of_le_of_lt (Nat.sub_le _ _) t.isLt⟩).symm))

/-- Window 14's array after the region: the layer's output. -/
theorem arr14_dat4 (c : Dev nD) : (dat4 V c).arrAt 14 cfg4.N = hNextArr4 V c :=
  arr14 V c (dat4 V c) (dat4_after14 V c)

/-- The same at a node and a column. -/
theorem arr14_dat4_apply (c : Dev nD) (n : Fin 100000) (j : Fin 64) : (dat4 V c).arrAt 14 cfg4.N (ix2 n j) = hNext4 V c n j :=
  congrFun (arr14_dat4 V c) (ix2 n j)

/-- Window 15's array after the region: each core's pooled partial sum after its tenth tile. -/
theorem arr15_dat4 (c : Dev nD) : (dat4 V c).arrAt 15 cfg4.N = readoutArr4 V c :=
  arr15 V c (dat4 V c) (dat4_after15_first V c) (dat4_after15_next V c)

/-- The same at a core, a graph and a column. -/
theorem arr15_dat4_apply (c : Dev nD) (cc : Fin 2) (g : Fin 512) (j : Fin 64) :
    (dat4 V c).arrAt 15 cfg4.N (ix3 cc g j) = GinSpec.accUpTo (poolTile4 V c cc g j) 9 :=
  congrFun (arr15_dat4 V c) (ix3 cc g j)

/-- The two cores' partial sums add up to the pooled sum of the layer's output over the graph's nodes. -/
theorem arr15_dat4_pool (c : Dev nD) (g : Fin 512) (j : Fin 64) :
    (0 : EReal) + Finset.sum (M := EReal) (Finset.univ : Finset (Fin 2)) (fun cc => (dat4 V c).arrAt 15 cfg4.N (ix3 cc g j))
      = GinSpec.pool (fun n => hNext4 V c n j) (fun n => V c (Pipeline.arrRef spec4 1) (ix2 n 0)) g :=
  arr15_pool V c (dat4 V c) (dat4_after15_first V c) (dat4_after15_next V c) g j

end Cert.KernelIdeal.Val4

end
-- ==== Proof.KIHostLib.lean ====
import Idealize.ShloMosaic.Lib.StableHlo.Run
import Idealize.ShloMosaic.Lib.ValueIdx
import Idealize.ShloMosaic.Lib.Pipeline.Value
import Idealize.ShloMosaic.Lib.ValueLayout
import Idealize.ShloMosaic.PureOps.Ideal.Laws

/-!
# Host layout chains read at an index

Small facts about the layout operations a host program puts between its arguments and a kernel's operands, each read
at one index by coordinates: a vector seen as a column, one row of a stack of rows carried through a slice and two
reshapes, one matrix of a stack of matrices carried through a slice and a reshape, a host sum over a leading axis of
extent two, and the result of a five-operand operation with each operand at its own reference.
-/

noncomputable section

open scoped BigOperators

namespace Cert.KernelIdeal.HostVal

open Idealize.ShloMosaic Idealize.ShloMosaic.TcCoe Idealize.ShloMosaic.ValueIdx

section Layout
variable {α : Type}

/-- A vector `[n]` cast to a column `[n, 1]` reads, at `(i, u)`, the vector at `i`: the two row-major positions are
    `i` and `i * 1 + u` with `u = 0`. -/
theorem shapeCast_a_a1_apply {n : ℕ} (x : (⟨1, ![n]⟩ : Shape).Idx → α) (h : (⟨1, ![n]⟩ : Shape).ShapeCasts ⟨2, ![n, 1]⟩)
    (i : Fin n) (u : Fin 1) : shapeCast ⟨2, ![n, 1]⟩ x h (ix2 i u) = x (ix1 i) :=
  shapeCast_apply x h _ _ (by
    have hu : u.val = 0 := by omega
    rw [Shape.rowMajor_val_two, Shape.rowMajor_val_one]
    show i.val = i.val * 1 + u.val
    omega)

/-- Row `K` of an `[r, c]` stack of rows, cut out as `[1, c]`, flattened to `[c]` and put back as `[1, c]`, reads at
    `(u, k)` the stack at `(K, k)`. -/
theorem row_slice_apply {r c : ℕ} (o : ℕ) (X : (⟨2, ![r, c]⟩ : Shape).Idx → α)
    (hs : (⟨2, ![r, c]⟩ : Shape).Slices ![o, 0] ⟨2, ![1, c]⟩)
    (h1 : (⟨2, ![1, c]⟩ : Shape).ShapeCasts ⟨1, ![c]⟩) (h2 : (⟨1, ![c]⟩ : Shape).ShapeCasts ⟨2, ![1, c]⟩)
    (u : Fin 1) (k : Fin c) (K : Fin r) (hK : K.val = o) :
    shapeCast ⟨2, ![1, c]⟩ (shapeCast ⟨1, ![c]⟩ (extractStridedSlice ⟨2, ![1, c]⟩ ![o, 0] X hs) h1) h2 (ix2 u k)
      = X (ix2 K k) := by
  rw [shapeCast_a_1a_apply, shapeCast_1a_a_apply]
  exact slice2_axis0_apply o X hs 0 k K (by rw [hK]; rfl)

/-- Matrix `K` of an `[r, a, b]` stack of matrices, cut out as `[1, a, b]` and cast to `[a, b]`, reads at `(i, j)` the
    stack at `(K, i, j)`. -/
theorem plane_slice_apply {r a b : ℕ} (o : ℕ) (X : (⟨3, ![r, a, b]⟩ : Shape).Idx → α)
    (hs : (⟨3, ![r, a, b]⟩ : Shape).Slices ![o, 0, 0] ⟨3, ![1, a, b]⟩)
    (h1 : (⟨3, ![1, a, b]⟩ : Shape).ShapeCasts ⟨2, ![a, b]⟩)
    (i : Fin a) (j : Fin b) (K : Fin r) (hK : K.val = o) :
    shapeCast ⟨2, ![a, b]⟩ (extractStridedSlice ⟨3, ![1, a, b]⟩ ![o, 0, 0] X hs) h1 (ix2 i j) = X (ix3 K i j) := by
  rw [shapeCast_1ab_ab_apply]
  exact extractStridedSlice_apply _ _ _ _ _ (fun ax => by
    match ax with
    | ⟨0, _⟩ => show K.val = o + 0; omega
    | ⟨1, _⟩ => exact (Nat.zero_add _).symm
    | ⟨2, _⟩ => exact (Nat.zero_add _).symm)

end Layout

/-- The host's sum of a `[2, G, C]` array over its leading axis from the zero word, at the ideal values and at `(g, j)`:
    zero plus the two entries above `(g, j)`. -/
theorem readout_apply {G C : ℕ} (x : FVec Ideal ⟨3, ![2, G, C]⟩ .f32)
    (h' : (⟨3, ![2, G, C]⟩ : Shape).ReducesTo [0] ⟨2, ![G, C]⟩) (h : (⟨3, ![2, G, C]⟩ : Shape).Reduces [0] ⟨2, ![G, C]⟩)
    (hu : 0 < (⟨0, ![]⟩ : Shape).numel) (g : Fin G) (j : Fin C) :
    Host.reduceAdd x (constant (F := Ideal) ⟨0, ![]⟩ .f32 0x00000000#32) h' hu (ix2 g j)
      = 0 + ∑ cc : Fin 2, x (ix3 cc g j) := by
  unfold Host.reduceAdd
  rw [Ideal.hostReduceAdd_def, Ideal.hostReduceAdd_single h' h, constant_apply, Ideal.ofBits_zero_f32]
  refine congrArg (0 + ·) (Finset.sum_congr rfl fun k _ => congrArg x ?_)
  funext c
  apply Fin.ext
  match c with
  | ⟨0, _⟩ => rfl
  | ⟨1, _⟩ => rfl
  | ⟨2, _⟩ => rfl

section Nary
variable {τ : Topo} {sig : RefSig} {Val : EltTy → Type}

/-- An operation over a LITERAL family of five references leaves, at its result reference, its function applied to
    each operand's contents at that operand's own reference. -/
theorem nary5_result {x a b c d y : Ref sig .tc}
    (f : ((k : Fin 5) → ((![x, a, b, c, d] : Fin 5 → Ref sig .tc) k).ty.Contents Val) → y.ty.Contents Val) (hxs hy)
    (F : Valuation τ sig Val) :
    (StableHlo.nary (τ := τ) ![x, a, b, c, d] y f hxs hy).result F (Proc.devRef .tc y)
      = f (Fin.cons (F (Proc.devRef .tc x)) (Fin.cons (F (Proc.devRef .tc a)) (Fin.cons (F (Proc.devRef .tc b))
          (Fin.cons (F (Proc.devRef .tc c)) (Fin.cons (F (Proc.devRef .tc d)) (fun i => i.elim0)))))) := by
  rw [StableHlo.nary_result]
  congr 1
  funext k
  fin_cases k <;> rfl

end Nary

end Cert.KernelIdeal.HostVal

end
-- ==== Proof.KIHostDefs.lean ====
import proofs.«402532_j352187319172_1_alg».proof.Proof.Gen.KernelIdeal
import proofs.«402532_j352187319172_1_alg».proof.Proof.KIHostLib

/-!
# The host stretches' functions

The values the host operations between the kernel's five regions compute, each as ONE function of the arrays it reads:
the two rows of the edge list, a layer's aggregation (128 features wide for layer 0, 64 for the later layers), a layer's
pooled readout, and the classifier on the five readouts. The stretch modules state what each stretch leaves in these
terms; nothing downstream opens them.
-/

noncomputable section

open scoped BigOperators

namespace Cert.KernelIdeal.HostVal

open Idealize.ShloMosaic Idealize.ShloMosaic.TcCoe Idealize.ShloMosaic.ValueIdx
open Cert.KernelIdeal Cert.KernelIdeal.Gen

/-! ## The edge list's two rows -/

/-- The edges' source ids: row 0 of the edge list, as a vector. -/
def srcOf (ei : (⟨S2x1600000, .i32⟩ : BufTy).Contents (Elt Ideal)) : (⟨S1600000, .i32⟩ : BufTy).Contents (Elt Ideal) :=
  shapeCast S1600000 (extractStridedSlice S1x1600000 ![0, 0] ei slices_S2x1600000_S1x1600000_0_0) shapeCasts_S1x1600000_S1600000

/-- The edges' destination ids: row 1 of the edge list, as a vector. -/
def dstOf (ei : (⟨S2x1600000, .i32⟩ : BufTy).Contents (Elt Ideal)) : (⟨S1600000, .i32⟩ : BufTy).Contents (Elt Ideal) :=
  shapeCast S1600000 (extractStridedSlice S1x1600000 ![1, 0] ei slices_S2x1600000_S1x1600000_1_0) shapeCasts_S1x1600000_S1600000

/-! ## The aggregation before a layer's MLP -/

/-- Layer 0's aggregation over the 128 input features, as the host computes it: (1 + eps[0]) * x plus, at each node, the
    sum over the edges that end there of x at the edge's source (a negative source id wrapped by the node count). -/
def agg128 (x : (⟨S100000x128, .f32⟩ : BufTy).Contents (Elt Ideal)) (ei : (⟨S2x1600000, .i32⟩ : BufTy).Contents (Elt Ideal))
    (eps : (⟨S5, .f32⟩ : BufTy).Contents (Elt Ideal)) : (⟨S100000x128, .f32⟩ : BufTy).Contents (Elt Ideal) :=
  addf
    (mulf
      (broadcastInDim S100000x128 ![] bcast_S_S100000x128
        (addf (constant (F := Ideal) S_ .f32 0x3F800000#32)
          (shapeCast S_ (extractStridedSlice S1 ![0] eps slices_S5_S1_0) shapeCasts_S1_S_)))
      x)
    (Host.scatterAdd scatter_S100000x128_S1600000x1_S1600000x128_1_0_0_1
      (broadcastInDim S100000x128 ![] bcast_S_S100000x128 (constant (F := Ideal) S_ .f32 0x00000000#32))
      (broadcastInDim S1600000x1 ![0] bcast_S1600000_S1600000x1_0 (dstOf ei))
      (Host.gather gather_S100000x128_S1600000x1_S1600000x128_1_0_n_n_0_1_1128 x
        (broadcastInDim S1600000x1 ![0] bcast_S1600000_S1600000x1_0
          (select
            (cmpi .slt (srcOf ei) (broadcastInDim S1600000 ![] bcast_S_S1600000 (constantI S_ 32 0#32)))
            (addi (srcOf ei) (broadcastInDim S1600000 ![] bcast_S_S1600000 (constantI S_ 32 100000#32)))
            (srcOf ei)))))

/-- A later layer's aggregation over the 64 hidden features, from the source and destination ids as vectors and the entry
    of eps the offset `off` cuts out: (1 + eps[off]) * h plus, at each node, the sum over the edges that end there of h at
    the edge's source (a negative source id wrapped by the node count). -/
def agg64 (off : Fin S5.rank → ℕ) (hs : S5.Slices off S1) (h : (⟨S100000x64, .f32⟩ : BufTy).Contents (Elt Ideal))
    (src dst : (⟨S1600000, .i32⟩ : BufTy).Contents (Elt Ideal)) (eps : (⟨S5, .f32⟩ : BufTy).Contents (Elt Ideal)) :
    (⟨S100000x64, .f32⟩ : BufTy).Contents (Elt Ideal) :=
  addf
    (mulf
      (broadcastInDim S100000x64 ![] bcast_S_S100000x64
        (addf (constant (F := Ideal) S_ .f32 0x3F800000#32)
          (shapeCast S_ (extractStridedSlice S1 off eps hs) shapeCasts_S1_S_)))
      h)
    (Host.scatterAdd scatter_S100000x64_S1600000x1_S1600000x64_1_0_0_1
      (broadcastInDim S100000x64 ![] bcast_S_S100000x64 (constant (F := Ideal) S_ .f32 0x00000000#32))
      (broadcastInDim S1600000x1 ![0] bcast_S1600000_S1600000x1_0 dst)
      (Host.gather gather_S100000x64_S1600000x1_S1600000x64_1_0_n_n_0_1_164 h
        (broadcastInDim S1600000x1 ![0] bcast_S1600000_S1600000x1_0
          (select
            (cmpi .slt src (broadcastInDim S1600000 ![] bcast_S_S1600000 (constantI S_ 32 0#32)))
            (addi src (broadcastInDim S1600000 ![] bcast_S_S1600000 (constantI S_ 32 100000#32)))
            src))))

/-! ## A layer's readout and the classifier -/

/-- A layer's pooled readout: the host's sum of the kernel's two partial readouts, from the zero word. -/
def readoutOf (p : (⟨S2x512x64, .f32⟩ : BufTy).Contents (Elt Ideal)) : (⟨S512x64, .f32⟩ : BufTy).Contents (Elt Ideal) :=
  Host.reduceAdd p (constant (F := Ideal) S_ .f32 0x00000000#32) reducesTo_S2x512x64_S512x64_d0 h_S_

/-- At `(g, j)` the readout is zero plus the two partial readouts' entries there. -/
theorem readoutOf_apply (p : (⟨S2x512x64, .f32⟩ : BufTy).Contents (Elt Ideal)) (g : Fin 512) (j : Fin 64) :
    readoutOf p (ix2 g j) = 0 + ∑ cc : Fin 2, p (ix3 cc g j) :=
  readout_apply p reducesTo_S2x512x64_S512x64_d0 (by decide) h_S_ g j

/-- The classifier on the five layers' readouts: their concatenation along the feature axis times the classifier's
    matrix, plus its bias on every row. -/
def tailK (r0 r1 r2 r3 r4 : (⟨S512x64, .f32⟩ : BufTy).Contents (Elt Ideal)) (Wc : (⟨S320x16, .f32⟩ : BufTy).Contents (Elt Ideal))
    (bc : (⟨S16, .f32⟩ : BufTy).Contents (Elt Ideal)) : (⟨S512x16, .f32⟩ : BufTy).Contents (Elt Ideal) :=
  addf (F := Ideal)
    (Host.dotGeneral (F := Ideal) (φ₁ := .f32) (φ₂ := .f32) dot_S512x320_S320x16_S512x16_1_0_0_1_n_n none
      (concatenate S512x320 1 [⟨S512x64, r0⟩, ⟨S512x64, r1⟩, ⟨S512x64, r2⟩, ⟨S512x64, r3⟩, ⟨S512x64, r4⟩]
        concatenates_S512x64_S512x64_S512x64_S512x64_S512x64_S512x320_d1)
      Wc)
    (broadcastInDim S512x16 ![0, 1] bcast_S1x16_S512x16_0_1 (broadcastInDim S1x16 ![1] bcast_S16_S1x16_1 bc))

end Cert.KernelIdeal.HostVal

end
-- ==== Proof.KIHost0.lean ====
import proofs.«402532_j352187319172_1_alg».proof.Proof.Gen.KernelIdeal.Regions
import proofs.«402532_j352187319172_1_alg».proof.Proof.KIHostLib
import proofs.«402532_j352187319172_1_alg».proof.Proof.KIHostDefs

/-!
# Host stretch 0, read as values

What the host operations before region 0 leave, from ANY contents `W` of the device's buffers: the source and destination
ids, region 0's first operand as layer 0's aggregation, the graph ids as a column, and layer 0's parameters as rows and
matrices of the program's arguments, each read at an index.
-/

set_option maxRecDepth 16384

noncomputable section

open scoped BigOperators

namespace Cert.KernelIdeal.HostVal

open Idealize.ShloMosaic Idealize.ShloMosaic.TcCoe Idealize.ShloMosaic.ValueIdx
open Cert.KernelIdeal Cert.KernelIdeal.Gen

variable (W : Valuation τ sig (Elt Ideal))

/-! ## What stretch 0 leaves, from any contents `W` -/

/-- The source ids the later stretches read. -/
theorem host0_src : StableHlo.after (hostOps0 (F := Ideal)) W (Proc.devRef .tc main_v1) = srcOf (W (Proc.devRef .tc main_arg1)) := by
  after_results_simp
  rfl

/-- The destination ids the later stretches read. -/
theorem host0_dst : StableHlo.after (hostOps0 (F := Ideal)) W (Proc.devRef .tc main_v3) = dstOf (W (Proc.devRef .tc main_arg1)) := by
  after_results_simp
  rfl

set_option maxHeartbeats 1000000 in
/-- Region 0's first operand: layer 0's aggregation of the features, the edge list and eps. -/
theorem host0_z : StableHlo.after (hostOps0 (F := Ideal)) W (Proc.devRef .tc main_v20)
    = agg128 (W (Proc.devRef .tc main_arg0)) (W (Proc.devRef .tc main_arg1)) (W (Proc.devRef .tc main_arg3)) := by
  after_results_simp
  rfl

/-- A reference stretch 0 does not write keeps its contents (the arguments, layer 0's first matrix among them). -/
theorem host0_keep (r : Ref sig .tc) (h : r ∉ hostOps0_W) :
    StableHlo.after (hostOps0 (F := Ideal)) W (Proc.devRef .tc r) = W (Proc.devRef .tc r) :=
  StableHlo.after_of_writes_sub hostOps0 W hostOps0_writes h

/-- The graph ids as a column are the argument's vector. -/
theorem host0_batch (n : Fin 100000) (u : Fin 1) :
    StableHlo.after (hostOps0 (F := Ideal)) W (Proc.devRef .tc main_v4) (ix2 n u) = W (Proc.devRef .tc main_arg2) (ix1 n) := by
  after_results_simp
  exact shapeCast_a_a1_apply _ _ n u

/-- Layer 0's first bias, as a row, is the argument's vector. -/
theorem host0_b1 (u : Fin 1) (k : Fin 64) :
    StableHlo.after (hostOps0 (F := Ideal)) W (Proc.devRef .tc main_v21) (ix2 u k) = W (Proc.devRef .tc main_arg5) (ix1 k) := by
  after_results_simp
  exact shapeCast_a_1a_apply _ _ u k

/-- Layer 0's first batch norm's scale, as a row, is row 0 of the argument. -/
theorem host0_ga (u : Fin 1) (k : Fin 64) :
    StableHlo.after (hostOps0 (F := Ideal)) W (Proc.devRef .tc main_v24) (ix2 u k) = W (Proc.devRef .tc main_arg8) (ix2 (0 : Fin 5) k) := by
  after_results_simp
  exact row_slice_apply 0 _ _ _ _ u k 0 rfl

/-- Layer 0's first batch norm's shift, as a row, is row 0 of the argument. -/
theorem host0_bea (u : Fin 1) (k : Fin 64) :
    StableHlo.after (hostOps0 (F := Ideal)) W (Proc.devRef .tc main_v27) (ix2 u k) = W (Proc.devRef .tc main_arg9) (ix2 (0 : Fin 5) k) := by
  after_results_simp
  exact row_slice_apply 0 _ _ _ _ u k 0 rfl

/-- Layer 0's first batch norm's mean, as a row, is row 0 of the argument. -/
theorem host0_ma (u : Fin 1) (k : Fin 64) :
    StableHlo.after (hostOps0 (F := Ideal)) W (Proc.devRef .tc main_v30) (ix2 u k) = W (Proc.devRef .tc main_arg10) (ix2 (0 : Fin 5) k) := by
  after_results_simp
  exact row_slice_apply 0 _ _ _ _ u k 0 rfl

/-- Layer 0's first batch norm's variance, as a row, is row 0 of the argument. -/
theorem host0_va (u : Fin 1) (k : Fin 64) :
    StableHlo.after (hostOps0 (F := Ideal)) W (Proc.devRef .tc main_v33) (ix2 u k) = W (Proc.devRef .tc main_arg11) (ix2 (0 : Fin 5) k) := by
  after_results_simp
  exact row_slice_apply 0 _ _ _ _ u k 0 rfl

/-- Layer 0's second matrix is matrix 0 of the argument. -/
theorem host0_W2 (d k : Fin 64) :
    StableHlo.after (hostOps0 (F := Ideal)) W (Proc.devRef .tc main_v35) (ix2 d k) = W (Proc.devRef .tc main_arg12) (ix3 (0 : Fin 5) d k) := by
  after_results_simp
  exact plane_slice_apply 0 _ _ _ d k 0 rfl

/-- Layer 0's second bias, as a row, is row 0 of the argument. -/
theorem host0_b2 (u : Fin 1) (k : Fin 64) :
    StableHlo.after (hostOps0 (F := Ideal)) W (Proc.devRef .tc main_v38) (ix2 u k) = W (Proc.devRef .tc main_arg13) (ix2 (0 : Fin 5) k) := by
  after_results_simp
  exact row_slice_apply 0 _ _ _ _ u k 0 rfl

/-- Layer 0's second batch norm's scale, as a row, is row 0 of the argument. -/
theorem host0_gb (u : Fin 1) (k : Fin 64) :
    StableHlo.after (hostOps0 (F := Ideal)) W (Proc.devRef .tc main_v41) (ix2 u k) = W (Proc.devRef .tc main_arg14) (ix2 (0 : Fin 5) k) := by
  after_results_simp
  exact row_slice_apply 0 _ _ _ _ u k 0 rfl

/-- Layer 0's second batch norm's shift, as a row, is row 0 of the argument. -/
theorem host0_beb (u : Fin 1) (k : Fin 64) :
    StableHlo.after (hostOps0 (F := Ideal)) W (Proc.devRef .tc main_v44) (ix2 u k) = W (Proc.devRef .tc main_arg15) (ix2 (0 : Fin 5) k) := by
  after_results_simp
  exact row_slice_apply 0 _ _ _ _ u k 0 rfl

/-- Layer 0's second batch norm's mean, as a row, is row 0 of the argument. -/
theorem host0_mb (u : Fin 1) (k : Fin 64) :
    StableHlo.after (hostOps0 (F := Ideal)) W (Proc.devRef .tc main_v47) (ix2 u k) = W (Proc.devRef .tc main_arg16) (ix2 (0 : Fin 5) k) := by
  after_results_simp
  exact row_slice_apply 0 _ _ _ _ u k 0 rfl

/-- Layer 0's second batch norm's variance, as a row, is row 0 of the argument. -/
theorem host0_vb (u : Fin 1) (k : Fin 64) :
    StableHlo.after (hostOps0 (F := Ideal)) W (Proc.devRef .tc main_v50) (ix2 u k) = W (Proc.devRef .tc main_arg17) (ix2 (0 : Fin 5) k) := by
  after_results_simp
  exact row_slice_apply 0 _ _ _ _ u k 0 rfl

end Cert.KernelIdeal.HostVal

end
-- ==== Proof.KIHost1.lean ====
import proofs.«402532_j352187319172_1_alg».proof.Proof.Gen.KernelIdeal.Regions
import proofs.«402532_j352187319172_1_alg».proof.Proof.KIHostLib
import proofs.«402532_j352187319172_1_alg».proof.Proof.KIHostDefs

/-!
# Host stretch 1, read as values

What the host operations between regions 0 and 1 leave, from ANY contents `W` of the device's buffers: layer 0's
pooled readout, region 1's first operand as layer 1's aggregation of region 0's features, layer 1's parameters as rows and
matrices of the program's arguments, each read at an index, and the references the stretch leaves alone.
-/

set_option maxRecDepth 16384

noncomputable section

open scoped BigOperators

namespace Cert.KernelIdeal.HostVal

open Idealize.ShloMosaic Idealize.ShloMosaic.TcCoe Idealize.ShloMosaic.ValueIdx
open Cert.KernelIdeal Cert.KernelIdeal.Gen

variable (W : Valuation τ sig (Elt Ideal))

/-! ## What stretch 1 leaves, from any contents `W` -/

/-- Layer 0's pooled readout, which the classifier reads at the end. -/
theorem host1_readout : StableHlo.after (hostOps1 (F := Ideal)) W (Proc.devRef .tc main_v52) = readoutOf (W (Proc.devRef .tc main_v51_1)) := by
  after_results_simp
  rfl

/-- … at `(g, j)`: zero plus the two partial readouts region 0 wrote. -/
theorem host1_readout_apply (g : Fin 512) (j : Fin 64) :
    StableHlo.after (hostOps1 (F := Ideal)) W (Proc.devRef .tc main_v52) (ix2 g j)
      = 0 + Finset.sum (M := EReal) Finset.univ fun cc : Fin 2 => W (Proc.devRef .tc main_v51_1) (ix3 cc g j) := by
  rw [host1_readout]
  exact readoutOf_apply _ g j

set_option maxHeartbeats 1000000 in
/-- Region 1's first operand: layer 1's aggregation of region 0's features, the source and destination ids and eps. -/
theorem host1_z : StableHlo.after (hostOps1 (F := Ideal)) W (Proc.devRef .tc main_v68)
    = agg64 ![1] slices_S5_S1_1 (W (Proc.devRef .tc main_v51_0)) (W (Proc.devRef .tc main_v1)) (W (Proc.devRef .tc main_v3))
        (W (Proc.devRef .tc main_arg3)) := by
  after_results_simp
  rfl

/-- A reference stretch 1 does not write keeps its contents: the arguments, the source and destination ids, the graph
    ids' column, the earlier layers' readouts. -/
theorem host1_keep (r : Ref sig .tc) (h : r ∉ hostOps1_W) :
    StableHlo.after (hostOps1 (F := Ideal)) W (Proc.devRef .tc r) = W (Proc.devRef .tc r) :=
  StableHlo.after_of_writes_sub hostOps1 W hostOps1_writes h

theorem host1_src : StableHlo.after (hostOps1 (F := Ideal)) W (Proc.devRef .tc main_v1) = W (Proc.devRef .tc main_v1) := host1_keep W main_v1 (by decide)
theorem host1_dst : StableHlo.after (hostOps1 (F := Ideal)) W (Proc.devRef .tc main_v3) = W (Proc.devRef .tc main_v3) := host1_keep W main_v3 (by decide)
theorem host1_batch : StableHlo.after (hostOps1 (F := Ideal)) W (Proc.devRef .tc main_v4) = W (Proc.devRef .tc main_v4) := host1_keep W main_v4 (by decide)

/-- Layer 1's first matrix is matrix 0 of the argument. -/
theorem host1_W1 (d k : Fin 64) :
    StableHlo.after (hostOps1 (F := Ideal)) W (Proc.devRef .tc main_v70) (ix2 d k) = W (Proc.devRef .tc main_arg6) (ix3 (0 : Fin 4) d k) := by
  after_results_simp
  exact plane_slice_apply 0 _ _ _ d k 0 rfl

/-- Layer 1's first bias, as a row, is row 0 of the argument. -/
theorem host1_b1 (u : Fin 1) (k : Fin 64) :
    StableHlo.after (hostOps1 (F := Ideal)) W (Proc.devRef .tc main_v73) (ix2 u k) = W (Proc.devRef .tc main_arg7) (ix2 (0 : Fin 4) k) := by
  after_results_simp
  exact row_slice_apply 0 _ _ _ _ u k 0 rfl

/-- Layer 1's first batch norm's scale, as a row, is row 1 of the argument. -/
theorem host1_ga (u : Fin 1) (k : Fin 64) :
    StableHlo.after (hostOps1 (F := Ideal)) W (Proc.devRef .tc main_v76) (ix2 u k) = W (Proc.devRef .tc main_arg8) (ix2 (1 : Fin 5) k) := by
  after_results_simp
  exact row_slice_apply 1 _ _ _ _ u k 1 rfl

/-- Layer 1's first batch norm's shift, as a row, is row 1 of the argument. -/
theorem host1_bea (u : Fin 1) (k : Fin 64) :
    StableHlo.after (hostOps1 (F := Ideal)) W (Proc.devRef .tc main_v79) (ix2 u k) = W (Proc.devRef .tc main_arg9) (ix2 (1 : Fin 5) k) := by
  after_results_simp
  exact row_slice_apply 1 _ _ _ _ u k 1 rfl

/-- Layer 1's first batch norm's mean, as a row, is row 1 of the argument. -/
theorem host1_ma (u : Fin 1) (k : Fin 64) :
    StableHlo.after (hostOps1 (F := Ideal)) W (Proc.devRef .tc main_v82) (ix2 u k) = W (Proc.devRef .tc main_arg10) (ix2 (1 : Fin 5) k) := by
  after_results_simp
  exact row_slice_apply 1 _ _ _ _ u k 1 rfl

/-- Layer 1's first batch norm's variance, as a row, is row 1 of the argument. -/
theorem host1_va (u : Fin 1) (k : Fin 64) :
    StableHlo.after (hostOps1 (F := Ideal)) W (Proc.devRef .tc main_v85) (ix2 u k) = W (Proc.devRef .tc main_arg11) (ix2 (1 : Fin 5) k) := by
  after_results_simp
  exact row_slice_apply 1 _ _ _ _ u k 1 rfl

/-- Layer 1's second matrix is matrix 1 of the argument. -/
theorem host1_W2 (d k : Fin 64) :
    StableHlo.after (hostOps1 (F := Ideal)) W (Proc.devRef .tc main_v87) (ix2 d k) = W (Proc.devRef .tc main_arg12) (ix3 (1 : Fin 5) d k) := by
  after_results_simp
  exact plane_slice_apply 1 _ _ _ d k 1 rfl

/-- Layer 1's second bias, as a row, is row 1 of the argument. -/
theorem host1_b2 (u : Fin 1) (k : Fin 64) :
    StableHlo.after (hostOps1 (F := Ideal)) W (Proc.devRef .tc main_v90) (ix2 u k) = W (Proc.devRef .tc main_arg13) (ix2 (1 : Fin 5) k) := by
  after_results_simp
  exact row_slice_apply 1 _ _ _ _ u k 1 rfl

/-- Layer 1's second batch norm's scale, as a row, is row 1 of the argument. -/
theorem host1_gb (u : Fin 1) (k : Fin 64) :
    StableHlo.after (hostOps1 (F := Ideal)) W (Proc.devRef .tc main_v93) (ix2 u k) = W (Proc.devRef .tc main_arg14) (ix2 (1 : Fin 5) k) := by
  after_results_simp
  exact row_slice_apply 1 _ _ _ _ u k 1 rfl

/-- Layer 1's second batch norm's shift, as a row, is row 1 of the argument. -/
theorem host1_beb (u : Fin 1) (k : Fin 64) :
    StableHlo.after (hostOps1 (F := Ideal)) W (Proc.devRef .tc main_v96) (ix2 u k) = W (Proc.devRef .tc main_arg15) (ix2 (1 : Fin 5) k) := by
  after_results_simp
  exact row_slice_apply 1 _ _ _ _ u k 1 rfl

/-- Layer 1's second batch norm's mean, as a row, is row 1 of the argument. -/
theorem host1_mb (u : Fin 1) (k : Fin 64) :
    StableHlo.after (hostOps1 (F := Ideal)) W (Proc.devRef .tc main_v99) (ix2 u k) = W (Proc.devRef .tc main_arg16) (ix2 (1 : Fin 5) k) := by
  after_results_simp
  exact row_slice_apply 1 _ _ _ _ u k 1 rfl

/-- Layer 1's second batch norm's variance, as a row, is row 1 of the argument. -/
theorem host1_vb (u : Fin 1) (k : Fin 64) :
    StableHlo.after (hostOps1 (F := Ideal)) W (Proc.devRef .tc main_v102) (ix2 u k) = W (Proc.devRef .tc main_arg17) (ix2 (1 : Fin 5) k) := by
  after_results_simp
  exact row_slice_apply 1 _ _ _ _ u k 1 rfl

end Cert.KernelIdeal.HostVal

end
-- ==== Proof.KIHost2.lean ====
import proofs.«402532_j352187319172_1_alg».proof.Proof.Gen.KernelIdeal.Regions
import proofs.«402532_j352187319172_1_alg».proof.Proof.KIHostLib
import proofs.«402532_j352187319172_1_alg».proof.Proof.KIHostDefs

/-!
# Host stretch 2, read as values

What the host operations between regions 1 and 2 leave, from ANY contents `W` of the device's buffers: layer 1's
pooled readout, region 2's first operand as layer 2's aggregation of region 1's features, layer 2's parameters as rows and
matrices of the program's arguments, each read at an index, and the references the stretch leaves alone.
-/

set_option maxRecDepth 16384

noncomputable section

open scoped BigOperators

namespace Cert.KernelIdeal.HostVal

open Idealize.ShloMosaic Idealize.ShloMosaic.TcCoe Idealize.ShloMosaic.ValueIdx
open Cert.KernelIdeal Cert.KernelIdeal.Gen

variable (W : Valuation τ sig (Elt Ideal))

/-! ## What stretch 2 leaves, from any contents `W` -/

/-- Layer 1's pooled readout, which the classifier reads at the end. -/
theorem host2_readout : StableHlo.after (hostOps2 (F := Ideal)) W (Proc.devRef .tc main_v104) = readoutOf (W (Proc.devRef .tc main_v103_1)) := by
  after_results_simp
  rfl

/-- … at `(g, j)`: zero plus the two partial readouts region 1 wrote. -/
theorem host2_readout_apply (g : Fin 512) (j : Fin 64) :
    StableHlo.after (hostOps2 (F := Ideal)) W (Proc.devRef .tc main_v104) (ix2 g j)
      = 0 + Finset.sum (M := EReal) Finset.univ fun cc : Fin 2 => W (Proc.devRef .tc main_v103_1) (ix3 cc g j) := by
  rw [host2_readout]
  exact readoutOf_apply _ g j

set_option maxHeartbeats 1000000 in
/-- Region 2's first operand: layer 2's aggregation of region 1's features, the source and destination ids and eps. -/
theorem host2_z : StableHlo.after (hostOps2 (F := Ideal)) W (Proc.devRef .tc main_v120)
    = agg64 ![2] slices_S5_S1_2 (W (Proc.devRef .tc main_v103_0)) (W (Proc.devRef .tc main_v1)) (W (Proc.devRef .tc main_v3))
        (W (Proc.devRef .tc main_arg3)) := by
  after_results_simp
  rfl

/-- A reference stretch 2 does not write keeps its contents: the arguments, the source and destination ids, the graph
    ids' column, the earlier layers' readouts. -/
theorem host2_keep (r : Ref sig .tc) (h : r ∉ hostOps2_W) :
    StableHlo.after (hostOps2 (F := Ideal)) W (Proc.devRef .tc r) = W (Proc.devRef .tc r) :=
  StableHlo.after_of_writes_sub hostOps2 W hostOps2_writes h

theorem host2_src : StableHlo.after (hostOps2 (F := Ideal)) W (Proc.devRef .tc main_v1) = W (Proc.devRef .tc main_v1) := host2_keep W main_v1 (by decide)
theorem host2_dst : StableHlo.after (hostOps2 (F := Ideal)) W (Proc.devRef .tc main_v3) = W (Proc.devRef .tc main_v3) := host2_keep W main_v3 (by decide)
theorem host2_batch : StableHlo.after (hostOps2 (F := Ideal)) W (Proc.devRef .tc main_v4) = W (Proc.devRef .tc main_v4) := host2_keep W main_v4 (by decide)
theorem host2_readout0 : StableHlo.after (hostOps2 (F := Ideal)) W (Proc.devRef .tc main_v52) = W (Proc.devRef .tc main_v52) := host2_keep W main_v52 (by decide)

/-- Layer 2's first matrix is matrix 1 of the argument. -/
theorem host2_W1 (d k : Fin 64) :
    StableHlo.after (hostOps2 (F := Ideal)) W (Proc.devRef .tc main_v122) (ix2 d k) = W (Proc.devRef .tc main_arg6) (ix3 (1 : Fin 4) d k) := by
  after_results_simp
  exact plane_slice_apply 1 _ _ _ d k 1 rfl

/-- Layer 2's first bias, as a row, is row 1 of the argument. -/
theorem host2_b1 (u : Fin 1) (k : Fin 64) :
    StableHlo.after (hostOps2 (F := Ideal)) W (Proc.devRef .tc main_v125) (ix2 u k) = W (Proc.devRef .tc main_arg7) (ix2 (1 : Fin 4) k) := by
  after_results_simp
  exact row_slice_apply 1 _ _ _ _ u k 1 rfl

/-- Layer 2's first batch norm's scale, as a row, is row 2 of the argument. -/
theorem host2_ga (u : Fin 1) (k : Fin 64) :
    StableHlo.after (hostOps2 (F := Ideal)) W (Proc.devRef .tc main_v128) (ix2 u k) = W (Proc.devRef .tc main_arg8) (ix2 (2 : Fin 5) k) := by
  after_results_simp
  exact row_slice_apply 2 _ _ _ _ u k 2 rfl

/-- Layer 2's first batch norm's shift, as a row, is row 2 of the argument. -/
theorem host2_bea (u : Fin 1) (k : Fin 64) :
    StableHlo.after (hostOps2 (F := Ideal)) W (Proc.devRef .tc main_v131) (ix2 u k) = W (Proc.devRef .tc main_arg9) (ix2 (2 : Fin 5) k) := by
  after_results_simp
  exact row_slice_apply 2 _ _ _ _ u k 2 rfl

/-- Layer 2's first batch norm's mean, as a row, is row 2 of the argument. -/
theorem host2_ma (u : Fin 1) (k : Fin 64) :
    StableHlo.after (hostOps2 (F := Ideal)) W (Proc.devRef .tc main_v134) (ix2 u k) = W (Proc.devRef .tc main_arg10) (ix2 (2 : Fin 5) k) := by
  after_results_simp
  exact row_slice_apply 2 _ _ _ _ u k 2 rfl

/-- Layer 2's first batch norm's variance, as a row, is row 2 of the argument. -/
theorem host2_va (u : Fin 1) (k : Fin 64) :
    StableHlo.after (hostOps2 (F := Ideal)) W (Proc.devRef .tc main_v137) (ix2 u k) = W (Proc.devRef .tc main_arg11) (ix2 (2 : Fin 5) k) := by
  after_results_simp
  exact row_slice_apply 2 _ _ _ _ u k 2 rfl

/-- Layer 2's second matrix is matrix 2 of the argument. -/
theorem host2_W2 (d k : Fin 64) :
    StableHlo.after (hostOps2 (F := Ideal)) W (Proc.devRef .tc main_v139) (ix2 d k) = W (Proc.devRef .tc main_arg12) (ix3 (2 : Fin 5) d k) := by
  after_results_simp
  exact plane_slice_apply 2 _ _ _ d k 2 rfl

/-- Layer 2's second bias, as a row, is row 2 of the argument. -/
theorem host2_b2 (u : Fin 1) (k : Fin 64) :
    StableHlo.after (hostOps2 (F := Ideal)) W (Proc.devRef .tc main_v142) (ix2 u k) = W (Proc.devRef .tc main_arg13) (ix2 (2 : Fin 5) k) := by
  after_results_simp
  exact row_slice_apply 2 _ _ _ _ u k 2 rfl

/-- Layer 2's second batch norm's scale, as a row, is row 2 of the argument. -/
theorem host2_gb (u : Fin 1) (k : Fin 64) :
    StableHlo.after (hostOps2 (F := Ideal)) W (Proc.devRef .tc main_v145) (ix2 u k) = W (Proc.devRef .tc main_arg14) (ix2 (2 : Fin 5) k) := by
  after_results_simp
  exact row_slice_apply 2 _ _ _ _ u k 2 rfl

/-- Layer 2's second batch norm's shift, as a row, is row 2 of the argument. -/
theorem host2_beb (u : Fin 1) (k : Fin 64) :
    StableHlo.after (hostOps2 (F := Ideal)) W (Proc.devRef .tc main_v148) (ix2 u k) = W (Proc.devRef .tc main_arg15) (ix2 (2 : Fin 5) k) := by
  after_results_simp
  exact row_slice_apply 2 _ _ _ _ u k 2 rfl

/-- Layer 2's second batch norm's mean, as a row, is row 2 of the argument. -/
theorem host2_mb (u : Fin 1) (k : Fin 64) :
    StableHlo.after (hostOps2 (F := Ideal)) W (Proc.devRef .tc main_v151) (ix2 u k) = W (Proc.devRef .tc main_arg16) (ix2 (2 : Fin 5) k) := by
  after_results_simp
  exact row_slice_apply 2 _ _ _ _ u k 2 rfl

/-- Layer 2's second batch norm's variance, as a row, is row 2 of the argument. -/
theorem host2_vb (u : Fin 1) (k : Fin 64) :
    StableHlo.after (hostOps2 (F := Ideal)) W (Proc.devRef .tc main_v154) (ix2 u k) = W (Proc.devRef .tc main_arg17) (ix2 (2 : Fin 5) k) := by
  after_results_simp
  exact row_slice_apply 2 _ _ _ _ u k 2 rfl

end Cert.KernelIdeal.HostVal

end
-- ==== Proof.KIHost3.lean ====
import proofs.«402532_j352187319172_1_alg».proof.Proof.Gen.KernelIdeal.Regions
import proofs.«402532_j352187319172_1_alg».proof.Proof.KIHostLib
import proofs.«402532_j352187319172_1_alg».proof.Proof.KIHostDefs

/-!
# Host stretch 3, read as values

What the host operations between regions 2 and 3 leave, from ANY contents `W` of the device's buffers: layer 2's
pooled readout, region 3's first operand as layer 3's aggregation of region 2's features, layer 3's parameters as rows and
matrices of the program's arguments, each read at an index, and the references the stretch leaves alone.
-/

set_option maxRecDepth 16384

noncomputable section

open scoped BigOperators

namespace Cert.KernelIdeal.HostVal

open Idealize.ShloMosaic Idealize.ShloMosaic.TcCoe Idealize.ShloMosaic.ValueIdx
open Cert.KernelIdeal Cert.KernelIdeal.Gen

variable (W : Valuation τ sig (Elt Ideal))

/-! ## What stretch 3 leaves, from any contents `W` -/

/-- Layer 2's pooled readout, which the classifier reads at the end. -/
theorem host3_readout : StableHlo.after (hostOps3 (F := Ideal)) W (Proc.devRef .tc main_v156) = readoutOf (W (Proc.devRef .tc main_v155_1)) := by
  after_results_simp
  rfl

/-- … at `(g, j)`: zero plus the two partial readouts region 2 wrote. -/
theorem host3_readout_apply (g : Fin 512) (j : Fin 64) :
    StableHlo.after (hostOps3 (F := Ideal)) W (Proc.devRef .tc main_v156) (ix2 g j)
      = 0 + Finset.sum (M := EReal) Finset.univ fun cc : Fin 2 => W (Proc.devRef .tc main_v155_1) (ix3 cc g j) := by
  rw [host3_readout]
  exact readoutOf_apply _ g j

set_option maxHeartbeats 1000000 in
/-- Region 3's first operand: layer 3's aggregation of region 2's features, the source and destination ids and eps. -/
theorem host3_z : StableHlo.after (hostOps3 (F := Ideal)) W (Proc.devRef .tc main_v172)
    = agg64 ![3] slices_S5_S1_3 (W (Proc.devRef .tc main_v155_0)) (W (Proc.devRef .tc main_v1)) (W (Proc.devRef .tc main_v3))
        (W (Proc.devRef .tc main_arg3)) := by
  after_results_simp
  rfl

/-- A reference stretch 3 does not write keeps its contents: the arguments, the source and destination ids, the graph
    ids' column, the earlier layers' readouts. -/
theorem host3_keep (r : Ref sig .tc) (h : r ∉ hostOps3_W) :
    StableHlo.after (hostOps3 (F := Ideal)) W (Proc.devRef .tc r) = W (Proc.devRef .tc r) :=
  StableHlo.after_of_writes_sub hostOps3 W hostOps3_writes h

theorem host3_src : StableHlo.after (hostOps3 (F := Ideal)) W (Proc.devRef .tc main_v1) = W (Proc.devRef .tc main_v1) := host3_keep W main_v1 (by decide)
theorem host3_dst : StableHlo.after (hostOps3 (F := Ideal)) W (Proc.devRef .tc main_v3) = W (Proc.devRef .tc main_v3) := host3_keep W main_v3 (by decide)
theorem host3_batch : StableHlo.after (hostOps3 (F := Ideal)) W (Proc.devRef .tc main_v4) = W (Proc.devRef .tc main_v4) := host3_keep W main_v4 (by decide)
theorem host3_readout0 : StableHlo.after (hostOps3 (F := Ideal)) W (Proc.devRef .tc main_v52) = W (Proc.devRef .tc main_v52) := host3_keep W main_v52 (by decide)
theorem host3_readout1 : StableHlo.after (hostOps3 (F := Ideal)) W (Proc.devRef .tc main_v104) = W (Proc.devRef .tc main_v104) := host3_keep W main_v104 (by decide)

/-- Layer 3's first matrix is matrix 2 of the argument. -/
theorem host3_W1 (d k : Fin 64) :
    StableHlo.after (hostOps3 (F := Ideal)) W (Proc.devRef .tc main_v174) (ix2 d k) = W (Proc.devRef .tc main_arg6) (ix3 (2 : Fin 4) d k) := by
  after_results_simp
  exact plane_slice_apply 2 _ _ _ d k 2 rfl

/-- Layer 3's first bias, as a row, is row 2 of the argument. -/
theorem host3_b1 (u : Fin 1) (k : Fin 64) :
    StableHlo.after (hostOps3 (F := Ideal)) W (Proc.devRef .tc main_v177) (ix2 u k) = W (Proc.devRef .tc main_arg7) (ix2 (2 : Fin 4) k) := by
  after_results_simp
  exact row_slice_apply 2 _ _ _ _ u k 2 rfl

/-- Layer 3's first batch norm's scale, as a row, is row 3 of the argument. -/
theorem host3_ga (u : Fin 1) (k : Fin 64) :
    StableHlo.after (hostOps3 (F := Ideal)) W (Proc.devRef .tc main_v180) (ix2 u k) = W (Proc.devRef .tc main_arg8) (ix2 (3 : Fin 5) k) := by
  after_results_simp
  exact row_slice_apply 3 _ _ _ _ u k 3 rfl

/-- Layer 3's first batch norm's shift, as a row, is row 3 of the argument. -/
theorem host3_bea (u : Fin 1) (k : Fin 64) :
    StableHlo.after (hostOps3 (F := Ideal)) W (Proc.devRef .tc main_v183) (ix2 u k) = W (Proc.devRef .tc main_arg9) (ix2 (3 : Fin 5) k) := by
  after_results_simp
  exact row_slice_apply 3 _ _ _ _ u k 3 rfl

/-- Layer 3's first batch norm's mean, as a row, is row 3 of the argument. -/
theorem host3_ma (u : Fin 1) (k : Fin 64) :
    StableHlo.after (hostOps3 (F := Ideal)) W (Proc.devRef .tc main_v186) (ix2 u k) = W (Proc.devRef .tc main_arg10) (ix2 (3 : Fin 5) k) := by
  after_results_simp
  exact row_slice_apply 3 _ _ _ _ u k 3 rfl

/-- Layer 3's first batch norm's variance, as a row, is row 3 of the argument. -/
theorem host3_va (u : Fin 1) (k : Fin 64) :
    StableHlo.after (hostOps3 (F := Ideal)) W (Proc.devRef .tc main_v189) (ix2 u k) = W (Proc.devRef .tc main_arg11) (ix2 (3 : Fin 5) k) := by
  after_results_simp
  exact row_slice_apply 3 _ _ _ _ u k 3 rfl

/-- Layer 3's second matrix is matrix 3 of the argument. -/
theorem host3_W2 (d k : Fin 64) :
    StableHlo.after (hostOps3 (F := Ideal)) W (Proc.devRef .tc main_v191) (ix2 d k) = W (Proc.devRef .tc main_arg12) (ix3 (3 : Fin 5) d k) := by
  after_results_simp
  exact plane_slice_apply 3 _ _ _ d k 3 rfl

/-- Layer 3's second bias, as a row, is row 3 of the argument. -/
theorem host3_b2 (u : Fin 1) (k : Fin 64) :
    StableHlo.after (hostOps3 (F := Ideal)) W (Proc.devRef .tc main_v194) (ix2 u k) = W (Proc.devRef .tc main_arg13) (ix2 (3 : Fin 5) k) := by
  after_results_simp
  exact row_slice_apply 3 _ _ _ _ u k 3 rfl

/-- Layer 3's second batch norm's scale, as a row, is row 3 of the argument. -/
theorem host3_gb (u : Fin 1) (k : Fin 64) :
    StableHlo.after (hostOps3 (F := Ideal)) W (Proc.devRef .tc main_v197) (ix2 u k) = W (Proc.devRef .tc main_arg14) (ix2 (3 : Fin 5) k) := by
  after_results_simp
  exact row_slice_apply 3 _ _ _ _ u k 3 rfl

/-- Layer 3's second batch norm's shift, as a row, is row 3 of the argument. -/
theorem host3_beb (u : Fin 1) (k : Fin 64) :
    StableHlo.after (hostOps3 (F := Ideal)) W (Proc.devRef .tc main_v200) (ix2 u k) = W (Proc.devRef .tc main_arg15) (ix2 (3 : Fin 5) k) := by
  after_results_simp
  exact row_slice_apply 3 _ _ _ _ u k 3 rfl

/-- Layer 3's second batch norm's mean, as a row, is row 3 of the argument. -/
theorem host3_mb (u : Fin 1) (k : Fin 64) :
    StableHlo.after (hostOps3 (F := Ideal)) W (Proc.devRef .tc main_v203) (ix2 u k) = W (Proc.devRef .tc main_arg16) (ix2 (3 : Fin 5) k) := by
  after_results_simp
  exact row_slice_apply 3 _ _ _ _ u k 3 rfl

/-- Layer 3's second batch norm's variance, as a row, is row 3 of the argument. -/
theorem host3_vb (u : Fin 1) (k : Fin 64) :
    StableHlo.after (hostOps3 (F := Ideal)) W (Proc.devRef .tc main_v206) (ix2 u k) = W (Proc.devRef .tc main_arg17) (ix2 (3 : Fin 5) k) := by
  after_results_simp
  exact row_slice_apply 3 _ _ _ _ u k 3 rfl

end Cert.KernelIdeal.HostVal

end
-- ==== Proof.KIHost4.lean ====
import proofs.«402532_j352187319172_1_alg».proof.Proof.Gen.KernelIdeal.Regions
import proofs.«402532_j352187319172_1_alg».proof.Proof.KIHostLib
import proofs.«402532_j352187319172_1_alg».proof.Proof.KIHostDefs

/-!
# Host stretch 4, read as values

What the host operations between regions 3 and 4 leave, from ANY contents `W` of the device's buffers: layer 3's
pooled readout, region 4's first operand as layer 4's aggregation of region 3's features, layer 4's parameters as rows and
matrices of the program's arguments, each read at an index, and the references the stretch leaves alone.
-/

set_option maxRecDepth 16384

noncomputable section

open scoped BigOperators

namespace Cert.KernelIdeal.HostVal

open Idealize.ShloMosaic Idealize.ShloMosaic.TcCoe Idealize.ShloMosaic.ValueIdx
open Cert.KernelIdeal Cert.KernelIdeal.Gen

variable (W : Valuation τ sig (Elt Ideal))

/-! ## What stretch 4 leaves, from any contents `W` -/

/-- Layer 3's pooled readout, which the classifier reads at the end. -/
theorem host4_readout : StableHlo.after (hostOps4 (F := Ideal)) W (Proc.devRef .tc main_v208) = readoutOf (W (Proc.devRef .tc main_v207_1)) := by
  after_results_simp
  rfl

/-- … at `(g, j)`: zero plus the two partial readouts region 3 wrote. -/
theorem host4_readout_apply (g : Fin 512) (j : Fin 64) :
    StableHlo.after (hostOps4 (F := Ideal)) W (Proc.devRef .tc main_v208) (ix2 g j)
      = 0 + Finset.sum (M := EReal) Finset.univ fun cc : Fin 2 => W (Proc.devRef .tc main_v207_1) (ix3 cc g j) := by
  rw [host4_readout]
  exact readoutOf_apply _ g j

set_option maxHeartbeats 1000000 in
/-- Region 4's first operand: layer 4's aggregation of region 3's features, the source and destination ids and eps. -/
theorem host4_z : StableHlo.after (hostOps4 (F := Ideal)) W (Proc.devRef .tc main_v224)
    = agg64 ![4] slices_S5_S1_4 (W (Proc.devRef .tc main_v207_0)) (W (Proc.devRef .tc main_v1)) (W (Proc.devRef .tc main_v3))
        (W (Proc.devRef .tc main_arg3)) := by
  after_results_simp
  rfl

/-- A reference stretch 4 does not write keeps its contents: the arguments, the source and destination ids, the graph
    ids' column, the earlier layers' readouts. -/
theorem host4_keep (r : Ref sig .tc) (h : r ∉ hostOps4_W) :
    StableHlo.after (hostOps4 (F := Ideal)) W (Proc.devRef .tc r) = W (Proc.devRef .tc r) :=
  StableHlo.after_of_writes_sub hostOps4 W hostOps4_writes h

theorem host4_src : StableHlo.after (hostOps4 (F := Ideal)) W (Proc.devRef .tc main_v1) = W (Proc.devRef .tc main_v1) := host4_keep W main_v1 (by decide)
theorem host4_dst : StableHlo.after (hostOps4 (F := Ideal)) W (Proc.devRef .tc main_v3) = W (Proc.devRef .tc main_v3) := host4_keep W main_v3 (by decide)
theorem host4_batch : StableHlo.after (hostOps4 (F := Ideal)) W (Proc.devRef .tc main_v4) = W (Proc.devRef .tc main_v4) := host4_keep W main_v4 (by decide)
theorem host4_readout0 : StableHlo.after (hostOps4 (F := Ideal)) W (Proc.devRef .tc main_v52) = W (Proc.devRef .tc main_v52) := host4_keep W main_v52 (by decide)
theorem host4_readout1 : StableHlo.after (hostOps4 (F := Ideal)) W (Proc.devRef .tc main_v104) = W (Proc.devRef .tc main_v104) := host4_keep W main_v104 (by decide)
theorem host4_readout2 : StableHlo.after (hostOps4 (F := Ideal)) W (Proc.devRef .tc main_v156) = W (Proc.devRef .tc main_v156) := host4_keep W main_v156 (by decide)

/-- Layer 4's first matrix is matrix 3 of the argument. -/
theorem host4_W1 (d k : Fin 64) :
    StableHlo.after (hostOps4 (F := Ideal)) W (Proc.devRef .tc main_v226) (ix2 d k) = W (Proc.devRef .tc main_arg6) (ix3 (3 : Fin 4) d k) := by
  after_results_simp
  exact plane_slice_apply 3 _ _ _ d k 3 rfl

/-- Layer 4's first bias, as a row, is row 3 of the argument. -/
theorem host4_b1 (u : Fin 1) (k : Fin 64) :
    StableHlo.after (hostOps4 (F := Ideal)) W (Proc.devRef .tc main_v229) (ix2 u k) = W (Proc.devRef .tc main_arg7) (ix2 (3 : Fin 4) k) := by
  after_results_simp
  exact row_slice_apply 3 _ _ _ _ u k 3 rfl

/-- Layer 4's first batch norm's scale, as a row, is row 4 of the argument. -/
theorem host4_ga (u : Fin 1) (k : Fin 64) :
    StableHlo.after (hostOps4 (F := Ideal)) W (Proc.devRef .tc main_v232) (ix2 u k) = W (Proc.devRef .tc main_arg8) (ix2 (4 : Fin 5) k) := by
  after_results_simp
  exact row_slice_apply 4 _ _ _ _ u k 4 rfl

/-- Layer 4's first batch norm's shift, as a row, is row 4 of the argument. -/
theorem host4_bea (u : Fin 1) (k : Fin 64) :
    StableHlo.after (hostOps4 (F := Ideal)) W (Proc.devRef .tc main_v235) (ix2 u k) = W (Proc.devRef .tc main_arg9) (ix2 (4 : Fin 5) k) := by
  after_results_simp
  exact row_slice_apply 4 _ _ _ _ u k 4 rfl

/-- Layer 4's first batch norm's mean, as a row, is row 4 of the argument. -/
theorem host4_ma (u : Fin 1) (k : Fin 64) :
    StableHlo.after (hostOps4 (F := Ideal)) W (Proc.devRef .tc main_v238) (ix2 u k) = W (Proc.devRef .tc main_arg10) (ix2 (4 : Fin 5) k) := by
  after_results_simp
  exact row_slice_apply 4 _ _ _ _ u k 4 rfl

/-- Layer 4's first batch norm's variance, as a row, is row 4 of the argument. -/
theorem host4_va (u : Fin 1) (k : Fin 64) :
    StableHlo.after (hostOps4 (F := Ideal)) W (Proc.devRef .tc main_v241) (ix2 u k) = W (Proc.devRef .tc main_arg11) (ix2 (4 : Fin 5) k) := by
  after_results_simp
  exact row_slice_apply 4 _ _ _ _ u k 4 rfl

/-- Layer 4's second matrix is matrix 4 of the argument. -/
theorem host4_W2 (d k : Fin 64) :
    StableHlo.after (hostOps4 (F := Ideal)) W (Proc.devRef .tc main_v243) (ix2 d k) = W (Proc.devRef .tc main_arg12) (ix3 (4 : Fin 5) d k) := by
  after_results_simp
  exact plane_slice_apply 4 _ _ _ d k 4 rfl

/-- Layer 4's second bias, as a row, is row 4 of the argument. -/
theorem host4_b2 (u : Fin 1) (k : Fin 64) :
    StableHlo.after (hostOps4 (F := Ideal)) W (Proc.devRef .tc main_v246) (ix2 u k) = W (Proc.devRef .tc main_arg13) (ix2 (4 : Fin 5) k) := by
  after_results_simp
  exact row_slice_apply 4 _ _ _ _ u k 4 rfl

/-- Layer 4's second batch norm's scale, as a row, is row 4 of the argument. -/
theorem host4_gb (u : Fin 1) (k : Fin 64) :
    StableHlo.after (hostOps4 (F := Ideal)) W (Proc.devRef .tc main_v249) (ix2 u k) = W (Proc.devRef .tc main_arg14) (ix2 (4 : Fin 5) k) := by
  after_results_simp
  exact row_slice_apply 4 _ _ _ _ u k 4 rfl

/-- Layer 4's second batch norm's shift, as a row, is row 4 of the argument. -/
theorem host4_beb (u : Fin 1) (k : Fin 64) :
    StableHlo.after (hostOps4 (F := Ideal)) W (Proc.devRef .tc main_v252) (ix2 u k) = W (Proc.devRef .tc main_arg15) (ix2 (4 : Fin 5) k) := by
  after_results_simp
  exact row_slice_apply 4 _ _ _ _ u k 4 rfl

/-- Layer 4's second batch norm's mean, as a row, is row 4 of the argument. -/
theorem host4_mb (u : Fin 1) (k : Fin 64) :
    StableHlo.after (hostOps4 (F := Ideal)) W (Proc.devRef .tc main_v255) (ix2 u k) = W (Proc.devRef .tc main_arg16) (ix2 (4 : Fin 5) k) := by
  after_results_simp
  exact row_slice_apply 4 _ _ _ _ u k 4 rfl

/-- Layer 4's second batch norm's variance, as a row, is row 4 of the argument. -/
theorem host4_vb (u : Fin 1) (k : Fin 64) :
    StableHlo.after (hostOps4 (F := Ideal)) W (Proc.devRef .tc main_v258) (ix2 u k) = W (Proc.devRef .tc main_arg17) (ix2 (4 : Fin 5) k) := by
  after_results_simp
  exact row_slice_apply 4 _ _ _ _ u k 4 rfl

end Cert.KernelIdeal.HostVal

end
-- ==== Proof.KIHost5.lean ====
import proofs.«402532_j352187319172_1_alg».proof.Proof.Gen.KernelIdeal.Regions
import proofs.«402532_j352187319172_1_alg».proof.Proof.KIHostLib
import proofs.«402532_j352187319172_1_alg».proof.Proof.KIHostDefs

/-!
# The last host stretch, read as values

What the host operations after region 4 leave, from ANY contents `W` of the device's buffers: layer 4's pooled readout and
the program's result as the classifier on the five readouts.
-/

set_option maxRecDepth 16384

noncomputable section

open scoped BigOperators

namespace Cert.KernelIdeal.HostVal

open Idealize.ShloMosaic Idealize.ShloMosaic.TcCoe Idealize.ShloMosaic.ValueIdx
open Cert.KernelIdeal Cert.KernelIdeal.Gen

section Nary
variable {Val : EltTy → Type}

/-- `nary5_result` again, with the result reference marked `no_index`. -/
theorem nary5_result' {x a b c d y : Ref sig .tc}
    (f : ((k : Fin 5) → ((![x, a, b, c, d] : Fin 5 → Ref sig .tc) k).ty.Contents Val) → y.ty.Contents Val) (hxs hy)
    (F : Valuation τ sig Val) :
    (StableHlo.nary (τ := τ) ![x, a, b, c, d] y f hxs hy).result F (no_index (Proc.devRef .tc y))
      = f (Fin.cons (F (Proc.devRef .tc x)) (Fin.cons (F (Proc.devRef .tc a)) (Fin.cons (F (Proc.devRef .tc b))
          (Fin.cons (F (Proc.devRef .tc c)) (Fin.cons (F (Proc.devRef .tc d)) (fun i => i.elim0)))))) :=
  nary5_result f hxs hy F

end Nary

variable (W : Valuation τ sig (Elt Ideal))

/-! ## What the last stretch leaves, from any contents `W` -/

/-- Layer 4's pooled readout. -/
theorem host5_readout : StableHlo.after (hostOps5 (F := Ideal)) W (Proc.devRef .tc main_v260) = readoutOf (W (Proc.devRef .tc main_v259_1)) := by
  after_results_simp
  rfl

/-- … at `(g, j)`: zero plus the two partial readouts region 4 wrote. -/
theorem host5_readout_apply (g : Fin 512) (j : Fin 64) :
    StableHlo.after (hostOps5 (F := Ideal)) W (Proc.devRef .tc main_v260) (ix2 g j)
      = 0 + Finset.sum (M := EReal) Finset.univ fun cc : Fin 2 => W (Proc.devRef .tc main_v259_1) (ix3 cc g j) := by
  rw [host5_readout]
  exact readoutOf_apply _ g j

/-- The program's result: the classifier on the four readouts the earlier stretches left, layer 4's readout, and the
    classifier's matrix and bias. -/
theorem host5_out : StableHlo.after (hostOps5 (F := Ideal)) W (Proc.devRef .tc main_v265)
    = tailK (W (Proc.devRef .tc main_v52)) (W (Proc.devRef .tc main_v104)) (W (Proc.devRef .tc main_v156)) (W (Proc.devRef .tc main_v208))
        (readoutOf (W (Proc.devRef .tc main_v259_1))) (W (Proc.devRef .tc main_arg18)) (W (Proc.devRef .tc main_arg19)) := by
  simp (disch := decide) only [StableHlo.after_cons, StableHlo.after_nil,
    StableHlo.nullary_result', StableHlo.unary_result', StableHlo.binary_result', nary5_result',
    StableHlo.nullary_result_ne', StableHlo.unary_result_ne', StableHlo.binary_result_ne', StableHlo.nary_result_ne']
  rfl

/-- A reference the last stretch does not write keeps its contents. -/
theorem host5_keep (r : Ref sig .tc) (h : r ∉ hostOps5_W) :
    StableHlo.after (hostOps5 (F := Ideal)) W (Proc.devRef .tc r) = W (Proc.devRef .tc r) :=
  StableHlo.after_of_writes_sub hostOps5 W hostOps5_writes h

end Cert.KernelIdeal.HostVal

end
-- ==== Proof.KIChainAbs.lean ====
import proofs.«402532_j352187319172_1_alg».proof.Proof.Spec
import proofs.«402532_j352187319172_1_alg».proof.Proof.KIHostDefs
import proofs.«402532_j352187319172_1_alg».proof.Proof.KIHost0
import proofs.«402532_j352187319172_1_alg».proof.Proof.KIHost1
import proofs.«402532_j352187319172_1_alg».proof.Proof.KIHost2
import proofs.«402532_j352187319172_1_alg».proof.Proof.KIHost3
import proofs.«402532_j352187319172_1_alg».proof.Proof.KIHost4
import proofs.«402532_j352187319172_1_alg».proof.Proof.KIHost5

/-!
# The kernel side's chain of values, over any contents

The closed forms of every layer's aggregated input, node features and pooled readout as functions of the program's
arguments; what one region computes as a relation between the buffers' contents at its entry and at its exit; and the
chain: from any contents at launch through the six host stretches and five regions, each boundary's buffers hold the
closed forms, and the result buffer the classifier on the five readouts.
-/

set_option maxRecDepth 16384

noncomputable section

open scoped BigOperators

namespace Cert.KernelIdeal.Chain

open Idealize.ShloMosaic Idealize.ShloMosaic.TcCoe Idealize.ShloMosaic.ValueIdx
open Cert.KernelIdeal Cert.KernelIdeal.Gen Cert.KernelIdeal.HostVal

/-- An array of shape `S` and element type `e` at the ideal values. -/
abbrev Arr (S : Shape) (e : EltTy) : Type := (⟨S, e⟩ : BufTy).Contents (Elt Ideal)

/-! ## The closed forms, as functions of the program's arguments

`Z l` is layer l's aggregated input, `H (l + 1)` its node features (the row MLP of `Z l`), `RO l` its pooled readout. -/

section Closed

variable (a0 : Arr S100000x128 .f32) (a1 : Arr S2x1600000 .i32) (a2 : Arr S100000 .i32) (a3 : Arr S5 .f32)
  (a4 : Arr S128x64 .f32) (a5 : Arr S64 .f32) (a6 : Arr S4x64x64 .f32) (a7 : Arr S4x64 .f32)
  (a8 a9 a10 a11 : Arr S5x64 .f32) (a12 : Arr S5x64x64 .f32) (a13 a14 a15 a16 a17 : Arr S5x64 .f32)
  (a18 : Arr S320x16 .f32) (a19 : Arr S16 .f32)

/-- Layer 0's aggregated input. -/
def Z0 : Arr S100000x128 .f32 := agg128 a0 a1 a3

/-- Layer 0's node features: the row MLP of its aggregated input, with layer 0's parameters. -/
def H1 : Arr S100000x64 .f32 := fun i =>
  GinSpec.mlp (fun d => Z0 a0 a1 a3 (ix2 (i 0) d)) (fun d k => a4 (ix2 d k)) (fun k => a5 (ix1 k))
    (fun k => a8 (ix2 (0 : Fin 5) k)) (fun k => a9 (ix2 (0 : Fin 5) k)) (fun k => a10 (ix2 (0 : Fin 5) k)) (fun k => a11 (ix2 (0 : Fin 5) k))
    (fun k j => a12 (ix3 (0 : Fin 5) k j)) (fun k => a13 (ix2 (0 : Fin 5) k)) (fun k => a14 (ix2 (0 : Fin 5) k)) (fun k => a15 (ix2 (0 : Fin 5) k)) (fun k => a16 (ix2 (0 : Fin 5) k)) (fun k => a17 (ix2 (0 : Fin 5) k)) (i 1)

/-- Layer 0's pooled readout. -/
def RO0 : Arr S512x64 .f32 := fun i =>
  GinSpec.pool (fun n => H1 a0 a1 a3 a4 a5 a8 a9 a10 a11 a12 a13 a14 a15 a16 a17 (ix2 n (i 1))) (fun n => a2 (ix1 n)) (i 0)

/-- Layer 1's aggregated input, from layer 0's node features. -/
def Z1 : Arr S100000x64 .f32 := agg64 ![1] slices_S5_S1_1 (H1 a0 a1 a3 a4 a5 a8 a9 a10 a11 a12 a13 a14 a15 a16 a17) (srcOf a1) (dstOf a1) a3

/-- Layer 1's node features: the row MLP of its aggregated input, with layer 1's parameters. -/
def H2 : Arr S100000x64 .f32 := fun i =>
  GinSpec.mlp (fun d => Z1 a0 a1 a3 a4 a5 a8 a9 a10 a11 a12 a13 a14 a15 a16 a17 (ix2 (i 0) d)) (fun d k => a6 (ix3 (0 : Fin 4) d k)) (fun k => a7 (ix2 (0 : Fin 4) k))
    (fun k => a8 (ix2 (1 : Fin 5) k)) (fun k => a9 (ix2 (1 : Fin 5) k)) (fun k => a10 (ix2 (1 : Fin 5) k)) (fun k => a11 (ix2 (1 : Fin 5) k))
    (fun k j => a12 (ix3 (1 : Fin 5) k j)) (fun k => a13 (ix2 (1 : Fin 5) k)) (fun k => a14 (ix2 (1 : Fin 5) k)) (fun k => a15 (ix2 (1 : Fin 5) k)) (fun k => a16 (ix2 (1 : Fin 5) k)) (fun k => a17 (ix2 (1 : Fin 5) k)) (i 1)

/-- Layer 1's pooled readout. -/
def RO1 : Arr S512x64 .f32 := fun i =>
  GinSpec.pool (fun n => H2 a0 a1 a3 a4 a5 a6 a7 a8 a9 a10 a11 a12 a13 a14 a15 a16 a17 (ix2 n (i 1))) (fun n => a2 (ix1 n)) (i 0)

/-- Layer 2's aggregated input, from layer 1's node features. -/
def Z2 : Arr S100000x64 .f32 := agg64 ![2] slices_S5_S1_2 (H2 a0 a1 a3 a4 a5 a6 a7 a8 a9 a10 a11 a12 a13 a14 a15 a16 a17) (srcOf a1) (dstOf a1) a3

/-- Layer 2's node features: the row MLP of its aggregated input, with layer 2's parameters. -/
def H3 : Arr S100000x64 .f32 := fun i =>
  GinSpec.mlp (fun d => Z2 a0 a1 a3 a4 a5 a6 a7 a8 a9 a10 a11 a12 a13 a14 a15 a16 a17 (ix2 (i 0) d)) (fun d k => a6 (ix3 (1 : Fin 4) d k)) (fun k => a7 (ix2 (1 : Fin 4) k))
    (fun k => a8 (ix2 (2 : Fin 5) k)) (fun k => a9 (ix2 (2 : Fin 5) k)) (fun k => a10 (ix2 (2 : Fin 5) k)) (fun k => a11 (ix2 (2 : Fin 5) k))
    (fun k j => a12 (ix3 (2 : Fin 5) k j)) (fun k => a13 (ix2 (2 : Fin 5) k)) (fun k => a14 (ix2 (2 : Fin 5) k)) (fun k => a15 (ix2 (2 : Fin 5) k)) (fun k => a16 (ix2 (2 : Fin 5) k)) (fun k => a17 (ix2 (2 : Fin 5) k)) (i 1)

/-- Layer 2's pooled readout. -/
def RO2 : Arr S512x64 .f32 := fun i =>
  GinSpec.pool (fun n => H3 a0 a1 a3 a4 a5 a6 a7 a8 a9 a10 a11 a12 a13 a14 a15 a16 a17 (ix2 n (i 1))) (fun n => a2 (ix1 n)) (i 0)

/-- Layer 3's aggregated input, from layer 2's node features. -/
def Z3 : Arr S100000x64 .f32 := agg64 ![3] slices_S5_S1_3 (H3 a0 a1 a3 a4 a5 a6 a7 a8 a9 a10 a11 a12 a13 a14 a15 a16 a17) (srcOf a1) (dstOf a1) a3

/-- Layer 3's node features: the row MLP of its aggregated input, with layer 3's parameters. -/
def H4 : Arr S100000x64 .f32 := fun i =>
  GinSpec.mlp (fun d => Z3 a0 a1 a3 a4 a5 a6 a7 a8 a9 a10 a11 a12 a13 a14 a15 a16 a17 (ix2 (i 0) d)) (fun d k => a6 (ix3 (2 : Fin 4) d k)) (fun k => a7 (ix2 (2 : Fin 4) k))
    (fun k => a8 (ix2 (3 : Fin 5) k)) (fun k => a9 (ix2 (3 : Fin 5) k)) (fun k => a10 (ix2 (3 : Fin 5) k)) (fun k => a11 (ix2 (3 : Fin 5) k))
    (fun k j => a12 (ix3 (3 : Fin 5) k j)) (fun k => a13 (ix2 (3 : Fin 5) k)) (fun k => a14 (ix2 (3 : Fin 5) k)) (fun k => a15 (ix2 (3 : Fin 5) k)) (fun k => a16 (ix2 (3 : Fin 5) k)) (fun k => a17 (ix2 (3 : Fin 5) k)) (i 1)

/-- Layer 3's pooled readout. -/
def RO3 : Arr S512x64 .f32 := fun i =>
  GinSpec.pool (fun n => H4 a0 a1 a3 a4 a5 a6 a7 a8 a9 a10 a11 a12 a13 a14 a15 a16 a17 (ix2 n (i 1))) (fun n => a2 (ix1 n)) (i 0)

/-- Layer 4's aggregated input, from layer 3's node features. -/
def Z4 : Arr S100000x64 .f32 := agg64 ![4] slices_S5_S1_4 (H4 a0 a1 a3 a4 a5 a6 a7 a8 a9 a10 a11 a12 a13 a14 a15 a16 a17) (srcOf a1) (dstOf a1) a3

/-- Layer 4's node features: the row MLP of its aggregated input, with layer 4's parameters. -/
def H5 : Arr S100000x64 .f32 := fun i =>
  GinSpec.mlp (fun d => Z4 a0 a1 a3 a4 a5 a6 a7 a8 a9 a10 a11 a12 a13 a14 a15 a16 a17 (ix2 (i 0) d)) (fun d k => a6 (ix3 (3 : Fin 4) d k)) (fun k => a7 (ix2 (3 : Fin 4) k))
    (fun k => a8 (ix2 (4 : Fin 5) k)) (fun k => a9 (ix2 (4 : Fin 5) k)) (fun k => a10 (ix2 (4 : Fin 5) k)) (fun k => a11 (ix2 (4 : Fin 5) k))
    (fun k j => a12 (ix3 (4 : Fin 5) k j)) (fun k => a13 (ix2 (4 : Fin 5) k)) (fun k => a14 (ix2 (4 : Fin 5) k)) (fun k => a15 (ix2 (4 : Fin 5) k)) (fun k => a16 (ix2 (4 : Fin 5) k)) (fun k => a17 (ix2 (4 : Fin 5) k)) (i 1)

/-- Layer 4's pooled readout. -/
def RO4 : Arr S512x64 .f32 := fun i =>
  GinSpec.pool (fun n => H5 a0 a1 a3 a4 a5 a6 a7 a8 a9 a10 a11 a12 a13 a14 a15 a16 a17 (ix2 n (i 1))) (fun n => a2 (ix1 n)) (i 0)

/-- The program's result: the classifier on the five readouts. -/
def Out : Arr S512x16 .f32 :=
  tailK (RO0 a0 a1 a2 a3 a4 a5 a8 a9 a10 a11 a12 a13 a14 a15 a16 a17) (RO1 a0 a1 a2 a3 a4 a5 a6 a7 a8 a9 a10 a11 a12 a13 a14 a15 a16 a17) (RO2 a0 a1 a2 a3 a4 a5 a6 a7 a8 a9 a10 a11 a12 a13 a14 a15 a16 a17) (RO3 a0 a1 a2 a3 a4 a5 a6 a7 a8 a9 a10 a11 a12 a13 a14 a15 a16 a17) (RO4 a0 a1 a2 a3 a4 a5 a6 a7 a8 a9 a10 a11 a12 a13 a14 a15 a16 a17) a18 a19

end Closed

/-! ## Reading the closed forms at an index, and congruence in every argument -/

section Apply

variable (a0 : Arr S100000x128 .f32) (a1 : Arr S2x1600000 .i32) (a2 : Arr S100000 .i32) (a3 : Arr S5 .f32)
  (a4 : Arr S128x64 .f32) (a5 : Arr S64 .f32) (a6 : Arr S4x64x64 .f32) (a7 : Arr S4x64 .f32)
  (a8 a9 a10 a11 : Arr S5x64 .f32) (a12 : Arr S5x64x64 .f32) (a13 a14 a15 a16 a17 : Arr S5x64 .f32)

/-- Layer 0's features at node n and column j. -/
theorem H1_apply (n : Fin 100000) (j : Fin 64) : H1 a0 a1 a3 a4 a5 a8 a9 a10 a11 a12 a13 a14 a15 a16 a17 (ix2 n j)
    = GinSpec.mlp (fun d => agg128 a0 a1 a3 (ix2 n d)) (fun d k => a4 (ix2 d k)) (fun k => a5 (ix1 k))
        (fun k => a8 (ix2 (0 : Fin 5) k)) (fun k => a9 (ix2 (0 : Fin 5) k)) (fun k => a10 (ix2 (0 : Fin 5) k)) (fun k => a11 (ix2 (0 : Fin 5) k))
        (fun k j => a12 (ix3 (0 : Fin 5) k j)) (fun k => a13 (ix2 (0 : Fin 5) k)) (fun k => a14 (ix2 (0 : Fin 5) k)) (fun k => a15 (ix2 (0 : Fin 5) k)) (fun k => a16 (ix2 (0 : Fin 5) k)) (fun k => a17 (ix2 (0 : Fin 5) k)) j := rfl

/-- Layer 0's readout at graph g and column j. -/
theorem RO0_apply (g : Fin 512) (j : Fin 64) : RO0 a0 a1 a2 a3 a4 a5 a8 a9 a10 a11 a12 a13 a14 a15 a16 a17 (ix2 g j)
    = GinSpec.pool (fun n => H1 a0 a1 a3 a4 a5 a8 a9 a10 a11 a12 a13 a14 a15 a16 a17 (ix2 n j)) (fun n => a2 (ix1 n)) g := rfl

/-- Layer 1's features at node n and column j. -/
theorem H2_apply (n : Fin 100000) (j : Fin 64) : H2 a0 a1 a3 a4 a5 a6 a7 a8 a9 a10 a11 a12 a13 a14 a15 a16 a17 (ix2 n j)
    = GinSpec.mlp (fun d => Z1 a0 a1 a3 a4 a5 a8 a9 a10 a11 a12 a13 a14 a15 a16 a17 (ix2 n d)) (fun d k => a6 (ix3 (0 : Fin 4) d k)) (fun k => a7 (ix2 (0 : Fin 4) k))
        (fun k => a8 (ix2 (1 : Fin 5) k)) (fun k => a9 (ix2 (1 : Fin 5) k)) (fun k => a10 (ix2 (1 : Fin 5) k)) (fun k => a11 (ix2 (1 : Fin 5) k))
        (fun k j => a12 (ix3 (1 : Fin 5) k j)) (fun k => a13 (ix2 (1 : Fin 5) k)) (fun k => a14 (ix2 (1 : Fin 5) k)) (fun k => a15 (ix2 (1 : Fin 5) k)) (fun k => a16 (ix2 (1 : Fin 5) k)) (fun k => a17 (ix2 (1 : Fin 5) k)) j := rfl

/-- Layer 1's readout at graph g and column j. -/
theorem RO1_apply (g : Fin 512) (j : Fin 64) : RO1 a0 a1 a2 a3 a4 a5 a6 a7 a8 a9 a10 a11 a12 a13 a14 a15 a16 a17 (ix2 g j)
    = GinSpec.pool (fun n => H2 a0 a1 a3 a4 a5 a6 a7 a8 a9 a10 a11 a12 a13 a14 a15 a16 a17 (ix2 n j)) (fun n => a2 (ix1 n)) g := rfl

/-- Layer 2's features at node n and column j. -/
theorem H3_apply (n : Fin 100000) (j : Fin 64) : H3 a0 a1 a3 a4 a5 a6 a7 a8 a9 a10 a11 a12 a13 a14 a15 a16 a17 (ix2 n j)
    = GinSpec.mlp (fun d => Z2 a0 a1 a3 a4 a5 a6 a7 a8 a9 a10 a11 a12 a13 a14 a15 a16 a17 (ix2 n d)) (fun d k => a6 (ix3 (1 : Fin 4) d k)) (fun k => a7 (ix2 (1 : Fin 4) k))
        (fun k => a8 (ix2 (2 : Fin 5) k)) (fun k => a9 (ix2 (2 : Fin 5) k)) (fun k => a10 (ix2 (2 : Fin 5) k)) (fun k => a11 (ix2 (2 : Fin 5) k))
        (fun k j => a12 (ix3 (2 : Fin 5) k j)) (fun k => a13 (ix2 (2 : Fin 5) k)) (fun k => a14 (ix2 (2 : Fin 5) k)) (fun k => a15 (ix2 (2 : Fin 5) k)) (fun k => a16 (ix2 (2 : Fin 5) k)) (fun k => a17 (ix2 (2 : Fin 5) k)) j := rfl

/-- Layer 2's readout at graph g and column j. -/
theorem RO2_apply (g : Fin 512) (j : Fin 64) : RO2 a0 a1 a2 a3 a4 a5 a6 a7 a8 a9 a10 a11 a12 a13 a14 a15 a16 a17 (ix2 g j)
    = GinSpec.pool (fun n => H3 a0 a1 a3 a4 a5 a6 a7 a8 a9 a10 a11 a12 a13 a14 a15 a16 a17 (ix2 n j)) (fun n => a2 (ix1 n)) g := rfl

/-- Layer 3's features at node n and column j. -/
theorem H4_apply (n : Fin 100000) (j : Fin 64) : H4 a0 a1 a3 a4 a5 a6 a7 a8 a9 a10 a11 a12 a13 a14 a15 a16 a17 (ix2 n j)
    = GinSpec.mlp (fun d => Z3 a0 a1 a3 a4 a5 a6 a7 a8 a9 a10 a11 a12 a13 a14 a15 a16 a17 (ix2 n d)) (fun d k => a6 (ix3 (2 : Fin 4) d k)) (fun k => a7 (ix2 (2 : Fin 4) k))
        (fun k => a8 (ix2 (3 : Fin 5) k)) (fun k => a9 (ix2 (3 : Fin 5) k)) (fun k => a10 (ix2 (3 : Fin 5) k)) (fun k => a11 (ix2 (3 : Fin 5) k))
        (fun k j => a12 (ix3 (3 : Fin 5) k j)) (fun k => a13 (ix2 (3 : Fin 5) k)) (fun k => a14 (ix2 (3 : Fin 5) k)) (fun k => a15 (ix2 (3 : Fin 5) k)) (fun k => a16 (ix2 (3 : Fin 5) k)) (fun k => a17 (ix2 (3 : Fin 5) k)) j := rfl

/-- Layer 3's readout at graph g and column j. -/
theorem RO3_apply (g : Fin 512) (j : Fin 64) : RO3 a0 a1 a2 a3 a4 a5 a6 a7 a8 a9 a10 a11 a12 a13 a14 a15 a16 a17 (ix2 g j)
    = GinSpec.pool (fun n => H4 a0 a1 a3 a4 a5 a6 a7 a8 a9 a10 a11 a12 a13 a14 a15 a16 a17 (ix2 n j)) (fun n => a2 (ix1 n)) g := rfl

/-- Layer 4's features at node n and column j. -/
theorem H5_apply (n : Fin 100000) (j : Fin 64) : H5 a0 a1 a3 a4 a5 a6 a7 a8 a9 a10 a11 a12 a13 a14 a15 a16 a17 (ix2 n j)
    = GinSpec.mlp (fun d => Z4 a0 a1 a3 a4 a5 a6 a7 a8 a9 a10 a11 a12 a13 a14 a15 a16 a17 (ix2 n d)) (fun d k => a6 (ix3 (3 : Fin 4) d k)) (fun k => a7 (ix2 (3 : Fin 4) k))
        (fun k => a8 (ix2 (4 : Fin 5) k)) (fun k => a9 (ix2 (4 : Fin 5) k)) (fun k => a10 (ix2 (4 : Fin 5) k)) (fun k => a11 (ix2 (4 : Fin 5) k))
        (fun k j => a12 (ix3 (4 : Fin 5) k j)) (fun k => a13 (ix2 (4 : Fin 5) k)) (fun k => a14 (ix2 (4 : Fin 5) k)) (fun k => a15 (ix2 (4 : Fin 5) k)) (fun k => a16 (ix2 (4 : Fin 5) k)) (fun k => a17 (ix2 (4 : Fin 5) k)) j := rfl

/-- Layer 4's readout at graph g and column j. -/
theorem RO4_apply (g : Fin 512) (j : Fin 64) : RO4 a0 a1 a2 a3 a4 a5 a6 a7 a8 a9 a10 a11 a12 a13 a14 a15 a16 a17 (ix2 g j)
    = GinSpec.pool (fun n => H5 a0 a1 a3 a4 a5 a6 a7 a8 a9 a10 a11 a12 a13 a14 a15 a16 a17 (ix2 n j)) (fun n => a2 (ix1 n)) g := rfl

end Apply

/-- The row MLP depends on its thirteen arguments only through their values. -/
theorem mlp_congr {D : ℕ} {z z' : Fin D → EReal} {W1 W1' : Fin D → Fin 64 → EReal}
    {b1 b1' ga ga' bea bea' ma ma' va va' : Fin 64 → EReal} {W2 W2' : Fin 64 → Fin 64 → EReal}
    {b2 b2' gb gb' beb beb' mb mb' vb vb' : Fin 64 → EReal}
    (hz : z = z') (hW1 : W1 = W1') (hb1 : b1 = b1') (hga : ga = ga') (hbea : bea = bea') (hma : ma = ma') (hva : va = va')
    (hW2 : W2 = W2') (hb2 : b2 = b2') (hgb : gb = gb') (hbeb : beb = beb') (hmb : mb = mb') (hvb : vb = vb') (j : Fin 64) :
    GinSpec.mlp z W1 b1 ga bea ma va W2 b2 gb beb mb vb j = GinSpec.mlp z' W1' b1' ga' bea' ma' va' W2' b2' gb' beb' mb' vb' j := by
  subst hz hW1 hb1 hga hbea hma hva hW2 hb2 hgb hbeb hmb hvb
  rfl

/-- The pooling depends on the features and the graph ids only through their values. -/
theorem pool_congr {h h' : Fin 100000 → EReal} {b b' : Fin 100000 → BitVec 32} (hh : h = h') (hb : b = b') (g : Fin 512) :
    GinSpec.pool h b g = GinSpec.pool h' b' g := by
  subst hh hb
  rfl

/-! ## What one region computes, as a relation between arrays

The region of a layer takes the aggregated input `z`, the graph ids as a column, and the layer's thirteen parameter arrays
(the vectors as rows), and leaves the node features `out0` and the two cores' partial readouts `out1`: each row of
`out0` is the MLP of the same row of `z`, and the two partial readouts sum, from zero, to the pooling of `out0` by graph id. -/

structure LayerVal {D : ℕ} (z : Arr ⟨2, ![100000, D]⟩ .f32) (batch : Arr S100000x1 .i32) (W1 : Arr ⟨2, ![D, 64]⟩ .f32)
    (b1 ga bea ma va : Arr S1x64 .f32) (W2 : Arr S64x64 .f32) (b2 gb beb mb vb : Arr S1x64 .f32)
    (out0 : Arr S100000x64 .f32) (out1 : Arr S2x512x64 .f32) : Prop where
  /-- Row n of the features is the MLP of row n of the input. -/
  h : ∀ (n : Fin 100000) (j : Fin 64), out0 (ix2 n j)
      = GinSpec.mlp (fun d => z (ix2 n d)) (fun d k => W1 (ix2 d k)) (fun k => b1 (ix2 0 k)) (fun k => ga (ix2 0 k))
          (fun k => bea (ix2 0 k)) (fun k => ma (ix2 0 k)) (fun k => va (ix2 0 k)) (fun k j => W2 (ix2 k j))
          (fun j => b2 (ix2 0 j)) (fun j => gb (ix2 0 j)) (fun j => beb (ix2 0 j)) (fun j => mb (ix2 0 j))
          (fun j => vb (ix2 0 j)) j
  /-- The two partial readouts sum to the pooling of the features by graph id. -/
  ro : ∀ (g : Fin 512) (j : Fin 64), 0 + ∑ cc : Fin 2, out1 (ix3 cc g j)
      = GinSpec.pool (fun n => out0 (ix2 n j)) (fun n => batch (ix2 n 0)) g

namespace LayerVal

variable {D : ℕ} {z : Arr ⟨2, ![100000, D]⟩ .f32} {batch : Arr S100000x1 .i32} {W1 : Arr ⟨2, ![D, 64]⟩ .f32}
  {b1 ga bea ma va : Arr S1x64 .f32} {W2 : Arr S64x64 .f32} {b2 gb beb mb vb : Arr S1x64 .f32}
  {out0 : Arr S100000x64 .f32} {out1 : Arr S2x512x64 .f32}

/-- The features as one function of the index. -/
theorem out0_eq (L : LayerVal z batch W1 b1 ga bea ma va W2 b2 gb beb mb vb out0 out1) :
    out0 = fun i => GinSpec.mlp (fun d => z (ix2 (i 0) d)) (fun d k => W1 (ix2 d k)) (fun k => b1 (ix2 0 k))
      (fun k => ga (ix2 0 k)) (fun k => bea (ix2 0 k)) (fun k => ma (ix2 0 k)) (fun k => va (ix2 0 k))
      (fun k j => W2 (ix2 k j)) (fun j => b2 (ix2 0 j)) (fun j => gb (ix2 0 j)) (fun j => beb (ix2 0 j))
      (fun j => mb (ix2 0 j)) (fun j => vb (ix2 0 j)) (i 1) := by
  funext i
  obtain ⟨n, j, rfl⟩ : ∃ (n : Fin 100000) (j : Fin 64), i = ix2 n j := ⟨i 0, i 1, eq_ix2 i⟩
  exact L.h n j

/-- The host's sum of the two partial readouts, as one function of the index. -/
theorem readout_eq (L : LayerVal z batch W1 b1 ga bea ma va W2 b2 gb beb mb vb out0 out1) :
    readoutOf out1 = fun i => GinSpec.pool (fun n => out0 (ix2 n (i 1))) (fun n => batch (ix2 n 0)) (i 0) := by
  funext i
  obtain ⟨g, j, rfl⟩ : ∃ (g : Fin 512) (j : Fin 64), i = ix2 g j := ⟨i 0, i 1, eq_ix2 i⟩
  rw [readoutOf_apply]
  exact L.ro g j

/-- The relation read at other names of the two output arrays. -/
theorem of_eq (L : LayerVal z batch W1 b1 ga bea ma va W2 b2 gb beb mb vb out0 out1) {out0' : Arr S100000x64 .f32}
    {out1' : Arr S2x512x64 .f32} (h0 : out0' = out0) (h1 : out1' = out1) :
    LayerVal z batch W1 b1 ga bea ma va W2 b2 gb beb mb vb out0' out1' := by
  subst h0 h1
  exact L

end LayerVal

/-! ## The five regions, each as a relation between the buffers' contents at its entry and at its exit -/

/-- Region 0 from the contents `Wi` to the contents `Wo`: every buffer but its two output arrays as entered, and the
    outputs the layer's values of the operands as entered. -/
structure Reg0 (Wi Wo : Valuation τ sig (Elt Ideal)) : Prop where
  keep : ∀ r : Ref sig .tc, r ∉ ([main_v51_0, main_v51_1] : List (Ref sig .tc)) → Wo (Proc.devRef .tc r) = Wi (Proc.devRef .tc r)
  val : LayerVal (D := 128) (Wi (Proc.devRef .tc main_v20)) (Wi (Proc.devRef .tc main_v4)) (Wi (Proc.devRef .tc main_arg4))
    (Wi (Proc.devRef .tc main_v21)) (Wi (Proc.devRef .tc main_v24)) (Wi (Proc.devRef .tc main_v27)) (Wi (Proc.devRef .tc main_v30)) (Wi (Proc.devRef .tc main_v33))
    (Wi (Proc.devRef .tc main_v35)) (Wi (Proc.devRef .tc main_v38)) (Wi (Proc.devRef .tc main_v41)) (Wi (Proc.devRef .tc main_v44)) (Wi (Proc.devRef .tc main_v47)) (Wi (Proc.devRef .tc main_v50))
    (Wo (Proc.devRef .tc main_v51_0)) (Wo (Proc.devRef .tc main_v51_1))

/-- Region 1 from the contents `Wi` to the contents `Wo`: every buffer but its two output arrays as entered, and the
    outputs the layer's values of the operands as entered. -/
structure Reg1 (Wi Wo : Valuation τ sig (Elt Ideal)) : Prop where
  keep : ∀ r : Ref sig .tc, r ∉ ([main_v103_0, main_v103_1] : List (Ref sig .tc)) → Wo (Proc.devRef .tc r) = Wi (Proc.devRef .tc r)
  val : LayerVal (D := 64) (Wi (Proc.devRef .tc main_v68)) (Wi (Proc.devRef .tc main_v4)) (Wi (Proc.devRef .tc main_v70))
    (Wi (Proc.devRef .tc main_v73)) (Wi (Proc.devRef .tc main_v76)) (Wi (Proc.devRef .tc main_v79)) (Wi (Proc.devRef .tc main_v82)) (Wi (Proc.devRef .tc main_v85))
    (Wi (Proc.devRef .tc main_v87)) (Wi (Proc.devRef .tc main_v90)) (Wi (Proc.devRef .tc main_v93)) (Wi (Proc.devRef .tc main_v96)) (Wi (Proc.devRef .tc main_v99)) (Wi (Proc.devRef .tc main_v102))
    (Wo (Proc.devRef .tc main_v103_0)) (Wo (Proc.devRef .tc main_v103_1))

/-- Region 2 from the contents `Wi` to the contents `Wo`: every buffer but its two output arrays as entered, and the
    outputs the layer's values of the operands as entered. -/
structure Reg2 (Wi Wo : Valuation τ sig (Elt Ideal)) : Prop where
  keep : ∀ r : Ref sig .tc, r ∉ ([main_v155_0, main_v155_1] : List (Ref sig .tc)) → Wo (Proc.devRef .tc r) = Wi (Proc.devRef .tc r)
  val : LayerVal (D := 64) (Wi (Proc.devRef .tc main_v120)) (Wi (Proc.devRef .tc main_v4)) (Wi (Proc.devRef .tc main_v122))
    (Wi (Proc.devRef .tc main_v125)) (Wi (Proc.devRef .tc main_v128)) (Wi (Proc.devRef .tc main_v131)) (Wi (Proc.devRef .tc main_v134)) (Wi (Proc.devRef .tc main_v137))
    (Wi (Proc.devRef .tc main_v139)) (Wi (Proc.devRef .tc main_v142)) (Wi (Proc.devRef .tc main_v145)) (Wi (Proc.devRef .tc main_v148)) (Wi (Proc.devRef .tc main_v151)) (Wi (Proc.devRef .tc main_v154))
    (Wo (Proc.devRef .tc main_v155_0)) (Wo (Proc.devRef .tc main_v155_1))

/-- Region 3 from the contents `Wi` to the contents `Wo`: every buffer but its two output arrays as entered, and the
    outputs the layer's values of the operands as entered. -/
structure Reg3 (Wi Wo : Valuation τ sig (Elt Ideal)) : Prop where
  keep : ∀ r : Ref sig .tc, r ∉ ([main_v207_0, main_v207_1] : List (Ref sig .tc)) → Wo (Proc.devRef .tc r) = Wi (Proc.devRef .tc r)
  val : LayerVal (D := 64) (Wi (Proc.devRef .tc main_v172)) (Wi (Proc.devRef .tc main_v4)) (Wi (Proc.devRef .tc main_v174))
    (Wi (Proc.devRef .tc main_v177)) (Wi (Proc.devRef .tc main_v180)) (Wi (Proc.devRef .tc main_v183)) (Wi (Proc.devRef .tc main_v186)) (Wi (Proc.devRef .tc main_v189))
    (Wi (Proc.devRef .tc main_v191)) (Wi (Proc.devRef .tc main_v194)) (Wi (Proc.devRef .tc main_v197)) (Wi (Proc.devRef .tc main_v200)) (Wi (Proc.devRef .tc main_v203)) (Wi (Proc.devRef .tc main_v206))
    (Wo (Proc.devRef .tc main_v207_0)) (Wo (Proc.devRef .tc main_v207_1))

/-- Region 4 from the contents `Wi` to the contents `Wo`: every buffer but its two output arrays as entered, and the
    outputs the layer's values of the operands as entered. -/
structure Reg4 (Wi Wo : Valuation τ sig (Elt Ideal)) : Prop where
  keep : ∀ r : Ref sig .tc, r ∉ ([main_v259_0, main_v259_1] : List (Ref sig .tc)) → Wo (Proc.devRef .tc r) = Wi (Proc.devRef .tc r)
  val : LayerVal (D := 64) (Wi (Proc.devRef .tc main_v224)) (Wi (Proc.devRef .tc main_v4)) (Wi (Proc.devRef .tc main_v226))
    (Wi (Proc.devRef .tc main_v229)) (Wi (Proc.devRef .tc main_v232)) (Wi (Proc.devRef .tc main_v235)) (Wi (Proc.devRef .tc main_v238)) (Wi (Proc.devRef .tc main_v241))
    (Wi (Proc.devRef .tc main_v243)) (Wi (Proc.devRef .tc main_v246)) (Wi (Proc.devRef .tc main_v249)) (Wi (Proc.devRef .tc main_v252)) (Wi (Proc.devRef .tc main_v255)) (Wi (Proc.devRef .tc main_v258))
    (Wo (Proc.devRef .tc main_v259_0)) (Wo (Proc.devRef .tc main_v259_1))

/-! ## Buffers that ride along

The program's arguments are written by no host stretch and are no region's output, so every boundary finds them as
launched; the source and destination ids and the graph ids' column are written in stretch 0 only; a layer's readout is
written once, in the stretch after its region. -/

/-- The program's twenty arguments. -/
abbrev mainArgs : List (Ref sig .tc) := [main_arg0, main_arg1, main_arg2, main_arg3, main_arg4, main_arg5, main_arg6, main_arg7, main_arg8, main_arg9, main_arg10, main_arg11, main_arg12, main_arg13, main_arg14, main_arg15, main_arg16, main_arg17, main_arg18, main_arg19]
theorem args_notW0 : ∀ r ∈ mainArgs, r ∉ hostOps0_W := by decide
theorem args_notW1 : ∀ r ∈ mainArgs, r ∉ hostOps1_W := by decide
theorem args_notW2 : ∀ r ∈ mainArgs, r ∉ hostOps2_W := by decide
theorem args_notW3 : ∀ r ∈ mainArgs, r ∉ hostOps3_W := by decide
theorem args_notW4 : ∀ r ∈ mainArgs, r ∉ hostOps4_W := by decide
theorem args_notW5 : ∀ r ∈ mainArgs, r ∉ hostOps5_W := by decide
theorem args_notOut0 : ∀ r ∈ mainArgs, r ∉ ([main_v51_0, main_v51_1] : List (Ref sig .tc)) := by decide
theorem args_notOut1 : ∀ r ∈ mainArgs, r ∉ ([main_v103_0, main_v103_1] : List (Ref sig .tc)) := by decide
theorem args_notOut2 : ∀ r ∈ mainArgs, r ∉ ([main_v155_0, main_v155_1] : List (Ref sig .tc)) := by decide
theorem args_notOut3 : ∀ r ∈ mainArgs, r ∉ ([main_v207_0, main_v207_1] : List (Ref sig .tc)) := by decide
theorem args_notOut4 : ∀ r ∈ mainArgs, r ∉ ([main_v259_0, main_v259_1] : List (Ref sig .tc)) := by decide

/-- At boundary 2 every argument is as launched. -/
theorem args_at2 (W0 W2 : Valuation τ sig (Elt Ideal)) (R0 : Reg0 (StableHlo.after (hostOps0 (F := Ideal)) W0) W2) : ∀ r ∈ mainArgs, W2 (Proc.devRef .tc r) = W0 (Proc.devRef .tc r) :=
  fun r hr => (R0.keep r (args_notOut0 r hr)).trans (host0_keep W0 r (args_notW0 r hr))

/-- At boundary 4 every argument is as launched. -/
theorem args_at4 (W0 W2 W4 : Valuation τ sig (Elt Ideal)) (R0 : Reg0 (StableHlo.after (hostOps0 (F := Ideal)) W0) W2) (R1 : Reg1 (StableHlo.after (hostOps1 (F := Ideal)) W2) W4) : ∀ r ∈ mainArgs, W4 (Proc.devRef .tc r) = W0 (Proc.devRef .tc r) :=
  fun r hr => (R1.keep r (args_notOut1 r hr)).trans ((host1_keep W2 r (args_notW1 r hr)).trans (args_at2 W0 W2 R0 r hr))

/-- At boundary 6 every argument is as launched. -/
theorem args_at6 (W0 W2 W4 W6 : Valuation τ sig (Elt Ideal)) (R0 : Reg0 (StableHlo.after (hostOps0 (F := Ideal)) W0) W2) (R1 : Reg1 (StableHlo.after (hostOps1 (F := Ideal)) W2) W4) (R2 : Reg2 (StableHlo.after (hostOps2 (F := Ideal)) W4) W6) : ∀ r ∈ mainArgs, W6 (Proc.devRef .tc r) = W0 (Proc.devRef .tc r) :=
  fun r hr => (R2.keep r (args_notOut2 r hr)).trans ((host2_keep W4 r (args_notW2 r hr)).trans (args_at4 W0 W2 W4 R0 R1 r hr))

/-- At boundary 8 every argument is as launched. -/
theorem args_at8 (W0 W2 W4 W6 W8 : Valuation τ sig (Elt Ideal)) (R0 : Reg0 (StableHlo.after (hostOps0 (F := Ideal)) W0) W2) (R1 : Reg1 (StableHlo.after (hostOps1 (F := Ideal)) W2) W4) (R2 : Reg2 (StableHlo.after (hostOps2 (F := Ideal)) W4) W6) (R3 : Reg3 (StableHlo.after (hostOps3 (F := Ideal)) W6) W8) : ∀ r ∈ mainArgs, W8 (Proc.devRef .tc r) = W0 (Proc.devRef .tc r) :=
  fun r hr => (R3.keep r (args_notOut3 r hr)).trans ((host3_keep W6 r (args_notW3 r hr)).trans (args_at6 W0 W2 W4 W6 R0 R1 R2 r hr))

/-- At boundary 10 every argument is as launched. -/
theorem args_at10 (W0 W2 W4 W6 W8 W10 : Valuation τ sig (Elt Ideal)) (R0 : Reg0 (StableHlo.after (hostOps0 (F := Ideal)) W0) W2) (R1 : Reg1 (StableHlo.after (hostOps1 (F := Ideal)) W2) W4) (R2 : Reg2 (StableHlo.after (hostOps2 (F := Ideal)) W4) W6) (R3 : Reg3 (StableHlo.after (hostOps3 (F := Ideal)) W6) W8) (R4 : Reg4 (StableHlo.after (hostOps4 (F := Ideal)) W8) W10) : ∀ r ∈ mainArgs, W10 (Proc.devRef .tc r) = W0 (Proc.devRef .tc r) :=
  fun r hr => (R4.keep r (args_notOut4 r hr)).trans ((host4_keep W8 r (args_notW4 r hr)).trans (args_at8 W0 W2 W4 W6 W8 R0 R1 R2 R3 r hr))

/-- At boundary 2 the source ids are row 0 of the edge list. -/
theorem src_at2 (W0 W2 : Valuation τ sig (Elt Ideal)) (R0 : Reg0 (StableHlo.after (hostOps0 (F := Ideal)) W0) W2) : W2 (Proc.devRef .tc main_v1) = srcOf (W0 (Proc.devRef .tc main_arg1)) :=
  (R0.keep main_v1 (by decide)).trans (host0_src W0)
/-- At boundary 2 the destination ids are row 1 of the edge list. -/
theorem dst_at2 (W0 W2 : Valuation τ sig (Elt Ideal)) (R0 : Reg0 (StableHlo.after (hostOps0 (F := Ideal)) W0) W2) : W2 (Proc.devRef .tc main_v3) = dstOf (W0 (Proc.devRef .tc main_arg1)) :=
  (R0.keep main_v3 (by decide)).trans (host0_dst W0)

/-- At boundary 4 the source ids are row 0 of the edge list. -/
theorem src_at4 (W0 W2 W4 : Valuation τ sig (Elt Ideal)) (R0 : Reg0 (StableHlo.after (hostOps0 (F := Ideal)) W0) W2) (R1 : Reg1 (StableHlo.after (hostOps1 (F := Ideal)) W2) W4) : W4 (Proc.devRef .tc main_v1) = srcOf (W0 (Proc.devRef .tc main_arg1)) :=
  ((R1.keep main_v1 (by decide)).trans ((host1_keep W2 main_v1 (by decide)).trans (R0.keep main_v1 (by decide)))).trans (host0_src W0)
/-- At boundary 4 the destination ids are row 1 of the edge list. -/
theorem dst_at4 (W0 W2 W4 : Valuation τ sig (Elt Ideal)) (R0 : Reg0 (StableHlo.after (hostOps0 (F := Ideal)) W0) W2) (R1 : Reg1 (StableHlo.after (hostOps1 (F := Ideal)) W2) W4) : W4 (Proc.devRef .tc main_v3) = dstOf (W0 (Proc.devRef .tc main_arg1)) :=
  ((R1.keep main_v3 (by decide)).trans ((host1_keep W2 main_v3 (by decide)).trans (R0.keep main_v3 (by decide)))).trans (host0_dst W0)

/-- At boundary 6 the source ids are row 0 of the edge list. -/
theorem src_at6 (W0 W2 W4 W6 : Valuation τ sig (Elt Ideal)) (R0 : Reg0 (StableHlo.after (hostOps0 (F := Ideal)) W0) W2) (R1 : Reg1 (StableHlo.after (hostOps1 (F := Ideal)) W2) W4) (R2 : Reg2 (StableHlo.after (hostOps2 (F := Ideal)) W4) W6) : W6 (Proc.devRef .tc main_v1) = srcOf (W0 (Proc.devRef .tc main_arg1)) :=
  ((R2.keep main_v1 (by decide)).trans ((host2_keep W4 main_v1 (by decide)).trans ((R1.keep main_v1 (by decide)).trans ((host1_keep W2 main_v1 (by decide)).trans (R0.keep main_v1 (by decide)))))).trans (host0_src W0)
/-- At boundary 6 the destination ids are row 1 of the edge list. -/
theorem dst_at6 (W0 W2 W4 W6 : Valuation τ sig (Elt Ideal)) (R0 : Reg0 (StableHlo.after (hostOps0 (F := Ideal)) W0) W2) (R1 : Reg1 (StableHlo.after (hostOps1 (F := Ideal)) W2) W4) (R2 : Reg2 (StableHlo.after (hostOps2 (F := Ideal)) W4) W6) : W6 (Proc.devRef .tc main_v3) = dstOf (W0 (Proc.devRef .tc main_arg1)) :=
  ((R2.keep main_v3 (by decide)).trans ((host2_keep W4 main_v3 (by decide)).trans ((R1.keep main_v3 (by decide)).trans ((host1_keep W2 main_v3 (by decide)).trans (R0.keep main_v3 (by decide)))))).trans (host0_dst W0)

/-- At boundary 8 the source ids are row 0 of the edge list. -/
theorem src_at8 (W0 W2 W4 W6 W8 : Valuation τ sig (Elt Ideal)) (R0 : Reg0 (StableHlo.after (hostOps0 (F := Ideal)) W0) W2) (R1 : Reg1 (StableHlo.after (hostOps1 (F := Ideal)) W2) W4) (R2 : Reg2 (StableHlo.after (hostOps2 (F := Ideal)) W4) W6) (R3 : Reg3 (StableHlo.after (hostOps3 (F := Ideal)) W6) W8) : W8 (Proc.devRef .tc main_v1) = srcOf (W0 (Proc.devRef .tc main_arg1)) :=
  ((R3.keep main_v1 (by decide)).trans ((host3_keep W6 main_v1 (by decide)).trans ((R2.keep main_v1 (by decide)).trans ((host2_keep W4 main_v1 (by decide)).trans ((R1.keep main_v1 (by decide)).trans ((host1_keep W2 main_v1 (by decide)).trans (R0.keep main_v1 (by decide)))))))).trans (host0_src W0)
/-- At boundary 8 the destination ids are row 1 of the edge list. -/
theorem dst_at8 (W0 W2 W4 W6 W8 : Valuation τ sig (Elt Ideal)) (R0 : Reg0 (StableHlo.after (hostOps0 (F := Ideal)) W0) W2) (R1 : Reg1 (StableHlo.after (hostOps1 (F := Ideal)) W2) W4) (R2 : Reg2 (StableHlo.after (hostOps2 (F := Ideal)) W4) W6) (R3 : Reg3 (StableHlo.after (hostOps3 (F := Ideal)) W6) W8) : W8 (Proc.devRef .tc main_v3) = dstOf (W0 (Proc.devRef .tc main_arg1)) :=
  ((R3.keep main_v3 (by decide)).trans ((host3_keep W6 main_v3 (by decide)).trans ((R2.keep main_v3 (by decide)).trans ((host2_keep W4 main_v3 (by decide)).trans ((R1.keep main_v3 (by decide)).trans ((host1_keep W2 main_v3 (by decide)).trans (R0.keep main_v3 (by decide)))))))).trans (host0_dst W0)

/-- At boundary 3 the graph ids' column is the one stretch 0 made. -/
theorem batch_at3 (W0 W2 : Valuation τ sig (Elt Ideal)) (R0 : Reg0 (StableHlo.after (hostOps0 (F := Ideal)) W0) W2) : (StableHlo.after (hostOps1 (F := Ideal)) W2) (Proc.devRef .tc main_v4) = (StableHlo.after (hostOps0 (F := Ideal)) W0) (Proc.devRef .tc main_v4) :=
  ((host1_keep W2 main_v4 (by decide)).trans (R0.keep main_v4 (by decide)))

/-- At boundary 5 the graph ids' column is the one stretch 0 made. -/
theorem batch_at5 (W0 W2 W4 : Valuation τ sig (Elt Ideal)) (R0 : Reg0 (StableHlo.after (hostOps0 (F := Ideal)) W0) W2) (R1 : Reg1 (StableHlo.after (hostOps1 (F := Ideal)) W2) W4) : (StableHlo.after (hostOps2 (F := Ideal)) W4) (Proc.devRef .tc main_v4) = (StableHlo.after (hostOps0 (F := Ideal)) W0) (Proc.devRef .tc main_v4) :=
  ((host2_keep W4 main_v4 (by decide)).trans ((R1.keep main_v4 (by decide)).trans ((host1_keep W2 main_v4 (by decide)).trans (R0.keep main_v4 (by decide)))))

/-- At boundary 7 the graph ids' column is the one stretch 0 made. -/
theorem batch_at7 (W0 W2 W4 W6 : Valuation τ sig (Elt Ideal)) (R0 : Reg0 (StableHlo.after (hostOps0 (F := Ideal)) W0) W2) (R1 : Reg1 (StableHlo.after (hostOps1 (F := Ideal)) W2) W4) (R2 : Reg2 (StableHlo.after (hostOps2 (F := Ideal)) W4) W6) : (StableHlo.after (hostOps3 (F := Ideal)) W6) (Proc.devRef .tc main_v4) = (StableHlo.after (hostOps0 (F := Ideal)) W0) (Proc.devRef .tc main_v4) :=
  ((host3_keep W6 main_v4 (by decide)).trans ((R2.keep main_v4 (by decide)).trans ((host2_keep W4 main_v4 (by decide)).trans ((R1.keep main_v4 (by decide)).trans ((host1_keep W2 main_v4 (by decide)).trans (R0.keep main_v4 (by decide)))))))

/-- At boundary 9 the graph ids' column is the one stretch 0 made. -/
theorem batch_at9 (W0 W2 W4 W6 W8 : Valuation τ sig (Elt Ideal)) (R0 : Reg0 (StableHlo.after (hostOps0 (F := Ideal)) W0) W2) (R1 : Reg1 (StableHlo.after (hostOps1 (F := Ideal)) W2) W4) (R2 : Reg2 (StableHlo.after (hostOps2 (F := Ideal)) W4) W6) (R3 : Reg3 (StableHlo.after (hostOps3 (F := Ideal)) W6) W8) : (StableHlo.after (hostOps4 (F := Ideal)) W8) (Proc.devRef .tc main_v4) = (StableHlo.after (hostOps0 (F := Ideal)) W0) (Proc.devRef .tc main_v4) :=
  ((host4_keep W8 main_v4 (by decide)).trans ((R3.keep main_v4 (by decide)).trans ((host3_keep W6 main_v4 (by decide)).trans ((R2.keep main_v4 (by decide)).trans ((host2_keep W4 main_v4 (by decide)).trans ((R1.keep main_v4 (by decide)).trans ((host1_keep W2 main_v4 (by decide)).trans (R0.keep main_v4 (by decide)))))))))

/-! ## The chain

From any contents `W0` at launch, through the six host stretches (each the library's `StableHlo.after` of the contents
before it) and five regions (each any pair of contents in the region's relation), every layer's features, readout and next
aggregated input are the closed forms at the launch contents of the arguments. -/

/-- Region 0's features are layer 0's closed form. -/
theorem h1_eq (W0 W2 : Valuation τ sig (Elt Ideal)) (R0 : Reg0 (StableHlo.after (hostOps0 (F := Ideal)) W0) W2) :
    W2 (Proc.devRef .tc main_v51_0) = H1 (W0 (Proc.devRef .tc main_arg0)) (W0 (Proc.devRef .tc main_arg1)) (W0 (Proc.devRef .tc main_arg3)) (W0 (Proc.devRef .tc main_arg4)) (W0 (Proc.devRef .tc main_arg5)) (W0 (Proc.devRef .tc main_arg8)) (W0 (Proc.devRef .tc main_arg9)) (W0 (Proc.devRef .tc main_arg10)) (W0 (Proc.devRef .tc main_arg11)) (W0 (Proc.devRef .tc main_arg12)) (W0 (Proc.devRef .tc main_arg13)) (W0 (Proc.devRef .tc main_arg14)) (W0 (Proc.devRef .tc main_arg15)) (W0 (Proc.devRef .tc main_arg16)) (W0 (Proc.devRef .tc main_arg17)) := by
  funext i
  obtain ⟨n, j, rfl⟩ : ∃ (n : Fin 100000) (j : Fin 64), i = ix2 n j := ⟨i 0, i 1, eq_ix2 i⟩
  rw [R0.val.h n j, H1_apply]
  exact mlp_congr
    (funext fun d => congrFun (host0_z W0) (ix2 n d))
    (funext fun d => funext fun k => congrFun (host0_keep W0 main_arg4 (by decide)) (ix2 d k))
    (funext fun k => host0_b1 W0 0 k)
    (funext fun k => host0_ga W0 0 k)
    (funext fun k => host0_bea W0 0 k)
    (funext fun k => host0_ma W0 0 k)
    (funext fun k => host0_va W0 0 k)
    (funext fun k => funext fun j' => host0_W2 W0 k j')
    (funext fun k => host0_b2 W0 0 k)
    (funext fun k => host0_gb W0 0 k)
    (funext fun k => host0_beb W0 0 k)
    (funext fun k => host0_mb W0 0 k)
    (funext fun k => host0_vb W0 0 k) j

/-- The stretch after region 0 leaves layer 0's pooled readout. -/
theorem ro0_eq (W0 W2 : Valuation τ sig (Elt Ideal)) (R0 : Reg0 (StableHlo.after (hostOps0 (F := Ideal)) W0) W2) :
    (StableHlo.after (hostOps1 (F := Ideal)) W2) (Proc.devRef .tc main_v52) = RO0 (W0 (Proc.devRef .tc main_arg0)) (W0 (Proc.devRef .tc main_arg1)) (W0 (Proc.devRef .tc main_arg2)) (W0 (Proc.devRef .tc main_arg3)) (W0 (Proc.devRef .tc main_arg4)) (W0 (Proc.devRef .tc main_arg5)) (W0 (Proc.devRef .tc main_arg8)) (W0 (Proc.devRef .tc main_arg9)) (W0 (Proc.devRef .tc main_arg10)) (W0 (Proc.devRef .tc main_arg11)) (W0 (Proc.devRef .tc main_arg12)) (W0 (Proc.devRef .tc main_arg13)) (W0 (Proc.devRef .tc main_arg14)) (W0 (Proc.devRef .tc main_arg15)) (W0 (Proc.devRef .tc main_arg16)) (W0 (Proc.devRef .tc main_arg17)) := by
  funext i
  obtain ⟨g, j, rfl⟩ : ∃ (g : Fin 512) (j : Fin 64), i = ix2 g j := ⟨i 0, i 1, eq_ix2 i⟩
  rw [RO0_apply]
  exact ((host1_readout_apply W2 g j).trans (R0.val.ro g j)).trans
    (pool_congr (funext fun n => congrFun (h1_eq W0 W2 R0) (ix2 n j)) (funext fun n => host0_batch W0 n 0) g)

/-- The stretch after region 0 leaves layer 1's aggregated input. -/
theorem z1_eq (W0 W2 : Valuation τ sig (Elt Ideal)) (R0 : Reg0 (StableHlo.after (hostOps0 (F := Ideal)) W0) W2) :
    (StableHlo.after (hostOps1 (F := Ideal)) W2) (Proc.devRef .tc main_v68) = Z1 (W0 (Proc.devRef .tc main_arg0)) (W0 (Proc.devRef .tc main_arg1)) (W0 (Proc.devRef .tc main_arg3)) (W0 (Proc.devRef .tc main_arg4)) (W0 (Proc.devRef .tc main_arg5)) (W0 (Proc.devRef .tc main_arg8)) (W0 (Proc.devRef .tc main_arg9)) (W0 (Proc.devRef .tc main_arg10)) (W0 (Proc.devRef .tc main_arg11)) (W0 (Proc.devRef .tc main_arg12)) (W0 (Proc.devRef .tc main_arg13)) (W0 (Proc.devRef .tc main_arg14)) (W0 (Proc.devRef .tc main_arg15)) (W0 (Proc.devRef .tc main_arg16)) (W0 (Proc.devRef .tc main_arg17)) := by
  rw [host1_z W2, h1_eq W0 W2 R0, src_at2 W0 W2 R0, dst_at2 W0 W2 R0, args_at2 W0 W2 R0 main_arg3 (by decide)]
  rfl

/-- Region 1's features are layer 1's closed form. -/
theorem h2_eq (W0 W2 W4 : Valuation τ sig (Elt Ideal)) (R0 : Reg0 (StableHlo.after (hostOps0 (F := Ideal)) W0) W2) (R1 : Reg1 (StableHlo.after (hostOps1 (F := Ideal)) W2) W4) :
    W4 (Proc.devRef .tc main_v103_0) = H2 (W0 (Proc.devRef .tc main_arg0)) (W0 (Proc.devRef .tc main_arg1)) (W0 (Proc.devRef .tc main_arg3)) (W0 (Proc.devRef .tc main_arg4)) (W0 (Proc.devRef .tc main_arg5)) (W0 (Proc.devRef .tc main_arg6)) (W0 (Proc.devRef .tc main_arg7)) (W0 (Proc.devRef .tc main_arg8)) (W0 (Proc.devRef .tc main_arg9)) (W0 (Proc.devRef .tc main_arg10)) (W0 (Proc.devRef .tc main_arg11)) (W0 (Proc.devRef .tc main_arg12)) (W0 (Proc.devRef .tc main_arg13)) (W0 (Proc.devRef .tc main_arg14)) (W0 (Proc.devRef .tc main_arg15)) (W0 (Proc.devRef .tc main_arg16)) (W0 (Proc.devRef .tc main_arg17)) := by
  funext i
  obtain ⟨n, j, rfl⟩ : ∃ (n : Fin 100000) (j : Fin 64), i = ix2 n j := ⟨i 0, i 1, eq_ix2 i⟩
  rw [R1.val.h n j, H2_apply]
  exact mlp_congr
    (funext fun d => congrFun (z1_eq W0 W2 R0) (ix2 n d))
    (funext fun d => funext fun k => (host1_W1 W2 d k).trans (congrFun (args_at2 W0 W2 R0 main_arg6 (by decide)) (ix3 (0 : Fin 4) d k)))
    (funext fun k => (host1_b1 W2 0 k).trans (congrFun (args_at2 W0 W2 R0 main_arg7 (by decide)) (ix2 (0 : Fin 4) k)))
    (funext fun k => (host1_ga W2 0 k).trans (congrFun (args_at2 W0 W2 R0 main_arg8 (by decide)) (ix2 (1 : Fin 5) k)))
    (funext fun k => (host1_bea W2 0 k).trans (congrFun (args_at2 W0 W2 R0 main_arg9 (by decide)) (ix2 (1 : Fin 5) k)))
    (funext fun k => (host1_ma W2 0 k).trans (congrFun (args_at2 W0 W2 R0 main_arg10 (by decide)) (ix2 (1 : Fin 5) k)))
    (funext fun k => (host1_va W2 0 k).trans (congrFun (args_at2 W0 W2 R0 main_arg11 (by decide)) (ix2 (1 : Fin 5) k)))
    (funext fun k => funext fun j' => (host1_W2 W2 k j').trans (congrFun (args_at2 W0 W2 R0 main_arg12 (by decide)) (ix3 (1 : Fin 5) k j')))
    (funext fun k => (host1_b2 W2 0 k).trans (congrFun (args_at2 W0 W2 R0 main_arg13 (by decide)) (ix2 (1 : Fin 5) k)))
    (funext fun k => (host1_gb W2 0 k).trans (congrFun (args_at2 W0 W2 R0 main_arg14 (by decide)) (ix2 (1 : Fin 5) k)))
    (funext fun k => (host1_beb W2 0 k).trans (congrFun (args_at2 W0 W2 R0 main_arg15 (by decide)) (ix2 (1 : Fin 5) k)))
    (funext fun k => (host1_mb W2 0 k).trans (congrFun (args_at2 W0 W2 R0 main_arg16 (by decide)) (ix2 (1 : Fin 5) k)))
    (funext fun k => (host1_vb W2 0 k).trans (congrFun (args_at2 W0 W2 R0 main_arg17 (by decide)) (ix2 (1 : Fin 5) k))) j

/-- The stretch after region 1 leaves layer 1's pooled readout. -/
theorem ro1_eq (W0 W2 W4 : Valuation τ sig (Elt Ideal)) (R0 : Reg0 (StableHlo.after (hostOps0 (F := Ideal)) W0) W2) (R1 : Reg1 (StableHlo.after (hostOps1 (F := Ideal)) W2) W4) :
    (StableHlo.after (hostOps2 (F := Ideal)) W4) (Proc.devRef .tc main_v104) = RO1 (W0 (Proc.devRef .tc main_arg0)) (W0 (Proc.devRef .tc main_arg1)) (W0 (Proc.devRef .tc main_arg2)) (W0 (Proc.devRef .tc main_arg3)) (W0 (Proc.devRef .tc main_arg4)) (W0 (Proc.devRef .tc main_arg5)) (W0 (Proc.devRef .tc main_arg6)) (W0 (Proc.devRef .tc main_arg7)) (W0 (Proc.devRef .tc main_arg8)) (W0 (Proc.devRef .tc main_arg9)) (W0 (Proc.devRef .tc main_arg10)) (W0 (Proc.devRef .tc main_arg11)) (W0 (Proc.devRef .tc main_arg12)) (W0 (Proc.devRef .tc main_arg13)) (W0 (Proc.devRef .tc main_arg14)) (W0 (Proc.devRef .tc main_arg15)) (W0 (Proc.devRef .tc main_arg16)) (W0 (Proc.devRef .tc main_arg17)) := by
  funext i
  obtain ⟨g, j, rfl⟩ : ∃ (g : Fin 512) (j : Fin 64), i = ix2 g j := ⟨i 0, i 1, eq_ix2 i⟩
  rw [RO1_apply]
  exact ((host2_readout_apply W4 g j).trans (R1.val.ro g j)).trans
    (pool_congr (funext fun n => congrFun (h2_eq W0 W2 W4 R0 R1) (ix2 n j)) (funext fun n => (congrFun (batch_at3 W0 W2 R0) (ix2 n 0)).trans (host0_batch W0 n 0)) g)

/-- The stretch after region 1 leaves layer 2's aggregated input. -/
theorem z2_eq (W0 W2 W4 : Valuation τ sig (Elt Ideal)) (R0 : Reg0 (StableHlo.after (hostOps0 (F := Ideal)) W0) W2) (R1 : Reg1 (StableHlo.after (hostOps1 (F := Ideal)) W2) W4) :
    (StableHlo.after (hostOps2 (F := Ideal)) W4) (Proc.devRef .tc main_v120) = Z2 (W0 (Proc.devRef .tc main_arg0)) (W0 (Proc.devRef .tc main_arg1)) (W0 (Proc.devRef .tc main_arg3)) (W0 (Proc.devRef .tc main_arg4)) (W0 (Proc.devRef .tc main_arg5)) (W0 (Proc.devRef .tc main_arg6)) (W0 (Proc.devRef .tc main_arg7)) (W0 (Proc.devRef .tc main_arg8)) (W0 (Proc.devRef .tc main_arg9)) (W0 (Proc.devRef .tc main_arg10)) (W0 (Proc.devRef .tc main_arg11)) (W0 (Proc.devRef .tc main_arg12)) (W0 (Proc.devRef .tc main_arg13)) (W0 (Proc.devRef .tc main_arg14)) (W0 (Proc.devRef .tc main_arg15)) (W0 (Proc.devRef .tc main_arg16)) (W0 (Proc.devRef .tc main_arg17)) := by
  rw [host2_z W4, h2_eq W0 W2 W4 R0 R1, src_at4 W0 W2 W4 R0 R1, dst_at4 W0 W2 W4 R0 R1, args_at4 W0 W2 W4 R0 R1 main_arg3 (by decide)]
  rfl

/-- Region 2's features are layer 2's closed form. -/
theorem h3_eq (W0 W2 W4 W6 : Valuation τ sig (Elt Ideal)) (R0 : Reg0 (StableHlo.after (hostOps0 (F := Ideal)) W0) W2) (R1 : Reg1 (StableHlo.after (hostOps1 (F := Ideal)) W2) W4) (R2 : Reg2 (StableHlo.after (hostOps2 (F := Ideal)) W4) W6) :
    W6 (Proc.devRef .tc main_v155_0) = H3 (W0 (Proc.devRef .tc main_arg0)) (W0 (Proc.devRef .tc main_arg1)) (W0 (Proc.devRef .tc main_arg3)) (W0 (Proc.devRef .tc main_arg4)) (W0 (Proc.devRef .tc main_arg5)) (W0 (Proc.devRef .tc main_arg6)) (W0 (Proc.devRef .tc main_arg7)) (W0 (Proc.devRef .tc main_arg8)) (W0 (Proc.devRef .tc main_arg9)) (W0 (Proc.devRef .tc main_arg10)) (W0 (Proc.devRef .tc main_arg11)) (W0 (Proc.devRef .tc main_arg12)) (W0 (Proc.devRef .tc main_arg13)) (W0 (Proc.devRef .tc main_arg14)) (W0 (Proc.devRef .tc main_arg15)) (W0 (Proc.devRef .tc main_arg16)) (W0 (Proc.devRef .tc main_arg17)) := by
  funext i
  obtain ⟨n, j, rfl⟩ : ∃ (n : Fin 100000) (j : Fin 64), i = ix2 n j := ⟨i 0, i 1, eq_ix2 i⟩
  rw [R2.val.h n j, H3_apply]
  exact mlp_congr
    (funext fun d => congrFun (z2_eq W0 W2 W4 R0 R1) (ix2 n d))
    (funext fun d => funext fun k => (host2_W1 W4 d k).trans (congrFun (args_at4 W0 W2 W4 R0 R1 main_arg6 (by decide)) (ix3 (1 : Fin 4) d k)))
    (funext fun k => (host2_b1 W4 0 k).trans (congrFun (args_at4 W0 W2 W4 R0 R1 main_arg7 (by decide)) (ix2 (1 : Fin 4) k)))
    (funext fun k => (host2_ga W4 0 k).trans (congrFun (args_at4 W0 W2 W4 R0 R1 main_arg8 (by decide)) (ix2 (2 : Fin 5) k)))
    (funext fun k => (host2_bea W4 0 k).trans (congrFun (args_at4 W0 W2 W4 R0 R1 main_arg9 (by decide)) (ix2 (2 : Fin 5) k)))
    (funext fun k => (host2_ma W4 0 k).trans (congrFun (args_at4 W0 W2 W4 R0 R1 main_arg10 (by decide)) (ix2 (2 : Fin 5) k)))
    (funext fun k => (host2_va W4 0 k).trans (congrFun (args_at4 W0 W2 W4 R0 R1 main_arg11 (by decide)) (ix2 (2 : Fin 5) k)))
    (funext fun k => funext fun j' => (host2_W2 W4 k j').trans (congrFun (args_at4 W0 W2 W4 R0 R1 main_arg12 (by decide)) (ix3 (2 : Fin 5) k j')))
    (funext fun k => (host2_b2 W4 0 k).trans (congrFun (args_at4 W0 W2 W4 R0 R1 main_arg13 (by decide)) (ix2 (2 : Fin 5) k)))
    (funext fun k => (host2_gb W4 0 k).trans (congrFun (args_at4 W0 W2 W4 R0 R1 main_arg14 (by decide)) (ix2 (2 : Fin 5) k)))
    (funext fun k => (host2_beb W4 0 k).trans (congrFun (args_at4 W0 W2 W4 R0 R1 main_arg15 (by decide)) (ix2 (2 : Fin 5) k)))
    (funext fun k => (host2_mb W4 0 k).trans (congrFun (args_at4 W0 W2 W4 R0 R1 main_arg16 (by decide)) (ix2 (2 : Fin 5) k)))
    (funext fun k => (host2_vb W4 0 k).trans (congrFun (args_at4 W0 W2 W4 R0 R1 main_arg17 (by decide)) (ix2 (2 : Fin 5) k))) j

/-- The stretch after region 2 leaves layer 2's pooled readout. -/
theorem ro2_eq (W0 W2 W4 W6 : Valuation τ sig (Elt Ideal)) (R0 : Reg0 (StableHlo.after (hostOps0 (F := Ideal)) W0) W2) (R1 : Reg1 (StableHlo.after (hostOps1 (F := Ideal)) W2) W4) (R2 : Reg2 (StableHlo.after (hostOps2 (F := Ideal)) W4) W6) :
    (StableHlo.after (hostOps3 (F := Ideal)) W6) (Proc.devRef .tc main_v156) = RO2 (W0 (Proc.devRef .tc main_arg0)) (W0 (Proc.devRef .tc main_arg1)) (W0 (Proc.devRef .tc main_arg2)) (W0 (Proc.devRef .tc main_arg3)) (W0 (Proc.devRef .tc main_arg4)) (W0 (Proc.devRef .tc main_arg5)) (W0 (Proc.devRef .tc main_arg6)) (W0 (Proc.devRef .tc main_arg7)) (W0 (Proc.devRef .tc main_arg8)) (W0 (Proc.devRef .tc main_arg9)) (W0 (Proc.devRef .tc main_arg10)) (W0 (Proc.devRef .tc main_arg11)) (W0 (Proc.devRef .tc main_arg12)) (W0 (Proc.devRef .tc main_arg13)) (W0 (Proc.devRef .tc main_arg14)) (W0 (Proc.devRef .tc main_arg15)) (W0 (Proc.devRef .tc main_arg16)) (W0 (Proc.devRef .tc main_arg17)) := by
  funext i
  obtain ⟨g, j, rfl⟩ : ∃ (g : Fin 512) (j : Fin 64), i = ix2 g j := ⟨i 0, i 1, eq_ix2 i⟩
  rw [RO2_apply]
  exact ((host3_readout_apply W6 g j).trans (R2.val.ro g j)).trans
    (pool_congr (funext fun n => congrFun (h3_eq W0 W2 W4 W6 R0 R1 R2) (ix2 n j)) (funext fun n => (congrFun (batch_at5 W0 W2 W4 R0 R1) (ix2 n 0)).trans (host0_batch W0 n 0)) g)

/-- The stretch after region 2 leaves layer 3's aggregated input. -/
theorem z3_eq (W0 W2 W4 W6 : Valuation τ sig (Elt Ideal)) (R0 : Reg0 (StableHlo.after (hostOps0 (F := Ideal)) W0) W2) (R1 : Reg1 (StableHlo.after (hostOps1 (F := Ideal)) W2) W4) (R2 : Reg2 (StableHlo.after (hostOps2 (F := Ideal)) W4) W6) :
    (StableHlo.after (hostOps3 (F := Ideal)) W6) (Proc.devRef .tc main_v172) = Z3 (W0 (Proc.devRef .tc main_arg0)) (W0 (Proc.devRef .tc main_arg1)) (W0 (Proc.devRef .tc main_arg3)) (W0 (Proc.devRef .tc main_arg4)) (W0 (Proc.devRef .tc main_arg5)) (W0 (Proc.devRef .tc main_arg6)) (W0 (Proc.devRef .tc main_arg7)) (W0 (Proc.devRef .tc main_arg8)) (W0 (Proc.devRef .tc main_arg9)) (W0 (Proc.devRef .tc main_arg10)) (W0 (Proc.devRef .tc main_arg11)) (W0 (Proc.devRef .tc main_arg12)) (W0 (Proc.devRef .tc main_arg13)) (W0 (Proc.devRef .tc main_arg14)) (W0 (Proc.devRef .tc main_arg15)) (W0 (Proc.devRef .tc main_arg16)) (W0 (Proc.devRef .tc main_arg17)) := by
  rw [host3_z W6, h3_eq W0 W2 W4 W6 R0 R1 R2, src_at6 W0 W2 W4 W6 R0 R1 R2, dst_at6 W0 W2 W4 W6 R0 R1 R2, args_at6 W0 W2 W4 W6 R0 R1 R2 main_arg3 (by decide)]
  rfl

/-- Region 3's features are layer 3's closed form. -/
theorem h4_eq (W0 W2 W4 W6 W8 : Valuation τ sig (Elt Ideal)) (R0 : Reg0 (StableHlo.after (hostOps0 (F := Ideal)) W0) W2) (R1 : Reg1 (StableHlo.after (hostOps1 (F := Ideal)) W2) W4) (R2 : Reg2 (StableHlo.after (hostOps2 (F := Ideal)) W4) W6) (R3 : Reg3 (StableHlo.after (hostOps3 (F := Ideal)) W6) W8) :
    W8 (Proc.devRef .tc main_v207_0) = H4 (W0 (Proc.devRef .tc main_arg0)) (W0 (Proc.devRef .tc main_arg1)) (W0 (Proc.devRef .tc main_arg3)) (W0 (Proc.devRef .tc main_arg4)) (W0 (Proc.devRef .tc main_arg5)) (W0 (Proc.devRef .tc main_arg6)) (W0 (Proc.devRef .tc main_arg7)) (W0 (Proc.devRef .tc main_arg8)) (W0 (Proc.devRef .tc main_arg9)) (W0 (Proc.devRef .tc main_arg10)) (W0 (Proc.devRef .tc main_arg11)) (W0 (Proc.devRef .tc main_arg12)) (W0 (Proc.devRef .tc main_arg13)) (W0 (Proc.devRef .tc main_arg14)) (W0 (Proc.devRef .tc main_arg15)) (W0 (Proc.devRef .tc main_arg16)) (W0 (Proc.devRef .tc main_arg17)) := by
  funext i
  obtain ⟨n, j, rfl⟩ : ∃ (n : Fin 100000) (j : Fin 64), i = ix2 n j := ⟨i 0, i 1, eq_ix2 i⟩
  rw [R3.val.h n j, H4_apply]
  exact mlp_congr
    (funext fun d => congrFun (z3_eq W0 W2 W4 W6 R0 R1 R2) (ix2 n d))
    (funext fun d => funext fun k => (host3_W1 W6 d k).trans (congrFun (args_at6 W0 W2 W4 W6 R0 R1 R2 main_arg6 (by decide)) (ix3 (2 : Fin 4) d k)))
    (funext fun k => (host3_b1 W6 0 k).trans (congrFun (args_at6 W0 W2 W4 W6 R0 R1 R2 main_arg7 (by decide)) (ix2 (2 : Fin 4) k)))
    (funext fun k => (host3_ga W6 0 k).trans (congrFun (args_at6 W0 W2 W4 W6 R0 R1 R2 main_arg8 (by decide)) (ix2 (3 : Fin 5) k)))
    (funext fun k => (host3_bea W6 0 k).trans (congrFun (args_at6 W0 W2 W4 W6 R0 R1 R2 main_arg9 (by decide)) (ix2 (3 : Fin 5) k)))
    (funext fun k => (host3_ma W6 0 k).trans (congrFun (args_at6 W0 W2 W4 W6 R0 R1 R2 main_arg10 (by decide)) (ix2 (3 : Fin 5) k)))
    (funext fun k => (host3_va W6 0 k).trans (congrFun (args_at6 W0 W2 W4 W6 R0 R1 R2 main_arg11 (by decide)) (ix2 (3 : Fin 5) k)))
    (funext fun k => funext fun j' => (host3_W2 W6 k j').trans (congrFun (args_at6 W0 W2 W4 W6 R0 R1 R2 main_arg12 (by decide)) (ix3 (3 : Fin 5) k j')))
    (funext fun k => (host3_b2 W6 0 k).trans (congrFun (args_at6 W0 W2 W4 W6 R0 R1 R2 main_arg13 (by decide)) (ix2 (3 : Fin 5) k)))
    (funext fun k => (host3_gb W6 0 k).trans (congrFun (args_at6 W0 W2 W4 W6 R0 R1 R2 main_arg14 (by decide)) (ix2 (3 : Fin 5) k)))
    (funext fun k => (host3_beb W6 0 k).trans (congrFun (args_at6 W0 W2 W4 W6 R0 R1 R2 main_arg15 (by decide)) (ix2 (3 : Fin 5) k)))
    (funext fun k => (host3_mb W6 0 k).trans (congrFun (args_at6 W0 W2 W4 W6 R0 R1 R2 main_arg16 (by decide)) (ix2 (3 : Fin 5) k)))
    (funext fun k => (host3_vb W6 0 k).trans (congrFun (args_at6 W0 W2 W4 W6 R0 R1 R2 main_arg17 (by decide)) (ix2 (3 : Fin 5) k))) j

/-- The stretch after region 3 leaves layer 3's pooled readout. -/
theorem ro3_eq (W0 W2 W4 W6 W8 : Valuation τ sig (Elt Ideal)) (R0 : Reg0 (StableHlo.after (hostOps0 (F := Ideal)) W0) W2) (R1 : Reg1 (StableHlo.after (hostOps1 (F := Ideal)) W2) W4) (R2 : Reg2 (StableHlo.after (hostOps2 (F := Ideal)) W4) W6) (R3 : Reg3 (StableHlo.after (hostOps3 (F := Ideal)) W6) W8) :
    (StableHlo.after (hostOps4 (F := Ideal)) W8) (Proc.devRef .tc main_v208) = RO3 (W0 (Proc.devRef .tc main_arg0)) (W0 (Proc.devRef .tc main_arg1)) (W0 (Proc.devRef .tc main_arg2)) (W0 (Proc.devRef .tc main_arg3)) (W0 (Proc.devRef .tc main_arg4)) (W0 (Proc.devRef .tc main_arg5)) (W0 (Proc.devRef .tc main_arg6)) (W0 (Proc.devRef .tc main_arg7)) (W0 (Proc.devRef .tc main_arg8)) (W0 (Proc.devRef .tc main_arg9)) (W0 (Proc.devRef .tc main_arg10)) (W0 (Proc.devRef .tc main_arg11)) (W0 (Proc.devRef .tc main_arg12)) (W0 (Proc.devRef .tc main_arg13)) (W0 (Proc.devRef .tc main_arg14)) (W0 (Proc.devRef .tc main_arg15)) (W0 (Proc.devRef .tc main_arg16)) (W0 (Proc.devRef .tc main_arg17)) := by
  funext i
  obtain ⟨g, j, rfl⟩ : ∃ (g : Fin 512) (j : Fin 64), i = ix2 g j := ⟨i 0, i 1, eq_ix2 i⟩
  rw [RO3_apply]
  exact ((host4_readout_apply W8 g j).trans (R3.val.ro g j)).trans
    (pool_congr (funext fun n => congrFun (h4_eq W0 W2 W4 W6 W8 R0 R1 R2 R3) (ix2 n j)) (funext fun n => (congrFun (batch_at7 W0 W2 W4 W6 R0 R1 R2) (ix2 n 0)).trans (host0_batch W0 n 0)) g)

/-- The stretch after region 3 leaves layer 4's aggregated input. -/
theorem z4_eq (W0 W2 W4 W6 W8 : Valuation τ sig (Elt Ideal)) (R0 : Reg0 (StableHlo.after (hostOps0 (F := Ideal)) W0) W2) (R1 : Reg1 (StableHlo.after (hostOps1 (F := Ideal)) W2) W4) (R2 : Reg2 (StableHlo.after (hostOps2 (F := Ideal)) W4) W6) (R3 : Reg3 (StableHlo.after (hostOps3 (F := Ideal)) W6) W8) :
    (StableHlo.after (hostOps4 (F := Ideal)) W8) (Proc.devRef .tc main_v224) = Z4 (W0 (Proc.devRef .tc main_arg0)) (W0 (Proc.devRef .tc main_arg1)) (W0 (Proc.devRef .tc main_arg3)) (W0 (Proc.devRef .tc main_arg4)) (W0 (Proc.devRef .tc main_arg5)) (W0 (Proc.devRef .tc main_arg6)) (W0 (Proc.devRef .tc main_arg7)) (W0 (Proc.devRef .tc main_arg8)) (W0 (Proc.devRef .tc main_arg9)) (W0 (Proc.devRef .tc main_arg10)) (W0 (Proc.devRef .tc main_arg11)) (W0 (Proc.devRef .tc main_arg12)) (W0 (Proc.devRef .tc main_arg13)) (W0 (Proc.devRef .tc main_arg14)) (W0 (Proc.devRef .tc main_arg15)) (W0 (Proc.devRef .tc main_arg16)) (W0 (Proc.devRef .tc main_arg17)) := by
  rw [host4_z W8, h4_eq W0 W2 W4 W6 W8 R0 R1 R2 R3, src_at8 W0 W2 W4 W6 W8 R0 R1 R2 R3, dst_at8 W0 W2 W4 W6 W8 R0 R1 R2 R3, args_at8 W0 W2 W4 W6 W8 R0 R1 R2 R3 main_arg3 (by decide)]
  rfl

/-- Region 4's features are layer 4's closed form. -/
theorem h5_eq (W0 W2 W4 W6 W8 W10 : Valuation τ sig (Elt Ideal)) (R0 : Reg0 (StableHlo.after (hostOps0 (F := Ideal)) W0) W2) (R1 : Reg1 (StableHlo.after (hostOps1 (F := Ideal)) W2) W4) (R2 : Reg2 (StableHlo.after (hostOps2 (F := Ideal)) W4) W6) (R3 : Reg3 (StableHlo.after (hostOps3 (F := Ideal)) W6) W8) (R4 : Reg4 (StableHlo.after (hostOps4 (F := Ideal)) W8) W10) :
    W10 (Proc.devRef .tc main_v259_0) = H5 (W0 (Proc.devRef .tc main_arg0)) (W0 (Proc.devRef .tc main_arg1)) (W0 (Proc.devRef .tc main_arg3)) (W0 (Proc.devRef .tc main_arg4)) (W0 (Proc.devRef .tc main_arg5)) (W0 (Proc.devRef .tc main_arg6)) (W0 (Proc.devRef .tc main_arg7)) (W0 (Proc.devRef .tc main_arg8)) (W0 (Proc.devRef .tc main_arg9)) (W0 (Proc.devRef .tc main_arg10)) (W0 (Proc.devRef .tc main_arg11)) (W0 (Proc.devRef .tc main_arg12)) (W0 (Proc.devRef .tc main_arg13)) (W0 (Proc.devRef .tc main_arg14)) (W0 (Proc.devRef .tc main_arg15)) (W0 (Proc.devRef .tc main_arg16)) (W0 (Proc.devRef .tc main_arg17)) := by
  funext i
  obtain ⟨n, j, rfl⟩ : ∃ (n : Fin 100000) (j : Fin 64), i = ix2 n j := ⟨i 0, i 1, eq_ix2 i⟩
  rw [R4.val.h n j, H5_apply]
  exact mlp_congr
    (funext fun d => congrFun (z4_eq W0 W2 W4 W6 W8 R0 R1 R2 R3) (ix2 n d))
    (funext fun d => funext fun k => (host4_W1 W8 d k).trans (congrFun (args_at8 W0 W2 W4 W6 W8 R0 R1 R2 R3 main_arg6 (by decide)) (ix3 (3 : Fin 4) d k)))
    (funext fun k => (host4_b1 W8 0 k).trans (congrFun (args_at8 W0 W2 W4 W6 W8 R0 R1 R2 R3 main_arg7 (by decide)) (ix2 (3 : Fin 4) k)))
    (funext fun k => (host4_ga W8 0 k).trans (congrFun (args_at8 W0 W2 W4 W6 W8 R0 R1 R2 R3 main_arg8 (by decide)) (ix2 (4 : Fin 5) k)))
    (funext fun k => (host4_bea W8 0 k).trans (congrFun (args_at8 W0 W2 W4 W6 W8 R0 R1 R2 R3 main_arg9 (by decide)) (ix2 (4 : Fin 5) k)))
    (funext fun k => (host4_ma W8 0 k).trans (congrFun (args_at8 W0 W2 W4 W6 W8 R0 R1 R2 R3 main_arg10 (by decide)) (ix2 (4 : Fin 5) k)))
    (funext fun k => (host4_va W8 0 k).trans (congrFun (args_at8 W0 W2 W4 W6 W8 R0 R1 R2 R3 main_arg11 (by decide)) (ix2 (4 : Fin 5) k)))
    (funext fun k => funext fun j' => (host4_W2 W8 k j').trans (congrFun (args_at8 W0 W2 W4 W6 W8 R0 R1 R2 R3 main_arg12 (by decide)) (ix3 (4 : Fin 5) k j')))
    (funext fun k => (host4_b2 W8 0 k).trans (congrFun (args_at8 W0 W2 W4 W6 W8 R0 R1 R2 R3 main_arg13 (by decide)) (ix2 (4 : Fin 5) k)))
    (funext fun k => (host4_gb W8 0 k).trans (congrFun (args_at8 W0 W2 W4 W6 W8 R0 R1 R2 R3 main_arg14 (by decide)) (ix2 (4 : Fin 5) k)))
    (funext fun k => (host4_beb W8 0 k).trans (congrFun (args_at8 W0 W2 W4 W6 W8 R0 R1 R2 R3 main_arg15 (by decide)) (ix2 (4 : Fin 5) k)))
    (funext fun k => (host4_mb W8 0 k).trans (congrFun (args_at8 W0 W2 W4 W6 W8 R0 R1 R2 R3 main_arg16 (by decide)) (ix2 (4 : Fin 5) k)))
    (funext fun k => (host4_vb W8 0 k).trans (congrFun (args_at8 W0 W2 W4 W6 W8 R0 R1 R2 R3 main_arg17 (by decide)) (ix2 (4 : Fin 5) k))) j

/-- The stretch after region 4 leaves layer 4's pooled readout. -/
theorem ro4_eq (W0 W2 W4 W6 W8 W10 : Valuation τ sig (Elt Ideal)) (R0 : Reg0 (StableHlo.after (hostOps0 (F := Ideal)) W0) W2) (R1 : Reg1 (StableHlo.after (hostOps1 (F := Ideal)) W2) W4) (R2 : Reg2 (StableHlo.after (hostOps2 (F := Ideal)) W4) W6) (R3 : Reg3 (StableHlo.after (hostOps3 (F := Ideal)) W6) W8) (R4 : Reg4 (StableHlo.after (hostOps4 (F := Ideal)) W8) W10) :
    (StableHlo.after (hostOps5 (F := Ideal)) W10) (Proc.devRef .tc main_v260) = RO4 (W0 (Proc.devRef .tc main_arg0)) (W0 (Proc.devRef .tc main_arg1)) (W0 (Proc.devRef .tc main_arg2)) (W0 (Proc.devRef .tc main_arg3)) (W0 (Proc.devRef .tc main_arg4)) (W0 (Proc.devRef .tc main_arg5)) (W0 (Proc.devRef .tc main_arg6)) (W0 (Proc.devRef .tc main_arg7)) (W0 (Proc.devRef .tc main_arg8)) (W0 (Proc.devRef .tc main_arg9)) (W0 (Proc.devRef .tc main_arg10)) (W0 (Proc.devRef .tc main_arg11)) (W0 (Proc.devRef .tc main_arg12)) (W0 (Proc.devRef .tc main_arg13)) (W0 (Proc.devRef .tc main_arg14)) (W0 (Proc.devRef .tc main_arg15)) (W0 (Proc.devRef .tc main_arg16)) (W0 (Proc.devRef .tc main_arg17)) := by
  funext i
  obtain ⟨g, j, rfl⟩ : ∃ (g : Fin 512) (j : Fin 64), i = ix2 g j := ⟨i 0, i 1, eq_ix2 i⟩
  rw [RO4_apply]
  exact ((host5_readout_apply W10 g j).trans (R4.val.ro g j)).trans
    (pool_congr (funext fun n => congrFun (h5_eq W0 W2 W4 W6 W8 W10 R0 R1 R2 R3 R4) (ix2 n j)) (funext fun n => (congrFun (batch_at9 W0 W2 W4 W6 W8 R0 R1 R2 R3) (ix2 n 0)).trans (host0_batch W0 n 0)) g)

/-- THE RESULT: what the last stretch leaves in the program's result buffer is the classifier on the five closed-form
    readouts, with the classifier's matrix and bias as launched. -/
theorem result_eq (W0 W2 W4 W6 W8 W10 : Valuation τ sig (Elt Ideal)) (R0 : Reg0 (StableHlo.after (hostOps0 (F := Ideal)) W0) W2) (R1 : Reg1 (StableHlo.after (hostOps1 (F := Ideal)) W2) W4) (R2 : Reg2 (StableHlo.after (hostOps2 (F := Ideal)) W4) W6) (R3 : Reg3 (StableHlo.after (hostOps3 (F := Ideal)) W6) W8) (R4 : Reg4 (StableHlo.after (hostOps4 (F := Ideal)) W8) W10) :
    (StableHlo.after (hostOps5 (F := Ideal)) W10) (Proc.devRef .tc main_v265) = Out (W0 (Proc.devRef .tc main_arg0)) (W0 (Proc.devRef .tc main_arg1)) (W0 (Proc.devRef .tc main_arg2)) (W0 (Proc.devRef .tc main_arg3)) (W0 (Proc.devRef .tc main_arg4)) (W0 (Proc.devRef .tc main_arg5)) (W0 (Proc.devRef .tc main_arg6)) (W0 (Proc.devRef .tc main_arg7)) (W0 (Proc.devRef .tc main_arg8)) (W0 (Proc.devRef .tc main_arg9)) (W0 (Proc.devRef .tc main_arg10)) (W0 (Proc.devRef .tc main_arg11)) (W0 (Proc.devRef .tc main_arg12)) (W0 (Proc.devRef .tc main_arg13)) (W0 (Proc.devRef .tc main_arg14)) (W0 (Proc.devRef .tc main_arg15)) (W0 (Proc.devRef .tc main_arg16)) (W0 (Proc.devRef .tc main_arg17)) (W0 (Proc.devRef .tc main_arg18)) (W0 (Proc.devRef .tc main_arg19)) := by
  have e0 : W10 (Proc.devRef .tc main_v52) = RO0 (W0 (Proc.devRef .tc main_arg0)) (W0 (Proc.devRef .tc main_arg1)) (W0 (Proc.devRef .tc main_arg2)) (W0 (Proc.devRef .tc main_arg3)) (W0 (Proc.devRef .tc main_arg4)) (W0 (Proc.devRef .tc main_arg5)) (W0 (Proc.devRef .tc main_arg8)) (W0 (Proc.devRef .tc main_arg9)) (W0 (Proc.devRef .tc main_arg10)) (W0 (Proc.devRef .tc main_arg11)) (W0 (Proc.devRef .tc main_arg12)) (W0 (Proc.devRef .tc main_arg13)) (W0 (Proc.devRef .tc main_arg14)) (W0 (Proc.devRef .tc main_arg15)) (W0 (Proc.devRef .tc main_arg16)) (W0 (Proc.devRef .tc main_arg17)) :=
    ((R4.keep main_v52 (by decide)).trans ((host4_keep W8 main_v52 (by decide)).trans ((R3.keep main_v52 (by decide)).trans ((host3_keep W6 main_v52 (by decide)).trans ((R2.keep main_v52 (by decide)).trans ((host2_keep W4 main_v52 (by decide)).trans (R1.keep main_v52 (by decide)))))))).trans (ro0_eq W0 W2 R0)
  have e1 : W10 (Proc.devRef .tc main_v104) = RO1 (W0 (Proc.devRef .tc main_arg0)) (W0 (Proc.devRef .tc main_arg1)) (W0 (Proc.devRef .tc main_arg2)) (W0 (Proc.devRef .tc main_arg3)) (W0 (Proc.devRef .tc main_arg4)) (W0 (Proc.devRef .tc main_arg5)) (W0 (Proc.devRef .tc main_arg6)) (W0 (Proc.devRef .tc main_arg7)) (W0 (Proc.devRef .tc main_arg8)) (W0 (Proc.devRef .tc main_arg9)) (W0 (Proc.devRef .tc main_arg10)) (W0 (Proc.devRef .tc main_arg11)) (W0 (Proc.devRef .tc main_arg12)) (W0 (Proc.devRef .tc main_arg13)) (W0 (Proc.devRef .tc main_arg14)) (W0 (Proc.devRef .tc main_arg15)) (W0 (Proc.devRef .tc main_arg16)) (W0 (Proc.devRef .tc main_arg17)) :=
    ((R4.keep main_v104 (by decide)).trans ((host4_keep W8 main_v104 (by decide)).trans ((R3.keep main_v104 (by decide)).trans ((host3_keep W6 main_v104 (by decide)).trans (R2.keep main_v104 (by decide)))))).trans (ro1_eq W0 W2 W4 R0 R1)
  have e2 : W10 (Proc.devRef .tc main_v156) = RO2 (W0 (Proc.devRef .tc main_arg0)) (W0 (Proc.devRef .tc main_arg1)) (W0 (Proc.devRef .tc main_arg2)) (W0 (Proc.devRef .tc main_arg3)) (W0 (Proc.devRef .tc main_arg4)) (W0 (Proc.devRef .tc main_arg5)) (W0 (Proc.devRef .tc main_arg6)) (W0 (Proc.devRef .tc main_arg7)) (W0 (Proc.devRef .tc main_arg8)) (W0 (Proc.devRef .tc main_arg9)) (W0 (Proc.devRef .tc main_arg10)) (W0 (Proc.devRef .tc main_arg11)) (W0 (Proc.devRef .tc main_arg12)) (W0 (Proc.devRef .tc main_arg13)) (W0 (Proc.devRef .tc main_arg14)) (W0 (Proc.devRef .tc main_arg15)) (W0 (Proc.devRef .tc main_arg16)) (W0 (Proc.devRef .tc main_arg17)) :=
    ((R4.keep main_v156 (by decide)).trans ((host4_keep W8 main_v156 (by decide)).trans (R3.keep main_v156 (by decide)))).trans (ro2_eq W0 W2 W4 W6 R0 R1 R2)
  have e3 : W10 (Proc.devRef .tc main_v208) = RO3 (W0 (Proc.devRef .tc main_arg0)) (W0 (Proc.devRef .tc main_arg1)) (W0 (Proc.devRef .tc main_arg2)) (W0 (Proc.devRef .tc main_arg3)) (W0 (Proc.devRef .tc main_arg4)) (W0 (Proc.devRef .tc main_arg5)) (W0 (Proc.devRef .tc main_arg6)) (W0 (Proc.devRef .tc main_arg7)) (W0 (Proc.devRef .tc main_arg8)) (W0 (Proc.devRef .tc main_arg9)) (W0 (Proc.devRef .tc main_arg10)) (W0 (Proc.devRef .tc main_arg11)) (W0 (Proc.devRef .tc main_arg12)) (W0 (Proc.devRef .tc main_arg13)) (W0 (Proc.devRef .tc main_arg14)) (W0 (Proc.devRef .tc main_arg15)) (W0 (Proc.devRef .tc main_arg16)) (W0 (Proc.devRef .tc main_arg17)) :=
    (R4.keep main_v208 (by decide)).trans (ro3_eq W0 W2 W4 W6 W8 R0 R1 R2 R3)
  have e4 : readoutOf (W10 (Proc.devRef .tc main_v259_1)) = RO4 (W0 (Proc.devRef .tc main_arg0)) (W0 (Proc.devRef .tc main_arg1)) (W0 (Proc.devRef .tc main_arg2)) (W0 (Proc.devRef .tc main_arg3)) (W0 (Proc.devRef .tc main_arg4)) (W0 (Proc.devRef .tc main_arg5)) (W0 (Proc.devRef .tc main_arg6)) (W0 (Proc.devRef .tc main_arg7)) (W0 (Proc.devRef .tc main_arg8)) (W0 (Proc.devRef .tc main_arg9)) (W0 (Proc.devRef .tc main_arg10)) (W0 (Proc.devRef .tc main_arg11)) (W0 (Proc.devRef .tc main_arg12)) (W0 (Proc.devRef .tc main_arg13)) (W0 (Proc.devRef .tc main_arg14)) (W0 (Proc.devRef .tc main_arg15)) (W0 (Proc.devRef .tc main_arg16)) (W0 (Proc.devRef .tc main_arg17)) :=
    (host5_readout W10).symm.trans (ro4_eq W0 W2 W4 W6 W8 W10 R0 R1 R2 R3 R4)
  rw [host5_out W10, e0, e1, e2, e3, e4, args_at10 W0 W2 W4 W6 W8 W10 R0 R1 R2 R3 R4 main_arg18 (by decide), args_at10 W0 W2 W4 W6 W8 W10 R0 R1 R2 R3 R4 main_arg19 (by decide)]
  rfl

end Cert.KernelIdeal.Chain

end
-- ==== Proof.KIChain.lean ====
import proofs.«402532_j352187319172_1_alg».proof.Proof.KIRun
import proofs.«402532_j352187319172_1_alg».proof.Proof.KIVal0Dat
import proofs.«402532_j352187319172_1_alg».proof.Proof.KIVal1Dat
import proofs.«402532_j352187319172_1_alg».proof.Proof.KIVal2Dat
import proofs.«402532_j352187319172_1_alg».proof.Proof.KIVal3Dat
import proofs.«402532_j352187319172_1_alg».proof.Proof.KIVal4Dat
import proofs.«402532_j352187319172_1_alg».proof.Proof.KIChainAbs

/-!
# The kernel side's chain of values, at the run

Each region's proof data put the layer's values in its two output arrays, whatever the entry contents; so the contents the
run's fold passes through are in the regions' relations, and the chain over any contents gives, at every boundary of the
run, the closed forms of the arguments as launched: the features after each region, the readout and the next aggregated
input after each stretch, and in the result buffer the classifier on the five readouts.
-/

set_option maxRecDepth 16384

noncomputable section

open scoped BigOperators

namespace Cert.KernelIdeal.Chain

open Idealize.ShloMosaic Idealize.ShloMosaic.TcCoe Idealize.ShloMosaic.ValueIdx
open Cert.KernelIdeal Cert.KernelIdeal.Gen Cert.KernelIdeal.HostVal
open Idealize.ShloMosaic.Pipeline (Dat)

/-! ## Every region, from any entry contents -/

/-- Region 0's proof data leave, in its two output arrays, the layer's values of the entry contents `V` of its operands:
    window 14's array the row MLP, window 15's the two cores' partial sums of the pooling. -/
theorem layerVal0 (V : (c : Dev nD) → (b : Ref sig .tc) → Buf (Elt Ideal) ((c : Thread nD τ).loc b)) (c : Dev nD) :
    LayerVal (D := 128) (V c main_v20) (V c main_v4) (V c main_arg4)
      (V c main_v21) (V c main_v24) (V c main_v27) (V c main_v30) (V c main_v33)
      (V c main_v35) (V c main_v38) (V c main_v41) (V c main_v44) (V c main_v47) (V c main_v50)
      ((dat0 V c).arrAt 14 cfg0.N) ((dat0 V c).arrAt 15 cfg0.N) where
  h n j := Val0.arr14_dat0_apply V c n j
  ro g j := (Val0.arr15_dat0_pool V c g j).trans
    (pool_congr (funext fun n => (Val0.arr14_dat0_apply V c n j).symm) rfl g)

/-- Region 1's proof data leave, in its two output arrays, the layer's values of the entry contents `V` of its operands:
    window 14's array the row MLP, window 15's the two cores' partial sums of the pooling. -/
theorem layerVal1 (V : (c : Dev nD) → (b : Ref sig .tc) → Buf (Elt Ideal) ((c : Thread nD τ).loc b)) (c : Dev nD) :
    LayerVal (D := 64) (V c main_v68) (V c main_v4) (V c main_v70)
      (V c main_v73) (V c main_v76) (V c main_v79) (V c main_v82) (V c main_v85)
      (V c main_v87) (V c main_v90) (V c main_v93) (V c main_v96) (V c main_v99) (V c main_v102)
      ((dat1 V c).arrAt 14 cfg1.N) ((dat1 V c).arrAt 15 cfg1.N) where
  h n j := Val1.arr14_dat1_apply V c n j
  ro g j := (Val1.arr15_dat1_pool V c g j).trans
    (pool_congr (funext fun n => (Val1.arr14_dat1_apply V c n j).symm) rfl g)

/-- Region 2's proof data leave, in its two output arrays, the layer's values of the entry contents `V` of its operands:
    window 14's array the row MLP, window 15's the two cores' partial sums of the pooling. -/
theorem layerVal2 (V : (c : Dev nD) → (b : Ref sig .tc) → Buf (Elt Ideal) ((c : Thread nD τ).loc b)) (c : Dev nD) :
    LayerVal (D := 64) (V c main_v120) (V c main_v4) (V c main_v122)
      (V c main_v125) (V c main_v128) (V c main_v131) (V c main_v134) (V c main_v137)
      (V c main_v139) (V c main_v142) (V c main_v145) (V c main_v148) (V c main_v151) (V c main_v154)
      ((dat2 V c).arrAt 14 cfg2.N) ((dat2 V c).arrAt 15 cfg2.N) where
  h n j := Val2.arr14_dat2_apply V c n j
  ro g j := (Val2.arr15_dat2_pool V c g j).trans
    (pool_congr (funext fun n => (Val2.arr14_dat2_apply V c n j).symm) rfl g)

/-- Region 3's proof data leave, in its two output arrays, the layer's values of the entry contents `V` of its operands:
    window 14's array the row MLP, window 15's the two cores' partial sums of the pooling. -/
theorem layerVal3 (V : (c : Dev nD) → (b : Ref sig .tc) → Buf (Elt Ideal) ((c : Thread nD τ).loc b)) (c : Dev nD) :
    LayerVal (D := 64) (V c main_v172) (V c main_v4) (V c main_v174)
      (V c main_v177) (V c main_v180) (V c main_v183) (V c main_v186) (V c main_v189)
      (V c main_v191) (V c main_v194) (V c main_v197) (V c main_v200) (V c main_v203) (V c main_v206)
      ((dat3 V c).arrAt 14 cfg3.N) ((dat3 V c).arrAt 15 cfg3.N) where
  h n j := Val3.arr14_dat3_apply V c n j
  ro g j := (Val3.arr15_dat3_pool V c g j).trans
    (pool_congr (funext fun n => (Val3.arr14_dat3_apply V c n j).symm) rfl g)

/-- Region 4's proof data leave, in its two output arrays, the layer's values of the entry contents `V` of its operands:
    window 14's array the row MLP, window 15's the two cores' partial sums of the pooling. -/
theorem layerVal4 (V : (c : Dev nD) → (b : Ref sig .tc) → Buf (Elt Ideal) ((c : Thread nD τ).loc b)) (c : Dev nD) :
    LayerVal (D := 64) (V c main_v224) (V c main_v4) (V c main_v226)
      (V c main_v229) (V c main_v232) (V c main_v235) (V c main_v238) (V c main_v241)
      (V c main_v243) (V c main_v246) (V c main_v249) (V c main_v252) (V c main_v255) (V c main_v258)
      ((dat4 V c).arrAt 14 cfg4.N) ((dat4 V c).arrAt 15 cfg4.N) where
  h n j := Val4.arr14_dat4_apply V c n j
  ro g j := (Val4.arr15_dat4_pool V c g j).trans
    (pool_congr (funext fun n => (Val4.arr14_dat4_apply V c n j).symm) rfl g)

/-! ## The run's regions and the chain at the run's contents -/

section Run

variable (m : (ℓ : Loc nD τ sig) → Buf (Elt Ideal) ℓ) (c : Dev nD)

/-- Region 0 of the run, between the contents at its entry and at its exit: every buffer but its two output arrays as
    entered (`W2_of`), the two arrays what its proof data leave (`W2_arr`). -/
theorem reg0 : Reg0 (W1 m c) (W2 m c) where
  keep r h := W2_of m c r h
  val := (layerVal0 (Vt1 m) c).of_eq (W2_arr m c 14) (W2_arr m c 15)

/-- Region 1 of the run, between the contents at its entry and at its exit: every buffer but its two output arrays as
    entered (`W4_of`), the two arrays what its proof data leave (`W4_arr`). -/
theorem reg1 : Reg1 (W3 m c) (W4 m c) where
  keep r h := W4_of m c r h
  val := (layerVal1 (Vt3 m) c).of_eq (W4_arr m c 14) (W4_arr m c 15)

/-- Region 2 of the run, between the contents at its entry and at its exit: every buffer but its two output arrays as
    entered (`W6_of`), the two arrays what its proof data leave (`W6_arr`). -/
theorem reg2 : Reg2 (W5 m c) (W6 m c) where
  keep r h := W6_of m c r h
  val := (layerVal2 (Vt5 m) c).of_eq (W6_arr m c 14) (W6_arr m c 15)

/-- Region 3 of the run, between the contents at its entry and at its exit: every buffer but its two output arrays as
    entered (`W8_of`), the two arrays what its proof data leave (`W8_arr`). -/
theorem reg3 : Reg3 (W7 m c) (W8 m c) where
  keep r h := W8_of m c r h
  val := (layerVal3 (Vt7 m) c).of_eq (W8_arr m c 14) (W8_arr m c 15)

/-- Region 4 of the run, between the contents at its entry and at its exit: every buffer but its two output arrays as
    entered (`W10_of`), the two arrays what its proof data leave (`W10_arr`). -/
theorem reg4 : Reg4 (W9 m c) (W10 m c) where
  keep r h := W10_of m c r h
  val := (layerVal4 (Vt9 m) c).of_eq (W10_arr m c 14) (W10_arr m c 15)

/-- At region 0's exit its features are layer 0's closed form of the arguments as launched. -/
theorem h1_eq' : W2 m c (Proc.devRef .tc main_v51_0) = H1 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) :=
  h1_eq (W0 m c) (W2 m c) (reg0 m c)
/-- After the next stretch, layer 0's pooled readout. -/
theorem ro0_eq' : W3 m c (Proc.devRef .tc main_v52) = RO0 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) :=
  ro0_eq (W0 m c) (W2 m c) (reg0 m c)
/-- After the same stretch, layer 1's aggregated input. -/
theorem z1_eq' : W3 m c (Proc.devRef .tc main_v68) = Z1 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) :=
  z1_eq (W0 m c) (W2 m c) (reg0 m c)

/-- At region 1's exit its features are layer 1's closed form of the arguments as launched. -/
theorem h2_eq' : W4 m c (Proc.devRef .tc main_v103_0) = H2 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) :=
  h2_eq (W0 m c) (W2 m c) (W4 m c) (reg0 m c) (reg1 m c)
/-- After the next stretch, layer 1's pooled readout. -/
theorem ro1_eq' : W5 m c (Proc.devRef .tc main_v104) = RO1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) :=
  ro1_eq (W0 m c) (W2 m c) (W4 m c) (reg0 m c) (reg1 m c)
/-- After the same stretch, layer 2's aggregated input. -/
theorem z2_eq' : W5 m c (Proc.devRef .tc main_v120) = Z2 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) :=
  z2_eq (W0 m c) (W2 m c) (W4 m c) (reg0 m c) (reg1 m c)

/-- At region 2's exit its features are layer 2's closed form of the arguments as launched. -/
theorem h3_eq' : W6 m c (Proc.devRef .tc main_v155_0) = H3 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) :=
  h3_eq (W0 m c) (W2 m c) (W4 m c) (W6 m c) (reg0 m c) (reg1 m c) (reg2 m c)
/-- After the next stretch, layer 2's pooled readout. -/
theorem ro2_eq' : W7 m c (Proc.devRef .tc main_v156) = RO2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) :=
  ro2_eq (W0 m c) (W2 m c) (W4 m c) (W6 m c) (reg0 m c) (reg1 m c) (reg2 m c)
/-- After the same stretch, layer 3's aggregated input. -/
theorem z3_eq' : W7 m c (Proc.devRef .tc main_v172) = Z3 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) :=
  z3_eq (W0 m c) (W2 m c) (W4 m c) (W6 m c) (reg0 m c) (reg1 m c) (reg2 m c)

/-- At region 3's exit its features are layer 3's closed form of the arguments as launched. -/
theorem h4_eq' : W8 m c (Proc.devRef .tc main_v207_0) = H4 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) :=
  h4_eq (W0 m c) (W2 m c) (W4 m c) (W6 m c) (W8 m c) (reg0 m c) (reg1 m c) (reg2 m c) (reg3 m c)
/-- After the next stretch, layer 3's pooled readout. -/
theorem ro3_eq' : W9 m c (Proc.devRef .tc main_v208) = RO3 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) :=
  ro3_eq (W0 m c) (W2 m c) (W4 m c) (W6 m c) (W8 m c) (reg0 m c) (reg1 m c) (reg2 m c) (reg3 m c)
/-- After the same stretch, layer 4's aggregated input. -/
theorem z4_eq' : W9 m c (Proc.devRef .tc main_v224) = Z4 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) :=
  z4_eq (W0 m c) (W2 m c) (W4 m c) (W6 m c) (W8 m c) (reg0 m c) (reg1 m c) (reg2 m c) (reg3 m c)

/-- At region 4's exit its features are layer 4's closed form of the arguments as launched. -/
theorem h5_eq' : W10 m c (Proc.devRef .tc main_v259_0) = H5 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) :=
  h5_eq (W0 m c) (W2 m c) (W4 m c) (W6 m c) (W8 m c) (W10 m c) (reg0 m c) (reg1 m c) (reg2 m c) (reg3 m c) (reg4 m c)
/-- After the next stretch, layer 4's pooled readout. -/
theorem ro4_eq' : W11 m c (Proc.devRef .tc main_v260) = RO4 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) :=
  ro4_eq (W0 m c) (W2 m c) (W4 m c) (W6 m c) (W8 m c) (W10 m c) (reg0 m c) (reg1 m c) (reg2 m c) (reg3 m c) (reg4 m c)

/-- THE RESULT of the run: the program's result buffer at the last boundary is the classifier on the five closed-form
    readouts of the arguments as launched. -/
theorem result_eq' : W11 m c (Proc.devRef .tc main_v265) = Out (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) :=
  result_eq (W0 m c) (W2 m c) (W4 m c) (W6 m c) (W8 m c) (W10 m c) (reg0 m c) (reg1 m c) (reg2 m c) (reg3 m c) (reg4 m c)

end Run

end Cert.KernelIdeal.Chain

end
-- ==== Proof.KIHostRef.lean ====
import proofs.«402532_j352187319172_1_alg».proof.Proof.KIHostDefs
import proofs.«402532_j352187319172_1_alg».proof.Proof.RefRead

/-!
# The host stretches' functions are the reference's stages

The reference program computes each layer's aggregation and the classifier with the same host operations as the kernel's
program, over its own copies of the shape and dimension records. Unfolded, the two sides are the same term: the records
agree field by field and differ only in their well-formedness proofs.
-/

set_option maxRecDepth 16384

noncomputable section

namespace Cert.HostRef

open Idealize.ShloMosaic

/-- Layer 0's aggregation is the reference's stage of the same three arguments. -/
theorem agg128_eq_ref (x0 : (⟨Cert.ReferenceIdeal.S100000x128, .f32⟩ : BufTy).Contents (Elt Ideal)) (x1 : (⟨Cert.ReferenceIdeal.S2x1600000, .i32⟩ : BufTy).Contents (Elt Ideal)) (x3 : (⟨Cert.ReferenceIdeal.S5, .f32⟩ : BufTy).Contents (Elt Ideal)) :
    Cert.KernelIdeal.HostVal.agg128 x0 x1 x3 = Cert.ReferenceIdeal.Read.val_main_v19 (F := Ideal) x0 x1 x3 := rfl

/-- Layer 1's aggregation of the reference's layer-0 features, the edge list's two rows and eps is the reference's stage. -/
theorem agg64_1_eq_ref (x0 : (⟨Cert.ReferenceIdeal.S100000x128, .f32⟩ : BufTy).Contents (Elt Ideal)) (x1 : (⟨Cert.ReferenceIdeal.S2x1600000, .i32⟩ : BufTy).Contents (Elt Ideal)) (x3 : (⟨Cert.ReferenceIdeal.S5, .f32⟩ : BufTy).Contents (Elt Ideal)) (x4 : (⟨Cert.ReferenceIdeal.S128x64, .f32⟩ : BufTy).Contents (Elt Ideal)) (x5 : (⟨Cert.ReferenceIdeal.S64, .f32⟩ : BufTy).Contents (Elt Ideal)) (x8 x9 x10 x11 : (⟨Cert.ReferenceIdeal.S5x64, .f32⟩ : BufTy).Contents (Elt Ideal)) (x12 : (⟨Cert.ReferenceIdeal.S5x64x64, .f32⟩ : BufTy).Contents (Elt Ideal)) (x13 x14 x15 x16 x17 : (⟨Cert.ReferenceIdeal.S5x64, .f32⟩ : BufTy).Contents (Elt Ideal)) :
    Cert.KernelIdeal.HostVal.agg64 ![1] Cert.KernelIdeal.Gen.slices_S5_S1_1
        (Cert.ReferenceIdeal.Read.val_main_v75 (F := Ideal) x0 x1 x3 x4 x5 x8 x9 x10 x11 x12 x13 x14 x15 x16 x17)
        (Cert.KernelIdeal.HostVal.srcOf x1) (Cert.KernelIdeal.HostVal.dstOf x1) x3
      = Cert.ReferenceIdeal.Read.val_main_v94 (F := Ideal) x0 x1 x3 x4 x5 x8 x9 x10 x11 x12 x13 x14 x15 x16 x17 := rfl

/-- Layer 2's aggregation of the reference's layer-1 features, the edge list's two rows and eps is the reference's stage. -/
theorem agg64_2_eq_ref (x0 : (⟨Cert.ReferenceIdeal.S100000x128, .f32⟩ : BufTy).Contents (Elt Ideal)) (x1 : (⟨Cert.ReferenceIdeal.S2x1600000, .i32⟩ : BufTy).Contents (Elt Ideal)) (x3 : (⟨Cert.ReferenceIdeal.S5, .f32⟩ : BufTy).Contents (Elt Ideal)) (x4 : (⟨Cert.ReferenceIdeal.S128x64, .f32⟩ : BufTy).Contents (Elt Ideal)) (x5 : (⟨Cert.ReferenceIdeal.S64, .f32⟩ : BufTy).Contents (Elt Ideal)) (x6 : (⟨Cert.ReferenceIdeal.S4x64x64, .f32⟩ : BufTy).Contents (Elt Ideal)) (x7 : (⟨Cert.ReferenceIdeal.S4x64, .f32⟩ : BufTy).Contents (Elt Ideal)) (x8 x9 x10 x11 : (⟨Cert.ReferenceIdeal.S5x64, .f32⟩ : BufTy).Contents (Elt Ideal)) (x12 : (⟨Cert.ReferenceIdeal.S5x64x64, .f32⟩ : BufTy).Contents (Elt Ideal)) (x13 x14 x15 x16 x17 : (⟨Cert.ReferenceIdeal.S5x64, .f32⟩ : BufTy).Contents (Elt Ideal)) :
    Cert.KernelIdeal.HostVal.agg64 ![2] Cert.KernelIdeal.Gen.slices_S5_S1_2
        (Cert.ReferenceIdeal.Read.val_main_v154 (F := Ideal) x0 x1 x3 x4 x5 x6 x7 x8 x9 x10 x11 x12 x13 x14 x15 x16 x17)
        (Cert.KernelIdeal.HostVal.srcOf x1) (Cert.KernelIdeal.HostVal.dstOf x1) x3
      = Cert.ReferenceIdeal.Read.val_main_v173 (F := Ideal) x0 x1 x3 x4 x5 x6 x7 x8 x9 x10 x11 x12 x13 x14 x15 x16 x17 := rfl

/-- Layer 3's aggregation of the reference's layer-2 features, the edge list's two rows and eps is the reference's stage. -/
theorem agg64_3_eq_ref (x0 : (⟨Cert.ReferenceIdeal.S100000x128, .f32⟩ : BufTy).Contents (Elt Ideal)) (x1 : (⟨Cert.ReferenceIdeal.S2x1600000, .i32⟩ : BufTy).Contents (Elt Ideal)) (x3 : (⟨Cert.ReferenceIdeal.S5, .f32⟩ : BufTy).Contents (Elt Ideal)) (x4 : (⟨Cert.ReferenceIdeal.S128x64, .f32⟩ : BufTy).Contents (Elt Ideal)) (x5 : (⟨Cert.ReferenceIdeal.S64, .f32⟩ : BufTy).Contents (Elt Ideal)) (x6 : (⟨Cert.ReferenceIdeal.S4x64x64, .f32⟩ : BufTy).Contents (Elt Ideal)) (x7 : (⟨Cert.ReferenceIdeal.S4x64, .f32⟩ : BufTy).Contents (Elt Ideal)) (x8 x9 x10 x11 : (⟨Cert.ReferenceIdeal.S5x64, .f32⟩ : BufTy).Contents (Elt Ideal)) (x12 : (⟨Cert.ReferenceIdeal.S5x64x64, .f32⟩ : BufTy).Contents (Elt Ideal)) (x13 x14 x15 x16 x17 : (⟨Cert.ReferenceIdeal.S5x64, .f32⟩ : BufTy).Contents (Elt Ideal)) :
    Cert.KernelIdeal.HostVal.agg64 ![3] Cert.KernelIdeal.Gen.slices_S5_S1_3
        (Cert.ReferenceIdeal.Read.val_main_v233 (F := Ideal) x0 x1 x3 x4 x5 x6 x7 x8 x9 x10 x11 x12 x13 x14 x15 x16 x17)
        (Cert.KernelIdeal.HostVal.srcOf x1) (Cert.KernelIdeal.HostVal.dstOf x1) x3
      = Cert.ReferenceIdeal.Read.val_main_v252 (F := Ideal) x0 x1 x3 x4 x5 x6 x7 x8 x9 x10 x11 x12 x13 x14 x15 x16 x17 := rfl

/-- Layer 4's aggregation of the reference's layer-3 features, the edge list's two rows and eps is the reference's stage. -/
theorem agg64_4_eq_ref (x0 : (⟨Cert.ReferenceIdeal.S100000x128, .f32⟩ : BufTy).Contents (Elt Ideal)) (x1 : (⟨Cert.ReferenceIdeal.S2x1600000, .i32⟩ : BufTy).Contents (Elt Ideal)) (x3 : (⟨Cert.ReferenceIdeal.S5, .f32⟩ : BufTy).Contents (Elt Ideal)) (x4 : (⟨Cert.ReferenceIdeal.S128x64, .f32⟩ : BufTy).Contents (Elt Ideal)) (x5 : (⟨Cert.ReferenceIdeal.S64, .f32⟩ : BufTy).Contents (Elt Ideal)) (x6 : (⟨Cert.ReferenceIdeal.S4x64x64, .f32⟩ : BufTy).Contents (Elt Ideal)) (x7 : (⟨Cert.ReferenceIdeal.S4x64, .f32⟩ : BufTy).Contents (Elt Ideal)) (x8 x9 x10 x11 : (⟨Cert.ReferenceIdeal.S5x64, .f32⟩ : BufTy).Contents (Elt Ideal)) (x12 : (⟨Cert.ReferenceIdeal.S5x64x64, .f32⟩ : BufTy).Contents (Elt Ideal)) (x13 x14 x15 x16 x17 : (⟨Cert.ReferenceIdeal.S5x64, .f32⟩ : BufTy).Contents (Elt Ideal)) :
    Cert.KernelIdeal.HostVal.agg64 ![4] Cert.KernelIdeal.Gen.slices_S5_S1_4
        (Cert.ReferenceIdeal.Read.val_main_v312 (F := Ideal) x0 x1 x3 x4 x5 x6 x7 x8 x9 x10 x11 x12 x13 x14 x15 x16 x17)
        (Cert.KernelIdeal.HostVal.srcOf x1) (Cert.KernelIdeal.HostVal.dstOf x1) x3
      = Cert.ReferenceIdeal.Read.val_main_v331 (F := Ideal) x0 x1 x3 x4 x5 x6 x7 x8 x9 x10 x11 x12 x13 x14 x15 x16 x17 := rfl

/-- The classifier on the reference's five pooled readouts is the reference's result stage. -/
theorem tailK_eq_ref (x0 : (⟨Cert.ReferenceIdeal.S100000x128, .f32⟩ : BufTy).Contents (Elt Ideal)) (x1 : (⟨Cert.ReferenceIdeal.S2x1600000, .i32⟩ : BufTy).Contents (Elt Ideal)) (x2 : (⟨Cert.ReferenceIdeal.S100000, .i32⟩ : BufTy).Contents (Elt Ideal)) (x3 : (⟨Cert.ReferenceIdeal.S5, .f32⟩ : BufTy).Contents (Elt Ideal)) (x4 : (⟨Cert.ReferenceIdeal.S128x64, .f32⟩ : BufTy).Contents (Elt Ideal)) (x5 : (⟨Cert.ReferenceIdeal.S64, .f32⟩ : BufTy).Contents (Elt Ideal)) (x6 : (⟨Cert.ReferenceIdeal.S4x64x64, .f32⟩ : BufTy).Contents (Elt Ideal)) (x7 : (⟨Cert.ReferenceIdeal.S4x64, .f32⟩ : BufTy).Contents (Elt Ideal)) (x8 x9 x10 x11 : (⟨Cert.ReferenceIdeal.S5x64, .f32⟩ : BufTy).Contents (Elt Ideal)) (x12 : (⟨Cert.ReferenceIdeal.S5x64x64, .f32⟩ : BufTy).Contents (Elt Ideal)) (x13 x14 x15 x16 x17 : (⟨Cert.ReferenceIdeal.S5x64, .f32⟩ : BufTy).Contents (Elt Ideal)) (x18 : (⟨Cert.ReferenceIdeal.S320x16, .f32⟩ : BufTy).Contents (Elt Ideal)) (x19 : (⟨Cert.ReferenceIdeal.S16, .f32⟩ : BufTy).Contents (Elt Ideal)) :
    Cert.KernelIdeal.HostVal.tailK
        (Cert.ReferenceIdeal.Read.val_main_v78 (F := Ideal) x0 x1 x2 x3 x4 x5 x8 x9 x10 x11 x12 x13 x14 x15 x16 x17)
        (Cert.ReferenceIdeal.Read.val_main_v157 (F := Ideal) x0 x1 x2 x3 x4 x5 x6 x7 x8 x9 x10 x11 x12 x13 x14 x15 x16 x17)
        (Cert.ReferenceIdeal.Read.val_main_v236 (F := Ideal) x0 x1 x2 x3 x4 x5 x6 x7 x8 x9 x10 x11 x12 x13 x14 x15 x16 x17)
        (Cert.ReferenceIdeal.Read.val_main_v315 (F := Ideal) x0 x1 x2 x3 x4 x5 x6 x7 x8 x9 x10 x11 x12 x13 x14 x15 x16 x17)
        (Cert.ReferenceIdeal.Read.val_main_v394 (F := Ideal) x0 x1 x2 x3 x4 x5 x6 x7 x8 x9 x10 x11 x12 x13 x14 x15 x16 x17)
        x18 x19
      = Cert.ReferenceIdeal.Read.val_main_v399 (F := Ideal) x0 x1 x2 x3 x4 x5 x6 x7 x8 x9 x10 x11 x12 x13 x14 x15 x16 x17 x18 x19 := rfl

end Cert.HostRef

end
-- ==== Proof.RefScatter.lean ====
/-
  Sum pooling as the reference writes it: an accumulating scatter of the node rows into a zero [512, 64] array, the
  scatter index of row n its graph id. Read at the extended reals the scatter adds, to each operand entry, every update
  entry whose result index is that entry; for these dimension numbers (window axis 1, inserted axis 0, one index
  component naming operand axis 0) update entry (n, b) has result index (id n read signed, b), and is dropped when the
  id is outside [0, 512). So entry (g, c) receives exactly the entries (n, c) with id n = g: the sum `GinSpec.pool`.
-/
import proofs.«402532_j352187319172_1_alg».proof.Proof.Gen.ReferenceIdeal
import proofs.«402532_j352187319172_1_alg».proof.Proof.Spec
import Idealize.ShloMosaic.PureOps.Ideal
import Idealize.ShloMosaic.PureOps.Ideal.Laws
import Idealize.ShloMosaic.Lib.ValueIdx

noncomputable section

namespace Cert.ReferenceIdeal.RefValue

open Cert.ReferenceIdeal Cert.ReferenceIdeal.Gen Idealize.ShloMosaic Idealize.ShloMosaic.ValueIdx

/-- The pooling scatter's dimension numbers. -/
abbrev poolDims := scatter_S512x64_S100000x1_S100000x64_1_0_0_1

/-- On operand axis 0 the window starts at the signed id of the update's row. -/
theorem poolDims_start0 (j : S100000x64.Idx) (idx : IVec S100000x1 32) :
    poolDims.start j idx 0 = (idx (ix2 (j 0) 0)).toInt := by
  unfold ScatterDims.start
  rw [dif_pos (show (0 : Fin S512x64.rank) ∈ poolDims.scatterDimsToOperandDims by decide)]
  have hsi : poolDims.siIdx j ⟨List.idxOf (0 : Fin S512x64.rank) poolDims.scatterDimsToOperandDims,
      List.idxOf_lt_length_iff.2 (by decide)⟩ = ix2 (j 0) 0 := by
    funext b; refine Fin.ext ?_
    match b with
    | ⟨0, _⟩ => rfl
    | ⟨1, _⟩ => rfl
  rw [hsi]
  rfl

/-- Operand axis 1 is named by no index component: the window starts at 0 there. -/
theorem poolDims_start1 (j : S100000x64.Idx) (idx : IVec S100000x1 32) :
    poolDims.start j idx 1 = 0 := by
  unfold ScatterDims.start
  rw [dif_neg (show ¬(1 : Fin S512x64.rank) ∈ poolDims.scatterDimsToOperandDims by decide)]

/-- Operand axis 0 is an inserted axis: no window coordinate. -/
theorem poolDims_window0 (j : S100000x64.Idx) : poolDims.window j 0 = 0 := by
  unfold ScatterDims.window
  rw [dif_neg (show ¬(0 : Fin S512x64.rank) ∈ poolDims.sKept by decide)]

/-- On operand axis 1 the window coordinate is the update's column. -/
theorem poolDims_window1 (j : S100000x64.Idx) : poolDims.window j 1 = (j 1).val := by
  unfold ScatterDims.window
  rw [dif_pos (show (1 : Fin S512x64.rank) ∈ poolDims.sKept by decide)]
  rfl

/-- Update entry (n, b) lands on (g, c) exactly when row n's signed id is g and b = c. -/
theorem poolDims_lands_iff (idx : IVec S100000x1 32) (n : Fin 100000) (b : Fin 64) (g : Fin 512) (c : Fin 64) :
    poolDims.resultIdx? (ix2 n b) idx = some (ix2 g c) ↔ ((idx (ix2 n 0)).toInt = (g.val : ℤ) ∧ b = c) := by
  unfold ScatterDims.resultIdx?
  constructor
  · intro h
    split at h
    · rename_i hr
      have hf := Option.some.inj h
      have h0 := congrArg Fin.val (congrFun hf 0)
      have h1 := congrArg Fin.val (congrFun hf 1)
      have hr0 := (hr 0).1
      rw [poolDims_start0, poolDims_window0] at hr0
      have e0 : ((idx (ix2 n 0)).toInt + ((0 : ℕ) : ℤ)).toNat = g.val := by
        rw [← poolDims_start0 (ix2 n b) idx, ← poolDims_window0 (ix2 n b)]; exact h0
      have e1 : ((0 : ℤ) + ((b.val : ℕ) : ℤ)).toNat = c.val := by
        rw [← poolDims_start1 (ix2 n b) idx, ← poolDims_window1 (ix2 n b)]; exact h1
      refine ⟨?_, Fin.ext ?_⟩
      · have : (idx (ix2 n 0)).toInt = (idx (ix2 ((ix2 n b : S100000x64.Idx) 0) 0)).toInt := rfl
        omega
      · omega
    · exact absurd h (by simp)
  · rintro ⟨hg, rfl⟩
    have hr : ∀ a : Fin S512x64.rank, 0 ≤ poolDims.start (ix2 n b) idx a + poolDims.window (ix2 n b) a ∧
        poolDims.start (ix2 n b) idx a + poolDims.window (ix2 n b) a < S512x64.size a := by
      intro a
      match a with
      | ⟨0, _⟩ =>
        show 0 ≤ poolDims.start (ix2 n b) idx 0 + poolDims.window (ix2 n b) 0
          ∧ poolDims.start (ix2 n b) idx 0 + poolDims.window (ix2 n b) 0 < (512 : ℕ)
        rw [poolDims_start0, poolDims_window0]
        have : (idx (ix2 ((ix2 n b : S100000x64.Idx) 0) 0)).toInt = (g.val : ℤ) := hg
        have := g.isLt
        omega
      | ⟨1, _⟩ =>
        show 0 ≤ poolDims.start (ix2 n b) idx 1 + poolDims.window (ix2 n b) 1
          ∧ poolDims.start (ix2 n b) idx 1 + poolDims.window (ix2 n b) 1 < (64 : ℕ)
        rw [poolDims_start1, poolDims_window1]
        have : ((ix2 n b : S100000x64.Idx) 1).val = b.val := rfl
        have := b.isLt
        omega
    rw [dif_pos hr]
    refine congrArg some (funext fun a => Fin.ext ?_)
    match a with
    | ⟨0, _⟩ =>
      show (poolDims.start (ix2 n b) idx 0 + poolDims.window (ix2 n b) 0).toNat = g.val
      rw [poolDims_start0, poolDims_window0]
      have : (idx (ix2 ((ix2 n b : S100000x64.Idx) 0) 0)).toInt = (g.val : ℤ) := hg
      omega
    | ⟨1, _⟩ =>
      show (poolDims.start (ix2 n b) idx 1 + poolDims.window (ix2 n b) 1).toNat = b.val
      rw [poolDims_start1, poolDims_window1]
      have : ((ix2 n b : S100000x64.Idx) 1).val = b.val := rfl
      omega

/-- The accumulating scatter by graph id, read at (g, c): the operand's entry plus the sum, over the rows n whose
    signed id is g, of the update's entry (n, c). The sum over update indices is split into rows and columns; in row n
    only column c can land on (g, c), and it does exactly when id n = g. -/
theorem scatterAdd_pool_at (x : S512x64.Idx → EReal) (idx : IVec S100000x1 32) (upd : S100000x64.Idx → EReal)
    (g : Fin 512) (c : Fin 64) :
    Ideal.hostScatterAdd poolDims x idx upd (ix2 g c)
      = x (ix2 g c) + GinSpec.pool (fun n => upd (ix2 n c)) (fun n => idx (ix2 n 0)) g := by
  unfold Ideal.hostScatterAdd GinSpec.pool
  refine congrArg (x (ix2 g c) + ·) ?_
  rw [Finset.sum_filter, sum_idx2, Finset.sum_filter]
  refine Finset.sum_congr rfl fun n _ => ?_
  by_cases hn : (idx (ix2 n 0)).toInt = (g.val : ℤ)
  · rw [if_pos hn, Finset.sum_eq_single c]
    · rw [if_pos ((poolDims_lands_iff idx n c g c).2 ⟨hn, rfl⟩)]
    · intro b _ hb
      rw [if_neg (fun h => hb ((poolDims_lands_iff idx n b g c).1 h).2)]
    · intro h; exact absurd (Finset.mem_univ c) h
  · rw [if_neg hn]
    refine Finset.sum_eq_zero fun b _ => ?_
    rw [if_neg (fun h => hn ((poolDims_lands_iff idx n b g c).1 h).1)]

/-- The same at a general index of the [512, 64] result. -/
theorem scatterAdd_pool (x : S512x64.Idx → EReal) (idx : IVec S100000x1 32) (upd : S100000x64.Idx → EReal)
    (i : S512x64.Idx) :
    Ideal.hostScatterAdd poolDims x idx upd i
      = x i + GinSpec.pool (fun n => upd (ix2 n (i 1))) (fun n => idx (ix2 n 0)) (i 0) := by
  obtain ⟨g, c, rfl⟩ : ∃ (g : Fin 512) (c : Fin 64), i = ix2 g c := ⟨i 0, i 1, eq_ix2 i⟩
  exact scatterAdd_pool_at x idx upd g c

end Cert.ReferenceIdeal.RefValue

end
-- ==== Proof.RefLayer0.lean ====
/-
  Layer 0 of the reference network, read at the extended reals, entry by entry.
  The program computes, for every node row n: u = z W1 + b1 (a contraction over the row), a = relu (bn_a u),
  v = a W2 + b2, h' = relu (bn_b v), where bn subtracts the running mean, multiplies by gamma * rsqrt (var + eps) and adds
  beta, all per feature column; the per-column parameters are row 0 of the stacked [5, 64] arrays, the first weight matrix the [128, 64] argument, broadcast down
  the rows. Each stage below is the program's stage read at (n, k); chained, row n of h' is `GinSpec.mlp` of row n of z
  (mlp_0). The layer's readout scatters h' into a zero [512, 64] array by graph id: `GinSpec.pool` of each column
  (pool_0). The aggregated input z itself (neighbour sum plus (1 + eps) times the features) is not opened: it stays the
  program's own stage.
-/
import proofs.«402532_j352187319172_1_alg».proof.Proof.RefRead
import proofs.«402532_j352187319172_1_alg».proof.Proof.Spec
import proofs.«402532_j352187319172_1_alg».proof.Proof.RefScatter

noncomputable section

namespace Cert.ReferenceIdeal.RefValue

open Cert.ReferenceIdeal Cert.ReferenceIdeal.Gen Cert.ReferenceIdeal.Read Idealize.ShloMosaic Idealize.ShloMosaic.ValueIdx

section Layer0

variable (x0 : (⟨S100000x128, .f32⟩ : BufTy).Contents (Elt Ideal)) (x1 : (⟨S2x1600000, .i32⟩ : BufTy).Contents (Elt Ideal))
  (x2 : (⟨S100000, .i32⟩ : BufTy).Contents (Elt Ideal)) (x3 : (⟨S5, .f32⟩ : BufTy).Contents (Elt Ideal))
  (x4 : (⟨S128x64, .f32⟩ : BufTy).Contents (Elt Ideal)) (x5 : (⟨S64, .f32⟩ : BufTy).Contents (Elt Ideal))
  (x6 : (⟨S4x64x64, .f32⟩ : BufTy).Contents (Elt Ideal)) (x7 : (⟨S4x64, .f32⟩ : BufTy).Contents (Elt Ideal))
  (x8 x9 x10 x11 : (⟨S5x64, .f32⟩ : BufTy).Contents (Elt Ideal)) (x12 : (⟨S5x64x64, .f32⟩ : BufTy).Contents (Elt Ideal))
  (x13 x14 x15 x16 x17 : (⟨S5x64, .f32⟩ : BufTy).Contents (Elt Ideal))
  (x18 : (⟨S320x16, .f32⟩ : BufTy).Contents (Elt Ideal)) (x19 : (⟨S16, .f32⟩ : BufTy).Contents (Elt Ideal))

/-! ### Rows of the stacked parameters: slice row 0, drop the unit axis -/

theorem l0_ga (k : Fin 64) : val_main_v25 (F := Ideal) x8 (ix1 k) = x8 (ix2 0 k) := by
  rw [val_main_v25_apply, val_main_v24_apply]
  exact congrArg x8 (funext fun a => Fin.ext (by
    match a with
    | ⟨0, _⟩ => rfl
    | ⟨1, _⟩ => exact Nat.mod_eq_of_lt k.isLt))

theorem l0_bea (k : Fin 64) : val_main_v27 (F := Ideal) x9 (ix1 k) = x9 (ix2 0 k) := by
  rw [val_main_v27_apply, val_main_v26_apply]
  exact congrArg x9 (funext fun a => Fin.ext (by
    match a with
    | ⟨0, _⟩ => rfl
    | ⟨1, _⟩ => exact Nat.mod_eq_of_lt k.isLt))

theorem l0_ma (k : Fin 64) : val_main_v29 (F := Ideal) x10 (ix1 k) = x10 (ix2 0 k) := by
  rw [val_main_v29_apply, val_main_v28_apply]
  exact congrArg x10 (funext fun a => Fin.ext (by
    match a with
    | ⟨0, _⟩ => rfl
    | ⟨1, _⟩ => exact Nat.mod_eq_of_lt k.isLt))

theorem l0_va (k : Fin 64) : val_main_v31 (F := Ideal) x11 (ix1 k) = x11 (ix2 0 k) := by
  rw [val_main_v31_apply, val_main_v30_apply]
  exact congrArg x11 (funext fun a => Fin.ext (by
    match a with
    | ⟨0, _⟩ => rfl
    | ⟨1, _⟩ => exact Nat.mod_eq_of_lt k.isLt))

theorem l0_b2 (k : Fin 64) : val_main_v50 (F := Ideal) x13 (ix1 k) = x13 (ix2 0 k) := by
  rw [val_main_v50_apply, val_main_v49_apply]
  exact congrArg x13 (funext fun a => Fin.ext (by
    match a with
    | ⟨0, _⟩ => rfl
    | ⟨1, _⟩ => exact Nat.mod_eq_of_lt k.isLt))

theorem l0_gb (k : Fin 64) : val_main_v55 (F := Ideal) x14 (ix1 k) = x14 (ix2 0 k) := by
  rw [val_main_v55_apply, val_main_v54_apply]
  exact congrArg x14 (funext fun a => Fin.ext (by
    match a with
    | ⟨0, _⟩ => rfl
    | ⟨1, _⟩ => exact Nat.mod_eq_of_lt k.isLt))

theorem l0_beb (k : Fin 64) : val_main_v57 (F := Ideal) x15 (ix1 k) = x15 (ix2 0 k) := by
  rw [val_main_v57_apply, val_main_v56_apply]
  exact congrArg x15 (funext fun a => Fin.ext (by
    match a with
    | ⟨0, _⟩ => rfl
    | ⟨1, _⟩ => exact Nat.mod_eq_of_lt k.isLt))

theorem l0_mb (k : Fin 64) : val_main_v59 (F := Ideal) x16 (ix1 k) = x16 (ix2 0 k) := by
  rw [val_main_v59_apply, val_main_v58_apply]
  exact congrArg x16 (funext fun a => Fin.ext (by
    match a with
    | ⟨0, _⟩ => rfl
    | ⟨1, _⟩ => exact Nat.mod_eq_of_lt k.isLt))

theorem l0_vb (k : Fin 64) : val_main_v61 (F := Ideal) x17 (ix1 k) = x17 (ix2 0 k) := by
  rw [val_main_v61_apply, val_main_v60_apply]
  exact congrArg x17 (funext fun a => Fin.ext (by
    match a with
    | ⟨0, _⟩ => rfl
    | ⟨1, _⟩ => exact Nat.mod_eq_of_lt k.isLt))

/-- The second weight matrix: slab 0 of the stacked [5, 64, 64] array. -/
theorem l0_W2 (k j : Fin 64) : val_main_v47 (F := Ideal) x12 (ix2 k j) = x12 (ix3 0 k j) := by
  rw [val_main_v47_apply, val_main_v46_apply]
  exact congrArg x12 (funext fun a => Fin.ext (by
    match a with
    | ⟨0, _⟩ => rfl
    | ⟨1, _⟩ =>
      show (k.val * 64 + j.val) / 64 % 64 = k.val
      have := k.isLt; have := j.isLt; omega
    | ⟨2, _⟩ =>
      show (k.val * 64 + j.val) % 64 = j.val
      have := k.isLt; have := j.isLt; omega))

/-! ### The four stages of the row MLP at coordinates (n, ·) -/

/-- First linear map: u = z W1 + b1. -/
theorem l0_lin1 (n : Fin 100000) (k : Fin 64) :
    val_main_v23 (F := Ideal) x0 x1 x3 x4 x5 (ix2 n k)
      = (∑ d : Fin 128, val_main_v19 (F := Ideal) x0 x1 x3 (ix2 n d) * x4 (ix2 d k)) + x5 (ix1 k) := by
  rw [val_main_v23_apply, val_main_v20_apply, val_main_v22_apply, val_main_v21_apply]
  have el : ∀ d : Fin 128, lidx_main_v20 (ix2 n k) d = ix2 n d := fun d => funext fun a => by
    match a with
    | ⟨0, _⟩ => rfl
    | ⟨1, _⟩ => rfl
  have er : ∀ d : Fin 128, ridx_main_v20 (ix2 n k) d = ix2 d k := fun d => funext fun a => by
    match a with
    | ⟨0, _⟩ => rfl
    | ⟨1, _⟩ => rfl
  have eb : idx_main_v21 (idx_main_v22 (ix2 n k)) = ix1 k := funext fun a => by
    match a with
    | ⟨0, _⟩ => rfl
  simp only [el, er, eb, Ideal.addf_def]

/-- Inner batch norm and relu: a = relu (bn_a u). -/
theorem l0_hid (n : Fin 100000) (k : Fin 64) :
    val_main_v45 (F := Ideal) x0 x1 x3 x4 x5 x8 x9 x10 x11 (ix2 n k)
      = GinSpec.bnrelu (val_main_v23 (F := Ideal) x0 x1 x3 x4 x5 (ix2 n k))
          (x10 (ix2 0 k)) (x8 (ix2 0 k)) (x11 (ix2 0 k)) (x9 (ix2 0 k)) := by
  rw [val_main_v45_apply, val_main_v44_apply, val_main_v41_apply, val_main_v34_apply,
    val_main_v33_apply, val_main_v32_apply, val_main_v40_apply, val_main_v39_apply, val_main_v38_apply,
    val_main_v37_apply, val_main_v36_apply, val_main_v35_apply, val_main_cst_2_apply,
    val_main_v43_apply, val_main_v42_apply, val_main_call0_v0_apply, val_main_call0_cst_apply]
  have e1 : idx_main_v32 (idx_main_v33 (ix2 n k)) = ix1 k := funext fun a => by
    match a with
    | ⟨0, _⟩ => rfl
  have e2 : idx_main_v39 (idx_main_v40 (ix2 n k)) = ix1 k := funext fun a => by
    match a with
    | ⟨0, _⟩ => rfl
  have e3 : idx_main_v42 (idx_main_v43 (ix2 n k)) = ix1 k := funext fun a => by
    match a with
    | ⟨0, _⟩ => rfl
  rw [e1, e2, e3, l0_ma, l0_ga, l0_va, l0_bea]
  simp only [Ideal.addf_def, Ideal.subf_def, Ideal.mulf_def, Ideal.maximumf_def, Ideal.hostUnary_rsqrt_def,
    Ideal.ofBits_def, Ideal.ofBits_zero_f32]
  rfl

/-- Second linear map: v = a W2 + b2. -/
theorem l0_lin2 (n : Fin 100000) (j : Fin 64) :
    val_main_v53 (F := Ideal) x0 x1 x3 x4 x5 x8 x9 x10 x11 x12 x13 (ix2 n j)
      = (∑ k : Fin 64, val_main_v45 (F := Ideal) x0 x1 x3 x4 x5 x8 x9 x10 x11 (ix2 n k) * x12 (ix3 0 k j))
        + x13 (ix2 0 j) := by
  rw [val_main_v53_apply, val_main_v48_apply, val_main_v52_apply, val_main_v51_apply]
  have el : ∀ k : Fin 64, lidx_main_v48 (ix2 n j) k = ix2 n k := fun k => funext fun a => by
    match a with
    | ⟨0, _⟩ => rfl
    | ⟨1, _⟩ => rfl
  have er : ∀ k : Fin 64, ridx_main_v48 (ix2 n j) k = ix2 k j := fun k => funext fun a => by
    match a with
    | ⟨0, _⟩ => rfl
    | ⟨1, _⟩ => rfl
  have eb : idx_main_v51 (idx_main_v52 (ix2 n j)) = ix1 j := funext fun a => by
    match a with
    | ⟨0, _⟩ => rfl
  simp only [el, er, eb, l0_W2, l0_b2, Ideal.addf_def]

/-- Outer batch norm and relu: h' = relu (bn_b v). -/
theorem l0_out (n : Fin 100000) (j : Fin 64) :
    val_main_v75 (F := Ideal) x0 x1 x3 x4 x5 x8 x9 x10 x11 x12 x13 x14 x15 x16 x17 (ix2 n j)
      = GinSpec.bnrelu (val_main_v53 (F := Ideal) x0 x1 x3 x4 x5 x8 x9 x10 x11 x12 x13 (ix2 n j))
          (x16 (ix2 0 j)) (x14 (ix2 0 j)) (x17 (ix2 0 j)) (x15 (ix2 0 j)) := by
  rw [val_main_v75_apply, val_main_v74_apply, val_main_v71_apply, val_main_v64_apply,
    val_main_v63_apply, val_main_v62_apply, val_main_v70_apply, val_main_v69_apply, val_main_v68_apply,
    val_main_v67_apply, val_main_v66_apply, val_main_v65_apply, val_main_cst_3_apply,
    val_main_v73_apply, val_main_v72_apply, val_main_call1_v0_apply, val_main_call1_cst_apply]
  have e1 : idx_main_v62 (idx_main_v63 (ix2 n j)) = ix1 j := funext fun a => by
    match a with
    | ⟨0, _⟩ => rfl
  have e2 : idx_main_v69 (idx_main_v70 (ix2 n j)) = ix1 j := funext fun a => by
    match a with
    | ⟨0, _⟩ => rfl
  have e3 : idx_main_v72 (idx_main_v73 (ix2 n j)) = ix1 j := funext fun a => by
    match a with
    | ⟨0, _⟩ => rfl
  rw [e1, e2, e3, l0_mb, l0_gb, l0_vb, l0_beb]
  simp only [Ideal.addf_def, Ideal.subf_def, Ideal.mulf_def, Ideal.maximumf_def, Ideal.hostUnary_rsqrt_def,
    Ideal.ofBits_def, Ideal.ofBits_zero_f32]
  rfl

/-- Layer 0's node features are the row MLP of the aggregated input: (mlp_0). -/
theorem mlp_0 :
    val_main_v75 (F := Ideal) x0 x1 x3 x4 x5 x8 x9 x10 x11 x12 x13 x14 x15 x16 x17
      = fun i => GinSpec.mlp (fun d => val_main_v19 (F := Ideal) x0 x1 x3 (ix2 (i 0) d))
          (fun d k => x4 (ix2 d k)) (fun k => x5 (ix1 k))
          (fun k => x8 (ix2 0 k)) (fun k => x9 (ix2 0 k)) (fun k => x10 (ix2 0 k)) (fun k => x11 (ix2 0 k))
          (fun k j => x12 (ix3 0 k j)) (fun k => x13 (ix2 0 k))
          (fun k => x14 (ix2 0 k)) (fun k => x15 (ix2 0 k)) (fun k => x16 (ix2 0 k)) (fun k => x17 (ix2 0 k)) (i 1) := by
  funext i
  obtain ⟨n, j, rfl⟩ : ∃ (n : Fin 100000) (j : Fin 64), i = ix2 n j := ⟨i 0, i 1, eq_ix2 i⟩
  rw [l0_out, l0_lin2]
  simp only [l0_hid, l0_lin1]
  rfl

/-- Layer 0's readout is the sum pooling of its node features by graph id: (pool_0). The scatter's operand is the
    zero array, so its entry drops out of the sum. -/
theorem pool_0 :
    val_main_v78 (F := Ideal) x0 x1 x2 x3 x4 x5 x8 x9 x10 x11 x12 x13 x14 x15 x16 x17
      = fun i => GinSpec.pool
          (fun n => val_main_v75 (F := Ideal) x0 x1 x3 x4 x5 x8 x9 x10 x11 x12 x13 x14 x15 x16 x17 (ix2 n (i 1)))
          (fun n => x2 (ix1 n)) (i 0) := by
  funext i
  unfold val_main_v78
  refine (scatterAdd_pool _ _ _ i).trans ?_
  rw [val_main_v76_apply, val_main_cst_4_apply, Ideal.ofBits_def, Ideal.ofBits_zero_f32, zero_add]
  refine congrArg (fun b => GinSpec.pool _ b (i 0)) (funext fun n => ?_)
  rw [val_main_v77_apply]
  exact congrArg x2 (funext fun a => by
    match a with
    | ⟨0, _⟩ => rfl)

end Layer0

end Cert.ReferenceIdeal.RefValue

end
-- ==== Proof.RefLayer1.lean ====
/-
  Layer 1 of the reference network, read at the extended reals, entry by entry.
  The program computes, for every node row n: u = z W1 + b1 (a contraction over the row), a = relu (bn_a u),
  v = a W2 + b2, h' = relu (bn_b v), where bn subtracts the running mean, multiplies by gamma * rsqrt (var + eps) and adds
  beta, all per feature column; the per-column parameters are row 1 of the stacked [5, 64] arrays, the first weight matrix and bias slab 0 of the stacked [4, 64, 64] and [4, 64] arrays, broadcast down
  the rows. Each stage below is the program's stage read at (n, k); chained, row n of h' is `GinSpec.mlp` of row n of z
  (mlp_1). The layer's readout scatters h' into a zero [512, 64] array by graph id: `GinSpec.pool` of each column
  (pool_1). The aggregated input z itself (neighbour sum plus (1 + eps) times the features) is not opened: it stays the
  program's own stage.
-/
import proofs.«402532_j352187319172_1_alg».proof.Proof.RefRead
import proofs.«402532_j352187319172_1_alg».proof.Proof.Spec
import proofs.«402532_j352187319172_1_alg».proof.Proof.RefScatter

noncomputable section

namespace Cert.ReferenceIdeal.RefValue

open Cert.ReferenceIdeal Cert.ReferenceIdeal.Gen Cert.ReferenceIdeal.Read Idealize.ShloMosaic Idealize.ShloMosaic.ValueIdx

section Layer1

variable (x0 : (⟨S100000x128, .f32⟩ : BufTy).Contents (Elt Ideal)) (x1 : (⟨S2x1600000, .i32⟩ : BufTy).Contents (Elt Ideal))
  (x2 : (⟨S100000, .i32⟩ : BufTy).Contents (Elt Ideal)) (x3 : (⟨S5, .f32⟩ : BufTy).Contents (Elt Ideal))
  (x4 : (⟨S128x64, .f32⟩ : BufTy).Contents (Elt Ideal)) (x5 : (⟨S64, .f32⟩ : BufTy).Contents (Elt Ideal))
  (x6 : (⟨S4x64x64, .f32⟩ : BufTy).Contents (Elt Ideal)) (x7 : (⟨S4x64, .f32⟩ : BufTy).Contents (Elt Ideal))
  (x8 x9 x10 x11 : (⟨S5x64, .f32⟩ : BufTy).Contents (Elt Ideal)) (x12 : (⟨S5x64x64, .f32⟩ : BufTy).Contents (Elt Ideal))
  (x13 x14 x15 x16 x17 : (⟨S5x64, .f32⟩ : BufTy).Contents (Elt Ideal))
  (x18 : (⟨S320x16, .f32⟩ : BufTy).Contents (Elt Ideal)) (x19 : (⟨S16, .f32⟩ : BufTy).Contents (Elt Ideal))

/-! ### Rows of the stacked parameters: slice one row, drop the unit axis -/

/-- The first bias: row 0 of the stacked [4, 64] array. -/
theorem l1_b1 (k : Fin 64) : val_main_v98 (F := Ideal) x7 (ix1 k) = x7 (ix2 (0 : Fin 4) k) := by
  rw [val_main_v98_apply, val_main_v97_apply]
  exact congrArg x7 (funext fun a => Fin.ext (by
    match a with
    | ⟨0, _⟩ => rfl
    | ⟨1, _⟩ => exact Nat.mod_eq_of_lt k.isLt))

theorem l1_ga (k : Fin 64) : val_main_v104 (F := Ideal) x8 (ix1 k) = x8 (ix2 (1 : Fin 5) k) := by
  rw [val_main_v104_apply, val_main_v103_apply]
  exact congrArg x8 (funext fun a => Fin.ext (by
    match a with
    | ⟨0, _⟩ => rfl
    | ⟨1, _⟩ => exact Nat.mod_eq_of_lt k.isLt))

theorem l1_bea (k : Fin 64) : val_main_v106 (F := Ideal) x9 (ix1 k) = x9 (ix2 (1 : Fin 5) k) := by
  rw [val_main_v106_apply, val_main_v105_apply]
  exact congrArg x9 (funext fun a => Fin.ext (by
    match a with
    | ⟨0, _⟩ => rfl
    | ⟨1, _⟩ => exact Nat.mod_eq_of_lt k.isLt))

theorem l1_ma (k : Fin 64) : val_main_v108 (F := Ideal) x10 (ix1 k) = x10 (ix2 (1 : Fin 5) k) := by
  rw [val_main_v108_apply, val_main_v107_apply]
  exact congrArg x10 (funext fun a => Fin.ext (by
    match a with
    | ⟨0, _⟩ => rfl
    | ⟨1, _⟩ => exact Nat.mod_eq_of_lt k.isLt))

theorem l1_va (k : Fin 64) : val_main_v110 (F := Ideal) x11 (ix1 k) = x11 (ix2 (1 : Fin 5) k) := by
  rw [val_main_v110_apply, val_main_v109_apply]
  exact congrArg x11 (funext fun a => Fin.ext (by
    match a with
    | ⟨0, _⟩ => rfl
    | ⟨1, _⟩ => exact Nat.mod_eq_of_lt k.isLt))

theorem l1_b2 (k : Fin 64) : val_main_v129 (F := Ideal) x13 (ix1 k) = x13 (ix2 (1 : Fin 5) k) := by
  rw [val_main_v129_apply, val_main_v128_apply]
  exact congrArg x13 (funext fun a => Fin.ext (by
    match a with
    | ⟨0, _⟩ => rfl
    | ⟨1, _⟩ => exact Nat.mod_eq_of_lt k.isLt))

theorem l1_gb (k : Fin 64) : val_main_v134 (F := Ideal) x14 (ix1 k) = x14 (ix2 (1 : Fin 5) k) := by
  rw [val_main_v134_apply, val_main_v133_apply]
  exact congrArg x14 (funext fun a => Fin.ext (by
    match a with
    | ⟨0, _⟩ => rfl
    | ⟨1, _⟩ => exact Nat.mod_eq_of_lt k.isLt))

theorem l1_beb (k : Fin 64) : val_main_v136 (F := Ideal) x15 (ix1 k) = x15 (ix2 (1 : Fin 5) k) := by
  rw [val_main_v136_apply, val_main_v135_apply]
  exact congrArg x15 (funext fun a => Fin.ext (by
    match a with
    | ⟨0, _⟩ => rfl
    | ⟨1, _⟩ => exact Nat.mod_eq_of_lt k.isLt))

theorem l1_mb (k : Fin 64) : val_main_v138 (F := Ideal) x16 (ix1 k) = x16 (ix2 (1 : Fin 5) k) := by
  rw [val_main_v138_apply, val_main_v137_apply]
  exact congrArg x16 (funext fun a => Fin.ext (by
    match a with
    | ⟨0, _⟩ => rfl
    | ⟨1, _⟩ => exact Nat.mod_eq_of_lt k.isLt))

theorem l1_vb (k : Fin 64) : val_main_v140 (F := Ideal) x17 (ix1 k) = x17 (ix2 (1 : Fin 5) k) := by
  rw [val_main_v140_apply, val_main_v139_apply]
  exact congrArg x17 (funext fun a => Fin.ext (by
    match a with
    | ⟨0, _⟩ => rfl
    | ⟨1, _⟩ => exact Nat.mod_eq_of_lt k.isLt))

/-- The first weight matrix: slab 0 of the stacked [4, 64, 64] array. -/
theorem l1_W1 (d k : Fin 64) : val_main_v96 (F := Ideal) x6 (ix2 d k) = x6 (ix3 (0 : Fin 4) d k) := by
  rw [val_main_v96_apply, val_main_v95_apply]
  exact congrArg x6 (funext fun a => Fin.ext (by
    match a with
    | ⟨0, _⟩ => rfl
    | ⟨1, _⟩ =>
      show (d.val * 64 + k.val) / 64 % 64 = d.val
      have := d.isLt; have := k.isLt; omega
    | ⟨2, _⟩ =>
      show (d.val * 64 + k.val) % 64 = k.val
      have := d.isLt; have := k.isLt; omega))

/-- The second weight matrix: slab 1 of the stacked [5, 64, 64] array. -/
theorem l1_W2 (k j : Fin 64) : val_main_v126 (F := Ideal) x12 (ix2 k j) = x12 (ix3 (1 : Fin 5) k j) := by
  rw [val_main_v126_apply, val_main_v125_apply]
  exact congrArg x12 (funext fun a => Fin.ext (by
    match a with
    | ⟨0, _⟩ => rfl
    | ⟨1, _⟩ =>
      show (k.val * 64 + j.val) / 64 % 64 = k.val
      have := k.isLt; have := j.isLt; omega
    | ⟨2, _⟩ =>
      show (k.val * 64 + j.val) % 64 = j.val
      have := k.isLt; have := j.isLt; omega))

/-! ### The four stages of the row MLP at coordinates (n, ·) -/

/-- First linear map: u = z W1 + b1. -/
theorem l1_lin1 (n : Fin 100000) (k : Fin 64) :
    val_main_v102 (F := Ideal) x0 x1 x3 x4 x5 x6 x7 x8 x9 x10 x11 x12 x13 x14 x15 x16 x17 (ix2 n k)
      = (∑ d : Fin 64, val_main_v94 (F := Ideal) x0 x1 x3 x4 x5 x8 x9 x10 x11 x12 x13 x14 x15 x16 x17 (ix2 n d) * x6 (ix3 (0 : Fin 4) d k)) + x7 (ix2 (0 : Fin 4) k) := by
  rw [val_main_v102_apply, val_main_v99_apply, val_main_v101_apply, val_main_v100_apply]
  have el : ∀ d : Fin 64, lidx_main_v99 (ix2 n k) d = ix2 n d := fun d => funext fun a => by
    match a with
    | ⟨0, _⟩ => rfl
    | ⟨1, _⟩ => rfl
  have er : ∀ d : Fin 64, ridx_main_v99 (ix2 n k) d = ix2 d k := fun d => funext fun a => by
    match a with
    | ⟨0, _⟩ => rfl
    | ⟨1, _⟩ => rfl
  have eb : idx_main_v100 (idx_main_v101 (ix2 n k)) = ix1 k := funext fun a => by
    match a with
    | ⟨0, _⟩ => rfl
  simp only [el, er, eb, l1_W1, l1_b1, Ideal.addf_def]

/-- Inner batch norm and relu: a = relu (bn_a u). -/
theorem l1_hid (n : Fin 100000) (k : Fin 64) :
    val_main_v124 (F := Ideal) x0 x1 x3 x4 x5 x6 x7 x8 x9 x10 x11 x12 x13 x14 x15 x16 x17 (ix2 n k)
      = GinSpec.bnrelu (val_main_v102 (F := Ideal) x0 x1 x3 x4 x5 x6 x7 x8 x9 x10 x11 x12 x13 x14 x15 x16 x17 (ix2 n k))
          (x10 (ix2 (1 : Fin 5) k)) (x8 (ix2 (1 : Fin 5) k)) (x11 (ix2 (1 : Fin 5) k)) (x9 (ix2 (1 : Fin 5) k)) := by
  rw [val_main_v124_apply, val_main_v123_apply, val_main_v120_apply, val_main_v113_apply,
    val_main_v112_apply, val_main_v111_apply, val_main_v119_apply, val_main_v118_apply, val_main_v117_apply,
    val_main_v116_apply, val_main_v115_apply, val_main_v114_apply, val_main_cst_9_apply,
    val_main_v122_apply, val_main_v121_apply, val_main_call2_v0_apply, val_main_call2_cst_apply]
  have e1 : idx_main_v111 (idx_main_v112 (ix2 n k)) = ix1 k := funext fun a => by
    match a with
    | ⟨0, _⟩ => rfl
  have e2 : idx_main_v118 (idx_main_v119 (ix2 n k)) = ix1 k := funext fun a => by
    match a with
    | ⟨0, _⟩ => rfl
  have e3 : idx_main_v121 (idx_main_v122 (ix2 n k)) = ix1 k := funext fun a => by
    match a with
    | ⟨0, _⟩ => rfl
  rw [e1, e2, e3, l1_ma, l1_ga, l1_va, l1_bea]
  simp only [Ideal.addf_def, Ideal.subf_def, Ideal.mulf_def, Ideal.maximumf_def, Ideal.hostUnary_rsqrt_def,
    Ideal.ofBits_def, Ideal.ofBits_zero_f32]
  rfl

/-- Second linear map: v = a W2 + b2. -/
theorem l1_lin2 (n : Fin 100000) (j : Fin 64) :
    val_main_v132 (F := Ideal) x0 x1 x3 x4 x5 x6 x7 x8 x9 x10 x11 x12 x13 x14 x15 x16 x17 (ix2 n j)
      = (∑ k : Fin 64, val_main_v124 (F := Ideal) x0 x1 x3 x4 x5 x6 x7 x8 x9 x10 x11 x12 x13 x14 x15 x16 x17 (ix2 n k)
            * x12 (ix3 (1 : Fin 5) k j))
        + x13 (ix2 (1 : Fin 5) j) := by
  rw [val_main_v132_apply, val_main_v127_apply, val_main_v131_apply, val_main_v130_apply]
  have el : ∀ k : Fin 64, lidx_main_v127 (ix2 n j) k = ix2 n k := fun k => funext fun a => by
    match a with
    | ⟨0, _⟩ => rfl
    | ⟨1, _⟩ => rfl
  have er : ∀ k : Fin 64, ridx_main_v127 (ix2 n j) k = ix2 k j := fun k => funext fun a => by
    match a with
    | ⟨0, _⟩ => rfl
    | ⟨1, _⟩ => rfl
  have eb : idx_main_v130 (idx_main_v131 (ix2 n j)) = ix1 j := funext fun a => by
    match a with
    | ⟨0, _⟩ => rfl
  simp only [el, er, eb, l1_W2, l1_b2, Ideal.addf_def]

/-- Outer batch norm and relu: h' = relu (bn_b v). -/
theorem l1_out (n : Fin 100000) (j : Fin 64) :
    val_main_v154 (F := Ideal) x0 x1 x3 x4 x5 x6 x7 x8 x9 x10 x11 x12 x13 x14 x15 x16 x17 (ix2 n j)
      = GinSpec.bnrelu (val_main_v132 (F := Ideal) x0 x1 x3 x4 x5 x6 x7 x8 x9 x10 x11 x12 x13 x14 x15 x16 x17 (ix2 n j))
          (x16 (ix2 (1 : Fin 5) j)) (x14 (ix2 (1 : Fin 5) j)) (x17 (ix2 (1 : Fin 5) j)) (x15 (ix2 (1 : Fin 5) j)) := by
  rw [val_main_v154_apply, val_main_v153_apply, val_main_v150_apply, val_main_v143_apply,
    val_main_v142_apply, val_main_v141_apply, val_main_v149_apply, val_main_v148_apply, val_main_v147_apply,
    val_main_v146_apply, val_main_v145_apply, val_main_v144_apply, val_main_cst_10_apply,
    val_main_v152_apply, val_main_v151_apply, val_main_call3_v0_apply, val_main_call3_cst_apply]
  have e1 : idx_main_v141 (idx_main_v142 (ix2 n j)) = ix1 j := funext fun a => by
    match a with
    | ⟨0, _⟩ => rfl
  have e2 : idx_main_v148 (idx_main_v149 (ix2 n j)) = ix1 j := funext fun a => by
    match a with
    | ⟨0, _⟩ => rfl
  have e3 : idx_main_v151 (idx_main_v152 (ix2 n j)) = ix1 j := funext fun a => by
    match a with
    | ⟨0, _⟩ => rfl
  rw [e1, e2, e3, l1_mb, l1_gb, l1_vb, l1_beb]
  simp only [Ideal.addf_def, Ideal.subf_def, Ideal.mulf_def, Ideal.maximumf_def, Ideal.hostUnary_rsqrt_def,
    Ideal.ofBits_def, Ideal.ofBits_zero_f32]
  rfl

/-- Layer 1's node features are the row MLP of the aggregated input: (mlp_1). -/
theorem mlp_1 :
    val_main_v154 (F := Ideal) x0 x1 x3 x4 x5 x6 x7 x8 x9 x10 x11 x12 x13 x14 x15 x16 x17
      = fun i => GinSpec.mlp (fun d => val_main_v94 (F := Ideal) x0 x1 x3 x4 x5 x8 x9 x10 x11 x12 x13 x14 x15 x16 x17 (ix2 (i 0) d))
          (fun d k => x6 (ix3 (0 : Fin 4) d k)) (fun k => x7 (ix2 (0 : Fin 4) k))
          (fun k => x8 (ix2 (1 : Fin 5) k)) (fun k => x9 (ix2 (1 : Fin 5) k)) (fun k => x10 (ix2 (1 : Fin 5) k))
          (fun k => x11 (ix2 (1 : Fin 5) k))
          (fun k j => x12 (ix3 (1 : Fin 5) k j)) (fun k => x13 (ix2 (1 : Fin 5) k))
          (fun k => x14 (ix2 (1 : Fin 5) k)) (fun k => x15 (ix2 (1 : Fin 5) k)) (fun k => x16 (ix2 (1 : Fin 5) k))
          (fun k => x17 (ix2 (1 : Fin 5) k)) (i 1) := by
  funext i
  obtain ⟨n, j, rfl⟩ : ∃ (n : Fin 100000) (j : Fin 64), i = ix2 n j := ⟨i 0, i 1, eq_ix2 i⟩
  rw [l1_out, l1_lin2]
  simp only [l1_hid, l1_lin1]
  rfl

/-- Layer 1's readout is the sum pooling of its node features by graph id: (pool_1). The scatter's operand is the
    zero array, so its entry drops out of the sum. -/
theorem pool_1 :
    val_main_v157 (F := Ideal) x0 x1 x2 x3 x4 x5 x6 x7 x8 x9 x10 x11 x12 x13 x14 x15 x16 x17
      = fun i => GinSpec.pool
          (fun n => val_main_v154 (F := Ideal) x0 x1 x3 x4 x5 x6 x7 x8 x9 x10 x11 x12 x13 x14 x15 x16 x17 (ix2 n (i 1)))
          (fun n => x2 (ix1 n)) (i 0) := by
  funext i
  unfold val_main_v157
  refine (scatterAdd_pool _ _ _ i).trans ?_
  rw [val_main_v155_apply, val_main_cst_11_apply, Ideal.ofBits_def, Ideal.ofBits_zero_f32, zero_add]
  refine congrArg (fun b => GinSpec.pool _ b (i 0)) (funext fun n => ?_)
  rw [val_main_v156_apply]
  exact congrArg x2 (funext fun a => by
    match a with
    | ⟨0, _⟩ => rfl)

end Layer1

end Cert.ReferenceIdeal.RefValue

end
-- ==== Proof.RefLayer2.lean ====
/-
  Layer 2 of the reference network, read at the extended reals, entry by entry.
  The program computes, for every node row n: u = z W1 + b1 (a contraction over the row), a = relu (bn_a u),
  v = a W2 + b2, h' = relu (bn_b v), where bn subtracts the running mean, multiplies by gamma * rsqrt (var + eps) and adds
  beta, all per feature column; the per-column parameters are row 2 of the stacked [5, 64] arrays, the first weight matrix and bias slab 1 of the stacked [4, 64, 64] and [4, 64] arrays, broadcast down
  the rows. Each stage below is the program's stage read at (n, k); chained, row n of h' is `GinSpec.mlp` of row n of z
  (mlp_2). The layer's readout scatters h' into a zero [512, 64] array by graph id: `GinSpec.pool` of each column
  (pool_2). The aggregated input z itself (neighbour sum plus (1 + eps) times the features) is not opened: it stays the
  program's own stage.
-/
import proofs.«402532_j352187319172_1_alg».proof.Proof.RefRead
import proofs.«402532_j352187319172_1_alg».proof.Proof.Spec
import proofs.«402532_j352187319172_1_alg».proof.Proof.RefScatter

noncomputable section

namespace Cert.ReferenceIdeal.RefValue

open Cert.ReferenceIdeal Cert.ReferenceIdeal.Gen Cert.ReferenceIdeal.Read Idealize.ShloMosaic Idealize.ShloMosaic.ValueIdx

section Layer2

variable (x0 : (⟨S100000x128, .f32⟩ : BufTy).Contents (Elt Ideal)) (x1 : (⟨S2x1600000, .i32⟩ : BufTy).Contents (Elt Ideal))
  (x2 : (⟨S100000, .i32⟩ : BufTy).Contents (Elt Ideal)) (x3 : (⟨S5, .f32⟩ : BufTy).Contents (Elt Ideal))
  (x4 : (⟨S128x64, .f32⟩ : BufTy).Contents (Elt Ideal)) (x5 : (⟨S64, .f32⟩ : BufTy).Contents (Elt Ideal))
  (x6 : (⟨S4x64x64, .f32⟩ : BufTy).Contents (Elt Ideal)) (x7 : (⟨S4x64, .f32⟩ : BufTy).Contents (Elt Ideal))
  (x8 x9 x10 x11 : (⟨S5x64, .f32⟩ : BufTy).Contents (Elt Ideal)) (x12 : (⟨S5x64x64, .f32⟩ : BufTy).Contents (Elt Ideal))
  (x13 x14 x15 x16 x17 : (⟨S5x64, .f32⟩ : BufTy).Contents (Elt Ideal))
  (x18 : (⟨S320x16, .f32⟩ : BufTy).Contents (Elt Ideal)) (x19 : (⟨S16, .f32⟩ : BufTy).Contents (Elt Ideal))

/-! ### Rows of the stacked parameters: slice one row, drop the unit axis -/

/-- The first bias: row 1 of the stacked [4, 64] array. -/
theorem l2_b1 (k : Fin 64) : val_main_v177 (F := Ideal) x7 (ix1 k) = x7 (ix2 (1 : Fin 4) k) := by
  rw [val_main_v177_apply, val_main_v176_apply]
  exact congrArg x7 (funext fun a => Fin.ext (by
    match a with
    | ⟨0, _⟩ => rfl
    | ⟨1, _⟩ => exact Nat.mod_eq_of_lt k.isLt))

theorem l2_ga (k : Fin 64) : val_main_v183 (F := Ideal) x8 (ix1 k) = x8 (ix2 (2 : Fin 5) k) := by
  rw [val_main_v183_apply, val_main_v182_apply]
  exact congrArg x8 (funext fun a => Fin.ext (by
    match a with
    | ⟨0, _⟩ => rfl
    | ⟨1, _⟩ => exact Nat.mod_eq_of_lt k.isLt))

theorem l2_bea (k : Fin 64) : val_main_v185 (F := Ideal) x9 (ix1 k) = x9 (ix2 (2 : Fin 5) k) := by
  rw [val_main_v185_apply, val_main_v184_apply]
  exact congrArg x9 (funext fun a => Fin.ext (by
    match a with
    | ⟨0, _⟩ => rfl
    | ⟨1, _⟩ => exact Nat.mod_eq_of_lt k.isLt))

theorem l2_ma (k : Fin 64) : val_main_v187 (F := Ideal) x10 (ix1 k) = x10 (ix2 (2 : Fin 5) k) := by
  rw [val_main_v187_apply, val_main_v186_apply]
  exact congrArg x10 (funext fun a => Fin.ext (by
    match a with
    | ⟨0, _⟩ => rfl
    | ⟨1, _⟩ => exact Nat.mod_eq_of_lt k.isLt))

theorem l2_va (k : Fin 64) : val_main_v189 (F := Ideal) x11 (ix1 k) = x11 (ix2 (2 : Fin 5) k) := by
  rw [val_main_v189_apply, val_main_v188_apply]
  exact congrArg x11 (funext fun a => Fin.ext (by
    match a with
    | ⟨0, _⟩ => rfl
    | ⟨1, _⟩ => exact Nat.mod_eq_of_lt k.isLt))

theorem l2_b2 (k : Fin 64) : val_main_v208 (F := Ideal) x13 (ix1 k) = x13 (ix2 (2 : Fin 5) k) := by
  rw [val_main_v208_apply, val_main_v207_apply]
  exact congrArg x13 (funext fun a => Fin.ext (by
    match a with
    | ⟨0, _⟩ => rfl
    | ⟨1, _⟩ => exact Nat.mod_eq_of_lt k.isLt))

theorem l2_gb (k : Fin 64) : val_main_v213 (F := Ideal) x14 (ix1 k) = x14 (ix2 (2 : Fin 5) k) := by
  rw [val_main_v213_apply, val_main_v212_apply]
  exact congrArg x14 (funext fun a => Fin.ext (by
    match a with
    | ⟨0, _⟩ => rfl
    | ⟨1, _⟩ => exact Nat.mod_eq_of_lt k.isLt))

theorem l2_beb (k : Fin 64) : val_main_v215 (F := Ideal) x15 (ix1 k) = x15 (ix2 (2 : Fin 5) k) := by
  rw [val_main_v215_apply, val_main_v214_apply]
  exact congrArg x15 (funext fun a => Fin.ext (by
    match a with
    | ⟨0, _⟩ => rfl
    | ⟨1, _⟩ => exact Nat.mod_eq_of_lt k.isLt))

theorem l2_mb (k : Fin 64) : val_main_v217 (F := Ideal) x16 (ix1 k) = x16 (ix2 (2 : Fin 5) k) := by
  rw [val_main_v217_apply, val_main_v216_apply]
  exact congrArg x16 (funext fun a => Fin.ext (by
    match a with
    | ⟨0, _⟩ => rfl
    | ⟨1, _⟩ => exact Nat.mod_eq_of_lt k.isLt))

theorem l2_vb (k : Fin 64) : val_main_v219 (F := Ideal) x17 (ix1 k) = x17 (ix2 (2 : Fin 5) k) := by
  rw [val_main_v219_apply, val_main_v218_apply]
  exact congrArg x17 (funext fun a => Fin.ext (by
    match a with
    | ⟨0, _⟩ => rfl
    | ⟨1, _⟩ => exact Nat.mod_eq_of_lt k.isLt))

/-- The first weight matrix: slab 1 of the stacked [4, 64, 64] array. -/
theorem l2_W1 (d k : Fin 64) : val_main_v175 (F := Ideal) x6 (ix2 d k) = x6 (ix3 (1 : Fin 4) d k) := by
  rw [val_main_v175_apply, val_main_v174_apply]
  exact congrArg x6 (funext fun a => Fin.ext (by
    match a with
    | ⟨0, _⟩ => rfl
    | ⟨1, _⟩ =>
      show (d.val * 64 + k.val) / 64 % 64 = d.val
      have := d.isLt; have := k.isLt; omega
    | ⟨2, _⟩ =>
      show (d.val * 64 + k.val) % 64 = k.val
      have := d.isLt; have := k.isLt; omega))

/-- The second weight matrix: slab 2 of the stacked [5, 64, 64] array. -/
theorem l2_W2 (k j : Fin 64) : val_main_v205 (F := Ideal) x12 (ix2 k j) = x12 (ix3 (2 : Fin 5) k j) := by
  rw [val_main_v205_apply, val_main_v204_apply]
  exact congrArg x12 (funext fun a => Fin.ext (by
    match a with
    | ⟨0, _⟩ => rfl
    | ⟨1, _⟩ =>
      show (k.val * 64 + j.val) / 64 % 64 = k.val
      have := k.isLt; have := j.isLt; omega
    | ⟨2, _⟩ =>
      show (k.val * 64 + j.val) % 64 = j.val
      have := k.isLt; have := j.isLt; omega))

/-! ### The four stages of the row MLP at coordinates (n, ·) -/

/-- First linear map: u = z W1 + b1. -/
theorem l2_lin1 (n : Fin 100000) (k : Fin 64) :
    val_main_v181 (F := Ideal) x0 x1 x3 x4 x5 x6 x7 x8 x9 x10 x11 x12 x13 x14 x15 x16 x17 (ix2 n k)
      = (∑ d : Fin 64, val_main_v173 (F := Ideal) x0 x1 x3 x4 x5 x6 x7 x8 x9 x10 x11 x12 x13 x14 x15 x16 x17 (ix2 n d) * x6 (ix3 (1 : Fin 4) d k)) + x7 (ix2 (1 : Fin 4) k) := by
  rw [val_main_v181_apply, val_main_v178_apply, val_main_v180_apply, val_main_v179_apply]
  have el : ∀ d : Fin 64, lidx_main_v178 (ix2 n k) d = ix2 n d := fun d => funext fun a => by
    match a with
    | ⟨0, _⟩ => rfl
    | ⟨1, _⟩ => rfl
  have er : ∀ d : Fin 64, ridx_main_v178 (ix2 n k) d = ix2 d k := fun d => funext fun a => by
    match a with
    | ⟨0, _⟩ => rfl
    | ⟨1, _⟩ => rfl
  have eb : idx_main_v179 (idx_main_v180 (ix2 n k)) = ix1 k := funext fun a => by
    match a with
    | ⟨0, _⟩ => rfl
  simp only [el, er, eb, l2_W1, l2_b1, Ideal.addf_def]

/-- Inner batch norm and relu: a = relu (bn_a u). -/
theorem l2_hid (n : Fin 100000) (k : Fin 64) :
    val_main_v203 (F := Ideal) x0 x1 x3 x4 x5 x6 x7 x8 x9 x10 x11 x12 x13 x14 x15 x16 x17 (ix2 n k)
      = GinSpec.bnrelu (val_main_v181 (F := Ideal) x0 x1 x3 x4 x5 x6 x7 x8 x9 x10 x11 x12 x13 x14 x15 x16 x17 (ix2 n k))
          (x10 (ix2 (2 : Fin 5) k)) (x8 (ix2 (2 : Fin 5) k)) (x11 (ix2 (2 : Fin 5) k)) (x9 (ix2 (2 : Fin 5) k)) := by
  rw [val_main_v203_apply, val_main_v202_apply, val_main_v199_apply, val_main_v192_apply,
    val_main_v191_apply, val_main_v190_apply, val_main_v198_apply, val_main_v197_apply, val_main_v196_apply,
    val_main_v195_apply, val_main_v194_apply, val_main_v193_apply, val_main_cst_16_apply,
    val_main_v201_apply, val_main_v200_apply, val_main_call4_v0_apply, val_main_call4_cst_apply]
  have e1 : idx_main_v190 (idx_main_v191 (ix2 n k)) = ix1 k := funext fun a => by
    match a with
    | ⟨0, _⟩ => rfl
  have e2 : idx_main_v197 (idx_main_v198 (ix2 n k)) = ix1 k := funext fun a => by
    match a with
    | ⟨0, _⟩ => rfl
  have e3 : idx_main_v200 (idx_main_v201 (ix2 n k)) = ix1 k := funext fun a => by
    match a with
    | ⟨0, _⟩ => rfl
  rw [e1, e2, e3, l2_ma, l2_ga, l2_va, l2_bea]
  simp only [Ideal.addf_def, Ideal.subf_def, Ideal.mulf_def, Ideal.maximumf_def, Ideal.hostUnary_rsqrt_def,
    Ideal.ofBits_def, Ideal.ofBits_zero_f32]
  rfl

/-- Second linear map: v = a W2 + b2. -/
theorem l2_lin2 (n : Fin 100000) (j : Fin 64) :
    val_main_v211 (F := Ideal) x0 x1 x3 x4 x5 x6 x7 x8 x9 x10 x11 x12 x13 x14 x15 x16 x17 (ix2 n j)
      = (∑ k : Fin 64, val_main_v203 (F := Ideal) x0 x1 x3 x4 x5 x6 x7 x8 x9 x10 x11 x12 x13 x14 x15 x16 x17 (ix2 n k)
            * x12 (ix3 (2 : Fin 5) k j))
        + x13 (ix2 (2 : Fin 5) j) := by
  rw [val_main_v211_apply, val_main_v206_apply, val_main_v210_apply, val_main_v209_apply]
  have el : ∀ k : Fin 64, lidx_main_v206 (ix2 n j) k = ix2 n k := fun k => funext fun a => by
    match a with
    | ⟨0, _⟩ => rfl
    | ⟨1, _⟩ => rfl
  have er : ∀ k : Fin 64, ridx_main_v206 (ix2 n j) k = ix2 k j := fun k => funext fun a => by
    match a with
    | ⟨0, _⟩ => rfl
    | ⟨1, _⟩ => rfl
  have eb : idx_main_v209 (idx_main_v210 (ix2 n j)) = ix1 j := funext fun a => by
    match a with
    | ⟨0, _⟩ => rfl
  simp only [el, er, eb, l2_W2, l2_b2, Ideal.addf_def]

/-- Outer batch norm and relu: h' = relu (bn_b v). -/
theorem l2_out (n : Fin 100000) (j : Fin 64) :
    val_main_v233 (F := Ideal) x0 x1 x3 x4 x5 x6 x7 x8 x9 x10 x11 x12 x13 x14 x15 x16 x17 (ix2 n j)
      = GinSpec.bnrelu (val_main_v211 (F := Ideal) x0 x1 x3 x4 x5 x6 x7 x8 x9 x10 x11 x12 x13 x14 x15 x16 x17 (ix2 n j))
          (x16 (ix2 (2 : Fin 5) j)) (x14 (ix2 (2 : Fin 5) j)) (x17 (ix2 (2 : Fin 5) j)) (x15 (ix2 (2 : Fin 5) j)) := by
  rw [val_main_v233_apply, val_main_v232_apply, val_main_v229_apply, val_main_v222_apply,
    val_main_v221_apply, val_main_v220_apply, val_main_v228_apply, val_main_v227_apply, val_main_v226_apply,
    val_main_v225_apply, val_main_v224_apply, val_main_v223_apply, val_main_cst_17_apply,
    val_main_v231_apply, val_main_v230_apply, val_main_call5_v0_apply, val_main_call5_cst_apply]
  have e1 : idx_main_v220 (idx_main_v221 (ix2 n j)) = ix1 j := funext fun a => by
    match a with
    | ⟨0, _⟩ => rfl
  have e2 : idx_main_v227 (idx_main_v228 (ix2 n j)) = ix1 j := funext fun a => by
    match a with
    | ⟨0, _⟩ => rfl
  have e3 : idx_main_v230 (idx_main_v231 (ix2 n j)) = ix1 j := funext fun a => by
    match a with
    | ⟨0, _⟩ => rfl
  rw [e1, e2, e3, l2_mb, l2_gb, l2_vb, l2_beb]
  simp only [Ideal.addf_def, Ideal.subf_def, Ideal.mulf_def, Ideal.maximumf_def, Ideal.hostUnary_rsqrt_def,
    Ideal.ofBits_def, Ideal.ofBits_zero_f32]
  rfl

/-- Layer 2's node features are the row MLP of the aggregated input: (mlp_2). -/
theorem mlp_2 :
    val_main_v233 (F := Ideal) x0 x1 x3 x4 x5 x6 x7 x8 x9 x10 x11 x12 x13 x14 x15 x16 x17
      = fun i => GinSpec.mlp (fun d => val_main_v173 (F := Ideal) x0 x1 x3 x4 x5 x6 x7 x8 x9 x10 x11 x12 x13 x14 x15 x16 x17 (ix2 (i 0) d))
          (fun d k => x6 (ix3 (1 : Fin 4) d k)) (fun k => x7 (ix2 (1 : Fin 4) k))
          (fun k => x8 (ix2 (2 : Fin 5) k)) (fun k => x9 (ix2 (2 : Fin 5) k)) (fun k => x10 (ix2 (2 : Fin 5) k))
          (fun k => x11 (ix2 (2 : Fin 5) k))
          (fun k j => x12 (ix3 (2 : Fin 5) k j)) (fun k => x13 (ix2 (2 : Fin 5) k))
          (fun k => x14 (ix2 (2 : Fin 5) k)) (fun k => x15 (ix2 (2 : Fin 5) k)) (fun k => x16 (ix2 (2 : Fin 5) k))
          (fun k => x17 (ix2 (2 : Fin 5) k)) (i 1) := by
  funext i
  obtain ⟨n, j, rfl⟩ : ∃ (n : Fin 100000) (j : Fin 64), i = ix2 n j := ⟨i 0, i 1, eq_ix2 i⟩
  rw [l2_out, l2_lin2]
  simp only [l2_hid, l2_lin1]
  rfl

/-- Layer 2's readout is the sum pooling of its node features by graph id: (pool_2). The scatter's operand is the
    zero array, so its entry drops out of the sum. -/
theorem pool_2 :
    val_main_v236 (F := Ideal) x0 x1 x2 x3 x4 x5 x6 x7 x8 x9 x10 x11 x12 x13 x14 x15 x16 x17
      = fun i => GinSpec.pool
          (fun n => val_main_v233 (F := Ideal) x0 x1 x3 x4 x5 x6 x7 x8 x9 x10 x11 x12 x13 x14 x15 x16 x17 (ix2 n (i 1)))
          (fun n => x2 (ix1 n)) (i 0) := by
  funext i
  unfold val_main_v236
  refine (scatterAdd_pool _ _ _ i).trans ?_
  rw [val_main_v234_apply, val_main_cst_18_apply, Ideal.ofBits_def, Ideal.ofBits_zero_f32, zero_add]
  refine congrArg (fun b => GinSpec.pool _ b (i 0)) (funext fun n => ?_)
  rw [val_main_v235_apply]
  exact congrArg x2 (funext fun a => by
    match a with
    | ⟨0, _⟩ => rfl)

end Layer2

end Cert.ReferenceIdeal.RefValue

end
-- ==== Proof.RefLayer3.lean ====
/-
  Layer 3 of the reference network, read at the extended reals, entry by entry.
  The program computes, for every node row n: u = z W1 + b1 (a contraction over the row), a = relu (bn_a u),
  v = a W2 + b2, h' = relu (bn_b v), where bn subtracts the running mean, multiplies by gamma * rsqrt (var + eps) and adds
  beta, all per feature column; the per-column parameters are row 3 of the stacked [5, 64] arrays, the first weight matrix and bias slab 2 of the stacked [4, 64, 64] and [4, 64] arrays, broadcast down
  the rows. Each stage below is the program's stage read at (n, k); chained, row n of h' is `GinSpec.mlp` of row n of z
  (mlp_3). The layer's readout scatters h' into a zero [512, 64] array by graph id: `GinSpec.pool` of each column
  (pool_3). The aggregated input z itself (neighbour sum plus (1 + eps) times the features) is not opened: it stays the
  program's own stage.
-/
import proofs.«402532_j352187319172_1_alg».proof.Proof.RefRead
import proofs.«402532_j352187319172_1_alg».proof.Proof.Spec
import proofs.«402532_j352187319172_1_alg».proof.Proof.RefScatter

noncomputable section

namespace Cert.ReferenceIdeal.RefValue

open Cert.ReferenceIdeal Cert.ReferenceIdeal.Gen Cert.ReferenceIdeal.Read Idealize.ShloMosaic Idealize.ShloMosaic.ValueIdx

section Layer3

variable (x0 : (⟨S100000x128, .f32⟩ : BufTy).Contents (Elt Ideal)) (x1 : (⟨S2x1600000, .i32⟩ : BufTy).Contents (Elt Ideal))
  (x2 : (⟨S100000, .i32⟩ : BufTy).Contents (Elt Ideal)) (x3 : (⟨S5, .f32⟩ : BufTy).Contents (Elt Ideal))
  (x4 : (⟨S128x64, .f32⟩ : BufTy).Contents (Elt Ideal)) (x5 : (⟨S64, .f32⟩ : BufTy).Contents (Elt Ideal))
  (x6 : (⟨S4x64x64, .f32⟩ : BufTy).Contents (Elt Ideal)) (x7 : (⟨S4x64, .f32⟩ : BufTy).Contents (Elt Ideal))
  (x8 x9 x10 x11 : (⟨S5x64, .f32⟩ : BufTy).Contents (Elt Ideal)) (x12 : (⟨S5x64x64, .f32⟩ : BufTy).Contents (Elt Ideal))
  (x13 x14 x15 x16 x17 : (⟨S5x64, .f32⟩ : BufTy).Contents (Elt Ideal))
  (x18 : (⟨S320x16, .f32⟩ : BufTy).Contents (Elt Ideal)) (x19 : (⟨S16, .f32⟩ : BufTy).Contents (Elt Ideal))

/-! ### Rows of the stacked parameters: slice one row, drop the unit axis -/

/-- The first bias: row 2 of the stacked [4, 64] array. -/
theorem l3_b1 (k : Fin 64) : val_main_v256 (F := Ideal) x7 (ix1 k) = x7 (ix2 (2 : Fin 4) k) := by
  rw [val_main_v256_apply, val_main_v255_apply]
  exact congrArg x7 (funext fun a => Fin.ext (by
    match a with
    | ⟨0, _⟩ => rfl
    | ⟨1, _⟩ => exact Nat.mod_eq_of_lt k.isLt))

theorem l3_ga (k : Fin 64) : val_main_v262 (F := Ideal) x8 (ix1 k) = x8 (ix2 (3 : Fin 5) k) := by
  rw [val_main_v262_apply, val_main_v261_apply]
  exact congrArg x8 (funext fun a => Fin.ext (by
    match a with
    | ⟨0, _⟩ => rfl
    | ⟨1, _⟩ => exact Nat.mod_eq_of_lt k.isLt))

theorem l3_bea (k : Fin 64) : val_main_v264 (F := Ideal) x9 (ix1 k) = x9 (ix2 (3 : Fin 5) k) := by
  rw [val_main_v264_apply, val_main_v263_apply]
  exact congrArg x9 (funext fun a => Fin.ext (by
    match a with
    | ⟨0, _⟩ => rfl
    | ⟨1, _⟩ => exact Nat.mod_eq_of_lt k.isLt))

theorem l3_ma (k : Fin 64) : val_main_v266 (F := Ideal) x10 (ix1 k) = x10 (ix2 (3 : Fin 5) k) := by
  rw [val_main_v266_apply, val_main_v265_apply]
  exact congrArg x10 (funext fun a => Fin.ext (by
    match a with
    | ⟨0, _⟩ => rfl
    | ⟨1, _⟩ => exact Nat.mod_eq_of_lt k.isLt))

theorem l3_va (k : Fin 64) : val_main_v268 (F := Ideal) x11 (ix1 k) = x11 (ix2 (3 : Fin 5) k) := by
  rw [val_main_v268_apply, val_main_v267_apply]
  exact congrArg x11 (funext fun a => Fin.ext (by
    match a with
    | ⟨0, _⟩ => rfl
    | ⟨1, _⟩ => exact Nat.mod_eq_of_lt k.isLt))

theorem l3_b2 (k : Fin 64) : val_main_v287 (F := Ideal) x13 (ix1 k) = x13 (ix2 (3 : Fin 5) k) := by
  rw [val_main_v287_apply, val_main_v286_apply]
  exact congrArg x13 (funext fun a => Fin.ext (by
    match a with
    | ⟨0, _⟩ => rfl
    | ⟨1, _⟩ => exact Nat.mod_eq_of_lt k.isLt))

theorem l3_gb (k : Fin 64) : val_main_v292 (F := Ideal) x14 (ix1 k) = x14 (ix2 (3 : Fin 5) k) := by
  rw [val_main_v292_apply, val_main_v291_apply]
  exact congrArg x14 (funext fun a => Fin.ext (by
    match a with
    | ⟨0, _⟩ => rfl
    | ⟨1, _⟩ => exact Nat.mod_eq_of_lt k.isLt))

theorem l3_beb (k : Fin 64) : val_main_v294 (F := Ideal) x15 (ix1 k) = x15 (ix2 (3 : Fin 5) k) := by
  rw [val_main_v294_apply, val_main_v293_apply]
  exact congrArg x15 (funext fun a => Fin.ext (by
    match a with
    | ⟨0, _⟩ => rfl
    | ⟨1, _⟩ => exact Nat.mod_eq_of_lt k.isLt))

theorem l3_mb (k : Fin 64) : val_main_v296 (F := Ideal) x16 (ix1 k) = x16 (ix2 (3 : Fin 5) k) := by
  rw [val_main_v296_apply, val_main_v295_apply]
  exact congrArg x16 (funext fun a => Fin.ext (by
    match a with
    | ⟨0, _⟩ => rfl
    | ⟨1, _⟩ => exact Nat.mod_eq_of_lt k.isLt))

theorem l3_vb (k : Fin 64) : val_main_v298 (F := Ideal) x17 (ix1 k) = x17 (ix2 (3 : Fin 5) k) := by
  rw [val_main_v298_apply, val_main_v297_apply]
  exact congrArg x17 (funext fun a => Fin.ext (by
    match a with
    | ⟨0, _⟩ => rfl
    | ⟨1, _⟩ => exact Nat.mod_eq_of_lt k.isLt))

/-- The first weight matrix: slab 2 of the stacked [4, 64, 64] array. -/
theorem l3_W1 (d k : Fin 64) : val_main_v254 (F := Ideal) x6 (ix2 d k) = x6 (ix3 (2 : Fin 4) d k) := by
  rw [val_main_v254_apply, val_main_v253_apply]
  exact congrArg x6 (funext fun a => Fin.ext (by
    match a with
    | ⟨0, _⟩ => rfl
    | ⟨1, _⟩ =>
      show (d.val * 64 + k.val) / 64 % 64 = d.val
      have := d.isLt; have := k.isLt; omega
    | ⟨2, _⟩ =>
      show (d.val * 64 + k.val) % 64 = k.val
      have := d.isLt; have := k.isLt; omega))

/-- The second weight matrix: slab 3 of the stacked [5, 64, 64] array. -/
theorem l3_W2 (k j : Fin 64) : val_main_v284 (F := Ideal) x12 (ix2 k j) = x12 (ix3 (3 : Fin 5) k j) := by
  rw [val_main_v284_apply, val_main_v283_apply]
  exact congrArg x12 (funext fun a => Fin.ext (by
    match a with
    | ⟨0, _⟩ => rfl
    | ⟨1, _⟩ =>
      show (k.val * 64 + j.val) / 64 % 64 = k.val
      have := k.isLt; have := j.isLt; omega
    | ⟨2, _⟩ =>
      show (k.val * 64 + j.val) % 64 = j.val
      have := k.isLt; have := j.isLt; omega))

/-! ### The four stages of the row MLP at coordinates (n, ·) -/

/-- First linear map: u = z W1 + b1. -/
theorem l3_lin1 (n : Fin 100000) (k : Fin 64) :
    val_main_v260 (F := Ideal) x0 x1 x3 x4 x5 x6 x7 x8 x9 x10 x11 x12 x13 x14 x15 x16 x17 (ix2 n k)
      = (∑ d : Fin 64, val_main_v252 (F := Ideal) x0 x1 x3 x4 x5 x6 x7 x8 x9 x10 x11 x12 x13 x14 x15 x16 x17 (ix2 n d) * x6 (ix3 (2 : Fin 4) d k)) + x7 (ix2 (2 : Fin 4) k) := by
  rw [val_main_v260_apply, val_main_v257_apply, val_main_v259_apply, val_main_v258_apply]
  have el : ∀ d : Fin 64, lidx_main_v257 (ix2 n k) d = ix2 n d := fun d => funext fun a => by
    match a with
    | ⟨0, _⟩ => rfl
    | ⟨1, _⟩ => rfl
  have er : ∀ d : Fin 64, ridx_main_v257 (ix2 n k) d = ix2 d k := fun d => funext fun a => by
    match a with
    | ⟨0, _⟩ => rfl
    | ⟨1, _⟩ => rfl
  have eb : idx_main_v258 (idx_main_v259 (ix2 n k)) = ix1 k := funext fun a => by
    match a with
    | ⟨0, _⟩ => rfl
  simp only [el, er, eb, l3_W1, l3_b1, Ideal.addf_def]

/-- Inner batch norm and relu: a = relu (bn_a u). -/
theorem l3_hid (n : Fin 100000) (k : Fin 64) :
    val_main_v282 (F := Ideal) x0 x1 x3 x4 x5 x6 x7 x8 x9 x10 x11 x12 x13 x14 x15 x16 x17 (ix2 n k)
      = GinSpec.bnrelu (val_main_v260 (F := Ideal) x0 x1 x3 x4 x5 x6 x7 x8 x9 x10 x11 x12 x13 x14 x15 x16 x17 (ix2 n k))
          (x10 (ix2 (3 : Fin 5) k)) (x8 (ix2 (3 : Fin 5) k)) (x11 (ix2 (3 : Fin 5) k)) (x9 (ix2 (3 : Fin 5) k)) := by
  rw [val_main_v282_apply, val_main_v281_apply, val_main_v278_apply, val_main_v271_apply,
    val_main_v270_apply, val_main_v269_apply, val_main_v277_apply, val_main_v276_apply, val_main_v275_apply,
    val_main_v274_apply, val_main_v273_apply, val_main_v272_apply, val_main_cst_23_apply,
    val_main_v280_apply, val_main_v279_apply, val_main_call6_v0_apply, val_main_call6_cst_apply]
  have e1 : idx_main_v269 (idx_main_v270 (ix2 n k)) = ix1 k := funext fun a => by
    match a with
    | ⟨0, _⟩ => rfl
  have e2 : idx_main_v276 (idx_main_v277 (ix2 n k)) = ix1 k := funext fun a => by
    match a with
    | ⟨0, _⟩ => rfl
  have e3 : idx_main_v279 (idx_main_v280 (ix2 n k)) = ix1 k := funext fun a => by
    match a with
    | ⟨0, _⟩ => rfl
  rw [e1, e2, e3, l3_ma, l3_ga, l3_va, l3_bea]
  simp only [Ideal.addf_def, Ideal.subf_def, Ideal.mulf_def, Ideal.maximumf_def, Ideal.hostUnary_rsqrt_def,
    Ideal.ofBits_def, Ideal.ofBits_zero_f32]
  rfl

/-- Second linear map: v = a W2 + b2. -/
theorem l3_lin2 (n : Fin 100000) (j : Fin 64) :
    val_main_v290 (F := Ideal) x0 x1 x3 x4 x5 x6 x7 x8 x9 x10 x11 x12 x13 x14 x15 x16 x17 (ix2 n j)
      = (∑ k : Fin 64, val_main_v282 (F := Ideal) x0 x1 x3 x4 x5 x6 x7 x8 x9 x10 x11 x12 x13 x14 x15 x16 x17 (ix2 n k)
            * x12 (ix3 (3 : Fin 5) k j))
        + x13 (ix2 (3 : Fin 5) j) := by
  rw [val_main_v290_apply, val_main_v285_apply, val_main_v289_apply, val_main_v288_apply]
  have el : ∀ k : Fin 64, lidx_main_v285 (ix2 n j) k = ix2 n k := fun k => funext fun a => by
    match a with
    | ⟨0, _⟩ => rfl
    | ⟨1, _⟩ => rfl
  have er : ∀ k : Fin 64, ridx_main_v285 (ix2 n j) k = ix2 k j := fun k => funext fun a => by
    match a with
    | ⟨0, _⟩ => rfl
    | ⟨1, _⟩ => rfl
  have eb : idx_main_v288 (idx_main_v289 (ix2 n j)) = ix1 j := funext fun a => by
    match a with
    | ⟨0, _⟩ => rfl
  simp only [el, er, eb, l3_W2, l3_b2, Ideal.addf_def]

/-- Outer batch norm and relu: h' = relu (bn_b v). -/
theorem l3_out (n : Fin 100000) (j : Fin 64) :
    val_main_v312 (F := Ideal) x0 x1 x3 x4 x5 x6 x7 x8 x9 x10 x11 x12 x13 x14 x15 x16 x17 (ix2 n j)
      = GinSpec.bnrelu (val_main_v290 (F := Ideal) x0 x1 x3 x4 x5 x6 x7 x8 x9 x10 x11 x12 x13 x14 x15 x16 x17 (ix2 n j))
          (x16 (ix2 (3 : Fin 5) j)) (x14 (ix2 (3 : Fin 5) j)) (x17 (ix2 (3 : Fin 5) j)) (x15 (ix2 (3 : Fin 5) j)) := by
  rw [val_main_v312_apply, val_main_v311_apply, val_main_v308_apply, val_main_v301_apply,
    val_main_v300_apply, val_main_v299_apply, val_main_v307_apply, val_main_v306_apply, val_main_v305_apply,
    val_main_v304_apply, val_main_v303_apply, val_main_v302_apply, val_main_cst_24_apply,
    val_main_v310_apply, val_main_v309_apply, val_main_call7_v0_apply, val_main_call7_cst_apply]
  have e1 : idx_main_v299 (idx_main_v300 (ix2 n j)) = ix1 j := funext fun a => by
    match a with
    | ⟨0, _⟩ => rfl
  have e2 : idx_main_v306 (idx_main_v307 (ix2 n j)) = ix1 j := funext fun a => by
    match a with
    | ⟨0, _⟩ => rfl
  have e3 : idx_main_v309 (idx_main_v310 (ix2 n j)) = ix1 j := funext fun a => by
    match a with
    | ⟨0, _⟩ => rfl
  rw [e1, e2, e3, l3_mb, l3_gb, l3_vb, l3_beb]
  simp only [Ideal.addf_def, Ideal.subf_def, Ideal.mulf_def, Ideal.maximumf_def, Ideal.hostUnary_rsqrt_def,
    Ideal.ofBits_def, Ideal.ofBits_zero_f32]
  rfl

/-- Layer 3's node features are the row MLP of the aggregated input: (mlp_3). -/
theorem mlp_3 :
    val_main_v312 (F := Ideal) x0 x1 x3 x4 x5 x6 x7 x8 x9 x10 x11 x12 x13 x14 x15 x16 x17
      = fun i => GinSpec.mlp (fun d => val_main_v252 (F := Ideal) x0 x1 x3 x4 x5 x6 x7 x8 x9 x10 x11 x12 x13 x14 x15 x16 x17 (ix2 (i 0) d))
          (fun d k => x6 (ix3 (2 : Fin 4) d k)) (fun k => x7 (ix2 (2 : Fin 4) k))
          (fun k => x8 (ix2 (3 : Fin 5) k)) (fun k => x9 (ix2 (3 : Fin 5) k)) (fun k => x10 (ix2 (3 : Fin 5) k))
          (fun k => x11 (ix2 (3 : Fin 5) k))
          (fun k j => x12 (ix3 (3 : Fin 5) k j)) (fun k => x13 (ix2 (3 : Fin 5) k))
          (fun k => x14 (ix2 (3 : Fin 5) k)) (fun k => x15 (ix2 (3 : Fin 5) k)) (fun k => x16 (ix2 (3 : Fin 5) k))
          (fun k => x17 (ix2 (3 : Fin 5) k)) (i 1) := by
  funext i
  obtain ⟨n, j, rfl⟩ : ∃ (n : Fin 100000) (j : Fin 64), i = ix2 n j := ⟨i 0, i 1, eq_ix2 i⟩
  rw [l3_out, l3_lin2]
  simp only [l3_hid, l3_lin1]
  rfl

/-- Layer 3's readout is the sum pooling of its node features by graph id: (pool_3). The scatter's operand is the
    zero array, so its entry drops out of the sum. -/
theorem pool_3 :
    val_main_v315 (F := Ideal) x0 x1 x2 x3 x4 x5 x6 x7 x8 x9 x10 x11 x12 x13 x14 x15 x16 x17
      = fun i => GinSpec.pool
          (fun n => val_main_v312 (F := Ideal) x0 x1 x3 x4 x5 x6 x7 x8 x9 x10 x11 x12 x13 x14 x15 x16 x17 (ix2 n (i 1)))
          (fun n => x2 (ix1 n)) (i 0) := by
  funext i
  unfold val_main_v315
  refine (scatterAdd_pool _ _ _ i).trans ?_
  rw [val_main_v313_apply, val_main_cst_25_apply, Ideal.ofBits_def, Ideal.ofBits_zero_f32, zero_add]
  refine congrArg (fun b => GinSpec.pool _ b (i 0)) (funext fun n => ?_)
  rw [val_main_v314_apply]
  exact congrArg x2 (funext fun a => by
    match a with
    | ⟨0, _⟩ => rfl)

end Layer3

end Cert.ReferenceIdeal.RefValue

end
-- ==== Proof.RefLayer4.lean ====
/-
  Layer 4 of the reference network, read at the extended reals, entry by entry.
  The program computes, for every node row n: u = z W1 + b1 (a contraction over the row), a = relu (bn_a u),
  v = a W2 + b2, h' = relu (bn_b v), where bn subtracts the running mean, multiplies by gamma * rsqrt (var + eps) and adds
  beta, all per feature column; the per-column parameters are row 4 of the stacked [5, 64] arrays, the first weight matrix and bias slab 3 of the stacked [4, 64, 64] and [4, 64] arrays, broadcast down
  the rows. Each stage below is the program's stage read at (n, k); chained, row n of h' is `GinSpec.mlp` of row n of z
  (mlp_4). The layer's readout scatters h' into a zero [512, 64] array by graph id: `GinSpec.pool` of each column
  (pool_4). The aggregated input z itself (neighbour sum plus (1 + eps) times the features) is not opened: it stays the
  program's own stage.
-/
import proofs.«402532_j352187319172_1_alg».proof.Proof.RefRead
import proofs.«402532_j352187319172_1_alg».proof.Proof.Spec
import proofs.«402532_j352187319172_1_alg».proof.Proof.RefScatter

noncomputable section

namespace Cert.ReferenceIdeal.RefValue

open Cert.ReferenceIdeal Cert.ReferenceIdeal.Gen Cert.ReferenceIdeal.Read Idealize.ShloMosaic Idealize.ShloMosaic.ValueIdx

section Layer4

variable (x0 : (⟨S100000x128, .f32⟩ : BufTy).Contents (Elt Ideal)) (x1 : (⟨S2x1600000, .i32⟩ : BufTy).Contents (Elt Ideal))
  (x2 : (⟨S100000, .i32⟩ : BufTy).Contents (Elt Ideal)) (x3 : (⟨S5, .f32⟩ : BufTy).Contents (Elt Ideal))
  (x4 : (⟨S128x64, .f32⟩ : BufTy).Contents (Elt Ideal)) (x5 : (⟨S64, .f32⟩ : BufTy).Contents (Elt Ideal))
  (x6 : (⟨S4x64x64, .f32⟩ : BufTy).Contents (Elt Ideal)) (x7 : (⟨S4x64, .f32⟩ : BufTy).Contents (Elt Ideal))
  (x8 x9 x10 x11 : (⟨S5x64, .f32⟩ : BufTy).Contents (Elt Ideal)) (x12 : (⟨S5x64x64, .f32⟩ : BufTy).Contents (Elt Ideal))
  (x13 x14 x15 x16 x17 : (⟨S5x64, .f32⟩ : BufTy).Contents (Elt Ideal))
  (x18 : (⟨S320x16, .f32⟩ : BufTy).Contents (Elt Ideal)) (x19 : (⟨S16, .f32⟩ : BufTy).Contents (Elt Ideal))

/-! ### Rows of the stacked parameters: slice one row, drop the unit axis -/

/-- The first bias: row 3 of the stacked [4, 64] array. -/
theorem l4_b1 (k : Fin 64) : val_main_v335 (F := Ideal) x7 (ix1 k) = x7 (ix2 (3 : Fin 4) k) := by
  rw [val_main_v335_apply, val_main_v334_apply]
  exact congrArg x7 (funext fun a => Fin.ext (by
    match a with
    | ⟨0, _⟩ => rfl
    | ⟨1, _⟩ => exact Nat.mod_eq_of_lt k.isLt))

theorem l4_ga (k : Fin 64) : val_main_v341 (F := Ideal) x8 (ix1 k) = x8 (ix2 (4 : Fin 5) k) := by
  rw [val_main_v341_apply, val_main_v340_apply]
  exact congrArg x8 (funext fun a => Fin.ext (by
    match a with
    | ⟨0, _⟩ => rfl
    | ⟨1, _⟩ => exact Nat.mod_eq_of_lt k.isLt))

theorem l4_bea (k : Fin 64) : val_main_v343 (F := Ideal) x9 (ix1 k) = x9 (ix2 (4 : Fin 5) k) := by
  rw [val_main_v343_apply, val_main_v342_apply]
  exact congrArg x9 (funext fun a => Fin.ext (by
    match a with
    | ⟨0, _⟩ => rfl
    | ⟨1, _⟩ => exact Nat.mod_eq_of_lt k.isLt))

theorem l4_ma (k : Fin 64) : val_main_v345 (F := Ideal) x10 (ix1 k) = x10 (ix2 (4 : Fin 5) k) := by
  rw [val_main_v345_apply, val_main_v344_apply]
  exact congrArg x10 (funext fun a => Fin.ext (by
    match a with
    | ⟨0, _⟩ => rfl
    | ⟨1, _⟩ => exact Nat.mod_eq_of_lt k.isLt))

theorem l4_va (k : Fin 64) : val_main_v347 (F := Ideal) x11 (ix1 k) = x11 (ix2 (4 : Fin 5) k) := by
  rw [val_main_v347_apply, val_main_v346_apply]
  exact congrArg x11 (funext fun a => Fin.ext (by
    match a with
    | ⟨0, _⟩ => rfl
    | ⟨1, _⟩ => exact Nat.mod_eq_of_lt k.isLt))

theorem l4_b2 (k : Fin 64) : val_main_v366 (F := Ideal) x13 (ix1 k) = x13 (ix2 (4 : Fin 5) k) := by
  rw [val_main_v366_apply, val_main_v365_apply]
  exact congrArg x13 (funext fun a => Fin.ext (by
    match a with
    | ⟨0, _⟩ => rfl
    | ⟨1, _⟩ => exact Nat.mod_eq_of_lt k.isLt))

theorem l4_gb (k : Fin 64) : val_main_v371 (F := Ideal) x14 (ix1 k) = x14 (ix2 (4 : Fin 5) k) := by
  rw [val_main_v371_apply, val_main_v370_apply]
  exact congrArg x14 (funext fun a => Fin.ext (by
    match a with
    | ⟨0, _⟩ => rfl
    | ⟨1, _⟩ => exact Nat.mod_eq_of_lt k.isLt))

theorem l4_beb (k : Fin 64) : val_main_v373 (F := Ideal) x15 (ix1 k) = x15 (ix2 (4 : Fin 5) k) := by
  rw [val_main_v373_apply, val_main_v372_apply]
  exact congrArg x15 (funext fun a => Fin.ext (by
    match a with
    | ⟨0, _⟩ => rfl
    | ⟨1, _⟩ => exact Nat.mod_eq_of_lt k.isLt))

theorem l4_mb (k : Fin 64) : val_main_v375 (F := Ideal) x16 (ix1 k) = x16 (ix2 (4 : Fin 5) k) := by
  rw [val_main_v375_apply, val_main_v374_apply]
  exact congrArg x16 (funext fun a => Fin.ext (by
    match a with
    | ⟨0, _⟩ => rfl
    | ⟨1, _⟩ => exact Nat.mod_eq_of_lt k.isLt))

theorem l4_vb (k : Fin 64) : val_main_v377 (F := Ideal) x17 (ix1 k) = x17 (ix2 (4 : Fin 5) k) := by
  rw [val_main_v377_apply, val_main_v376_apply]
  exact congrArg x17 (funext fun a => Fin.ext (by
    match a with
    | ⟨0, _⟩ => rfl
    | ⟨1, _⟩ => exact Nat.mod_eq_of_lt k.isLt))

/-- The first weight matrix: slab 3 of the stacked [4, 64, 64] array. -/
theorem l4_W1 (d k : Fin 64) : val_main_v333 (F := Ideal) x6 (ix2 d k) = x6 (ix3 (3 : Fin 4) d k) := by
  rw [val_main_v333_apply, val_main_v332_apply]
  exact congrArg x6 (funext fun a => Fin.ext (by
    match a with
    | ⟨0, _⟩ => rfl
    | ⟨1, _⟩ =>
      show (d.val * 64 + k.val) / 64 % 64 = d.val
      have := d.isLt; have := k.isLt; omega
    | ⟨2, _⟩ =>
      show (d.val * 64 + k.val) % 64 = k.val
      have := d.isLt; have := k.isLt; omega))

/-- The second weight matrix: slab 4 of the stacked [5, 64, 64] array. -/
theorem l4_W2 (k j : Fin 64) : val_main_v363 (F := Ideal) x12 (ix2 k j) = x12 (ix3 (4 : Fin 5) k j) := by
  rw [val_main_v363_apply, val_main_v362_apply]
  exact congrArg x12 (funext fun a => Fin.ext (by
    match a with
    | ⟨0, _⟩ => rfl
    | ⟨1, _⟩ =>
      show (k.val * 64 + j.val) / 64 % 64 = k.val
      have := k.isLt; have := j.isLt; omega
    | ⟨2, _⟩ =>
      show (k.val * 64 + j.val) % 64 = j.val
      have := k.isLt; have := j.isLt; omega))

/-! ### The four stages of the row MLP at coordinates (n, ·) -/

/-- First linear map: u = z W1 + b1. -/
theorem l4_lin1 (n : Fin 100000) (k : Fin 64) :
    val_main_v339 (F := Ideal) x0 x1 x3 x4 x5 x6 x7 x8 x9 x10 x11 x12 x13 x14 x15 x16 x17 (ix2 n k)
      = (∑ d : Fin 64, val_main_v331 (F := Ideal) x0 x1 x3 x4 x5 x6 x7 x8 x9 x10 x11 x12 x13 x14 x15 x16 x17 (ix2 n d) * x6 (ix3 (3 : Fin 4) d k)) + x7 (ix2 (3 : Fin 4) k) := by
  rw [val_main_v339_apply, val_main_v336_apply, val_main_v338_apply, val_main_v337_apply]
  have el : ∀ d : Fin 64, lidx_main_v336 (ix2 n k) d = ix2 n d := fun d => funext fun a => by
    match a with
    | ⟨0, _⟩ => rfl
    | ⟨1, _⟩ => rfl
  have er : ∀ d : Fin 64, ridx_main_v336 (ix2 n k) d = ix2 d k := fun d => funext fun a => by
    match a with
    | ⟨0, _⟩ => rfl
    | ⟨1, _⟩ => rfl
  have eb : idx_main_v337 (idx_main_v338 (ix2 n k)) = ix1 k := funext fun a => by
    match a with
    | ⟨0, _⟩ => rfl
  simp only [el, er, eb, l4_W1, l4_b1, Ideal.addf_def]

/-- Inner batch norm and relu: a = relu (bn_a u). -/
theorem l4_hid (n : Fin 100000) (k : Fin 64) :
    val_main_v361 (F := Ideal) x0 x1 x3 x4 x5 x6 x7 x8 x9 x10 x11 x12 x13 x14 x15 x16 x17 (ix2 n k)
      = GinSpec.bnrelu (val_main_v339 (F := Ideal) x0 x1 x3 x4 x5 x6 x7 x8 x9 x10 x11 x12 x13 x14 x15 x16 x17 (ix2 n k))
          (x10 (ix2 (4 : Fin 5) k)) (x8 (ix2 (4 : Fin 5) k)) (x11 (ix2 (4 : Fin 5) k)) (x9 (ix2 (4 : Fin 5) k)) := by
  rw [val_main_v361_apply, val_main_v360_apply, val_main_v357_apply, val_main_v350_apply,
    val_main_v349_apply, val_main_v348_apply, val_main_v356_apply, val_main_v355_apply, val_main_v354_apply,
    val_main_v353_apply, val_main_v352_apply, val_main_v351_apply, val_main_cst_30_apply,
    val_main_v359_apply, val_main_v358_apply, val_main_call8_v0_apply, val_main_call8_cst_apply]
  have e1 : idx_main_v348 (idx_main_v349 (ix2 n k)) = ix1 k := funext fun a => by
    match a with
    | ⟨0, _⟩ => rfl
  have e2 : idx_main_v355 (idx_main_v356 (ix2 n k)) = ix1 k := funext fun a => by
    match a with
    | ⟨0, _⟩ => rfl
  have e3 : idx_main_v358 (idx_main_v359 (ix2 n k)) = ix1 k := funext fun a => by
    match a with
    | ⟨0, _⟩ => rfl
  rw [e1, e2, e3, l4_ma, l4_ga, l4_va, l4_bea]
  simp only [Ideal.addf_def, Ideal.subf_def, Ideal.mulf_def, Ideal.maximumf_def, Ideal.hostUnary_rsqrt_def,
    Ideal.ofBits_def, Ideal.ofBits_zero_f32]
  rfl

/-- Second linear map: v = a W2 + b2. -/
theorem l4_lin2 (n : Fin 100000) (j : Fin 64) :
    val_main_v369 (F := Ideal) x0 x1 x3 x4 x5 x6 x7 x8 x9 x10 x11 x12 x13 x14 x15 x16 x17 (ix2 n j)
      = (∑ k : Fin 64, val_main_v361 (F := Ideal) x0 x1 x3 x4 x5 x6 x7 x8 x9 x10 x11 x12 x13 x14 x15 x16 x17 (ix2 n k)
            * x12 (ix3 (4 : Fin 5) k j))
        + x13 (ix2 (4 : Fin 5) j) := by
  rw [val_main_v369_apply, val_main_v364_apply, val_main_v368_apply, val_main_v367_apply]
  have el : ∀ k : Fin 64, lidx_main_v364 (ix2 n j) k = ix2 n k := fun k => funext fun a => by
    match a with
    | ⟨0, _⟩ => rfl
    | ⟨1, _⟩ => rfl
  have er : ∀ k : Fin 64, ridx_main_v364 (ix2 n j) k = ix2 k j := fun k => funext fun a => by
    match a with
    | ⟨0, _⟩ => rfl
    | ⟨1, _⟩ => rfl
  have eb : idx_main_v367 (idx_main_v368 (ix2 n j)) = ix1 j := funext fun a => by
    match a with
    | ⟨0, _⟩ => rfl
  simp only [el, er, eb, l4_W2, l4_b2, Ideal.addf_def]

/-- Outer batch norm and relu: h' = relu (bn_b v). -/
theorem l4_out (n : Fin 100000) (j : Fin 64) :
    val_main_v391 (F := Ideal) x0 x1 x3 x4 x5 x6 x7 x8 x9 x10 x11 x12 x13 x14 x15 x16 x17 (ix2 n j)
      = GinSpec.bnrelu (val_main_v369 (F := Ideal) x0 x1 x3 x4 x5 x6 x7 x8 x9 x10 x11 x12 x13 x14 x15 x16 x17 (ix2 n j))
          (x16 (ix2 (4 : Fin 5) j)) (x14 (ix2 (4 : Fin 5) j)) (x17 (ix2 (4 : Fin 5) j)) (x15 (ix2 (4 : Fin 5) j)) := by
  rw [val_main_v391_apply, val_main_v390_apply, val_main_v387_apply, val_main_v380_apply,
    val_main_v379_apply, val_main_v378_apply, val_main_v386_apply, val_main_v385_apply, val_main_v384_apply,
    val_main_v383_apply, val_main_v382_apply, val_main_v381_apply, val_main_cst_31_apply,
    val_main_v389_apply, val_main_v388_apply, val_main_call9_v0_apply, val_main_call9_cst_apply]
  have e1 : idx_main_v378 (idx_main_v379 (ix2 n j)) = ix1 j := funext fun a => by
    match a with
    | ⟨0, _⟩ => rfl
  have e2 : idx_main_v385 (idx_main_v386 (ix2 n j)) = ix1 j := funext fun a => by
    match a with
    | ⟨0, _⟩ => rfl
  have e3 : idx_main_v388 (idx_main_v389 (ix2 n j)) = ix1 j := funext fun a => by
    match a with
    | ⟨0, _⟩ => rfl
  rw [e1, e2, e3, l4_mb, l4_gb, l4_vb, l4_beb]
  simp only [Ideal.addf_def, Ideal.subf_def, Ideal.mulf_def, Ideal.maximumf_def, Ideal.hostUnary_rsqrt_def,
    Ideal.ofBits_def, Ideal.ofBits_zero_f32]
  rfl

/-- Layer 4's node features are the row MLP of the aggregated input: (mlp_4). -/
theorem mlp_4 :
    val_main_v391 (F := Ideal) x0 x1 x3 x4 x5 x6 x7 x8 x9 x10 x11 x12 x13 x14 x15 x16 x17
      = fun i => GinSpec.mlp (fun d => val_main_v331 (F := Ideal) x0 x1 x3 x4 x5 x6 x7 x8 x9 x10 x11 x12 x13 x14 x15 x16 x17 (ix2 (i 0) d))
          (fun d k => x6 (ix3 (3 : Fin 4) d k)) (fun k => x7 (ix2 (3 : Fin 4) k))
          (fun k => x8 (ix2 (4 : Fin 5) k)) (fun k => x9 (ix2 (4 : Fin 5) k)) (fun k => x10 (ix2 (4 : Fin 5) k))
          (fun k => x11 (ix2 (4 : Fin 5) k))
          (fun k j => x12 (ix3 (4 : Fin 5) k j)) (fun k => x13 (ix2 (4 : Fin 5) k))
          (fun k => x14 (ix2 (4 : Fin 5) k)) (fun k => x15 (ix2 (4 : Fin 5) k)) (fun k => x16 (ix2 (4 : Fin 5) k))
          (fun k => x17 (ix2 (4 : Fin 5) k)) (i 1) := by
  funext i
  obtain ⟨n, j, rfl⟩ : ∃ (n : Fin 100000) (j : Fin 64), i = ix2 n j := ⟨i 0, i 1, eq_ix2 i⟩
  rw [l4_out, l4_lin2]
  simp only [l4_hid, l4_lin1]
  rfl

/-- Layer 4's readout is the sum pooling of its node features by graph id: (pool_4). The scatter's operand is the
    zero array, so its entry drops out of the sum. -/
theorem pool_4 :
    val_main_v394 (F := Ideal) x0 x1 x2 x3 x4 x5 x6 x7 x8 x9 x10 x11 x12 x13 x14 x15 x16 x17
      = fun i => GinSpec.pool
          (fun n => val_main_v391 (F := Ideal) x0 x1 x3 x4 x5 x6 x7 x8 x9 x10 x11 x12 x13 x14 x15 x16 x17 (ix2 n (i 1)))
          (fun n => x2 (ix1 n)) (i 0) := by
  funext i
  unfold val_main_v394
  refine (scatterAdd_pool _ _ _ i).trans ?_
  rw [val_main_v392_apply, val_main_cst_32_apply, Ideal.ofBits_def, Ideal.ofBits_zero_f32, zero_add]
  refine congrArg (fun b => GinSpec.pool _ b (i 0)) (funext fun n => ?_)
  rw [val_main_v393_apply]
  exact congrArg x2 (funext fun a => by
    match a with
    | ⟨0, _⟩ => rfl)

end Layer4

end Cert.ReferenceIdeal.RefValue

end
-- ==== Proof.Bridge.lean ====
/- THE JOIN of the two programs' values at the extended reals. The reference's stages (its aggregated input, node features
   and pooled readout of each of the five layers, and its result) are the kernel side's closed forms `Chain.Z l`,
   `Chain.H (l + 1)`, `Chain.RO l`, `Chain.Out` of the same argument arrays, layer by layer: an aggregation is the same host
   function of the previous layer's features on both sides, the features are the row MLP `GinSpec.mlp` of the aggregation,
   the readout the sum pooling `GinSpec.pool` of the features, the result the classifier on the five readouts. Each step
   rewrites the previous one inside the next stage and opens one closed form by one step; no sum is opened. Beside it:
   the kernel's run with its result buffer named (`Gen.run_value`), read off `Gen.run_all`. -/
import proofs.«402532_j352187319172_1_alg».proof.Proof.KIRun
import proofs.«402532_j352187319172_1_alg».proof.Proof.KIChainAbs
import proofs.«402532_j352187319172_1_alg».proof.Proof.KIHostRef
import proofs.«402532_j352187319172_1_alg».proof.Proof.RefLayer0
import proofs.«402532_j352187319172_1_alg».proof.Proof.RefLayer1
import proofs.«402532_j352187319172_1_alg».proof.Proof.RefLayer2
import proofs.«402532_j352187319172_1_alg».proof.Proof.RefLayer3
import proofs.«402532_j352187319172_1_alg».proof.Proof.RefLayer4

set_option maxRecDepth 16384

noncomputable section

namespace Cert.Bridge

open Idealize.ShloMosaic Idealize.ShloMosaic.ValueIdx
open Cert.ReferenceIdeal.Read Cert.ReferenceIdeal.RefValue Cert.KernelIdeal.Chain Cert.KernelIdeal.HostVal Cert.HostRef

variable (x0 : (⟨Cert.ReferenceIdeal.S100000x128, .f32⟩ : BufTy).Contents (Elt Ideal)) (x1 : (⟨Cert.ReferenceIdeal.S2x1600000, .i32⟩ : BufTy).Contents (Elt Ideal))
  (x2 : (⟨Cert.ReferenceIdeal.S100000, .i32⟩ : BufTy).Contents (Elt Ideal)) (x3 : (⟨Cert.ReferenceIdeal.S5, .f32⟩ : BufTy).Contents (Elt Ideal))
  (x4 : (⟨Cert.ReferenceIdeal.S128x64, .f32⟩ : BufTy).Contents (Elt Ideal)) (x5 : (⟨Cert.ReferenceIdeal.S64, .f32⟩ : BufTy).Contents (Elt Ideal))
  (x6 : (⟨Cert.ReferenceIdeal.S4x64x64, .f32⟩ : BufTy).Contents (Elt Ideal)) (x7 : (⟨Cert.ReferenceIdeal.S4x64, .f32⟩ : BufTy).Contents (Elt Ideal))
  (x8 x9 x10 x11 : (⟨Cert.ReferenceIdeal.S5x64, .f32⟩ : BufTy).Contents (Elt Ideal)) (x12 : (⟨Cert.ReferenceIdeal.S5x64x64, .f32⟩ : BufTy).Contents (Elt Ideal))
  (x13 x14 x15 x16 x17 : (⟨Cert.ReferenceIdeal.S5x64, .f32⟩ : BufTy).Contents (Elt Ideal))
  (x18 : (⟨Cert.ReferenceIdeal.S320x16, .f32⟩ : BufTy).Contents (Elt Ideal)) (x19 : (⟨Cert.ReferenceIdeal.S16, .f32⟩ : BufTy).Contents (Elt Ideal))

/-- Layer 0's aggregated input: the same host function of the features, the edge list and eps on both sides. -/
theorem z0 : val_main_v19 (F := Ideal) x0 x1 x3 = Z0 x0 x1 x3 := (agg128_eq_ref x0 x1 x3).symm

/-- Layer 0's node features: the row MLP of the aggregated input, which is `Z0`. -/
theorem h1 : val_main_v75 (F := Ideal) x0 x1 x3 x4 x5 x8 x9 x10 x11 x12 x13 x14 x15 x16 x17 = H1 x0 x1 x3 x4 x5 x8 x9 x10 x11 x12 x13 x14 x15 x16 x17 := by
  rw [mlp_0, z0]; rfl
/-- Layer 0's readout: the sum pooling of the node features, which are `H1`. -/
theorem ro0 : val_main_v78 (F := Ideal) x0 x1 x2 x3 x4 x5 x8 x9 x10 x11 x12 x13 x14 x15 x16 x17 = RO0 x0 x1 x2 x3 x4 x5 x8 x9 x10 x11 x12 x13 x14 x15 x16 x17 := by
  rw [pool_0, h1]; rfl
/-- Layer 1's aggregated input: the host's aggregation of layer 0's node features, which are `H1`. -/
theorem z1 : val_main_v94 (F := Ideal) x0 x1 x3 x4 x5 x8 x9 x10 x11 x12 x13 x14 x15 x16 x17 = Z1 x0 x1 x3 x4 x5 x8 x9 x10 x11 x12 x13 x14 x15 x16 x17 := by
  rw [← agg64_1_eq_ref x0 x1 x3 x4 x5 x8 x9 x10 x11 x12 x13 x14 x15 x16 x17, h1]; rfl

/-- Layer 1's node features: the row MLP of the aggregated input, which is `Z1`. -/
theorem h2 : val_main_v154 (F := Ideal) x0 x1 x3 x4 x5 x6 x7 x8 x9 x10 x11 x12 x13 x14 x15 x16 x17 = H2 x0 x1 x3 x4 x5 x6 x7 x8 x9 x10 x11 x12 x13 x14 x15 x16 x17 := by
  rw [mlp_1, z1]; rfl
/-- Layer 1's readout: the sum pooling of the node features, which are `H2`. -/
theorem ro1 : val_main_v157 (F := Ideal) x0 x1 x2 x3 x4 x5 x6 x7 x8 x9 x10 x11 x12 x13 x14 x15 x16 x17 = RO1 x0 x1 x2 x3 x4 x5 x6 x7 x8 x9 x10 x11 x12 x13 x14 x15 x16 x17 := by
  rw [pool_1, h2]; rfl
/-- Layer 2's aggregated input: the host's aggregation of layer 1's node features, which are `H2`. -/
theorem z2 : val_main_v173 (F := Ideal) x0 x1 x3 x4 x5 x6 x7 x8 x9 x10 x11 x12 x13 x14 x15 x16 x17 = Z2 x0 x1 x3 x4 x5 x6 x7 x8 x9 x10 x11 x12 x13 x14 x15 x16 x17 := by
  rw [← agg64_2_eq_ref x0 x1 x3 x4 x5 x6 x7 x8 x9 x10 x11 x12 x13 x14 x15 x16 x17, h2]; rfl

/-- Layer 2's node features: the row MLP of the aggregated input, which is `Z2`. -/
theorem h3 : val_main_v233 (F := Ideal) x0 x1 x3 x4 x5 x6 x7 x8 x9 x10 x11 x12 x13 x14 x15 x16 x17 = H3 x0 x1 x3 x4 x5 x6 x7 x8 x9 x10 x11 x12 x13 x14 x15 x16 x17 := by
  rw [mlp_2, z2]; rfl
/-- Layer 2's readout: the sum pooling of the node features, which are `H3`. -/
theorem ro2 : val_main_v236 (F := Ideal) x0 x1 x2 x3 x4 x5 x6 x7 x8 x9 x10 x11 x12 x13 x14 x15 x16 x17 = RO2 x0 x1 x2 x3 x4 x5 x6 x7 x8 x9 x10 x11 x12 x13 x14 x15 x16 x17 := by
  rw [pool_2, h3]; rfl
/-- Layer 3's aggregated input: the host's aggregation of layer 2's node features, which are `H3`. -/
theorem z3 : val_main_v252 (F := Ideal) x0 x1 x3 x4 x5 x6 x7 x8 x9 x10 x11 x12 x13 x14 x15 x16 x17 = Z3 x0 x1 x3 x4 x5 x6 x7 x8 x9 x10 x11 x12 x13 x14 x15 x16 x17 := by
  rw [← agg64_3_eq_ref x0 x1 x3 x4 x5 x6 x7 x8 x9 x10 x11 x12 x13 x14 x15 x16 x17, h3]; rfl

/-- Layer 3's node features: the row MLP of the aggregated input, which is `Z3`. -/
theorem h4 : val_main_v312 (F := Ideal) x0 x1 x3 x4 x5 x6 x7 x8 x9 x10 x11 x12 x13 x14 x15 x16 x17 = H4 x0 x1 x3 x4 x5 x6 x7 x8 x9 x10 x11 x12 x13 x14 x15 x16 x17 := by
  rw [mlp_3, z3]; rfl
/-- Layer 3's readout: the sum pooling of the node features, which are `H4`. -/
theorem ro3 : val_main_v315 (F := Ideal) x0 x1 x2 x3 x4 x5 x6 x7 x8 x9 x10 x11 x12 x13 x14 x15 x16 x17 = RO3 x0 x1 x2 x3 x4 x5 x6 x7 x8 x9 x10 x11 x12 x13 x14 x15 x16 x17 := by
  rw [pool_3, h4]; rfl
/-- Layer 4's aggregated input: the host's aggregation of layer 3's node features, which are `H4`. -/
theorem z4 : val_main_v331 (F := Ideal) x0 x1 x3 x4 x5 x6 x7 x8 x9 x10 x11 x12 x13 x14 x15 x16 x17 = Z4 x0 x1 x3 x4 x5 x6 x7 x8 x9 x10 x11 x12 x13 x14 x15 x16 x17 := by
  rw [← agg64_4_eq_ref x0 x1 x3 x4 x5 x6 x7 x8 x9 x10 x11 x12 x13 x14 x15 x16 x17, h4]; rfl

/-- Layer 4's node features: the row MLP of the aggregated input, which is `Z4`. -/
theorem h5 : val_main_v391 (F := Ideal) x0 x1 x3 x4 x5 x6 x7 x8 x9 x10 x11 x12 x13 x14 x15 x16 x17 = H5 x0 x1 x3 x4 x5 x6 x7 x8 x9 x10 x11 x12 x13 x14 x15 x16 x17 := by
  rw [mlp_4, z4]; rfl
/-- Layer 4's readout: the sum pooling of the node features, which are `H5`. -/
theorem ro4 : val_main_v394 (F := Ideal) x0 x1 x2 x3 x4 x5 x6 x7 x8 x9 x10 x11 x12 x13 x14 x15 x16 x17 = RO4 x0 x1 x2 x3 x4 x5 x6 x7 x8 x9 x10 x11 x12 x13 x14 x15 x16 x17 := by
  rw [pool_4, h5]; rfl

/-- THE JOIN: the reference's result stage is the kernel side's closed form of the same twenty arrays — the classifier on
    the five readouts, each rewritten by its layer's equation. -/
theorem result_join : val_main_v399 (F := Ideal) x0 x1 x2 x3 x4 x5 x6 x7 x8 x9 x10 x11 x12 x13 x14 x15 x16 x17 x18 x19 = Out x0 x1 x2 x3 x4 x5 x6 x7 x8 x9 x10 x11 x12 x13 x14 x15 x16 x17 x18 x19 := by
  rw [← tailK_eq_ref x0 x1 x2 x3 x4 x5 x6 x7 x8 x9 x10 x11 x12 x13 x14 x15 x16 x17 x18 x19, ro0, ro1, ro2, ro3, ro4]; rfl

end Cert.Bridge

namespace Cert.KernelIdeal.Gen

open Idealize.ShloMosaic Idealize.ShloMosaic.TcCoe Idealize.SL.Sem

variable {F : FTy → Type} [FloatOps F]
variable (m : (ℓ : Loc nD τ sig) → Buf (Elt F) ℓ) (ρ : Dev nD → PrngReg)

/-- THE RUN WITH ITS RESULT NAMED: every weakly fair execution of @main terminates, the result buffer `main_v265` ends at
    the fold's last contents there and every argument array as launched — `run_all` read at these 21 unscoped buffers. -/
theorem run_value : θ_run defs (onTc (τ := τ) (main (F := F))) ⟨m, fun _ => 0, ρ⟩ (fun r => ∀ c : Dev nD,
      r.2.mem ((c.tc : Thread nD τ).loc main_v265) = W11 m c (Proc.devRef .tc main_v265)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)) :=
  (θ_run defs _ _).mono (fun r h c =>
    ⟨h c _ (mem_uc main_v265 (by decide)),
      (h c _ (mem_uc main_arg0 (by decide))).trans (W11_main_arg0 m c),
      (h c _ (mem_uc main_arg1 (by decide))).trans (W11_main_arg1 m c),
      (h c _ (mem_uc main_arg2 (by decide))).trans (W11_main_arg2 m c),
      (h c _ (mem_uc main_arg3 (by decide))).trans (W11_main_arg3 m c),
      (h c _ (mem_uc main_arg4 (by decide))).trans (W11_main_arg4 m c),
      (h c _ (mem_uc main_arg5 (by decide))).trans (W11_main_arg5 m c),
      (h c _ (mem_uc main_arg6 (by decide))).trans (W11_main_arg6 m c),
      (h c _ (mem_uc main_arg7 (by decide))).trans (W11_main_arg7 m c),
      (h c _ (mem_uc main_arg8 (by decide))).trans (W11_main_arg8 m c),
      (h c _ (mem_uc main_arg9 (by decide))).trans (W11_main_arg9 m c),
      (h c _ (mem_uc main_arg10 (by decide))).trans (W11_main_arg10 m c),
      (h c _ (mem_uc main_arg11 (by decide))).trans (W11_main_arg11 m c),
      (h c _ (mem_uc main_arg12 (by decide))).trans (W11_main_arg12 m c),
      (h c _ (mem_uc main_arg13 (by decide))).trans (W11_main_arg13 m c),
      (h c _ (mem_uc main_arg14 (by decide))).trans (W11_main_arg14 m c),
      (h c _ (mem_uc main_arg15 (by decide))).trans (W11_main_arg15 m c),
      (h c _ (mem_uc main_arg16 (by decide))).trans (W11_main_arg16 m c),
      (h c _ (mem_uc main_arg17 (by decide))).trans (W11_main_arg17 m c),
      (h c _ (mem_uc main_arg18 (by decide))).trans (W11_main_arg18 m c),
      (h c _ (mem_uc main_arg19 (by decide))).trans (W11_main_arg19 m c)⟩)
    (run_all m ρ)

end Cert.KernelIdeal.Gen

end
-- ==== Proof.lean ====
/- The proof of `Cert.Claim`: each program's frame from its run over the unscoped buffers (the kernel's two instances) or its
   run's post (the reference); the idealization rewrote nothing; and at the extended reals both programs end at ONE function
   of the argument arrays, the kernel side's closed form `Chain.Out` (the fold's last contents, `Chain.result_eq'`; the reference's result stage, `Bridge.result_join`). -/
import proofs.«402532_j352187319172_1_alg».proof.Defs
import proofs.«402532_j352187319172_1_alg».proof.Proof.Gen.Kernel
import proofs.«402532_j352187319172_1_alg».proof.Proof.Gen.KernelIdeal
import proofs.«402532_j352187319172_1_alg».proof.Proof.Gen.ReferenceIdeal
import proofs.«402532_j352187319172_1_alg».proof.Proof.RefRunH
import proofs.«402532_j352187319172_1_alg».proof.Proof.Gen.Pre_finite_inputs
import proofs.«402532_j352187319172_1_alg».proof.Proof.KRun
import proofs.«402532_j352187319172_1_alg».proof.Proof.KIRun
import proofs.«402532_j352187319172_1_alg».proof.Proof.KIChain
import proofs.«402532_j352187319172_1_alg».proof.Proof.Bridge

noncomputable section

namespace Cert.Proof

open Idealize.ShloMosaic Idealize.ShloMosaic.TcCoe Idealize.SL.Sem

/-- The kernel as printed runs and leaves its arguments as launched. -/
theorem frame_k : Cert.frame_Kernel := fun m ρ _ => Cert.Kernel.Gen.frame m ρ
/-- So does its reading at the extended reals. -/
theorem frame_ki : Cert.frame_KernelIdeal := fun m ρ _ => Cert.KernelIdeal.Gen.frame m ρ
/-- So does the reference: the second half of its run's post. -/
theorem frame_ri : Cert.frame_ReferenceIdeal := fun m ρ _ =>
  (θ_run Cert.ReferenceIdeal.defs _ _).mono (fun _ h c => (h c).2) (Cert.ReferenceIdeal.RefValue.ref_run m ρ)
/-- The ideal pass rewrote no operation: nothing to restate. -/
theorem preserves : Cert.preserves_Kernel_KernelIdeal := trivial

/-- At the extended reals, from memories that agree on the twenty arguments, the kernel's result buffer ends at the fold's
    last contents, which is `Chain.Out` of the arguments; the reference's at its result stage of the same arrays, which is
    `Chain.Out` of them too. -/
theorem algebraic : Cert.algebraic_KernelIdeal_ReferenceIdeal := by
  intro m ρ m' ρ' _ hagree
  refine ⟨fun c => Cert.KernelIdeal.Gen.W11 m c (Proc.devRef .tc Cert.KernelIdeal.main_v265),
    Cert.KernelIdeal.Gen.run_value (F := Ideal) m ρ, ?_⟩
  refine (θ_run Cert.ReferenceIdeal.defs _ _).mono (fun _ h c => ⟨(h c).1.trans ?_, (h c).2⟩)
    (Cert.ReferenceIdeal.RefValue.ref_run m' ρ')
  rw [(hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2.1, (hagree c).2.2.2.2.2.2.2.2.2.2.2.2.1, (hagree c).2.2.2.2.2.2.2.2.2.2.2.2.2.1, (hagree c).2.2.2.2.2.2.2.2.2.2.2.2.2.2.1, (hagree c).2.2.2.2.2.2.2.2.2.2.2.2.2.2.2.1, (hagree c).2.2.2.2.2.2.2.2.2.2.2.2.2.2.2.2.1, (hagree c).2.2.2.2.2.2.2.2.2.2.2.2.2.2.2.2.2.1, (hagree c).2.2.2.2.2.2.2.2.2.2.2.2.2.2.2.2.2.2.1, (hagree c).2.2.2.2.2.2.2.2.2.2.2.2.2.2.2.2.2.2.2,
    Cert.Bridge.result_join]
  exact (Cert.KernelIdeal.Chain.result_eq' m c).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
